-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v581)) (v1 : (c : Dev Cert.KernelIdeal.nD) → Buf (Elt Ideal) ((c.tc : Thread Cert.KernelIdeal.nD Cert.KernelIdeal.τ).loc Cert.KernelIdeal.main_v596)) (v2 : (c : Dev Cert.KernelIdeal.nD) → Buf (Elt Ideal) ((c.tc : Thread Cert.KernelIdeal.nD Cert.KernelIdeal.τ).loc Cert.KernelIdeal.main_v611)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v581) = v0 c
          ∧ r.2.mem ((c.tc : Thread Cert.KernelIdeal.nD Cert.KernelIdeal.τ).loc Cert.KernelIdeal.main_v596) = v1 c
          ∧ r.2.mem ((c.tc : Thread Cert.KernelIdeal.nD Cert.KernelIdeal.τ).loc Cert.KernelIdeal.main_v611) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v769) = v0 c
          ∧ r.2.mem ((c.tc : Thread Cert.ReferenceIdeal.nD Cert.ReferenceIdeal.τ).loc Cert.ReferenceIdeal.main_v774) = v1 c
          ∧ r.2.mem ((c.tc : Thread Cert.ReferenceIdeal.nD Cert.ReferenceIdeal.τ).loc Cert.ReferenceIdeal.main_v779) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S30000x128 : Shape := ⟨2, ![30000, 128]⟩
abbrev S10000x128 : Shape := ⟨2, ![10000, 128]⟩
abbrev S800000 : Shape := ⟨1, ![800000]⟩
abbrev S400000 : Shape := ⟨1, ![400000]⟩
abbrev S4x6x128x128 : Shape := ⟨4, ![4, 6, 128, 128]⟩
abbrev S4x6x128 : Shape := ⟨3, ![4, 6, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S4x6x128x128 : S_.BroadcastsInDim S4x6x128x128 (![] : Fin 0 → Fin S4x6x128x128.rank)
  reducesTo_S4x6x128x128_S_d0_1_2_3 : S4x6x128x128.ReducesTo [0, 1, 2, 3] S_
  bcast_S_S4x6x128 : S_.BroadcastsInDim S4x6x128 (![] : Fin 0 → Fin S4x6x128.rank)
  reducesTo_S4x6x128_S_d0_1_2 : S4x6x128.ReducesTo [0, 1, 2] S_

variable [Facts]

def fn_part1 {F : FTy → Type} [FloatOps F] (main_arg16 : FVec F S4x6x128x128 .f32) (main_arg17 : FVec F S4x6x128 .f32) (main_v13 : IVec S_ 1) (main_v16 : IVec S4x6x128x128 1) : IVec S_ 1 :=
  let main_c_5 : IVec S_ 1 := constantI S_ 1 1#1
  let main_v17 : IVec S_ 1 := (fun x v => Host.reduce IntOp.andi x v reducesTo_S4x6x128x128_S_d0_1_2_3 h_S_) main_v16 main_c_5
  let main_v18 : IVec S_ 1 := andi main_v13 main_v17
  let main_v19 : FVec F S4x6x128x128 .f32 := Host.absf main_arg16
  let main_cst_6 : FVec F S_ .f32 := constant S_ .f32 0x7F800000#32
  let main_v20 : FVec F S4x6x128x128 .f32 := broadcastInDim S4x6x128x128 ![] bcast_S_S4x6x128x128 main_cst_6
  let main_v21 : IVec S4x6x128x128 1 := cmpf .olt main_v19 main_v20
  let main_c_7 : IVec S_ 1 := constantI S_ 1 1#1
  let main_v22 : IVec S_ 1 := (fun x v => Host.reduce IntOp.andi x v reducesTo_S4x6x128x128_S_d0_1_2_3 h_S_) main_v21 main_c_7
  let main_v23 : IVec S_ 1 := andi main_v18 main_v22
  let main_v24 : FVec F S4x6x128 .f32 := Host.absf main_arg17
  let main_cst_8 : FVec F S_ .f32 := constant S_ .f32 0x7F800000#32
  let main_v25 : FVec F S4x6x128 .f32 := broadcastInDim S4x6x128 ![] bcast_S_S4x6x128 main_cst_8
  let main_v26 : IVec S4x6x128 1 := cmpf .olt main_v24 main_v25
  let main_c_9 : IVec S_ 1 := constantI S_ 1 1#1
  let main_v27 : IVec S_ 1 := (fun x v => Host.reduce IntOp.andi x v reducesTo_S4x6x128_S_d0_1_2 h_S_) main_v26 main_c_9
  let main_v28 : IVec S_ 1 := andi main_v23 main_v27
  main_v28

def fn {F : FTy → Type} [FloatOps F] (main_arg0 : FVec F S50000x128 .f32) (main_arg1 : FVec F S30000x128 .f32) (main_arg2 : FVec F S10000x128 .f32) (main_arg3 : IVec S800000 32) (main_arg4 : IVec S800000 32) (main_arg5 : IVec S400000 32) (main_arg6 : IVec S400000 32) (main_arg7 : IVec S800000 32) (main_arg8 : IVec S800000 32) (main_arg9 : IVec S800000 32) (main_arg10 : IVec S800000 32) (main_arg11 : IVec S400000 32) (main_arg12 : IVec S400000 32) (main_arg13 : IVec S800000 32) (main_arg14 : IVec S800000 32) (main_arg15 : FVec F S4x6x128x128 .f32) (main_arg16 : FVec F S4x6x128x128 .f32) (main_arg17 : FVec F S4x6x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S4x6x128x128 .f32 := Host.absf main_arg15
  let main_cst_4 : FVec F S_ .f32 := constant S_ .f32 0x7F800000#32
  let main_v15 : FVec F S4x6x128x128 .f32 := broadcastInDim S4x6x128x128 ![] bcast_S_S4x6x128x128 main_cst_4
  let main_v16 : IVec S4x6x128x128 1 := cmpf .olt main_v14 main_v15
  fn_part1 (F := F) main_arg16 main_arg17 main_v13 main_v16
-- ==== Kernel.lean ====
abbrev S50000x128 : Shape := ⟨2, ![50000, 128]⟩
abbrev S30000x128 : Shape := ⟨2, ![30000, 128]⟩
abbrev S10000x128 : Shape := ⟨2, ![10000, 128]⟩
abbrev S800000 : Shape := ⟨1, ![800000]⟩
abbrev S400000 : Shape := ⟨1, ![400000]⟩
abbrev S4x6x128x128 : Shape := ⟨4, ![4, 6, 128, 128]⟩
abbrev S4x6x128 : Shape := ⟨3, ![4, 6, 128]⟩
abbrev S_ : Shape := ⟨0, ![]⟩
abbrev S800000x1 : Shape := ⟨2, ![800000, 1]⟩
abbrev S800000x128 : Shape := ⟨2, ![800000, 128]⟩
abbrev S30000x1 : Shape := ⟨2, ![30000, 1]⟩
abbrev S400000x1 : Shape := ⟨2, ![400000, 1]⟩
abbrev S400000x128 : Shape := ⟨2, ![400000, 128]⟩
abbrev S10000x1 : Shape := ⟨2, ![10000, 1]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 774
  | .vmem => 168
  | .smem => 0
  | _ => 0

abbrev hbmTy0_0 (i : Nat) : BufTy := match i % 128 with
  | 0 => ⟨S50000x128, .f32⟩
  | 1 => ⟨S30000x128, .f32⟩
  | 2 => ⟨S10000x128, .f32⟩
  | 3 => ⟨S800000, .i32⟩
  | 4 => ⟨S800000, .i32⟩
  | 5 => ⟨S400000, .i32⟩
  | 6 => ⟨S400000, .i32⟩
  | 7 => ⟨S800000, .i32⟩
  | 8 => ⟨S800000, .i32⟩
  | 9 => ⟨S800000, .i32⟩
  | 10 => ⟨S800000, .i32⟩
  | 11 => ⟨S400000, .i32⟩
  | 12 => ⟨S400000, .i32⟩
  | 13 => ⟨S800000, .i32⟩
  | 14 => ⟨S800000, .i32⟩
  | 15 => ⟨S4x6x128x128, .f32⟩
  | 16 => ⟨S4x6x128x128, .f32⟩
  | 17 => ⟨S4x6x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S30000x128, .f32⟩
  | 29 => ⟨S800000x1, .i32⟩
  | 30 => ⟨S30000x128, .f32⟩
  | 31 => ⟨S_, .f32⟩
  | 32 => ⟨S800000x1, .f32⟩
  | 33 => ⟨S_, .f32⟩
  | 34 => ⟨S30000x1, .f32⟩
  | 35 => ⟨S800000x1, .i32⟩
  | 36 => ⟨S30000x1, .f32⟩
  | 37 => ⟨S_, .f32⟩
  | 38 => ⟨S30000x1, .f32⟩
  | 39 => ⟨S30000x1, .f32⟩
  | 40 => ⟨S30000x128, .f32⟩
  | 41 => ⟨S30000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x128, .f32⟩
  | 51 => ⟨S_, .f32⟩
  | 52 => ⟨S10000x128, .f32⟩
  | 53 => ⟨S400000x1, .i32⟩
  | 54 => ⟨S10000x128, .f32⟩
  | 55 => ⟨S_, .f32⟩
  | 56 => ⟨S400000x1, .f32⟩
  | 57 => ⟨S_, .f32⟩
  | 58 => ⟨S10000x1, .f32⟩
  | 59 => ⟨S400000x1, .i32⟩
  | 60 => ⟨S10000x1, .f32⟩
  | 61 => ⟨S_, .f32⟩
  | 62 => ⟨S10000x1, .f32⟩
  | 63 => ⟨S10000x1, .f32⟩
  | 64 => ⟨S10000x128, .f32⟩
  | 65 => ⟨S10000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S10000x128, .f32⟩
  | 77 => ⟨S800000x1, .i32⟩
  | 78 => ⟨S10000x128, .f32⟩
  | 79 => ⟨S_, .f32⟩
  | 80 => ⟨S800000x1, .f32⟩
  | 81 => ⟨S_, .f32⟩
  | 82 => ⟨S10000x1, .f32⟩
  | 83 => ⟨S800000x1, .i32⟩
  | 84 => ⟨S10000x1, .f32⟩
  | 85 => ⟨S_, .f32⟩
  | 86 => ⟨S10000x1, .f32⟩
  | 87 => ⟨S10000x1, .f32⟩
  | 88 => ⟨S10000x128, .f32⟩
  | 89 => ⟨S10000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000x1, .f32⟩
  | 105 => ⟨S_, .f32⟩
  | 106 => ⟨S50000x1, .f32⟩
  | 107 => ⟨S800000x1, .i32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .f32⟩
  | 123 => ⟨S_, .f32⟩
  | 124 => ⟨S30000x128, .f32⟩
  | 125 => ⟨S400000x1, .i32⟩
  | 126 => ⟨S30000x128, .f32⟩
  | 127 => ⟨S_, .f32⟩
  | _ => ⟨S50000x128, .f32⟩

abbrev hbmTy0_1 (i : Nat) : BufTy := match i % 128 with
  | 0 => ⟨S400000x1, .f32⟩
  | 1 => ⟨S_, .f32⟩
  | 2 => ⟨S30000x1, .f32⟩
  | 3 => ⟨S400000x1, .i32⟩
  | 4 => ⟨S30000x1, .f32⟩
  | 5 => ⟨S_, .f32⟩
  | 6 => ⟨S30000x1, .f32⟩
  | 7 => ⟨S30000x1, .f32⟩
  | 8 => ⟨S30000x128, .f32⟩
  | 9 => ⟨S30000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S_, .f32⟩
  | 24 => ⟨S800000x1, .f32⟩
  | 25 => ⟨S_, .f32⟩
  | 26 => ⟨S50000x1, .f32⟩
  | 27 => ⟨S800000x1, .i32⟩
  | 28 => ⟨S50000x1, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S1x1x128x128, .f32⟩
  | 35 => ⟨S128x128, .f32⟩
  | 36 => ⟨S1x1x128x128, .f32⟩
  | 37 => ⟨S128x128, .f32⟩
  | 38 => ⟨S1x1x128, .f32⟩
  | 39 => ⟨S128, .f32⟩
  | 40 => ⟨S1x1x128x128, .f32⟩
  | 41 => ⟨S128x128, .f32⟩
  | 42 => ⟨S1x1x128x128, .f32⟩
  | 43 => ⟨S128x128, .f32⟩
  | 44 => ⟨S1x1x128, .f32⟩
  | 45 => ⟨S128, .f32⟩
  | 46 => ⟨S1x128, .f32⟩
  | 47 => ⟨S1x128, .f32⟩
  | 48 => ⟨S50000x128, .f32⟩
  | 49 => ⟨S1x1x128x128, .f32⟩
  | 50 => ⟨S128x128, .f32⟩
  | 51 => ⟨S1x1x128x128, .f32⟩
  | 52 => ⟨S128x128, .f32⟩
  | 53 => ⟨S1x1x128, .f32⟩
  | 54 => ⟨S128, .f32⟩
  | 55 => ⟨S1x1x128x128, .f32⟩
  | 56 => ⟨S128x128, .f32⟩
  | 57 => ⟨S1x1x128x128, .f32⟩
  | 58 => ⟨S128x128, .f32⟩
  | 59 => ⟨S1x1x128, .f32⟩
  | 60 => ⟨S128, .f32⟩
  | 61 => ⟨S1x128, .f32⟩
  | 62 => ⟨S1x128, .f32⟩
  | 63 => ⟨S30000x128, .f32⟩
  | 64 => ⟨S1x1x128x128, .f32⟩
  | 65 => ⟨S128x128, .f32⟩
  | 66 => ⟨S1x1x128x128, .f32⟩
  | 67 => ⟨S128x128, .f32⟩
  | 68 => ⟨S1x1x128, .f32⟩
  | 69 => ⟨S128, .f32⟩
  | 70 => ⟨S1x1x128x128, .f32⟩
  | 71 => ⟨S128x128, .f32⟩
  | 72 => ⟨S1x1x128x128, .f32⟩
  | 73 => ⟨S128x128, .f32⟩
  | 74 => ⟨S1x1x128, .f32⟩
  | 75 => ⟨S128, .f32⟩
  | 76 => ⟨S1x128, .f32⟩
  | 77 => ⟨S1x128, .f32⟩
  | 78 => ⟨S10000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S30000x128, .f32⟩
  | 90 => ⟨S800000x1, .i32⟩
  | 91 => ⟨S30000x128, .f32⟩
  | 92 => ⟨S_, .f32⟩
  | 93 => ⟨S800000x1, .f32⟩
  | 94 => ⟨S_, .f32⟩
  | 95 => ⟨S30000x1, .f32⟩
  | 96 => ⟨S800000x1, .i32⟩
  | 97 => ⟨S30000x1, .f32⟩
  | 98 => ⟨S_, .f32⟩
  | 99 => ⟨S30000x1, .f32⟩
  | 100 => ⟨S30000x1, .f32⟩
  | 101 => ⟨S30000x128, .f32⟩
  | 102 => ⟨S30000x128, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S_, .f32⟩
  | 113 => ⟨S10000x128, .f32⟩
  | 114 => ⟨S400000x1, .i32⟩
  | 115 => ⟨S10000x128, .f32⟩
  | 116 => ⟨S_, .f32⟩
  | 117 => ⟨S400000x1, .f32⟩
  | 118 => ⟨S_, .f32⟩
  | 119 => ⟨S10000x1, .f32⟩
  | 120 => ⟨S400000x1, .i32⟩
  | 121 => ⟨S10000x1, .f32⟩
  | 122 => ⟨S_, .f32⟩
  | 123 => ⟨S10000x1, .f32⟩
  | 124 => ⟨S10000x1, .f32⟩
  | 125 => ⟨S10000x128, .f32⟩
  | 126 => ⟨S10000x128, .f32⟩
  | 127 => ⟨S_, .i32⟩
  | _ => ⟨S50000x128, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S10000x128, .f32⟩
  | 10 => ⟨S800000x1, .i32⟩
  | 11 => ⟨S10000x128, .f32⟩
  | 12 => ⟨S_, .f32⟩
  | 13 => ⟨S800000x1, .f32⟩
  | 14 => ⟨S_, .f32⟩
  | 15 => ⟨S10000x1, .f32⟩
  | 16 => ⟨S800000x1, .i32⟩
  | 17 => ⟨S10000x1, .f32⟩
  | 18 => ⟨S_, .f32⟩
  | 19 => ⟨S10000x1, .f32⟩
  | 20 => ⟨S10000x1, .f32⟩
  | 21 => ⟨S10000x128, .f32⟩
  | 22 => ⟨S10000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000x1, .f32⟩
  | 38 => ⟨S_, .f32⟩
  | 39 => ⟨S50000x1, .f32⟩
  | 40 => ⟨S800000x1, .i32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .f32⟩
  | 56 => ⟨S_, .f32⟩
  | 57 => ⟨S30000x128, .f32⟩
  | 58 => ⟨S400000x1, .i32⟩
  | 59 => ⟨S30000x128, .f32⟩
  | 60 => ⟨S_, .f32⟩
  | 61 => ⟨S400000x1, .f32⟩
  | 62 => ⟨S_, .f32⟩
  | 63 => ⟨S30000x1, .f32⟩
  | 64 => ⟨S400000x1, .i32⟩
  | 65 => ⟨S30000x1, .f32⟩
  | 66 => ⟨S_, .f32⟩
  | 67 => ⟨S30000x1, .f32⟩
  | 68 => ⟨S30000x1, .f32⟩
  | 69 => ⟨S30000x128, .f32⟩
  | 70 => ⟨S30000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S_, .f32⟩
  | 85 => ⟨S800000x1, .f32⟩
  | 86 => ⟨S_, .f32⟩
  | 87 => ⟨S50000x1, .f32⟩
  | 88 => ⟨S800000x1, .i32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S1x1x128x128, .f32⟩
  | 96 => ⟨S128x128, .f32⟩
  | 97 => ⟨S1x1x128x128, .f32⟩
  | 98 => ⟨S128x128, .f32⟩
  | 99 => ⟨S1x1x128, .f32⟩
  | 100 => ⟨S128, .f32⟩
  | 101 => ⟨S1x1x128x128, .f32⟩
  | 102 => ⟨S128x128, .f32⟩
  | 103 => ⟨S1x1x128x128, .f32⟩
  | 104 => ⟨S128x128, .f32⟩
  | 105 => ⟨S1x1x128, .f32⟩
  | 106 => ⟨S128, .f32⟩
  | 107 => ⟨S1x128, .f32⟩
  | 108 => ⟨S1x128, .f32⟩
  | 109 => ⟨S50000x128, .f32⟩
  | 110 => ⟨S1x1x128x128, .f32⟩
  | 111 => ⟨S128x128, .f32⟩
  | 112 => ⟨S1x1x128x128, .f32⟩
  | 113 => ⟨S128x128, .f32⟩
  | 114 => ⟨S1x1x128, .f32⟩
  | 115 => ⟨S128, .f32⟩
  | 116 => ⟨S1x1x128x128, .f32⟩
  | 117 => ⟨S128x128, .f32⟩
  | 118 => ⟨S1x1x128x128, .f32⟩
  | 119 => ⟨S128x128, .f32⟩
  | 120 => ⟨S1x1x128, .f32⟩
  | 121 => ⟨S128, .f32⟩
  | 122 => ⟨S1x128, .f32⟩
  | 123 => ⟨S1x128, .f32⟩
  | 124 => ⟨S30000x128, .f32⟩
  | 125 => ⟨S1x1x128x128, .f32⟩
  | 126 => ⟨S128x128, .f32⟩
  | 127 => ⟨S1x1x128x128, .f32⟩
  | _ => ⟨S50000x128, .f32⟩

abbrev hbmTy0_3 (i : Nat) : BufTy := match i % 128 with
  | 0 => ⟨S128x128, .f32⟩
  | 1 => ⟨S1x1x128, .f32⟩
  | 2 => ⟨S128, .f32⟩
  | 3 => ⟨S1x1x128x128, .f32⟩
  | 4 => ⟨S128x128, .f32⟩
  | 5 => ⟨S1x1x128x128, .f32⟩
  | 6 => ⟨S128x128, .f32⟩
  | 7 => ⟨S1x1x128, .f32⟩
  | 8 => ⟨S128, .f32⟩
  | 9 => ⟨S1x128, .f32⟩
  | 10 => ⟨S1x128, .f32⟩
  | 11 => ⟨S10000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S30000x128, .f32⟩
  | 23 => ⟨S800000x1, .i32⟩
  | 24 => ⟨S30000x128, .f32⟩
  | 25 => ⟨S_, .f32⟩
  | 26 => ⟨S800000x1, .f32⟩
  | 27 => ⟨S_, .f32⟩
  | 28 => ⟨S30000x1, .f32⟩
  | 29 => ⟨S800000x1, .i32⟩
  | 30 => ⟨S30000x1, .f32⟩
  | 31 => ⟨S_, .f32⟩
  | 32 => ⟨S30000x1, .f32⟩
  | 33 => ⟨S30000x1, .f32⟩
  | 34 => ⟨S30000x128, .f32⟩
  | 35 => ⟨S30000x128, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S_, .f32⟩
  | 46 => ⟨S10000x128, .f32⟩
  | 47 => ⟨S400000x1, .i32⟩
  | 48 => ⟨S10000x128, .f32⟩
  | 49 => ⟨S_, .f32⟩
  | 50 => ⟨S400000x1, .f32⟩
  | 51 => ⟨S_, .f32⟩
  | 52 => ⟨S10000x1, .f32⟩
  | 53 => ⟨S400000x1, .i32⟩
  | 54 => ⟨S10000x1, .f32⟩
  | 55 => ⟨S_, .f32⟩
  | 56 => ⟨S10000x1, .f32⟩
  | 57 => ⟨S10000x1, .f32⟩
  | 58 => ⟨S10000x128, .f32⟩
  | 59 => ⟨S10000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .f32⟩
  | 70 => ⟨S10000x128, .f32⟩
  | 71 => ⟨S800000x1, .i32⟩
  | 72 => ⟨S10000x128, .f32⟩
  | 73 => ⟨S_, .f32⟩
  | 74 => ⟨S800000x1, .f32⟩
  | 75 => ⟨S_, .f32⟩
  | 76 => ⟨S10000x1, .f32⟩
  | 77 => ⟨S800000x1, .i32⟩
  | 78 => ⟨S10000x1, .f32⟩
  | 79 => ⟨S_, .f32⟩
  | 80 => ⟨S10000x1, .f32⟩
  | 81 => ⟨S10000x1, .f32⟩
  | 82 => ⟨S10000x128, .f32⟩
  | 83 => ⟨S10000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000x1, .f32⟩
  | 99 => ⟨S_, .f32⟩
  | 100 => ⟨S50000x1, .f32⟩
  | 101 => ⟨S800000x1, .i32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S_, .f32⟩
  | 118 => ⟨S30000x128, .f32⟩
  | 119 => ⟨S400000x1, .i32⟩
  | 120 => ⟨S30000x128, .f32⟩
  | 121 => ⟨S_, .f32⟩
  | 122 => ⟨S400000x1, .f32⟩
  | 123 => ⟨S_, .f32⟩
  | 124 => ⟨S30000x1, .f32⟩
  | 125 => ⟨S400000x1, .i32⟩
  | 126 => ⟨S30000x1, .f32⟩
  | 127 => ⟨S_, .f32⟩
  | _ => ⟨S50000x128, .f32⟩

abbrev hbmTy0_4 (i : Nat) : BufTy := match i % 128 with
  | 0 => ⟨S30000x1, .f32⟩
  | 1 => ⟨S30000x1, .f32⟩
  | 2 => ⟨S30000x128, .f32⟩
  | 3 => ⟨S30000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S800000x1, .f32⟩
  | 19 => ⟨S_, .f32⟩
  | 20 => ⟨S50000x1, .f32⟩
  | 21 => ⟨S800000x1, .i32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S1x1x128x128, .f32⟩
  | 29 => ⟨S128x128, .f32⟩
  | 30 => ⟨S1x1x128x128, .f32⟩
  | 31 => ⟨S128x128, .f32⟩
  | 32 => ⟨S1x1x128, .f32⟩
  | 33 => ⟨S128, .f32⟩
  | 34 => ⟨S1x1x128x128, .f32⟩
  | 35 => ⟨S128x128, .f32⟩
  | 36 => ⟨S1x1x128x128, .f32⟩
  | 37 => ⟨S128x128, .f32⟩
  | 38 => ⟨S1x1x128, .f32⟩
  | 39 => ⟨S128, .f32⟩
  | 40 => ⟨S1x128, .f32⟩
  | 41 => ⟨S1x128, .f32⟩
  | 42 => ⟨S50000x128, .f32⟩
  | 43 => ⟨S1x1x128x128, .f32⟩
  | 44 => ⟨S128x128, .f32⟩
  | 45 => ⟨S1x1x128x128, .f32⟩
  | 46 => ⟨S128x128, .f32⟩
  | 47 => ⟨S1x1x128, .f32⟩
  | 48 => ⟨S128, .f32⟩
  | 49 => ⟨S1x1x128x128, .f32⟩
  | 50 => ⟨S128x128, .f32⟩
  | 51 => ⟨S1x1x128x128, .f32⟩
  | 52 => ⟨S128x128, .f32⟩
  | 53 => ⟨S1x1x128, .f32⟩
  | 54 => ⟨S128, .f32⟩
  | 55 => ⟨S1x128, .f32⟩
  | 56 => ⟨S1x128, .f32⟩
  | 57 => ⟨S30000x128, .f32⟩
  | 58 => ⟨S1x1x128x128, .f32⟩
  | 59 => ⟨S128x128, .f32⟩
  | 60 => ⟨S1x1x128x128, .f32⟩
  | 61 => ⟨S128x128, .f32⟩
  | 62 => ⟨S1x1x128, .f32⟩
  | 63 => ⟨S128, .f32⟩
  | 64 => ⟨S1x1x128x128, .f32⟩
  | 65 => ⟨S128x128, .f32⟩
  | 66 => ⟨S1x1x128x128, .f32⟩
  | 67 => ⟨S128x128, .f32⟩
  | 68 => ⟨S1x1x128, .f32⟩
  | 69 => ⟨S128, .f32⟩
  | 70 => ⟨S1x128, .f32⟩
  | 71 => ⟨S1x128, .f32⟩
  | 72 => ⟨S10000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S30000x128, .f32⟩
  | 84 => ⟨S800000x1, .i32⟩
  | 85 => ⟨S30000x128, .f32⟩
  | 86 => ⟨S_, .f32⟩
  | 87 => ⟨S800000x1, .f32⟩
  | 88 => ⟨S_, .f32⟩
  | 89 => ⟨S30000x1, .f32⟩
  | 90 => ⟨S800000x1, .i32⟩
  | 91 => ⟨S30000x1, .f32⟩
  | 92 => ⟨S_, .f32⟩
  | 93 => ⟨S30000x1, .f32⟩
  | 94 => ⟨S30000x1, .f32⟩
  | 95 => ⟨S30000x128, .f32⟩
  | 96 => ⟨S30000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S_, .f32⟩
  | 107 => ⟨S10000x128, .f32⟩
  | 108 => ⟨S400000x1, .i32⟩
  | 109 => ⟨S10000x128, .f32⟩
  | 110 => ⟨S_, .f32⟩
  | 111 => ⟨S400000x1, .f32⟩
  | 112 => ⟨S_, .f32⟩
  | 113 => ⟨S10000x1, .f32⟩
  | 114 => ⟨S400000x1, .i32⟩
  | 115 => ⟨S10000x1, .f32⟩
  | 116 => ⟨S_, .f32⟩
  | 117 => ⟨S10000x1, .f32⟩
  | 118 => ⟨S10000x1, .f32⟩
  | 119 => ⟨S10000x128, .f32⟩
  | 120 => ⟨S10000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_5 (i : Nat) : BufTy := match i % 128 with
  | 0 => ⟨S800000x1, .i32⟩
  | 1 => ⟨S800000x128, .f32⟩
  | 2 => ⟨S_, .f32⟩
  | 3 => ⟨S10000x128, .f32⟩
  | 4 => ⟨S800000x1, .i32⟩
  | 5 => ⟨S10000x128, .f32⟩
  | 6 => ⟨S_, .f32⟩
  | 7 => ⟨S800000x1, .f32⟩
  | 8 => ⟨S_, .f32⟩
  | 9 => ⟨S10000x1, .f32⟩
  | 10 => ⟨S800000x1, .i32⟩
  | 11 => ⟨S10000x1, .f32⟩
  | 12 => ⟨S_, .f32⟩
  | 13 => ⟨S10000x1, .f32⟩
  | 14 => ⟨S10000x1, .f32⟩
  | 15 => ⟨S10000x128, .f32⟩
  | 16 => ⟨S10000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000x1, .f32⟩
  | 32 => ⟨S_, .f32⟩
  | 33 => ⟨S50000x1, .f32⟩
  | 34 => ⟨S800000x1, .i32⟩
  | 35 => ⟨S50000x1, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x128, .f32⟩
  | 50 => ⟨S_, .f32⟩
  | 51 => ⟨S30000x128, .f32⟩
  | 52 => ⟨S400000x1, .i32⟩
  | 53 => ⟨S30000x128, .f32⟩
  | 54 => ⟨S_, .f32⟩
  | 55 => ⟨S400000x1, .f32⟩
  | 56 => ⟨S_, .f32⟩
  | 57 => ⟨S30000x1, .f32⟩
  | 58 => ⟨S400000x1, .i32⟩
  | 59 => ⟨S30000x1, .f32⟩
  | 60 => ⟨S_, .f32⟩
  | 61 => ⟨S30000x1, .f32⟩
  | 62 => ⟨S30000x1, .f32⟩
  | 63 => ⟨S30000x128, .f32⟩
  | 64 => ⟨S30000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S800000x1, .f32⟩
  | 80 => ⟨S_, .f32⟩
  | 81 => ⟨S50000x1, .f32⟩
  | 82 => ⟨S800000x1, .i32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S1x1x128x128, .f32⟩
  | 90 => ⟨S128x128, .f32⟩
  | 91 => ⟨S1x1x128x128, .f32⟩
  | 92 => ⟨S128x128, .f32⟩
  | 93 => ⟨S1x1x128, .f32⟩
  | 94 => ⟨S128, .f32⟩
  | 95 => ⟨S1x1x128x128, .f32⟩
  | 96 => ⟨S128x128, .f32⟩
  | 97 => ⟨S1x1x128x128, .f32⟩
  | 98 => ⟨S128x128, .f32⟩
  | 99 => ⟨S1x1x128, .f32⟩
  | 100 => ⟨S128, .f32⟩
  | 101 => ⟨S1x128, .f32⟩
  | 102 => ⟨S1x128, .f32⟩
  | 103 => ⟨S50000x128, .f32⟩
  | 104 => ⟨S1x1x128x128, .f32⟩
  | 105 => ⟨S128x128, .f32⟩
  | 106 => ⟨S1x1x128x128, .f32⟩
  | 107 => ⟨S128x128, .f32⟩
  | 108 => ⟨S1x1x128, .f32⟩
  | 109 => ⟨S128, .f32⟩
  | 110 => ⟨S1x1x128x128, .f32⟩
  | 111 => ⟨S128x128, .f32⟩
  | 112 => ⟨S1x1x128x128, .f32⟩
  | 113 => ⟨S128x128, .f32⟩
  | 114 => ⟨S1x1x128, .f32⟩
  | 115 => ⟨S128, .f32⟩
  | 116 => ⟨S1x128, .f32⟩
  | 117 => ⟨S1x128, .f32⟩
  | 118 => ⟨S30000x128, .f32⟩
  | 119 => ⟨S1x1x128x128, .f32⟩
  | 120 => ⟨S128x128, .f32⟩
  | 121 => ⟨S1x1x128x128, .f32⟩
  | 122 => ⟨S128x128, .f32⟩
  | 123 => ⟨S1x1x128, .f32⟩
  | 124 => ⟨S128, .f32⟩
  | 125 => ⟨S1x1x128x128, .f32⟩
  | 126 => ⟨S128x128, .f32⟩
  | 127 => ⟨S1x1x128x128, .f32⟩
  | _ => ⟨S50000x128, .f32⟩

abbrev hbmTy0_6 (i : Nat) : BufTy := match i % 128 with
  | 0 => ⟨S128x128, .f32⟩
  | 1 => ⟨S1x1x128, .f32⟩
  | 2 => ⟨S128, .f32⟩
  | 3 => ⟨S1x128, .f32⟩
  | 4 => ⟨S1x128, .f32⟩
  | 5 => ⟨S10000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x128, .f32⟩

abbrev vmemTy0_0 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S2000x128, .f32⟩
  | 5 => ⟨S2000x128, .f32⟩
  | 6 => ⟨S128x128, .f32⟩
  | 7 => ⟨S128x128, .f32⟩
  | 8 => ⟨S1x128, .f32⟩
  | 9 => ⟨S128x128, .f32⟩
  | 10 => ⟨S128x128, .f32⟩
  | 11 => ⟨S1x128, .f32⟩
  | 12 => ⟨S2000x128, .f32⟩
  | 13 => ⟨S2000x128, .f32⟩
  | 14 => ⟨S2000x128, .f32⟩
  | 15 => ⟨S2000x128, .f32⟩
  | 16 => ⟨S2000x128, .f32⟩
  | 17 => ⟨S2000x128, .f32⟩
  | 18 => ⟨S2000x128, .f32⟩
  | 19 => ⟨S2000x128, .f32⟩
  | 20 => ⟨S128x128, .f32⟩
  | 21 => ⟨S128x128, .f32⟩
  | 22 => ⟨S1x128, .f32⟩
  | 23 => ⟨S128x128, .f32⟩
  | 24 => ⟨S128x128, .f32⟩
  | 25 => ⟨S1x128, .f32⟩
  | 26 => ⟨S2000x128, .f32⟩
  | 27 => ⟨S2000x128, .f32⟩
  | 28 => ⟨S2000x128, .f32⟩
  | 29 => ⟨S2000x128, .f32⟩
  | 30 => ⟨S2000x128, .f32⟩
  | 31 => ⟨S2000x128, .f32⟩
  | 32 => ⟨S2000x128, .f32⟩
  | 33 => ⟨S2000x128, .f32⟩
  | 34 => ⟨S128x128, .f32⟩
  | 35 => ⟨S128x128, .f32⟩
  | 36 => ⟨S1x128, .f32⟩
  | 37 => ⟨S128x128, .f32⟩
  | 38 => ⟨S128x128, .f32⟩
  | 39 => ⟨S1x128, .f32⟩
  | 40 => ⟨S2000x128, .f32⟩
  | 41 => ⟨S2000x128, .f32⟩
  | 42 => ⟨S2000x128, .f32⟩
  | 43 => ⟨S2000x128, .f32⟩
  | 44 => ⟨S2000x128, .f32⟩
  | 45 => ⟨S2000x128, .f32⟩
  | 46 => ⟨S2000x128, .f32⟩
  | 47 => ⟨S2000x128, .f32⟩
  | 48 => ⟨S128x128, .f32⟩
  | 49 => ⟨S128x128, .f32⟩
  | 50 => ⟨S1x128, .f32⟩
  | 51 => ⟨S128x128, .f32⟩
  | 52 => ⟨S128x128, .f32⟩
  | 53 => ⟨S1x128, .f32⟩
  | 54 => ⟨S2000x128, .f32⟩
  | 55 => ⟨S2000x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S128x128, .f32⟩
  | 63 => ⟨S128x128, .f32⟩
  | 64 => ⟨S1x128, .f32⟩
  | 65 => ⟨S128x128, .f32⟩
  | 66 => ⟨S128x128, .f32⟩
  | 67 => ⟨S1x128, .f32⟩
  | 68 => ⟨S2000x128, .f32⟩
  | 69 => ⟨S2000x128, .f32⟩
  | 70 => ⟨S2000x128, .f32⟩
  | 71 => ⟨S2000x128, .f32⟩
  | 72 => ⟨S2000x128, .f32⟩
  | 73 => ⟨S2000x128, .f32⟩
  | 74 => ⟨S2000x128, .f32⟩
  | 75 => ⟨S2000x128, .f32⟩
  | 76 => ⟨S128x128, .f32⟩
  | 77 => ⟨S128x128, .f32⟩
  | 78 => ⟨S1x128, .f32⟩
  | 79 => ⟨S128x128, .f32⟩
  | 80 => ⟨S128x128, .f32⟩
  | 81 => ⟨S1x128, .f32⟩
  | 82 => ⟨S2000x128, .f32⟩
  | 83 => ⟨S2000x128, .f32⟩
  | 84 => ⟨S2000x128, .f32⟩
  | 85 => ⟨S2000x128, .f32⟩
  | 86 => ⟨S2000x128, .f32⟩
  | 87 => ⟨S2000x128, .f32⟩
  | 88 => ⟨S2000x128, .f32⟩
  | 89 => ⟨S2000x128, .f32⟩
  | 90 => ⟨S128x128, .f32⟩
  | 91 => ⟨S128x128, .f32⟩
  | 92 => ⟨S1x128, .f32⟩
  | 93 => ⟨S128x128, .f32⟩
  | 94 => ⟨S128x128, .f32⟩
  | 95 => ⟨S1x128, .f32⟩
  | 96 => ⟨S2000x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S2000x128, .f32⟩
  | 103 => ⟨S2000x128, .f32⟩
  | 104 => ⟨S128x128, .f32⟩
  | 105 => ⟨S128x128, .f32⟩
  | 106 => ⟨S1x128, .f32⟩
  | 107 => ⟨S128x128, .f32⟩
  | 108 => ⟨S128x128, .f32⟩
  | 109 => ⟨S1x128, .f32⟩
  | 110 => ⟨S2000x128, .f32⟩
  | 111 => ⟨S2000x128, .f32⟩
  | 112 => ⟨S2000x128, .f32⟩
  | 113 => ⟨S2000x128, .f32⟩
  | 114 => ⟨S2000x128, .f32⟩
  | 115 => ⟨S2000x128, .f32⟩
  | 116 => ⟨S2000x128, .f32⟩
  | 117 => ⟨S2000x128, .f32⟩
  | 118 => ⟨S128x128, .f32⟩
  | 119 => ⟨S128x128, .f32⟩
  | 120 => ⟨S1x128, .f32⟩
  | 121 => ⟨S128x128, .f32⟩
  | 122 => ⟨S128x128, .f32⟩
  | 123 => ⟨S1x128, .f32⟩
  | 124 => ⟨S2000x128, .f32⟩
  | 125 => ⟨S2000x128, .f32⟩
  | 126 => ⟨S2000x128, .f32⟩
  | 127 => ⟨S2000x128, .f32⟩
  | _ => ⟨S50000x128, .f32⟩

abbrev vmemTy0_1 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S128x128, .f32⟩
  | 5 => ⟨S128x128, .f32⟩
  | 6 => ⟨S1x128, .f32⟩
  | 7 => ⟨S128x128, .f32⟩
  | 8 => ⟨S128x128, .f32⟩
  | 9 => ⟨S1x128, .f32⟩
  | 10 => ⟨S2000x128, .f32⟩
  | 11 => ⟨S2000x128, .f32⟩
  | 12 => ⟨S2000x128, .f32⟩
  | 13 => ⟨S2000x128, .f32⟩
  | 14 => ⟨S2000x128, .f32⟩
  | 15 => ⟨S2000x128, .f32⟩
  | 16 => ⟨S2000x128, .f32⟩
  | 17 => ⟨S2000x128, .f32⟩
  | 18 => ⟨S128x128, .f32⟩
  | 19 => ⟨S128x128, .f32⟩
  | 20 => ⟨S1x128, .f32⟩
  | 21 => ⟨S128x128, .f32⟩
  | 22 => ⟨S128x128, .f32⟩
  | 23 => ⟨S1x128, .f32⟩
  | 24 => ⟨S2000x128, .f32⟩
  | 25 => ⟨S2000x128, .f32⟩
  | 26 => ⟨S2000x128, .f32⟩
  | 27 => ⟨S2000x128, .f32⟩
  | 28 => ⟨S2000x128, .f32⟩
  | 29 => ⟨S2000x128, .f32⟩
  | 30 => ⟨S2000x128, .f32⟩
  | 31 => ⟨S2000x128, .f32⟩
  | 32 => ⟨S128x128, .f32⟩
  | 33 => ⟨S128x128, .f32⟩
  | 34 => ⟨S1x128, .f32⟩
  | 35 => ⟨S128x128, .f32⟩
  | 36 => ⟨S128x128, .f32⟩
  | 37 => ⟨S1x128, .f32⟩
  | 38 => ⟨S2000x128, .f32⟩
  | 39 => ⟨S2000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_9 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_13 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_16 : Ref sig .tc := ⟨.hbm, 90, rfl⟩
abbrev main_v54 : Ref sig .tc := ⟨.hbm, 91, rfl⟩
abbrev main_v55 : Ref sig .tc := ⟨.hbm, 92, rfl⟩
abbrev main_c_17 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_cst_20 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_22 : Ref sig .tc := ⟨.hbm, 114, rfl⟩
abbrev main_v72 : Ref sig .tc := ⟨.hbm, 115, rfl⟩
abbrev main_v73 : Ref sig .tc := ⟨.hbm, 116, rfl⟩
abbrev main_c_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_24 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_25 : Ref sig .tc := ⟨.hbm, 127, rfl⟩
abbrev main_v82 : Ref sig .tc := ⟨.hbm, 128, rfl⟩
abbrev main_cst_26 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_27 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_28 : Ref sig .tc := ⟨.hbm, 138, rfl⟩
abbrev main_v90 : Ref sig .tc := ⟨.hbm, 139, rfl⟩
abbrev main_v91 : Ref sig .tc := ⟨.hbm, 140, rfl⟩
abbrev main_c_29 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_30 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_31 : Ref sig .tc := ⟨.hbm, 151, rfl⟩
abbrev main_v100 : Ref sig .tc := ⟨.hbm, 152, rfl⟩
abbrev main_cst_32 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_33 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_34 : Ref sig .tc := ⟨.hbm, 207, rfl⟩
abbrev main_v153 : Ref sig .tc := ⟨.hbm, 208, rfl⟩
abbrev main_v154 : Ref sig .tc := ⟨.hbm, 209, rfl⟩
abbrev main_c_35 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_36 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_37 : Ref sig .tc := ⟨.hbm, 220, rfl⟩
abbrev main_v163 : Ref sig .tc := ⟨.hbm, 221, rfl⟩
abbrev main_cst_38 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_39 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_c_40 : Ref sig .tc := ⟨.hbm, 231, rfl⟩
abbrev main_v171 : Ref sig .tc := ⟨.hbm, 232, rfl⟩
abbrev main_v172 : Ref sig .tc := ⟨.hbm, 233, rfl⟩
abbrev main_c_41 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_42 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_43 : Ref sig .tc := ⟨.hbm, 244, rfl⟩
abbrev main_v181 : Ref sig .tc := ⟨.hbm, 245, rfl⟩
abbrev main_cst_44 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_45 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_46 : Ref sig .tc := ⟨.hbm, 255, rfl⟩
abbrev main_v189 : Ref sig .tc := ⟨.hbm, 256, rfl⟩
abbrev main_v190 : Ref sig .tc := ⟨.hbm, 257, rfl⟩
abbrev main_c_47 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_48 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_49 : Ref sig .tc := ⟨.hbm, 268, rfl⟩
abbrev main_v199 : Ref sig .tc := ⟨.hbm, 269, rfl⟩
abbrev main_cst_50 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_cst_51 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_c_52 : Ref sig .tc := ⟨.hbm, 279, rfl⟩
abbrev main_v207 : Ref sig .tc := ⟨.hbm, 280, rfl⟩
abbrev main_v208 : Ref sig .tc := ⟨.hbm, 281, rfl⟩
abbrev main_c_53 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_cst_54 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_cst_55 : Ref sig .tc := ⟨.hbm, 292, rfl⟩
abbrev main_v217 : Ref sig .tc := ⟨.hbm, 293, rfl⟩
abbrev main_cst_56 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_cst_57 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_c_58 : Ref sig .tc := ⟨.hbm, 303, rfl⟩
abbrev main_v225 : Ref sig .tc := ⟨.hbm, 304, rfl⟩
abbrev main_v226 : Ref sig .tc := ⟨.hbm, 305, rfl⟩
abbrev main_c_59 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_cst_60 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_cst_61 : Ref sig .tc := ⟨.hbm, 316, rfl⟩
abbrev main_v235 : Ref sig .tc := ⟨.hbm, 317, rfl⟩
abbrev main_cst_62 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_cst_63 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_c_64 : Ref sig .tc := ⟨.hbm, 327, rfl⟩
abbrev main_v243 : Ref sig .tc := ⟨.hbm, 328, rfl⟩
abbrev main_v244 : Ref sig .tc := ⟨.hbm, 329, rfl⟩
abbrev main_c_65 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_cst_66 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_cst_67 : Ref sig .tc := ⟨.hbm, 340, rfl⟩
abbrev main_v253 : Ref sig .tc := ⟨.hbm, 341, rfl⟩
abbrev main_cst_68 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_cst_69 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_c_70 : Ref sig .tc := ⟨.hbm, 396, rfl⟩
abbrev main_v306 : Ref sig .tc := ⟨.hbm, 397, rfl⟩
abbrev main_v307 : Ref sig .tc := ⟨.hbm, 398, rfl⟩
abbrev main_c_71 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_cst_72 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_cst_73 : Ref sig .tc := ⟨.hbm, 409, rfl⟩
abbrev main_v316 : Ref sig .tc := ⟨.hbm, 410, rfl⟩
abbrev main_cst_74 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_cst_75 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_c_76 : Ref sig .tc := ⟨.hbm, 420, rfl⟩
abbrev main_v324 : Ref sig .tc := ⟨.hbm, 421, rfl⟩
abbrev main_v325 : Ref sig .tc := ⟨.hbm, 422, rfl⟩
abbrev main_c_77 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_cst_78 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_cst_79 : Ref sig .tc := ⟨.hbm, 433, rfl⟩
abbrev main_v334 : Ref sig .tc := ⟨.hbm, 434, rfl⟩
abbrev main_cst_80 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_cst_81 : Ref sig .tc := ⟨.hbm, 439, rfl⟩
abbrev main_v338 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_c_82 : Ref sig .tc := ⟨.hbm, 444, rfl⟩
abbrev main_v342 : Ref sig .tc := ⟨.hbm, 445, rfl⟩
abbrev main_v343 : Ref sig .tc := ⟨.hbm, 446, rfl⟩
abbrev main_c_83 : Ref sig .tc := ⟨.hbm, 447, rfl⟩
abbrev main_v344 : Ref sig .tc := ⟨.hbm, 448, rfl⟩
abbrev main_v345 : Ref sig .tc := ⟨.hbm, 449, rfl⟩
abbrev main_v346 : Ref sig .tc := ⟨.hbm, 450, rfl⟩
abbrev main_v347 : Ref sig .tc := ⟨.hbm, 451, rfl⟩
abbrev main_v348 : Ref sig .tc := ⟨.hbm, 452, rfl⟩
abbrev main_cst_84 : Ref sig .tc := ⟨.hbm, 453, rfl⟩
abbrev main_v349 : Ref sig .tc := ⟨.hbm, 454, rfl⟩
abbrev main_v350 : Ref sig .tc := ⟨.hbm, 455, rfl⟩
abbrev main_v351 : Ref sig .tc := ⟨.hbm, 456, rfl⟩
abbrev main_cst_85 : Ref sig .tc := ⟨.hbm, 457, rfl⟩
abbrev main_v352 : Ref sig .tc := ⟨.hbm, 458, rfl⟩
abbrev main_cst_86 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_87 : Ref sig .tc := ⟨.hbm, 463, rfl⟩
abbrev main_v356 : Ref sig .tc := ⟨.hbm, 464, rfl⟩
abbrev main_v357 : Ref sig .tc := ⟨.hbm, 465, rfl⟩
abbrev main_v358 : Ref sig .tc := ⟨.hbm, 466, rfl⟩
abbrev main_v359 : Ref sig .tc := ⟨.hbm, 467, rfl⟩
abbrev main_c_88 : Ref sig .tc := ⟨.hbm, 468, rfl⟩
abbrev main_v360 : Ref sig .tc := ⟨.hbm, 469, rfl⟩
abbrev main_v361 : Ref sig .tc := ⟨.hbm, 470, rfl⟩
abbrev main_c_89 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_cst_90 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_cst_91 : Ref sig .tc := ⟨.hbm, 481, rfl⟩
abbrev main_v370 : Ref sig .tc := ⟨.hbm, 482, rfl⟩
abbrev main_cst_92 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_cst_93 : Ref sig .tc := ⟨.hbm, 487, rfl⟩
abbrev main_v374 : Ref sig .tc := ⟨.hbm, 488, rfl⟩
abbrev main_v375 : Ref sig .tc := ⟨.hbm, 489, rfl⟩
abbrev main_v376 : Ref sig .tc := ⟨.hbm, 490, rfl⟩
abbrev main_v377 : Ref sig .tc := ⟨.hbm, 491, rfl⟩
abbrev main_c_94 : Ref sig .tc := ⟨.hbm, 492, rfl⟩
abbrev main_v378 : Ref sig .tc := ⟨.hbm, 493, rfl⟩
abbrev main_v379 : Ref sig .tc := ⟨.hbm, 494, rfl⟩
abbrev main_c_95 : Ref sig .tc := ⟨.hbm, 495, rfl⟩
abbrev main_v380 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_cst_96 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_cst_97 : Ref sig .tc := ⟨.hbm, 505, rfl⟩
abbrev main_v388 : Ref sig .tc := ⟨.hbm, 506, rfl⟩
abbrev main_cst_98 : Ref sig .tc := ⟨.hbm, 507, rfl⟩
abbrev main_v389 : Ref sig .tc := ⟨.hbm, 508, rfl⟩
abbrev main_v390 : Ref sig .tc := ⟨.hbm, 509, rfl⟩
abbrev main_v391 : Ref sig .tc := ⟨.hbm, 510, rfl⟩
abbrev main_cst_99 : Ref sig .tc := ⟨.hbm, 511, rfl⟩
abbrev main_v392 : Ref sig .tc := ⟨.hbm, 512, rfl⟩
abbrev main_v393 : Ref sig .tc := ⟨.hbm, 513, rfl⟩
abbrev main_v394 : Ref sig .tc := ⟨.hbm, 514, rfl⟩
abbrev main_v395 : Ref sig .tc := ⟨.hbm, 515, rfl⟩
abbrev main_c_100 : Ref sig .tc := ⟨.hbm, 516, rfl⟩
abbrev main_v396 : Ref sig .tc := ⟨.hbm, 517, rfl⟩
abbrev main_v397 : Ref sig .tc := ⟨.hbm, 518, rfl⟩
abbrev main_c_101 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_v402 : Ref sig .tc := ⟨.hbm, 524, rfl⟩
abbrev main_cst_102 : Ref sig .tc := ⟨.hbm, 525, rfl⟩
abbrev main_v403 : Ref sig .tc := ⟨.hbm, 526, rfl⟩
abbrev main_v404 : Ref sig .tc := ⟨.hbm, 527, rfl⟩
abbrev main_v405 : Ref sig .tc := ⟨.hbm, 528, rfl⟩
abbrev main_cst_103 : Ref sig .tc := ⟨.hbm, 529, rfl⟩
abbrev main_v406 : Ref sig .tc := ⟨.hbm, 530, rfl⟩
abbrev main_cst_104 : Ref sig .tc := ⟨.hbm, 531, rfl⟩
abbrev main_v407 : Ref sig .tc := ⟨.hbm, 532, rfl⟩
abbrev main_v408 : Ref sig .tc := ⟨.hbm, 533, rfl⟩
abbrev main_v409 : Ref sig .tc := ⟨.hbm, 534, rfl⟩
abbrev main_cst_105 : Ref sig .tc := ⟨.hbm, 535, rfl⟩
abbrev main_v410 : Ref sig .tc := ⟨.hbm, 536, rfl⟩
abbrev main_v411 : Ref sig .tc := ⟨.hbm, 537, rfl⟩
abbrev main_v412 : Ref sig .tc := ⟨.hbm, 538, rfl⟩
abbrev main_v413 : Ref sig .tc := ⟨.hbm, 539, rfl⟩
abbrev main_v414 : Ref sig .tc := ⟨.hbm, 540, rfl⟩
abbrev main_v415 : Ref sig .tc := ⟨.hbm, 541, rfl⟩
abbrev main_v416 : Ref sig .tc := ⟨.hbm, 542, rfl⟩
abbrev main_v417 : Ref sig .tc := ⟨.hbm, 543, rfl⟩
abbrev main_v418 : Ref sig .tc := ⟨.hbm, 544, rfl⟩
abbrev main_v419 : Ref sig .tc := ⟨.hbm, 545, rfl⟩
abbrev main_v420 : Ref sig .tc := ⟨.hbm, 546, rfl⟩
abbrev main_v421 : Ref sig .tc := ⟨.hbm, 547, rfl⟩
abbrev main_v422 : Ref sig .tc := ⟨.hbm, 548, rfl⟩
abbrev main_v423 : Ref sig .tc := ⟨.hbm, 549, rfl⟩
abbrev main_v424 : Ref sig .tc := ⟨.hbm, 550, rfl⟩
abbrev main_v425 : Ref sig .tc := ⟨.hbm, 551, rfl⟩
abbrev main_v426 : Ref sig .tc := ⟨.hbm, 552, rfl⟩
abbrev main_v427 : Ref sig .tc := ⟨.hbm, 553, rfl⟩
abbrev main_v428 : Ref sig .tc := ⟨.hbm, 554, rfl⟩
abbrev main_v429 : Ref sig .tc := ⟨.hbm, 555, rfl⟩
abbrev main_v430 : Ref sig .tc := ⟨.hbm, 556, rfl⟩
abbrev main_v431 : Ref sig .tc := ⟨.hbm, 557, rfl⟩
abbrev main_v432 : Ref sig .tc := ⟨.hbm, 558, rfl⟩
abbrev main_v433 : Ref sig .tc := ⟨.hbm, 559, rfl⟩
abbrev main_v434 : Ref sig .tc := ⟨.hbm, 560, rfl⟩
abbrev main_v435 : Ref sig .tc := ⟨.hbm, 561, rfl⟩
abbrev main_v436 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_v440 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_v444 : Ref sig .tc := ⟨.hbm, 570, rfl⟩
abbrev main_v445 : Ref sig .tc := ⟨.hbm, 571, rfl⟩
abbrev main_v446 : Ref sig .tc := ⟨.hbm, 572, rfl⟩
abbrev main_v447 : Ref sig .tc := ⟨.hbm, 573, rfl⟩
abbrev main_v448 : Ref sig .tc := ⟨.hbm, 574, rfl⟩
abbrev main_v449 : Ref sig .tc := ⟨.hbm, 575, rfl⟩
abbrev main_v450 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454 : Ref sig .tc := ⟨.hbm, 580, rfl⟩
abbrev main_v455 : Ref sig .tc := ⟨.hbm, 581, rfl⟩
abbrev main_v456 : Ref sig .tc := ⟨.hbm, 582, rfl⟩
abbrev main_v457 : Ref sig .tc := ⟨.hbm, 583, rfl⟩
abbrev main_v458 : Ref sig .tc := ⟨.hbm, 584, rfl⟩
abbrev main_c_106 : Ref sig .tc := ⟨.hbm, 585, rfl⟩
abbrev main_v459 : Ref sig .tc := ⟨.hbm, 586, rfl⟩
abbrev main_v460 : Ref sig .tc := ⟨.hbm, 587, rfl⟩
abbrev main_c_107 : Ref sig .tc := ⟨.hbm, 588, rfl⟩
abbrev main_v461 : Ref sig .tc := ⟨.hbm, 589, rfl⟩
abbrev main_v462 : Ref sig .tc := ⟨.hbm, 590, rfl⟩
abbrev main_v463 : Ref sig .tc := ⟨.hbm, 591, rfl⟩
abbrev main_v464 : Ref sig .tc := ⟨.hbm, 592, rfl⟩
abbrev main_v465 : Ref sig .tc := ⟨.hbm, 593, rfl⟩
abbrev main_cst_108 : Ref sig .tc := ⟨.hbm, 594, rfl⟩
abbrev main_v466 : Ref sig .tc := ⟨.hbm, 595, rfl⟩
abbrev main_v467 : Ref sig .tc := ⟨.hbm, 596, rfl⟩
abbrev main_v468 : Ref sig .tc := ⟨.hbm, 597, rfl⟩
abbrev main_cst_109 : Ref sig .tc := ⟨.hbm, 598, rfl⟩
abbrev main_v469 : Ref sig .tc := ⟨.hbm, 599, rfl⟩
abbrev main_cst_110 : Ref sig .tc := ⟨.hbm, 600, rfl⟩
abbrev main_v470 : Ref sig .tc := ⟨.hbm, 601, rfl⟩
abbrev main_v471 : Ref sig .tc := ⟨.hbm, 602, rfl⟩
abbrev main_v472 : Ref sig .tc := ⟨.hbm, 603, rfl⟩
abbrev main_cst_111 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_c_112 : Ref sig .tc := ⟨.hbm, 609, rfl⟩
abbrev main_v477 : Ref sig .tc := ⟨.hbm, 610, rfl⟩
abbrev main_v478 : Ref sig .tc := ⟨.hbm, 611, rfl⟩
abbrev main_c_113 : Ref sig .tc := ⟨.hbm, 612, rfl⟩
abbrev main_v479 : Ref sig .tc := ⟨.hbm, 613, rfl⟩
abbrev main_v480 : Ref sig .tc := ⟨.hbm, 614, rfl⟩
abbrev main_v481 : Ref sig .tc := ⟨.hbm, 615, rfl⟩
abbrev main_v482 : Ref sig .tc := ⟨.hbm, 616, rfl⟩
abbrev main_v483 : Ref sig .tc := ⟨.hbm, 617, rfl⟩
abbrev main_cst_114 : Ref sig .tc := ⟨.hbm, 618, rfl⟩
abbrev main_v484 : Ref sig .tc := ⟨.hbm, 619, rfl⟩
abbrev main_v485 : Ref sig .tc := ⟨.hbm, 620, rfl⟩
abbrev main_v486 : Ref sig .tc := ⟨.hbm, 621, rfl⟩
abbrev main_cst_115 : Ref sig .tc := ⟨.hbm, 622, rfl⟩
abbrev main_v487 : Ref sig .tc := ⟨.hbm, 623, rfl⟩
abbrev main_cst_116 : Ref sig .tc := ⟨.hbm, 624, rfl⟩
abbrev main_v488 : Ref sig .tc := ⟨.hbm, 625, rfl⟩
abbrev main_v489 : Ref sig .tc := ⟨.hbm, 626, rfl⟩
abbrev main_v490 : Ref sig .tc := ⟨.hbm, 627, rfl⟩
abbrev main_cst_117 : Ref sig .tc := ⟨.hbm, 628, rfl⟩
abbrev main_v491 : Ref sig .tc := ⟨.hbm, 629, rfl⟩
abbrev main_v492 : Ref sig .tc := ⟨.hbm, 630, rfl⟩
abbrev main_v493 : Ref sig .tc := ⟨.hbm, 631, rfl⟩
abbrev main_v494 : Ref sig .tc := ⟨.hbm, 632, rfl⟩
abbrev main_c_118 : Ref sig .tc := ⟨.hbm, 633, rfl⟩
abbrev main_v495 : Ref sig .tc := ⟨.hbm, 634, rfl⟩
abbrev main_v496 : Ref sig .tc := ⟨.hbm, 635, rfl⟩
abbrev main_c_119 : Ref sig .tc := ⟨.hbm, 636, rfl⟩
abbrev main_v497 : Ref sig .tc := ⟨.hbm, 637, rfl⟩
abbrev main_v498 : Ref sig .tc := ⟨.hbm, 638, rfl⟩
abbrev main_v499 : Ref sig .tc := ⟨.hbm, 639, rfl⟩
abbrev main_v500 : Ref sig .tc := ⟨.hbm, 640, rfl⟩
abbrev main_v501 : Ref sig .tc := ⟨.hbm, 641, rfl⟩
abbrev main_cst_120 : Ref sig .tc := ⟨.hbm, 642, rfl⟩
abbrev main_v502 : Ref sig .tc := ⟨.hbm, 643, rfl⟩
abbrev main_v503 : Ref sig .tc := ⟨.hbm, 644, rfl⟩
abbrev main_v504 : Ref sig .tc := ⟨.hbm, 645, rfl⟩
abbrev main_cst_121 : Ref sig .tc := ⟨.hbm, 646, rfl⟩
abbrev main_v505 : Ref sig .tc := ⟨.hbm, 647, rfl⟩
abbrev main_cst_122 : Ref sig .tc := ⟨.hbm, 648, rfl⟩
abbrev main_v506 : Ref sig .tc := ⟨.hbm, 649, rfl⟩
abbrev main_v507 : Ref sig .tc := ⟨.hbm, 650, rfl⟩
abbrev main_v508 : Ref sig .tc := ⟨.hbm, 651, rfl⟩
abbrev main_cst_123 : Ref sig .tc := ⟨.hbm, 652, rfl⟩
abbrev main_v509 : Ref sig .tc := ⟨.hbm, 653, rfl⟩
abbrev main_v510 : Ref sig .tc := ⟨.hbm, 654, rfl⟩
abbrev main_v511 : Ref sig .tc := ⟨.hbm, 655, rfl⟩
abbrev main_v512 : Ref sig .tc := ⟨.hbm, 656, rfl⟩
abbrev main_c_124 : Ref sig .tc := ⟨.hbm, 657, rfl⟩
abbrev main_v513 : Ref sig .tc := ⟨.hbm, 658, rfl⟩
abbrev main_v514 : Ref sig .tc := ⟨.hbm, 659, rfl⟩
abbrev main_c_125 : Ref sig .tc := ⟨.hbm, 660, rfl⟩
abbrev main_v515 : Ref sig .tc := ⟨.hbm, 661, rfl⟩
abbrev main_v516 : Ref sig .tc := ⟨.hbm, 662, rfl⟩
abbrev main_v517 : Ref sig .tc := ⟨.hbm, 663, rfl⟩
abbrev main_v518 : Ref sig .tc := ⟨.hbm, 664, rfl⟩
abbrev main_v519 : Ref sig .tc := ⟨.hbm, 665, rfl⟩
abbrev main_cst_126 : Ref sig .tc := ⟨.hbm, 666, rfl⟩
abbrev main_v520 : Ref sig .tc := ⟨.hbm, 667, rfl⟩
abbrev main_v521 : Ref sig .tc := ⟨.hbm, 668, rfl⟩
abbrev main_v522 : Ref sig .tc := ⟨.hbm, 669, rfl⟩
abbrev main_cst_127 : Ref sig .tc := ⟨.hbm, 670, rfl⟩
abbrev main_v523 : Ref sig .tc := ⟨.hbm, 671, rfl⟩
abbrev main_cst_128 : Ref sig .tc := ⟨.hbm, 672, rfl⟩
abbrev main_v524 : Ref sig .tc := ⟨.hbm, 673, rfl⟩
abbrev main_v525 : Ref sig .tc := ⟨.hbm, 674, rfl⟩
abbrev main_v526 : Ref sig .tc := ⟨.hbm, 675, rfl⟩
abbrev main_cst_129 : Ref sig .tc := ⟨.hbm, 676, rfl⟩
abbrev main_v527 : Ref sig .tc := ⟨.hbm, 677, rfl⟩
abbrev main_v528 : Ref sig .tc := ⟨.hbm, 678, rfl⟩
abbrev main_v529 : Ref sig .tc := ⟨.hbm, 679, rfl⟩
abbrev main_v530 : Ref sig .tc := ⟨.hbm, 680, rfl⟩
abbrev main_c_130 : Ref sig .tc := ⟨.hbm, 681, rfl⟩
abbrev main_v531 : Ref sig .tc := ⟨.hbm, 682, rfl⟩
abbrev main_v532 : Ref sig .tc := ⟨.hbm, 683, rfl⟩
abbrev main_c_131 : Ref sig .tc := ⟨.hbm, 684, rfl⟩
abbrev main_v533 : Ref sig .tc := ⟨.hbm, 685, rfl⟩
abbrev main_v534 : Ref sig .tc := ⟨.hbm, 686, rfl⟩
abbrev main_v535 : Ref sig .tc := ⟨.hbm, 687, rfl⟩
abbrev main_v536 : Ref sig .tc := ⟨.hbm, 688, rfl⟩
abbrev main_v537 : Ref sig .tc := ⟨.hbm, 689, rfl⟩
abbrev main_cst_132 : Ref sig .tc := ⟨.hbm, 690, rfl⟩
abbrev main_v538 : Ref sig .tc := ⟨.hbm, 691, rfl⟩
abbrev main_v539 : Ref sig .tc := ⟨.hbm, 692, rfl⟩
abbrev main_v540 : Ref sig .tc := ⟨.hbm, 693, rfl⟩
abbrev main_cst_133 : Ref sig .tc := ⟨.hbm, 694, rfl⟩
abbrev main_v541 : Ref sig .tc := ⟨.hbm, 695, rfl⟩
abbrev main_cst_134 : Ref sig .tc := ⟨.hbm, 696, rfl⟩
abbrev main_v542 : Ref sig .tc := ⟨.hbm, 697, rfl⟩
abbrev main_v543 : Ref sig .tc := ⟨.hbm, 698, rfl⟩
abbrev main_v544 : Ref sig .tc := ⟨.hbm, 699, rfl⟩
abbrev main_cst_135 : Ref sig .tc := ⟨.hbm, 700, rfl⟩
abbrev main_v545 : Ref sig .tc := ⟨.hbm, 701, rfl⟩
abbrev main_v546 : Ref sig .tc := ⟨.hbm, 702, rfl⟩
abbrev main_v547 : Ref sig .tc := ⟨.hbm, 703, rfl⟩
abbrev main_v548 : Ref sig .tc := ⟨.hbm, 704, rfl⟩
abbrev main_c_136 : Ref sig .tc := ⟨.hbm, 705, rfl⟩
abbrev main_v549 : Ref sig .tc := ⟨.hbm, 706, rfl⟩
abbrev main_v550 : Ref sig .tc := ⟨.hbm, 707, rfl⟩
abbrev main_c_137 : Ref sig .tc := ⟨.hbm, 708, rfl⟩
abbrev main_v551 : Ref sig .tc := ⟨.hbm, 709, rfl⟩
abbrev main_v552 : Ref sig .tc := ⟨.hbm, 710, rfl⟩
abbrev main_v553 : Ref sig .tc := ⟨.hbm, 711, rfl⟩
abbrev main_v554 : Ref sig .tc := ⟨.hbm, 712, rfl⟩
abbrev main_v555 : Ref sig .tc := ⟨.hbm, 713, rfl⟩
abbrev main_cst_138 : Ref sig .tc := ⟨.hbm, 714, rfl⟩
abbrev main_v556 : Ref sig .tc := ⟨.hbm, 715, rfl⟩
abbrev main_v557 : Ref sig .tc := ⟨.hbm, 716, rfl⟩
abbrev main_v558 : Ref sig .tc := ⟨.hbm, 717, rfl⟩
abbrev main_cst_139 : Ref sig .tc := ⟨.hbm, 718, rfl⟩
abbrev main_v559 : Ref sig .tc := ⟨.hbm, 719, rfl⟩
abbrev main_cst_140 : Ref sig .tc := ⟨.hbm, 720, rfl⟩
abbrev main_v560 : Ref sig .tc := ⟨.hbm, 721, rfl⟩
abbrev main_v561 : Ref sig .tc := ⟨.hbm, 722, rfl⟩
abbrev main_v562 : Ref sig .tc := ⟨.hbm, 723, rfl⟩
abbrev main_cst_141 : Ref sig .tc := ⟨.hbm, 724, rfl⟩
abbrev main_v563 : Ref sig .tc := ⟨.hbm, 725, rfl⟩
abbrev main_v564 : Ref sig .tc := ⟨.hbm, 726, rfl⟩
abbrev main_v565 : Ref sig .tc := ⟨.hbm, 727, rfl⟩
abbrev main_v566 : Ref sig .tc := ⟨.hbm, 728, rfl⟩
abbrev main_v567 : Ref sig .tc := ⟨.hbm, 729, rfl⟩
abbrev main_v568 : Ref sig .tc := ⟨.hbm, 730, rfl⟩
abbrev main_v569 : Ref sig .tc := ⟨.hbm, 731, rfl⟩
abbrev main_v570 : Ref sig .tc := ⟨.hbm, 732, rfl⟩
abbrev main_v571 : Ref sig .tc := ⟨.hbm, 733, rfl⟩
abbrev main_v572 : Ref sig .tc := ⟨.hbm, 734, rfl⟩
abbrev main_v573 : Ref sig .tc := ⟨.hbm, 735, rfl⟩
abbrev main_v574 : Ref sig .tc := ⟨.hbm, 736, rfl⟩
abbrev main_v575 : Ref sig .tc := ⟨.hbm, 737, rfl⟩
abbrev main_v576 : Ref sig .tc := ⟨.hbm, 738, rfl⟩
abbrev main_v577 : Ref sig .tc := ⟨.hbm, 739, rfl⟩
abbrev main_v578 : Ref sig .tc := ⟨.hbm, 740, rfl⟩
abbrev main_v579 : Ref sig .tc := ⟨.hbm, 741, rfl⟩
abbrev main_v580 : Ref sig .tc := ⟨.hbm, 742, rfl⟩
abbrev main_v581 : Ref sig .tc := ⟨.hbm, 743, rfl⟩
abbrev main_v582 : Ref sig .tc := ⟨.hbm, 744, rfl⟩
abbrev main_v583 : Ref sig .tc := ⟨.hbm, 745, rfl⟩
abbrev main_v584 : Ref sig .tc := ⟨.hbm, 746, rfl⟩
abbrev main_v585 : Ref sig .tc := ⟨.hbm, 747, rfl⟩
abbrev main_v586 : Ref sig .tc := ⟨.hbm, 748, rfl⟩
abbrev main_v587 : Ref sig .tc := ⟨.hbm, 749, rfl⟩
abbrev main_v588 : Ref sig .tc := ⟨.hbm, 750, rfl⟩
abbrev main_v589 : Ref sig .tc := ⟨.hbm, 751, rfl⟩
abbrev main_v590 : Ref sig .tc := ⟨.hbm, 752, rfl⟩
abbrev main_v591 : Ref sig .tc := ⟨.hbm, 753, rfl⟩
abbrev main_v592 : Ref sig .tc := ⟨.hbm, 754, rfl⟩
abbrev main_v593 : Ref sig .tc := ⟨.hbm, 755, rfl⟩
abbrev main_v594 : Ref sig .tc := ⟨.hbm, 756, rfl⟩
abbrev main_v595 : Ref sig .tc := ⟨.hbm, 757, rfl⟩
abbrev main_v596 : Ref sig .tc := ⟨.hbm, 758, rfl⟩
abbrev main_v597 : Ref sig .tc := ⟨.hbm, 759, rfl⟩
abbrev main_v598 : Ref sig .tc := ⟨.hbm, 760, rfl⟩
abbrev main_v599 : Ref sig .tc := ⟨.hbm, 761, rfl⟩
abbrev main_v600 : Ref sig .tc := ⟨.hbm, 762, rfl⟩
abbrev main_v601 : Ref sig .tc := ⟨.hbm, 763, rfl⟩
abbrev main_v602 : Ref sig .tc := ⟨.hbm, 764, rfl⟩
abbrev main_v603 : Ref sig .tc := ⟨.hbm, 765, rfl⟩
abbrev main_v604 : Ref sig .tc := ⟨.hbm, 766, rfl⟩
abbrev main_v605 : Ref sig .tc := ⟨.hbm, 767, rfl⟩
abbrev main_v606 : Ref sig .tc := ⟨.hbm, 768, rfl⟩
abbrev main_v607 : Ref sig .tc := ⟨.hbm, 769, rfl⟩
abbrev main_v608 : Ref sig .tc := ⟨.hbm, 770, rfl⟩
abbrev main_v609 : Ref sig .tc := ⟨.hbm, 771, rfl⟩
abbrev main_v610 : Ref sig .tc := ⟨.hbm, 772, rfl⟩
abbrev main_v611 : Ref sig .tc := ⟨.hbm, 773, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg9_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg8_0 : Ref sig .tc := ⟨.vmem, 67, rfl⟩
abbrev cc4_stg9_0 : Ref sig .tc := ⟨.vmem, 68, rfl⟩
abbrev cc4_stg9_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg4_0 : Ref sig .tc := ⟨.vmem, 77, rfl⟩
abbrev cc5_stg5_0 : Ref sig .tc := ⟨.vmem, 78, rfl⟩
abbrev cc5_stg6_0 : Ref sig .tc := ⟨.vmem, 79, rfl⟩
abbrev cc5_stg7_0 : Ref sig .tc := ⟨.vmem, 80, rfl⟩
abbrev cc5_stg8_0 : Ref sig .tc := ⟨.vmem, 81, rfl⟩
abbrev cc5_stg9_0 : Ref sig .tc := ⟨.vmem, 82, rfl⟩
abbrev cc5_stg9_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg4_0 : Ref sig .tc := ⟨.vmem, 91, rfl⟩
abbrev cc6_stg5_0 : Ref sig .tc := ⟨.vmem, 92, rfl⟩
abbrev cc6_stg6_0 : Ref sig .tc := ⟨.vmem, 93, rfl⟩
abbrev cc6_stg7_0 : Ref sig .tc := ⟨.vmem, 94, rfl⟩
abbrev cc6_stg8_0 : Ref sig .tc := ⟨.vmem, 95, rfl⟩
abbrev cc6_stg9_0 : Ref sig .tc := ⟨.vmem, 96, rfl⟩
abbrev cc6_stg9_1 : Ref sig .tc := ⟨.vmem, 97, rfl⟩
abbrev cc7_stg0_0 : Ref sig .tc := ⟨.vmem, 98, rfl⟩
abbrev cc7_stg0_1 : Ref sig .tc := ⟨.vmem, 99, rfl⟩
abbrev cc7_stg1_0 : Ref sig .tc := ⟨.vmem, 100, rfl⟩
abbrev cc7_stg1_1 : Ref sig .tc := ⟨.vmem, 101, rfl⟩
abbrev cc7_stg2_0 : Ref sig .tc := ⟨.vmem, 102, rfl⟩
abbrev cc7_stg2_1 : Ref sig .tc := ⟨.vmem, 103, rfl⟩
abbrev cc7_stg3_0 : Ref sig .tc := ⟨.vmem, 104, rfl⟩
abbrev cc7_stg4_0 : Ref sig .tc := ⟨.vmem, 105, rfl⟩
abbrev cc7_stg5_0 : Ref sig .tc := ⟨.vmem, 106, rfl⟩
abbrev cc7_stg6_0 : Ref sig .tc := ⟨.vmem, 107, rfl⟩
abbrev cc7_stg7_0 : Ref sig .tc := ⟨.vmem, 108, rfl⟩
abbrev cc7_stg8_0 : Ref sig .tc := ⟨.vmem, 109, rfl⟩
abbrev cc7_stg9_0 : Ref sig .tc := ⟨.vmem, 110, rfl⟩
abbrev cc7_stg9_1 : Ref sig .tc := ⟨.vmem, 111, rfl⟩
abbrev cc8_stg0_0 : Ref sig .tc := ⟨.vmem, 112, rfl⟩
abbrev cc8_stg0_1 : Ref sig .tc := ⟨.vmem, 113, rfl⟩
abbrev cc8_stg1_0 : Ref sig .tc := ⟨.vmem, 114, rfl⟩
abbrev cc8_stg1_1 : Ref sig .tc := ⟨.vmem, 115, rfl⟩
abbrev cc8_stg2_0 : Ref sig .tc := ⟨.vmem, 116, rfl⟩
abbrev cc8_stg2_1 : Ref sig .tc := ⟨.vmem, 117, rfl⟩
abbrev cc8_stg3_0 : Ref sig .tc := ⟨.vmem, 118, rfl⟩
abbrev cc8_stg4_0 : Ref sig .tc := ⟨.vmem, 119, rfl⟩
abbrev cc8_stg5_0 : Ref sig .tc := ⟨.vmem, 120, rfl⟩
abbrev cc8_stg6_0 : Ref sig .tc := ⟨.vmem, 121, rfl⟩
abbrev cc8_stg7_0 : Ref sig .tc := ⟨.vmem, 122, rfl⟩
abbrev cc8_stg8_0 : Ref sig .tc := ⟨.vmem, 123, rfl⟩
abbrev cc8_stg9_0 : Ref sig .tc := ⟨.vmem, 124, rfl⟩
abbrev cc8_stg9_1 : Ref sig .tc := ⟨.vmem, 125, rfl⟩
abbrev cc9_stg0_0 : Ref sig .tc := ⟨.vmem, 126, rfl⟩
abbrev cc9_stg0_1 : Ref sig .tc := ⟨.vmem, 127, rfl⟩
abbrev cc9_stg1_0 : Ref sig .tc := ⟨.vmem, 128, rfl⟩
abbrev cc9_stg1_1 : Ref sig .tc := ⟨.vmem, 129, rfl⟩
abbrev cc9_stg2_0 : Ref sig .tc := ⟨.vmem, 130, rfl⟩
abbrev cc9_stg2_1 : Ref sig .tc := ⟨.vmem, 131, rfl⟩
abbrev cc9_stg3_0 : Ref sig .tc := ⟨.vmem, 132, rfl⟩
abbrev cc9_stg4_0 : Ref sig .tc := ⟨.vmem, 133, rfl⟩
abbrev cc9_stg5_0 : Ref sig .tc := ⟨.vmem, 134, rfl⟩
abbrev cc9_stg6_0 : Ref sig .tc := ⟨.vmem, 135, rfl⟩
abbrev cc9_stg7_0 : Ref sig .tc := ⟨.vmem, 136, rfl⟩
abbrev cc9_stg8_0 : Ref sig .tc := ⟨.vmem, 137, rfl⟩
abbrev cc9_stg9_0 : Ref sig .tc := ⟨.vmem, 138, rfl⟩
abbrev cc9_stg9_1 : Ref sig .tc := ⟨.vmem, 139, rfl⟩
abbrev cc10_stg0_0 : Ref sig .tc := ⟨.vmem, 140, rfl⟩
abbrev cc10_stg0_1 : Ref sig .tc := ⟨.vmem, 141, rfl⟩
abbrev cc10_stg1_0 : Ref sig .tc := ⟨.vmem, 142, rfl⟩
abbrev cc10_stg1_1 : Ref sig .tc := ⟨.vmem, 143, rfl⟩
abbrev cc10_stg2_0 : Ref sig .tc := ⟨.vmem, 144, rfl⟩
abbrev cc10_stg2_1 : Ref sig .tc := ⟨.vmem, 145, rfl⟩
abbrev cc10_stg3_0 : Ref sig .tc := ⟨.vmem, 146, rfl⟩
abbrev cc10_stg4_0 : Ref sig .tc := ⟨.vmem, 147, rfl⟩
abbrev cc10_stg5_0 : Ref sig .tc := ⟨.vmem, 148, rfl⟩
abbrev cc10_stg6_0 : Ref sig .tc := ⟨.vmem, 149, rfl⟩
abbrev cc10_stg7_0 : Ref sig .tc := ⟨.vmem, 150, rfl⟩
abbrev cc10_stg8_0 : Ref sig .tc := ⟨.vmem, 151, rfl⟩
abbrev cc10_stg9_0 : Ref sig .tc := ⟨.vmem, 152, rfl⟩
abbrev cc10_stg9_1 : Ref sig .tc := ⟨.vmem, 153, rfl⟩
abbrev cc11_stg0_0 : Ref sig .tc := ⟨.vmem, 154, rfl⟩
abbrev cc11_stg0_1 : Ref sig .tc := ⟨.vmem, 155, rfl⟩
abbrev cc11_stg1_0 : Ref sig .tc := ⟨.vmem, 156, rfl⟩
abbrev cc11_stg1_1 : Ref sig .tc := ⟨.vmem, 157, rfl⟩
abbrev cc11_stg2_0 : Ref sig .tc := ⟨.vmem, 158, rfl⟩
abbrev cc11_stg2_1 : Ref sig .tc := ⟨.vmem, 159, rfl⟩
abbrev cc11_stg3_0 : Ref sig .tc := ⟨.vmem, 160, rfl⟩
abbrev cc11_stg4_0 : Ref sig .tc := ⟨.vmem, 161, rfl⟩
abbrev cc11_stg5_0 : Ref sig .tc := ⟨.vmem, 162, rfl⟩
abbrev cc11_stg6_0 : Ref sig .tc := ⟨.vmem, 163, rfl⟩
abbrev cc11_stg7_0 : Ref sig .tc := ⟨.vmem, 164, rfl⟩
abbrev cc11_stg8_0 : Ref sig .tc := ⟨.vmem, 165, rfl⟩
abbrev cc11_stg9_0 : Ref sig .tc := ⟨.vmem, 166, rfl⟩
abbrev cc11_stg9_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem4_0 : DmaSem sig := 63
abbrev cc4_sem5_0 : DmaSem sig := 64
abbrev cc4_sem6_0 : DmaSem sig := 65
abbrev cc4_sem7_0 : DmaSem sig := 66
abbrev cc4_sem8_0 : DmaSem sig := 67
abbrev cc4_sem9_0 : DmaSem sig := 68
abbrev cc4_sem9_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem4_0 : DmaSem sig := 77
abbrev cc5_sem5_0 : DmaSem sig := 78
abbrev cc5_sem6_0 : DmaSem sig := 79
abbrev cc5_sem7_0 : DmaSem sig := 80
abbrev cc5_sem8_0 : DmaSem sig := 81
abbrev cc5_sem9_0 : DmaSem sig := 82
abbrev cc5_sem9_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem4_0 : DmaSem sig := 91
abbrev cc6_sem5_0 : DmaSem sig := 92
abbrev cc6_sem6_0 : DmaSem sig := 93
abbrev cc6_sem7_0 : DmaSem sig := 94
abbrev cc6_sem8_0 : DmaSem sig := 95
abbrev cc6_sem9_0 : DmaSem sig := 96
abbrev cc6_sem9_1 : DmaSem sig := 97
abbrev cc7_sem0_0 : DmaSem sig := 98
abbrev cc7_sem0_1 : DmaSem sig := 99
abbrev cc7_sem1_0 : DmaSem sig := 100
abbrev cc7_sem1_1 : DmaSem sig := 101
abbrev cc7_sem2_0 : DmaSem sig := 102
abbrev cc7_sem2_1 : DmaSem sig := 103
abbrev cc7_sem3_0 : DmaSem sig := 104
abbrev cc7_sem4_0 : DmaSem sig := 105
abbrev cc7_sem5_0 : DmaSem sig := 106
abbrev cc7_sem6_0 : DmaSem sig := 107
abbrev cc7_sem7_0 : DmaSem sig := 108
abbrev cc7_sem8_0 : DmaSem sig := 109
abbrev cc7_sem9_0 : DmaSem sig := 110
abbrev cc7_sem9_1 : DmaSem sig := 111
abbrev cc8_sem0_0 : DmaSem sig := 112
abbrev cc8_sem0_1 : DmaSem sig := 113
abbrev cc8_sem1_0 : DmaSem sig := 114
abbrev cc8_sem1_1 : DmaSem sig := 115
abbrev cc8_sem2_0 : DmaSem sig := 116
abbrev cc8_sem2_1 : DmaSem sig := 117
abbrev cc8_sem3_0 : DmaSem sig := 118
abbrev cc8_sem4_0 : DmaSem sig := 119
abbrev cc8_sem5_0 : DmaSem sig := 120
abbrev cc8_sem6_0 : DmaSem sig := 121
abbrev cc8_sem7_0 : DmaSem sig := 122
abbrev cc8_sem8_0 : DmaSem sig := 123
abbrev cc8_sem9_0 : DmaSem sig := 124
abbrev cc8_sem9_1 : DmaSem sig := 125
abbrev cc9_sem0_0 : DmaSem sig := 126
abbrev cc9_sem0_1 : DmaSem sig := 127
abbrev cc9_sem1_0 : DmaSem sig := 128
abbrev cc9_sem1_1 : DmaSem sig := 129
abbrev cc9_sem2_0 : DmaSem sig := 130
abbrev cc9_sem2_1 : DmaSem sig := 131
abbrev cc9_sem3_0 : DmaSem sig := 132
abbrev cc9_sem4_0 : DmaSem sig := 133
abbrev cc9_sem5_0 : DmaSem sig := 134
abbrev cc9_sem6_0 : DmaSem sig := 135
abbrev cc9_sem7_0 : DmaSem sig := 136
abbrev cc9_sem8_0 : DmaSem sig := 137
abbrev cc9_sem9_0 : DmaSem sig := 138
abbrev cc9_sem9_1 : DmaSem sig := 139
abbrev cc10_sem0_0 : DmaSem sig := 140
abbrev cc10_sem0_1 : DmaSem sig := 141
abbrev cc10_sem1_0 : DmaSem sig := 142
abbrev cc10_sem1_1 : DmaSem sig := 143
abbrev cc10_sem2_0 : DmaSem sig := 144
abbrev cc10_sem2_1 : DmaSem sig := 145
abbrev cc10_sem3_0 : DmaSem sig := 146
abbrev cc10_sem4_0 : DmaSem sig := 147
abbrev cc10_sem5_0 : DmaSem sig := 148
abbrev cc10_sem6_0 : DmaSem sig := 149
abbrev cc10_sem7_0 : DmaSem sig := 150
abbrev cc10_sem8_0 : DmaSem sig := 151
abbrev cc10_sem9_0 : DmaSem sig := 152
abbrev cc10_sem9_1 : DmaSem sig := 153
abbrev cc11_sem0_0 : DmaSem sig := 154
abbrev cc11_sem0_1 : DmaSem sig := 155
abbrev cc11_sem1_0 : DmaSem sig := 156
abbrev cc11_sem1_1 : DmaSem sig := 157
abbrev cc11_sem2_0 : DmaSem sig := 158
abbrev cc11_sem2_1 : DmaSem sig := 159
abbrev cc11_sem3_0 : DmaSem sig := 160
abbrev cc11_sem4_0 : DmaSem sig := 161
abbrev cc11_sem5_0 : DmaSem sig := 162
abbrev cc11_sem6_0 : DmaSem sig := 163
abbrev cc11_sem7_0 : DmaSem sig := 164
abbrev cc11_sem8_0 : DmaSem sig := 165
abbrev cc11_sem9_0 : DmaSem sig := 166
abbrev cc11_sem9_1 : DmaSem sig := 167

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![15], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S2000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S2000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S2000x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![15], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S128x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S128x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S2000x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S128x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S128x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 2 → Memref sig .tc .vmem S2000x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S30000x128 : S_.BroadcastsInDim S30000x128 (![] : Fin 0 → Fin S30000x128.rank)
  bcast_S_S800000x1 : S_.BroadcastsInDim S800000x1 (![] : Fin 0 → Fin S800000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S10000x128 : S_.BroadcastsInDim S10000x128 (![] : Fin 0 → Fin S10000x128.rank)
  bcast_S_S400000x1 : S_.BroadcastsInDim S400000x1 (![] : Fin 0 → Fin S400000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x6x128x128_S1x1x128x128_0_3_0_0 : S4x6x128x128.Slices ![0, 3, 0, 0] S1x1x128x128
  shapeCasts_S1x1x128x128_S128x128 : S1x1x128x128.ShapeCasts S128x128
  slices_S4x6x128_S1x1x128_0_3_0 : S4x6x128.Slices ![0, 3, 0] S1x1x128
  shapeCasts_S1x1x128_S128 : S1x1x128.ShapeCasts S128
  slices_S4x6x128x128_S1x1x128x128_0_5_0_0 : S4x6x128x128.Slices ![0, 5, 0, 0] S1x1x128x128
  slices_S4x6x128_S1x1x128_0_5_0 : S4x6x128.Slices ![0, 5, 0] S1x1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x6x128x128_S1x1x128x128_0_0_0_0 : S4x6x128x128.Slices ![0, 0, 0, 0] S1x1x128x128
  slices_S4x6x128_S1x1x128_0_0_0 : S4x6x128.Slices ![0, 0, 0] S1x1x128
  slices_S4x6x128x128_S1x1x128x128_0_4_0_0 : S4x6x128x128.Slices ![0, 4, 0, 0] S1x1x128x128
  slices_S4x6x128_S1x1x128_0_4_0 : S4x6x128.Slices ![0, 4, 0] S1x1x128
  slices_S4x6x128x128_S1x1x128x128_0_1_0_0 : S4x6x128x128.Slices ![0, 1, 0, 0] S1x1x128x128
  slices_S4x6x128_S1x1x128_0_1_0 : S4x6x128.Slices ![0, 1, 0] S1x1x128
  slices_S4x6x128x128_S1x1x128x128_0_2_0_0 : S4x6x128x128.Slices ![0, 2, 0, 0] S1x1x128x128
  slices_S4x6x128_S1x1x128_0_2_0 : S4x6x128.Slices ![0, 2, 0] S1x1x128
  slices_S4x6x128x128_S1x1x128x128_1_3_0_0 : S4x6x128x128.Slices ![1, 3, 0, 0] S1x1x128x128
  slices_S4x6x128_S1x1x128_1_3_0 : S4x6x128.Slices ![1, 3, 0] S1x1x128
  slices_S4x6x128x128_S1x1x128x128_1_5_0_0 : S4x6x128x128.Slices ![1, 5, 0, 0] S1x1x128x128
  slices_S4x6x128_S1x1x128_1_5_0 : S4x6x128.Slices ![1, 5, 0] S1x1x128
  slices_S4x6x128x128_S1x1x128x128_1_0_0_0 : S4x6x128x128.Slices ![1, 0, 0, 0] S1x1x128x128
  slices_S4x6x128_S1x1x128_1_0_0 : S4x6x128.Slices ![1, 0, 0] S1x1x128
  slices_S4x6x128x128_S1x1x128x128_1_4_0_0 : S4x6x128x128.Slices ![1, 4, 0, 0] S1x1x128x128
  slices_S4x6x128_S1x1x128_1_4_0 : S4x6x128.Slices ![1, 4, 0] S1x1x128
  slices_S4x6x128x128_S1x1x128x128_1_1_0_0 : S4x6x128x128.Slices ![1, 1, 0, 0] S1x1x128x128
  slices_S4x6x128_S1x1x128_1_1_0 : S4x6x128.Slices ![1, 1, 0] S1x1x128
  slices_S4x6x128x128_S1x1x128x128_1_2_0_0 : S4x6x128x128.Slices ![1, 2, 0, 0] S1x1x128x128
  slices_S4x6x128_S1x1x128_1_2_0 : S4x6x128.Slices ![1, 2, 0] S1x1x128
  slices_S4x6x128x128_S1x1x128x128_2_3_0_0 : S4x6x128x128.Slices ![2, 3, 0, 0] S1x1x128x128
  slices_S4x6x128_S1x1x128_2_3_0 : S4x6x128.Slices ![2, 3, 0] S1x1x128
  slices_S4x6x128x128_S1x1x128x128_2_5_0_0 : S4x6x128x128.Slices ![2, 5, 0, 0] S1x1x128x128
  slices_S4x6x128_S1x1x128_2_5_0 : S4x6x128.Slices ![2, 5, 0] S1x1x128
  slices_S4x6x128x128_S1x1x128x128_2_0_0_0 : S4x6x128x128.Slices ![2, 0, 0, 0] S1x1x128x128
  slices_S4x6x128_S1x1x128_2_0_0 : S4x6x128.Slices ![2, 0, 0] S1x1x128
  slices_S4x6x128x128_S1x1x128x128_2_4_0_0 : S4x6x128x128.Slices ![2, 4, 0, 0] S1x1x128x128
  slices_S4x6x128_S1x1x128_2_4_0 : S4x6x128.Slices ![2, 4, 0] S1x1x128
  slices_S4x6x128x128_S1x1x128x128_2_1_0_0 : S4x6x128x128.Slices ![2, 1, 0, 0] S1x1x128x128
  slices_S4x6x128_S1x1x128_2_1_0 : S4x6x128.Slices ![2, 1, 0] S1x1x128
  slices_S4x6x128x128_S1x1x128x128_2_2_0_0 : S4x6x128x128.Slices ![2, 2, 0, 0] S1x1x128x128
  slices_S4x6x128_S1x1x128_2_2_0 : S4x6x128.Slices ![2, 2, 0] S1x1x128
  slices_S4x6x128x128_S1x1x128x128_3_3_0_0 : S4x6x128x128.Slices ![3, 3, 0, 0] S1x1x128x128
  slices_S4x6x128_S1x1x128_3_3_0 : S4x6x128.Slices ![3, 3, 0] S1x1x128
  slices_S4x6x128x128_S1x1x128x128_3_5_0_0 : S4x6x128x128.Slices ![3, 5, 0, 0] S1x1x128x128
  slices_S4x6x128_S1x1x128_3_5_0 : S4x6x128.Slices ![3, 5, 0] S1x1x128
  reduces_S2000x128_S2000 : S2000x128.Reduces [1] S2000
  shapeCasts_S2000_S2000x1 : S2000.ShapeCasts S2000x1
  broadcasts_S2000x1_S2000x128 : S2000x1.Broadcasts S2000x128
  slices_S4x6x128x128_S1x1x128x128_3_0_0_0 : S4x6x128x128.Slices ![3, 0, 0, 0] S1x1x128x128
  slices_S4x6x128_S1x1x128_3_0_0 : S4x6x128.Slices ![3, 0, 0] S1x1x128
  slices_S4x6x128x128_S1x1x128x128_3_4_0_0 : S4x6x128x128.Slices ![3, 4, 0, 0] S1x1x128x128
  slices_S4x6x128_S1x1x128_3_4_0 : S4x6x128.Slices ![3, 4, 0] S1x1x128
  slices_S4x6x128x128_S1x1x128x128_3_1_0_0 : S4x6x128x128.Slices ![3, 1, 0, 0] S1x1x128x128
  slices_S4x6x128_S1x1x128_3_1_0 : S4x6x128.Slices ![3, 1, 0] S1x1x128
  slices_S4x6x128x128_S1x1x128x128_3_2_0_0 : S4x6x128x128.Slices ![3, 2, 0, 0] S1x1x128x128
  slices_S4x6x128_S1x1x128_3_2_0 : S4x6x128.Slices ![3, 2, 0] S1x1x128
  gather_S50000x128_S800000x1_S800000x128_1_0_n_n_0_1_1128_wf : GatherDims.WF S50000x128 S800000x1 S800000x128 [1] [0] [] [0] [] 1 ![1, 128]
  scatter_S30000x128_S800000x1_S800000x128_1_0_0_1_wf : ScatterDims.WF S30000x128 S800000x1 S800000x128 [1] [0] [0] 1
  scatter_S30000x1_S800000x1_S800000x1_1_0_0_1_wf : ScatterDims.WF S30000x1 S800000x1 S800000x1 [1] [0] [0] 1
  gather_S30000x128_S400000x1_S400000x128_1_0_n_n_0_1_1128_wf : GatherDims.WF S30000x128 S400000x1 S400000x128 [1] [0] [] [0] [] 1 ![1, 128]
  scatter_S10000x128_S400000x1_S400000x128_1_0_0_1_wf : ScatterDims.WF S10000x128 S400000x1 S400000x128 [1] [0] [0] 1
  scatter_S10000x1_S400000x1_S400000x1_1_0_0_1_wf : ScatterDims.WF S10000x1 S400000x1 S400000x1 [1] [0] [0] 1
  scatter_S10000x128_S800000x1_S800000x128_1_0_0_1_wf : ScatterDims.WF S10000x128 S800000x1 S800000x128 [1] [0] [0] 1
  scatter_S10000x1_S800000x1_S800000x1_1_0_0_1_wf : ScatterDims.WF S10000x1 S800000x1 S800000x1 [1] [0] [0] 1
  gather_S30000x128_S800000x1_S800000x128_1_0_n_n_0_1_1128_wf : GatherDims.WF S30000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  gather_S10000x128_S400000x1_S400000x128_1_0_n_n_0_1_1128_wf : GatherDims.WF S10000x128 S400000x1 S400000x128 [1] [0] [] [0] [] 1 ![1, 128]
  scatter_S30000x128_S400000x1_S400000x128_1_0_0_1_wf : ScatterDims.WF S30000x128 S400000x1 S400000x128 [1] [0] [0] 1
  scatter_S30000x1_S400000x1_S400000x1_1_0_0_1_wf : ScatterDims.WF S30000x1 S400000x1 S400000x1 [1] [0] [0] 1
  gather_S10000x128_S800000x1_S800000x128_1_0_n_n_0_1_1128_wf : GatherDims.WF S10000x128 S800000x1 S800000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S30000x128.size a
  hwx1_0 : ∀ i : grid1.Coords, EltTy.bits .f32 = 32 ∨ (Rect.block (s := S30000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S30000x128.size a
  hwx1_1 : ∀ i : grid1.Coords, EltTy.bits .f32 = 32 ∨ (Rect.block (s := S30000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S30000x128.size a
  hwx1_2 : ∀ i : grid1.Coords, EltTy.bits .f32 = 32 ∨ (Rect.block (s := S30000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S30000x128.size a
  hwx1_9 : ∀ i : grid1.Coords, EltTy.bits .f32 = 32 ∨ (Rect.block (s := S30000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S10000x128.size a
  hwx2_1 : ∀ i : grid2.Coords, EltTy.bits .f32 = 32 ∨ (Rect.block (s := S10000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S10000x128.size a
  hwx2_9 : ∀ i : grid2.Coords, EltTy.bits .f32 = 32 ∨ (Rect.block (s := S10000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S30000x128.size a
  hwx4_0 : ∀ i : grid4.Coords, EltTy.bits .f32 = 32 ∨ (Rect.block (s := S30000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S30000x128.size a
  hwx4_1 : ∀ i : grid4.Coords, EltTy.bits .f32 = 32 ∨ (Rect.block (s := S30000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S30000x128.size a
  hwx4_2 : ∀ i : grid4.Coords, EltTy.bits .f32 = 32 ∨ (Rect.block (s := S30000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S30000x128.size a
  hwx4_9 : ∀ i : grid4.Coords, EltTy.bits .f32 = 32 ∨ (Rect.block (s := S30000x128) S2000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S10000x128.size a
  hwx5_0 : ∀ i : grid5.Coords, EltTy.bits .f32 = 32 ∨ (Rect.block (s := S10000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S10000x128.size a
  hwx5_1 : ∀ i : grid5.Coords, EltTy.bits .f32 = 32 ∨ (Rect.block (s := S10000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S10000x128.size a
  hwx5_2 : ∀ i : grid5.Coords, EltTy.bits .f32 = 32 ∨ (Rect.block (s := S10000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S10000x128.size a
  hwx5_9 : ∀ i : grid5.Coords, EltTy.bits .f32 = 32 ∨ (Rect.block (s := S10000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x128.size a ≤ S50000x128.size a
  hwx6_9 : ∀ i : grid6.Coords, EltTy.bits .f32 = 32 ∨ (Rect.block (s := S50000x128) S2000x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S30000x128.size a
  hwx7_0 : ∀ i : grid7.Coords, EltTy.bits .f32 = 32 ∨ (Rect.block (s := S30000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S30000x128.size a
  hwx7_1 : ∀ i : grid7.Coords, EltTy.bits .f32 = 32 ∨ (Rect.block (s := S30000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S30000x128.size a
  hwx7_2 : ∀ i : grid7.Coords, EltTy.bits .f32 = 32 ∨ (Rect.block (s := S30000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .f32 = 32 ∨ (Rect.block (s := S128x128) S128x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x128.size a ≤ S30000x128.size a
  hwx7_9 : ∀ i : grid7.Coords, EltTy.bits .f32 = 32 ∨ (Rect.block (s := S30000x128) S2000x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S10000x128.size a
  hwx8_0 : ∀ i : grid8.Coords, EltTy.bits .f32 = 32 ∨ (Rect.block (s := S10000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S10000x128.size a
  hwx8_1 : ∀ i : grid8.Coords, EltTy.bits .f32 = 32 ∨ (Rect.block (s := S10000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S10000x128.size a
  hwx8_2 : ∀ i : grid8.Coords, EltTy.bits .f32 = 32 ∨ (Rect.block (s := S10000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S2000x128.size a ≤ S10000x128.size a
  hwx8_9 : ∀ i : grid8.Coords, EltTy.bits .f32 = 32 ∨ (Rect.block (s := S10000x128) S2000x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S50000x128.size a
  hwx9_2 : ∀ i : grid9.Coords, EltTy.bits .f32 = 32 ∨ (Rect.block (s := S50000x128) S2000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128x128.size a ≤ S128x128.size a
  hwx9_6 : ∀ i : grid9.Coords, EltTy.bits .f32 = 32 ∨ (Rect.block (s := S128x128) S128x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x128.size a ≤ S128x128.size a
  hwx9_7 : ∀ i : grid9.Coords, EltTy.bits .f32 = 32 ∨ (Rect.block (s := S128x128) S128x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S2000x128.size a ≤ S50000x128.size a
  hwx9_9 : ∀ i : grid9.Coords, EltTy.bits .f32 = 32 ∨ (Rect.block (s := S50000x128) S2000x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S30000x128.size a
  hwx10_0 : ∀ i : grid10.Coords, EltTy.bits .f32 = 32 ∨ (Rect.block (s := S30000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S30000x128.size a
  hwx10_1 : ∀ i : grid10.Coords, EltTy.bits .f32 = 32 ∨ (Rect.block (s := S30000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S30000x128.size a
  hwx10_2 : ∀ i : grid10.Coords, EltTy.bits .f32 = 32 ∨ (Rect.block (s := S30000x128) S2000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x128.size a ≤ S128x128.size a
  hwx10_4 : ∀ i : grid10.Coords, EltTy.bits .f32 = 32 ∨ (Rect.block (s := S128x128) S128x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S128x128.size a ≤ S128x128.size a
  hwx10_6 : ∀ i : grid10.Coords, EltTy.bits .f32 = 32 ∨ (Rect.block (s := S128x128) S128x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S128x128.size a ≤ S128x128.size a
  hwx10_7 : ∀ i : grid10.Coords, EltTy.bits .f32 = 32 ∨ (Rect.block (s := S128x128) S128x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S2000x128.size a ≤ S30000x128.size a
  hwx10_9 : ∀ i : grid10.Coords, EltTy.bits .f32 = 32 ∨ (Rect.block (s := S30000x128) S2000x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S10000x128.size a
  hwx11_0 : ∀ i : grid11.Coords, EltTy.bits .f32 = 32 ∨ (Rect.block (s := S10000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S10000x128.size a
  hwx11_1 : ∀ i : grid11.Coords, EltTy.bits .f32 = 32 ∨ (Rect.block (s := S10000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S10000x128.size a
  hwx11_2 : ∀ i : grid11.Coords, EltTy.bits .f32 = 32 ∨ (Rect.block (s := S10000x128) S2000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128x128.size a ≤ S128x128.size a
  hwx11_4 : ∀ i : grid11.Coords, EltTy.bits .f32 = 32 ∨ (Rect.block (s := S128x128) S128x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S128x128.size a ≤ S128x128.size a
  hwx11_6 : ∀ i : grid11.Coords, EltTy.bits .f32 = 32 ∨ (Rect.block (s := S128x128) S128x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S128x128.size a ≤ S128x128.size a
  hwx11_7 : ∀ i : grid11.Coords, EltTy.bits .f32 = 32 ∨ (Rect.block (s := S128x128) S128x128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x128.size a ≤ S1x128.size a
  hwx11_8 : ∀ i : grid11.Coords, EltTy.bits .f32 = 32 ∨ (Rect.block (s := S1x128) S1x128.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S2000x128.size a ≤ S10000x128.size a
  hwx11_9 : ∀ i : grid11.Coords, EltTy.bits .f32 = 32 ∨ (Rect.block (s := S10000x128) S2000x128.size (cc11_transform_9 i) (hinb11_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S30000x128_S800000x1_S800000x128_1_0_0_1 : ScatterDims S30000x128 S800000x1 S800000x128 where
  updateWindowDims := [1]
  insertedWindowDims := [0]
  scatterDimsToOperandDims := [0]
  indexVectorDim := 1
  wf := scatter_S30000x128_S800000x1_S800000x128_1_0_0_1_wf
def scatter_S30000x1_S800000x1_S800000x1_1_0_0_1 : ScatterDims S30000x1 S800000x1 S800000x1 where
  updateWindowDims := [1]
  insertedWindowDims := [0]
  scatterDimsToOperandDims := [0]
  indexVectorDim := 1
  wf := scatter_S30000x1_S800000x1_S800000x1_1_0_0_1_wf
def gather_S30000x128_S400000x1_S400000x128_1_0_n_n_0_1_1128 : GatherDims S30000x128 S400000x1 S400000x128 where
  offsetDims := [1]
  collapsedSliceDims := [0]
  operandBatchingDims := []
  startIndicesBatchingDims := []
  startIndexMap := [0]
  indexVectorDim := 1
  sliceSizes := ![1, 128]
  wf := gather_S30000x128_S400000x1_S400000x128_1_0_n_n_0_1_1128_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def scatter_S10000x1_S400000x1_S400000x1_1_0_0_1 : ScatterDims S10000x1 S400000x1 S400000x1 where
  updateWindowDims := [1]
  insertedWindowDims := [0]
  scatterDimsToOperandDims := [0]
  indexVectorDim := 1
  wf := scatter_S10000x1_S400000x1_S400000x1_1_0_0_1_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def scatter_S10000x1_S800000x1_S800000x1_1_0_0_1 : ScatterDims S10000x1 S800000x1 S800000x1 where
  updateWindowDims := [1]
  insertedWindowDims := [0]
  scatterDimsToOperandDims := [0]
  indexVectorDim := 1
  wf := scatter_S10000x1_S800000x1_S800000x1_1_0_0_1_wf
def gather_S30000x128_S800000x1_S800000x128_1_0_n_n_0_1_1128 : GatherDims S30000x128 S800000x1 S800000x128 where
  offsetDims := [1]
  collapsedSliceDims := [0]
  operandBatchingDims := []
  startIndicesBatchingDims := []
  startIndexMap := [0]
  indexVectorDim := 1
  sliceSizes := ![1, 128]
  wf := gather_S30000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def scatter_S30000x128_S400000x1_S400000x128_1_0_0_1 : ScatterDims S30000x128 S400000x1 S400000x128 where
  updateWindowDims := [1]
  insertedWindowDims := [0]
  scatterDimsToOperandDims := [0]
  indexVectorDim := 1
  wf := scatter_S30000x128_S400000x1_S400000x128_1_0_0_1_wf
def scatter_S30000x1_S400000x1_S400000x1_1_0_0_1 : ScatterDims S30000x1 S400000x1 S400000x1 where
  updateWindowDims := [1]
  insertedWindowDims := [0]
  scatterDimsToOperandDims := [0]
  indexVectorDim := 1
  wf := scatter_S30000x1_S400000x1_S400000x1_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v71) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v109) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v111) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v120) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v115) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v117) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v121) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v122) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v124) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v126) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v135) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v130) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v132) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v136) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v137) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v139) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v141) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v150) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v145) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v147) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v151) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v152) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v224) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v260) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v122) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v262) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v264) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v273) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v268) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v270) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v274) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v275) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v170) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v242) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v137) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v277) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v279) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v288) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v283) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v285) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v289) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v290) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v188) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v206) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v152) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v292) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v294) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v303) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v298) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v300) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v304) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v305) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v377) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v413) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v275) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v415) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v417) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v426) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v421) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v423) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v427) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v428) S2000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v323) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v395) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v290) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v430) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v432) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v441) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v436) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v438) S128x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v442) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v443) S2000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v341) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v359) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v305) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v445) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v447) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v456) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v451) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v453) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v457) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v458) S2000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v530) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v566) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v428) S2000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v568) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v570) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v579) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v574) S128x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v576) S128x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v580) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v581) S2000x128.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v476) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v548) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v443) S2000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v583) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v585) S128x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v594) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v589) S128x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v591) S128x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v595) S1x128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v596) S2000x128.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v494) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v512) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v458) S2000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v598) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v600) S128x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v609) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v604) S128x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v606) S128x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v610) S1x128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v611) S2000x128.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

class Facts : Prop extends Facts₀ where

variable [Facts]
-- ==== ReferenceIdeal.lean ====
abbrev S50000x128 : Shape := ⟨2, ![50000, 128]⟩
abbrev S30000x128 : Shape := ⟨2, ![30000, 128]⟩
abbrev S10000x128 : Shape := ⟨2, ![10000, 128]⟩
abbrev S800000 : Shape := ⟨1, ![800000]⟩
abbrev S400000 : Shape := ⟨1, ![400000]⟩
abbrev S4x6x128x128 : Shape := ⟨4, ![4, 6, 128, 128]⟩
abbrev S4x6x128 : Shape := ⟨3, ![4, 6, 128]⟩
abbrev S_ : Shape := ⟨0, ![]⟩
abbrev S800000x1 : Shape := ⟨2, ![800000, 1]⟩
abbrev S800000x128 : Shape := ⟨2, ![800000, 128]⟩
abbrev S30000x1 : Shape := ⟨2, ![30000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S400000x1 : Shape := ⟨2, ![400000, 1]⟩
abbrev S400000x128 : Shape := ⟨2, ![400000, 128]⟩
abbrev S10000x1 : Shape := ⟨2, ![10000, 1]⟩
abbrev S50000x1 : Shape := ⟨2, ![50000, 1]⟩
abbrev S50000 : Shape := ⟨1, ![50000]⟩
abbrev S30000 : Shape := ⟨1, ![30000]⟩
abbrev S10000 : Shape := ⟨1, ![10000]⟩

abbrev nBuf : Space → Nat
  | .hbm => 987
  | .vmem => 0
  | .smem => 0
  | _ => 0

abbrev hbmTy0_0 (i : Nat) : BufTy := match i % 128 with
  | 0 => ⟨S50000x128, .f32⟩
  | 1 => ⟨S30000x128, .f32⟩
  | 2 => ⟨S10000x128, .f32⟩
  | 3 => ⟨S800000, .i32⟩
  | 4 => ⟨S800000, .i32⟩
  | 5 => ⟨S400000, .i32⟩
  | 6 => ⟨S400000, .i32⟩
  | 7 => ⟨S800000, .i32⟩
  | 8 => ⟨S800000, .i32⟩
  | 9 => ⟨S800000, .i32⟩
  | 10 => ⟨S800000, .i32⟩
  | 11 => ⟨S400000, .i32⟩
  | 12 => ⟨S400000, .i32⟩
  | 13 => ⟨S800000, .i32⟩
  | 14 => ⟨S800000, .i32⟩
  | 15 => ⟨S4x6x128x128, .f32⟩
  | 16 => ⟨S4x6x128x128, .f32⟩
  | 17 => ⟨S4x6x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S30000x128, .f32⟩
  | 29 => ⟨S800000x1, .i32⟩
  | 30 => ⟨S30000x128, .f32⟩
  | 31 => ⟨S_, .f32⟩
  | 32 => ⟨S800000x1, .f32⟩
  | 33 => ⟨S_, .f32⟩
  | 34 => ⟨S30000x1, .f32⟩
  | 35 => ⟨S800000x1, .i32⟩
  | 36 => ⟨S30000x1, .f32⟩
  | 37 => ⟨S_, .f32⟩
  | 38 => ⟨S30000x1, .f32⟩
  | 39 => ⟨S30000x1, .f32⟩
  | 40 => ⟨S30000x128, .f32⟩
  | 41 => ⟨S30000x128, .f32⟩
  | 42 => ⟨S1x1x128x128, .f32⟩
  | 43 => ⟨S128x128, .f32⟩
  | 44 => ⟨S30000x128, .f32⟩
  | 45 => ⟨S1x1x128x128, .f32⟩
  | 46 => ⟨S128x128, .f32⟩
  | 47 => ⟨S30000x128, .f32⟩
  | 48 => ⟨S30000x128, .f32⟩
  | 49 => ⟨S1x1x128, .f32⟩
  | 50 => ⟨S128, .f32⟩
  | 51 => ⟨S1x128, .f32⟩
  | 52 => ⟨S30000x128, .f32⟩
  | 53 => ⟨S30000x128, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S_, .f32⟩
  | 64 => ⟨S10000x128, .f32⟩
  | 65 => ⟨S400000x1, .i32⟩
  | 66 => ⟨S10000x128, .f32⟩
  | 67 => ⟨S_, .f32⟩
  | 68 => ⟨S400000x1, .f32⟩
  | 69 => ⟨S_, .f32⟩
  | 70 => ⟨S10000x1, .f32⟩
  | 71 => ⟨S400000x1, .i32⟩
  | 72 => ⟨S10000x1, .f32⟩
  | 73 => ⟨S_, .f32⟩
  | 74 => ⟨S10000x1, .f32⟩
  | 75 => ⟨S10000x1, .f32⟩
  | 76 => ⟨S10000x128, .f32⟩
  | 77 => ⟨S10000x128, .f32⟩
  | 78 => ⟨S1x1x128x128, .f32⟩
  | 79 => ⟨S128x128, .f32⟩
  | 80 => ⟨S10000x128, .f32⟩
  | 81 => ⟨S1x1x128x128, .f32⟩
  | 82 => ⟨S128x128, .f32⟩
  | 83 => ⟨S10000x128, .f32⟩
  | 84 => ⟨S10000x128, .f32⟩
  | 85 => ⟨S1x1x128, .f32⟩
  | 86 => ⟨S128, .f32⟩
  | 87 => ⟨S1x128, .f32⟩
  | 88 => ⟨S10000x128, .f32⟩
  | 89 => ⟨S10000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S10000x128, .f32⟩
  | 101 => ⟨S800000x1, .i32⟩
  | 102 => ⟨S10000x128, .f32⟩
  | 103 => ⟨S_, .f32⟩
  | 104 => ⟨S800000x1, .f32⟩
  | 105 => ⟨S_, .f32⟩
  | 106 => ⟨S10000x1, .f32⟩
  | 107 => ⟨S800000x1, .i32⟩
  | 108 => ⟨S10000x1, .f32⟩
  | 109 => ⟨S_, .f32⟩
  | 110 => ⟨S10000x1, .f32⟩
  | 111 => ⟨S10000x1, .f32⟩
  | 112 => ⟨S10000x128, .f32⟩
  | 113 => ⟨S10000x128, .f32⟩
  | 114 => ⟨S1x1x128x128, .f32⟩
  | 115 => ⟨S128x128, .f32⟩
  | 116 => ⟨S10000x128, .f32⟩
  | 117 => ⟨S1x1x128x128, .f32⟩
  | 118 => ⟨S128x128, .f32⟩
  | 119 => ⟨S10000x128, .f32⟩
  | 120 => ⟨S10000x128, .f32⟩
  | 121 => ⟨S1x1x128, .f32⟩
  | 122 => ⟨S128, .f32⟩
  | 123 => ⟨S1x128, .f32⟩
  | 124 => ⟨S10000x128, .f32⟩
  | 125 => ⟨S10000x128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S_, .f32⟩
  | 12 => ⟨S800000x1, .f32⟩
  | 13 => ⟨S_, .f32⟩
  | 14 => ⟨S50000x1, .f32⟩
  | 15 => ⟨S800000x1, .i32⟩
  | 16 => ⟨S50000x1, .f32⟩
  | 17 => ⟨S_, .f32⟩
  | 18 => ⟨S50000x1, .f32⟩
  | 19 => ⟨S50000x1, .f32⟩
  | 20 => ⟨S50000x128, .f32⟩
  | 21 => ⟨S50000x128, .f32⟩
  | 22 => ⟨S1x1x128x128, .f32⟩
  | 23 => ⟨S128x128, .f32⟩
  | 24 => ⟨S50000x128, .f32⟩
  | 25 => ⟨S1x1x128x128, .f32⟩
  | 26 => ⟨S128x128, .f32⟩
  | 27 => ⟨S50000x128, .f32⟩
  | 28 => ⟨S50000x128, .f32⟩
  | 29 => ⟨S1x1x128, .f32⟩
  | 30 => ⟨S128, .f32⟩
  | 31 => ⟨S1x128, .f32⟩
  | 32 => ⟨S50000x128, .f32⟩
  | 33 => ⟨S50000x128, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S_, .f32⟩
  | 44 => ⟨S30000x128, .f32⟩
  | 45 => ⟨S400000x1, .i32⟩
  | 46 => ⟨S30000x128, .f32⟩
  | 47 => ⟨S_, .f32⟩
  | 48 => ⟨S400000x1, .f32⟩
  | 49 => ⟨S_, .f32⟩
  | 50 => ⟨S30000x1, .f32⟩
  | 51 => ⟨S400000x1, .i32⟩
  | 52 => ⟨S30000x1, .f32⟩
  | 53 => ⟨S_, .f32⟩
  | 54 => ⟨S30000x1, .f32⟩
  | 55 => ⟨S30000x1, .f32⟩
  | 56 => ⟨S30000x128, .f32⟩
  | 57 => ⟨S30000x128, .f32⟩
  | 58 => ⟨S1x1x128x128, .f32⟩
  | 59 => ⟨S128x128, .f32⟩
  | 60 => ⟨S30000x128, .f32⟩
  | 61 => ⟨S1x1x128x128, .f32⟩
  | 62 => ⟨S128x128, .f32⟩
  | 63 => ⟨S30000x128, .f32⟩
  | 64 => ⟨S30000x128, .f32⟩
  | 65 => ⟨S1x1x128, .f32⟩
  | 66 => ⟨S128, .f32⟩
  | 67 => ⟨S1x128, .f32⟩
  | 68 => ⟨S30000x128, .f32⟩
  | 69 => ⟨S30000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000x1, .f32⟩
  | 85 => ⟨S_, .f32⟩
  | 86 => ⟨S50000x1, .f32⟩
  | 87 => ⟨S800000x1, .i32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S1x1x128x128, .f32⟩
  | 95 => ⟨S128x128, .f32⟩
  | 96 => ⟨S50000x128, .f32⟩
  | 97 => ⟨S1x1x128x128, .f32⟩
  | 98 => ⟨S128x128, .f32⟩
  | 99 => ⟨S50000x128, .f32⟩
  | 100 => ⟨S50000x128, .f32⟩
  | 101 => ⟨S1x1x128, .f32⟩
  | 102 => ⟨S128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S30000x128, .f32⟩
  | 111 => ⟨S_, .f32⟩
  | 112 => ⟨S30000x128, .f32⟩
  | 113 => ⟨S30000x128, .f32⟩
  | 114 => ⟨S10000x128, .f32⟩
  | 115 => ⟨S_, .f32⟩
  | 116 => ⟨S10000x128, .f32⟩
  | 117 => ⟨S10000x128, .f32⟩
  | 118 => ⟨S_, .f32⟩
  | 119 => ⟨S50000x128, .f32⟩
  | 120 => ⟨S50000x128, .f32⟩
  | 121 => ⟨S_, .f32⟩
  | 122 => ⟨S30000x128, .f32⟩
  | 123 => ⟨S30000x128, .f32⟩
  | 124 => ⟨S_, .f32⟩
  | 125 => ⟨S10000x128, .f32⟩
  | 126 => ⟨S10000x128, .f32⟩
  | 127 => ⟨S_, .i32⟩
  | _ => ⟨S50000x128, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S30000x128, .f32⟩
  | 10 => ⟨S800000x1, .i32⟩
  | 11 => ⟨S30000x128, .f32⟩
  | 12 => ⟨S_, .f32⟩
  | 13 => ⟨S800000x1, .f32⟩
  | 14 => ⟨S_, .f32⟩
  | 15 => ⟨S30000x1, .f32⟩
  | 16 => ⟨S800000x1, .i32⟩
  | 17 => ⟨S30000x1, .f32⟩
  | 18 => ⟨S_, .f32⟩
  | 19 => ⟨S30000x1, .f32⟩
  | 20 => ⟨S30000x1, .f32⟩
  | 21 => ⟨S30000x128, .f32⟩
  | 22 => ⟨S30000x128, .f32⟩
  | 23 => ⟨S1x1x128x128, .f32⟩
  | 24 => ⟨S128x128, .f32⟩
  | 25 => ⟨S30000x128, .f32⟩
  | 26 => ⟨S1x1x128x128, .f32⟩
  | 27 => ⟨S128x128, .f32⟩
  | 28 => ⟨S30000x128, .f32⟩
  | 29 => ⟨S30000x128, .f32⟩
  | 30 => ⟨S1x1x128, .f32⟩
  | 31 => ⟨S128, .f32⟩
  | 32 => ⟨S1x128, .f32⟩
  | 33 => ⟨S30000x128, .f32⟩
  | 34 => ⟨S30000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .f32⟩
  | 45 => ⟨S10000x128, .f32⟩
  | 46 => ⟨S400000x1, .i32⟩
  | 47 => ⟨S10000x128, .f32⟩
  | 48 => ⟨S_, .f32⟩
  | 49 => ⟨S400000x1, .f32⟩
  | 50 => ⟨S_, .f32⟩
  | 51 => ⟨S10000x1, .f32⟩
  | 52 => ⟨S400000x1, .i32⟩
  | 53 => ⟨S10000x1, .f32⟩
  | 54 => ⟨S_, .f32⟩
  | 55 => ⟨S10000x1, .f32⟩
  | 56 => ⟨S10000x1, .f32⟩
  | 57 => ⟨S10000x128, .f32⟩
  | 58 => ⟨S10000x128, .f32⟩
  | 59 => ⟨S1x1x128x128, .f32⟩
  | 60 => ⟨S128x128, .f32⟩
  | 61 => ⟨S10000x128, .f32⟩
  | 62 => ⟨S1x1x128x128, .f32⟩
  | 63 => ⟨S128x128, .f32⟩
  | 64 => ⟨S10000x128, .f32⟩
  | 65 => ⟨S10000x128, .f32⟩
  | 66 => ⟨S1x1x128, .f32⟩
  | 67 => ⟨S128, .f32⟩
  | 68 => ⟨S1x128, .f32⟩
  | 69 => ⟨S10000x128, .f32⟩
  | 70 => ⟨S10000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S10000x128, .f32⟩
  | 82 => ⟨S800000x1, .i32⟩
  | 83 => ⟨S10000x128, .f32⟩
  | 84 => ⟨S_, .f32⟩
  | 85 => ⟨S800000x1, .f32⟩
  | 86 => ⟨S_, .f32⟩
  | 87 => ⟨S10000x1, .f32⟩
  | 88 => ⟨S800000x1, .i32⟩
  | 89 => ⟨S10000x1, .f32⟩
  | 90 => ⟨S_, .f32⟩
  | 91 => ⟨S10000x1, .f32⟩
  | 92 => ⟨S10000x1, .f32⟩
  | 93 => ⟨S10000x128, .f32⟩
  | 94 => ⟨S10000x128, .f32⟩
  | 95 => ⟨S1x1x128x128, .f32⟩
  | 96 => ⟨S128x128, .f32⟩
  | 97 => ⟨S10000x128, .f32⟩
  | 98 => ⟨S1x1x128x128, .f32⟩
  | 99 => ⟨S128x128, .f32⟩
  | 100 => ⟨S10000x128, .f32⟩
  | 101 => ⟨S10000x128, .f32⟩
  | 102 => ⟨S1x1x128, .f32⟩
  | 103 => ⟨S128, .f32⟩
  | 104 => ⟨S1x128, .f32⟩
  | 105 => ⟨S10000x128, .f32⟩
  | 106 => ⟨S10000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000x1, .f32⟩
  | 122 => ⟨S_, .f32⟩
  | 123 => ⟨S50000x1, .f32⟩
  | 124 => ⟨S800000x1, .i32⟩
  | 125 => ⟨S50000x1, .f32⟩
  | 126 => ⟨S_, .f32⟩
  | 127 => ⟨S50000x1, .f32⟩
  | _ => ⟨S50000x128, .f32⟩

abbrev hbmTy0_3 (i : Nat) : BufTy := match i % 128 with
  | 0 => ⟨S50000x1, .f32⟩
  | 1 => ⟨S50000x128, .f32⟩
  | 2 => ⟨S50000x128, .f32⟩
  | 3 => ⟨S1x1x128x128, .f32⟩
  | 4 => ⟨S128x128, .f32⟩
  | 5 => ⟨S50000x128, .f32⟩
  | 6 => ⟨S1x1x128x128, .f32⟩
  | 7 => ⟨S128x128, .f32⟩
  | 8 => ⟨S50000x128, .f32⟩
  | 9 => ⟨S50000x128, .f32⟩
  | 10 => ⟨S1x1x128, .f32⟩
  | 11 => ⟨S128, .f32⟩
  | 12 => ⟨S1x128, .f32⟩
  | 13 => ⟨S50000x128, .f32⟩
  | 14 => ⟨S50000x128, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S_, .f32⟩
  | 25 => ⟨S30000x128, .f32⟩
  | 26 => ⟨S400000x1, .i32⟩
  | 27 => ⟨S30000x128, .f32⟩
  | 28 => ⟨S_, .f32⟩
  | 29 => ⟨S400000x1, .f32⟩
  | 30 => ⟨S_, .f32⟩
  | 31 => ⟨S30000x1, .f32⟩
  | 32 => ⟨S400000x1, .i32⟩
  | 33 => ⟨S30000x1, .f32⟩
  | 34 => ⟨S_, .f32⟩
  | 35 => ⟨S30000x1, .f32⟩
  | 36 => ⟨S30000x1, .f32⟩
  | 37 => ⟨S30000x128, .f32⟩
  | 38 => ⟨S30000x128, .f32⟩
  | 39 => ⟨S1x1x128x128, .f32⟩
  | 40 => ⟨S128x128, .f32⟩
  | 41 => ⟨S30000x128, .f32⟩
  | 42 => ⟨S1x1x128x128, .f32⟩
  | 43 => ⟨S128x128, .f32⟩
  | 44 => ⟨S30000x128, .f32⟩
  | 45 => ⟨S30000x128, .f32⟩
  | 46 => ⟨S1x1x128, .f32⟩
  | 47 => ⟨S128, .f32⟩
  | 48 => ⟨S1x128, .f32⟩
  | 49 => ⟨S30000x128, .f32⟩
  | 50 => ⟨S30000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S800000x1, .f32⟩
  | 66 => ⟨S_, .f32⟩
  | 67 => ⟨S50000x1, .f32⟩
  | 68 => ⟨S800000x1, .i32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S1x1x128x128, .f32⟩
  | 76 => ⟨S128x128, .f32⟩
  | 77 => ⟨S50000x128, .f32⟩
  | 78 => ⟨S1x1x128x128, .f32⟩
  | 79 => ⟨S128x128, .f32⟩
  | 80 => ⟨S50000x128, .f32⟩
  | 81 => ⟨S50000x128, .f32⟩
  | 82 => ⟨S1x1x128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S30000x128, .f32⟩
  | 92 => ⟨S_, .f32⟩
  | 93 => ⟨S30000x128, .f32⟩
  | 94 => ⟨S30000x128, .f32⟩
  | 95 => ⟨S10000x128, .f32⟩
  | 96 => ⟨S_, .f32⟩
  | 97 => ⟨S10000x128, .f32⟩
  | 98 => ⟨S10000x128, .f32⟩
  | 99 => ⟨S_, .f32⟩
  | 100 => ⟨S50000x128, .f32⟩
  | 101 => ⟨S50000x128, .f32⟩
  | 102 => ⟨S_, .f32⟩
  | 103 => ⟨S30000x128, .f32⟩
  | 104 => ⟨S30000x128, .f32⟩
  | 105 => ⟨S_, .f32⟩
  | 106 => ⟨S10000x128, .f32⟩
  | 107 => ⟨S10000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S30000x128, .f32⟩
  | 119 => ⟨S800000x1, .i32⟩
  | 120 => ⟨S30000x128, .f32⟩
  | 121 => ⟨S_, .f32⟩
  | 122 => ⟨S800000x1, .f32⟩
  | 123 => ⟨S_, .f32⟩
  | 124 => ⟨S30000x1, .f32⟩
  | 125 => ⟨S800000x1, .i32⟩
  | 126 => ⟨S30000x1, .f32⟩
  | 127 => ⟨S_, .f32⟩
  | _ => ⟨S50000x128, .f32⟩

abbrev hbmTy0_4 (i : Nat) : BufTy := match i % 128 with
  | 0 => ⟨S30000x1, .f32⟩
  | 1 => ⟨S30000x1, .f32⟩
  | 2 => ⟨S30000x128, .f32⟩
  | 3 => ⟨S30000x128, .f32⟩
  | 4 => ⟨S1x1x128x128, .f32⟩
  | 5 => ⟨S128x128, .f32⟩
  | 6 => ⟨S30000x128, .f32⟩
  | 7 => ⟨S1x1x128x128, .f32⟩
  | 8 => ⟨S128x128, .f32⟩
  | 9 => ⟨S30000x128, .f32⟩
  | 10 => ⟨S30000x128, .f32⟩
  | 11 => ⟨S1x1x128, .f32⟩
  | 12 => ⟨S128, .f32⟩
  | 13 => ⟨S1x128, .f32⟩
  | 14 => ⟨S30000x128, .f32⟩
  | 15 => ⟨S30000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S_, .f32⟩
  | 26 => ⟨S10000x128, .f32⟩
  | 27 => ⟨S400000x1, .i32⟩
  | 28 => ⟨S10000x128, .f32⟩
  | 29 => ⟨S_, .f32⟩
  | 30 => ⟨S400000x1, .f32⟩
  | 31 => ⟨S_, .f32⟩
  | 32 => ⟨S10000x1, .f32⟩
  | 33 => ⟨S400000x1, .i32⟩
  | 34 => ⟨S10000x1, .f32⟩
  | 35 => ⟨S_, .f32⟩
  | 36 => ⟨S10000x1, .f32⟩
  | 37 => ⟨S10000x1, .f32⟩
  | 38 => ⟨S10000x128, .f32⟩
  | 39 => ⟨S10000x128, .f32⟩
  | 40 => ⟨S1x1x128x128, .f32⟩
  | 41 => ⟨S128x128, .f32⟩
  | 42 => ⟨S10000x128, .f32⟩
  | 43 => ⟨S1x1x128x128, .f32⟩
  | 44 => ⟨S128x128, .f32⟩
  | 45 => ⟨S10000x128, .f32⟩
  | 46 => ⟨S10000x128, .f32⟩
  | 47 => ⟨S1x1x128, .f32⟩
  | 48 => ⟨S128, .f32⟩
  | 49 => ⟨S1x128, .f32⟩
  | 50 => ⟨S10000x128, .f32⟩
  | 51 => ⟨S10000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S10000x128, .f32⟩
  | 63 => ⟨S800000x1, .i32⟩
  | 64 => ⟨S10000x128, .f32⟩
  | 65 => ⟨S_, .f32⟩
  | 66 => ⟨S800000x1, .f32⟩
  | 67 => ⟨S_, .f32⟩
  | 68 => ⟨S10000x1, .f32⟩
  | 69 => ⟨S800000x1, .i32⟩
  | 70 => ⟨S10000x1, .f32⟩
  | 71 => ⟨S_, .f32⟩
  | 72 => ⟨S10000x1, .f32⟩
  | 73 => ⟨S10000x1, .f32⟩
  | 74 => ⟨S10000x128, .f32⟩
  | 75 => ⟨S10000x128, .f32⟩
  | 76 => ⟨S1x1x128x128, .f32⟩
  | 77 => ⟨S128x128, .f32⟩
  | 78 => ⟨S10000x128, .f32⟩
  | 79 => ⟨S1x1x128x128, .f32⟩
  | 80 => ⟨S128x128, .f32⟩
  | 81 => ⟨S10000x128, .f32⟩
  | 82 => ⟨S10000x128, .f32⟩
  | 83 => ⟨S1x1x128, .f32⟩
  | 84 => ⟨S128, .f32⟩
  | 85 => ⟨S1x128, .f32⟩
  | 86 => ⟨S10000x128, .f32⟩
  | 87 => ⟨S10000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000x1, .f32⟩
  | 103 => ⟨S_, .f32⟩
  | 104 => ⟨S50000x1, .f32⟩
  | 105 => ⟨S800000x1, .i32⟩
  | 106 => ⟨S50000x1, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S1x1x128x128, .f32⟩
  | 113 => ⟨S128x128, .f32⟩
  | 114 => ⟨S50000x128, .f32⟩
  | 115 => ⟨S1x1x128x128, .f32⟩
  | 116 => ⟨S128x128, .f32⟩
  | 117 => ⟨S50000x128, .f32⟩
  | 118 => ⟨S50000x128, .f32⟩
  | 119 => ⟨S1x1x128, .f32⟩
  | 120 => ⟨S128, .f32⟩
  | 121 => ⟨S1x128, .f32⟩
  | 122 => ⟨S50000x128, .f32⟩
  | 123 => ⟨S50000x128, .f32⟩
  | 124 => ⟨S_, .i32⟩
  | 125 => ⟨S400000, .i32⟩
  | 126 => ⟨S400000, .i1⟩
  | 127 => ⟨S_, .i32⟩
  | _ => ⟨S50000x128, .f32⟩

abbrev hbmTy0_5 (i : Nat) : BufTy := match i % 128 with
  | 0 => ⟨S400000, .i32⟩
  | 1 => ⟨S400000, .i32⟩
  | 2 => ⟨S400000, .i32⟩
  | 3 => ⟨S400000x1, .i32⟩
  | 4 => ⟨S400000x128, .f32⟩
  | 5 => ⟨S_, .f32⟩
  | 6 => ⟨S30000x128, .f32⟩
  | 7 => ⟨S400000x1, .i32⟩
  | 8 => ⟨S30000x128, .f32⟩
  | 9 => ⟨S_, .f32⟩
  | 10 => ⟨S400000x1, .f32⟩
  | 11 => ⟨S_, .f32⟩
  | 12 => ⟨S30000x1, .f32⟩
  | 13 => ⟨S400000x1, .i32⟩
  | 14 => ⟨S30000x1, .f32⟩
  | 15 => ⟨S_, .f32⟩
  | 16 => ⟨S30000x1, .f32⟩
  | 17 => ⟨S30000x1, .f32⟩
  | 18 => ⟨S30000x128, .f32⟩
  | 19 => ⟨S30000x128, .f32⟩
  | 20 => ⟨S1x1x128x128, .f32⟩
  | 21 => ⟨S128x128, .f32⟩
  | 22 => ⟨S30000x128, .f32⟩
  | 23 => ⟨S1x1x128x128, .f32⟩
  | 24 => ⟨S128x128, .f32⟩
  | 25 => ⟨S30000x128, .f32⟩
  | 26 => ⟨S30000x128, .f32⟩
  | 27 => ⟨S1x1x128, .f32⟩
  | 28 => ⟨S128, .f32⟩
  | 29 => ⟨S1x128, .f32⟩
  | 30 => ⟨S30000x128, .f32⟩
  | 31 => ⟨S30000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S800000x1, .f32⟩
  | 47 => ⟨S_, .f32⟩
  | 48 => ⟨S50000x1, .f32⟩
  | 49 => ⟨S800000x1, .i32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S1x1x128x128, .f32⟩
  | 57 => ⟨S128x128, .f32⟩
  | 58 => ⟨S50000x128, .f32⟩
  | 59 => ⟨S1x1x128x128, .f32⟩
  | 60 => ⟨S128x128, .f32⟩
  | 61 => ⟨S50000x128, .f32⟩
  | 62 => ⟨S50000x128, .f32⟩
  | 63 => ⟨S1x1x128, .f32⟩
  | 64 => ⟨S128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S30000x128, .f32⟩
  | 73 => ⟨S_, .f32⟩
  | 74 => ⟨S30000x128, .f32⟩
  | 75 => ⟨S30000x128, .f32⟩
  | 76 => ⟨S10000x128, .f32⟩
  | 77 => ⟨S_, .f32⟩
  | 78 => ⟨S10000x128, .f32⟩
  | 79 => ⟨S10000x128, .f32⟩
  | 80 => ⟨S_, .f32⟩
  | 81 => ⟨S50000x128, .f32⟩
  | 82 => ⟨S50000x128, .f32⟩
  | 83 => ⟨S_, .f32⟩
  | 84 => ⟨S30000x128, .f32⟩
  | 85 => ⟨S30000x128, .f32⟩
  | 86 => ⟨S_, .f32⟩
  | 87 => ⟨S10000x128, .f32⟩
  | 88 => ⟨S10000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S30000x128, .f32⟩
  | 100 => ⟨S800000x1, .i32⟩
  | 101 => ⟨S30000x128, .f32⟩
  | 102 => ⟨S_, .f32⟩
  | 103 => ⟨S800000x1, .f32⟩
  | 104 => ⟨S_, .f32⟩
  | 105 => ⟨S30000x1, .f32⟩
  | 106 => ⟨S800000x1, .i32⟩
  | 107 => ⟨S30000x1, .f32⟩
  | 108 => ⟨S_, .f32⟩
  | 109 => ⟨S30000x1, .f32⟩
  | 110 => ⟨S30000x1, .f32⟩
  | 111 => ⟨S30000x128, .f32⟩
  | 112 => ⟨S30000x128, .f32⟩
  | 113 => ⟨S1x1x128x128, .f32⟩
  | 114 => ⟨S128x128, .f32⟩
  | 115 => ⟨S30000x128, .f32⟩
  | 116 => ⟨S1x1x128x128, .f32⟩
  | 117 => ⟨S128x128, .f32⟩
  | 118 => ⟨S30000x128, .f32⟩
  | 119 => ⟨S30000x128, .f32⟩
  | 120 => ⟨S1x1x128, .f32⟩
  | 121 => ⟨S128, .f32⟩
  | 122 => ⟨S1x128, .f32⟩
  | 123 => ⟨S30000x128, .f32⟩
  | 124 => ⟨S30000x128, .f32⟩
  | 125 => ⟨S_, .i32⟩
  | 126 => ⟨S400000, .i32⟩
  | 127 => ⟨S400000, .i1⟩
  | _ => ⟨S50000x128, .f32⟩

abbrev hbmTy0_6 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S_, .f32⟩
  | 7 => ⟨S10000x128, .f32⟩
  | 8 => ⟨S400000x1, .i32⟩
  | 9 => ⟨S10000x128, .f32⟩
  | 10 => ⟨S_, .f32⟩
  | 11 => ⟨S400000x1, .f32⟩
  | 12 => ⟨S_, .f32⟩
  | 13 => ⟨S10000x1, .f32⟩
  | 14 => ⟨S400000x1, .i32⟩
  | 15 => ⟨S10000x1, .f32⟩
  | 16 => ⟨S_, .f32⟩
  | 17 => ⟨S10000x1, .f32⟩
  | 18 => ⟨S10000x1, .f32⟩
  | 19 => ⟨S10000x128, .f32⟩
  | 20 => ⟨S10000x128, .f32⟩
  | 21 => ⟨S1x1x128x128, .f32⟩
  | 22 => ⟨S128x128, .f32⟩
  | 23 => ⟨S10000x128, .f32⟩
  | 24 => ⟨S1x1x128x128, .f32⟩
  | 25 => ⟨S128x128, .f32⟩
  | 26 => ⟨S10000x128, .f32⟩
  | 27 => ⟨S10000x128, .f32⟩
  | 28 => ⟨S1x1x128, .f32⟩
  | 29 => ⟨S128, .f32⟩
  | 30 => ⟨S1x128, .f32⟩
  | 31 => ⟨S10000x128, .f32⟩
  | 32 => ⟨S10000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S10000x128, .f32⟩
  | 44 => ⟨S800000x1, .i32⟩
  | 45 => ⟨S10000x128, .f32⟩
  | 46 => ⟨S_, .f32⟩
  | 47 => ⟨S800000x1, .f32⟩
  | 48 => ⟨S_, .f32⟩
  | 49 => ⟨S10000x1, .f32⟩
  | 50 => ⟨S800000x1, .i32⟩
  | 51 => ⟨S10000x1, .f32⟩
  | 52 => ⟨S_, .f32⟩
  | 53 => ⟨S10000x1, .f32⟩
  | 54 => ⟨S10000x1, .f32⟩
  | 55 => ⟨S10000x128, .f32⟩
  | 56 => ⟨S10000x128, .f32⟩
  | 57 => ⟨S1x1x128x128, .f32⟩
  | 58 => ⟨S128x128, .f32⟩
  | 59 => ⟨S10000x128, .f32⟩
  | 60 => ⟨S1x1x128x128, .f32⟩
  | 61 => ⟨S128x128, .f32⟩
  | 62 => ⟨S10000x128, .f32⟩
  | 63 => ⟨S10000x128, .f32⟩
  | 64 => ⟨S1x1x128, .f32⟩
  | 65 => ⟨S128, .f32⟩
  | 66 => ⟨S1x128, .f32⟩
  | 67 => ⟨S10000x128, .f32⟩
  | 68 => ⟨S10000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S800000x1, .f32⟩
  | 84 => ⟨S_, .f32⟩
  | 85 => ⟨S50000x1, .f32⟩
  | 86 => ⟨S800000x1, .i32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S1x1x128x128, .f32⟩
  | 94 => ⟨S128x128, .f32⟩
  | 95 => ⟨S50000x128, .f32⟩
  | 96 => ⟨S1x1x128x128, .f32⟩
  | 97 => ⟨S128x128, .f32⟩
  | 98 => ⟨S50000x128, .f32⟩
  | 99 => ⟨S50000x128, .f32⟩
  | 100 => ⟨S1x1x128, .f32⟩
  | 101 => ⟨S128, .f32⟩
  | 102 => ⟨S1x128, .f32⟩
  | 103 => ⟨S50000x128, .f32⟩
  | 104 => ⟨S50000x128, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x128, .f32⟩
  | 114 => ⟨S_, .f32⟩
  | 115 => ⟨S30000x128, .f32⟩
  | 116 => ⟨S400000x1, .i32⟩
  | 117 => ⟨S30000x128, .f32⟩
  | 118 => ⟨S_, .f32⟩
  | 119 => ⟨S400000x1, .f32⟩
  | 120 => ⟨S_, .f32⟩
  | 121 => ⟨S30000x1, .f32⟩
  | 122 => ⟨S400000x1, .i32⟩
  | 123 => ⟨S30000x1, .f32⟩
  | 124 => ⟨S_, .f32⟩
  | 125 => ⟨S30000x1, .f32⟩
  | 126 => ⟨S30000x1, .f32⟩
  | 127 => ⟨S30000x128, .f32⟩
  | _ => ⟨S50000x128, .f32⟩

abbrev hbmTy0_7 (i : Nat) : BufTy := match i % 128 with
  | 0 => ⟨S30000x128, .f32⟩
  | 1 => ⟨S1x1x128x128, .f32⟩
  | 2 => ⟨S128x128, .f32⟩
  | 3 => ⟨S30000x128, .f32⟩
  | 4 => ⟨S1x1x128x128, .f32⟩
  | 5 => ⟨S128x128, .f32⟩
  | 6 => ⟨S30000x128, .f32⟩
  | 7 => ⟨S30000x128, .f32⟩
  | 8 => ⟨S1x1x128, .f32⟩
  | 9 => ⟨S128, .f32⟩
  | 10 => ⟨S1x128, .f32⟩
  | 11 => ⟨S30000x128, .f32⟩
  | 12 => ⟨S30000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S_, .f32⟩
  | 27 => ⟨S800000x1, .f32⟩
  | 28 => ⟨S_, .f32⟩
  | 29 => ⟨S50000x1, .f32⟩
  | 30 => ⟨S800000x1, .i32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S1x1x128x128, .f32⟩
  | 38 => ⟨S128x128, .f32⟩
  | 39 => ⟨S50000x128, .f32⟩
  | 40 => ⟨S1x1x128x128, .f32⟩
  | 41 => ⟨S128x128, .f32⟩
  | 42 => ⟨S50000x128, .f32⟩
  | 43 => ⟨S50000x128, .f32⟩
  | 44 => ⟨S1x1x128, .f32⟩
  | 45 => ⟨S128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S30000x128, .f32⟩
  | 54 => ⟨S_, .f32⟩
  | 55 => ⟨S30000x128, .f32⟩
  | 56 => ⟨S30000x128, .f32⟩
  | 57 => ⟨S10000x128, .f32⟩
  | 58 => ⟨S_, .f32⟩
  | 59 => ⟨S10000x128, .f32⟩
  | 60 => ⟨S10000x128, .f32⟩
  | 61 => ⟨S50000x128, .f32⟩
  | 62 => ⟨S_, .f32⟩
  | 63 => ⟨S50000, .f32⟩
  | 64 => ⟨S50000x1, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S30000x128, .f32⟩
  | 72 => ⟨S_, .f32⟩
  | 73 => ⟨S30000, .f32⟩
  | 74 => ⟨S30000x1, .f32⟩
  | 75 => ⟨S30000x1, .f32⟩
  | 76 => ⟨S_, .f32⟩
  | 77 => ⟨S30000x1, .f32⟩
  | 78 => ⟨S30000x1, .f32⟩
  | 79 => ⟨S30000x128, .f32⟩
  | 80 => ⟨S30000x128, .f32⟩
  | 81 => ⟨S10000x128, .f32⟩
  | 82 => ⟨S_, .f32⟩
  | 83 => ⟨S10000, .f32⟩
  | 84 => ⟨S10000x1, .f32⟩
  | 85 => ⟨S10000x1, .f32⟩
  | 86 => ⟨S_, .f32⟩
  | 87 => ⟨S10000x1, .f32⟩
  | 88 => ⟨S10000x1, .f32⟩
  | 89 => ⟨S10000x128, .f32⟩
  | 90 => ⟨S10000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_c_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_19 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_21 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_22 : Ref sig .tc := ⟨.hbm, 162, rfl⟩
abbrev main_v120 : Ref sig .tc := ⟨.hbm, 163, rfl⟩
abbrev main_v121 : Ref sig .tc := ⟨.hbm, 164, rfl⟩
abbrev main_c_23 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_25 : Ref sig .tc := ⟨.hbm, 175, rfl⟩
abbrev main_v130 : Ref sig .tc := ⟨.hbm, 176, rfl⟩
abbrev main_cst_26 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_27 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_c_28 : Ref sig .tc := ⟨.hbm, 198, rfl⟩
abbrev main_v150 : Ref sig .tc := ⟨.hbm, 199, rfl⟩
abbrev main_v151 : Ref sig .tc := ⟨.hbm, 200, rfl⟩
abbrev main_c_29 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_30 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_31 : Ref sig .tc := ⟨.hbm, 211, rfl⟩
abbrev main_v160 : Ref sig .tc := ⟨.hbm, 212, rfl⟩
abbrev main_cst_32 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_33 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_34 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_35 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_cst_36 : Ref sig .tc := ⟨.hbm, 243, rfl⟩
abbrev main_v187 : Ref sig .tc := ⟨.hbm, 244, rfl⟩
abbrev main_v188 : Ref sig .tc := ⟨.hbm, 245, rfl⟩
abbrev main_call0_cst : Ref sig .tc := ⟨.hbm, 246, rfl⟩
abbrev main_call0_v0 : Ref sig .tc := ⟨.hbm, 247, rfl⟩
abbrev main_v189 : Ref sig .tc := ⟨.hbm, 248, rfl⟩
abbrev main_call1_cst : Ref sig .tc := ⟨.hbm, 249, rfl⟩
abbrev main_call1_v0 : Ref sig .tc := ⟨.hbm, 250, rfl⟩
abbrev main_v190 : Ref sig .tc := ⟨.hbm, 251, rfl⟩
abbrev main_call2_cst : Ref sig .tc := ⟨.hbm, 252, rfl⟩
abbrev main_call2_v0 : Ref sig .tc := ⟨.hbm, 253, rfl⟩
abbrev main_v191 : Ref sig .tc := ⟨.hbm, 254, rfl⟩
abbrev main_c_37 : Ref sig .tc := ⟨.hbm, 255, rfl⟩
abbrev main_v192 : Ref sig .tc := ⟨.hbm, 256, rfl⟩
abbrev main_v193 : Ref sig .tc := ⟨.hbm, 257, rfl⟩
abbrev main_c_38 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_39 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_cst_40 : Ref sig .tc := ⟨.hbm, 268, rfl⟩
abbrev main_v202 : Ref sig .tc := ⟨.hbm, 269, rfl⟩
abbrev main_cst_41 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_42 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_c_43 : Ref sig .tc := ⟨.hbm, 291, rfl⟩
abbrev main_v222 : Ref sig .tc := ⟨.hbm, 292, rfl⟩
abbrev main_v223 : Ref sig .tc := ⟨.hbm, 293, rfl⟩
abbrev main_c_44 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_cst_45 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_cst_46 : Ref sig .tc := ⟨.hbm, 304, rfl⟩
abbrev main_v232 : Ref sig .tc := ⟨.hbm, 305, rfl⟩
abbrev main_cst_47 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_cst_48 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_c_49 : Ref sig .tc := ⟨.hbm, 327, rfl⟩
abbrev main_v252 : Ref sig .tc := ⟨.hbm, 328, rfl⟩
abbrev main_v253 : Ref sig .tc := ⟨.hbm, 329, rfl⟩
abbrev main_c_50 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_cst_51 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_cst_52 : Ref sig .tc := ⟨.hbm, 340, rfl⟩
abbrev main_v262 : Ref sig .tc := ⟨.hbm, 341, rfl⟩
abbrev main_cst_53 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_cst_54 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_c_55 : Ref sig .tc := ⟨.hbm, 363, rfl⟩
abbrev main_v282 : Ref sig .tc := ⟨.hbm, 364, rfl⟩
abbrev main_v283 : Ref sig .tc := ⟨.hbm, 365, rfl⟩
abbrev main_c_56 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_cst_57 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_cst_58 : Ref sig .tc := ⟨.hbm, 376, rfl⟩
abbrev main_v292 : Ref sig .tc := ⟨.hbm, 377, rfl⟩
abbrev main_cst_59 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_cst_60 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_c_61 : Ref sig .tc := ⟨.hbm, 399, rfl⟩
abbrev main_v312 : Ref sig .tc := ⟨.hbm, 400, rfl⟩
abbrev main_v313 : Ref sig .tc := ⟨.hbm, 401, rfl⟩
abbrev main_c_62 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_cst_63 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_cst_64 : Ref sig .tc := ⟨.hbm, 412, rfl⟩
abbrev main_v322 : Ref sig .tc := ⟨.hbm, 413, rfl⟩
abbrev main_cst_65 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_cst_66 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_c_67 : Ref sig .tc := ⟨.hbm, 435, rfl⟩
abbrev main_v342 : Ref sig .tc := ⟨.hbm, 436, rfl⟩
abbrev main_v343 : Ref sig .tc := ⟨.hbm, 437, rfl⟩
abbrev main_c_68 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_v348 : Ref sig .tc := ⟨.hbm, 443, rfl⟩
abbrev main_cst_69 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_cst_70 : Ref sig .tc := ⟨.hbm, 448, rfl⟩
abbrev main_v352 : Ref sig .tc := ⟨.hbm, 449, rfl⟩
abbrev main_cst_71 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_cst_72 : Ref sig .tc := ⟨.hbm, 454, rfl⟩
abbrev main_v356 : Ref sig .tc := ⟨.hbm, 455, rfl⟩
abbrev main_v357 : Ref sig .tc := ⟨.hbm, 456, rfl⟩
abbrev main_v358 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_cst_73 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_cst_74 : Ref sig .tc := ⟨.hbm, 476, rfl⟩
abbrev main_v376 : Ref sig .tc := ⟨.hbm, 477, rfl⟩
abbrev main_v377 : Ref sig .tc := ⟨.hbm, 478, rfl⟩
abbrev main_v378 : Ref sig .tc := ⟨.hbm, 479, rfl⟩
abbrev main_cst_75 : Ref sig .tc := ⟨.hbm, 480, rfl⟩
abbrev main_v379 : Ref sig .tc := ⟨.hbm, 481, rfl⟩
abbrev main_v380 : Ref sig .tc := ⟨.hbm, 482, rfl⟩
abbrev main_call3_cst : Ref sig .tc := ⟨.hbm, 483, rfl⟩
abbrev main_call3_v0 : Ref sig .tc := ⟨.hbm, 484, rfl⟩
abbrev main_v381 : Ref sig .tc := ⟨.hbm, 485, rfl⟩
abbrev main_call4_cst : Ref sig .tc := ⟨.hbm, 486, rfl⟩
abbrev main_call4_v0 : Ref sig .tc := ⟨.hbm, 487, rfl⟩
abbrev main_v382 : Ref sig .tc := ⟨.hbm, 488, rfl⟩
abbrev main_call5_cst : Ref sig .tc := ⟨.hbm, 489, rfl⟩
abbrev main_call5_v0 : Ref sig .tc := ⟨.hbm, 490, rfl⟩
abbrev main_v383 : Ref sig .tc := ⟨.hbm, 491, rfl⟩
abbrev main_c_76 : Ref sig .tc := ⟨.hbm, 492, rfl⟩
abbrev main_v384 : Ref sig .tc := ⟨.hbm, 493, rfl⟩
abbrev main_v385 : Ref sig .tc := ⟨.hbm, 494, rfl⟩
abbrev main_c_77 : Ref sig .tc := ⟨.hbm, 495, rfl⟩
abbrev main_v386 : Ref sig .tc := ⟨.hbm, 496, rfl⟩
abbrev main_v387 : Ref sig .tc := ⟨.hbm, 497, rfl⟩
abbrev main_v388 : Ref sig .tc := ⟨.hbm, 498, rfl⟩
abbrev main_v389 : Ref sig .tc := ⟨.hbm, 499, rfl⟩
abbrev main_v390 : Ref sig .tc := ⟨.hbm, 500, rfl⟩
abbrev main_cst_78 : Ref sig .tc := ⟨.hbm, 501, rfl⟩
abbrev main_v391 : Ref sig .tc := ⟨.hbm, 502, rfl⟩
abbrev main_v392 : Ref sig .tc := ⟨.hbm, 503, rfl⟩
abbrev main_v393 : Ref sig .tc := ⟨.hbm, 504, rfl⟩
abbrev main_cst_79 : Ref sig .tc := ⟨.hbm, 505, rfl⟩
abbrev main_v394 : Ref sig .tc := ⟨.hbm, 506, rfl⟩
abbrev main_cst_80 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_cst_81 : Ref sig .tc := ⟨.hbm, 511, rfl⟩
abbrev main_v398 : Ref sig .tc := ⟨.hbm, 512, rfl⟩
abbrev main_v399 : Ref sig .tc := ⟨.hbm, 513, rfl⟩
abbrev main_v400 : Ref sig .tc := ⟨.hbm, 514, rfl⟩
abbrev main_v401 : Ref sig .tc := ⟨.hbm, 515, rfl⟩
abbrev main_v402 : Ref sig .tc := ⟨.hbm, 516, rfl⟩
abbrev main_v403 : Ref sig .tc := ⟨.hbm, 517, rfl⟩
abbrev main_v404 : Ref sig .tc := ⟨.hbm, 518, rfl⟩
abbrev main_v405 : Ref sig .tc := ⟨.hbm, 519, rfl⟩
abbrev main_v406 : Ref sig .tc := ⟨.hbm, 520, rfl⟩
abbrev main_v407 : Ref sig .tc := ⟨.hbm, 521, rfl⟩
abbrev main_v408 : Ref sig .tc := ⟨.hbm, 522, rfl⟩
abbrev main_v409 : Ref sig .tc := ⟨.hbm, 523, rfl⟩
abbrev main_v410 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_c_82 : Ref sig .tc := ⟨.hbm, 528, rfl⟩
abbrev main_v414 : Ref sig .tc := ⟨.hbm, 529, rfl⟩
abbrev main_v415 : Ref sig .tc := ⟨.hbm, 530, rfl⟩
abbrev main_c_83 : Ref sig .tc := ⟨.hbm, 531, rfl⟩
abbrev main_v416 : Ref sig .tc := ⟨.hbm, 532, rfl⟩
abbrev main_v417 : Ref sig .tc := ⟨.hbm, 533, rfl⟩
abbrev main_v418 : Ref sig .tc := ⟨.hbm, 534, rfl⟩
abbrev main_v419 : Ref sig .tc := ⟨.hbm, 535, rfl⟩
abbrev main_v420 : Ref sig .tc := ⟨.hbm, 536, rfl⟩
abbrev main_cst_84 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_cst_85 : Ref sig .tc := ⟨.hbm, 541, rfl⟩
abbrev main_v424 : Ref sig .tc := ⟨.hbm, 542, rfl⟩
abbrev main_cst_86 : Ref sig .tc := ⟨.hbm, 543, rfl⟩
abbrev main_v425 : Ref sig .tc := ⟨.hbm, 544, rfl⟩
abbrev main_v426 : Ref sig .tc := ⟨.hbm, 545, rfl⟩
abbrev main_v427 : Ref sig .tc := ⟨.hbm, 546, rfl⟩
abbrev main_cst_87 : Ref sig .tc := ⟨.hbm, 547, rfl⟩
abbrev main_v428 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_v432 : Ref sig .tc := ⟨.hbm, 552, rfl⟩
abbrev main_v433 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_v438 : Ref sig .tc := ⟨.hbm, 558, rfl⟩
abbrev main_v439 : Ref sig .tc := ⟨.hbm, 559, rfl⟩
abbrev main_v440 : Ref sig .tc := ⟨.hbm, 560, rfl⟩
abbrev main_v441 : Ref sig .tc := ⟨.hbm, 561, rfl⟩
abbrev main_v442 : Ref sig .tc := ⟨.hbm, 562, rfl⟩
abbrev main_v443 : Ref sig .tc := ⟨.hbm, 563, rfl⟩
abbrev main_c_88 : Ref sig .tc := ⟨.hbm, 564, rfl⟩
abbrev main_v444 : Ref sig .tc := ⟨.hbm, 565, rfl⟩
abbrev main_v445 : Ref sig .tc := ⟨.hbm, 566, rfl⟩
abbrev main_c_89 : Ref sig .tc := ⟨.hbm, 567, rfl⟩
abbrev main_v446 : Ref sig .tc := ⟨.hbm, 568, rfl⟩
abbrev main_v447 : Ref sig .tc := ⟨.hbm, 569, rfl⟩
abbrev main_v448 : Ref sig .tc := ⟨.hbm, 570, rfl⟩
abbrev main_v449 : Ref sig .tc := ⟨.hbm, 571, rfl⟩
abbrev main_v450 : Ref sig .tc := ⟨.hbm, 572, rfl⟩
abbrev main_cst_90 : Ref sig .tc := ⟨.hbm, 573, rfl⟩
abbrev main_v451 : Ref sig .tc := ⟨.hbm, 574, rfl⟩
abbrev main_v452 : Ref sig .tc := ⟨.hbm, 575, rfl⟩
abbrev main_v453 : Ref sig .tc := ⟨.hbm, 576, rfl⟩
abbrev main_cst_91 : Ref sig .tc := ⟨.hbm, 577, rfl⟩
abbrev main_v454 : Ref sig .tc := ⟨.hbm, 578, rfl⟩
abbrev main_cst_92 : Ref sig .tc := ⟨.hbm, 579, rfl⟩
abbrev main_v455 : Ref sig .tc := ⟨.hbm, 580, rfl⟩
abbrev main_v456 : Ref sig .tc := ⟨.hbm, 581, rfl⟩
abbrev main_v457 : Ref sig .tc := ⟨.hbm, 582, rfl⟩
abbrev main_cst_93 : Ref sig .tc := ⟨.hbm, 583, rfl⟩
abbrev main_v458 : Ref sig .tc := ⟨.hbm, 584, rfl⟩
abbrev main_v459 : Ref sig .tc := ⟨.hbm, 585, rfl⟩
abbrev main_v460 : Ref sig .tc := ⟨.hbm, 586, rfl⟩
abbrev main_v461 : Ref sig .tc := ⟨.hbm, 587, rfl⟩
abbrev main_v462 : Ref sig .tc := ⟨.hbm, 588, rfl⟩
abbrev main_v463 : Ref sig .tc := ⟨.hbm, 589, rfl⟩
abbrev main_v464 : Ref sig .tc := ⟨.hbm, 590, rfl⟩
abbrev main_v465 : Ref sig .tc := ⟨.hbm, 591, rfl⟩
abbrev main_v466 : Ref sig .tc := ⟨.hbm, 592, rfl⟩
abbrev main_v467 : Ref sig .tc := ⟨.hbm, 593, rfl⟩
abbrev main_v468 : Ref sig .tc := ⟨.hbm, 594, rfl⟩
abbrev main_v469 : Ref sig .tc := ⟨.hbm, 595, rfl⟩
abbrev main_v470 : Ref sig .tc := ⟨.hbm, 596, rfl⟩
abbrev main_v471 : Ref sig .tc := ⟨.hbm, 597, rfl⟩
abbrev main_v472 : Ref sig .tc := ⟨.hbm, 598, rfl⟩
abbrev main_v473 : Ref sig .tc := ⟨.hbm, 599, rfl⟩
abbrev main_c_94 : Ref sig .tc := ⟨.hbm, 600, rfl⟩
abbrev main_v474 : Ref sig .tc := ⟨.hbm, 601, rfl⟩
abbrev main_v475 : Ref sig .tc := ⟨.hbm, 602, rfl⟩
abbrev main_c_95 : Ref sig .tc := ⟨.hbm, 603, rfl⟩
abbrev main_v476 : Ref sig .tc := ⟨.hbm, 604, rfl⟩
abbrev main_v477 : Ref sig .tc := ⟨.hbm, 605, rfl⟩
abbrev main_v478 : Ref sig .tc := ⟨.hbm, 606, rfl⟩
abbrev main_v479 : Ref sig .tc := ⟨.hbm, 607, rfl⟩
abbrev main_v480 : Ref sig .tc := ⟨.hbm, 608, rfl⟩
abbrev main_cst_96 : Ref sig .tc := ⟨.hbm, 609, rfl⟩
abbrev main_v481 : Ref sig .tc := ⟨.hbm, 610, rfl⟩
abbrev main_v482 : Ref sig .tc := ⟨.hbm, 611, rfl⟩
abbrev main_v483 : Ref sig .tc := ⟨.hbm, 612, rfl⟩
abbrev main_cst_97 : Ref sig .tc := ⟨.hbm, 613, rfl⟩
abbrev main_v484 : Ref sig .tc := ⟨.hbm, 614, rfl⟩
abbrev main_cst_98 : Ref sig .tc := ⟨.hbm, 615, rfl⟩
abbrev main_v485 : Ref sig .tc := ⟨.hbm, 616, rfl⟩
abbrev main_v486 : Ref sig .tc := ⟨.hbm, 617, rfl⟩
abbrev main_v487 : Ref sig .tc := ⟨.hbm, 618, rfl⟩
abbrev main_cst_99 : Ref sig .tc := ⟨.hbm, 619, rfl⟩
abbrev main_v488 : Ref sig .tc := ⟨.hbm, 620, rfl⟩
abbrev main_v489 : Ref sig .tc := ⟨.hbm, 621, rfl⟩
abbrev main_v490 : Ref sig .tc := ⟨.hbm, 622, rfl⟩
abbrev main_v491 : Ref sig .tc := ⟨.hbm, 623, rfl⟩
abbrev main_v492 : Ref sig .tc := ⟨.hbm, 624, rfl⟩
abbrev main_v493 : Ref sig .tc := ⟨.hbm, 625, rfl⟩
abbrev main_v494 : Ref sig .tc := ⟨.hbm, 626, rfl⟩
abbrev main_v495 : Ref sig .tc := ⟨.hbm, 627, rfl⟩
abbrev main_v496 : Ref sig .tc := ⟨.hbm, 628, rfl⟩
abbrev main_v497 : Ref sig .tc := ⟨.hbm, 629, rfl⟩
abbrev main_v498 : Ref sig .tc := ⟨.hbm, 630, rfl⟩
abbrev main_v499 : Ref sig .tc := ⟨.hbm, 631, rfl⟩
abbrev main_v500 : Ref sig .tc := ⟨.hbm, 632, rfl⟩
abbrev main_v501 : Ref sig .tc := ⟨.hbm, 633, rfl⟩
abbrev main_v502 : Ref sig .tc := ⟨.hbm, 634, rfl⟩
abbrev main_v503 : Ref sig .tc := ⟨.hbm, 635, rfl⟩
abbrev main_c_100 : Ref sig .tc := ⟨.hbm, 636, rfl⟩
abbrev main_v504 : Ref sig .tc := ⟨.hbm, 637, rfl⟩
abbrev main_v505 : Ref sig .tc := ⟨.hbm, 638, rfl⟩
abbrev main_c_101 : Ref sig .tc := ⟨.hbm, 639, rfl⟩
abbrev main_v506 : Ref sig .tc := ⟨.hbm, 640, rfl⟩
abbrev main_v507 : Ref sig .tc := ⟨.hbm, 641, rfl⟩
abbrev main_v508 : Ref sig .tc := ⟨.hbm, 642, rfl⟩
abbrev main_v509 : Ref sig .tc := ⟨.hbm, 643, rfl⟩
abbrev main_v510 : Ref sig .tc := ⟨.hbm, 644, rfl⟩
abbrev main_cst_102 : Ref sig .tc := ⟨.hbm, 645, rfl⟩
abbrev main_v511 : Ref sig .tc := ⟨.hbm, 646, rfl⟩
abbrev main_v512 : Ref sig .tc := ⟨.hbm, 647, rfl⟩
abbrev main_v513 : Ref sig .tc := ⟨.hbm, 648, rfl⟩
abbrev main_cst_103 : Ref sig .tc := ⟨.hbm, 649, rfl⟩
abbrev main_v514 : Ref sig .tc := ⟨.hbm, 650, rfl⟩
abbrev main_cst_104 : Ref sig .tc := ⟨.hbm, 651, rfl⟩
abbrev main_v515 : Ref sig .tc := ⟨.hbm, 652, rfl⟩
abbrev main_v516 : Ref sig .tc := ⟨.hbm, 653, rfl⟩
abbrev main_v517 : Ref sig .tc := ⟨.hbm, 654, rfl⟩
abbrev main_cst_105 : Ref sig .tc := ⟨.hbm, 655, rfl⟩
abbrev main_v518 : Ref sig .tc := ⟨.hbm, 656, rfl⟩
abbrev main_v519 : Ref sig .tc := ⟨.hbm, 657, rfl⟩
abbrev main_v520 : Ref sig .tc := ⟨.hbm, 658, rfl⟩
abbrev main_v521 : Ref sig .tc := ⟨.hbm, 659, rfl⟩
abbrev main_v522 : Ref sig .tc := ⟨.hbm, 660, rfl⟩
abbrev main_v523 : Ref sig .tc := ⟨.hbm, 661, rfl⟩
abbrev main_v524 : Ref sig .tc := ⟨.hbm, 662, rfl⟩
abbrev main_v525 : Ref sig .tc := ⟨.hbm, 663, rfl⟩
abbrev main_v526 : Ref sig .tc := ⟨.hbm, 664, rfl⟩
abbrev main_v527 : Ref sig .tc := ⟨.hbm, 665, rfl⟩
abbrev main_v528 : Ref sig .tc := ⟨.hbm, 666, rfl⟩
abbrev main_v529 : Ref sig .tc := ⟨.hbm, 667, rfl⟩
abbrev main_v530 : Ref sig .tc := ⟨.hbm, 668, rfl⟩
abbrev main_v531 : Ref sig .tc := ⟨.hbm, 669, rfl⟩
abbrev main_v532 : Ref sig .tc := ⟨.hbm, 670, rfl⟩
abbrev main_v533 : Ref sig .tc := ⟨.hbm, 671, rfl⟩
abbrev main_c_106 : Ref sig .tc := ⟨.hbm, 672, rfl⟩
abbrev main_v534 : Ref sig .tc := ⟨.hbm, 673, rfl⟩
abbrev main_v535 : Ref sig .tc := ⟨.hbm, 674, rfl⟩
abbrev main_c_107 : Ref sig .tc := ⟨.hbm, 675, rfl⟩
abbrev main_v536 : Ref sig .tc := ⟨.hbm, 676, rfl⟩
abbrev main_v537 : Ref sig .tc := ⟨.hbm, 677, rfl⟩
abbrev main_v538 : Ref sig .tc := ⟨.hbm, 678, rfl⟩
abbrev main_v539 : Ref sig .tc := ⟨.hbm, 679, rfl⟩
abbrev main_v540 : Ref sig .tc := ⟨.hbm, 680, rfl⟩
abbrev main_cst_108 : Ref sig .tc := ⟨.hbm, 681, rfl⟩
abbrev main_v541 : Ref sig .tc := ⟨.hbm, 682, rfl⟩
abbrev main_v542 : Ref sig .tc := ⟨.hbm, 683, rfl⟩
abbrev main_v543 : Ref sig .tc := ⟨.hbm, 684, rfl⟩
abbrev main_cst_109 : Ref sig .tc := ⟨.hbm, 685, rfl⟩
abbrev main_v544 : Ref sig .tc := ⟨.hbm, 686, rfl⟩
abbrev main_cst_110 : Ref sig .tc := ⟨.hbm, 687, rfl⟩
abbrev main_v545 : Ref sig .tc := ⟨.hbm, 688, rfl⟩
abbrev main_v546 : Ref sig .tc := ⟨.hbm, 689, rfl⟩
abbrev main_v547 : Ref sig .tc := ⟨.hbm, 690, rfl⟩
abbrev main_cst_111 : Ref sig .tc := ⟨.hbm, 691, rfl⟩
abbrev main_v548 : Ref sig .tc := ⟨.hbm, 692, rfl⟩
abbrev main_v549 : Ref sig .tc := ⟨.hbm, 693, rfl⟩
abbrev main_v550 : Ref sig .tc := ⟨.hbm, 694, rfl⟩
abbrev main_v551 : Ref sig .tc := ⟨.hbm, 695, rfl⟩
abbrev main_v552 : Ref sig .tc := ⟨.hbm, 696, rfl⟩
abbrev main_v553 : Ref sig .tc := ⟨.hbm, 697, rfl⟩
abbrev main_v554 : Ref sig .tc := ⟨.hbm, 698, rfl⟩
abbrev main_v555 : Ref sig .tc := ⟨.hbm, 699, rfl⟩
abbrev main_v556 : Ref sig .tc := ⟨.hbm, 700, rfl⟩
abbrev main_v557 : Ref sig .tc := ⟨.hbm, 701, rfl⟩
abbrev main_v558 : Ref sig .tc := ⟨.hbm, 702, rfl⟩
abbrev main_v559 : Ref sig .tc := ⟨.hbm, 703, rfl⟩
abbrev main_v560 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_cst_112 : Ref sig .tc := ⟨.hbm, 709, rfl⟩
abbrev main_v565 : Ref sig .tc := ⟨.hbm, 710, rfl⟩
abbrev main_v566 : Ref sig .tc := ⟨.hbm, 711, rfl⟩
abbrev main_v567 : Ref sig .tc := ⟨.hbm, 712, rfl⟩
abbrev main_cst_113 : Ref sig .tc := ⟨.hbm, 713, rfl⟩
abbrev main_v568 : Ref sig .tc := ⟨.hbm, 714, rfl⟩
abbrev main_v569 : Ref sig .tc := ⟨.hbm, 715, rfl⟩
abbrev main_v570 : Ref sig .tc := ⟨.hbm, 716, rfl⟩
abbrev main_cst_114 : Ref sig .tc := ⟨.hbm, 717, rfl⟩
abbrev main_v571 : Ref sig .tc := ⟨.hbm, 718, rfl⟩
abbrev main_v572 : Ref sig .tc := ⟨.hbm, 719, rfl⟩
abbrev main_call6_cst : Ref sig .tc := ⟨.hbm, 720, rfl⟩
abbrev main_call6_v0 : Ref sig .tc := ⟨.hbm, 721, rfl⟩
abbrev main_v573 : Ref sig .tc := ⟨.hbm, 722, rfl⟩
abbrev main_call7_cst : Ref sig .tc := ⟨.hbm, 723, rfl⟩
abbrev main_call7_v0 : Ref sig .tc := ⟨.hbm, 724, rfl⟩
abbrev main_v574 : Ref sig .tc := ⟨.hbm, 725, rfl⟩
abbrev main_call8_cst : Ref sig .tc := ⟨.hbm, 726, rfl⟩
abbrev main_call8_v0 : Ref sig .tc := ⟨.hbm, 727, rfl⟩
abbrev main_v575 : Ref sig .tc := ⟨.hbm, 728, rfl⟩
abbrev main_c_115 : Ref sig .tc := ⟨.hbm, 729, rfl⟩
abbrev main_v576 : Ref sig .tc := ⟨.hbm, 730, rfl⟩
abbrev main_v577 : Ref sig .tc := ⟨.hbm, 731, rfl⟩
abbrev main_c_116 : Ref sig .tc := ⟨.hbm, 732, rfl⟩
abbrev main_v578 : Ref sig .tc := ⟨.hbm, 733, rfl⟩
abbrev main_v579 : Ref sig .tc := ⟨.hbm, 734, rfl⟩
abbrev main_v580 : Ref sig .tc := ⟨.hbm, 735, rfl⟩
abbrev main_v581 : Ref sig .tc := ⟨.hbm, 736, rfl⟩
abbrev main_v582 : Ref sig .tc := ⟨.hbm, 737, rfl⟩
abbrev main_cst_117 : Ref sig .tc := ⟨.hbm, 738, rfl⟩
abbrev main_v583 : Ref sig .tc := ⟨.hbm, 739, rfl⟩
abbrev main_v584 : Ref sig .tc := ⟨.hbm, 740, rfl⟩
abbrev main_v585 : Ref sig .tc := ⟨.hbm, 741, rfl⟩
abbrev main_cst_118 : Ref sig .tc := ⟨.hbm, 742, rfl⟩
abbrev main_v586 : Ref sig .tc := ⟨.hbm, 743, rfl⟩
abbrev main_cst_119 : Ref sig .tc := ⟨.hbm, 744, rfl⟩
abbrev main_v587 : Ref sig .tc := ⟨.hbm, 745, rfl⟩
abbrev main_v588 : Ref sig .tc := ⟨.hbm, 746, rfl⟩
abbrev main_v589 : Ref sig .tc := ⟨.hbm, 747, rfl⟩
abbrev main_cst_120 : Ref sig .tc := ⟨.hbm, 748, rfl⟩
abbrev main_v590 : Ref sig .tc := ⟨.hbm, 749, rfl⟩
abbrev main_v591 : Ref sig .tc := ⟨.hbm, 750, rfl⟩
abbrev main_v592 : Ref sig .tc := ⟨.hbm, 751, rfl⟩
abbrev main_v593 : Ref sig .tc := ⟨.hbm, 752, rfl⟩
abbrev main_v594 : Ref sig .tc := ⟨.hbm, 753, rfl⟩
abbrev main_v595 : Ref sig .tc := ⟨.hbm, 754, rfl⟩
abbrev main_v596 : Ref sig .tc := ⟨.hbm, 755, rfl⟩
abbrev main_v597 : Ref sig .tc := ⟨.hbm, 756, rfl⟩
abbrev main_v598 : Ref sig .tc := ⟨.hbm, 757, rfl⟩
abbrev main_v599 : Ref sig .tc := ⟨.hbm, 758, rfl⟩
abbrev main_v600 : Ref sig .tc := ⟨.hbm, 759, rfl⟩
abbrev main_v601 : Ref sig .tc := ⟨.hbm, 760, rfl⟩
abbrev main_v602 : Ref sig .tc := ⟨.hbm, 761, rfl⟩
abbrev main_v603 : Ref sig .tc := ⟨.hbm, 762, rfl⟩
abbrev main_v604 : Ref sig .tc := ⟨.hbm, 763, rfl⟩
abbrev main_v605 : Ref sig .tc := ⟨.hbm, 764, rfl⟩
abbrev main_c_121 : Ref sig .tc := ⟨.hbm, 765, rfl⟩
abbrev main_v606 : Ref sig .tc := ⟨.hbm, 766, rfl⟩
abbrev main_v607 : Ref sig .tc := ⟨.hbm, 767, rfl⟩
abbrev main_c_122 : Ref sig .tc := ⟨.hbm, 768, rfl⟩
abbrev main_v608 : Ref sig .tc := ⟨.hbm, 769, rfl⟩
abbrev main_v609 : Ref sig .tc := ⟨.hbm, 770, rfl⟩
abbrev main_v610 : Ref sig .tc := ⟨.hbm, 771, rfl⟩
abbrev main_v611 : Ref sig .tc := ⟨.hbm, 772, rfl⟩
abbrev main_v612 : Ref sig .tc := ⟨.hbm, 773, rfl⟩
abbrev main_cst_123 : Ref sig .tc := ⟨.hbm, 774, rfl⟩
abbrev main_v613 : Ref sig .tc := ⟨.hbm, 775, rfl⟩
abbrev main_v614 : Ref sig .tc := ⟨.hbm, 776, rfl⟩
abbrev main_v615 : Ref sig .tc := ⟨.hbm, 777, rfl⟩
abbrev main_cst_124 : Ref sig .tc := ⟨.hbm, 778, rfl⟩
abbrev main_v616 : Ref sig .tc := ⟨.hbm, 779, rfl⟩
abbrev main_cst_125 : Ref sig .tc := ⟨.hbm, 780, rfl⟩
abbrev main_v617 : Ref sig .tc := ⟨.hbm, 781, rfl⟩
abbrev main_v618 : Ref sig .tc := ⟨.hbm, 782, rfl⟩
abbrev main_v619 : Ref sig .tc := ⟨.hbm, 783, rfl⟩
abbrev main_cst_126 : Ref sig .tc := ⟨.hbm, 784, rfl⟩
abbrev main_v620 : Ref sig .tc := ⟨.hbm, 785, rfl⟩
abbrev main_v621 : Ref sig .tc := ⟨.hbm, 786, rfl⟩
abbrev main_v622 : Ref sig .tc := ⟨.hbm, 787, rfl⟩
abbrev main_v623 : Ref sig .tc := ⟨.hbm, 788, rfl⟩
abbrev main_v624 : Ref sig .tc := ⟨.hbm, 789, rfl⟩
abbrev main_v625 : Ref sig .tc := ⟨.hbm, 790, rfl⟩
abbrev main_v626 : Ref sig .tc := ⟨.hbm, 791, rfl⟩
abbrev main_v627 : Ref sig .tc := ⟨.hbm, 792, rfl⟩
abbrev main_v628 : Ref sig .tc := ⟨.hbm, 793, rfl⟩
abbrev main_v629 : Ref sig .tc := ⟨.hbm, 794, rfl⟩
abbrev main_v630 : Ref sig .tc := ⟨.hbm, 795, rfl⟩
abbrev main_v631 : Ref sig .tc := ⟨.hbm, 796, rfl⟩
abbrev main_v632 : Ref sig .tc := ⟨.hbm, 797, rfl⟩
abbrev main_v633 : Ref sig .tc := ⟨.hbm, 798, rfl⟩
abbrev main_v634 : Ref sig .tc := ⟨.hbm, 799, rfl⟩
abbrev main_v635 : Ref sig .tc := ⟨.hbm, 800, rfl⟩
abbrev main_c_127 : Ref sig .tc := ⟨.hbm, 801, rfl⟩
abbrev main_v636 : Ref sig .tc := ⟨.hbm, 802, rfl⟩
abbrev main_v637 : Ref sig .tc := ⟨.hbm, 803, rfl⟩
abbrev main_c_128 : Ref sig .tc := ⟨.hbm, 804, rfl⟩
abbrev main_v638 : Ref sig .tc := ⟨.hbm, 805, rfl⟩
abbrev main_v639 : Ref sig .tc := ⟨.hbm, 806, rfl⟩
abbrev main_v640 : Ref sig .tc := ⟨.hbm, 807, rfl⟩
abbrev main_v641 : Ref sig .tc := ⟨.hbm, 808, rfl⟩
abbrev main_v642 : Ref sig .tc := ⟨.hbm, 809, rfl⟩
abbrev main_cst_129 : Ref sig .tc := ⟨.hbm, 810, rfl⟩
abbrev main_v643 : Ref sig .tc := ⟨.hbm, 811, rfl⟩
abbrev main_v644 : Ref sig .tc := ⟨.hbm, 812, rfl⟩
abbrev main_v645 : Ref sig .tc := ⟨.hbm, 813, rfl⟩
abbrev main_cst_130 : Ref sig .tc := ⟨.hbm, 814, rfl⟩
abbrev main_v646 : Ref sig .tc := ⟨.hbm, 815, rfl⟩
abbrev main_cst_131 : Ref sig .tc := ⟨.hbm, 816, rfl⟩
abbrev main_v647 : Ref sig .tc := ⟨.hbm, 817, rfl⟩
abbrev main_v648 : Ref sig .tc := ⟨.hbm, 818, rfl⟩
abbrev main_v649 : Ref sig .tc := ⟨.hbm, 819, rfl⟩
abbrev main_cst_132 : Ref sig .tc := ⟨.hbm, 820, rfl⟩
abbrev main_v650 : Ref sig .tc := ⟨.hbm, 821, rfl⟩
abbrev main_v651 : Ref sig .tc := ⟨.hbm, 822, rfl⟩
abbrev main_v652 : Ref sig .tc := ⟨.hbm, 823, rfl⟩
abbrev main_v653 : Ref sig .tc := ⟨.hbm, 824, rfl⟩
abbrev main_v654 : Ref sig .tc := ⟨.hbm, 825, rfl⟩
abbrev main_v655 : Ref sig .tc := ⟨.hbm, 826, rfl⟩
abbrev main_v656 : Ref sig .tc := ⟨.hbm, 827, rfl⟩
abbrev main_v657 : Ref sig .tc := ⟨.hbm, 828, rfl⟩
abbrev main_v658 : Ref sig .tc := ⟨.hbm, 829, rfl⟩
abbrev main_v659 : Ref sig .tc := ⟨.hbm, 830, rfl⟩
abbrev main_v660 : Ref sig .tc := ⟨.hbm, 831, rfl⟩
abbrev main_v661 : Ref sig .tc := ⟨.hbm, 832, rfl⟩
abbrev main_v662 : Ref sig .tc := ⟨.hbm, 833, rfl⟩
abbrev main_v663 : Ref sig .tc := ⟨.hbm, 834, rfl⟩
abbrev main_v664 : Ref sig .tc := ⟨.hbm, 835, rfl⟩
abbrev main_v665 : Ref sig .tc := ⟨.hbm, 836, rfl⟩
abbrev main_c_133 : Ref sig .tc := ⟨.hbm, 837, rfl⟩
abbrev main_v666 : Ref sig .tc := ⟨.hbm, 838, rfl⟩
abbrev main_v667 : Ref sig .tc := ⟨.hbm, 839, rfl⟩
abbrev main_c_134 : Ref sig .tc := ⟨.hbm, 840, rfl⟩
abbrev main_v668 : Ref sig .tc := ⟨.hbm, 841, rfl⟩
abbrev main_v669 : Ref sig .tc := ⟨.hbm, 842, rfl⟩
abbrev main_v670 : Ref sig .tc := ⟨.hbm, 843, rfl⟩
abbrev main_v671 : Ref sig .tc := ⟨.hbm, 844, rfl⟩
abbrev main_v672 : Ref sig .tc := ⟨.hbm, 845, rfl⟩
abbrev main_cst_135 : Ref sig .tc := ⟨.hbm, 846, rfl⟩
abbrev main_v673 : Ref sig .tc := ⟨.hbm, 847, rfl⟩
abbrev main_v674 : Ref sig .tc := ⟨.hbm, 848, rfl⟩
abbrev main_v675 : Ref sig .tc := ⟨.hbm, 849, rfl⟩
abbrev main_cst_136 : Ref sig .tc := ⟨.hbm, 850, rfl⟩
abbrev main_v676 : Ref sig .tc := ⟨.hbm, 851, rfl⟩
abbrev main_cst_137 : Ref sig .tc := ⟨.hbm, 852, rfl⟩
abbrev main_v677 : Ref sig .tc := ⟨.hbm, 853, rfl⟩
abbrev main_v678 : Ref sig .tc := ⟨.hbm, 854, rfl⟩
abbrev main_v679 : Ref sig .tc := ⟨.hbm, 855, rfl⟩
abbrev main_cst_138 : Ref sig .tc := ⟨.hbm, 856, rfl⟩
abbrev main_v680 : Ref sig .tc := ⟨.hbm, 857, rfl⟩
abbrev main_v681 : Ref sig .tc := ⟨.hbm, 858, rfl⟩
abbrev main_v682 : Ref sig .tc := ⟨.hbm, 859, rfl⟩
abbrev main_v683 : Ref sig .tc := ⟨.hbm, 860, rfl⟩
abbrev main_v684 : Ref sig .tc := ⟨.hbm, 861, rfl⟩
abbrev main_v685 : Ref sig .tc := ⟨.hbm, 862, rfl⟩
abbrev main_v686 : Ref sig .tc := ⟨.hbm, 863, rfl⟩
abbrev main_v687 : Ref sig .tc := ⟨.hbm, 864, rfl⟩
abbrev main_v688 : Ref sig .tc := ⟨.hbm, 865, rfl⟩
abbrev main_v689 : Ref sig .tc := ⟨.hbm, 866, rfl⟩
abbrev main_v690 : Ref sig .tc := ⟨.hbm, 867, rfl⟩
abbrev main_v691 : Ref sig .tc := ⟨.hbm, 868, rfl⟩
abbrev main_v692 : Ref sig .tc := ⟨.hbm, 869, rfl⟩
abbrev main_v693 : Ref sig .tc := ⟨.hbm, 870, rfl⟩
abbrev main_v694 : Ref sig .tc := ⟨.hbm, 871, rfl⟩
abbrev main_v695 : Ref sig .tc := ⟨.hbm, 872, rfl⟩
abbrev main_c_139 : Ref sig .tc := ⟨.hbm, 873, rfl⟩
abbrev main_v696 : Ref sig .tc := ⟨.hbm, 874, rfl⟩
abbrev main_v697 : Ref sig .tc := ⟨.hbm, 875, rfl⟩
abbrev main_c_140 : Ref sig .tc := ⟨.hbm, 876, rfl⟩
abbrev main_v698 : Ref sig .tc := ⟨.hbm, 877, rfl⟩
abbrev main_v699 : Ref sig .tc := ⟨.hbm, 878, rfl⟩
abbrev main_v700 : Ref sig .tc := ⟨.hbm, 879, rfl⟩
abbrev main_v701 : Ref sig .tc := ⟨.hbm, 880, rfl⟩
abbrev main_v702 : Ref sig .tc := ⟨.hbm, 881, rfl⟩
abbrev main_cst_141 : Ref sig .tc := ⟨.hbm, 882, rfl⟩
abbrev main_v703 : Ref sig .tc := ⟨.hbm, 883, rfl⟩
abbrev main_v704 : Ref sig .tc := ⟨.hbm, 884, rfl⟩
abbrev main_v705 : Ref sig .tc := ⟨.hbm, 885, rfl⟩
abbrev main_cst_142 : Ref sig .tc := ⟨.hbm, 886, rfl⟩
abbrev main_v706 : Ref sig .tc := ⟨.hbm, 887, rfl⟩
abbrev main_cst_143 : Ref sig .tc := ⟨.hbm, 888, rfl⟩
abbrev main_v707 : Ref sig .tc := ⟨.hbm, 889, rfl⟩
abbrev main_v708 : Ref sig .tc := ⟨.hbm, 890, rfl⟩
abbrev main_v709 : Ref sig .tc := ⟨.hbm, 891, rfl⟩
abbrev main_cst_144 : Ref sig .tc := ⟨.hbm, 892, rfl⟩
abbrev main_v710 : Ref sig .tc := ⟨.hbm, 893, rfl⟩
abbrev main_v711 : Ref sig .tc := ⟨.hbm, 894, rfl⟩
abbrev main_v712 : Ref sig .tc := ⟨.hbm, 895, rfl⟩
abbrev main_v713 : Ref sig .tc := ⟨.hbm, 896, rfl⟩
abbrev main_v714 : Ref sig .tc := ⟨.hbm, 897, rfl⟩
abbrev main_v715 : Ref sig .tc := ⟨.hbm, 898, rfl⟩
abbrev main_v716 : Ref sig .tc := ⟨.hbm, 899, rfl⟩
abbrev main_v717 : Ref sig .tc := ⟨.hbm, 900, rfl⟩
abbrev main_v718 : Ref sig .tc := ⟨.hbm, 901, rfl⟩
abbrev main_v719 : Ref sig .tc := ⟨.hbm, 902, rfl⟩
abbrev main_v720 : Ref sig .tc := ⟨.hbm, 903, rfl⟩
abbrev main_v721 : Ref sig .tc := ⟨.hbm, 904, rfl⟩
abbrev main_v722 : Ref sig .tc := ⟨.hbm, 905, rfl⟩
abbrev main_v723 : Ref sig .tc := ⟨.hbm, 906, rfl⟩
abbrev main_v724 : Ref sig .tc := ⟨.hbm, 907, rfl⟩
abbrev main_v725 : Ref sig .tc := ⟨.hbm, 908, rfl⟩
abbrev main_c_145 : Ref sig .tc := ⟨.hbm, 909, rfl⟩
abbrev main_v726 : Ref sig .tc := ⟨.hbm, 910, rfl⟩
abbrev main_v727 : Ref sig .tc := ⟨.hbm, 911, rfl⟩
abbrev main_c_146 : Ref sig .tc := ⟨.hbm, 912, rfl⟩
abbrev main_v728 : Ref sig .tc := ⟨.hbm, 913, rfl⟩
abbrev main_v729 : Ref sig .tc := ⟨.hbm, 914, rfl⟩
abbrev main_v730 : Ref sig .tc := ⟨.hbm, 915, rfl⟩
abbrev main_v731 : Ref sig .tc := ⟨.hbm, 916, rfl⟩
abbrev main_v732 : Ref sig .tc := ⟨.hbm, 917, rfl⟩
abbrev main_cst_147 : Ref sig .tc := ⟨.hbm, 918, rfl⟩
abbrev main_v733 : Ref sig .tc := ⟨.hbm, 919, rfl⟩
abbrev main_v734 : Ref sig .tc := ⟨.hbm, 920, rfl⟩
abbrev main_v735 : Ref sig .tc := ⟨.hbm, 921, rfl⟩
abbrev main_cst_148 : Ref sig .tc := ⟨.hbm, 922, rfl⟩
abbrev main_v736 : Ref sig .tc := ⟨.hbm, 923, rfl⟩
abbrev main_cst_149 : Ref sig .tc := ⟨.hbm, 924, rfl⟩
abbrev main_v737 : Ref sig .tc := ⟨.hbm, 925, rfl⟩
abbrev main_v738 : Ref sig .tc := ⟨.hbm, 926, rfl⟩
abbrev main_v739 : Ref sig .tc := ⟨.hbm, 927, rfl⟩
abbrev main_cst_150 : Ref sig .tc := ⟨.hbm, 928, rfl⟩
abbrev main_v740 : Ref sig .tc := ⟨.hbm, 929, rfl⟩
abbrev main_v741 : Ref sig .tc := ⟨.hbm, 930, rfl⟩
abbrev main_v742 : Ref sig .tc := ⟨.hbm, 931, rfl⟩
abbrev main_v743 : Ref sig .tc := ⟨.hbm, 932, rfl⟩
abbrev main_v744 : Ref sig .tc := ⟨.hbm, 933, rfl⟩
abbrev main_v745 : Ref sig .tc := ⟨.hbm, 934, rfl⟩
abbrev main_v746 : Ref sig .tc := ⟨.hbm, 935, rfl⟩
abbrev main_v747 : Ref sig .tc := ⟨.hbm, 936, rfl⟩
abbrev main_v748 : Ref sig .tc := ⟨.hbm, 937, rfl⟩
abbrev main_v749 : Ref sig .tc := ⟨.hbm, 938, rfl⟩
abbrev main_v750 : Ref sig .tc := ⟨.hbm, 939, rfl⟩
abbrev main_v751 : Ref sig .tc := ⟨.hbm, 940, rfl⟩
abbrev main_v752 : Ref sig .tc := ⟨.hbm, 941, rfl⟩
abbrev main_v753 : Ref sig .tc := ⟨.hbm, 942, rfl⟩
abbrev main_v754 : Ref sig .tc := ⟨.hbm, 943, rfl⟩
abbrev main_v755 : Ref sig .tc := ⟨.hbm, 944, rfl⟩
abbrev main_v756 : Ref sig .tc := ⟨.hbm, 945, rfl⟩
abbrev main_cst_151 : Ref sig .tc := ⟨.hbm, 946, rfl⟩
abbrev main_v757 : Ref sig .tc := ⟨.hbm, 947, rfl⟩
abbrev main_v758 : Ref sig .tc := ⟨.hbm, 948, rfl⟩
abbrev main_v759 : Ref sig .tc := ⟨.hbm, 949, rfl⟩
abbrev main_cst_152 : Ref sig .tc := ⟨.hbm, 950, rfl⟩
abbrev main_v760 : Ref sig .tc := ⟨.hbm, 951, rfl⟩
abbrev main_v761 : Ref sig .tc := ⟨.hbm, 952, rfl⟩
abbrev main_v762 : Ref sig .tc := ⟨.hbm, 953, rfl⟩
abbrev main_cst_153 : Ref sig .tc := ⟨.hbm, 954, rfl⟩
abbrev main_v763 : Ref sig .tc := ⟨.hbm, 955, rfl⟩
abbrev main_v764 : Ref sig .tc := ⟨.hbm, 956, rfl⟩
abbrev main_call9_v0 : Ref sig .tc := ⟨.hbm, 957, rfl⟩
abbrev main_call9_cst : Ref sig .tc := ⟨.hbm, 958, rfl⟩
abbrev main_call9_v1 : Ref sig .tc := ⟨.hbm, 959, rfl⟩
abbrev main_call9_v2 : Ref sig .tc := ⟨.hbm, 960, rfl⟩
abbrev main_v765 : Ref sig .tc := ⟨.hbm, 961, rfl⟩
abbrev main_cst_154 : Ref sig .tc := ⟨.hbm, 962, rfl⟩
abbrev main_v766 : Ref sig .tc := ⟨.hbm, 963, rfl⟩
abbrev main_v767 : Ref sig .tc := ⟨.hbm, 964, rfl⟩
abbrev main_v768 : Ref sig .tc := ⟨.hbm, 965, rfl⟩
abbrev main_v769 : Ref sig .tc := ⟨.hbm, 966, rfl⟩
abbrev main_call10_v0 : Ref sig .tc := ⟨.hbm, 967, rfl⟩
abbrev main_call10_cst : Ref sig .tc := ⟨.hbm, 968, rfl⟩
abbrev main_call10_v1 : Ref sig .tc := ⟨.hbm, 969, rfl⟩
abbrev main_call10_v2 : Ref sig .tc := ⟨.hbm, 970, rfl⟩
abbrev main_v770 : Ref sig .tc := ⟨.hbm, 971, rfl⟩
abbrev main_cst_155 : Ref sig .tc := ⟨.hbm, 972, rfl⟩
abbrev main_v771 : Ref sig .tc := ⟨.hbm, 973, rfl⟩
abbrev main_v772 : Ref sig .tc := ⟨.hbm, 974, rfl⟩
abbrev main_v773 : Ref sig .tc := ⟨.hbm, 975, rfl⟩
abbrev main_v774 : Ref sig .tc := ⟨.hbm, 976, rfl⟩
abbrev main_call11_v0 : Ref sig .tc := ⟨.hbm, 977, rfl⟩
abbrev main_call11_cst : Ref sig .tc := ⟨.hbm, 978, rfl⟩
abbrev main_call11_v1 : Ref sig .tc := ⟨.hbm, 979, rfl⟩
abbrev main_call11_v2 : Ref sig .tc := ⟨.hbm, 980, rfl⟩
abbrev main_v775 : Ref sig .tc := ⟨.hbm, 981, rfl⟩
abbrev main_cst_156 : Ref sig .tc := ⟨.hbm, 982, rfl⟩
abbrev main_v776 : Ref sig .tc := ⟨.hbm, 983, rfl⟩
abbrev main_v777 : Ref sig .tc := ⟨.hbm, 984, rfl⟩
abbrev main_v778 : Ref sig .tc := ⟨.hbm, 985, rfl⟩
abbrev main_v779 : Ref sig .tc := ⟨.hbm, 986, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S30000x128 : S_.BroadcastsInDim S30000x128 (![] : Fin 0 → Fin S30000x128.rank)
  bcast_S_S800000x1 : S_.BroadcastsInDim S800000x1 (![] : Fin 0 → Fin S800000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  slices_S4x6x128x128_S1x1x128x128_0_0_0_0 : S4x6x128x128.Slices ![0, 0, 0, 0] S1x1x128x128
  shapeCasts_S1x1x128x128_S128x128 : S1x1x128x128.ShapeCasts S128x128
  slices_S4x6x128_S1x1x128_0_0_0 : S4x6x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S10000x128 : S_.BroadcastsInDim S10000x128 (![] : Fin 0 → Fin S10000x128.rank)
  bcast_S_S400000x1 : S_.BroadcastsInDim S400000x1 (![] : Fin 0 → Fin S400000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S4x6x128x128_S1x1x128x128_0_1_0_0 : S4x6x128x128.Slices ![0, 1, 0, 0] S1x1x128x128
  slices_S4x6x128_S1x1x128_0_1_0 : S4x6x128.Slices ![0, 1, 0] S1x1x128
  bcast_S1x128_S10000x128_0_1 : S1x128.BroadcastsInDim S10000x128 (![0, 1] : Fin 2 → Fin S10000x128.rank)
  slices_S4x6x128x128_S1x1x128x128_0_2_0_0 : S4x6x128x128.Slices ![0, 2, 0, 0] S1x1x128x128
  slices_S4x6x128_S1x1x128_0_2_0 : S4x6x128.Slices ![0, 2, 0] S1x1x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x6x128x128_S1x1x128x128_0_3_0_0 : S4x6x128x128.Slices ![0, 3, 0, 0] S1x1x128x128
  slices_S4x6x128_S1x1x128_0_3_0 : S4x6x128.Slices ![0, 3, 0] S1x1x128
  bcast_S1x128_S50000x128_0_1 : S1x128.BroadcastsInDim S50000x128 (![0, 1] : Fin 2 → Fin S50000x128.rank)
  slices_S4x6x128x128_S1x1x128x128_0_4_0_0 : S4x6x128x128.Slices ![0, 4, 0, 0] S1x1x128x128
  slices_S4x6x128_S1x1x128_0_4_0 : S4x6x128.Slices ![0, 4, 0] S1x1x128
  slices_S4x6x128x128_S1x1x128x128_0_5_0_0 : S4x6x128x128.Slices ![0, 5, 0, 0] S1x1x128x128
  slices_S4x6x128_S1x1x128_0_5_0 : S4x6x128.Slices ![0, 5, 0] S1x1x128
  slices_S4x6x128x128_S1x1x128x128_1_0_0_0 : S4x6x128x128.Slices ![1, 0, 0, 0] S1x1x128x128
  slices_S4x6x128_S1x1x128_1_0_0 : S4x6x128.Slices ![1, 0, 0] S1x1x128
  slices_S4x6x128x128_S1x1x128x128_1_1_0_0 : S4x6x128x128.Slices ![1, 1, 0, 0] S1x1x128x128
  slices_S4x6x128_S1x1x128_1_1_0 : S4x6x128.Slices ![1, 1, 0] S1x1x128
  slices_S4x6x128x128_S1x1x128x128_1_2_0_0 : S4x6x128x128.Slices ![1, 2, 0, 0] S1x1x128x128
  slices_S4x6x128_S1x1x128_1_2_0 : S4x6x128.Slices ![1, 2, 0] S1x1x128
  slices_S4x6x128x128_S1x1x128x128_1_3_0_0 : S4x6x128x128.Slices ![1, 3, 0, 0] S1x1x128x128
  slices_S4x6x128_S1x1x128_1_3_0 : S4x6x128.Slices ![1, 3, 0] S1x1x128
  slices_S4x6x128x128_S1x1x128x128_1_4_0_0 : S4x6x128x128.Slices ![1, 4, 0, 0] S1x1x128x128
  slices_S4x6x128_S1x1x128_1_4_0 : S4x6x128.Slices ![1, 4, 0] S1x1x128
  slices_S4x6x128x128_S1x1x128x128_1_5_0_0 : S4x6x128x128.Slices ![1, 5, 0, 0] S1x1x128x128
  slices_S4x6x128_S1x1x128_1_5_0 : S4x6x128.Slices ![1, 5, 0] S1x1x128
  slices_S4x6x128x128_S1x1x128x128_2_0_0_0 : S4x6x128x128.Slices ![2, 0, 0, 0] S1x1x128x128
  slices_S4x6x128_S1x1x128_2_0_0 : S4x6x128.Slices ![2, 0, 0] S1x1x128
  slices_S4x6x128x128_S1x1x128x128_2_1_0_0 : S4x6x128x128.Slices ![2, 1, 0, 0] S1x1x128x128
  slices_S4x6x128_S1x1x128_2_1_0 : S4x6x128.Slices ![2, 1, 0] S1x1x128
  slices_S4x6x128x128_S1x1x128x128_2_2_0_0 : S4x6x128x128.Slices ![2, 2, 0, 0] S1x1x128x128
  slices_S4x6x128_S1x1x128_2_2_0 : S4x6x128.Slices ![2, 2, 0] S1x1x128
  slices_S4x6x128x128_S1x1x128x128_2_3_0_0 : S4x6x128x128.Slices ![2, 3, 0, 0] S1x1x128x128
  slices_S4x6x128_S1x1x128_2_3_0 : S4x6x128.Slices ![2, 3, 0] S1x1x128
  slices_S4x6x128x128_S1x1x128x128_2_4_0_0 : S4x6x128x128.Slices ![2, 4, 0, 0] S1x1x128x128
  slices_S4x6x128_S1x1x128_2_4_0 : S4x6x128.Slices ![2, 4, 0] S1x1x128
  slices_S4x6x128x128_S1x1x128x128_2_5_0_0 : S4x6x128x128.Slices ![2, 5, 0, 0] S1x1x128x128
  slices_S4x6x128_S1x1x128_2_5_0 : S4x6x128.Slices ![2, 5, 0] S1x1x128
  slices_S4x6x128x128_S1x1x128x128_3_0_0_0 : S4x6x128x128.Slices ![3, 0, 0, 0] S1x1x128x128
  slices_S4x6x128_S1x1x128_3_0_0 : S4x6x128.Slices ![3, 0, 0] S1x1x128
  slices_S4x6x128x128_S1x1x128x128_3_1_0_0 : S4x6x128x128.Slices ![3, 1, 0, 0] S1x1x128x128
  slices_S4x6x128_S1x1x128_3_1_0 : S4x6x128.Slices ![3, 1, 0] S1x1x128
  slices_S4x6x128x128_S1x1x128x128_3_2_0_0 : S4x6x128x128.Slices ![3, 2, 0, 0] S1x1x128x128
  slices_S4x6x128_S1x1x128_3_2_0 : S4x6x128.Slices ![3, 2, 0] S1x1x128
  slices_S4x6x128x128_S1x1x128x128_3_3_0_0 : S4x6x128x128.Slices ![3, 3, 0, 0] S1x1x128x128
  slices_S4x6x128_S1x1x128_3_3_0 : S4x6x128.Slices ![3, 3, 0] S1x1x128
  slices_S4x6x128x128_S1x1x128x128_3_4_0_0 : S4x6x128x128.Slices ![3, 4, 0, 0] S1x1x128x128
  slices_S4x6x128_S1x1x128_3_4_0 : S4x6x128.Slices ![3, 4, 0] S1x1x128
  slices_S4x6x128x128_S1x1x128x128_3_5_0_0 : S4x6x128x128.Slices ![3, 5, 0, 0] S1x1x128x128
  slices_S4x6x128_S1x1x128_3_5_0 : S4x6x128.Slices ![3, 5, 0] S1x1x128
  reducesTo_S50000x128_S50000_d1 : S50000x128.ReducesTo [1] S50000
  h_S_ : 0 < S_.numel
  bcast_S50000_S50000x1_0 : S50000.BroadcastsInDim S50000x1 (![0] : Fin 1 → Fin S50000x1.rank)
  reducesTo_S30000x128_S30000_d1 : S30000x128.ReducesTo [1] S30000
  bcast_S30000_S30000x1_0 : S30000.BroadcastsInDim S30000x1 (![0] : Fin 1 → Fin S30000x1.rank)
  reducesTo_S10000x128_S10000_d1 : S10000x128.ReducesTo [1] S10000
  bcast_S10000_S10000x1_0 : S10000.BroadcastsInDim S10000x1 (![0] : Fin 1 → Fin S10000x1.rank)
  gather_S50000x128_S800000x1_S800000x128_1_0_n_n_0_1_1128_wf : GatherDims.WF S50000x128 S800000x1 S800000x128 [1] [0] [] [0] [] 1 ![1, 128]
  scatter_S30000x128_S800000x1_S800000x128_1_0_0_1_wf : ScatterDims.WF S30000x128 S800000x1 S800000x128 [1] [0] [0] 1
  scatter_S30000x1_S800000x1_S800000x1_1_0_0_1_wf : ScatterDims.WF S30000x1 S800000x1 S800000x1 [1] [0] [0] 1
  dot_S30000x128_S128x128_S30000x128_1_0_0_1_n_n_wf : DotDims.WF S30000x128 S128x128 S30000x128 [1] [0] [0] [1] [] []
  gather_S30000x128_S400000x1_S400000x128_1_0_n_n_0_1_1128_wf : GatherDims.WF S30000x128 S400000x1 S400000x128 [1] [0] [] [0] [] 1 ![1, 128]
  scatter_S10000x128_S400000x1_S400000x128_1_0_0_1_wf : ScatterDims.WF S10000x128 S400000x1 S400000x128 [1] [0] [0] 1
  scatter_S10000x1_S400000x1_S400000x1_1_0_0_1_wf : ScatterDims.WF S10000x1 S400000x1 S400000x1 [1] [0] [0] 1
  dot_S10000x128_S128x128_S10000x128_1_0_0_1_n_n_wf : DotDims.WF S10000x128 S128x128 S10000x128 [1] [0] [0] [1] [] []
  scatter_S10000x128_S800000x1_S800000x128_1_0_0_1_wf : ScatterDims.WF S10000x128 S800000x1 S800000x128 [1] [0] [0] 1
  scatter_S10000x1_S800000x1_S800000x1_1_0_0_1_wf : ScatterDims.WF S10000x1 S800000x1 S800000x1 [1] [0] [0] 1
  gather_S30000x128_S800000x1_S800000x128_1_0_n_n_0_1_1128_wf : GatherDims.WF S30000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  gather_S10000x128_S400000x1_S400000x128_1_0_n_n_0_1_1128_wf : GatherDims.WF S10000x128 S400000x1 S400000x128 [1] [0] [] [0] [] 1 ![1, 128]
  scatter_S30000x128_S400000x1_S400000x128_1_0_0_1_wf : ScatterDims.WF S30000x128 S400000x1 S400000x128 [1] [0] [0] 1
  scatter_S30000x1_S400000x1_S400000x1_1_0_0_1_wf : ScatterDims.WF S30000x1 S400000x1 S400000x1 [1] [0] [0] 1
  gather_S10000x128_S800000x1_S800000x128_1_0_n_n_0_1_1128_wf : GatherDims.WF S10000x128 S800000x1 S800000x128 [1] [0] [] [0] [] 1 ![1, 128]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S30000x128_S800000x1_S800000x128_1_0_0_1 : ScatterDims S30000x128 S800000x1 S800000x128 where
  updateWindowDims := [1]
  insertedWindowDims := [0]
  scatterDimsToOperandDims := [0]
  indexVectorDim := 1
  wf := scatter_S30000x128_S800000x1_S800000x128_1_0_0_1_wf
def scatter_S30000x1_S800000x1_S800000x1_1_0_0_1 : ScatterDims S30000x1 S800000x1 S800000x1 where
  updateWindowDims := [1]
  insertedWindowDims := [0]
  scatterDimsToOperandDims := [0]
  indexVectorDim := 1
  wf := scatter_S30000x1_S800000x1_S800000x1_1_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def gather_S30000x128_S400000x1_S400000x128_1_0_n_n_0_1_1128 : GatherDims S30000x128 S400000x1 S400000x128 where
  offsetDims := [1]
  collapsedSliceDims := [0]
  operandBatchingDims := []
  startIndicesBatchingDims := []
  startIndexMap := [0]
  indexVectorDim := 1
  sliceSizes := ![1, 128]
  wf := gather_S30000x128_S400000x1_S400000x128_1_0_n_n_0_1_1128_wf
def scatter_S10000x128_S400000x1_S400000x128_1_0_0_1 : ScatterDims S10000x128 S400000x1 S400000x128 where
  updateWindowDims := [1]
  insertedWindowDims := [0]
  scatterDimsToOperandDims := [0]
  indexVectorDim := 1
  wf := scatter_S10000x128_S400000x1_S400000x128_1_0_0_1_wf
def scatter_S10000x1_S400000x1_S400000x1_1_0_0_1 : ScatterDims S10000x1 S400000x1 S400000x1 where
  updateWindowDims := [1]
  insertedWindowDims := [0]
  scatterDimsToOperandDims := [0]
  indexVectorDim := 1
  wf := scatter_S10000x1_S400000x1_S400000x1_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def scatter_S10000x1_S800000x1_S800000x1_1_0_0_1 : ScatterDims S10000x1 S800000x1 S800000x1 where
  updateWindowDims := [1]
  insertedWindowDims := [0]
  scatterDimsToOperandDims := [0]
  indexVectorDim := 1
  wf := scatter_S10000x1_S800000x1_S800000x1_1_0_0_1_wf
def gather_S30000x128_S800000x1_S800000x128_1_0_n_n_0_1_1128 : GatherDims S30000x128 S800000x1 S800000x128 where
  offsetDims := [1]
  collapsedSliceDims := [0]
  operandBatchingDims := []
  startIndicesBatchingDims := []
  startIndexMap := [0]
  indexVectorDim := 1
  sliceSizes := ![1, 128]
  wf := gather_S30000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def scatter_S30000x128_S400000x1_S400000x128_1_0_0_1 : ScatterDims S30000x128 S400000x1 S400000x128 where
  updateWindowDims := [1]
  insertedWindowDims := [0]
  scatterDimsToOperandDims := [0]
  indexVectorDim := 1
  wf := scatter_S30000x128_S400000x1_S400000x128_1_0_0_1_wf
def scatter_S30000x1_S400000x1_S400000x1_1_0_0_1 : ScatterDims S30000x1 S400000x1 S400000x1 where
  updateWindowDims := [1]
  insertedWindowDims := [0]
  scatterDimsToOperandDims := [0]
  indexVectorDim := 1
  wf := scatter_S30000x1_S400000x1_S400000x1_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf

class Facts : Prop extends Facts₀ where

variable [Facts]
-- ==== Proof.RefLemmas.lean ====
/-
  Facts about a straight line of host operations used for the reference's run in chunks.

  The arguments of the reference are its first eighteen buffers.  An operation whose result buffer is a
  later one writes no argument, so a line of such operations leaves every argument as it was.
  A property of every operation of four lists holds of every operation of their concatenation.
-/
import proofs.«141482_j13434657702128_1_alg».proof.Proof.Gen.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo

variable {Val : EltTy → Type}

/-- A device buffer that is a reference past the eighteen arguments. -/
def NotArg (x : DevRef τ sig) : Prop := ∃ y : Ref sig .tc, x = Proc.devRef .tc y ∧ 18 ≤ y.idx.val

theorem notArg_of_mem_singleton {y : Ref sig .tc} (h : 18 ≤ y.idx.val) {z : DevRef τ sig}
    (hz : z ∈ ({Proc.devRef .tc y} : Finset (DevRef τ sig))) : NotArg z :=
  ⟨y, Finset.mem_singleton.mp hz, h⟩

section Builders

variable {x a b c y : Ref sig .tc}

theorem nullary_notArg {v : y.ty.Contents Val} {hy} (h : 18 ≤ y.idx.val) :
    ∀ z ∈ (nullary (τ := τ) y v hy).writes, NotArg z := fun _ hz => notArg_of_mem_singleton h (nullary_writes y v hy ▸ hz)
theorem unary_notArg {f : x.ty.Contents Val → y.ty.Contents Val} {hx hy} (h : 18 ≤ y.idx.val) :
    ∀ z ∈ (unary (τ := τ) x y f hx hy).writes, NotArg z := fun _ hz => notArg_of_mem_singleton h (unary_writes x y f hx hy ▸ hz)
theorem binary_notArg {f : a.ty.Contents Val → b.ty.Contents Val → y.ty.Contents Val} {ha hb hy} (h : 18 ≤ y.idx.val) :
    ∀ z ∈ (binary (τ := τ) a b y f ha hb hy).writes, NotArg z := fun _ hz => notArg_of_mem_singleton h (binary_writes a b y f ha hb hy ▸ hz)
theorem ternary_notArg {f : c.ty.Contents Val → a.ty.Contents Val → b.ty.Contents Val → y.ty.Contents Val} {hc ha hb hy}
    (h : 18 ≤ y.idx.val) :
    ∀ z ∈ (ternary (τ := τ) c a b y f hc ha hb hy).writes, NotArg z :=
  fun _ hz => notArg_of_mem_singleton h (ternary_writes (c := c) (a := a) (b := b) (y := y) f hc ha hb hy ▸ hz)
theorem reshape_notArg {he hn hx hy} (h : 18 ≤ y.idx.val) :
    ∀ z ∈ (reshape (τ := τ) (Val := Val) x y he hn hx hy).writes, NotArg z :=
  fun _ hz => notArg_of_mem_singleton h (reshape_writes x y he hn hx hy ▸ hz)

end Builders

/-- A line whose operations write no argument leaves an argument's buffer as it was. -/
theorem after_arg {ops : List (HloOp τ sig Val)} (h : ops.Forall fun op => ∀ z ∈ op.writes, NotArg z)
    (V : Valuation τ sig Val) {r : Ref sig .tc} (hr : r.idx.val < 18) :
    after ops V (Proc.devRef .tc r) = V (Proc.devRef .tc r) :=
  after_of_forall_not_mem ops V fun op hop hmem => by
    obtain ⟨y, e, hy⟩ := (List.forall_iff_forall_mem.mp h) op hop _ hmem
    have e' : r = y := Proc.devRef_injective _ e
    subst e'
    omega

/-- What holds of every element of four lists holds of every element of their concatenation. -/
theorem forall_append4 {α : Type _} {p : α → Prop} {l₀ l₁ l₂ l₃ : List α}
    (h₀ : l₀.Forall p) (h₁ : l₁.Forall p) (h₂ : l₂.Forall p) (h₃ : l₃.Forall p) : (l₀ ++ (l₁ ++ (l₂ ++ l₃))).Forall p :=
  List.forall_iff_forall_mem.mpr fun x hx => by
    rcases List.mem_append.mp hx with h | hx
    · exact List.forall_iff_forall_mem.mp h₀ x h
    rcases List.mem_append.mp hx with h | hx
    · exact List.forall_iff_forall_mem.mp h₁ x h
    rcases List.mem_append.mp hx with h | h
    · exact List.forall_iff_forall_mem.mp h₂ x h
    · exact List.forall_iff_forall_mem.mp h₃ x h

end Cert.ReferenceIdeal.RefOps

end
-- ==== Proof.RefOps0.lean ====
import proofs.«141482_j13434657702128_1_alg».proof.Proof.RefLemmas

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The first layer: operations 0 to 236 of the reference's 969, in order. -/
abbrev R0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg3 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg3 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg3 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S30000x128 ![] bcast_S_S30000x128 : (⟨S_, .f32⟩ : BufTy).Contents (Elt F) → (⟨S30000x128, .f32⟩ : BufTy).Contents (Elt F)),
    unary main_arg4 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S30000x128_S800000x1_S800000x128_1_0_0_1 x i u) : (⟨S30000x128, .f32⟩ : BufTy).Contents (Elt F) → (⟨S800000x1, .i32⟩ : BufTy).Contents (Elt F) → (⟨S800000x128, .f32⟩ : BufTy).Contents (Elt F) → (⟨S30000x128, .f32⟩ : BufTy).Contents (Elt F)),
    nullary main_cst_1 (constant S_ .f32 0x3F800000#32),
    unary main_cst_1 main_v10 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v11 (broadcastInDim S30000x1 ![] bcast_S_S30000x1 : (⟨S_, .f32⟩ : BufTy).Contents (Elt F) → (⟨S30000x1, .f32⟩ : BufTy).Contents (Elt F)),
    unary main_arg4 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S30000x1_S800000x1_S800000x1_1_0_0_1 x i u) : (⟨S30000x1, .f32⟩ : BufTy).Contents (Elt F) → (⟨S800000x1, .i32⟩ : BufTy).Contents (Elt F) → (⟨S800000x1, .f32⟩ : BufTy).Contents (Elt F) → (⟨S30000x1, .f32⟩ : BufTy).Contents (Elt F)),
    nullary main_cst_3 (constant S_ .f32 0x3F800000#32),
    unary main_cst_3 main_v14 (broadcastInDim S30000x1 ![] bcast_S_S30000x1 : (⟨S_, .f32⟩ : BufTy).Contents (Elt F) → (⟨S30000x1, .f32⟩ : BufTy).Contents (Elt F)),
    binary main_v13 main_v14 main_v15 (maximumf : (⟨S30000x1, .f32⟩ : BufTy).Contents (Elt F) → (⟨S30000x1, .f32⟩ : BufTy).Contents (Elt F) → (⟨S30000x1, .f32⟩ : BufTy).Contents (Elt F)),
    unary main_v15 main_v16 (broadcastInDim S30000x128 ![0, 1] bcast_S30000x1_S30000x128_0_1 : (⟨S30000x1, .f32⟩ : BufTy).Contents (Elt F) → (⟨S30000x128, .f32⟩ : BufTy).Contents (Elt F)),
    binary main_v9 main_v16 main_v17 (Host.divf : (⟨S30000x128, .f32⟩ : BufTy).Contents (Elt F) → (⟨S30000x128, .f32⟩ : BufTy).Contents (Elt F) → (⟨S30000x128, .f32⟩ : BufTy).Contents (Elt F)),
    unary main_arg15 main_v18 ((extractStridedSlice S1x1x128x128 ![0, 0, 0, 0] · slices_S4x6x128x128_S1x1x128x128_0_0_0_0) : (⟨S4x6x128x128, .f32⟩ : BufTy).Contents (Elt F) → (⟨S1x1x128x128, .f32⟩ : BufTy).Contents (Elt F)),
    reshape main_v18 main_v19 rfl shapeCasts_S1x1x128x128_S128x128,
    binary main_v17 main_v19 main_v20 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v21 ((extractStridedSlice S1x1x128x128 ![0, 0, 0, 0] · slices_S4x6x128x128_S1x1x128x128_0_0_0_0) : (⟨S4x6x128x128, .f32⟩ : BufTy).Contents (Elt F) → (⟨S1x1x128x128, .f32⟩ : BufTy).Contents (Elt F)),
    reshape main_v21 main_v22 rfl shapeCasts_S1x1x128x128_S128x128,
    binary main_arg1 main_v22 main_v23 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v20 main_v23 main_v24 (addf : (⟨S30000x128, .f32⟩ : BufTy).Contents (Elt F) → (⟨S30000x128, .f32⟩ : BufTy).Contents (Elt F) → (⟨S30000x128, .f32⟩ : BufTy).Contents (Elt F)),
    unary main_arg17 main_v25 ((extractStridedSlice S1x1x128 ![0, 0, 0] · slices_S4x6x128_S1x1x128_0_0_0) : (⟨S4x6x128, .f32⟩ : BufTy).Contents (Elt F) → (⟨S1x1x128, .f32⟩ : BufTy).Contents (Elt F)),
    reshape main_v25 main_v26 rfl shapeCasts_S1x1x128_S128,
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S30000x128 ![0, 1] bcast_S1x128_S30000x128_0_1 : (⟨S1x128, .f32⟩ : BufTy).Contents (Elt F) → (⟨S30000x128, .f32⟩ : BufTy).Contents (Elt F)),
    binary main_v24 main_v28 main_v29 (addf : (⟨S30000x128, .f32⟩ : BufTy).Contents (Elt F) → (⟨S30000x128, .f32⟩ : BufTy).Contents (Elt F) → (⟨S30000x128, .f32⟩ : BufTy).Contents (Elt F)),
    nullary main_c_4 (constantI S_ 32 0#32),
    unary main_c_4 main_v30 (broadcastInDim S400000 ![] bcast_S_S400000 : (⟨S_, .i32⟩ : BufTy).Contents (Elt F) → (⟨S400000, .i32⟩ : BufTy).Contents (Elt F)),
    binary main_arg5 main_v30 main_v31 (cmpi .slt : (⟨S400000, .i32⟩ : BufTy).Contents (Elt F) → (⟨S400000, .i32⟩ : BufTy).Contents (Elt F) → (⟨S400000, .i1⟩ : BufTy).Contents (Elt F)),
    nullary main_c_5 (constantI S_ 32 30000#32),
    unary main_c_5 main_v32 (broadcastInDim S400000 ![] bcast_S_S400000 : (⟨S_, .i32⟩ : BufTy).Contents (Elt F) → (⟨S400000, .i32⟩ : BufTy).Contents (Elt F)),
    binary main_arg5 main_v32 main_v33 (addi : (⟨S400000, .i32⟩ : BufTy).Contents (Elt F) → (⟨S400000, .i32⟩ : BufTy).Contents (Elt F) → (⟨S400000, .i32⟩ : BufTy).Contents (Elt F)),
    ternary main_v31 main_v33 main_arg5 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v34 main_v35 (broadcastInDim S400000x1 ![0] bcast_S400000_S400000x1_0 : (⟨S400000, .i32⟩ : BufTy).Contents (Elt F) → (⟨S400000x1, .i32⟩ : BufTy).Contents (Elt F)),
    binary main_arg1 main_v35 main_v36 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    nullary main_cst_6 (constant S_ .f32 0x00000000#32),
    unary main_cst_6 main_v37 (broadcastInDim S10000x128 ![] bcast_S_S10000x128 : (⟨S_, .f32⟩ : BufTy).Contents (Elt F) → (⟨S10000x128, .f32⟩ : BufTy).Contents (Elt F)),
    unary main_arg6 main_v38 (broadcastInDim S400000x1 ![0] bcast_S400000_S400000x1_0 : (⟨S400000, .i32⟩ : BufTy).Contents (Elt F) → (⟨S400000x1, .i32⟩ : BufTy).Contents (Elt F)),
    ternary main_v37 main_v38 main_v36 main_v39 ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)),
    nullary main_cst_7 (constant S_ .f32 0x3F800000#32),
    unary main_cst_7 main_v40 (broadcastInDim S400000x1 ![] bcast_S_S400000x1 : (⟨S_, .f32⟩ : BufTy).Contents (Elt F) → (⟨S400000x1, .f32⟩ : BufTy).Contents (Elt F)),
    nullary main_cst_8 (constant S_ .f32 0x00000000#32),
    unary main_cst_8 main_v41 (broadcastInDim S10000x1 ![] bcast_S_S10000x1 : (⟨S_, .f32⟩ : BufTy).Contents (Elt F) → (⟨S10000x1, .f32⟩ : BufTy).Contents (Elt F)),
    unary main_arg6 main_v42 (broadcastInDim S400000x1 ![0] bcast_S400000_S400000x1_0 : (⟨S400000, .i32⟩ : BufTy).Contents (Elt F) → (⟨S400000x1, .i32⟩ : BufTy).Contents (Elt F)),
    ternary main_v41 main_v42 main_v40 main_v43 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    nullary main_cst_9 (constant S_ .f32 0x3F800000#32),
    unary main_cst_9 main_v44 (broadcastInDim S10000x1 ![] bcast_S_S10000x1 : (⟨S_, .f32⟩ : BufTy).Contents (Elt F) → (⟨S10000x1, .f32⟩ : BufTy).Contents (Elt F)),
    binary main_v43 main_v44 main_v45 (maximumf : (⟨S10000x1, .f32⟩ : BufTy).Contents (Elt F) → (⟨S10000x1, .f32⟩ : BufTy).Contents (Elt F) → (⟨S10000x1, .f32⟩ : BufTy).Contents (Elt F)),
    unary main_v45 main_v46 (broadcastInDim S10000x128 ![0, 1] bcast_S10000x1_S10000x128_0_1 : (⟨S10000x1, .f32⟩ : BufTy).Contents (Elt F) → (⟨S10000x128, .f32⟩ : BufTy).Contents (Elt F)),
    binary main_v39 main_v46 main_v47 (Host.divf : (⟨S10000x128, .f32⟩ : BufTy).Contents (Elt F) → (⟨S10000x128, .f32⟩ : BufTy).Contents (Elt F) → (⟨S10000x128, .f32⟩ : BufTy).Contents (Elt F)),
    unary main_arg15 main_v48 ((extractStridedSlice S1x1x128x128 ![0, 1, 0, 0] · slices_S4x6x128x128_S1x1x128x128_0_1_0_0) : (⟨S4x6x128x128, .f32⟩ : BufTy).Contents (Elt F) → (⟨S1x1x128x128, .f32⟩ : BufTy).Contents (Elt F)),
    reshape main_v48 main_v49 rfl shapeCasts_S1x1x128x128_S128x128,
    binary main_v47 main_v49 main_v50 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v51 ((extractStridedSlice S1x1x128x128 ![0, 1, 0, 0] · slices_S4x6x128x128_S1x1x128x128_0_1_0_0) : (⟨S4x6x128x128, .f32⟩ : BufTy).Contents (Elt F) → (⟨S1x1x128x128, .f32⟩ : BufTy).Contents (Elt F)),
    reshape main_v51 main_v52 rfl shapeCasts_S1x1x128x128_S128x128,
    binary main_arg2 main_v52 main_v53 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v50 main_v53 main_v54 (addf : (⟨S10000x128, .f32⟩ : BufTy).Contents (Elt F) → (⟨S10000x128, .f32⟩ : BufTy).Contents (Elt F) → (⟨S10000x128, .f32⟩ : BufTy).Contents (Elt F)),
    unary main_arg17 main_v55 ((extractStridedSlice S1x1x128 ![0, 1, 0] · slices_S4x6x128_S1x1x128_0_1_0) : (⟨S4x6x128, .f32⟩ : BufTy).Contents (Elt F) → (⟨S1x1x128, .f32⟩ : BufTy).Contents (Elt F)),
    reshape main_v55 main_v56 rfl shapeCasts_S1x1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S10000x128 ![0, 1] bcast_S1x128_S10000x128_0_1 : (⟨S1x128, .f32⟩ : BufTy).Contents (Elt F) → (⟨S10000x128, .f32⟩ : BufTy).Contents (Elt F)),
    binary main_v54 main_v58 main_v59 (addf : (⟨S10000x128, .f32⟩ : BufTy).Contents (Elt F) → (⟨S10000x128, .f32⟩ : BufTy).Contents (Elt F) → (⟨S10000x128, .f32⟩ : BufTy).Contents (Elt F)),
    nullary main_c_10 (constantI S_ 32 0#32),
    unary main_c_10 main_v60 (broadcastInDim S800000 ![] bcast_S_S800000 : (⟨S_, .i32⟩ : BufTy).Contents (Elt F) → (⟨S800000, .i32⟩ : BufTy).Contents (Elt F)),
    binary main_arg7 main_v60 main_v61 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v62 (broadcastInDim S800000 ![] bcast_S_S800000 : (⟨S_, .i32⟩ : BufTy).Contents (Elt F) → (⟨S800000, .i32⟩ : BufTy).Contents (Elt F)),
    binary main_arg7 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg7 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_arg0 main_v65 main_v66 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v67 (broadcastInDim S10000x128 ![] bcast_S_S10000x128 : (⟨S_, .f32⟩ : BufTy).Contents (Elt F) → (⟨S10000x128, .f32⟩ : BufTy).Contents (Elt F)),
    unary main_arg8 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S10000x128_S800000x1_S800000x128_1_0_0_1 x i u) : (⟨S10000x128, .f32⟩ : BufTy).Contents (Elt F) → (⟨S800000x1, .i32⟩ : BufTy).Contents (Elt F) → (⟨S800000x128, .f32⟩ : BufTy).Contents (Elt F) → (⟨S10000x128, .f32⟩ : BufTy).Contents (Elt F)),
    nullary main_cst_13 (constant S_ .f32 0x3F800000#32),
    unary main_cst_13 main_v70 (broadcastInDim S800000x1 ![] bcast_S_S800000x1 : (⟨S_, .f32⟩ : BufTy).Contents (Elt F) → (⟨S800000x1, .f32⟩ : BufTy).Contents (Elt F)),
    nullary main_cst_14 (constant S_ .f32 0x00000000#32),
    unary main_cst_14 main_v71 (broadcastInDim S10000x1 ![] bcast_S_S10000x1 : (⟨S_, .f32⟩ : BufTy).Contents (Elt F) → (⟨S10000x1, .f32⟩ : BufTy).Contents (Elt F)),
    unary main_arg8 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S10000x1_S800000x1_S800000x1_1_0_0_1 x i u) : (⟨S10000x1, .f32⟩ : BufTy).Contents (Elt F) → (⟨S800000x1, .i32⟩ : BufTy).Contents (Elt F) → (⟨S800000x1, .f32⟩ : BufTy).Contents (Elt F) → (⟨S10000x1, .f32⟩ : BufTy).Contents (Elt F)),
    nullary main_cst_15 (constant S_ .f32 0x3F800000#32),
    unary main_cst_15 main_v74 (broadcastInDim S10000x1 ![] bcast_S_S10000x1 : (⟨S_, .f32⟩ : BufTy).Contents (Elt F) → (⟨S10000x1, .f32⟩ : BufTy).Contents (Elt F)),
    binary main_v73 main_v74 main_v75 (maximumf : (⟨S10000x1, .f32⟩ : BufTy).Contents (Elt F) → (⟨S10000x1, .f32⟩ : BufTy).Contents (Elt F) → (⟨S10000x1, .f32⟩ : BufTy).Contents (Elt F)),
    unary main_v75 main_v76 (broadcastInDim S10000x128 ![0, 1] bcast_S10000x1_S10000x128_0_1 : (⟨S10000x1, .f32⟩ : BufTy).Contents (Elt F) → (⟨S10000x128, .f32⟩ : BufTy).Contents (Elt F)),
    binary main_v69 main_v76 main_v77 (Host.divf : (⟨S10000x128, .f32⟩ : BufTy).Contents (Elt F) → (⟨S10000x128, .f32⟩ : BufTy).Contents (Elt F) → (⟨S10000x128, .f32⟩ : BufTy).Contents (Elt F)),
    unary main_arg15 main_v78 ((extractStridedSlice S1x1x128x128 ![0, 2, 0, 0] · slices_S4x6x128x128_S1x1x128x128_0_2_0_0) : (⟨S4x6x128x128, .f32⟩ : BufTy).Contents (Elt F) → (⟨S1x1x128x128, .f32⟩ : BufTy).Contents (Elt F)),
    reshape main_v78 main_v79 rfl shapeCasts_S1x1x128x128_S128x128,
    binary main_v77 main_v79 main_v80 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v81 ((extractStridedSlice S1x1x128x128 ![0, 2, 0, 0] · slices_S4x6x128x128_S1x1x128x128_0_2_0_0) : (⟨S4x6x128x128, .f32⟩ : BufTy).Contents (Elt F) → (⟨S1x1x128x128, .f32⟩ : BufTy).Contents (Elt F)),
    reshape main_v81 main_v82 rfl shapeCasts_S1x1x128x128_S128x128,
    binary main_arg2 main_v82 main_v83 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v80 main_v83 main_v84 (addf : (⟨S10000x128, .f32⟩ : BufTy).Contents (Elt F) → (⟨S10000x128, .f32⟩ : BufTy).Contents (Elt F) → (⟨S10000x128, .f32⟩ : BufTy).Contents (Elt F)),
    unary main_arg17 main_v85 ((extractStridedSlice S1x1x128 ![0, 2, 0] · slices_S4x6x128_S1x1x128_0_2_0) : (⟨S4x6x128, .f32⟩ : BufTy).Contents (Elt F) → (⟨S1x1x128, .f32⟩ : BufTy).Contents (Elt F)),
    reshape main_v85 main_v86 rfl shapeCasts_S1x1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S10000x128 ![0, 1] bcast_S1x128_S10000x128_0_1 : (⟨S1x128, .f32⟩ : BufTy).Contents (Elt F) → (⟨S10000x128, .f32⟩ : BufTy).Contents (Elt F)),
    binary main_v84 main_v88 main_v89 (addf : (⟨S10000x128, .f32⟩ : BufTy).Contents (Elt F) → (⟨S10000x128, .f32⟩ : BufTy).Contents (Elt F) → (⟨S10000x128, .f32⟩ : BufTy).Contents (Elt F)),
    nullary main_c_16 (constantI S_ 32 0#32),
    unary main_c_16 main_v90 (broadcastInDim S800000 ![] bcast_S_S800000 : (⟨S_, .i32⟩ : BufTy).Contents (Elt F) → (⟨S800000, .i32⟩ : BufTy).Contents (Elt F)),
    binary main_arg9 main_v90 main_v91 (cmpi .slt : (⟨S800000, .i32⟩ : BufTy).Contents (Elt F) → (⟨S800000, .i32⟩ : BufTy).Contents (Elt F) → (⟨S800000, .i1⟩ : BufTy).Contents (Elt F)),
    nullary main_c_17 (constantI S_ 32 30000#32),
    unary main_c_17 main_v92 (broadcastInDim S800000 ![] bcast_S_S800000 : (⟨S_, .i32⟩ : BufTy).Contents (Elt F) → (⟨S800000, .i32⟩ : BufTy).Contents (Elt F)),
    binary main_arg9 main_v92 main_v93 (addi : (⟨S800000, .i32⟩ : BufTy).Contents (Elt F) → (⟨S800000, .i32⟩ : BufTy).Contents (Elt F) → (⟨S800000, .i32⟩ : BufTy).Contents (Elt F)),
    ternary main_v91 main_v93 main_arg9 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v94 main_v95 (broadcastInDim S800000x1 ![0] bcast_S800000_S800000x1_0 : (⟨S800000, .i32⟩ : BufTy).Contents (Elt F) → (⟨S800000x1, .i32⟩ : BufTy).Contents (Elt F)),
    binary main_arg1 main_v95 main_v96 ((fun x i => Host.gather gather_S30000x128_S800000x1_S800000x128_1_0_n_n_0_1_1128 x i) : (⟨S30000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v97 (broadcastInDim S50000x128 ![] bcast_S_S50000x128 : (⟨S_, .f32⟩ : BufTy).Contents (Elt F) → (⟨S50000x128, .f32⟩ : BufTy).Contents (Elt F)),
    unary main_arg10 main_v98 (broadcastInDim S800000x1 ![0] bcast_S800000_S800000x1_0 : (⟨S800000, .i32⟩ : BufTy).Contents (Elt F) → (⟨S800000x1, .i32⟩ : BufTy).Contents (Elt F)),
    ternary main_v97 main_v98 main_v96 main_v99 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_19 (constant S_ .f32 0x3F800000#32),
    unary main_cst_19 main_v100 (broadcastInDim S800000x1 ![] bcast_S_S800000x1 : (⟨S_, .f32⟩ : BufTy).Contents (Elt F) → (⟨S800000x1, .f32⟩ : BufTy).Contents (Elt F)),
    nullary main_cst_20 (constant S_ .f32 0x00000000#32),
    unary main_cst_20 main_v101 (broadcastInDim S50000x1 ![] bcast_S_S50000x1 : (⟨S_, .f32⟩ : BufTy).Contents (Elt F) → (⟨S50000x1, .f32⟩ : BufTy).Contents (Elt F)),
    unary main_arg10 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_21 (constant S_ .f32 0x3F800000#32),
    unary main_cst_21 main_v104 (broadcastInDim S50000x1 ![] bcast_S_S50000x1 : (⟨S_, .f32⟩ : BufTy).Contents (Elt F) → (⟨S50000x1, .f32⟩ : BufTy).Contents (Elt F)),
    binary main_v103 main_v104 main_v105 (maximumf : (⟨S50000x1, .f32⟩ : BufTy).Contents (Elt F) → (⟨S50000x1, .f32⟩ : BufTy).Contents (Elt F) → (⟨S50000x1, .f32⟩ : BufTy).Contents (Elt F)),
    unary main_v105 main_v106 (broadcastInDim S50000x128 ![0, 1] bcast_S50000x1_S50000x128_0_1 : (⟨S50000x1, .f32⟩ : BufTy).Contents (Elt F) → (⟨S50000x128, .f32⟩ : BufTy).Contents (Elt F)),
    binary main_v99 main_v106 main_v107 (Host.divf : (⟨S50000x128, .f32⟩ : BufTy).Contents (Elt F) → (⟨S50000x128, .f32⟩ : BufTy).Contents (Elt F) → (⟨S50000x128, .f32⟩ : BufTy).Contents (Elt F)),
    unary main_arg15 main_v108 ((extractStridedSlice S1x1x128x128 ![0, 3, 0, 0] · slices_S4x6x128x128_S1x1x128x128_0_3_0_0) : (⟨S4x6x128x128, .f32⟩ : BufTy).Contents (Elt F) → (⟨S1x1x128x128, .f32⟩ : BufTy).Contents (Elt F)),
    reshape main_v108 main_v109 rfl shapeCasts_S1x1x128x128_S128x128,
    binary main_v107 main_v109 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v111 ((extractStridedSlice S1x1x128x128 ![0, 3, 0, 0] · slices_S4x6x128x128_S1x1x128x128_0_3_0_0) : (⟨S4x6x128x128, .f32⟩ : BufTy).Contents (Elt F) → (⟨S1x1x128x128, .f32⟩ : BufTy).Contents (Elt F)),
    reshape main_v111 main_v112 rfl shapeCasts_S1x1x128x128_S128x128,
    binary main_arg0 main_v112 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v110 main_v113 main_v114 (addf : (⟨S50000x128, .f32⟩ : BufTy).Contents (Elt F) → (⟨S50000x128, .f32⟩ : BufTy).Contents (Elt F) → (⟨S50000x128, .f32⟩ : BufTy).Contents (Elt F)),
    unary main_arg17 main_v115 ((extractStridedSlice S1x1x128 ![0, 3, 0] · slices_S4x6x128_S1x1x128_0_3_0) : (⟨S4x6x128, .f32⟩ : BufTy).Contents (Elt F) → (⟨S1x1x128, .f32⟩ : BufTy).Contents (Elt F)),
    reshape main_v115 main_v116 rfl shapeCasts_S1x1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v114 main_v118 main_v119 (addf : (⟨S50000x128, .f32⟩ : BufTy).Contents (Elt F) → (⟨S50000x128, .f32⟩ : BufTy).Contents (Elt F) → (⟨S50000x128, .f32⟩ : BufTy).Contents (Elt F)),
    nullary main_c_22 (constantI S_ 32 0#32),
    unary main_c_22 main_v120 (broadcastInDim S400000 ![] bcast_S_S400000 : (⟨S_, .i32⟩ : BufTy).Contents (Elt F) → (⟨S400000, .i32⟩ : BufTy).Contents (Elt F)),
    binary main_arg11 main_v120 main_v121 (cmpi .slt : (⟨S400000, .i32⟩ : BufTy).Contents (Elt F) → (⟨S400000, .i32⟩ : BufTy).Contents (Elt F) → (⟨S400000, .i1⟩ : BufTy).Contents (Elt F)),
    nullary main_c_23 (constantI S_ 32 10000#32),
    unary main_c_23 main_v122 (broadcastInDim S400000 ![] bcast_S_S400000 : (⟨S_, .i32⟩ : BufTy).Contents (Elt F) → (⟨S400000, .i32⟩ : BufTy).Contents (Elt F)),
    binary main_arg11 main_v122 main_v123 (addi : (⟨S400000, .i32⟩ : BufTy).Contents (Elt F) → (⟨S400000, .i32⟩ : BufTy).Contents (Elt F) → (⟨S400000, .i32⟩ : BufTy).Contents (Elt F)),
    ternary main_v121 main_v123 main_arg11 main_v124 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v124 main_v125 (broadcastInDim S400000x1 ![0] bcast_S400000_S400000x1_0 : (⟨S400000, .i32⟩ : BufTy).Contents (Elt F) → (⟨S400000x1, .i32⟩ : BufTy).Contents (Elt F)),
    binary main_arg2 main_v125 main_v126 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_24 (constant S_ .f32 0x00000000#32),
    unary main_cst_24 main_v127 (broadcastInDim S30000x128 ![] bcast_S_S30000x128 : (⟨S_, .f32⟩ : BufTy).Contents (Elt F) → (⟨S30000x128, .f32⟩ : BufTy).Contents (Elt F)),
    unary main_arg12 main_v128 (broadcastInDim S400000x1 ![0] bcast_S400000_S400000x1_0 : (⟨S400000, .i32⟩ : BufTy).Contents (Elt F) → (⟨S400000x1, .i32⟩ : BufTy).Contents (Elt F)),
    ternary main_v127 main_v128 main_v126 main_v129 ((fun x i u => Host.scatterAdd scatter_S30000x128_S400000x1_S400000x128_1_0_0_1 x i u) : (⟨S30000x128, .f32⟩ : BufTy).Contents (Elt F) → (⟨S400000x1, .i32⟩ : BufTy).Contents (Elt F) → (⟨S400000x128, .f32⟩ : BufTy).Contents (Elt F) → (⟨S30000x128, .f32⟩ : BufTy).Contents (Elt F)),
    nullary main_cst_25 (constant S_ .f32 0x3F800000#32),
    unary main_cst_25 main_v130 (broadcastInDim S400000x1 ![] bcast_S_S400000x1 : (⟨S_, .f32⟩ : BufTy).Contents (Elt F) → (⟨S400000x1, .f32⟩ : BufTy).Contents (Elt F)),
    nullary main_cst_26 (constant S_ .f32 0x00000000#32),
    unary main_cst_26 main_v131 (broadcastInDim S30000x1 ![] bcast_S_S30000x1 : (⟨S_, .f32⟩ : BufTy).Contents (Elt F) → (⟨S30000x1, .f32⟩ : BufTy).Contents (Elt F)),
    unary main_arg12 main_v132 (broadcastInDim S400000x1 ![0] bcast_S400000_S400000x1_0 : (⟨S400000, .i32⟩ : BufTy).Contents (Elt F) → (⟨S400000x1, .i32⟩ : BufTy).Contents (Elt F)),
    ternary main_v131 main_v132 main_v130 main_v133 ((fun x i u => Host.scatterAdd scatter_S30000x1_S400000x1_S400000x1_1_0_0_1 x i u) : (⟨S30000x1, .f32⟩ : BufTy).Contents (Elt F) → (⟨S400000x1, .i32⟩ : BufTy).Contents (Elt F) → (⟨S400000x1, .f32⟩ : BufTy).Contents (Elt F) → (⟨S30000x1, .f32⟩ : BufTy).Contents (Elt F)),
    nullary main_cst_27 (constant S_ .f32 0x3F800000#32),
    unary main_cst_27 main_v134 (broadcastInDim S30000x1 ![] bcast_S_S30000x1 : (⟨S_, .f32⟩ : BufTy).Contents (Elt F) → (⟨S30000x1, .f32⟩ : BufTy).Contents (Elt F)),
    binary main_v133 main_v134 main_v135 (maximumf : (⟨S30000x1, .f32⟩ : BufTy).Contents (Elt F) → (⟨S30000x1, .f32⟩ : BufTy).Contents (Elt F) → (⟨S30000x1, .f32⟩ : BufTy).Contents (Elt F)),
    unary main_v135 main_v136 (broadcastInDim S30000x128 ![0, 1] bcast_S30000x1_S30000x128_0_1 : (⟨S30000x1, .f32⟩ : BufTy).Contents (Elt F) → (⟨S30000x128, .f32⟩ : BufTy).Contents (Elt F)),
    binary main_v129 main_v136 main_v137 (Host.divf : (⟨S30000x128, .f32⟩ : BufTy).Contents (Elt F) → (⟨S30000x128, .f32⟩ : BufTy).Contents (Elt F) → (⟨S30000x128, .f32⟩ : BufTy).Contents (Elt F)),
    unary main_arg15 main_v138 ((extractStridedSlice S1x1x128x128 ![0, 4, 0, 0] · slices_S4x6x128x128_S1x1x128x128_0_4_0_0) : (⟨S4x6x128x128, .f32⟩ : BufTy).Contents (Elt F) → (⟨S1x1x128x128, .f32⟩ : BufTy).Contents (Elt F)),
    reshape main_v138 main_v139 rfl shapeCasts_S1x1x128x128_S128x128,
    binary main_v137 main_v139 main_v140 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v141 ((extractStridedSlice S1x1x128x128 ![0, 4, 0, 0] · slices_S4x6x128x128_S1x1x128x128_0_4_0_0) : (⟨S4x6x128x128, .f32⟩ : BufTy).Contents (Elt F) → (⟨S1x1x128x128, .f32⟩ : BufTy).Contents (Elt F)),
    reshape main_v141 main_v142 rfl shapeCasts_S1x1x128x128_S128x128,
    binary main_arg1 main_v142 main_v143 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v140 main_v143 main_v144 (addf : (⟨S30000x128, .f32⟩ : BufTy).Contents (Elt F) → (⟨S30000x128, .f32⟩ : BufTy).Contents (Elt F) → (⟨S30000x128, .f32⟩ : BufTy).Contents (Elt F)),
    unary main_arg17 main_v145 ((extractStridedSlice S1x1x128 ![0, 4, 0] · slices_S4x6x128_S1x1x128_0_4_0) : (⟨S4x6x128, .f32⟩ : BufTy).Contents (Elt F) → (⟨S1x1x128, .f32⟩ : BufTy).Contents (Elt F)),
    reshape main_v145 main_v146 rfl shapeCasts_S1x1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S30000x128 ![0, 1] bcast_S1x128_S30000x128_0_1 : (⟨S1x128, .f32⟩ : BufTy).Contents (Elt F) → (⟨S30000x128, .f32⟩ : BufTy).Contents (Elt F)),
    binary main_v144 main_v148 main_v149 (addf : (⟨S30000x128, .f32⟩ : BufTy).Contents (Elt F) → (⟨S30000x128, .f32⟩ : BufTy).Contents (Elt F) → (⟨S30000x128, .f32⟩ : BufTy).Contents (Elt F)),
    nullary main_c_28 (constantI S_ 32 0#32),
    unary main_c_28 main_v150 (broadcastInDim S800000 ![] bcast_S_S800000 : (⟨S_, .i32⟩ : BufTy).Contents (Elt F) → (⟨S800000, .i32⟩ : BufTy).Contents (Elt F)),
    binary main_arg13 main_v150 main_v151 (cmpi .slt : (⟨S800000, .i32⟩ : BufTy).Contents (Elt F) → (⟨S800000, .i32⟩ : BufTy).Contents (Elt F) → (⟨S800000, .i1⟩ : BufTy).Contents (Elt F)),
    nullary main_c_29 (constantI S_ 32 10000#32),
    unary main_c_29 main_v152 (broadcastInDim S800000 ![] bcast_S_S800000 : (⟨S_, .i32⟩ : BufTy).Contents (Elt F) → (⟨S800000, .i32⟩ : BufTy).Contents (Elt F)),
    binary main_arg13 main_v152 main_v153 (addi : (⟨S800000, .i32⟩ : BufTy).Contents (Elt F) → (⟨S800000, .i32⟩ : BufTy).Contents (Elt F) → (⟨S800000, .i32⟩ : BufTy).Contents (Elt F)),
    ternary main_v151 main_v153 main_arg13 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v154 main_v155 (broadcastInDim S800000x1 ![0] bcast_S800000_S800000x1_0 : (⟨S800000, .i32⟩ : BufTy).Contents (Elt F) → (⟨S800000x1, .i32⟩ : BufTy).Contents (Elt F)),
    binary main_arg2 main_v155 main_v156 ((fun x i => Host.gather gather_S10000x128_S800000x1_S800000x128_1_0_n_n_0_1_1128 x i) : (⟨S10000x128, .f32⟩ : BufTy).Contents (Elt F) → (⟨S800000x1, .i32⟩ : BufTy).Contents (Elt F) → (⟨S800000x128, .f32⟩ : BufTy).Contents (Elt F)),
    nullary main_cst_30 (constant S_ .f32 0x00000000#32),
    unary main_cst_30 main_v157 (broadcastInDim S50000x128 ![] bcast_S_S50000x128 : (⟨S_, .f32⟩ : BufTy).Contents (Elt F) → (⟨S50000x128, .f32⟩ : BufTy).Contents (Elt F)),
    unary main_arg14 main_v158 (broadcastInDim S800000x1 ![0] bcast_S800000_S800000x1_0 : (⟨S800000, .i32⟩ : BufTy).Contents (Elt F) → (⟨S800000x1, .i32⟩ : BufTy).Contents (Elt F)),
    ternary main_v157 main_v158 main_v156 main_v159 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_31 (constant S_ .f32 0x3F800000#32),
    unary main_cst_31 main_v160 (broadcastInDim S800000x1 ![] bcast_S_S800000x1 : (⟨S_, .f32⟩ : BufTy).Contents (Elt F) → (⟨S800000x1, .f32⟩ : BufTy).Contents (Elt F)),
    nullary main_cst_32 (constant S_ .f32 0x00000000#32),
    unary main_cst_32 main_v161 (broadcastInDim S50000x1 ![] bcast_S_S50000x1 : (⟨S_, .f32⟩ : BufTy).Contents (Elt F) → (⟨S50000x1, .f32⟩ : BufTy).Contents (Elt F)),
    unary main_arg14 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_33 (constant S_ .f32 0x3F800000#32),
    unary main_cst_33 main_v164 (broadcastInDim S50000x1 ![] bcast_S_S50000x1 : (⟨S_, .f32⟩ : BufTy).Contents (Elt F) → (⟨S50000x1, .f32⟩ : BufTy).Contents (Elt F)),
    binary main_v163 main_v164 main_v165 (maximumf : (⟨S50000x1, .f32⟩ : BufTy).Contents (Elt F) → (⟨S50000x1, .f32⟩ : BufTy).Contents (Elt F) → (⟨S50000x1, .f32⟩ : BufTy).Contents (Elt F)),
    unary main_v165 main_v166 (broadcastInDim S50000x128 ![0, 1] bcast_S50000x1_S50000x128_0_1 : (⟨S50000x1, .f32⟩ : BufTy).Contents (Elt F) → (⟨S50000x128, .f32⟩ : BufTy).Contents (Elt F)),
    binary main_v159 main_v166 main_v167 (Host.divf : (⟨S50000x128, .f32⟩ : BufTy).Contents (Elt F) → (⟨S50000x128, .f32⟩ : BufTy).Contents (Elt F) → (⟨S50000x128, .f32⟩ : BufTy).Contents (Elt F)),
    unary main_arg15 main_v168 ((extractStridedSlice S1x1x128x128 ![0, 5, 0, 0] · slices_S4x6x128x128_S1x1x128x128_0_5_0_0) : (⟨S4x6x128x128, .f32⟩ : BufTy).Contents (Elt F) → (⟨S1x1x128x128, .f32⟩ : BufTy).Contents (Elt F)),
    reshape main_v168 main_v169 rfl shapeCasts_S1x1x128x128_S128x128,
    binary main_v167 main_v169 main_v170 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v171 ((extractStridedSlice S1x1x128x128 ![0, 5, 0, 0] · slices_S4x6x128x128_S1x1x128x128_0_5_0_0) : (⟨S4x6x128x128, .f32⟩ : BufTy).Contents (Elt F) → (⟨S1x1x128x128, .f32⟩ : BufTy).Contents (Elt F)),
    reshape main_v171 main_v172 rfl shapeCasts_S1x1x128x128_S128x128,
    binary main_arg0 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v170 main_v173 main_v174 (addf : (⟨S50000x128, .f32⟩ : BufTy).Contents (Elt F) → (⟨S50000x128, .f32⟩ : BufTy).Contents (Elt F) → (⟨S50000x128, .f32⟩ : BufTy).Contents (Elt F)),
    unary main_arg17 main_v175 ((extractStridedSlice S1x1x128 ![0, 5, 0] · slices_S4x6x128_S1x1x128_0_5_0) : (⟨S4x6x128, .f32⟩ : BufTy).Contents (Elt F) → (⟨S1x1x128, .f32⟩ : BufTy).Contents (Elt F)),
    reshape main_v175 main_v176 rfl shapeCasts_S1x1x128_S128,
    unary main_v176 main_v177 (broadcastInDim S1x128 ![1] bcast_S128_S1x128_1 : (⟨S128, .f32⟩ : BufTy).Contents (Elt F) → (⟨S1x128, .f32⟩ : BufTy).Contents (Elt F)),
    unary main_v177 main_v178 (broadcastInDim S50000x128 ![0, 1] bcast_S1x128_S50000x128_0_1 : (⟨S1x128, .f32⟩ : BufTy).Contents (Elt F) → (⟨S50000x128, .f32⟩ : BufTy).Contents (Elt F)),
    binary main_v174 main_v178 main_v179 (addf : (⟨S50000x128, .f32⟩ : BufTy).Contents (Elt F) → (⟨S50000x128, .f32⟩ : BufTy).Contents (Elt F) → (⟨S50000x128, .f32⟩ : BufTy).Contents (Elt F)),
    binary main_v119 main_v179 main_v180 (addf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x3F000000#32),
    unary main_cst_34 main_v181 (broadcastInDim S50000x128 ![] bcast_S_S50000x128 : (⟨S_, .f32⟩ : BufTy).Contents (Elt F) → (⟨S50000x128, .f32⟩ : BufTy).Contents (Elt F)),
    binary main_v180 main_v181 main_v182 (mulf : (⟨S50000x128, .f32⟩ : BufTy).Contents (Elt F) → (⟨S50000x128, .f32⟩ : BufTy).Contents (Elt F) → (⟨S50000x128, .f32⟩ : BufTy).Contents (Elt F)),
    binary main_v29 main_v149 main_v183 (addf : (⟨S30000x128, .f32⟩ : BufTy).Contents (Elt F) → (⟨S30000x128, .f32⟩ : BufTy).Contents (Elt F) → (⟨S30000x128, .f32⟩ : BufTy).Contents (Elt F)),
    nullary main_cst_35 (constant S_ .f32 0x3F000000#32),
    unary main_cst_35 main_v184 (broadcastInDim S30000x128 ![] bcast_S_S30000x128 : (⟨S_, .f32⟩ : BufTy).Contents (Elt F) → (⟨S30000x128, .f32⟩ : BufTy).Contents (Elt F)),
    binary main_v183 main_v184 main_v185 (mulf : (⟨S30000x128, .f32⟩ : BufTy).Contents (Elt F) → (⟨S30000x128, .f32⟩ : BufTy).Contents (Elt F) → (⟨S30000x128, .f32⟩ : BufTy).Contents (Elt F)),
    binary main_v59 main_v89 main_v186 (addf : (⟨S10000x128, .f32⟩ : BufTy).Contents (Elt F) → (⟨S10000x128, .f32⟩ : BufTy).Contents (Elt F) → (⟨S10000x128, .f32⟩ : BufTy).Contents (Elt F)),
    nullary main_cst_36 (constant S_ .f32 0x3F000000#32),
    unary main_cst_36 main_v187 (broadcastInDim S10000x128 ![] bcast_S_S10000x128 : (⟨S_, .f32⟩ : BufTy).Contents (Elt F) → (⟨S10000x128, .f32⟩ : BufTy).Contents (Elt F)),
    binary main_v186 main_v187 main_v188 (mulf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v182) (TRef.of (T := ⟨S50000x128, .f32⟩) main_call0_v0) (TRef.of (T := ⟨S50000x128, .f32⟩) main_v189) maximumf,
    TRef.nullary (TRef.of (T := ⟨S_, .f32⟩) main_call1_cst) (constant S_ .f32 0x00000000#32),
    TRef.unary (TRef.of (T := ⟨S_, .f32⟩) main_call1_cst) (TRef.of (T := ⟨S30000x128, .f32⟩) main_call1_v0) (broadcastInDim S30000x128 ![] bcast_S_S30000x128),
    TRef.binary (TRef.of (T := ⟨S30000x128, .f32⟩) main_v185) (TRef.of (T := ⟨S30000x128, .f32⟩) main_call1_v0) (TRef.of (T := ⟨S30000x128, .f32⟩) main_v190) maximumf,
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v188) (TRef.of (T := ⟨S10000x128, .f32⟩) main_call2_v0) (TRef.of (T := ⟨S10000x128, .f32⟩) main_v191) maximumf ]

set_option maxRecDepth 8192 in
/-- Every buffer the chunk's operations touch is a TensorCore reference. -/
theorem R0_sub : (R0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   binary_bufs_sub .., nullary_bufs_sub .., unary_bufs_sub .., binary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub .., nullary_bufs_sub ..,
   unary_bufs_sub .., binary_bufs_sub .., nullary_bufs_sub .., unary_bufs_sub .., binary_bufs_sub ..⟩

set_option maxRecDepth 8192 in
/-- Every operation of the chunk determines its results. -/
theorem R0_fresh : (R0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

set_option maxRecDepth 8192 in
/-- Every operation of the chunk writes a buffer past the arguments. -/
theorem R0_writes : (R0 : List (HloOp τ sig (Elt F))).Forall fun op => ∀ z ∈ op.writes, NotArg z :=
  ⟨nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   binary_notArg (by decide), nullary_notArg (by decide), unary_notArg (by decide), binary_notArg (by decide), binary_notArg (by decide), nullary_notArg (by decide),
   unary_notArg (by decide), binary_notArg (by decide), binary_notArg (by decide), nullary_notArg (by decide), unary_notArg (by decide), binary_notArg (by decide),
   nullary_notArg (by decide), unary_notArg (by decide), binary_notArg (by decide), nullary_notArg (by decide), unary_notArg (by decide), binary_notArg (by decide),
   nullary_notArg (by decide), unary_notArg (by decide), binary_notArg (by decide)⟩

end Cert.ReferenceIdeal.RefOps

end
-- ==== Proof.RefOps1.lean ====
import proofs.«141482_j13434657702128_1_alg».proof.Proof.RefLemmas

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The second layer: operations 237 to 473 of the reference's 969, in order. -/
abbrev R1 : List (HloOp τ sig (Elt F)) :=
  [ nullary main_c_37 (constantI S_ 32 0#32),
    unary main_c_37 main_v192 (broadcastInDim S800000 ![] bcast_S_S800000 : (⟨S_, .i32⟩ : BufTy).Contents (Elt F) → (⟨S800000, .i32⟩ : BufTy).Contents (Elt F)),
    binary main_arg3 main_v192 main_v193 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v194 (broadcastInDim S800000 ![] bcast_S_S800000 : (⟨S_, .i32⟩ : BufTy).Contents (Elt F) → (⟨S800000, .i32⟩ : BufTy).Contents (Elt F)),
    binary main_arg3 main_v194 main_v195 (addi : (⟨S800000, .i32⟩ : BufTy).Contents (Elt F) → (⟨S800000, .i32⟩ : BufTy).Contents (Elt F) → (⟨S800000, .i32⟩ : BufTy).Contents (Elt F)),
    ternary main_v193 main_v195 main_arg3 main_v196 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v196 main_v197 (broadcastInDim S800000x1 ![0] bcast_S800000_S800000x1_0 : (⟨S800000, .i32⟩ : BufTy).Contents (Elt F) → (⟨S800000x1, .i32⟩ : BufTy).Contents (Elt F)),
    binary main_v189 main_v197 main_v198 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_39 (constant S_ .f32 0x00000000#32),
    unary main_cst_39 main_v199 (broadcastInDim S30000x128 ![] bcast_S_S30000x128 : (⟨S_, .f32⟩ : BufTy).Contents (Elt F) → (⟨S30000x128, .f32⟩ : BufTy).Contents (Elt F)),
    unary main_arg4 main_v200 (broadcastInDim S800000x1 ![0] bcast_S800000_S800000x1_0 : (⟨S800000, .i32⟩ : BufTy).Contents (Elt F) → (⟨S800000x1, .i32⟩ : BufTy).Contents (Elt F)),
    ternary main_v199 main_v200 main_v198 main_v201 ((fun x i u => Host.scatterAdd scatter_S30000x128_S800000x1_S800000x128_1_0_0_1 x i u) : (⟨S30000x128, .f32⟩ : BufTy).Contents (Elt F) → (⟨S800000x1, .i32⟩ : BufTy).Contents (Elt F) → (⟨S800000x128, .f32⟩ : BufTy).Contents (Elt F) → (⟨S30000x128, .f32⟩ : BufTy).Contents (Elt F)),
    nullary main_cst_40 (constant S_ .f32 0x3F800000#32),
    unary main_cst_40 main_v202 (broadcastInDim S800000x1 ![] bcast_S_S800000x1 : (⟨S_, .f32⟩ : BufTy).Contents (Elt F) → (⟨S800000x1, .f32⟩ : BufTy).Contents (Elt F)),
    nullary main_cst_41 (constant S_ .f32 0x00000000#32),
    unary main_cst_41 main_v203 (broadcastInDim S30000x1 ![] bcast_S_S30000x1 : (⟨S_, .f32⟩ : BufTy).Contents (Elt F) → (⟨S30000x1, .f32⟩ : BufTy).Contents (Elt F)),
    unary main_arg4 main_v204 (broadcastInDim S800000x1 ![0] bcast_S800000_S800000x1_0 : (⟨S800000, .i32⟩ : BufTy).Contents (Elt F) → (⟨S800000x1, .i32⟩ : BufTy).Contents (Elt F)),
    ternary main_v203 main_v204 main_v202 main_v205 ((fun x i u => Host.scatterAdd scatter_S30000x1_S800000x1_S800000x1_1_0_0_1 x i u) : (⟨S30000x1, .f32⟩ : BufTy).Contents (Elt F) → (⟨S800000x1, .i32⟩ : BufTy).Contents (Elt F) → (⟨S800000x1, .f32⟩ : BufTy).Contents (Elt F) → (⟨S30000x1, .f32⟩ : BufTy).Contents (Elt F)),
    nullary main_cst_42 (constant S_ .f32 0x3F800000#32),
    unary main_cst_42 main_v206 (broadcastInDim S30000x1 ![] bcast_S_S30000x1 : (⟨S_, .f32⟩ : BufTy).Contents (Elt F) → (⟨S30000x1, .f32⟩ : BufTy).Contents (Elt F)),
    binary main_v205 main_v206 main_v207 (maximumf : (⟨S30000x1, .f32⟩ : BufTy).Contents (Elt F) → (⟨S30000x1, .f32⟩ : BufTy).Contents (Elt F) → (⟨S30000x1, .f32⟩ : BufTy).Contents (Elt F)),
    unary main_v207 main_v208 (broadcastInDim S30000x128 ![0, 1] bcast_S30000x1_S30000x128_0_1 : (⟨S30000x1, .f32⟩ : BufTy).Contents (Elt F) → (⟨S30000x128, .f32⟩ : BufTy).Contents (Elt F)),
    binary main_v201 main_v208 main_v209 (Host.divf : (⟨S30000x128, .f32⟩ : BufTy).Contents (Elt F) → (⟨S30000x128, .f32⟩ : BufTy).Contents (Elt F) → (⟨S30000x128, .f32⟩ : BufTy).Contents (Elt F)),
    unary main_arg15 main_v210 ((extractStridedSlice S1x1x128x128 ![1, 0, 0, 0] · slices_S4x6x128x128_S1x1x128x128_1_0_0_0) : (⟨S4x6x128x128, .f32⟩ : BufTy).Contents (Elt F) → (⟨S1x1x128x128, .f32⟩ : BufTy).Contents (Elt F)),
    reshape main_v210 main_v211 rfl shapeCasts_S1x1x128x128_S128x128,
    binary main_v209 main_v211 main_v212 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v213 ((extractStridedSlice S1x1x128x128 ![1, 0, 0, 0] · slices_S4x6x128x128_S1x1x128x128_1_0_0_0) : (⟨S4x6x128x128, .f32⟩ : BufTy).Contents (Elt F) → (⟨S1x1x128x128, .f32⟩ : BufTy).Contents (Elt F)),
    reshape main_v213 main_v214 rfl shapeCasts_S1x1x128x128_S128x128,
    binary main_v190 main_v214 main_v215 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v212 main_v215 main_v216 (addf : (⟨S30000x128, .f32⟩ : BufTy).Contents (Elt F) → (⟨S30000x128, .f32⟩ : BufTy).Contents (Elt F) → (⟨S30000x128, .f32⟩ : BufTy).Contents (Elt F)),
    unary main_arg17 main_v217 ((extractStridedSlice S1x1x128 ![1, 0, 0] · slices_S4x6x128_S1x1x128_1_0_0) : (⟨S4x6x128, .f32⟩ : BufTy).Contents (Elt F) → (⟨S1x1x128, .f32⟩ : BufTy).Contents (Elt F)),
    reshape main_v217 main_v218 rfl shapeCasts_S1x1x128_S128,
    unary main_v218 main_v219 (broadcastInDim S1x128 ![1] bcast_S128_S1x128_1 : (⟨S128, .f32⟩ : BufTy).Contents (Elt F) → (⟨S1x128, .f32⟩ : BufTy).Contents (Elt F)),
    unary main_v219 main_v220 (broadcastInDim S30000x128 ![0, 1] bcast_S1x128_S30000x128_0_1 : (⟨S1x128, .f32⟩ : BufTy).Contents (Elt F) → (⟨S30000x128, .f32⟩ : BufTy).Contents (Elt F)),
    binary main_v216 main_v220 main_v221 (addf : (⟨S30000x128, .f32⟩ : BufTy).Contents (Elt F) → (⟨S30000x128, .f32⟩ : BufTy).Contents (Elt F) → (⟨S30000x128, .f32⟩ : BufTy).Contents (Elt F)),
    nullary main_c_43 (constantI S_ 32 0#32),
    unary main_c_43 main_v222 (broadcastInDim S400000 ![] bcast_S_S400000 : (⟨S_, .i32⟩ : BufTy).Contents (Elt F) → (⟨S400000, .i32⟩ : BufTy).Contents (Elt F)),
    binary main_arg5 main_v222 main_v223 (cmpi .slt : (⟨S400000, .i32⟩ : BufTy).Contents (Elt F) → (⟨S400000, .i32⟩ : BufTy).Contents (Elt F) → (⟨S400000, .i1⟩ : BufTy).Contents (Elt F)),
    nullary main_c_44 (constantI S_ 32 30000#32),
    unary main_c_44 main_v224 (broadcastInDim S400000 ![] bcast_S_S400000 : (⟨S_, .i32⟩ : BufTy).Contents (Elt F) → (⟨S400000, .i32⟩ : BufTy).Contents (Elt F)),
    binary main_arg5 main_v224 main_v225 (addi : (⟨S400000, .i32⟩ : BufTy).Contents (Elt F) → (⟨S400000, .i32⟩ : BufTy).Contents (Elt F) → (⟨S400000, .i32⟩ : BufTy).Contents (Elt F)),
    ternary main_v223 main_v225 main_arg5 main_v226 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v226 main_v227 (broadcastInDim S400000x1 ![0] bcast_S400000_S400000x1_0 : (⟨S400000, .i32⟩ : BufTy).Contents (Elt F) → (⟨S400000x1, .i32⟩ : BufTy).Contents (Elt F)),
    binary main_v190 main_v227 main_v228 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    nullary main_cst_45 (constant S_ .f32 0x00000000#32),
    unary main_cst_45 main_v229 (broadcastInDim S10000x128 ![] bcast_S_S10000x128 : (⟨S_, .f32⟩ : BufTy).Contents (Elt F) → (⟨S10000x128, .f32⟩ : BufTy).Contents (Elt F)),
    unary main_arg6 main_v230 (broadcastInDim S400000x1 ![0] bcast_S400000_S400000x1_0 : (⟨S400000, .i32⟩ : BufTy).Contents (Elt F) → (⟨S400000x1, .i32⟩ : BufTy).Contents (Elt F)),
    ternary main_v229 main_v230 main_v228 main_v231 ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)),
    nullary main_cst_46 (constant S_ .f32 0x3F800000#32),
    unary main_cst_46 main_v232 (broadcastInDim S400000x1 ![] bcast_S_S400000x1 : (⟨S_, .f32⟩ : BufTy).Contents (Elt F) → (⟨S400000x1, .f32⟩ : BufTy).Contents (Elt F)),
    nullary main_cst_47 (constant S_ .f32 0x00000000#32),
    unary main_cst_47 main_v233 (broadcastInDim S10000x1 ![] bcast_S_S10000x1 : (⟨S_, .f32⟩ : BufTy).Contents (Elt F) → (⟨S10000x1, .f32⟩ : BufTy).Contents (Elt F)),
    unary main_arg6 main_v234 (broadcastInDim S400000x1 ![0] bcast_S400000_S400000x1_0 : (⟨S400000, .i32⟩ : BufTy).Contents (Elt F) → (⟨S400000x1, .i32⟩ : BufTy).Contents (Elt F)),
    ternary main_v233 main_v234 main_v232 main_v235 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    nullary main_cst_48 (constant S_ .f32 0x3F800000#32),
    unary main_cst_48 main_v236 (broadcastInDim S10000x1 ![] bcast_S_S10000x1 : (⟨S_, .f32⟩ : BufTy).Contents (Elt F) → (⟨S10000x1, .f32⟩ : BufTy).Contents (Elt F)),
    binary main_v235 main_v236 main_v237 (maximumf : (⟨S10000x1, .f32⟩ : BufTy).Contents (Elt F) → (⟨S10000x1, .f32⟩ : BufTy).Contents (Elt F) → (⟨S10000x1, .f32⟩ : BufTy).Contents (Elt F)),
    unary main_v237 main_v238 (broadcastInDim S10000x128 ![0, 1] bcast_S10000x1_S10000x128_0_1 : (⟨S10000x1, .f32⟩ : BufTy).Contents (Elt F) → (⟨S10000x128, .f32⟩ : BufTy).Contents (Elt F)),
    binary main_v231 main_v238 main_v239 (Host.divf : (⟨S10000x128, .f32⟩ : BufTy).Contents (Elt F) → (⟨S10000x128, .f32⟩ : BufTy).Contents (Elt F) → (⟨S10000x128, .f32⟩ : BufTy).Contents (Elt F)),
    unary main_arg15 main_v240 ((extractStridedSlice S1x1x128x128 ![1, 1, 0, 0] · slices_S4x6x128x128_S1x1x128x128_1_1_0_0) : (⟨S4x6x128x128, .f32⟩ : BufTy).Contents (Elt F) → (⟨S1x1x128x128, .f32⟩ : BufTy).Contents (Elt F)),
    reshape main_v240 main_v241 rfl shapeCasts_S1x1x128x128_S128x128,
    binary main_v239 main_v241 main_v242 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v243 ((extractStridedSlice S1x1x128x128 ![1, 1, 0, 0] · slices_S4x6x128x128_S1x1x128x128_1_1_0_0) : (⟨S4x6x128x128, .f32⟩ : BufTy).Contents (Elt F) → (⟨S1x1x128x128, .f32⟩ : BufTy).Contents (Elt F)),
    reshape main_v243 main_v244 rfl shapeCasts_S1x1x128x128_S128x128,
    binary main_v191 main_v244 main_v245 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v242 main_v245 main_v246 (addf : (⟨S10000x128, .f32⟩ : BufTy).Contents (Elt F) → (⟨S10000x128, .f32⟩ : BufTy).Contents (Elt F) → (⟨S10000x128, .f32⟩ : BufTy).Contents (Elt F)),
    unary main_arg17 main_v247 ((extractStridedSlice S1x1x128 ![1, 1, 0] · slices_S4x6x128_S1x1x128_1_1_0) : (⟨S4x6x128, .f32⟩ : BufTy).Contents (Elt F) → (⟨S1x1x128, .f32⟩ : BufTy).Contents (Elt F)),
    reshape main_v247 main_v248 rfl shapeCasts_S1x1x128_S128,
    unary main_v248 main_v249 (broadcastInDim S1x128 ![1] bcast_S128_S1x128_1 : (⟨S128, .f32⟩ : BufTy).Contents (Elt F) → (⟨S1x128, .f32⟩ : BufTy).Contents (Elt F)),
    unary main_v249 main_v250 (broadcastInDim S10000x128 ![0, 1] bcast_S1x128_S10000x128_0_1 : (⟨S1x128, .f32⟩ : BufTy).Contents (Elt F) → (⟨S10000x128, .f32⟩ : BufTy).Contents (Elt F)),
    binary main_v246 main_v250 main_v251 (addf : (⟨S10000x128, .f32⟩ : BufTy).Contents (Elt F) → (⟨S10000x128, .f32⟩ : BufTy).Contents (Elt F) → (⟨S10000x128, .f32⟩ : BufTy).Contents (Elt F)),
    nullary main_c_49 (constantI S_ 32 0#32),
    unary main_c_49 main_v252 (broadcastInDim S800000 ![] bcast_S_S800000 : (⟨S_, .i32⟩ : BufTy).Contents (Elt F) → (⟨S800000, .i32⟩ : BufTy).Contents (Elt F)),
    binary main_arg7 main_v252 main_v253 (cmpi .slt : (⟨S800000, .i32⟩ : BufTy).Contents (Elt F) → (⟨S800000, .i32⟩ : BufTy).Contents (Elt F) → (⟨S800000, .i1⟩ : BufTy).Contents (Elt F)),
    nullary main_c_50 (constantI S_ 32 50000#32),
    unary main_c_50 main_v254 (broadcastInDim S800000 ![] bcast_S_S800000 : (⟨S_, .i32⟩ : BufTy).Contents (Elt F) → (⟨S800000, .i32⟩ : BufTy).Contents (Elt F)),
    binary main_arg7 main_v254 main_v255 (addi : (⟨S800000, .i32⟩ : BufTy).Contents (Elt F) → (⟨S800000, .i32⟩ : BufTy).Contents (Elt F) → (⟨S800000, .i32⟩ : BufTy).Contents (Elt F)),
    ternary main_v253 main_v255 main_arg7 main_v256 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v256 main_v257 (broadcastInDim S800000x1 ![0] bcast_S800000_S800000x1_0 : (⟨S800000, .i32⟩ : BufTy).Contents (Elt F) → (⟨S800000x1, .i32⟩ : BufTy).Contents (Elt F)),
    binary main_v189 main_v257 main_v258 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_51 (constant S_ .f32 0x00000000#32),
    unary main_cst_51 main_v259 (broadcastInDim S10000x128 ![] bcast_S_S10000x128 : (⟨S_, .f32⟩ : BufTy).Contents (Elt F) → (⟨S10000x128, .f32⟩ : BufTy).Contents (Elt F)),
    unary main_arg8 main_v260 (broadcastInDim S800000x1 ![0] bcast_S800000_S800000x1_0 : (⟨S800000, .i32⟩ : BufTy).Contents (Elt F) → (⟨S800000x1, .i32⟩ : BufTy).Contents (Elt F)),
    ternary main_v259 main_v260 main_v258 main_v261 ((fun x i u => Host.scatterAdd scatter_S10000x128_S800000x1_S800000x128_1_0_0_1 x i u) : (⟨S10000x128, .f32⟩ : BufTy).Contents (Elt F) → (⟨S800000x1, .i32⟩ : BufTy).Contents (Elt F) → (⟨S800000x128, .f32⟩ : BufTy).Contents (Elt F) → (⟨S10000x128, .f32⟩ : BufTy).Contents (Elt F)),
    nullary main_cst_52 (constant S_ .f32 0x3F800000#32),
    unary main_cst_52 main_v262 (broadcastInDim S800000x1 ![] bcast_S_S800000x1 : (⟨S_, .f32⟩ : BufTy).Contents (Elt F) → (⟨S800000x1, .f32⟩ : BufTy).Contents (Elt F)),
    nullary main_cst_53 (constant S_ .f32 0x00000000#32),
    unary main_cst_53 main_v263 (broadcastInDim S10000x1 ![] bcast_S_S10000x1 : (⟨S_, .f32⟩ : BufTy).Contents (Elt F) → (⟨S10000x1, .f32⟩ : BufTy).Contents (Elt F)),
    unary main_arg8 main_v264 (broadcastInDim S800000x1 ![0] bcast_S800000_S800000x1_0 : (⟨S800000, .i32⟩ : BufTy).Contents (Elt F) → (⟨S800000x1, .i32⟩ : BufTy).Contents (Elt F)),
    ternary main_v263 main_v264 main_v262 main_v265 ((fun x i u => Host.scatterAdd scatter_S10000x1_S800000x1_S800000x1_1_0_0_1 x i u) : (⟨S10000x1, .f32⟩ : BufTy).Contents (Elt F) → (⟨S800000x1, .i32⟩ : BufTy).Contents (Elt F) → (⟨S800000x1, .f32⟩ : BufTy).Contents (Elt F) → (⟨S10000x1, .f32⟩ : BufTy).Contents (Elt F)),
    nullary main_cst_54 (constant S_ .f32 0x3F800000#32),
    unary main_cst_54 main_v266 (broadcastInDim S10000x1 ![] bcast_S_S10000x1 : (⟨S_, .f32⟩ : BufTy).Contents (Elt F) → (⟨S10000x1, .f32⟩ : BufTy).Contents (Elt F)),
    binary main_v265 main_v266 main_v267 (maximumf : (⟨S10000x1, .f32⟩ : BufTy).Contents (Elt F) → (⟨S10000x1, .f32⟩ : BufTy).Contents (Elt F) → (⟨S10000x1, .f32⟩ : BufTy).Contents (Elt F)),
    unary main_v267 main_v268 (broadcastInDim S10000x128 ![0, 1] bcast_S10000x1_S10000x128_0_1 : (⟨S10000x1, .f32⟩ : BufTy).Contents (Elt F) → (⟨S10000x128, .f32⟩ : BufTy).Contents (Elt F)),
    binary main_v261 main_v268 main_v269 (Host.divf : (⟨S10000x128, .f32⟩ : BufTy).Contents (Elt F) → (⟨S10000x128, .f32⟩ : BufTy).Contents (Elt F) → (⟨S10000x128, .f32⟩ : BufTy).Contents (Elt F)),
    unary main_arg15 main_v270 ((extractStridedSlice S1x1x128x128 ![1, 2, 0, 0] · slices_S4x6x128x128_S1x1x128x128_1_2_0_0) : (⟨S4x6x128x128, .f32⟩ : BufTy).Contents (Elt F) → (⟨S1x1x128x128, .f32⟩ : BufTy).Contents (Elt F)),
    reshape main_v270 main_v271 rfl shapeCasts_S1x1x128x128_S128x128,
    binary main_v269 main_v271 main_v272 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v273 ((extractStridedSlice S1x1x128x128 ![1, 2, 0, 0] · slices_S4x6x128x128_S1x1x128x128_1_2_0_0) : (⟨S4x6x128x128, .f32⟩ : BufTy).Contents (Elt F) → (⟨S1x1x128x128, .f32⟩ : BufTy).Contents (Elt F)),
    reshape main_v273 main_v274 rfl shapeCasts_S1x1x128x128_S128x128,
    binary main_v191 main_v274 main_v275 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v272 main_v275 main_v276 (addf : (⟨S10000x128, .f32⟩ : BufTy).Contents (Elt F) → (⟨S10000x128, .f32⟩ : BufTy).Contents (Elt F) → (⟨S10000x128, .f32⟩ : BufTy).Contents (Elt F)),
    unary main_arg17 main_v277 ((extractStridedSlice S1x1x128 ![1, 2, 0] · slices_S4x6x128_S1x1x128_1_2_0) : (⟨S4x6x128, .f32⟩ : BufTy).Contents (Elt F) → (⟨S1x1x128, .f32⟩ : BufTy).Contents (Elt F)),
    reshape main_v277 main_v278 rfl shapeCasts_S1x1x128_S128,
    unary main_v278 main_v279 (broadcastInDim S1x128 ![1] bcast_S128_S1x128_1 : (⟨S128, .f32⟩ : BufTy).Contents (Elt F) → (⟨S1x128, .f32⟩ : BufTy).Contents (Elt F)),
    unary main_v279 main_v280 (broadcastInDim S10000x128 ![0, 1] bcast_S1x128_S10000x128_0_1 : (⟨S1x128, .f32⟩ : BufTy).Contents (Elt F) → (⟨S10000x128, .f32⟩ : BufTy).Contents (Elt F)),
    binary main_v276 main_v280 main_v281 (addf : (⟨S10000x128, .f32⟩ : BufTy).Contents (Elt F) → (⟨S10000x128, .f32⟩ : BufTy).Contents (Elt F) → (⟨S10000x128, .f32⟩ : BufTy).Contents (Elt F)),
    nullary main_c_55 (constantI S_ 32 0#32),
    unary main_c_55 main_v282 (broadcastInDim S800000 ![] bcast_S_S800000 : (⟨S_, .i32⟩ : BufTy).Contents (Elt F) → (⟨S800000, .i32⟩ : BufTy).Contents (Elt F)),
    binary main_arg9 main_v282 main_v283 (cmpi .slt : (⟨S800000, .i32⟩ : BufTy).Contents (Elt F) → (⟨S800000, .i32⟩ : BufTy).Contents (Elt F) → (⟨S800000, .i1⟩ : BufTy).Contents (Elt F)),
    nullary main_c_56 (constantI S_ 32 30000#32),
    unary main_c_56 main_v284 (broadcastInDim S800000 ![] bcast_S_S800000 : (⟨S_, .i32⟩ : BufTy).Contents (Elt F) → (⟨S800000, .i32⟩ : BufTy).Contents (Elt F)),
    binary main_arg9 main_v284 main_v285 (addi : (⟨S800000, .i32⟩ : BufTy).Contents (Elt F) → (⟨S800000, .i32⟩ : BufTy).Contents (Elt F) → (⟨S800000, .i32⟩ : BufTy).Contents (Elt F)),
    ternary main_v283 main_v285 main_arg9 main_v286 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v286 main_v287 (broadcastInDim S800000x1 ![0] bcast_S800000_S800000x1_0 : (⟨S800000, .i32⟩ : BufTy).Contents (Elt F) → (⟨S800000x1, .i32⟩ : BufTy).Contents (Elt F)),
    binary main_v190 main_v287 main_v288 ((fun x i => Host.gather gather_S30000x128_S800000x1_S800000x128_1_0_n_n_0_1_1128 x i) : (⟨S30000x128, .f32⟩ : BufTy).Contents (Elt F) → (⟨S800000x1, .i32⟩ : BufTy).Contents (Elt F) → (⟨S800000x128, .f32⟩ : BufTy).Contents (Elt F)),
    nullary main_cst_57 (constant S_ .f32 0x00000000#32),
    unary main_cst_57 main_v289 (broadcastInDim S50000x128 ![] bcast_S_S50000x128 : (⟨S_, .f32⟩ : BufTy).Contents (Elt F) → (⟨S50000x128, .f32⟩ : BufTy).Contents (Elt F)),
    unary main_arg10 main_v290 (broadcastInDim S800000x1 ![0] bcast_S800000_S800000x1_0 : (⟨S800000, .i32⟩ : BufTy).Contents (Elt F) → (⟨S800000x1, .i32⟩ : BufTy).Contents (Elt F)),
    ternary main_v289 main_v290 main_v288 main_v291 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_58 (constant S_ .f32 0x3F800000#32),
    unary main_cst_58 main_v292 (broadcastInDim S800000x1 ![] bcast_S_S800000x1 : (⟨S_, .f32⟩ : BufTy).Contents (Elt F) → (⟨S800000x1, .f32⟩ : BufTy).Contents (Elt F)),
    nullary main_cst_59 (constant S_ .f32 0x00000000#32),
    unary main_cst_59 main_v293 (broadcastInDim S50000x1 ![] bcast_S_S50000x1 : (⟨S_, .f32⟩ : BufTy).Contents (Elt F) → (⟨S50000x1, .f32⟩ : BufTy).Contents (Elt F)),
    unary main_arg10 main_v294 (broadcastInDim S800000x1 ![0] bcast_S800000_S800000x1_0 : (⟨S800000, .i32⟩ : BufTy).Contents (Elt F) → (⟨S800000x1, .i32⟩ : BufTy).Contents (Elt F)),
    ternary main_v293 main_v294 main_v292 main_v295 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_60 (constant S_ .f32 0x3F800000#32),
    unary main_cst_60 main_v296 (broadcastInDim S50000x1 ![] bcast_S_S50000x1 : (⟨S_, .f32⟩ : BufTy).Contents (Elt F) → (⟨S50000x1, .f32⟩ : BufTy).Contents (Elt F)),
    binary main_v295 main_v296 main_v297 (maximumf : (⟨S50000x1, .f32⟩ : BufTy).Contents (Elt F) → (⟨S50000x1, .f32⟩ : BufTy).Contents (Elt F) → (⟨S50000x1, .f32⟩ : BufTy).Contents (Elt F)),
    unary main_v297 main_v298 (broadcastInDim S50000x128 ![0, 1] bcast_S50000x1_S50000x128_0_1 : (⟨S50000x1, .f32⟩ : BufTy).Contents (Elt F) → (⟨S50000x128, .f32⟩ : BufTy).Contents (Elt F)),
    binary main_v291 main_v298 main_v299 (Host.divf : (⟨S50000x128, .f32⟩ : BufTy).Contents (Elt F) → (⟨S50000x128, .f32⟩ : BufTy).Contents (Elt F) → (⟨S50000x128, .f32⟩ : BufTy).Contents (Elt F)),
    unary main_arg15 main_v300 ((extractStridedSlice S1x1x128x128 ![1, 3, 0, 0] · slices_S4x6x128x128_S1x1x128x128_1_3_0_0) : (⟨S4x6x128x128, .f32⟩ : BufTy).Contents (Elt F) → (⟨S1x1x128x128, .f32⟩ : BufTy).Contents (Elt F)),
    reshape main_v300 main_v301 rfl shapeCasts_S1x1x128x128_S128x128,
    binary main_v299 main_v301 main_v302 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v303 ((extractStridedSlice S1x1x128x128 ![1, 3, 0, 0] · slices_S4x6x128x128_S1x1x128x128_1_3_0_0) : (⟨S4x6x128x128, .f32⟩ : BufTy).Contents (Elt F) → (⟨S1x1x128x128, .f32⟩ : BufTy).Contents (Elt F)),
    reshape main_v303 main_v304 rfl shapeCasts_S1x1x128x128_S128x128,
    binary main_v189 main_v304 main_v305 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v302 main_v305 main_v306 (addf : (⟨S50000x128, .f32⟩ : BufTy).Contents (Elt F) → (⟨S50000x128, .f32⟩ : BufTy).Contents (Elt F) → (⟨S50000x128, .f32⟩ : BufTy).Contents (Elt F)),
    unary main_arg17 main_v307 ((extractStridedSlice S1x1x128 ![1, 3, 0] · slices_S4x6x128_S1x1x128_1_3_0) : (⟨S4x6x128, .f32⟩ : BufTy).Contents (Elt F) → (⟨S1x1x128, .f32⟩ : BufTy).Contents (Elt F)),
    reshape main_v307 main_v308 rfl shapeCasts_S1x1x128_S128,
    unary main_v308 main_v309 (broadcastInDim S1x128 ![1] bcast_S128_S1x128_1 : (⟨S128, .f32⟩ : BufTy).Contents (Elt F) → (⟨S1x128, .f32⟩ : BufTy).Contents (Elt F)),
    unary main_v309 main_v310 (broadcastInDim S50000x128 ![0, 1] bcast_S1x128_S50000x128_0_1 : (⟨S1x128, .f32⟩ : BufTy).Contents (Elt F) → (⟨S50000x128, .f32⟩ : BufTy).Contents (Elt F)),
    binary main_v306 main_v310 main_v311 (addf : (⟨S50000x128, .f32⟩ : BufTy).Contents (Elt F) → (⟨S50000x128, .f32⟩ : BufTy).Contents (Elt F) → (⟨S50000x128, .f32⟩ : BufTy).Contents (Elt F)),
    nullary main_c_61 (constantI S_ 32 0#32),
    unary main_c_61 main_v312 (broadcastInDim S400000 ![] bcast_S_S400000 : (⟨S_, .i32⟩ : BufTy).Contents (Elt F) → (⟨S400000, .i32⟩ : BufTy).Contents (Elt F)),
    binary main_arg11 main_v312 main_v313 (cmpi .slt : (⟨S400000, .i32⟩ : BufTy).Contents (Elt F) → (⟨S400000, .i32⟩ : BufTy).Contents (Elt F) → (⟨S400000, .i1⟩ : BufTy).Contents (Elt F)),
    nullary main_c_62 (constantI S_ 32 10000#32),
    unary main_c_62 main_v314 (broadcastInDim S400000 ![] bcast_S_S400000 : (⟨S_, .i32⟩ : BufTy).Contents (Elt F) → (⟨S400000, .i32⟩ : BufTy).Contents (Elt F)),
    binary main_arg11 main_v314 main_v315 (addi : (⟨S400000, .i32⟩ : BufTy).Contents (Elt F) → (⟨S400000, .i32⟩ : BufTy).Contents (Elt F) → (⟨S400000, .i32⟩ : BufTy).Contents (Elt F)),
    ternary main_v313 main_v315 main_arg11 main_v316 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v316 main_v317 (broadcastInDim S400000x1 ![0] bcast_S400000_S400000x1_0 : (⟨S400000, .i32⟩ : BufTy).Contents (Elt F) → (⟨S400000x1, .i32⟩ : BufTy).Contents (Elt F)),
    binary main_v191 main_v317 main_v318 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_63 (constant S_ .f32 0x00000000#32),
    unary main_cst_63 main_v319 (broadcastInDim S30000x128 ![] bcast_S_S30000x128 : (⟨S_, .f32⟩ : BufTy).Contents (Elt F) → (⟨S30000x128, .f32⟩ : BufTy).Contents (Elt F)),
    unary main_arg12 main_v320 (broadcastInDim S400000x1 ![0] bcast_S400000_S400000x1_0 : (⟨S400000, .i32⟩ : BufTy).Contents (Elt F) → (⟨S400000x1, .i32⟩ : BufTy).Contents (Elt F)),
    ternary main_v319 main_v320 main_v318 main_v321 ((fun x i u => Host.scatterAdd scatter_S30000x128_S400000x1_S400000x128_1_0_0_1 x i u) : (⟨S30000x128, .f32⟩ : BufTy).Contents (Elt F) → (⟨S400000x1, .i32⟩ : BufTy).Contents (Elt F) → (⟨S400000x128, .f32⟩ : BufTy).Contents (Elt F) → (⟨S30000x128, .f32⟩ : BufTy).Contents (Elt F)),
    nullary main_cst_64 (constant S_ .f32 0x3F800000#32),
    unary main_cst_64 main_v322 (broadcastInDim S400000x1 ![] bcast_S_S400000x1 : (⟨S_, .f32⟩ : BufTy).Contents (Elt F) → (⟨S400000x1, .f32⟩ : BufTy).Contents (Elt F)),
    nullary main_cst_65 (constant S_ .f32 0x00000000#32),
    unary main_cst_65 main_v323 (broadcastInDim S30000x1 ![] bcast_S_S30000x1 : (⟨S_, .f32⟩ : BufTy).Contents (Elt F) → (⟨S30000x1, .f32⟩ : BufTy).Contents (Elt F)),
    unary main_arg12 main_v324 (broadcastInDim S400000x1 ![0] bcast_S400000_S400000x1_0 : (⟨S400000, .i32⟩ : BufTy).Contents (Elt F) → (⟨S400000x1, .i32⟩ : BufTy).Contents (Elt F)),
    ternary main_v323 main_v324 main_v322 main_v325 ((fun x i u => Host.scatterAdd scatter_S30000x1_S400000x1_S400000x1_1_0_0_1 x i u) : (⟨S30000x1, .f32⟩ : BufTy).Contents (Elt F) → (⟨S400000x1, .i32⟩ : BufTy).Contents (Elt F) → (⟨S400000x1, .f32⟩ : BufTy).Contents (Elt F) → (⟨S30000x1, .f32⟩ : BufTy).Contents (Elt F)),
    nullary main_cst_66 (constant S_ .f32 0x3F800000#32),
    unary main_cst_66 main_v326 (broadcastInDim S30000x1 ![] bcast_S_S30000x1 : (⟨S_, .f32⟩ : BufTy).Contents (Elt F) → (⟨S30000x1, .f32⟩ : BufTy).Contents (Elt F)),
    binary main_v325 main_v326 main_v327 (maximumf : (⟨S30000x1, .f32⟩ : BufTy).Contents (Elt F) → (⟨S30000x1, .f32⟩ : BufTy).Contents (Elt F) → (⟨S30000x1, .f32⟩ : BufTy).Contents (Elt F)),
    unary main_v327 main_v328 (broadcastInDim S30000x128 ![0, 1] bcast_S30000x1_S30000x128_0_1 : (⟨S30000x1, .f32⟩ : BufTy).Contents (Elt F) → (⟨S30000x128, .f32⟩ : BufTy).Contents (Elt F)),
    binary main_v321 main_v328 main_v329 (Host.divf : (⟨S30000x128, .f32⟩ : BufTy).Contents (Elt F) → (⟨S30000x128, .f32⟩ : BufTy).Contents (Elt F) → (⟨S30000x128, .f32⟩ : BufTy).Contents (Elt F)),
    unary main_arg15 main_v330 ((extractStridedSlice S1x1x128x128 ![1, 4, 0, 0] · slices_S4x6x128x128_S1x1x128x128_1_4_0_0) : (⟨S4x6x128x128, .f32⟩ : BufTy).Contents (Elt F) → (⟨S1x1x128x128, .f32⟩ : BufTy).Contents (Elt F)),
    reshape main_v330 main_v331 rfl shapeCasts_S1x1x128x128_S128x128,
    binary main_v329 main_v331 main_v332 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v333 ((extractStridedSlice S1x1x128x128 ![1, 4, 0, 0] · slices_S4x6x128x128_S1x1x128x128_1_4_0_0) : (⟨S4x6x128x128, .f32⟩ : BufTy).Contents (Elt F) → (⟨S1x1x128x128, .f32⟩ : BufTy).Contents (Elt F)),
    reshape main_v333 main_v334 rfl shapeCasts_S1x1x128x128_S128x128,
    binary main_v190 main_v334 main_v335 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v332 main_v335 main_v336 (addf : (⟨S30000x128, .f32⟩ : BufTy).Contents (Elt F) → (⟨S30000x128, .f32⟩ : BufTy).Contents (Elt F) → (⟨S30000x128, .f32⟩ : BufTy).Contents (Elt F)),
    unary main_arg17 main_v337 ((extractStridedSlice S1x1x128 ![1, 4, 0] · slices_S4x6x128_S1x1x128_1_4_0) : (⟨S4x6x128, .f32⟩ : BufTy).Contents (Elt F) → (⟨S1x1x128, .f32⟩ : BufTy).Contents (Elt F)),
    reshape main_v337 main_v338 rfl shapeCasts_S1x1x128_S128,
    unary main_v338 main_v339 (broadcastInDim S1x128 ![1] bcast_S128_S1x128_1 : (⟨S128, .f32⟩ : BufTy).Contents (Elt F) → (⟨S1x128, .f32⟩ : BufTy).Contents (Elt F)),
    unary main_v339 main_v340 (broadcastInDim S30000x128 ![0, 1] bcast_S1x128_S30000x128_0_1 : (⟨S1x128, .f32⟩ : BufTy).Contents (Elt F) → (⟨S30000x128, .f32⟩ : BufTy).Contents (Elt F)),
    binary main_v336 main_v340 main_v341 (addf : (⟨S30000x128, .f32⟩ : BufTy).Contents (Elt F) → (⟨S30000x128, .f32⟩ : BufTy).Contents (Elt F) → (⟨S30000x128, .f32⟩ : BufTy).Contents (Elt F)),
    nullary main_c_67 (constantI S_ 32 0#32),
    unary main_c_67 main_v342 (broadcastInDim S800000 ![] bcast_S_S800000 : (⟨S_, .i32⟩ : BufTy).Contents (Elt F) → (⟨S800000, .i32⟩ : BufTy).Contents (Elt F)),
    binary main_arg13 main_v342 main_v343 (cmpi .slt : (⟨S800000, .i32⟩ : BufTy).Contents (Elt F) → (⟨S800000, .i32⟩ : BufTy).Contents (Elt F) → (⟨S800000, .i1⟩ : BufTy).Contents (Elt F)),
    nullary main_c_68 (constantI S_ 32 10000#32),
    unary main_c_68 main_v344 (broadcastInDim S800000 ![] bcast_S_S800000 : (⟨S_, .i32⟩ : BufTy).Contents (Elt F) → (⟨S800000, .i32⟩ : BufTy).Contents (Elt F)),
    binary main_arg13 main_v344 main_v345 (addi : (⟨S800000, .i32⟩ : BufTy).Contents (Elt F) → (⟨S800000, .i32⟩ : BufTy).Contents (Elt F) → (⟨S800000, .i32⟩ : BufTy).Contents (Elt F)),
    ternary main_v343 main_v345 main_arg13 main_v346 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v346 main_v347 (broadcastInDim S800000x1 ![0] bcast_S800000_S800000x1_0 : (⟨S800000, .i32⟩ : BufTy).Contents (Elt F) → (⟨S800000x1, .i32⟩ : BufTy).Contents (Elt F)),
    binary main_v191 main_v347 main_v348 ((fun x i => Host.gather gather_S10000x128_S800000x1_S800000x128_1_0_n_n_0_1_1128 x i) : (⟨S10000x128, .f32⟩ : BufTy).Contents (Elt F) → (⟨S800000x1, .i32⟩ : BufTy).Contents (Elt F) → (⟨S800000x128, .f32⟩ : BufTy).Contents (Elt F)),
    nullary main_cst_69 (constant S_ .f32 0x00000000#32),
    unary main_cst_69 main_v349 (broadcastInDim S50000x128 ![] bcast_S_S50000x128 : (⟨S_, .f32⟩ : BufTy).Contents (Elt F) → (⟨S50000x128, .f32⟩ : BufTy).Contents (Elt F)),
    unary main_arg14 main_v350 (broadcastInDim S800000x1 ![0] bcast_S800000_S800000x1_0 : (⟨S800000, .i32⟩ : BufTy).Contents (Elt F) → (⟨S800000x1, .i32⟩ : BufTy).Contents (Elt F)),
    ternary main_v349 main_v350 main_v348 main_v351 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_70 (constant S_ .f32 0x3F800000#32),
    unary main_cst_70 main_v352 (broadcastInDim S800000x1 ![] bcast_S_S800000x1 : (⟨S_, .f32⟩ : BufTy).Contents (Elt F) → (⟨S800000x1, .f32⟩ : BufTy).Contents (Elt F)),
    nullary main_cst_71 (constant S_ .f32 0x00000000#32),
    unary main_cst_71 main_v353 (broadcastInDim S50000x1 ![] bcast_S_S50000x1 : (⟨S_, .f32⟩ : BufTy).Contents (Elt F) → (⟨S50000x1, .f32⟩ : BufTy).Contents (Elt F)),
    unary main_arg14 main_v354 (broadcastInDim S800000x1 ![0] bcast_S800000_S800000x1_0 : (⟨S800000, .i32⟩ : BufTy).Contents (Elt F) → (⟨S800000x1, .i32⟩ : BufTy).Contents (Elt F)),
    ternary main_v353 main_v354 main_v352 main_v355 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_72 (constant S_ .f32 0x3F800000#32),
    unary main_cst_72 main_v356 (broadcastInDim S50000x1 ![] bcast_S_S50000x1 : (⟨S_, .f32⟩ : BufTy).Contents (Elt F) → (⟨S50000x1, .f32⟩ : BufTy).Contents (Elt F)),
    binary main_v355 main_v356 main_v357 (maximumf : (⟨S50000x1, .f32⟩ : BufTy).Contents (Elt F) → (⟨S50000x1, .f32⟩ : BufTy).Contents (Elt F) → (⟨S50000x1, .f32⟩ : BufTy).Contents (Elt F)),
    unary main_v357 main_v358 (broadcastInDim S50000x128 ![0, 1] bcast_S50000x1_S50000x128_0_1 : (⟨S50000x1, .f32⟩ : BufTy).Contents (Elt F) → (⟨S50000x128, .f32⟩ : BufTy).Contents (Elt F)),
    binary main_v351 main_v358 main_v359 (Host.divf : (⟨S50000x128, .f32⟩ : BufTy).Contents (Elt F) → (⟨S50000x128, .f32⟩ : BufTy).Contents (Elt F) → (⟨S50000x128, .f32⟩ : BufTy).Contents (Elt F)),
    unary main_arg15 main_v360 ((extractStridedSlice S1x1x128x128 ![1, 5, 0, 0] · slices_S4x6x128x128_S1x1x128x128_1_5_0_0) : (⟨S4x6x128x128, .f32⟩ : BufTy).Contents (Elt F) → (⟨S1x1x128x128, .f32⟩ : BufTy).Contents (Elt F)),
    reshape main_v360 main_v361 rfl shapeCasts_S1x1x128x128_S128x128,
    binary main_v359 main_v361 main_v362 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v363 ((extractStridedSlice S1x1x128x128 ![1, 5, 0, 0] · slices_S4x6x128x128_S1x1x128x128_1_5_0_0) : (⟨S4x6x128x128, .f32⟩ : BufTy).Contents (Elt F) → (⟨S1x1x128x128, .f32⟩ : BufTy).Contents (Elt F)),
    reshape main_v363 main_v364 rfl shapeCasts_S1x1x128x128_S128x128,
    binary main_v189 main_v364 main_v365 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v362 main_v365 main_v366 (addf : (⟨S50000x128, .f32⟩ : BufTy).Contents (Elt F) → (⟨S50000x128, .f32⟩ : BufTy).Contents (Elt F) → (⟨S50000x128, .f32⟩ : BufTy).Contents (Elt F)),
    unary main_arg17 main_v367 ((extractStridedSlice S1x1x128 ![1, 5, 0] · slices_S4x6x128_S1x1x128_1_5_0) : (⟨S4x6x128, .f32⟩ : BufTy).Contents (Elt F) → (⟨S1x1x128, .f32⟩ : BufTy).Contents (Elt F)),
    reshape main_v367 main_v368 rfl shapeCasts_S1x1x128_S128,
    unary main_v368 main_v369 (broadcastInDim S1x128 ![1] bcast_S128_S1x128_1 : (⟨S128, .f32⟩ : BufTy).Contents (Elt F) → (⟨S1x128, .f32⟩ : BufTy).Contents (Elt F)),
    unary main_v369 main_v370 (broadcastInDim S50000x128 ![0, 1] bcast_S1x128_S50000x128_0_1 : (⟨S1x128, .f32⟩ : BufTy).Contents (Elt F) → (⟨S50000x128, .f32⟩ : BufTy).Contents (Elt F)),
    binary main_v366 main_v370 main_v371 (addf : (⟨S50000x128, .f32⟩ : BufTy).Contents (Elt F) → (⟨S50000x128, .f32⟩ : BufTy).Contents (Elt F) → (⟨S50000x128, .f32⟩ : BufTy).Contents (Elt F)),
    binary main_v311 main_v371 main_v372 (addf : (⟨S50000x128, .f32⟩ : BufTy).Contents (Elt F) → (⟨S50000x128, .f32⟩ : BufTy).Contents (Elt F) → (⟨S50000x128, .f32⟩ : BufTy).Contents (Elt F)),
    nullary main_cst_73 (constant S_ .f32 0x3F000000#32),
    unary main_cst_73 main_v373 (broadcastInDim S50000x128 ![] bcast_S_S50000x128 : (⟨S_, .f32⟩ : BufTy).Contents (Elt F) → (⟨S50000x128, .f32⟩ : BufTy).Contents (Elt F)),
    binary main_v372 main_v373 main_v374 (mulf : (⟨S50000x128, .f32⟩ : BufTy).Contents (Elt F) → (⟨S50000x128, .f32⟩ : BufTy).Contents (Elt F) → (⟨S50000x128, .f32⟩ : BufTy).Contents (Elt F)),
    binary main_v221 main_v341 main_v375 (addf : (⟨S30000x128, .f32⟩ : BufTy).Contents (Elt F) → (⟨S30000x128, .f32⟩ : BufTy).Contents (Elt F) → (⟨S30000x128, .f32⟩ : BufTy).Contents (Elt F)),
    nullary main_cst_74 (constant S_ .f32 0x3F000000#32),
    unary main_cst_74 main_v376 (broadcastInDim S30000x128 ![] bcast_S_S30000x128 : (⟨S_, .f32⟩ : BufTy).Contents (Elt F) → (⟨S30000x128, .f32⟩ : BufTy).Contents (Elt F)),
    binary main_v375 main_v376 main_v377 (mulf : (⟨S30000x128, .f32⟩ : BufTy).Contents (Elt F) → (⟨S30000x128, .f32⟩ : BufTy).Contents (Elt F) → (⟨S30000x128, .f32⟩ : BufTy).Contents (Elt F)),
    binary main_v251 main_v281 main_v378 (addf : (⟨S10000x128, .f32⟩ : BufTy).Contents (Elt F) → (⟨S10000x128, .f32⟩ : BufTy).Contents (Elt F) → (⟨S10000x128, .f32⟩ : BufTy).Contents (Elt F)),
    nullary main_cst_75 (constant S_ .f32 0x3F000000#32),
    unary main_cst_75 main_v379 (broadcastInDim S10000x128 ![] bcast_S_S10000x128 : (⟨S_, .f32⟩ : BufTy).Contents (Elt F) → (⟨S10000x128, .f32⟩ : BufTy).Contents (Elt F)),
    binary main_v378 main_v379 main_v380 (mulf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v374) (TRef.of (T := ⟨S50000x128, .f32⟩) main_call3_v0) (TRef.of (T := ⟨S50000x128, .f32⟩) main_v381) maximumf,
    TRef.nullary (TRef.of (T := ⟨S_, .f32⟩) main_call4_cst) (constant S_ .f32 0x00000000#32),
    TRef.unary (TRef.of (T := ⟨S_, .f32⟩) main_call4_cst) (TRef.of (T := ⟨S30000x128, .f32⟩) main_call4_v0) (broadcastInDim S30000x128 ![] bcast_S_S30000x128),
    TRef.binary (TRef.of (T := ⟨S30000x128, .f32⟩) main_v377) (TRef.of (T := ⟨S30000x128, .f32⟩) main_call4_v0) (TRef.of (T := ⟨S30000x128, .f32⟩) main_v382) maximumf,
    TRef.nullary (TRef.of (T := ⟨S_, .f32⟩) main_call5_cst) (constant S_ .f32 0x00000000#32),
    TRef.unary (TRef.of (T := ⟨S_, .f32⟩) main_call5_cst) (TRef.of (T := ⟨S10000x128, .f32⟩) main_call5_v0) (broadcastInDim S10000x128 ![] bcast_S_S10000x128),
    TRef.binary (TRef.of (T := ⟨S10000x128, .f32⟩) main_v380) (TRef.of (T := ⟨S10000x128, .f32⟩) main_call5_v0) (TRef.of (T := ⟨S10000x128, .f32⟩) main_v383) maximumf ]

set_option maxRecDepth 8192 in
/-- Every buffer the chunk's operations touch is a TensorCore reference. -/
theorem R1_sub : (R1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   binary_bufs_sub .., nullary_bufs_sub .., unary_bufs_sub .., binary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub .., nullary_bufs_sub ..,
   unary_bufs_sub .., binary_bufs_sub .., nullary_bufs_sub .., unary_bufs_sub .., binary_bufs_sub ..⟩

set_option maxRecDepth 8192 in
/-- Every operation of the chunk determines its results. -/
theorem R1_fresh : (R1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

set_option maxRecDepth 8192 in
/-- Every operation of the chunk writes a buffer past the arguments. -/
theorem R1_writes : (R1 : List (HloOp τ sig (Elt F))).Forall fun op => ∀ z ∈ op.writes, NotArg z :=
  ⟨nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   binary_notArg (by decide), nullary_notArg (by decide), unary_notArg (by decide), binary_notArg (by decide), binary_notArg (by decide), nullary_notArg (by decide),
   unary_notArg (by decide), binary_notArg (by decide), binary_notArg (by decide), nullary_notArg (by decide), unary_notArg (by decide), binary_notArg (by decide),
   nullary_notArg (by decide), unary_notArg (by decide), binary_notArg (by decide), nullary_notArg (by decide), unary_notArg (by decide), binary_notArg (by decide),
   nullary_notArg (by decide), unary_notArg (by decide), binary_notArg (by decide)⟩

end Cert.ReferenceIdeal.RefOps

end
-- ==== Proof.RefOps2.lean ====
import proofs.«141482_j13434657702128_1_alg».proof.Proof.RefLemmas

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The third layer: operations 474 to 710 of the reference's 969, in order. -/
abbrev R2 : List (HloOp τ sig (Elt F)) :=
  [ nullary main_c_76 (constantI S_ 32 0#32),
    unary main_c_76 main_v384 (broadcastInDim S800000 ![] bcast_S_S800000 : (⟨S_, .i32⟩ : BufTy).Contents (Elt F) → (⟨S800000, .i32⟩ : BufTy).Contents (Elt F)),
    binary main_arg3 main_v384 main_v385 (cmpi .slt : (⟨S800000, .i32⟩ : BufTy).Contents (Elt F) → (⟨S800000, .i32⟩ : BufTy).Contents (Elt F) → (⟨S800000, .i1⟩ : BufTy).Contents (Elt F)),
    nullary main_c_77 (constantI S_ 32 50000#32),
    unary main_c_77 main_v386 (broadcastInDim S800000 ![] bcast_S_S800000 : (⟨S_, .i32⟩ : BufTy).Contents (Elt F) → (⟨S800000, .i32⟩ : BufTy).Contents (Elt F)),
    binary main_arg3 main_v386 main_v387 (addi : (⟨S800000, .i32⟩ : BufTy).Contents (Elt F) → (⟨S800000, .i32⟩ : BufTy).Contents (Elt F) → (⟨S800000, .i32⟩ : BufTy).Contents (Elt F)),
    ternary main_v385 main_v387 main_arg3 main_v388 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v388 main_v389 (broadcastInDim S800000x1 ![0] bcast_S800000_S800000x1_0 : (⟨S800000, .i32⟩ : BufTy).Contents (Elt F) → (⟨S800000x1, .i32⟩ : BufTy).Contents (Elt F)),
    binary main_v381 main_v389 main_v390 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_78 (constant S_ .f32 0x00000000#32),
    unary main_cst_78 main_v391 (broadcastInDim S30000x128 ![] bcast_S_S30000x128 : (⟨S_, .f32⟩ : BufTy).Contents (Elt F) → (⟨S30000x128, .f32⟩ : BufTy).Contents (Elt F)),
    unary main_arg4 main_v392 (broadcastInDim S800000x1 ![0] bcast_S800000_S800000x1_0 : (⟨S800000, .i32⟩ : BufTy).Contents (Elt F) → (⟨S800000x1, .i32⟩ : BufTy).Contents (Elt F)),
    ternary main_v391 main_v392 main_v390 main_v393 ((fun x i u => Host.scatterAdd scatter_S30000x128_S800000x1_S800000x128_1_0_0_1 x i u) : (⟨S30000x128, .f32⟩ : BufTy).Contents (Elt F) → (⟨S800000x1, .i32⟩ : BufTy).Contents (Elt F) → (⟨S800000x128, .f32⟩ : BufTy).Contents (Elt F) → (⟨S30000x128, .f32⟩ : BufTy).Contents (Elt F)),
    nullary main_cst_79 (constant S_ .f32 0x3F800000#32),
    unary main_cst_79 main_v394 (broadcastInDim S800000x1 ![] bcast_S_S800000x1 : (⟨S_, .f32⟩ : BufTy).Contents (Elt F) → (⟨S800000x1, .f32⟩ : BufTy).Contents (Elt F)),
    nullary main_cst_80 (constant S_ .f32 0x00000000#32),
    unary main_cst_80 main_v395 (broadcastInDim S30000x1 ![] bcast_S_S30000x1 : (⟨S_, .f32⟩ : BufTy).Contents (Elt F) → (⟨S30000x1, .f32⟩ : BufTy).Contents (Elt F)),
    unary main_arg4 main_v396 (broadcastInDim S800000x1 ![0] bcast_S800000_S800000x1_0 : (⟨S800000, .i32⟩ : BufTy).Contents (Elt F) → (⟨S800000x1, .i32⟩ : BufTy).Contents (Elt F)),
    ternary main_v395 main_v396 main_v394 main_v397 ((fun x i u => Host.scatterAdd scatter_S30000x1_S800000x1_S800000x1_1_0_0_1 x i u) : (⟨S30000x1, .f32⟩ : BufTy).Contents (Elt F) → (⟨S800000x1, .i32⟩ : BufTy).Contents (Elt F) → (⟨S800000x1, .f32⟩ : BufTy).Contents (Elt F) → (⟨S30000x1, .f32⟩ : BufTy).Contents (Elt F)),
    nullary main_cst_81 (constant S_ .f32 0x3F800000#32),
    unary main_cst_81 main_v398 (broadcastInDim S30000x1 ![] bcast_S_S30000x1 : (⟨S_, .f32⟩ : BufTy).Contents (Elt F) → (⟨S30000x1, .f32⟩ : BufTy).Contents (Elt F)),
    binary main_v397 main_v398 main_v399 (maximumf : (⟨S30000x1, .f32⟩ : BufTy).Contents (Elt F) → (⟨S30000x1, .f32⟩ : BufTy).Contents (Elt F) → (⟨S30000x1, .f32⟩ : BufTy).Contents (Elt F)),
    unary main_v399 main_v400 (broadcastInDim S30000x128 ![0, 1] bcast_S30000x1_S30000x128_0_1 : (⟨S30000x1, .f32⟩ : BufTy).Contents (Elt F) → (⟨S30000x128, .f32⟩ : BufTy).Contents (Elt F)),
    binary main_v393 main_v400 main_v401 (Host.divf : (⟨S30000x128, .f32⟩ : BufTy).Contents (Elt F) → (⟨S30000x128, .f32⟩ : BufTy).Contents (Elt F) → (⟨S30000x128, .f32⟩ : BufTy).Contents (Elt F)),
    unary main_arg15 main_v402 ((extractStridedSlice S1x1x128x128 ![2, 0, 0, 0] · slices_S4x6x128x128_S1x1x128x128_2_0_0_0) : (⟨S4x6x128x128, .f32⟩ : BufTy).Contents (Elt F) → (⟨S1x1x128x128, .f32⟩ : BufTy).Contents (Elt F)),
    reshape main_v402 main_v403 rfl shapeCasts_S1x1x128x128_S128x128,
    binary main_v401 main_v403 main_v404 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v405 ((extractStridedSlice S1x1x128x128 ![2, 0, 0, 0] · slices_S4x6x128x128_S1x1x128x128_2_0_0_0) : (⟨S4x6x128x128, .f32⟩ : BufTy).Contents (Elt F) → (⟨S1x1x128x128, .f32⟩ : BufTy).Contents (Elt F)),
    reshape main_v405 main_v406 rfl shapeCasts_S1x1x128x128_S128x128,
    binary main_v382 main_v406 main_v407 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v404 main_v407 main_v408 (addf : (⟨S30000x128, .f32⟩ : BufTy).Contents (Elt F) → (⟨S30000x128, .f32⟩ : BufTy).Contents (Elt F) → (⟨S30000x128, .f32⟩ : BufTy).Contents (Elt F)),
    unary main_arg17 main_v409 ((extractStridedSlice S1x1x128 ![2, 0, 0] · slices_S4x6x128_S1x1x128_2_0_0) : (⟨S4x6x128, .f32⟩ : BufTy).Contents (Elt F) → (⟨S1x1x128, .f32⟩ : BufTy).Contents (Elt F)),
    reshape main_v409 main_v410 rfl shapeCasts_S1x1x128_S128,
    unary main_v410 main_v411 (broadcastInDim S1x128 ![1] bcast_S128_S1x128_1 : (⟨S128, .f32⟩ : BufTy).Contents (Elt F) → (⟨S1x128, .f32⟩ : BufTy).Contents (Elt F)),
    unary main_v411 main_v412 (broadcastInDim S30000x128 ![0, 1] bcast_S1x128_S30000x128_0_1 : (⟨S1x128, .f32⟩ : BufTy).Contents (Elt F) → (⟨S30000x128, .f32⟩ : BufTy).Contents (Elt F)),
    binary main_v408 main_v412 main_v413 (addf : (⟨S30000x128, .f32⟩ : BufTy).Contents (Elt F) → (⟨S30000x128, .f32⟩ : BufTy).Contents (Elt F) → (⟨S30000x128, .f32⟩ : BufTy).Contents (Elt F)),
    nullary main_c_82 (constantI S_ 32 0#32),
    unary main_c_82 main_v414 (broadcastInDim S400000 ![] bcast_S_S400000 : (⟨S_, .i32⟩ : BufTy).Contents (Elt F) → (⟨S400000, .i32⟩ : BufTy).Contents (Elt F)),
    binary main_arg5 main_v414 main_v415 (cmpi .slt : (⟨S400000, .i32⟩ : BufTy).Contents (Elt F) → (⟨S400000, .i32⟩ : BufTy).Contents (Elt F) → (⟨S400000, .i1⟩ : BufTy).Contents (Elt F)),
    nullary main_c_83 (constantI S_ 32 30000#32),
    unary main_c_83 main_v416 (broadcastInDim S400000 ![] bcast_S_S400000 : (⟨S_, .i32⟩ : BufTy).Contents (Elt F) → (⟨S400000, .i32⟩ : BufTy).Contents (Elt F)),
    binary main_arg5 main_v416 main_v417 (addi : (⟨S400000, .i32⟩ : BufTy).Contents (Elt F) → (⟨S400000, .i32⟩ : BufTy).Contents (Elt F) → (⟨S400000, .i32⟩ : BufTy).Contents (Elt F)),
    ternary main_v415 main_v417 main_arg5 main_v418 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v418 main_v419 (broadcastInDim S400000x1 ![0] bcast_S400000_S400000x1_0 : (⟨S400000, .i32⟩ : BufTy).Contents (Elt F) → (⟨S400000x1, .i32⟩ : BufTy).Contents (Elt F)),
    binary main_v382 main_v419 main_v420 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    nullary main_cst_84 (constant S_ .f32 0x00000000#32),
    unary main_cst_84 main_v421 (broadcastInDim S10000x128 ![] bcast_S_S10000x128 : (⟨S_, .f32⟩ : BufTy).Contents (Elt F) → (⟨S10000x128, .f32⟩ : BufTy).Contents (Elt F)),
    unary main_arg6 main_v422 (broadcastInDim S400000x1 ![0] bcast_S400000_S400000x1_0 : (⟨S400000, .i32⟩ : BufTy).Contents (Elt F) → (⟨S400000x1, .i32⟩ : BufTy).Contents (Elt F)),
    ternary main_v421 main_v422 main_v420 main_v423 ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)),
    nullary main_cst_85 (constant S_ .f32 0x3F800000#32),
    unary main_cst_85 main_v424 (broadcastInDim S400000x1 ![] bcast_S_S400000x1 : (⟨S_, .f32⟩ : BufTy).Contents (Elt F) → (⟨S400000x1, .f32⟩ : BufTy).Contents (Elt F)),
    nullary main_cst_86 (constant S_ .f32 0x00000000#32),
    unary main_cst_86 main_v425 (broadcastInDim S10000x1 ![] bcast_S_S10000x1 : (⟨S_, .f32⟩ : BufTy).Contents (Elt F) → (⟨S10000x1, .f32⟩ : BufTy).Contents (Elt F)),
    unary main_arg6 main_v426 (broadcastInDim S400000x1 ![0] bcast_S400000_S400000x1_0 : (⟨S400000, .i32⟩ : BufTy).Contents (Elt F) → (⟨S400000x1, .i32⟩ : BufTy).Contents (Elt F)),
    ternary main_v425 main_v426 main_v424 main_v427 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    nullary main_cst_87 (constant S_ .f32 0x3F800000#32),
    unary main_cst_87 main_v428 (broadcastInDim S10000x1 ![] bcast_S_S10000x1 : (⟨S_, .f32⟩ : BufTy).Contents (Elt F) → (⟨S10000x1, .f32⟩ : BufTy).Contents (Elt F)),
    binary main_v427 main_v428 main_v429 (maximumf : (⟨S10000x1, .f32⟩ : BufTy).Contents (Elt F) → (⟨S10000x1, .f32⟩ : BufTy).Contents (Elt F) → (⟨S10000x1, .f32⟩ : BufTy).Contents (Elt F)),
    unary main_v429 main_v430 (broadcastInDim S10000x128 ![0, 1] bcast_S10000x1_S10000x128_0_1 : (⟨S10000x1, .f32⟩ : BufTy).Contents (Elt F) → (⟨S10000x128, .f32⟩ : BufTy).Contents (Elt F)),
    binary main_v423 main_v430 main_v431 (Host.divf : (⟨S10000x128, .f32⟩ : BufTy).Contents (Elt F) → (⟨S10000x128, .f32⟩ : BufTy).Contents (Elt F) → (⟨S10000x128, .f32⟩ : BufTy).Contents (Elt F)),
    unary main_arg15 main_v432 ((extractStridedSlice S1x1x128x128 ![2, 1, 0, 0] · slices_S4x6x128x128_S1x1x128x128_2_1_0_0) : (⟨S4x6x128x128, .f32⟩ : BufTy).Contents (Elt F) → (⟨S1x1x128x128, .f32⟩ : BufTy).Contents (Elt F)),
    reshape main_v432 main_v433 rfl shapeCasts_S1x1x128x128_S128x128,
    binary main_v431 main_v433 main_v434 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v435 ((extractStridedSlice S1x1x128x128 ![2, 1, 0, 0] · slices_S4x6x128x128_S1x1x128x128_2_1_0_0) : (⟨S4x6x128x128, .f32⟩ : BufTy).Contents (Elt F) → (⟨S1x1x128x128, .f32⟩ : BufTy).Contents (Elt F)),
    reshape main_v435 main_v436 rfl shapeCasts_S1x1x128x128_S128x128,
    binary main_v383 main_v436 main_v437 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v434 main_v437 main_v438 (addf : (⟨S10000x128, .f32⟩ : BufTy).Contents (Elt F) → (⟨S10000x128, .f32⟩ : BufTy).Contents (Elt F) → (⟨S10000x128, .f32⟩ : BufTy).Contents (Elt F)),
    unary main_arg17 main_v439 ((extractStridedSlice S1x1x128 ![2, 1, 0] · slices_S4x6x128_S1x1x128_2_1_0) : (⟨S4x6x128, .f32⟩ : BufTy).Contents (Elt F) → (⟨S1x1x128, .f32⟩ : BufTy).Contents (Elt F)),
    reshape main_v439 main_v440 rfl shapeCasts_S1x1x128_S128,
    unary main_v440 main_v441 (broadcastInDim S1x128 ![1] bcast_S128_S1x128_1 : (⟨S128, .f32⟩ : BufTy).Contents (Elt F) → (⟨S1x128, .f32⟩ : BufTy).Contents (Elt F)),
    unary main_v441 main_v442 (broadcastInDim S10000x128 ![0, 1] bcast_S1x128_S10000x128_0_1 : (⟨S1x128, .f32⟩ : BufTy).Contents (Elt F) → (⟨S10000x128, .f32⟩ : BufTy).Contents (Elt F)),
    binary main_v438 main_v442 main_v443 (addf : (⟨S10000x128, .f32⟩ : BufTy).Contents (Elt F) → (⟨S10000x128, .f32⟩ : BufTy).Contents (Elt F) → (⟨S10000x128, .f32⟩ : BufTy).Contents (Elt F)),
    nullary main_c_88 (constantI S_ 32 0#32),
    unary main_c_88 main_v444 (broadcastInDim S800000 ![] bcast_S_S800000 : (⟨S_, .i32⟩ : BufTy).Contents (Elt F) → (⟨S800000, .i32⟩ : BufTy).Contents (Elt F)),
    binary main_arg7 main_v444 main_v445 (cmpi .slt : (⟨S800000, .i32⟩ : BufTy).Contents (Elt F) → (⟨S800000, .i32⟩ : BufTy).Contents (Elt F) → (⟨S800000, .i1⟩ : BufTy).Contents (Elt F)),
    nullary main_c_89 (constantI S_ 32 50000#32),
    unary main_c_89 main_v446 (broadcastInDim S800000 ![] bcast_S_S800000 : (⟨S_, .i32⟩ : BufTy).Contents (Elt F) → (⟨S800000, .i32⟩ : BufTy).Contents (Elt F)),
    binary main_arg7 main_v446 main_v447 (addi : (⟨S800000, .i32⟩ : BufTy).Contents (Elt F) → (⟨S800000, .i32⟩ : BufTy).Contents (Elt F) → (⟨S800000, .i32⟩ : BufTy).Contents (Elt F)),
    ternary main_v445 main_v447 main_arg7 main_v448 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v448 main_v449 (broadcastInDim S800000x1 ![0] bcast_S800000_S800000x1_0 : (⟨S800000, .i32⟩ : BufTy).Contents (Elt F) → (⟨S800000x1, .i32⟩ : BufTy).Contents (Elt F)),
    binary main_v381 main_v449 main_v450 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_90 (constant S_ .f32 0x00000000#32),
    unary main_cst_90 main_v451 (broadcastInDim S10000x128 ![] bcast_S_S10000x128 : (⟨S_, .f32⟩ : BufTy).Contents (Elt F) → (⟨S10000x128, .f32⟩ : BufTy).Contents (Elt F)),
    unary main_arg8 main_v452 (broadcastInDim S800000x1 ![0] bcast_S800000_S800000x1_0 : (⟨S800000, .i32⟩ : BufTy).Contents (Elt F) → (⟨S800000x1, .i32⟩ : BufTy).Contents (Elt F)),
    ternary main_v451 main_v452 main_v450 main_v453 ((fun x i u => Host.scatterAdd scatter_S10000x128_S800000x1_S800000x128_1_0_0_1 x i u) : (⟨S10000x128, .f32⟩ : BufTy).Contents (Elt F) → (⟨S800000x1, .i32⟩ : BufTy).Contents (Elt F) → (⟨S800000x128, .f32⟩ : BufTy).Contents (Elt F) → (⟨S10000x128, .f32⟩ : BufTy).Contents (Elt F)),
    nullary main_cst_91 (constant S_ .f32 0x3F800000#32),
    unary main_cst_91 main_v454 (broadcastInDim S800000x1 ![] bcast_S_S800000x1 : (⟨S_, .f32⟩ : BufTy).Contents (Elt F) → (⟨S800000x1, .f32⟩ : BufTy).Contents (Elt F)),
    nullary main_cst_92 (constant S_ .f32 0x00000000#32),
    unary main_cst_92 main_v455 (broadcastInDim S10000x1 ![] bcast_S_S10000x1 : (⟨S_, .f32⟩ : BufTy).Contents (Elt F) → (⟨S10000x1, .f32⟩ : BufTy).Contents (Elt F)),
    unary main_arg8 main_v456 (broadcastInDim S800000x1 ![0] bcast_S800000_S800000x1_0 : (⟨S800000, .i32⟩ : BufTy).Contents (Elt F) → (⟨S800000x1, .i32⟩ : BufTy).Contents (Elt F)),
    ternary main_v455 main_v456 main_v454 main_v457 ((fun x i u => Host.scatterAdd scatter_S10000x1_S800000x1_S800000x1_1_0_0_1 x i u) : (⟨S10000x1, .f32⟩ : BufTy).Contents (Elt F) → (⟨S800000x1, .i32⟩ : BufTy).Contents (Elt F) → (⟨S800000x1, .f32⟩ : BufTy).Contents (Elt F) → (⟨S10000x1, .f32⟩ : BufTy).Contents (Elt F)),
    nullary main_cst_93 (constant S_ .f32 0x3F800000#32),
    unary main_cst_93 main_v458 (broadcastInDim S10000x1 ![] bcast_S_S10000x1 : (⟨S_, .f32⟩ : BufTy).Contents (Elt F) → (⟨S10000x1, .f32⟩ : BufTy).Contents (Elt F)),
    binary main_v457 main_v458 main_v459 (maximumf : (⟨S10000x1, .f32⟩ : BufTy).Contents (Elt F) → (⟨S10000x1, .f32⟩ : BufTy).Contents (Elt F) → (⟨S10000x1, .f32⟩ : BufTy).Contents (Elt F)),
    unary main_v459 main_v460 (broadcastInDim S10000x128 ![0, 1] bcast_S10000x1_S10000x128_0_1 : (⟨S10000x1, .f32⟩ : BufTy).Contents (Elt F) → (⟨S10000x128, .f32⟩ : BufTy).Contents (Elt F)),
    binary main_v453 main_v460 main_v461 (Host.divf : (⟨S10000x128, .f32⟩ : BufTy).Contents (Elt F) → (⟨S10000x128, .f32⟩ : BufTy).Contents (Elt F) → (⟨S10000x128, .f32⟩ : BufTy).Contents (Elt F)),
    unary main_arg15 main_v462 ((extractStridedSlice S1x1x128x128 ![2, 2, 0, 0] · slices_S4x6x128x128_S1x1x128x128_2_2_0_0) : (⟨S4x6x128x128, .f32⟩ : BufTy).Contents (Elt F) → (⟨S1x1x128x128, .f32⟩ : BufTy).Contents (Elt F)),
    reshape main_v462 main_v463 rfl shapeCasts_S1x1x128x128_S128x128,
    binary main_v461 main_v463 main_v464 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v465 ((extractStridedSlice S1x1x128x128 ![2, 2, 0, 0] · slices_S4x6x128x128_S1x1x128x128_2_2_0_0) : (⟨S4x6x128x128, .f32⟩ : BufTy).Contents (Elt F) → (⟨S1x1x128x128, .f32⟩ : BufTy).Contents (Elt F)),
    reshape main_v465 main_v466 rfl shapeCasts_S1x1x128x128_S128x128,
    binary main_v383 main_v466 main_v467 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v464 main_v467 main_v468 (addf : (⟨S10000x128, .f32⟩ : BufTy).Contents (Elt F) → (⟨S10000x128, .f32⟩ : BufTy).Contents (Elt F) → (⟨S10000x128, .f32⟩ : BufTy).Contents (Elt F)),
    unary main_arg17 main_v469 ((extractStridedSlice S1x1x128 ![2, 2, 0] · slices_S4x6x128_S1x1x128_2_2_0) : (⟨S4x6x128, .f32⟩ : BufTy).Contents (Elt F) → (⟨S1x1x128, .f32⟩ : BufTy).Contents (Elt F)),
    reshape main_v469 main_v470 rfl shapeCasts_S1x1x128_S128,
    unary main_v470 main_v471 (broadcastInDim S1x128 ![1] bcast_S128_S1x128_1 : (⟨S128, .f32⟩ : BufTy).Contents (Elt F) → (⟨S1x128, .f32⟩ : BufTy).Contents (Elt F)),
    unary main_v471 main_v472 (broadcastInDim S10000x128 ![0, 1] bcast_S1x128_S10000x128_0_1 : (⟨S1x128, .f32⟩ : BufTy).Contents (Elt F) → (⟨S10000x128, .f32⟩ : BufTy).Contents (Elt F)),
    binary main_v468 main_v472 main_v473 (addf : (⟨S10000x128, .f32⟩ : BufTy).Contents (Elt F) → (⟨S10000x128, .f32⟩ : BufTy).Contents (Elt F) → (⟨S10000x128, .f32⟩ : BufTy).Contents (Elt F)),
    nullary main_c_94 (constantI S_ 32 0#32),
    unary main_c_94 main_v474 (broadcastInDim S800000 ![] bcast_S_S800000 : (⟨S_, .i32⟩ : BufTy).Contents (Elt F) → (⟨S800000, .i32⟩ : BufTy).Contents (Elt F)),
    binary main_arg9 main_v474 main_v475 (cmpi .slt : (⟨S800000, .i32⟩ : BufTy).Contents (Elt F) → (⟨S800000, .i32⟩ : BufTy).Contents (Elt F) → (⟨S800000, .i1⟩ : BufTy).Contents (Elt F)),
    nullary main_c_95 (constantI S_ 32 30000#32),
    unary main_c_95 main_v476 (broadcastInDim S800000 ![] bcast_S_S800000 : (⟨S_, .i32⟩ : BufTy).Contents (Elt F) → (⟨S800000, .i32⟩ : BufTy).Contents (Elt F)),
    binary main_arg9 main_v476 main_v477 (addi : (⟨S800000, .i32⟩ : BufTy).Contents (Elt F) → (⟨S800000, .i32⟩ : BufTy).Contents (Elt F) → (⟨S800000, .i32⟩ : BufTy).Contents (Elt F)),
    ternary main_v475 main_v477 main_arg9 main_v478 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v478 main_v479 (broadcastInDim S800000x1 ![0] bcast_S800000_S800000x1_0 : (⟨S800000, .i32⟩ : BufTy).Contents (Elt F) → (⟨S800000x1, .i32⟩ : BufTy).Contents (Elt F)),
    binary main_v382 main_v479 main_v480 ((fun x i => Host.gather gather_S30000x128_S800000x1_S800000x128_1_0_n_n_0_1_1128 x i) : (⟨S30000x128, .f32⟩ : BufTy).Contents (Elt F) → (⟨S800000x1, .i32⟩ : BufTy).Contents (Elt F) → (⟨S800000x128, .f32⟩ : BufTy).Contents (Elt F)),
    nullary main_cst_96 (constant S_ .f32 0x00000000#32),
    unary main_cst_96 main_v481 (broadcastInDim S50000x128 ![] bcast_S_S50000x128 : (⟨S_, .f32⟩ : BufTy).Contents (Elt F) → (⟨S50000x128, .f32⟩ : BufTy).Contents (Elt F)),
    unary main_arg10 main_v482 (broadcastInDim S800000x1 ![0] bcast_S800000_S800000x1_0 : (⟨S800000, .i32⟩ : BufTy).Contents (Elt F) → (⟨S800000x1, .i32⟩ : BufTy).Contents (Elt F)),
    ternary main_v481 main_v482 main_v480 main_v483 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_97 (constant S_ .f32 0x3F800000#32),
    unary main_cst_97 main_v484 (broadcastInDim S800000x1 ![] bcast_S_S800000x1 : (⟨S_, .f32⟩ : BufTy).Contents (Elt F) → (⟨S800000x1, .f32⟩ : BufTy).Contents (Elt F)),
    nullary main_cst_98 (constant S_ .f32 0x00000000#32),
    unary main_cst_98 main_v485 (broadcastInDim S50000x1 ![] bcast_S_S50000x1 : (⟨S_, .f32⟩ : BufTy).Contents (Elt F) → (⟨S50000x1, .f32⟩ : BufTy).Contents (Elt F)),
    unary main_arg10 main_v486 (broadcastInDim S800000x1 ![0] bcast_S800000_S800000x1_0 : (⟨S800000, .i32⟩ : BufTy).Contents (Elt F) → (⟨S800000x1, .i32⟩ : BufTy).Contents (Elt F)),
    ternary main_v485 main_v486 main_v484 main_v487 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_99 (constant S_ .f32 0x3F800000#32),
    unary main_cst_99 main_v488 (broadcastInDim S50000x1 ![] bcast_S_S50000x1 : (⟨S_, .f32⟩ : BufTy).Contents (Elt F) → (⟨S50000x1, .f32⟩ : BufTy).Contents (Elt F)),
    binary main_v487 main_v488 main_v489 (maximumf : (⟨S50000x1, .f32⟩ : BufTy).Contents (Elt F) → (⟨S50000x1, .f32⟩ : BufTy).Contents (Elt F) → (⟨S50000x1, .f32⟩ : BufTy).Contents (Elt F)),
    unary main_v489 main_v490 (broadcastInDim S50000x128 ![0, 1] bcast_S50000x1_S50000x128_0_1 : (⟨S50000x1, .f32⟩ : BufTy).Contents (Elt F) → (⟨S50000x128, .f32⟩ : BufTy).Contents (Elt F)),
    binary main_v483 main_v490 main_v491 (Host.divf : (⟨S50000x128, .f32⟩ : BufTy).Contents (Elt F) → (⟨S50000x128, .f32⟩ : BufTy).Contents (Elt F) → (⟨S50000x128, .f32⟩ : BufTy).Contents (Elt F)),
    unary main_arg15 main_v492 ((extractStridedSlice S1x1x128x128 ![2, 3, 0, 0] · slices_S4x6x128x128_S1x1x128x128_2_3_0_0) : (⟨S4x6x128x128, .f32⟩ : BufTy).Contents (Elt F) → (⟨S1x1x128x128, .f32⟩ : BufTy).Contents (Elt F)),
    reshape main_v492 main_v493 rfl shapeCasts_S1x1x128x128_S128x128,
    binary main_v491 main_v493 main_v494 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v495 ((extractStridedSlice S1x1x128x128 ![2, 3, 0, 0] · slices_S4x6x128x128_S1x1x128x128_2_3_0_0) : (⟨S4x6x128x128, .f32⟩ : BufTy).Contents (Elt F) → (⟨S1x1x128x128, .f32⟩ : BufTy).Contents (Elt F)),
    reshape main_v495 main_v496 rfl shapeCasts_S1x1x128x128_S128x128,
    binary main_v381 main_v496 main_v497 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v494 main_v497 main_v498 (addf : (⟨S50000x128, .f32⟩ : BufTy).Contents (Elt F) → (⟨S50000x128, .f32⟩ : BufTy).Contents (Elt F) → (⟨S50000x128, .f32⟩ : BufTy).Contents (Elt F)),
    unary main_arg17 main_v499 ((extractStridedSlice S1x1x128 ![2, 3, 0] · slices_S4x6x128_S1x1x128_2_3_0) : (⟨S4x6x128, .f32⟩ : BufTy).Contents (Elt F) → (⟨S1x1x128, .f32⟩ : BufTy).Contents (Elt F)),
    reshape main_v499 main_v500 rfl shapeCasts_S1x1x128_S128,
    unary main_v500 main_v501 (broadcastInDim S1x128 ![1] bcast_S128_S1x128_1 : (⟨S128, .f32⟩ : BufTy).Contents (Elt F) → (⟨S1x128, .f32⟩ : BufTy).Contents (Elt F)),
    unary main_v501 main_v502 (broadcastInDim S50000x128 ![0, 1] bcast_S1x128_S50000x128_0_1 : (⟨S1x128, .f32⟩ : BufTy).Contents (Elt F) → (⟨S50000x128, .f32⟩ : BufTy).Contents (Elt F)),
    binary main_v498 main_v502 main_v503 (addf : (⟨S50000x128, .f32⟩ : BufTy).Contents (Elt F) → (⟨S50000x128, .f32⟩ : BufTy).Contents (Elt F) → (⟨S50000x128, .f32⟩ : BufTy).Contents (Elt F)),
    nullary main_c_100 (constantI S_ 32 0#32),
    unary main_c_100 main_v504 (broadcastInDim S400000 ![] bcast_S_S400000 : (⟨S_, .i32⟩ : BufTy).Contents (Elt F) → (⟨S400000, .i32⟩ : BufTy).Contents (Elt F)),
    binary main_arg11 main_v504 main_v505 (cmpi .slt : (⟨S400000, .i32⟩ : BufTy).Contents (Elt F) → (⟨S400000, .i32⟩ : BufTy).Contents (Elt F) → (⟨S400000, .i1⟩ : BufTy).Contents (Elt F)),
    nullary main_c_101 (constantI S_ 32 10000#32),
    unary main_c_101 main_v506 (broadcastInDim S400000 ![] bcast_S_S400000 : (⟨S_, .i32⟩ : BufTy).Contents (Elt F) → (⟨S400000, .i32⟩ : BufTy).Contents (Elt F)),
    binary main_arg11 main_v506 main_v507 (addi : (⟨S400000, .i32⟩ : BufTy).Contents (Elt F) → (⟨S400000, .i32⟩ : BufTy).Contents (Elt F) → (⟨S400000, .i32⟩ : BufTy).Contents (Elt F)),
    ternary main_v505 main_v507 main_arg11 main_v508 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v508 main_v509 (broadcastInDim S400000x1 ![0] bcast_S400000_S400000x1_0 : (⟨S400000, .i32⟩ : BufTy).Contents (Elt F) → (⟨S400000x1, .i32⟩ : BufTy).Contents (Elt F)),
    binary main_v383 main_v509 main_v510 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_102 (constant S_ .f32 0x00000000#32),
    unary main_cst_102 main_v511 (broadcastInDim S30000x128 ![] bcast_S_S30000x128 : (⟨S_, .f32⟩ : BufTy).Contents (Elt F) → (⟨S30000x128, .f32⟩ : BufTy).Contents (Elt F)),
    unary main_arg12 main_v512 (broadcastInDim S400000x1 ![0] bcast_S400000_S400000x1_0 : (⟨S400000, .i32⟩ : BufTy).Contents (Elt F) → (⟨S400000x1, .i32⟩ : BufTy).Contents (Elt F)),
    ternary main_v511 main_v512 main_v510 main_v513 ((fun x i u => Host.scatterAdd scatter_S30000x128_S400000x1_S400000x128_1_0_0_1 x i u) : (⟨S30000x128, .f32⟩ : BufTy).Contents (Elt F) → (⟨S400000x1, .i32⟩ : BufTy).Contents (Elt F) → (⟨S400000x128, .f32⟩ : BufTy).Contents (Elt F) → (⟨S30000x128, .f32⟩ : BufTy).Contents (Elt F)),
    nullary main_cst_103 (constant S_ .f32 0x3F800000#32),
    unary main_cst_103 main_v514 (broadcastInDim S400000x1 ![] bcast_S_S400000x1 : (⟨S_, .f32⟩ : BufTy).Contents (Elt F) → (⟨S400000x1, .f32⟩ : BufTy).Contents (Elt F)),
    nullary main_cst_104 (constant S_ .f32 0x00000000#32),
    unary main_cst_104 main_v515 (broadcastInDim S30000x1 ![] bcast_S_S30000x1 : (⟨S_, .f32⟩ : BufTy).Contents (Elt F) → (⟨S30000x1, .f32⟩ : BufTy).Contents (Elt F)),
    unary main_arg12 main_v516 (broadcastInDim S400000x1 ![0] bcast_S400000_S400000x1_0 : (⟨S400000, .i32⟩ : BufTy).Contents (Elt F) → (⟨S400000x1, .i32⟩ : BufTy).Contents (Elt F)),
    ternary main_v515 main_v516 main_v514 main_v517 ((fun x i u => Host.scatterAdd scatter_S30000x1_S400000x1_S400000x1_1_0_0_1 x i u) : (⟨S30000x1, .f32⟩ : BufTy).Contents (Elt F) → (⟨S400000x1, .i32⟩ : BufTy).Contents (Elt F) → (⟨S400000x1, .f32⟩ : BufTy).Contents (Elt F) → (⟨S30000x1, .f32⟩ : BufTy).Contents (Elt F)),
    nullary main_cst_105 (constant S_ .f32 0x3F800000#32),
    unary main_cst_105 main_v518 (broadcastInDim S30000x1 ![] bcast_S_S30000x1 : (⟨S_, .f32⟩ : BufTy).Contents (Elt F) → (⟨S30000x1, .f32⟩ : BufTy).Contents (Elt F)),
    binary main_v517 main_v518 main_v519 (maximumf : (⟨S30000x1, .f32⟩ : BufTy).Contents (Elt F) → (⟨S30000x1, .f32⟩ : BufTy).Contents (Elt F) → (⟨S30000x1, .f32⟩ : BufTy).Contents (Elt F)),
    unary main_v519 main_v520 (broadcastInDim S30000x128 ![0, 1] bcast_S30000x1_S30000x128_0_1 : (⟨S30000x1, .f32⟩ : BufTy).Contents (Elt F) → (⟨S30000x128, .f32⟩ : BufTy).Contents (Elt F)),
    binary main_v513 main_v520 main_v521 (Host.divf : (⟨S30000x128, .f32⟩ : BufTy).Contents (Elt F) → (⟨S30000x128, .f32⟩ : BufTy).Contents (Elt F) → (⟨S30000x128, .f32⟩ : BufTy).Contents (Elt F)),
    unary main_arg15 main_v522 ((extractStridedSlice S1x1x128x128 ![2, 4, 0, 0] · slices_S4x6x128x128_S1x1x128x128_2_4_0_0) : (⟨S4x6x128x128, .f32⟩ : BufTy).Contents (Elt F) → (⟨S1x1x128x128, .f32⟩ : BufTy).Contents (Elt F)),
    reshape main_v522 main_v523 rfl shapeCasts_S1x1x128x128_S128x128,
    binary main_v521 main_v523 main_v524 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v525 ((extractStridedSlice S1x1x128x128 ![2, 4, 0, 0] · slices_S4x6x128x128_S1x1x128x128_2_4_0_0) : (⟨S4x6x128x128, .f32⟩ : BufTy).Contents (Elt F) → (⟨S1x1x128x128, .f32⟩ : BufTy).Contents (Elt F)),
    reshape main_v525 main_v526 rfl shapeCasts_S1x1x128x128_S128x128,
    binary main_v382 main_v526 main_v527 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v524 main_v527 main_v528 (addf : (⟨S30000x128, .f32⟩ : BufTy).Contents (Elt F) → (⟨S30000x128, .f32⟩ : BufTy).Contents (Elt F) → (⟨S30000x128, .f32⟩ : BufTy).Contents (Elt F)),
    unary main_arg17 main_v529 ((extractStridedSlice S1x1x128 ![2, 4, 0] · slices_S4x6x128_S1x1x128_2_4_0) : (⟨S4x6x128, .f32⟩ : BufTy).Contents (Elt F) → (⟨S1x1x128, .f32⟩ : BufTy).Contents (Elt F)),
    reshape main_v529 main_v530 rfl shapeCasts_S1x1x128_S128,
    unary main_v530 main_v531 (broadcastInDim S1x128 ![1] bcast_S128_S1x128_1 : (⟨S128, .f32⟩ : BufTy).Contents (Elt F) → (⟨S1x128, .f32⟩ : BufTy).Contents (Elt F)),
    unary main_v531 main_v532 (broadcastInDim S30000x128 ![0, 1] bcast_S1x128_S30000x128_0_1 : (⟨S1x128, .f32⟩ : BufTy).Contents (Elt F) → (⟨S30000x128, .f32⟩ : BufTy).Contents (Elt F)),
    binary main_v528 main_v532 main_v533 (addf : (⟨S30000x128, .f32⟩ : BufTy).Contents (Elt F) → (⟨S30000x128, .f32⟩ : BufTy).Contents (Elt F) → (⟨S30000x128, .f32⟩ : BufTy).Contents (Elt F)),
    nullary main_c_106 (constantI S_ 32 0#32),
    unary main_c_106 main_v534 (broadcastInDim S800000 ![] bcast_S_S800000 : (⟨S_, .i32⟩ : BufTy).Contents (Elt F) → (⟨S800000, .i32⟩ : BufTy).Contents (Elt F)),
    binary main_arg13 main_v534 main_v535 (cmpi .slt : (⟨S800000, .i32⟩ : BufTy).Contents (Elt F) → (⟨S800000, .i32⟩ : BufTy).Contents (Elt F) → (⟨S800000, .i1⟩ : BufTy).Contents (Elt F)),
    nullary main_c_107 (constantI S_ 32 10000#32),
    unary main_c_107 main_v536 (broadcastInDim S800000 ![] bcast_S_S800000 : (⟨S_, .i32⟩ : BufTy).Contents (Elt F) → (⟨S800000, .i32⟩ : BufTy).Contents (Elt F)),
    binary main_arg13 main_v536 main_v537 (addi : (⟨S800000, .i32⟩ : BufTy).Contents (Elt F) → (⟨S800000, .i32⟩ : BufTy).Contents (Elt F) → (⟨S800000, .i32⟩ : BufTy).Contents (Elt F)),
    ternary main_v535 main_v537 main_arg13 main_v538 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v538 main_v539 (broadcastInDim S800000x1 ![0] bcast_S800000_S800000x1_0 : (⟨S800000, .i32⟩ : BufTy).Contents (Elt F) → (⟨S800000x1, .i32⟩ : BufTy).Contents (Elt F)),
    binary main_v383 main_v539 main_v540 ((fun x i => Host.gather gather_S10000x128_S800000x1_S800000x128_1_0_n_n_0_1_1128 x i) : (⟨S10000x128, .f32⟩ : BufTy).Contents (Elt F) → (⟨S800000x1, .i32⟩ : BufTy).Contents (Elt F) → (⟨S800000x128, .f32⟩ : BufTy).Contents (Elt F)),
    nullary main_cst_108 (constant S_ .f32 0x00000000#32),
    unary main_cst_108 main_v541 (broadcastInDim S50000x128 ![] bcast_S_S50000x128 : (⟨S_, .f32⟩ : BufTy).Contents (Elt F) → (⟨S50000x128, .f32⟩ : BufTy).Contents (Elt F)),
    unary main_arg14 main_v542 (broadcastInDim S800000x1 ![0] bcast_S800000_S800000x1_0 : (⟨S800000, .i32⟩ : BufTy).Contents (Elt F) → (⟨S800000x1, .i32⟩ : BufTy).Contents (Elt F)),
    ternary main_v541 main_v542 main_v540 main_v543 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_109 (constant S_ .f32 0x3F800000#32),
    unary main_cst_109 main_v544 (broadcastInDim S800000x1 ![] bcast_S_S800000x1 : (⟨S_, .f32⟩ : BufTy).Contents (Elt F) → (⟨S800000x1, .f32⟩ : BufTy).Contents (Elt F)),
    nullary main_cst_110 (constant S_ .f32 0x00000000#32),
    unary main_cst_110 main_v545 (broadcastInDim S50000x1 ![] bcast_S_S50000x1 : (⟨S_, .f32⟩ : BufTy).Contents (Elt F) → (⟨S50000x1, .f32⟩ : BufTy).Contents (Elt F)),
    unary main_arg14 main_v546 (broadcastInDim S800000x1 ![0] bcast_S800000_S800000x1_0 : (⟨S800000, .i32⟩ : BufTy).Contents (Elt F) → (⟨S800000x1, .i32⟩ : BufTy).Contents (Elt F)),
    ternary main_v545 main_v546 main_v544 main_v547 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_111 (constant S_ .f32 0x3F800000#32),
    unary main_cst_111 main_v548 (broadcastInDim S50000x1 ![] bcast_S_S50000x1 : (⟨S_, .f32⟩ : BufTy).Contents (Elt F) → (⟨S50000x1, .f32⟩ : BufTy).Contents (Elt F)),
    binary main_v547 main_v548 main_v549 (maximumf : (⟨S50000x1, .f32⟩ : BufTy).Contents (Elt F) → (⟨S50000x1, .f32⟩ : BufTy).Contents (Elt F) → (⟨S50000x1, .f32⟩ : BufTy).Contents (Elt F)),
    unary main_v549 main_v550 (broadcastInDim S50000x128 ![0, 1] bcast_S50000x1_S50000x128_0_1 : (⟨S50000x1, .f32⟩ : BufTy).Contents (Elt F) → (⟨S50000x128, .f32⟩ : BufTy).Contents (Elt F)),
    binary main_v543 main_v550 main_v551 (Host.divf : (⟨S50000x128, .f32⟩ : BufTy).Contents (Elt F) → (⟨S50000x128, .f32⟩ : BufTy).Contents (Elt F) → (⟨S50000x128, .f32⟩ : BufTy).Contents (Elt F)),
    unary main_arg15 main_v552 ((extractStridedSlice S1x1x128x128 ![2, 5, 0, 0] · slices_S4x6x128x128_S1x1x128x128_2_5_0_0) : (⟨S4x6x128x128, .f32⟩ : BufTy).Contents (Elt F) → (⟨S1x1x128x128, .f32⟩ : BufTy).Contents (Elt F)),
    reshape main_v552 main_v553 rfl shapeCasts_S1x1x128x128_S128x128,
    binary main_v551 main_v553 main_v554 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v555 ((extractStridedSlice S1x1x128x128 ![2, 5, 0, 0] · slices_S4x6x128x128_S1x1x128x128_2_5_0_0) : (⟨S4x6x128x128, .f32⟩ : BufTy).Contents (Elt F) → (⟨S1x1x128x128, .f32⟩ : BufTy).Contents (Elt F)),
    reshape main_v555 main_v556 rfl shapeCasts_S1x1x128x128_S128x128,
    binary main_v381 main_v556 main_v557 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v554 main_v557 main_v558 (addf : (⟨S50000x128, .f32⟩ : BufTy).Contents (Elt F) → (⟨S50000x128, .f32⟩ : BufTy).Contents (Elt F) → (⟨S50000x128, .f32⟩ : BufTy).Contents (Elt F)),
    unary main_arg17 main_v559 ((extractStridedSlice S1x1x128 ![2, 5, 0] · slices_S4x6x128_S1x1x128_2_5_0) : (⟨S4x6x128, .f32⟩ : BufTy).Contents (Elt F) → (⟨S1x1x128, .f32⟩ : BufTy).Contents (Elt F)),
    reshape main_v559 main_v560 rfl shapeCasts_S1x1x128_S128,
    unary main_v560 main_v561 (broadcastInDim S1x128 ![1] bcast_S128_S1x128_1 : (⟨S128, .f32⟩ : BufTy).Contents (Elt F) → (⟨S1x128, .f32⟩ : BufTy).Contents (Elt F)),
    unary main_v561 main_v562 (broadcastInDim S50000x128 ![0, 1] bcast_S1x128_S50000x128_0_1 : (⟨S1x128, .f32⟩ : BufTy).Contents (Elt F) → (⟨S50000x128, .f32⟩ : BufTy).Contents (Elt F)),
    binary main_v558 main_v562 main_v563 (addf : (⟨S50000x128, .f32⟩ : BufTy).Contents (Elt F) → (⟨S50000x128, .f32⟩ : BufTy).Contents (Elt F) → (⟨S50000x128, .f32⟩ : BufTy).Contents (Elt F)),
    binary main_v503 main_v563 main_v564 (addf : (⟨S50000x128, .f32⟩ : BufTy).Contents (Elt F) → (⟨S50000x128, .f32⟩ : BufTy).Contents (Elt F) → (⟨S50000x128, .f32⟩ : BufTy).Contents (Elt F)),
    nullary main_cst_112 (constant S_ .f32 0x3F000000#32),
    unary main_cst_112 main_v565 (broadcastInDim S50000x128 ![] bcast_S_S50000x128 : (⟨S_, .f32⟩ : BufTy).Contents (Elt F) → (⟨S50000x128, .f32⟩ : BufTy).Contents (Elt F)),
    binary main_v564 main_v565 main_v566 (mulf : (⟨S50000x128, .f32⟩ : BufTy).Contents (Elt F) → (⟨S50000x128, .f32⟩ : BufTy).Contents (Elt F) → (⟨S50000x128, .f32⟩ : BufTy).Contents (Elt F)),
    binary main_v413 main_v533 main_v567 (addf : (⟨S30000x128, .f32⟩ : BufTy).Contents (Elt F) → (⟨S30000x128, .f32⟩ : BufTy).Contents (Elt F) → (⟨S30000x128, .f32⟩ : BufTy).Contents (Elt F)),
    nullary main_cst_113 (constant S_ .f32 0x3F000000#32),
    unary main_cst_113 main_v568 (broadcastInDim S30000x128 ![] bcast_S_S30000x128 : (⟨S_, .f32⟩ : BufTy).Contents (Elt F) → (⟨S30000x128, .f32⟩ : BufTy).Contents (Elt F)),
    binary main_v567 main_v568 main_v569 (mulf : (⟨S30000x128, .f32⟩ : BufTy).Contents (Elt F) → (⟨S30000x128, .f32⟩ : BufTy).Contents (Elt F) → (⟨S30000x128, .f32⟩ : BufTy).Contents (Elt F)),
    binary main_v443 main_v473 main_v570 (addf : (⟨S10000x128, .f32⟩ : BufTy).Contents (Elt F) → (⟨S10000x128, .f32⟩ : BufTy).Contents (Elt F) → (⟨S10000x128, .f32⟩ : BufTy).Contents (Elt F)),
    nullary main_cst_114 (constant S_ .f32 0x3F000000#32),
    unary main_cst_114 main_v571 (broadcastInDim S10000x128 ![] bcast_S_S10000x128 : (⟨S_, .f32⟩ : BufTy).Contents (Elt F) → (⟨S10000x128, .f32⟩ : BufTy).Contents (Elt F)),
    binary main_v570 main_v571 main_v572 (mulf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v566) (TRef.of (T := ⟨S50000x128, .f32⟩) main_call6_v0) (TRef.of (T := ⟨S50000x128, .f32⟩) main_v573) maximumf,
    TRef.nullary (TRef.of (T := ⟨S_, .f32⟩) main_call7_cst) (constant S_ .f32 0x00000000#32),
    TRef.unary (TRef.of (T := ⟨S_, .f32⟩) main_call7_cst) (TRef.of (T := ⟨S30000x128, .f32⟩) main_call7_v0) (broadcastInDim S30000x128 ![] bcast_S_S30000x128),
    TRef.binary (TRef.of (T := ⟨S30000x128, .f32⟩) main_v569) (TRef.of (T := ⟨S30000x128, .f32⟩) main_call7_v0) (TRef.of (T := ⟨S30000x128, .f32⟩) main_v574) maximumf,
    TRef.nullary (TRef.of (T := ⟨S_, .f32⟩) main_call8_cst) (constant S_ .f32 0x00000000#32),
    TRef.unary (TRef.of (T := ⟨S_, .f32⟩) main_call8_cst) (TRef.of (T := ⟨S10000x128, .f32⟩) main_call8_v0) (broadcastInDim S10000x128 ![] bcast_S_S10000x128),
    TRef.binary (TRef.of (T := ⟨S10000x128, .f32⟩) main_v572) (TRef.of (T := ⟨S10000x128, .f32⟩) main_call8_v0) (TRef.of (T := ⟨S10000x128, .f32⟩) main_v575) maximumf ]

set_option maxRecDepth 8192 in
/-- Every buffer the chunk's operations touch is a TensorCore reference. -/
theorem R2_sub : (R2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   binary_bufs_sub .., nullary_bufs_sub .., unary_bufs_sub .., binary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub .., nullary_bufs_sub ..,
   unary_bufs_sub .., binary_bufs_sub .., nullary_bufs_sub .., unary_bufs_sub .., binary_bufs_sub ..⟩

set_option maxRecDepth 8192 in
/-- Every operation of the chunk determines its results. -/
theorem R2_fresh : (R2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

set_option maxRecDepth 8192 in
/-- Every operation of the chunk writes a buffer past the arguments. -/
theorem R2_writes : (R2 : List (HloOp τ sig (Elt F))).Forall fun op => ∀ z ∈ op.writes, NotArg z :=
  ⟨nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   binary_notArg (by decide), nullary_notArg (by decide), unary_notArg (by decide), binary_notArg (by decide), binary_notArg (by decide), nullary_notArg (by decide),
   unary_notArg (by decide), binary_notArg (by decide), binary_notArg (by decide), nullary_notArg (by decide), unary_notArg (by decide), binary_notArg (by decide),
   nullary_notArg (by decide), unary_notArg (by decide), binary_notArg (by decide), nullary_notArg (by decide), unary_notArg (by decide), binary_notArg (by decide),
   nullary_notArg (by decide), unary_notArg (by decide), binary_notArg (by decide)⟩

end Cert.ReferenceIdeal.RefOps

end
-- ==== Proof.RefOps3.lean ====
import proofs.«141482_j13434657702128_1_alg».proof.Proof.RefLemmas

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The last layer, with the three row normalisations: operations 711 to 968 of the reference's 969, in order. -/
abbrev R3 : List (HloOp τ sig (Elt F)) :=
  [ nullary main_c_115 (constantI S_ 32 0#32),
    unary main_c_115 main_v576 (broadcastInDim S800000 ![] bcast_S_S800000 : (⟨S_, .i32⟩ : BufTy).Contents (Elt F) → (⟨S800000, .i32⟩ : BufTy).Contents (Elt F)),
    binary main_arg3 main_v576 main_v577 (cmpi .slt : (⟨S800000, .i32⟩ : BufTy).Contents (Elt F) → (⟨S800000, .i32⟩ : BufTy).Contents (Elt F) → (⟨S800000, .i1⟩ : BufTy).Contents (Elt F)),
    nullary main_c_116 (constantI S_ 32 50000#32),
    unary main_c_116 main_v578 (broadcastInDim S800000 ![] bcast_S_S800000 : (⟨S_, .i32⟩ : BufTy).Contents (Elt F) → (⟨S800000, .i32⟩ : BufTy).Contents (Elt F)),
    binary main_arg3 main_v578 main_v579 (addi : (⟨S800000, .i32⟩ : BufTy).Contents (Elt F) → (⟨S800000, .i32⟩ : BufTy).Contents (Elt F) → (⟨S800000, .i32⟩ : BufTy).Contents (Elt F)),
    ternary main_v577 main_v579 main_arg3 main_v580 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v580 main_v581 (broadcastInDim S800000x1 ![0] bcast_S800000_S800000x1_0 : (⟨S800000, .i32⟩ : BufTy).Contents (Elt F) → (⟨S800000x1, .i32⟩ : BufTy).Contents (Elt F)),
    binary main_v573 main_v581 main_v582 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_117 (constant S_ .f32 0x00000000#32),
    unary main_cst_117 main_v583 (broadcastInDim S30000x128 ![] bcast_S_S30000x128 : (⟨S_, .f32⟩ : BufTy).Contents (Elt F) → (⟨S30000x128, .f32⟩ : BufTy).Contents (Elt F)),
    unary main_arg4 main_v584 (broadcastInDim S800000x1 ![0] bcast_S800000_S800000x1_0 : (⟨S800000, .i32⟩ : BufTy).Contents (Elt F) → (⟨S800000x1, .i32⟩ : BufTy).Contents (Elt F)),
    ternary main_v583 main_v584 main_v582 main_v585 ((fun x i u => Host.scatterAdd scatter_S30000x128_S800000x1_S800000x128_1_0_0_1 x i u) : (⟨S30000x128, .f32⟩ : BufTy).Contents (Elt F) → (⟨S800000x1, .i32⟩ : BufTy).Contents (Elt F) → (⟨S800000x128, .f32⟩ : BufTy).Contents (Elt F) → (⟨S30000x128, .f32⟩ : BufTy).Contents (Elt F)),
    nullary main_cst_118 (constant S_ .f32 0x3F800000#32),
    unary main_cst_118 main_v586 (broadcastInDim S800000x1 ![] bcast_S_S800000x1 : (⟨S_, .f32⟩ : BufTy).Contents (Elt F) → (⟨S800000x1, .f32⟩ : BufTy).Contents (Elt F)),
    nullary main_cst_119 (constant S_ .f32 0x00000000#32),
    unary main_cst_119 main_v587 (broadcastInDim S30000x1 ![] bcast_S_S30000x1 : (⟨S_, .f32⟩ : BufTy).Contents (Elt F) → (⟨S30000x1, .f32⟩ : BufTy).Contents (Elt F)),
    unary main_arg4 main_v588 (broadcastInDim S800000x1 ![0] bcast_S800000_S800000x1_0 : (⟨S800000, .i32⟩ : BufTy).Contents (Elt F) → (⟨S800000x1, .i32⟩ : BufTy).Contents (Elt F)),
    ternary main_v587 main_v588 main_v586 main_v589 ((fun x i u => Host.scatterAdd scatter_S30000x1_S800000x1_S800000x1_1_0_0_1 x i u) : (⟨S30000x1, .f32⟩ : BufTy).Contents (Elt F) → (⟨S800000x1, .i32⟩ : BufTy).Contents (Elt F) → (⟨S800000x1, .f32⟩ : BufTy).Contents (Elt F) → (⟨S30000x1, .f32⟩ : BufTy).Contents (Elt F)),
    nullary main_cst_120 (constant S_ .f32 0x3F800000#32),
    unary main_cst_120 main_v590 (broadcastInDim S30000x1 ![] bcast_S_S30000x1 : (⟨S_, .f32⟩ : BufTy).Contents (Elt F) → (⟨S30000x1, .f32⟩ : BufTy).Contents (Elt F)),
    binary main_v589 main_v590 main_v591 (maximumf : (⟨S30000x1, .f32⟩ : BufTy).Contents (Elt F) → (⟨S30000x1, .f32⟩ : BufTy).Contents (Elt F) → (⟨S30000x1, .f32⟩ : BufTy).Contents (Elt F)),
    unary main_v591 main_v592 (broadcastInDim S30000x128 ![0, 1] bcast_S30000x1_S30000x128_0_1 : (⟨S30000x1, .f32⟩ : BufTy).Contents (Elt F) → (⟨S30000x128, .f32⟩ : BufTy).Contents (Elt F)),
    binary main_v585 main_v592 main_v593 (Host.divf : (⟨S30000x128, .f32⟩ : BufTy).Contents (Elt F) → (⟨S30000x128, .f32⟩ : BufTy).Contents (Elt F) → (⟨S30000x128, .f32⟩ : BufTy).Contents (Elt F)),
    unary main_arg15 main_v594 ((extractStridedSlice S1x1x128x128 ![3, 0, 0, 0] · slices_S4x6x128x128_S1x1x128x128_3_0_0_0) : (⟨S4x6x128x128, .f32⟩ : BufTy).Contents (Elt F) → (⟨S1x1x128x128, .f32⟩ : BufTy).Contents (Elt F)),
    reshape main_v594 main_v595 rfl shapeCasts_S1x1x128x128_S128x128,
    binary main_v593 main_v595 main_v596 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v597 ((extractStridedSlice S1x1x128x128 ![3, 0, 0, 0] · slices_S4x6x128x128_S1x1x128x128_3_0_0_0) : (⟨S4x6x128x128, .f32⟩ : BufTy).Contents (Elt F) → (⟨S1x1x128x128, .f32⟩ : BufTy).Contents (Elt F)),
    reshape main_v597 main_v598 rfl shapeCasts_S1x1x128x128_S128x128,
    binary main_v574 main_v598 main_v599 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v596 main_v599 main_v600 (addf : (⟨S30000x128, .f32⟩ : BufTy).Contents (Elt F) → (⟨S30000x128, .f32⟩ : BufTy).Contents (Elt F) → (⟨S30000x128, .f32⟩ : BufTy).Contents (Elt F)),
    unary main_arg17 main_v601 ((extractStridedSlice S1x1x128 ![3, 0, 0] · slices_S4x6x128_S1x1x128_3_0_0) : (⟨S4x6x128, .f32⟩ : BufTy).Contents (Elt F) → (⟨S1x1x128, .f32⟩ : BufTy).Contents (Elt F)),
    reshape main_v601 main_v602 rfl shapeCasts_S1x1x128_S128,
    unary main_v602 main_v603 (broadcastInDim S1x128 ![1] bcast_S128_S1x128_1 : (⟨S128, .f32⟩ : BufTy).Contents (Elt F) → (⟨S1x128, .f32⟩ : BufTy).Contents (Elt F)),
    unary main_v603 main_v604 (broadcastInDim S30000x128 ![0, 1] bcast_S1x128_S30000x128_0_1 : (⟨S1x128, .f32⟩ : BufTy).Contents (Elt F) → (⟨S30000x128, .f32⟩ : BufTy).Contents (Elt F)),
    binary main_v600 main_v604 main_v605 (addf : (⟨S30000x128, .f32⟩ : BufTy).Contents (Elt F) → (⟨S30000x128, .f32⟩ : BufTy).Contents (Elt F) → (⟨S30000x128, .f32⟩ : BufTy).Contents (Elt F)),
    nullary main_c_121 (constantI S_ 32 0#32),
    unary main_c_121 main_v606 (broadcastInDim S400000 ![] bcast_S_S400000 : (⟨S_, .i32⟩ : BufTy).Contents (Elt F) → (⟨S400000, .i32⟩ : BufTy).Contents (Elt F)),
    binary main_arg5 main_v606 main_v607 (cmpi .slt : (⟨S400000, .i32⟩ : BufTy).Contents (Elt F) → (⟨S400000, .i32⟩ : BufTy).Contents (Elt F) → (⟨S400000, .i1⟩ : BufTy).Contents (Elt F)),
    nullary main_c_122 (constantI S_ 32 30000#32),
    unary main_c_122 main_v608 (broadcastInDim S400000 ![] bcast_S_S400000 : (⟨S_, .i32⟩ : BufTy).Contents (Elt F) → (⟨S400000, .i32⟩ : BufTy).Contents (Elt F)),
    binary main_arg5 main_v608 main_v609 (addi : (⟨S400000, .i32⟩ : BufTy).Contents (Elt F) → (⟨S400000, .i32⟩ : BufTy).Contents (Elt F) → (⟨S400000, .i32⟩ : BufTy).Contents (Elt F)),
    ternary main_v607 main_v609 main_arg5 main_v610 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v610 main_v611 (broadcastInDim S400000x1 ![0] bcast_S400000_S400000x1_0 : (⟨S400000, .i32⟩ : BufTy).Contents (Elt F) → (⟨S400000x1, .i32⟩ : BufTy).Contents (Elt F)),
    binary main_v574 main_v611 main_v612 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    nullary main_cst_123 (constant S_ .f32 0x00000000#32),
    unary main_cst_123 main_v613 (broadcastInDim S10000x128 ![] bcast_S_S10000x128 : (⟨S_, .f32⟩ : BufTy).Contents (Elt F) → (⟨S10000x128, .f32⟩ : BufTy).Contents (Elt F)),
    unary main_arg6 main_v614 (broadcastInDim S400000x1 ![0] bcast_S400000_S400000x1_0 : (⟨S400000, .i32⟩ : BufTy).Contents (Elt F) → (⟨S400000x1, .i32⟩ : BufTy).Contents (Elt F)),
    ternary main_v613 main_v614 main_v612 main_v615 ((fun x i u => Host.scatterAdd scatter_S10000x128_S400000x1_S400000x128_1_0_0_1 x i u) : (⟨S10000x128, .f32⟩ : BufTy).Contents (Elt F) → (⟨S400000x1, .i32⟩ : BufTy).Contents (Elt F) → (⟨S400000x128, .f32⟩ : BufTy).Contents (Elt F) → (⟨S10000x128, .f32⟩ : BufTy).Contents (Elt F)),
    nullary main_cst_124 (constant S_ .f32 0x3F800000#32),
    unary main_cst_124 main_v616 (broadcastInDim S400000x1 ![] bcast_S_S400000x1 : (⟨S_, .f32⟩ : BufTy).Contents (Elt F) → (⟨S400000x1, .f32⟩ : BufTy).Contents (Elt F)),
    nullary main_cst_125 (constant S_ .f32 0x00000000#32),
    unary main_cst_125 main_v617 (broadcastInDim S10000x1 ![] bcast_S_S10000x1 : (⟨S_, .f32⟩ : BufTy).Contents (Elt F) → (⟨S10000x1, .f32⟩ : BufTy).Contents (Elt F)),
    unary main_arg6 main_v618 (broadcastInDim S400000x1 ![0] bcast_S400000_S400000x1_0 : (⟨S400000, .i32⟩ : BufTy).Contents (Elt F) → (⟨S400000x1, .i32⟩ : BufTy).Contents (Elt F)),
    ternary main_v617 main_v618 main_v616 main_v619 ((fun x i u => Host.scatterAdd scatter_S10000x1_S400000x1_S400000x1_1_0_0_1 x i u) : (⟨S10000x1, .f32⟩ : BufTy).Contents (Elt F) → (⟨S400000x1, .i32⟩ : BufTy).Contents (Elt F) → (⟨S400000x1, .f32⟩ : BufTy).Contents (Elt F) → (⟨S10000x1, .f32⟩ : BufTy).Contents (Elt F)),
    nullary main_cst_126 (constant S_ .f32 0x3F800000#32),
    unary main_cst_126 main_v620 (broadcastInDim S10000x1 ![] bcast_S_S10000x1 : (⟨S_, .f32⟩ : BufTy).Contents (Elt F) → (⟨S10000x1, .f32⟩ : BufTy).Contents (Elt F)),
    binary main_v619 main_v620 main_v621 (maximumf : (⟨S10000x1, .f32⟩ : BufTy).Contents (Elt F) → (⟨S10000x1, .f32⟩ : BufTy).Contents (Elt F) → (⟨S10000x1, .f32⟩ : BufTy).Contents (Elt F)),
    unary main_v621 main_v622 (broadcastInDim S10000x128 ![0, 1] bcast_S10000x1_S10000x128_0_1 : (⟨S10000x1, .f32⟩ : BufTy).Contents (Elt F) → (⟨S10000x128, .f32⟩ : BufTy).Contents (Elt F)),
    binary main_v615 main_v622 main_v623 (Host.divf : (⟨S10000x128, .f32⟩ : BufTy).Contents (Elt F) → (⟨S10000x128, .f32⟩ : BufTy).Contents (Elt F) → (⟨S10000x128, .f32⟩ : BufTy).Contents (Elt F)),
    unary main_arg15 main_v624 ((extractStridedSlice S1x1x128x128 ![3, 1, 0, 0] · slices_S4x6x128x128_S1x1x128x128_3_1_0_0) : (⟨S4x6x128x128, .f32⟩ : BufTy).Contents (Elt F) → (⟨S1x1x128x128, .f32⟩ : BufTy).Contents (Elt F)),
    reshape main_v624 main_v625 rfl shapeCasts_S1x1x128x128_S128x128,
    binary main_v623 main_v625 main_v626 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v627 ((extractStridedSlice S1x1x128x128 ![3, 1, 0, 0] · slices_S4x6x128x128_S1x1x128x128_3_1_0_0) : (⟨S4x6x128x128, .f32⟩ : BufTy).Contents (Elt F) → (⟨S1x1x128x128, .f32⟩ : BufTy).Contents (Elt F)),
    reshape main_v627 main_v628 rfl shapeCasts_S1x1x128x128_S128x128,
    binary main_v575 main_v628 main_v629 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v626 main_v629 main_v630 (addf : (⟨S10000x128, .f32⟩ : BufTy).Contents (Elt F) → (⟨S10000x128, .f32⟩ : BufTy).Contents (Elt F) → (⟨S10000x128, .f32⟩ : BufTy).Contents (Elt F)),
    unary main_arg17 main_v631 ((extractStridedSlice S1x1x128 ![3, 1, 0] · slices_S4x6x128_S1x1x128_3_1_0) : (⟨S4x6x128, .f32⟩ : BufTy).Contents (Elt F) → (⟨S1x1x128, .f32⟩ : BufTy).Contents (Elt F)),
    reshape main_v631 main_v632 rfl shapeCasts_S1x1x128_S128,
    unary main_v632 main_v633 (broadcastInDim S1x128 ![1] bcast_S128_S1x128_1 : (⟨S128, .f32⟩ : BufTy).Contents (Elt F) → (⟨S1x128, .f32⟩ : BufTy).Contents (Elt F)),
    unary main_v633 main_v634 (broadcastInDim S10000x128 ![0, 1] bcast_S1x128_S10000x128_0_1 : (⟨S1x128, .f32⟩ : BufTy).Contents (Elt F) → (⟨S10000x128, .f32⟩ : BufTy).Contents (Elt F)),
    binary main_v630 main_v634 main_v635 (addf : (⟨S10000x128, .f32⟩ : BufTy).Contents (Elt F) → (⟨S10000x128, .f32⟩ : BufTy).Contents (Elt F) → (⟨S10000x128, .f32⟩ : BufTy).Contents (Elt F)),
    nullary main_c_127 (constantI S_ 32 0#32),
    unary main_c_127 main_v636 (broadcastInDim S800000 ![] bcast_S_S800000 : (⟨S_, .i32⟩ : BufTy).Contents (Elt F) → (⟨S800000, .i32⟩ : BufTy).Contents (Elt F)),
    binary main_arg7 main_v636 main_v637 (cmpi .slt : (⟨S800000, .i32⟩ : BufTy).Contents (Elt F) → (⟨S800000, .i32⟩ : BufTy).Contents (Elt F) → (⟨S800000, .i1⟩ : BufTy).Contents (Elt F)),
    nullary main_c_128 (constantI S_ 32 50000#32),
    unary main_c_128 main_v638 (broadcastInDim S800000 ![] bcast_S_S800000 : (⟨S_, .i32⟩ : BufTy).Contents (Elt F) → (⟨S800000, .i32⟩ : BufTy).Contents (Elt F)),
    binary main_arg7 main_v638 main_v639 (addi : (⟨S800000, .i32⟩ : BufTy).Contents (Elt F) → (⟨S800000, .i32⟩ : BufTy).Contents (Elt F) → (⟨S800000, .i32⟩ : BufTy).Contents (Elt F)),
    ternary main_v637 main_v639 main_arg7 main_v640 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v640 main_v641 (broadcastInDim S800000x1 ![0] bcast_S800000_S800000x1_0 : (⟨S800000, .i32⟩ : BufTy).Contents (Elt F) → (⟨S800000x1, .i32⟩ : BufTy).Contents (Elt F)),
    binary main_v573 main_v641 main_v642 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_129 (constant S_ .f32 0x00000000#32),
    unary main_cst_129 main_v643 (broadcastInDim S10000x128 ![] bcast_S_S10000x128 : (⟨S_, .f32⟩ : BufTy).Contents (Elt F) → (⟨S10000x128, .f32⟩ : BufTy).Contents (Elt F)),
    unary main_arg8 main_v644 (broadcastInDim S800000x1 ![0] bcast_S800000_S800000x1_0 : (⟨S800000, .i32⟩ : BufTy).Contents (Elt F) → (⟨S800000x1, .i32⟩ : BufTy).Contents (Elt F)),
    ternary main_v643 main_v644 main_v642 main_v645 ((fun x i u => Host.scatterAdd scatter_S10000x128_S800000x1_S800000x128_1_0_0_1 x i u) : (⟨S10000x128, .f32⟩ : BufTy).Contents (Elt F) → (⟨S800000x1, .i32⟩ : BufTy).Contents (Elt F) → (⟨S800000x128, .f32⟩ : BufTy).Contents (Elt F) → (⟨S10000x128, .f32⟩ : BufTy).Contents (Elt F)),
    nullary main_cst_130 (constant S_ .f32 0x3F800000#32),
    unary main_cst_130 main_v646 (broadcastInDim S800000x1 ![] bcast_S_S800000x1 : (⟨S_, .f32⟩ : BufTy).Contents (Elt F) → (⟨S800000x1, .f32⟩ : BufTy).Contents (Elt F)),
    nullary main_cst_131 (constant S_ .f32 0x00000000#32),
    unary main_cst_131 main_v647 (broadcastInDim S10000x1 ![] bcast_S_S10000x1 : (⟨S_, .f32⟩ : BufTy).Contents (Elt F) → (⟨S10000x1, .f32⟩ : BufTy).Contents (Elt F)),
    unary main_arg8 main_v648 (broadcastInDim S800000x1 ![0] bcast_S800000_S800000x1_0 : (⟨S800000, .i32⟩ : BufTy).Contents (Elt F) → (⟨S800000x1, .i32⟩ : BufTy).Contents (Elt F)),
    ternary main_v647 main_v648 main_v646 main_v649 ((fun x i u => Host.scatterAdd scatter_S10000x1_S800000x1_S800000x1_1_0_0_1 x i u) : (⟨S10000x1, .f32⟩ : BufTy).Contents (Elt F) → (⟨S800000x1, .i32⟩ : BufTy).Contents (Elt F) → (⟨S800000x1, .f32⟩ : BufTy).Contents (Elt F) → (⟨S10000x1, .f32⟩ : BufTy).Contents (Elt F)),
    nullary main_cst_132 (constant S_ .f32 0x3F800000#32),
    unary main_cst_132 main_v650 (broadcastInDim S10000x1 ![] bcast_S_S10000x1 : (⟨S_, .f32⟩ : BufTy).Contents (Elt F) → (⟨S10000x1, .f32⟩ : BufTy).Contents (Elt F)),
    binary main_v649 main_v650 main_v651 (maximumf : (⟨S10000x1, .f32⟩ : BufTy).Contents (Elt F) → (⟨S10000x1, .f32⟩ : BufTy).Contents (Elt F) → (⟨S10000x1, .f32⟩ : BufTy).Contents (Elt F)),
    unary main_v651 main_v652 (broadcastInDim S10000x128 ![0, 1] bcast_S10000x1_S10000x128_0_1 : (⟨S10000x1, .f32⟩ : BufTy).Contents (Elt F) → (⟨S10000x128, .f32⟩ : BufTy).Contents (Elt F)),
    binary main_v645 main_v652 main_v653 (Host.divf : (⟨S10000x128, .f32⟩ : BufTy).Contents (Elt F) → (⟨S10000x128, .f32⟩ : BufTy).Contents (Elt F) → (⟨S10000x128, .f32⟩ : BufTy).Contents (Elt F)),
    unary main_arg15 main_v654 ((extractStridedSlice S1x1x128x128 ![3, 2, 0, 0] · slices_S4x6x128x128_S1x1x128x128_3_2_0_0) : (⟨S4x6x128x128, .f32⟩ : BufTy).Contents (Elt F) → (⟨S1x1x128x128, .f32⟩ : BufTy).Contents (Elt F)),
    reshape main_v654 main_v655 rfl shapeCasts_S1x1x128x128_S128x128,
    binary main_v653 main_v655 main_v656 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg16 main_v657 ((extractStridedSlice S1x1x128x128 ![3, 2, 0, 0] · slices_S4x6x128x128_S1x1x128x128_3_2_0_0) : (⟨S4x6x128x128, .f32⟩ : BufTy).Contents (Elt F) → (⟨S1x1x128x128, .f32⟩ : BufTy).Contents (Elt F)),
    reshape main_v657 main_v658 rfl shapeCasts_S1x1x128x128_S128x128,
    binary main_v575 main_v658 main_v659 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v656 main_v659 main_v660 (addf : (⟨S10000x128, .f32⟩ : BufTy).Contents (Elt F) → (⟨S10000x128, .f32⟩ : BufTy).Contents (Elt F) → (⟨S10000x128, .f32⟩ : BufTy).Contents (Elt F)),
    unary main_arg17 main_v661 ((extractStridedSlice S1x1x128 ![3, 2, 0] · slices_S4x6x128_S1x1x128_3_2_0) : (⟨S4x6x128, .f32⟩ : BufTy).Contents (Elt F) → (⟨S1x1x128, .f32⟩ : BufTy).Contents (Elt F)),
    reshape main_v661 main_v662 rfl shapeCasts_S1x1x128_S128,
    unary main_v662 main_v663 (broadcastInDim S1x128 ![1] bcast_S128_S1x128_1 : (⟨S128, .f32⟩ : BufTy).Contents (Elt F) → (⟨S1x128, .f32⟩ : BufTy).Contents (Elt F)),
    unary main_v663 main_v664 (broadcastInDim S10000x128 ![0, 1] bcast_S1x128_S10000x128_0_1 : (⟨S1x128, .f32⟩ : BufTy).Contents (Elt F) → (⟨S10000x128, .f32⟩ : BufTy).Contents (Elt F)),
    binary main_v660 main_v664 main_v665 (addf : (⟨S10000x128, .f32⟩ : BufTy).Contents (Elt F) → (⟨S10000x128, .f32⟩ : BufTy).Contents (Elt F) → (⟨S10000x128, .f32⟩ : BufTy).Contents (Elt F)),
    nullary main_c_133 (constantI S_ 32 0#32),
    unary main_c_133 main_v666 (broadcastInDim S800000 ![] bcast_S_S800000 : (⟨S_, .i32⟩ : BufTy).Contents (Elt F) → (⟨S800000, .i32⟩ : BufTy).Contents (Elt F)),
    binary main_arg9 main_v666 main_v667 (cmpi .slt : (⟨S800000, .i32⟩ : BufTy).Contents (Elt F) → (⟨S800000, .i32⟩ : BufTy).Contents (Elt F) → (⟨S800000, .i1⟩ : BufTy).Contents (Elt F)),
    nullary main_c_134 (constantI S_ 32 30000#32),
    unary main_c_134 main_v668 (broadcastInDim S800000 ![] bcast_S_S800000 : (⟨S_, .i32⟩ : BufTy).Contents (Elt F) → (⟨S800000, .i32⟩ : BufTy).Contents (Elt F)),
    binary main_arg9 main_v668 main_v669 (addi : (⟨S800000, .i32⟩ : BufTy).Contents (Elt F) → (⟨S800000, .i32⟩ : BufTy).Contents (Elt F) → (⟨S800000, .i32⟩ : BufTy).Contents (Elt F)),
    ternary main_v667 main_v669 main_arg9 main_v670 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v670 main_v671 (broadcastInDim S800000x1 ![0] bcast_S800000_S800000x1_0 : (⟨S800000, .i32⟩ : BufTy).Contents (Elt F) → (⟨S800000x1, .i32⟩ : BufTy).Contents (Elt F)),
    binary main_v574 main_v671 main_v672 ((fun x i => Host.gather gather_S30000x128_S800000x1_S800000x128_1_0_n_n_0_1_1128 x i) : (⟨S30000x128, .f32⟩ : BufTy).Contents (Elt F) → (⟨S800000x1, .i32⟩ : BufTy).Contents (Elt F) → (⟨S800000x128, .f32⟩ : BufTy).Contents (Elt F)),
    nullary main_cst_135 (constant S_ .f32 0x00000000#32),
    unary main_cst_135 main_v673 (broadcastInDim S50000x128 ![] bcast_S_S50000x128 : (⟨S_, .f32⟩ : BufTy).Contents (Elt F) → (⟨S50000x128, .f32⟩ : BufTy).Contents (Elt F)),
    unary main_arg10 main_v674 (broadcastInDim S800000x1 ![0] bcast_S800000_S800000x1_0 : (⟨S800000, .i32⟩ : BufTy).Contents (Elt F) → (⟨S800000x1, .i32⟩ : BufTy).Contents (Elt F)),
    ternary main_v673 main_v674 main_v672 main_v675 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_136 (constant S_ .f32 0x3F800000#32),
    unary main_cst_136 main_v676 (broadcastInDim S800000x1 ![] bcast_S_S800000x1 : (⟨S_, .f32⟩ : BufTy).Contents (Elt F) → (⟨S800000x1, .f32⟩ : BufTy).Contents (Elt F)),
    nullary main_cst_137 (constant S_ .f32 0x00000000#32),
    unary main_cst_137 main_v677 (broadcastInDim S50000x1 ![] bcast_S_S50000x1 : (⟨S_, .f32⟩ : BufTy).Contents (Elt F) → (⟨S50000x1, .f32⟩ : BufTy).Contents (Elt F)),
    unary main_arg10 main_v678 (broadcastInDim S800000x1 ![0] bcast_S800000_S800000x1_0 : (⟨S800000, .i32⟩ : BufTy).Contents (Elt F) → (⟨S800000x1, .i32⟩ : BufTy).Contents (Elt F)),
    ternary main_v677 main_v678 main_v676 main_v679 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_138 (constant S_ .f32 0x3F800000#32),
    unary main_cst_138 main_v680 (broadcastInDim S50000x1 ![] bcast_S_S50000x1 : (⟨S_, .f32⟩ : BufTy).Contents (Elt F) → (⟨S50000x1, .f32⟩ : BufTy).Contents (Elt F)),
    binary main_v679 main_v680 main_v681 (maximumf : (⟨S50000x1, .f32⟩ : BufTy).Contents (Elt F) → (⟨S50000x1, .f32⟩ : BufTy).Contents (Elt F) → (⟨S50000x1, .f32⟩ : BufTy).Contents (Elt F)),
    unary main_v681 main_v682 (broadcastInDim S50000x128 ![0, 1] bcast_S50000x1_S50000x128_0_1 : (⟨S50000x1, .f32⟩ : BufTy).Contents (Elt F) → (⟨S50000x128, .f32⟩ : BufTy).Contents (Elt F)),
    binary main_v675 main_v682 main_v683 (Host.divf : (⟨S50000x128, .f32⟩ : BufTy).Contents (Elt F) → (⟨S50000x128, .f32⟩ : BufTy).Contents (Elt F) → (⟨S50000x128, .f32⟩ : BufTy).Contents (Elt F)),
    unary main_arg15 main_v684 ((extractStridedSlice S1x1x128x128 ![3, 3, 0, 0] · slices_S4x6x128x128_S1x1x128x128_3_3_0_0) : (⟨S4x6x128x128, .f32⟩ : BufTy).Contents (Elt F) → (⟨S1x1x128x128, .f32⟩ : BufTy).Contents (Elt F)),
    reshape main_v684 main_v685 rfl shapeCasts_S1x1x128x128_S128x128,
    binary main_v683 main_v685 main_v686 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v687 ((extractStridedSlice S1x1x128x128 ![3, 3, 0, 0] · slices_S4x6x128x128_S1x1x128x128_3_3_0_0) : (⟨S4x6x128x128, .f32⟩ : BufTy).Contents (Elt F) → (⟨S1x1x128x128, .f32⟩ : BufTy).Contents (Elt F)),
    reshape main_v687 main_v688 rfl shapeCasts_S1x1x128x128_S128x128,
    binary main_v573 main_v688 main_v689 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v686 main_v689 main_v690 (addf : (⟨S50000x128, .f32⟩ : BufTy).Contents (Elt F) → (⟨S50000x128, .f32⟩ : BufTy).Contents (Elt F) → (⟨S50000x128, .f32⟩ : BufTy).Contents (Elt F)),
    unary main_arg17 main_v691 ((extractStridedSlice S1x1x128 ![3, 3, 0] · slices_S4x6x128_S1x1x128_3_3_0) : (⟨S4x6x128, .f32⟩ : BufTy).Contents (Elt F) → (⟨S1x1x128, .f32⟩ : BufTy).Contents (Elt F)),
    reshape main_v691 main_v692 rfl shapeCasts_S1x1x128_S128,
    unary main_v692 main_v693 (broadcastInDim S1x128 ![1] bcast_S128_S1x128_1 : (⟨S128, .f32⟩ : BufTy).Contents (Elt F) → (⟨S1x128, .f32⟩ : BufTy).Contents (Elt F)),
    unary main_v693 main_v694 (broadcastInDim S50000x128 ![0, 1] bcast_S1x128_S50000x128_0_1 : (⟨S1x128, .f32⟩ : BufTy).Contents (Elt F) → (⟨S50000x128, .f32⟩ : BufTy).Contents (Elt F)),
    binary main_v690 main_v694 main_v695 (addf : (⟨S50000x128, .f32⟩ : BufTy).Contents (Elt F) → (⟨S50000x128, .f32⟩ : BufTy).Contents (Elt F) → (⟨S50000x128, .f32⟩ : BufTy).Contents (Elt F)),
    nullary main_c_139 (constantI S_ 32 0#32),
    unary main_c_139 main_v696 (broadcastInDim S400000 ![] bcast_S_S400000 : (⟨S_, .i32⟩ : BufTy).Contents (Elt F) → (⟨S400000, .i32⟩ : BufTy).Contents (Elt F)),
    binary main_arg11 main_v696 main_v697 (cmpi .slt : (⟨S400000, .i32⟩ : BufTy).Contents (Elt F) → (⟨S400000, .i32⟩ : BufTy).Contents (Elt F) → (⟨S400000, .i1⟩ : BufTy).Contents (Elt F)),
    nullary main_c_140 (constantI S_ 32 10000#32),
    unary main_c_140 main_v698 (broadcastInDim S400000 ![] bcast_S_S400000 : (⟨S_, .i32⟩ : BufTy).Contents (Elt F) → (⟨S400000, .i32⟩ : BufTy).Contents (Elt F)),
    binary main_arg11 main_v698 main_v699 (addi : (⟨S400000, .i32⟩ : BufTy).Contents (Elt F) → (⟨S400000, .i32⟩ : BufTy).Contents (Elt F) → (⟨S400000, .i32⟩ : BufTy).Contents (Elt F)),
    ternary main_v697 main_v699 main_arg11 main_v700 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v700 main_v701 (broadcastInDim S400000x1 ![0] bcast_S400000_S400000x1_0 : (⟨S400000, .i32⟩ : BufTy).Contents (Elt F) → (⟨S400000x1, .i32⟩ : BufTy).Contents (Elt F)),
    binary main_v575 main_v701 main_v702 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_141 (constant S_ .f32 0x00000000#32),
    unary main_cst_141 main_v703 (broadcastInDim S30000x128 ![] bcast_S_S30000x128 : (⟨S_, .f32⟩ : BufTy).Contents (Elt F) → (⟨S30000x128, .f32⟩ : BufTy).Contents (Elt F)),
    unary main_arg12 main_v704 (broadcastInDim S400000x1 ![0] bcast_S400000_S400000x1_0 : (⟨S400000, .i32⟩ : BufTy).Contents (Elt F) → (⟨S400000x1, .i32⟩ : BufTy).Contents (Elt F)),
    ternary main_v703 main_v704 main_v702 main_v705 ((fun x i u => Host.scatterAdd scatter_S30000x128_S400000x1_S400000x128_1_0_0_1 x i u) : (⟨S30000x128, .f32⟩ : BufTy).Contents (Elt F) → (⟨S400000x1, .i32⟩ : BufTy).Contents (Elt F) → (⟨S400000x128, .f32⟩ : BufTy).Contents (Elt F) → (⟨S30000x128, .f32⟩ : BufTy).Contents (Elt F)),
    nullary main_cst_142 (constant S_ .f32 0x3F800000#32),
    unary main_cst_142 main_v706 (broadcastInDim S400000x1 ![] bcast_S_S400000x1 : (⟨S_, .f32⟩ : BufTy).Contents (Elt F) → (⟨S400000x1, .f32⟩ : BufTy).Contents (Elt F)),
    nullary main_cst_143 (constant S_ .f32 0x00000000#32),
    unary main_cst_143 main_v707 (broadcastInDim S30000x1 ![] bcast_S_S30000x1 : (⟨S_, .f32⟩ : BufTy).Contents (Elt F) → (⟨S30000x1, .f32⟩ : BufTy).Contents (Elt F)),
    unary main_arg12 main_v708 (broadcastInDim S400000x1 ![0] bcast_S400000_S400000x1_0 : (⟨S400000, .i32⟩ : BufTy).Contents (Elt F) → (⟨S400000x1, .i32⟩ : BufTy).Contents (Elt F)),
    ternary main_v707 main_v708 main_v706 main_v709 ((fun x i u => Host.scatterAdd scatter_S30000x1_S400000x1_S400000x1_1_0_0_1 x i u) : (⟨S30000x1, .f32⟩ : BufTy).Contents (Elt F) → (⟨S400000x1, .i32⟩ : BufTy).Contents (Elt F) → (⟨S400000x1, .f32⟩ : BufTy).Contents (Elt F) → (⟨S30000x1, .f32⟩ : BufTy).Contents (Elt F)),
    nullary main_cst_144 (constant S_ .f32 0x3F800000#32),
    unary main_cst_144 main_v710 (broadcastInDim S30000x1 ![] bcast_S_S30000x1 : (⟨S_, .f32⟩ : BufTy).Contents (Elt F) → (⟨S30000x1, .f32⟩ : BufTy).Contents (Elt F)),
    binary main_v709 main_v710 main_v711 (maximumf : (⟨S30000x1, .f32⟩ : BufTy).Contents (Elt F) → (⟨S30000x1, .f32⟩ : BufTy).Contents (Elt F) → (⟨S30000x1, .f32⟩ : BufTy).Contents (Elt F)),
    unary main_v711 main_v712 (broadcastInDim S30000x128 ![0, 1] bcast_S30000x1_S30000x128_0_1 : (⟨S30000x1, .f32⟩ : BufTy).Contents (Elt F) → (⟨S30000x128, .f32⟩ : BufTy).Contents (Elt F)),
    binary main_v705 main_v712 main_v713 (Host.divf : (⟨S30000x128, .f32⟩ : BufTy).Contents (Elt F) → (⟨S30000x128, .f32⟩ : BufTy).Contents (Elt F) → (⟨S30000x128, .f32⟩ : BufTy).Contents (Elt F)),
    unary main_arg15 main_v714 ((extractStridedSlice S1x1x128x128 ![3, 4, 0, 0] · slices_S4x6x128x128_S1x1x128x128_3_4_0_0) : (⟨S4x6x128x128, .f32⟩ : BufTy).Contents (Elt F) → (⟨S1x1x128x128, .f32⟩ : BufTy).Contents (Elt F)),
    reshape main_v714 main_v715 rfl shapeCasts_S1x1x128x128_S128x128,
    binary main_v713 main_v715 main_v716 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    unary main_arg16 main_v717 ((extractStridedSlice S1x1x128x128 ![3, 4, 0, 0] · slices_S4x6x128x128_S1x1x128x128_3_4_0_0) : (⟨S4x6x128x128, .f32⟩ : BufTy).Contents (Elt F) → (⟨S1x1x128x128, .f32⟩ : BufTy).Contents (Elt F)),
    reshape main_v717 main_v718 rfl shapeCasts_S1x1x128x128_S128x128,
    binary main_v574 main_v718 main_v719 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    binary main_v716 main_v719 main_v720 (addf : (⟨S30000x128, .f32⟩ : BufTy).Contents (Elt F) → (⟨S30000x128, .f32⟩ : BufTy).Contents (Elt F) → (⟨S30000x128, .f32⟩ : BufTy).Contents (Elt F)),
    unary main_arg17 main_v721 ((extractStridedSlice S1x1x128 ![3, 4, 0] · slices_S4x6x128_S1x1x128_3_4_0) : (⟨S4x6x128, .f32⟩ : BufTy).Contents (Elt F) → (⟨S1x1x128, .f32⟩ : BufTy).Contents (Elt F)),
    reshape main_v721 main_v722 rfl shapeCasts_S1x1x128_S128,
    unary main_v722 main_v723 (broadcastInDim S1x128 ![1] bcast_S128_S1x128_1 : (⟨S128, .f32⟩ : BufTy).Contents (Elt F) → (⟨S1x128, .f32⟩ : BufTy).Contents (Elt F)),
    unary main_v723 main_v724 (broadcastInDim S30000x128 ![0, 1] bcast_S1x128_S30000x128_0_1 : (⟨S1x128, .f32⟩ : BufTy).Contents (Elt F) → (⟨S30000x128, .f32⟩ : BufTy).Contents (Elt F)),
    binary main_v720 main_v724 main_v725 (addf : (⟨S30000x128, .f32⟩ : BufTy).Contents (Elt F) → (⟨S30000x128, .f32⟩ : BufTy).Contents (Elt F) → (⟨S30000x128, .f32⟩ : BufTy).Contents (Elt F)),
    nullary main_c_145 (constantI S_ 32 0#32),
    unary main_c_145 main_v726 (broadcastInDim S800000 ![] bcast_S_S800000 : (⟨S_, .i32⟩ : BufTy).Contents (Elt F) → (⟨S800000, .i32⟩ : BufTy).Contents (Elt F)),
    binary main_arg13 main_v726 main_v727 (cmpi .slt : (⟨S800000, .i32⟩ : BufTy).Contents (Elt F) → (⟨S800000, .i32⟩ : BufTy).Contents (Elt F) → (⟨S800000, .i1⟩ : BufTy).Contents (Elt F)),
    nullary main_c_146 (constantI S_ 32 10000#32),
    unary main_c_146 main_v728 (broadcastInDim S800000 ![] bcast_S_S800000 : (⟨S_, .i32⟩ : BufTy).Contents (Elt F) → (⟨S800000, .i32⟩ : BufTy).Contents (Elt F)),
    binary main_arg13 main_v728 main_v729 (addi : (⟨S800000, .i32⟩ : BufTy).Contents (Elt F) → (⟨S800000, .i32⟩ : BufTy).Contents (Elt F) → (⟨S800000, .i32⟩ : BufTy).Contents (Elt F)),
    ternary main_v727 main_v729 main_arg13 main_v730 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v730 main_v731 (broadcastInDim S800000x1 ![0] bcast_S800000_S800000x1_0 : (⟨S800000, .i32⟩ : BufTy).Contents (Elt F) → (⟨S800000x1, .i32⟩ : BufTy).Contents (Elt F)),
    binary main_v575 main_v731 main_v732 ((fun x i => Host.gather gather_S10000x128_S800000x1_S800000x128_1_0_n_n_0_1_1128 x i) : (⟨S10000x128, .f32⟩ : BufTy).Contents (Elt F) → (⟨S800000x1, .i32⟩ : BufTy).Contents (Elt F) → (⟨S800000x128, .f32⟩ : BufTy).Contents (Elt F)),
    nullary main_cst_147 (constant S_ .f32 0x00000000#32),
    unary main_cst_147 main_v733 (broadcastInDim S50000x128 ![] bcast_S_S50000x128 : (⟨S_, .f32⟩ : BufTy).Contents (Elt F) → (⟨S50000x128, .f32⟩ : BufTy).Contents (Elt F)),
    unary main_arg14 main_v734 (broadcastInDim S800000x1 ![0] bcast_S800000_S800000x1_0 : (⟨S800000, .i32⟩ : BufTy).Contents (Elt F) → (⟨S800000x1, .i32⟩ : BufTy).Contents (Elt F)),
    ternary main_v733 main_v734 main_v732 main_v735 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_148 (constant S_ .f32 0x3F800000#32),
    unary main_cst_148 main_v736 (broadcastInDim S800000x1 ![] bcast_S_S800000x1 : (⟨S_, .f32⟩ : BufTy).Contents (Elt F) → (⟨S800000x1, .f32⟩ : BufTy).Contents (Elt F)),
    nullary main_cst_149 (constant S_ .f32 0x00000000#32),
    unary main_cst_149 main_v737 (broadcastInDim S50000x1 ![] bcast_S_S50000x1 : (⟨S_, .f32⟩ : BufTy).Contents (Elt F) → (⟨S50000x1, .f32⟩ : BufTy).Contents (Elt F)),
    unary main_arg14 main_v738 (broadcastInDim S800000x1 ![0] bcast_S800000_S800000x1_0 : (⟨S800000, .i32⟩ : BufTy).Contents (Elt F) → (⟨S800000x1, .i32⟩ : BufTy).Contents (Elt F)),
    ternary main_v737 main_v738 main_v736 main_v739 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_150 (constant S_ .f32 0x3F800000#32),
    unary main_cst_150 main_v740 (broadcastInDim S50000x1 ![] bcast_S_S50000x1 : (⟨S_, .f32⟩ : BufTy).Contents (Elt F) → (⟨S50000x1, .f32⟩ : BufTy).Contents (Elt F)),
    binary main_v739 main_v740 main_v741 (maximumf : (⟨S50000x1, .f32⟩ : BufTy).Contents (Elt F) → (⟨S50000x1, .f32⟩ : BufTy).Contents (Elt F) → (⟨S50000x1, .f32⟩ : BufTy).Contents (Elt F)),
    unary main_v741 main_v742 (broadcastInDim S50000x128 ![0, 1] bcast_S50000x1_S50000x128_0_1 : (⟨S50000x1, .f32⟩ : BufTy).Contents (Elt F) → (⟨S50000x128, .f32⟩ : BufTy).Contents (Elt F)),
    binary main_v735 main_v742 main_v743 (Host.divf : (⟨S50000x128, .f32⟩ : BufTy).Contents (Elt F) → (⟨S50000x128, .f32⟩ : BufTy).Contents (Elt F) → (⟨S50000x128, .f32⟩ : BufTy).Contents (Elt F)),
    unary main_arg15 main_v744 ((extractStridedSlice S1x1x128x128 ![3, 5, 0, 0] · slices_S4x6x128x128_S1x1x128x128_3_5_0_0) : (⟨S4x6x128x128, .f32⟩ : BufTy).Contents (Elt F) → (⟨S1x1x128x128, .f32⟩ : BufTy).Contents (Elt F)),
    reshape main_v744 main_v745 rfl shapeCasts_S1x1x128x128_S128x128,
    binary main_v743 main_v745 main_v746 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg16 main_v747 ((extractStridedSlice S1x1x128x128 ![3, 5, 0, 0] · slices_S4x6x128x128_S1x1x128x128_3_5_0_0) : (⟨S4x6x128x128, .f32⟩ : BufTy).Contents (Elt F) → (⟨S1x1x128x128, .f32⟩ : BufTy).Contents (Elt F)),
    reshape main_v747 main_v748 rfl shapeCasts_S1x1x128x128_S128x128,
    binary main_v573 main_v748 main_v749 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v746 main_v749 main_v750 (addf : (⟨S50000x128, .f32⟩ : BufTy).Contents (Elt F) → (⟨S50000x128, .f32⟩ : BufTy).Contents (Elt F) → (⟨S50000x128, .f32⟩ : BufTy).Contents (Elt F)),
    unary main_arg17 main_v751 ((extractStridedSlice S1x1x128 ![3, 5, 0] · slices_S4x6x128_S1x1x128_3_5_0) : (⟨S4x6x128, .f32⟩ : BufTy).Contents (Elt F) → (⟨S1x1x128, .f32⟩ : BufTy).Contents (Elt F)),
    reshape main_v751 main_v752 rfl shapeCasts_S1x1x128_S128,
    unary main_v752 main_v753 (broadcastInDim S1x128 ![1] bcast_S128_S1x128_1 : (⟨S128, .f32⟩ : BufTy).Contents (Elt F) → (⟨S1x128, .f32⟩ : BufTy).Contents (Elt F)),
    unary main_v753 main_v754 (broadcastInDim S50000x128 ![0, 1] bcast_S1x128_S50000x128_0_1 : (⟨S1x128, .f32⟩ : BufTy).Contents (Elt F) → (⟨S50000x128, .f32⟩ : BufTy).Contents (Elt F)),
    binary main_v750 main_v754 main_v755 (addf : (⟨S50000x128, .f32⟩ : BufTy).Contents (Elt F) → (⟨S50000x128, .f32⟩ : BufTy).Contents (Elt F) → (⟨S50000x128, .f32⟩ : BufTy).Contents (Elt F)),
    binary main_v695 main_v755 main_v756 (addf : (⟨S50000x128, .f32⟩ : BufTy).Contents (Elt F) → (⟨S50000x128, .f32⟩ : BufTy).Contents (Elt F) → (⟨S50000x128, .f32⟩ : BufTy).Contents (Elt F)),
    nullary main_cst_151 (constant S_ .f32 0x3F000000#32),
    unary main_cst_151 main_v757 (broadcastInDim S50000x128 ![] bcast_S_S50000x128 : (⟨S_, .f32⟩ : BufTy).Contents (Elt F) → (⟨S50000x128, .f32⟩ : BufTy).Contents (Elt F)),
    binary main_v756 main_v757 main_v758 (mulf : (⟨S50000x128, .f32⟩ : BufTy).Contents (Elt F) → (⟨S50000x128, .f32⟩ : BufTy).Contents (Elt F) → (⟨S50000x128, .f32⟩ : BufTy).Contents (Elt F)),
    binary main_v605 main_v725 main_v759 (addf : (⟨S30000x128, .f32⟩ : BufTy).Contents (Elt F) → (⟨S30000x128, .f32⟩ : BufTy).Contents (Elt F) → (⟨S30000x128, .f32⟩ : BufTy).Contents (Elt F)),
    nullary main_cst_152 (constant S_ .f32 0x3F000000#32),
    unary main_cst_152 main_v760 (broadcastInDim S30000x128 ![] bcast_S_S30000x128 : (⟨S_, .f32⟩ : BufTy).Contents (Elt F) → (⟨S30000x128, .f32⟩ : BufTy).Contents (Elt F)),
    binary main_v759 main_v760 main_v761 (mulf : (⟨S30000x128, .f32⟩ : BufTy).Contents (Elt F) → (⟨S30000x128, .f32⟩ : BufTy).Contents (Elt F) → (⟨S30000x128, .f32⟩ : BufTy).Contents (Elt F)),
    binary main_v635 main_v665 main_v762 (addf : (⟨S10000x128, .f32⟩ : BufTy).Contents (Elt F) → (⟨S10000x128, .f32⟩ : BufTy).Contents (Elt F) → (⟨S10000x128, .f32⟩ : BufTy).Contents (Elt F)),
    nullary main_cst_153 (constant S_ .f32 0x3F000000#32),
    unary main_cst_153 main_v763 (broadcastInDim S10000x128 ![] bcast_S_S10000x128 : (⟨S_, .f32⟩ : BufTy).Contents (Elt F) → (⟨S10000x128, .f32⟩ : BufTy).Contents (Elt F)),
    binary main_v762 main_v763 main_v764 (mulf : (⟨S10000x128, .f32⟩ : BufTy).Contents (Elt F) → (⟨S10000x128, .f32⟩ : BufTy).Contents (Elt F) → (⟨S10000x128, .f32⟩ : BufTy).Contents (Elt F)),
    TRef.binary (TRef.of (T := ⟨S50000x128, .f32⟩) main_v758) (TRef.of (T := ⟨S50000x128, .f32⟩) main_v758) (TRef.of (T := ⟨S50000x128, .f32⟩) main_call9_v0) mulf,
    TRef.nullary (TRef.of (T := ⟨S_, .f32⟩) main_call9_cst) (constant S_ .f32 0x00000000#32),
    TRef.binary (TRef.of (T := ⟨S50000x128, .f32⟩) main_call9_v0) (TRef.of (T := ⟨S_, .f32⟩) main_call9_cst) (TRef.of (T := ⟨S50000, .f32⟩) main_call9_v1) (fun x v => Host.reduceAdd x v reducesTo_S50000x128_S50000_d1 h_S_),
    TRef.unary (TRef.of (T := ⟨S50000, .f32⟩) main_call9_v1) (TRef.of (T := ⟨S50000x1, .f32⟩) main_call9_v2) (broadcastInDim S50000x1 ![0] bcast_S50000_S50000x1_0),
    TRef.unary (TRef.of (T := ⟨S50000x1, .f32⟩) main_call9_v2) (TRef.of (T := ⟨S50000x1, .f32⟩) main_v765) Host.sqrt,
    nullary main_cst_154 (constant S_ .f32 0x2B8CBCCC#32),
    unary main_cst_154 main_v766 (broadcastInDim S50000x1 ![] bcast_S_S50000x1 : (⟨S_, .f32⟩ : BufTy).Contents (Elt F) → (⟨S50000x1, .f32⟩ : BufTy).Contents (Elt F)),
    binary main_v765 main_v766 main_v767 (maximumf : (⟨S50000x1, .f32⟩ : BufTy).Contents (Elt F) → (⟨S50000x1, .f32⟩ : BufTy).Contents (Elt F) → (⟨S50000x1, .f32⟩ : BufTy).Contents (Elt F)),
    unary main_v767 main_v768 (broadcastInDim S50000x128 ![0, 1] bcast_S50000x1_S50000x128_0_1 : (⟨S50000x1, .f32⟩ : BufTy).Contents (Elt F) → (⟨S50000x128, .f32⟩ : BufTy).Contents (Elt F)),
    binary main_v758 main_v768 main_v769 (Host.divf : (⟨S50000x128, .f32⟩ : BufTy).Contents (Elt F) → (⟨S50000x128, .f32⟩ : BufTy).Contents (Elt F) → (⟨S50000x128, .f32⟩ : BufTy).Contents (Elt F)),
    TRef.binary (TRef.of (T := ⟨S30000x128, .f32⟩) main_v761) (TRef.of (T := ⟨S30000x128, .f32⟩) main_v761) (TRef.of (T := ⟨S30000x128, .f32⟩) main_call10_v0) mulf,
    TRef.nullary (TRef.of (T := ⟨S_, .f32⟩) main_call10_cst) (constant S_ .f32 0x00000000#32),
    TRef.binary (TRef.of (T := ⟨S30000x128, .f32⟩) main_call10_v0) (TRef.of (T := ⟨S_, .f32⟩) main_call10_cst) (TRef.of (T := ⟨S30000, .f32⟩) main_call10_v1) (fun x v => Host.reduceAdd x v reducesTo_S30000x128_S30000_d1 h_S_),
    TRef.unary (TRef.of (T := ⟨S30000, .f32⟩) main_call10_v1) (TRef.of (T := ⟨S30000x1, .f32⟩) main_call10_v2) (broadcastInDim S30000x1 ![0] bcast_S30000_S30000x1_0),
    TRef.unary (TRef.of (T := ⟨S30000x1, .f32⟩) main_call10_v2) (TRef.of (T := ⟨S30000x1, .f32⟩) main_v770) Host.sqrt,
    nullary main_cst_155 (constant S_ .f32 0x2B8CBCCC#32),
    unary main_cst_155 main_v771 (broadcastInDim S30000x1 ![] bcast_S_S30000x1 : (⟨S_, .f32⟩ : BufTy).Contents (Elt F) → (⟨S30000x1, .f32⟩ : BufTy).Contents (Elt F)),
    binary main_v770 main_v771 main_v772 (maximumf : (⟨S30000x1, .f32⟩ : BufTy).Contents (Elt F) → (⟨S30000x1, .f32⟩ : BufTy).Contents (Elt F) → (⟨S30000x1, .f32⟩ : BufTy).Contents (Elt F)),
    unary main_v772 main_v773 (broadcastInDim S30000x128 ![0, 1] bcast_S30000x1_S30000x128_0_1 : (⟨S30000x1, .f32⟩ : BufTy).Contents (Elt F) → (⟨S30000x128, .f32⟩ : BufTy).Contents (Elt F)),
    binary main_v761 main_v773 main_v774 (Host.divf : (⟨S30000x128, .f32⟩ : BufTy).Contents (Elt F) → (⟨S30000x128, .f32⟩ : BufTy).Contents (Elt F) → (⟨S30000x128, .f32⟩ : BufTy).Contents (Elt F)),
    TRef.binary (TRef.of (T := ⟨S10000x128, .f32⟩) main_v764) (TRef.of (T := ⟨S10000x128, .f32⟩) main_v764) (TRef.of (T := ⟨S10000x128, .f32⟩) main_call11_v0) mulf,
    TRef.nullary (TRef.of (T := ⟨S_, .f32⟩) main_call11_cst) (constant S_ .f32 0x00000000#32),
    TRef.binary (TRef.of (T := ⟨S10000x128, .f32⟩) main_call11_v0) (TRef.of (T := ⟨S_, .f32⟩) main_call11_cst) (TRef.of (T := ⟨S10000, .f32⟩) main_call11_v1) (fun x v => Host.reduceAdd x v reducesTo_S10000x128_S10000_d1 h_S_),
    TRef.unary (TRef.of (T := ⟨S10000, .f32⟩) main_call11_v1) (TRef.of (T := ⟨S10000x1, .f32⟩) main_call11_v2) (broadcastInDim S10000x1 ![0] bcast_S10000_S10000x1_0),
    TRef.unary (TRef.of (T := ⟨S10000x1, .f32⟩) main_call11_v2) (TRef.of (T := ⟨S10000x1, .f32⟩) main_v775) Host.sqrt,
    nullary main_cst_156 (constant S_ .f32 0x2B8CBCCC#32),
    unary main_cst_156 main_v776 (broadcastInDim S10000x1 ![] bcast_S_S10000x1 : (⟨S_, .f32⟩ : BufTy).Contents (Elt F) → (⟨S10000x1, .f32⟩ : BufTy).Contents (Elt F)),
    binary main_v775 main_v776 main_v777 (maximumf : (⟨S10000x1, .f32⟩ : BufTy).Contents (Elt F) → (⟨S10000x1, .f32⟩ : BufTy).Contents (Elt F) → (⟨S10000x1, .f32⟩ : BufTy).Contents (Elt F)),
    unary main_v777 main_v778 (broadcastInDim S10000x128 ![0, 1] bcast_S10000x1_S10000x128_0_1 : (⟨S10000x1, .f32⟩ : BufTy).Contents (Elt F) → (⟨S10000x128, .f32⟩ : BufTy).Contents (Elt F)),
    binary main_v764 main_v778 main_v779 (Host.divf : (⟨S10000x128, .f32⟩ : BufTy).Contents (Elt F) → (⟨S10000x128, .f32⟩ : BufTy).Contents (Elt F) → (⟨S10000x128, .f32⟩ : BufTy).Contents (Elt F)) ]

set_option maxRecDepth 8192 in
/-- Every buffer the chunk's operations touch is a TensorCore reference. -/
theorem R3_sub : (R3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   nullary_bufs_sub .., unary_bufs_sub .., binary_bufs_sub .., nullary_bufs_sub .., unary_bufs_sub .., binary_bufs_sub .., ternary_bufs_sub .., unary_bufs_sub ..,
   binary_bufs_sub .., nullary_bufs_sub .., unary_bufs_sub .., unary_bufs_sub .., ternary_bufs_sub .., nullary_bufs_sub .., unary_bufs_sub .., nullary_bufs_sub ..,
   unary_bufs_sub .., unary_bufs_sub .., ternary_bufs_sub .., nullary_bufs_sub .., unary_bufs_sub .., binary_bufs_sub .., unary_bufs_sub .., binary_bufs_sub ..,
   unary_bufs_sub .., reshape_bufs_sub .., binary_bufs_sub .., unary_bufs_sub .., reshape_bufs_sub .., binary_bufs_sub .., binary_bufs_sub .., unary_bufs_sub ..,
   reshape_bufs_sub .., unary_bufs_sub .., unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub .., ternary_bufs_sub .., nullary_bufs_sub ..,
   unary_bufs_sub .., binary_bufs_sub .., unary_bufs_sub .., binary_bufs_sub .., unary_bufs_sub .., reshape_bufs_sub .., binary_bufs_sub .., unary_bufs_sub ..,
   reshape_bufs_sub .., binary_bufs_sub .., binary_bufs_sub .., unary_bufs_sub .., reshape_bufs_sub .., unary_bufs_sub .., unary_bufs_sub .., binary_bufs_sub ..,
   binary_bufs_sub .., nullary_bufs_sub .., unary_bufs_sub .., binary_bufs_sub .., binary_bufs_sub .., nullary_bufs_sub .., unary_bufs_sub .., binary_bufs_sub ..,
   binary_bufs_sub .., nullary_bufs_sub .., unary_bufs_sub .., binary_bufs_sub .., binary_bufs_sub .., nullary_bufs_sub .., binary_bufs_sub .., unary_bufs_sub ..,
   unary_bufs_sub .., nullary_bufs_sub .., unary_bufs_sub .., binary_bufs_sub .., unary_bufs_sub .., binary_bufs_sub .., binary_bufs_sub .., nullary_bufs_sub ..,
   binary_bufs_sub .., unary_bufs_sub .., unary_bufs_sub .., nullary_bufs_sub .., unary_bufs_sub .., binary_bufs_sub .., unary_bufs_sub .., binary_bufs_sub ..,
   binary_bufs_sub .., nullary_bufs_sub .., binary_bufs_sub .., unary_bufs_sub .., unary_bufs_sub .., nullary_bufs_sub .., unary_bufs_sub .., binary_bufs_sub ..,
   unary_bufs_sub .., binary_bufs_sub ..⟩

set_option maxRecDepth 8192 in
/-- Every operation of the chunk determines its results. -/
theorem R3_fresh : (R3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl⟩

set_option maxRecDepth 8192 in
/-- Every operation of the chunk writes a buffer past the arguments. -/
theorem R3_writes : (R3 : List (HloOp τ sig (Elt F))).Forall fun op => ∀ z ∈ op.writes, NotArg z :=
  ⟨nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   nullary_notArg (by decide), unary_notArg (by decide), binary_notArg (by decide), nullary_notArg (by decide), unary_notArg (by decide), binary_notArg (by decide),
   ternary_notArg (by decide), unary_notArg (by decide), binary_notArg (by decide), nullary_notArg (by decide), unary_notArg (by decide), unary_notArg (by decide),
   ternary_notArg (by decide), nullary_notArg (by decide), unary_notArg (by decide), nullary_notArg (by decide), unary_notArg (by decide), unary_notArg (by decide),
   ternary_notArg (by decide), nullary_notArg (by decide), unary_notArg (by decide), binary_notArg (by decide), unary_notArg (by decide), binary_notArg (by decide),
   unary_notArg (by decide), reshape_notArg (by decide), binary_notArg (by decide), unary_notArg (by decide), reshape_notArg (by decide), binary_notArg (by decide),
   binary_notArg (by decide), unary_notArg (by decide), reshape_notArg (by decide), unary_notArg (by decide), unary_notArg (by decide), binary_notArg (by decide),
   binary_notArg (by decide), nullary_notArg (by decide), unary_notArg (by decide), binary_notArg (by decide), binary_notArg (by decide), nullary_notArg (by decide),
   unary_notArg (by decide), binary_notArg (by decide), binary_notArg (by decide), nullary_notArg (by decide), unary_notArg (by decide), binary_notArg (by decide),
   binary_notArg (by decide), nullary_notArg (by decide), binary_notArg (by decide), unary_notArg (by decide), unary_notArg (by decide), nullary_notArg (by decide),
   unary_notArg (by decide), binary_notArg (by decide), unary_notArg (by decide), binary_notArg (by decide), binary_notArg (by decide), nullary_notArg (by decide),
   binary_notArg (by decide), unary_notArg (by decide), unary_notArg (by decide), nullary_notArg (by decide), unary_notArg (by decide), binary_notArg (by decide),
   unary_notArg (by decide), binary_notArg (by decide), binary_notArg (by decide), nullary_notArg (by decide), binary_notArg (by decide), unary_notArg (by decide),
   unary_notArg (by decide), nullary_notArg (by decide), unary_notArg (by decide), binary_notArg (by decide), unary_notArg (by decide), binary_notArg (by decide)⟩

end Cert.ReferenceIdeal.RefOps

end
-- ==== Proof.RefOps.lean ====
import proofs.«141482_j13434657702128_1_alg».proof.Proof.RefOps0
import proofs.«141482_j13434657702128_1_alg».proof.Proof.RefOps1
import proofs.«141482_j13434657702128_1_alg».proof.Proof.RefOps2
import proofs.«141482_j13434657702128_1_alg».proof.Proof.RefOps3

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's 969 host operations, in order: the four chunks one after the other. -/
abbrev opsAll : List (HloOp τ sig (Elt F)) := R0 ++ (R1 ++ (R2 ++ R3))

theorem ops_split : (opsAll : List (HloOp τ sig (Elt F))) = R0 ++ (R1 ++ (R2 ++ R3)) := rfl

/-- A list from position `a` on is its next `n` elements, then the list from position `a + n` on. -/
theorem drop_split {α : Type _} (l : List α) (a n : Nat) : l.drop a = (l.drop a).take n ++ l.drop (a + n) := by
  rw [← List.drop_drop, List.take_append_drop]

/-! The program is written in 16 parts; part `k` runs the operations from position `a` on, `n` of them (the last: all
    that are left).  Each part is the line of its operations, by unfolding; the parts in order are the whole list. -/

def T0 : List (HloOp τ sig (Elt F)) := (opsAll.drop 0).take 60
def T1 : List (HloOp τ sig (Elt F)) := (opsAll.drop 60).take 60
def T2 : List (HloOp τ sig (Elt F)) := (opsAll.drop 120).take 60
def T3 : List (HloOp τ sig (Elt F)) := (opsAll.drop 180).take 66
def T4 : List (HloOp τ sig (Elt F)) := (opsAll.drop 246).take 60
def T5 : List (HloOp τ sig (Elt F)) := (opsAll.drop 306).take 60
def T6 : List (HloOp τ sig (Elt F)) := (opsAll.drop 366).take 60
def T7 : List (HloOp τ sig (Elt F)) := (opsAll.drop 426).take 66
def T8 : List (HloOp τ sig (Elt F)) := (opsAll.drop 492).take 60
def T9 : List (HloOp τ sig (Elt F)) := (opsAll.drop 552).take 60
def T10 : List (HloOp τ sig (Elt F)) := (opsAll.drop 612).take 60
def T11 : List (HloOp τ sig (Elt F)) := (opsAll.drop 672).take 66
def T12 : List (HloOp τ sig (Elt F)) := (opsAll.drop 738).take 60
def T13 : List (HloOp τ sig (Elt F)) := (opsAll.drop 798).take 60
def T14 : List (HloOp τ sig (Elt F)) := (opsAll.drop 858).take 60
def T15 : List (HloOp τ sig (Elt F)) := opsAll.drop 918

theorem part0_eq (c : Dev nD) : main_part0 (F := F) c = seq T0 := rfl
theorem part1_eq (c : Dev nD) : main_part1 (F := F) c = seq T1 := rfl
theorem part2_eq (c : Dev nD) : main_part2 (F := F) c = seq T2 := rfl
theorem part3_eq (c : Dev nD) : main_part3 (F := F) c = seq T3 := rfl
theorem part4_eq (c : Dev nD) : main_part4 (F := F) c = seq T4 := rfl
theorem part5_eq (c : Dev nD) : main_part5 (F := F) c = seq T5 := rfl
theorem part6_eq (c : Dev nD) : main_part6 (F := F) c = seq T6 := rfl
theorem part7_eq (c : Dev nD) : main_part7 (F := F) c = seq T7 := rfl
theorem part8_eq (c : Dev nD) : main_part8 (F := F) c = seq T8 := rfl
theorem part9_eq (c : Dev nD) : main_part9 (F := F) c = seq T9 := rfl
theorem part10_eq (c : Dev nD) : main_part10 (F := F) c = seq T10 := rfl
theorem part11_eq (c : Dev nD) : main_part11 (F := F) c = seq T11 := rfl
theorem part12_eq (c : Dev nD) : main_part12 (F := F) c = seq T12 := rfl
theorem part13_eq (c : Dev nD) : main_part13 (F := F) c = seq T13 := rfl
theorem part14_eq (c : Dev nD) : main_part14 (F := F) c = seq T14 := rfl
theorem part15_eq (c : Dev nD) : main_part15 (F := F) c = seq T15 := rfl

theorem ops_parts : (opsAll : List (HloOp τ sig (Elt F))) = T0 ++ (T1 ++ (T2 ++ (T3 ++ (T4 ++ (T5 ++ (T6 ++ (T7 ++ (T8 ++ (T9 ++ (T10 ++ (T11 ++ (T12 ++ (T13 ++ (T14 ++ (T15))))))))))))))) := by
  have s0 : (opsAll : List (HloOp τ sig (Elt F))).drop 0 = T0 ++ (opsAll : List (HloOp τ sig (Elt F))).drop 60 := drop_split opsAll 0 60
  have s1 : (opsAll : List (HloOp τ sig (Elt F))).drop 60 = T1 ++ (opsAll : List (HloOp τ sig (Elt F))).drop 120 := drop_split opsAll 60 60
  have s2 : (opsAll : List (HloOp τ sig (Elt F))).drop 120 = T2 ++ (opsAll : List (HloOp τ sig (Elt F))).drop 180 := drop_split opsAll 120 60
  have s3 : (opsAll : List (HloOp τ sig (Elt F))).drop 180 = T3 ++ (opsAll : List (HloOp τ sig (Elt F))).drop 246 := drop_split opsAll 180 66
  have s4 : (opsAll : List (HloOp τ sig (Elt F))).drop 246 = T4 ++ (opsAll : List (HloOp τ sig (Elt F))).drop 306 := drop_split opsAll 246 60
  have s5 : (opsAll : List (HloOp τ sig (Elt F))).drop 306 = T5 ++ (opsAll : List (HloOp τ sig (Elt F))).drop 366 := drop_split opsAll 306 60
  have s6 : (opsAll : List (HloOp τ sig (Elt F))).drop 366 = T6 ++ (opsAll : List (HloOp τ sig (Elt F))).drop 426 := drop_split opsAll 366 60
  have s7 : (opsAll : List (HloOp τ sig (Elt F))).drop 426 = T7 ++ (opsAll : List (HloOp τ sig (Elt F))).drop 492 := drop_split opsAll 426 66
  have s8 : (opsAll : List (HloOp τ sig (Elt F))).drop 492 = T8 ++ (opsAll : List (HloOp τ sig (Elt F))).drop 552 := drop_split opsAll 492 60
  have s9 : (opsAll : List (HloOp τ sig (Elt F))).drop 552 = T9 ++ (opsAll : List (HloOp τ sig (Elt F))).drop 612 := drop_split opsAll 552 60
  have s10 : (opsAll : List (HloOp τ sig (Elt F))).drop 612 = T10 ++ (opsAll : List (HloOp τ sig (Elt F))).drop 672 := drop_split opsAll 612 60
  have s11 : (opsAll : List (HloOp τ sig (Elt F))).drop 672 = T11 ++ (opsAll : List (HloOp τ sig (Elt F))).drop 738 := drop_split opsAll 672 66
  have s12 : (opsAll : List (HloOp τ sig (Elt F))).drop 738 = T12 ++ (opsAll : List (HloOp τ sig (Elt F))).drop 798 := drop_split opsAll 738 60
  have s13 : (opsAll : List (HloOp τ sig (Elt F))).drop 798 = T13 ++ (opsAll : List (HloOp τ sig (Elt F))).drop 858 := drop_split opsAll 798 60
  have s14 : (opsAll : List (HloOp τ sig (Elt F))).drop 858 = T14 ++ T15 := drop_split opsAll 858 60
  show (opsAll : List (HloOp τ sig (Elt F))).drop 0 = _
  rw [s0, s1, s2, s3, s4, s5, s6, s7, s8, s9, s10, s11, s12, s13, s14]

/-- The program is the line of the 969 operations: it is its parts in order, each the line of its operations. -/
theorem main_eq (c : Dev nD) : main (F := F) c = seq opsAll := by
  have h : main (F := F) c = (main_part0 c >>= fun _ => main_part1 c >>= fun _ => main_part2 c >>= fun _ => main_part3 c >>= fun _ => main_part4 c >>= fun _ => main_part5 c >>= fun _ => main_part6 c >>= fun _ => main_part7 c >>= fun _ => main_part8 c >>= fun _ => main_part9 c >>= fun _ => main_part10 c >>= fun _ => main_part11 c >>= fun _ => main_part12 c >>= fun _ => main_part13 c >>= fun _ => main_part14 c >>= fun _ => main_part15 c) := rfl
  rw [h, part0_eq, part1_eq, part2_eq, part3_eq, part4_eq, part5_eq, part6_eq, part7_eq, part8_eq, part9_eq, part10_eq, part11_eq, part12_eq, part13_eq, part14_eq, part15_eq]
  refine Eq.trans ?_ (congrArg seq ops_parts.symm)
  simp only [seq_append]
theorem scopedRefs_eq : (Finset.univ.filter fun b : Ref sig .tc => b.isScoped) = ∅ := by decide
theorem scopedSems_eq : (Finset.univ.filter fun sm : SemLoc sig => sm.isScoped .tc) = ∅ := by decide
theorem ops_sub : (opsAll : List (HloOp τ sig (Elt F))).Forall fun op => op.bufs ⊆ tcRefs τ sig :=
  forall_append4 R0_sub R1_sub R2_sub R3_sub
theorem ops_fresh : ∀ op ∈ (opsAll : List (HloOp τ sig (Elt F))), op.fresh = ∅ :=
  List.forall_iff_forall_mem.mp (forall_append4 R0_fresh R1_fresh R2_fresh R3_fresh)
theorem ops_writes : (opsAll : List (HloOp τ sig (Elt F))).Forall fun op => ∀ z ∈ op.writes, NotArg z :=
  forall_append4 R0_writes R1_writes R2_writes R3_writes

end Cert.ReferenceIdeal.RefOps

end
-- ==== Proof.RefRun.lean ====
/-
  The reference program's run, stated in four consecutive chunks of its host operations.

  The reference is a straight line of host operations; the contents of a buffer after the whole line is the
  fold of the operations' results over the launch contents.  The fold over a concatenation is the fold
  over the second list applied to the fold over the first, so the fold over the whole line is the fold over
  the last layer's operations, of the fold over the third layer's, of the second's, of the first's.
  No operation writes an argument's buffer: through each chunk, and so through all four, the arguments
  stay as launched.
-/
import proofs.«141482_j13434657702128_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The fold over a concatenation: first the first list, then the second from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The fold over the whole line is the four chunks' folds composed. -/
theorem after_opsAll (V : Valuation τ sig (Elt F)) :
    after (opsAll : List (HloOp τ sig (Elt F))) V = after R3 (after R2 (after R1 (after R0 V))) :=
  (after_append R0 _ V).trans ((after_append R1 _ _).trans (after_append R2 R3 _))

/-- The whole line's run: every buffer ends at the fold over all the operations, from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (opsAll : List (HloOp τ sig (Elt F))) (launchContents m d) (Proc.devRef .tc b) :=
  run_seq scopedRefs_eq scopedSems_eq defs main (fun _ => opsAll) main_eq (fun _ => ops_sub) m ρ (fun _ => ops_fresh)

/-- On every device, from any memory with zero counters: every weakly fair execution of the reference terminates
    with each buffer at the fold of the last chunk over the third over the second over the first, from the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after R3 (after R2 (after R1 (after R0 (launchContents m d)))) (Proc.devRef .tc b) :=
  (θ_run defs _ _).mono (fun _ h d b => (h d b).trans (congrFun (after_opsAll (launchContents m d)) _)) (run_all m ρ)

/-! The arguments' buffers through chunk 0: no operation of it writes one. -/
theorem R0_kept_arg0 (Y : Valuation τ sig (Elt F)) :
    after R0 Y (Proc.devRef .tc main_arg0) = Y (Proc.devRef .tc main_arg0) := after_arg R0_writes Y (by decide)
theorem R0_kept_arg1 (Y : Valuation τ sig (Elt F)) :
    after R0 Y (Proc.devRef .tc main_arg1) = Y (Proc.devRef .tc main_arg1) := after_arg R0_writes Y (by decide)
theorem R0_kept_arg2 (Y : Valuation τ sig (Elt F)) :
    after R0 Y (Proc.devRef .tc main_arg2) = Y (Proc.devRef .tc main_arg2) := after_arg R0_writes Y (by decide)
theorem R0_kept_arg3 (Y : Valuation τ sig (Elt F)) :
    after R0 Y (Proc.devRef .tc main_arg3) = Y (Proc.devRef .tc main_arg3) := after_arg R0_writes Y (by decide)
theorem R0_kept_arg4 (Y : Valuation τ sig (Elt F)) :
    after R0 Y (Proc.devRef .tc main_arg4) = Y (Proc.devRef .tc main_arg4) := after_arg R0_writes Y (by decide)
theorem R0_kept_arg5 (Y : Valuation τ sig (Elt F)) :
    after R0 Y (Proc.devRef .tc main_arg5) = Y (Proc.devRef .tc main_arg5) := after_arg R0_writes Y (by decide)
theorem R0_kept_arg6 (Y : Valuation τ sig (Elt F)) :
    after R0 Y (Proc.devRef .tc main_arg6) = Y (Proc.devRef .tc main_arg6) := after_arg R0_writes Y (by decide)
theorem R0_kept_arg7 (Y : Valuation τ sig (Elt F)) :
    after R0 Y (Proc.devRef .tc main_arg7) = Y (Proc.devRef .tc main_arg7) := after_arg R0_writes Y (by decide)
theorem R0_kept_arg8 (Y : Valuation τ sig (Elt F)) :
    after R0 Y (Proc.devRef .tc main_arg8) = Y (Proc.devRef .tc main_arg8) := after_arg R0_writes Y (by decide)
theorem R0_kept_arg9 (Y : Valuation τ sig (Elt F)) :
    after R0 Y (Proc.devRef .tc main_arg9) = Y (Proc.devRef .tc main_arg9) := after_arg R0_writes Y (by decide)
theorem R0_kept_arg10 (Y : Valuation τ sig (Elt F)) :
    after R0 Y (Proc.devRef .tc main_arg10) = Y (Proc.devRef .tc main_arg10) := after_arg R0_writes Y (by decide)
theorem R0_kept_arg11 (Y : Valuation τ sig (Elt F)) :
    after R0 Y (Proc.devRef .tc main_arg11) = Y (Proc.devRef .tc main_arg11) := after_arg R0_writes Y (by decide)
theorem R0_kept_arg12 (Y : Valuation τ sig (Elt F)) :
    after R0 Y (Proc.devRef .tc main_arg12) = Y (Proc.devRef .tc main_arg12) := after_arg R0_writes Y (by decide)
theorem R0_kept_arg13 (Y : Valuation τ sig (Elt F)) :
    after R0 Y (Proc.devRef .tc main_arg13) = Y (Proc.devRef .tc main_arg13) := after_arg R0_writes Y (by decide)
theorem R0_kept_arg14 (Y : Valuation τ sig (Elt F)) :
    after R0 Y (Proc.devRef .tc main_arg14) = Y (Proc.devRef .tc main_arg14) := after_arg R0_writes Y (by decide)
theorem R0_kept_arg15 (Y : Valuation τ sig (Elt F)) :
    after R0 Y (Proc.devRef .tc main_arg15) = Y (Proc.devRef .tc main_arg15) := after_arg R0_writes Y (by decide)
theorem R0_kept_arg16 (Y : Valuation τ sig (Elt F)) :
    after R0 Y (Proc.devRef .tc main_arg16) = Y (Proc.devRef .tc main_arg16) := after_arg R0_writes Y (by decide)
theorem R0_kept_arg17 (Y : Valuation τ sig (Elt F)) :
    after R0 Y (Proc.devRef .tc main_arg17) = Y (Proc.devRef .tc main_arg17) := after_arg R0_writes Y (by decide)

/-! The arguments' buffers through chunk 1: no operation of it writes one. -/
theorem R1_kept_arg0 (Y : Valuation τ sig (Elt F)) :
    after R1 Y (Proc.devRef .tc main_arg0) = Y (Proc.devRef .tc main_arg0) := after_arg R1_writes Y (by decide)
theorem R1_kept_arg1 (Y : Valuation τ sig (Elt F)) :
    after R1 Y (Proc.devRef .tc main_arg1) = Y (Proc.devRef .tc main_arg1) := after_arg R1_writes Y (by decide)
theorem R1_kept_arg2 (Y : Valuation τ sig (Elt F)) :
    after R1 Y (Proc.devRef .tc main_arg2) = Y (Proc.devRef .tc main_arg2) := after_arg R1_writes Y (by decide)
theorem R1_kept_arg3 (Y : Valuation τ sig (Elt F)) :
    after R1 Y (Proc.devRef .tc main_arg3) = Y (Proc.devRef .tc main_arg3) := after_arg R1_writes Y (by decide)
theorem R1_kept_arg4 (Y : Valuation τ sig (Elt F)) :
    after R1 Y (Proc.devRef .tc main_arg4) = Y (Proc.devRef .tc main_arg4) := after_arg R1_writes Y (by decide)
theorem R1_kept_arg5 (Y : Valuation τ sig (Elt F)) :
    after R1 Y (Proc.devRef .tc main_arg5) = Y (Proc.devRef .tc main_arg5) := after_arg R1_writes Y (by decide)
theorem R1_kept_arg6 (Y : Valuation τ sig (Elt F)) :
    after R1 Y (Proc.devRef .tc main_arg6) = Y (Proc.devRef .tc main_arg6) := after_arg R1_writes Y (by decide)
theorem R1_kept_arg7 (Y : Valuation τ sig (Elt F)) :
    after R1 Y (Proc.devRef .tc main_arg7) = Y (Proc.devRef .tc main_arg7) := after_arg R1_writes Y (by decide)
theorem R1_kept_arg8 (Y : Valuation τ sig (Elt F)) :
    after R1 Y (Proc.devRef .tc main_arg8) = Y (Proc.devRef .tc main_arg8) := after_arg R1_writes Y (by decide)
theorem R1_kept_arg9 (Y : Valuation τ sig (Elt F)) :
    after R1 Y (Proc.devRef .tc main_arg9) = Y (Proc.devRef .tc main_arg9) := after_arg R1_writes Y (by decide)
theorem R1_kept_arg10 (Y : Valuation τ sig (Elt F)) :
    after R1 Y (Proc.devRef .tc main_arg10) = Y (Proc.devRef .tc main_arg10) := after_arg R1_writes Y (by decide)
theorem R1_kept_arg11 (Y : Valuation τ sig (Elt F)) :
    after R1 Y (Proc.devRef .tc main_arg11) = Y (Proc.devRef .tc main_arg11) := after_arg R1_writes Y (by decide)
theorem R1_kept_arg12 (Y : Valuation τ sig (Elt F)) :
    after R1 Y (Proc.devRef .tc main_arg12) = Y (Proc.devRef .tc main_arg12) := after_arg R1_writes Y (by decide)
theorem R1_kept_arg13 (Y : Valuation τ sig (Elt F)) :
    after R1 Y (Proc.devRef .tc main_arg13) = Y (Proc.devRef .tc main_arg13) := after_arg R1_writes Y (by decide)
theorem R1_kept_arg14 (Y : Valuation τ sig (Elt F)) :
    after R1 Y (Proc.devRef .tc main_arg14) = Y (Proc.devRef .tc main_arg14) := after_arg R1_writes Y (by decide)
theorem R1_kept_arg15 (Y : Valuation τ sig (Elt F)) :
    after R1 Y (Proc.devRef .tc main_arg15) = Y (Proc.devRef .tc main_arg15) := after_arg R1_writes Y (by decide)
theorem R1_kept_arg16 (Y : Valuation τ sig (Elt F)) :
    after R1 Y (Proc.devRef .tc main_arg16) = Y (Proc.devRef .tc main_arg16) := after_arg R1_writes Y (by decide)
theorem R1_kept_arg17 (Y : Valuation τ sig (Elt F)) :
    after R1 Y (Proc.devRef .tc main_arg17) = Y (Proc.devRef .tc main_arg17) := after_arg R1_writes Y (by decide)

/-! The arguments' buffers through chunk 2: no operation of it writes one. -/
theorem R2_kept_arg0 (Y : Valuation τ sig (Elt F)) :
    after R2 Y (Proc.devRef .tc main_arg0) = Y (Proc.devRef .tc main_arg0) := after_arg R2_writes Y (by decide)
theorem R2_kept_arg1 (Y : Valuation τ sig (Elt F)) :
    after R2 Y (Proc.devRef .tc main_arg1) = Y (Proc.devRef .tc main_arg1) := after_arg R2_writes Y (by decide)
theorem R2_kept_arg2 (Y : Valuation τ sig (Elt F)) :
    after R2 Y (Proc.devRef .tc main_arg2) = Y (Proc.devRef .tc main_arg2) := after_arg R2_writes Y (by decide)
theorem R2_kept_arg3 (Y : Valuation τ sig (Elt F)) :
    after R2 Y (Proc.devRef .tc main_arg3) = Y (Proc.devRef .tc main_arg3) := after_arg R2_writes Y (by decide)
theorem R2_kept_arg4 (Y : Valuation τ sig (Elt F)) :
    after R2 Y (Proc.devRef .tc main_arg4) = Y (Proc.devRef .tc main_arg4) := after_arg R2_writes Y (by decide)
theorem R2_kept_arg5 (Y : Valuation τ sig (Elt F)) :
    after R2 Y (Proc.devRef .tc main_arg5) = Y (Proc.devRef .tc main_arg5) := after_arg R2_writes Y (by decide)
theorem R2_kept_arg6 (Y : Valuation τ sig (Elt F)) :
    after R2 Y (Proc.devRef .tc main_arg6) = Y (Proc.devRef .tc main_arg6) := after_arg R2_writes Y (by decide)
theorem R2_kept_arg7 (Y : Valuation τ sig (Elt F)) :
    after R2 Y (Proc.devRef .tc main_arg7) = Y (Proc.devRef .tc main_arg7) := after_arg R2_writes Y (by decide)
theorem R2_kept_arg8 (Y : Valuation τ sig (Elt F)) :
    after R2 Y (Proc.devRef .tc main_arg8) = Y (Proc.devRef .tc main_arg8) := after_arg R2_writes Y (by decide)
theorem R2_kept_arg9 (Y : Valuation τ sig (Elt F)) :
    after R2 Y (Proc.devRef .tc main_arg9) = Y (Proc.devRef .tc main_arg9) := after_arg R2_writes Y (by decide)
theorem R2_kept_arg10 (Y : Valuation τ sig (Elt F)) :
    after R2 Y (Proc.devRef .tc main_arg10) = Y (Proc.devRef .tc main_arg10) := after_arg R2_writes Y (by decide)
theorem R2_kept_arg11 (Y : Valuation τ sig (Elt F)) :
    after R2 Y (Proc.devRef .tc main_arg11) = Y (Proc.devRef .tc main_arg11) := after_arg R2_writes Y (by decide)
theorem R2_kept_arg12 (Y : Valuation τ sig (Elt F)) :
    after R2 Y (Proc.devRef .tc main_arg12) = Y (Proc.devRef .tc main_arg12) := after_arg R2_writes Y (by decide)
theorem R2_kept_arg13 (Y : Valuation τ sig (Elt F)) :
    after R2 Y (Proc.devRef .tc main_arg13) = Y (Proc.devRef .tc main_arg13) := after_arg R2_writes Y (by decide)
theorem R2_kept_arg14 (Y : Valuation τ sig (Elt F)) :
    after R2 Y (Proc.devRef .tc main_arg14) = Y (Proc.devRef .tc main_arg14) := after_arg R2_writes Y (by decide)
theorem R2_kept_arg15 (Y : Valuation τ sig (Elt F)) :
    after R2 Y (Proc.devRef .tc main_arg15) = Y (Proc.devRef .tc main_arg15) := after_arg R2_writes Y (by decide)
theorem R2_kept_arg16 (Y : Valuation τ sig (Elt F)) :
    after R2 Y (Proc.devRef .tc main_arg16) = Y (Proc.devRef .tc main_arg16) := after_arg R2_writes Y (by decide)
theorem R2_kept_arg17 (Y : Valuation τ sig (Elt F)) :
    after R2 Y (Proc.devRef .tc main_arg17) = Y (Proc.devRef .tc main_arg17) := after_arg R2_writes Y (by decide)

/-! The arguments' buffers through chunk 3: no operation of it writes one. -/
theorem R3_kept_arg0 (Y : Valuation τ sig (Elt F)) :
    after R3 Y (Proc.devRef .tc main_arg0) = Y (Proc.devRef .tc main_arg0) := after_arg R3_writes Y (by decide)
theorem R3_kept_arg1 (Y : Valuation τ sig (Elt F)) :
    after R3 Y (Proc.devRef .tc main_arg1) = Y (Proc.devRef .tc main_arg1) := after_arg R3_writes Y (by decide)
theorem R3_kept_arg2 (Y : Valuation τ sig (Elt F)) :
    after R3 Y (Proc.devRef .tc main_arg2) = Y (Proc.devRef .tc main_arg2) := after_arg R3_writes Y (by decide)
theorem R3_kept_arg3 (Y : Valuation τ sig (Elt F)) :
    after R3 Y (Proc.devRef .tc main_arg3) = Y (Proc.devRef .tc main_arg3) := after_arg R3_writes Y (by decide)
theorem R3_kept_arg4 (Y : Valuation τ sig (Elt F)) :
    after R3 Y (Proc.devRef .tc main_arg4) = Y (Proc.devRef .tc main_arg4) := after_arg R3_writes Y (by decide)
theorem R3_kept_arg5 (Y : Valuation τ sig (Elt F)) :
    after R3 Y (Proc.devRef .tc main_arg5) = Y (Proc.devRef .tc main_arg5) := after_arg R3_writes Y (by decide)
theorem R3_kept_arg6 (Y : Valuation τ sig (Elt F)) :
    after R3 Y (Proc.devRef .tc main_arg6) = Y (Proc.devRef .tc main_arg6) := after_arg R3_writes Y (by decide)
theorem R3_kept_arg7 (Y : Valuation τ sig (Elt F)) :
    after R3 Y (Proc.devRef .tc main_arg7) = Y (Proc.devRef .tc main_arg7) := after_arg R3_writes Y (by decide)
theorem R3_kept_arg8 (Y : Valuation τ sig (Elt F)) :
    after R3 Y (Proc.devRef .tc main_arg8) = Y (Proc.devRef .tc main_arg8) := after_arg R3_writes Y (by decide)
theorem R3_kept_arg9 (Y : Valuation τ sig (Elt F)) :
    after R3 Y (Proc.devRef .tc main_arg9) = Y (Proc.devRef .tc main_arg9) := after_arg R3_writes Y (by decide)
theorem R3_kept_arg10 (Y : Valuation τ sig (Elt F)) :
    after R3 Y (Proc.devRef .tc main_arg10) = Y (Proc.devRef .tc main_arg10) := after_arg R3_writes Y (by decide)
theorem R3_kept_arg11 (Y : Valuation τ sig (Elt F)) :
    after R3 Y (Proc.devRef .tc main_arg11) = Y (Proc.devRef .tc main_arg11) := after_arg R3_writes Y (by decide)
theorem R3_kept_arg12 (Y : Valuation τ sig (Elt F)) :
    after R3 Y (Proc.devRef .tc main_arg12) = Y (Proc.devRef .tc main_arg12) := after_arg R3_writes Y (by decide)
theorem R3_kept_arg13 (Y : Valuation τ sig (Elt F)) :
    after R3 Y (Proc.devRef .tc main_arg13) = Y (Proc.devRef .tc main_arg13) := after_arg R3_writes Y (by decide)
theorem R3_kept_arg14 (Y : Valuation τ sig (Elt F)) :
    after R3 Y (Proc.devRef .tc main_arg14) = Y (Proc.devRef .tc main_arg14) := after_arg R3_writes Y (by decide)
theorem R3_kept_arg15 (Y : Valuation τ sig (Elt F)) :
    after R3 Y (Proc.devRef .tc main_arg15) = Y (Proc.devRef .tc main_arg15) := after_arg R3_writes Y (by decide)
theorem R3_kept_arg16 (Y : Valuation τ sig (Elt F)) :
    after R3 Y (Proc.devRef .tc main_arg16) = Y (Proc.devRef .tc main_arg16) := after_arg R3_writes Y (by decide)
theorem R3_kept_arg17 (Y : Valuation τ sig (Elt F)) :
    after R3 Y (Proc.devRef .tc main_arg17) = Y (Proc.devRef .tc main_arg17) := after_arg R3_writes Y (by decide)

/-! The arguments' buffers through the four chunks, from the launch contents: as launched. -/
theorem kept_arg0 (m : (ℓ : Loc nD τ sig) → Buf (Elt F) ℓ) (d : Dev nD) :
    after R3 (after R2 (after R1 (after R0 (launchContents m d)))) (Proc.devRef .tc main_arg0) = m ((d.tc : Thread nD τ).loc main_arg0) :=
  (R3_kept_arg0 _).trans ((R2_kept_arg0 _).trans ((R1_kept_arg0 _).trans (R0_kept_arg0 _)))
theorem kept_arg1 (m : (ℓ : Loc nD τ sig) → Buf (Elt F) ℓ) (d : Dev nD) :
    after R3 (after R2 (after R1 (after R0 (launchContents m d)))) (Proc.devRef .tc main_arg1) = m ((d.tc : Thread nD τ).loc main_arg1) :=
  (R3_kept_arg1 _).trans ((R2_kept_arg1 _).trans ((R1_kept_arg1 _).trans (R0_kept_arg1 _)))
theorem kept_arg2 (m : (ℓ : Loc nD τ sig) → Buf (Elt F) ℓ) (d : Dev nD) :
    after R3 (after R2 (after R1 (after R0 (launchContents m d)))) (Proc.devRef .tc main_arg2) = m ((d.tc : Thread nD τ).loc main_arg2) :=
  (R3_kept_arg2 _).trans ((R2_kept_arg2 _).trans ((R1_kept_arg2 _).trans (R0_kept_arg2 _)))
theorem kept_arg3 (m : (ℓ : Loc nD τ sig) → Buf (Elt F) ℓ) (d : Dev nD) :
    after R3 (after R2 (after R1 (after R0 (launchContents m d)))) (Proc.devRef .tc main_arg3) = m ((d.tc : Thread nD τ).loc main_arg3) :=
  (R3_kept_arg3 _).trans ((R2_kept_arg3 _).trans ((R1_kept_arg3 _).trans (R0_kept_arg3 _)))
theorem kept_arg4 (m : (ℓ : Loc nD τ sig) → Buf (Elt F) ℓ) (d : Dev nD) :
    after R3 (after R2 (after R1 (after R0 (launchContents m d)))) (Proc.devRef .tc main_arg4) = m ((d.tc : Thread nD τ).loc main_arg4) :=
  (R3_kept_arg4 _).trans ((R2_kept_arg4 _).trans ((R1_kept_arg4 _).trans (R0_kept_arg4 _)))
theorem kept_arg5 (m : (ℓ : Loc nD τ sig) → Buf (Elt F) ℓ) (d : Dev nD) :
    after R3 (after R2 (after R1 (after R0 (launchContents m d)))) (Proc.devRef .tc main_arg5) = m ((d.tc : Thread nD τ).loc main_arg5) :=
  (R3_kept_arg5 _).trans ((R2_kept_arg5 _).trans ((R1_kept_arg5 _).trans (R0_kept_arg5 _)))
theorem kept_arg6 (m : (ℓ : Loc nD τ sig) → Buf (Elt F) ℓ) (d : Dev nD) :
    after R3 (after R2 (after R1 (after R0 (launchContents m d)))) (Proc.devRef .tc main_arg6) = m ((d.tc : Thread nD τ).loc main_arg6) :=
  (R3_kept_arg6 _).trans ((R2_kept_arg6 _).trans ((R1_kept_arg6 _).trans (R0_kept_arg6 _)))
theorem kept_arg7 (m : (ℓ : Loc nD τ sig) → Buf (Elt F) ℓ) (d : Dev nD) :
    after R3 (after R2 (after R1 (after R0 (launchContents m d)))) (Proc.devRef .tc main_arg7) = m ((d.tc : Thread nD τ).loc main_arg7) :=
  (R3_kept_arg7 _).trans ((R2_kept_arg7 _).trans ((R1_kept_arg7 _).trans (R0_kept_arg7 _)))
theorem kept_arg8 (m : (ℓ : Loc nD τ sig) → Buf (Elt F) ℓ) (d : Dev nD) :
    after R3 (after R2 (after R1 (after R0 (launchContents m d)))) (Proc.devRef .tc main_arg8) = m ((d.tc : Thread nD τ).loc main_arg8) :=
  (R3_kept_arg8 _).trans ((R2_kept_arg8 _).trans ((R1_kept_arg8 _).trans (R0_kept_arg8 _)))
theorem kept_arg9 (m : (ℓ : Loc nD τ sig) → Buf (Elt F) ℓ) (d : Dev nD) :
    after R3 (after R2 (after R1 (after R0 (launchContents m d)))) (Proc.devRef .tc main_arg9) = m ((d.tc : Thread nD τ).loc main_arg9) :=
  (R3_kept_arg9 _).trans ((R2_kept_arg9 _).trans ((R1_kept_arg9 _).trans (R0_kept_arg9 _)))
theorem kept_arg10 (m : (ℓ : Loc nD τ sig) → Buf (Elt F) ℓ) (d : Dev nD) :
    after R3 (after R2 (after R1 (after R0 (launchContents m d)))) (Proc.devRef .tc main_arg10) = m ((d.tc : Thread nD τ).loc main_arg10) :=
  (R3_kept_arg10 _).trans ((R2_kept_arg10 _).trans ((R1_kept_arg10 _).trans (R0_kept_arg10 _)))
theorem kept_arg11 (m : (ℓ : Loc nD τ sig) → Buf (Elt F) ℓ) (d : Dev nD) :
    after R3 (after R2 (after R1 (after R0 (launchContents m d)))) (Proc.devRef .tc main_arg11) = m ((d.tc : Thread nD τ).loc main_arg11) :=
  (R3_kept_arg11 _).trans ((R2_kept_arg11 _).trans ((R1_kept_arg11 _).trans (R0_kept_arg11 _)))
theorem kept_arg12 (m : (ℓ : Loc nD τ sig) → Buf (Elt F) ℓ) (d : Dev nD) :
    after R3 (after R2 (after R1 (after R0 (launchContents m d)))) (Proc.devRef .tc main_arg12) = m ((d.tc : Thread nD τ).loc main_arg12) :=
  (R3_kept_arg12 _).trans ((R2_kept_arg12 _).trans ((R1_kept_arg12 _).trans (R0_kept_arg12 _)))
theorem kept_arg13 (m : (ℓ : Loc nD τ sig) → Buf (Elt F) ℓ) (d : Dev nD) :
    after R3 (after R2 (after R1 (after R0 (launchContents m d)))) (Proc.devRef .tc main_arg13) = m ((d.tc : Thread nD τ).loc main_arg13) :=
  (R3_kept_arg13 _).trans ((R2_kept_arg13 _).trans ((R1_kept_arg13 _).trans (R0_kept_arg13 _)))
theorem kept_arg14 (m : (ℓ : Loc nD τ sig) → Buf (Elt F) ℓ) (d : Dev nD) :
    after R3 (after R2 (after R1 (after R0 (launchContents m d)))) (Proc.devRef .tc main_arg14) = m ((d.tc : Thread nD τ).loc main_arg14) :=
  (R3_kept_arg14 _).trans ((R2_kept_arg14 _).trans ((R1_kept_arg14 _).trans (R0_kept_arg14 _)))
theorem kept_arg15 (m : (ℓ : Loc nD τ sig) → Buf (Elt F) ℓ) (d : Dev nD) :
    after R3 (after R2 (after R1 (after R0 (launchContents m d)))) (Proc.devRef .tc main_arg15) = m ((d.tc : Thread nD τ).loc main_arg15) :=
  (R3_kept_arg15 _).trans ((R2_kept_arg15 _).trans ((R1_kept_arg15 _).trans (R0_kept_arg15 _)))
theorem kept_arg16 (m : (ℓ : Loc nD τ sig) → Buf (Elt F) ℓ) (d : Dev nD) :
    after R3 (after R2 (after R1 (after R0 (launchContents m d)))) (Proc.devRef .tc main_arg16) = m ((d.tc : Thread nD τ).loc main_arg16) :=
  (R3_kept_arg16 _).trans ((R2_kept_arg16 _).trans ((R1_kept_arg16 _).trans (R0_kept_arg16 _)))
theorem kept_arg17 (m : (ℓ : Loc nD τ sig) → Buf (Elt F) ℓ) (d : Dev nD) :
    after R3 (after R2 (after R1 (after R0 (launchContents m d)))) (Proc.devRef .tc main_arg17) = m ((d.tc : Thread nD τ).loc main_arg17) :=
  (R3_kept_arg17 _).trans ((R2_kept_arg17 _).trans ((R1_kept_arg17 _).trans (R0_kept_arg17 _)))

/-- The reference leaves its eighteen arguments as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c),
      (h c main_arg16).trans (kept_arg16 m c),
      (h c main_arg17).trans (kept_arg17 m c)⟩) (run m ρ)

end Cert.ReferenceIdeal.RefRun

end
-- ==== Proof.KFold.lean ====
/-
  One layer of the fold of buffer contents through @main, from ANY contents at the layer's entry.

  A layer is three regions, one per node type, each entered after a stretch of host operations.  From the contents
  `X` at the layer's entry: the first stretch's operations applied (`A1`), the first region's arrays at what its
  pipeline leaves and every other buffer as entered (`A2`), the second stretch (`A3`), the second region (`A4`), the
  third stretch (`A5`), the third region (`A6`).  These are the generated boundary contents `W1 … W6` with the launch
  contents `W0` replaced by the parameter `X`; the four layers of @main are the four instances, each entered from the
  previous layer's exit contents (`W6_eq`, `W12_eq`, `W18_eq`, `W24_eq`).

  Per region, the two reads of its exit contents: at one of the region's arrays, what the pipeline leaves there
  (`A2_l_arr`); at any other buffer, the entry contents (`A2_l_of_ne`).
-/
import proofs.«141482_j13434657702128_1_alg».proof.Proof.FrameKIW

set_option maxRecDepth 16384

noncomputable section

namespace Cert.KernelIdeal.KFold

open Cert.KernelIdeal Cert.KernelIdeal.Gen Cert.KernelIdeal.GenP
open Idealize.ShloMosaic Idealize.ShloMosaic.TcCoe
open Idealize.ShloMosaic.Pipeline (Dat Cfg Window)

variable {F : FTy → Type} [FloatOps F]

/-! ## Layer 0: regions 0, 1, 2 -/

/-- After the layer's first stretch of host operations (the first region's entry). -/
def A1_0 (X : Dev nD → Valuation τ sig (Elt F)) (c : Dev nD) : Valuation τ sig (Elt F) :=
  StableHlo.after hostOps0 (X c)
/-- The same read at the TensorCore's references. -/
abbrev U1_0 (X : Dev nD → Valuation τ sig (Elt F)) : (c : Dev nD) → (b : Ref sig .tc) → Buf (Elt F) ((c : Thread nD τ).loc b) :=
  fun c b => A1_0 X c b
/-- At the first region's exit: its arrays at what the pipeline leaves, every other buffer as entered. -/
def A2_0 (X : Dev nD → Valuation τ sig (Elt F)) (c : Dev nD) : Valuation τ sig (Elt F) :=
  Pipeline.withArrays spec0 c (A1_0 X c) fun w => (dat0 (U1_0 X) c).arrAt w cfg0.N
theorem A2_0_arr (X : Dev nD → Valuation τ sig (Elt F)) (c : Dev nD) (w : Fin cfg0.W) :
    A2_0 X c (Proc.devRef .tc (Pipeline.arrRef spec0 w)) = (dat0 (U1_0 X) c).arrAt w cfg0.N := by
  unfold A2_0; exact Pipeline.withArrays_arr spec0 launch0.win.arr_inj c _ _ w
theorem A2_0_of_ne (X : Dev nD → Valuation τ sig (Elt F)) (c : Dev nD) (b : Ref sig .tc) (hb : ∀ w, Pipeline.arrRef spec0 w ≠ b) :
    A2_0 X c (Proc.devRef .tc b) = A1_0 X c (Proc.devRef .tc b) := by
  unfold A2_0; exact Pipeline.withArrays_of_ne spec0 c _ _ b hb
/-- After the layer's second stretch of host operations (the second region's entry). -/
def A3_0 (X : Dev nD → Valuation τ sig (Elt F)) (c : Dev nD) : Valuation τ sig (Elt F) :=
  StableHlo.after hostOps1 (A2_0 X c)
/-- The same read at the TensorCore's references. -/
abbrev U3_0 (X : Dev nD → Valuation τ sig (Elt F)) : (c : Dev nD) → (b : Ref sig .tc) → Buf (Elt F) ((c : Thread nD τ).loc b) :=
  fun c b => A3_0 X c b
/-- At the second region's exit: its arrays at what the pipeline leaves, every other buffer as entered. -/
def A4_0 (X : Dev nD → Valuation τ sig (Elt F)) (c : Dev nD) : Valuation τ sig (Elt F) :=
  Pipeline.withArrays spec1 c (A3_0 X c) fun w => (dat1 (U3_0 X) c).arrAt w cfg1.N
theorem A4_0_arr (X : Dev nD → Valuation τ sig (Elt F)) (c : Dev nD) (w : Fin cfg1.W) :
    A4_0 X c (Proc.devRef .tc (Pipeline.arrRef spec1 w)) = (dat1 (U3_0 X) c).arrAt w cfg1.N := by
  unfold A4_0; exact Pipeline.withArrays_arr spec1 launch1.win.arr_inj c _ _ w
theorem A4_0_of_ne (X : Dev nD → Valuation τ sig (Elt F)) (c : Dev nD) (b : Ref sig .tc) (hb : ∀ w, Pipeline.arrRef spec1 w ≠ b) :
    A4_0 X c (Proc.devRef .tc b) = A3_0 X c (Proc.devRef .tc b) := by
  unfold A4_0; exact Pipeline.withArrays_of_ne spec1 c _ _ b hb
/-- After the layer's third stretch of host operations (the third region's entry). -/
def A5_0 (X : Dev nD → Valuation τ sig (Elt F)) (c : Dev nD) : Valuation τ sig (Elt F) :=
  StableHlo.after hostOps2 (A4_0 X c)
/-- The same read at the TensorCore's references. -/
abbrev U5_0 (X : Dev nD → Valuation τ sig (Elt F)) : (c : Dev nD) → (b : Ref sig .tc) → Buf (Elt F) ((c : Thread nD τ).loc b) :=
  fun c b => A5_0 X c b
/-- At the third region's exit: its arrays at what the pipeline leaves, every other buffer as entered. -/
def A6_0 (X : Dev nD → Valuation τ sig (Elt F)) (c : Dev nD) : Valuation τ sig (Elt F) :=
  Pipeline.withArrays spec2 c (A5_0 X c) fun w => (dat2 (U5_0 X) c).arrAt w cfg2.N
theorem A6_0_arr (X : Dev nD → Valuation τ sig (Elt F)) (c : Dev nD) (w : Fin cfg2.W) :
    A6_0 X c (Proc.devRef .tc (Pipeline.arrRef spec2 w)) = (dat2 (U5_0 X) c).arrAt w cfg2.N := by
  unfold A6_0; exact Pipeline.withArrays_arr spec2 launch2.win.arr_inj c _ _ w
theorem A6_0_of_ne (X : Dev nD → Valuation τ sig (Elt F)) (c : Dev nD) (b : Ref sig .tc) (hb : ∀ w, Pipeline.arrRef spec2 w ≠ b) :
    A6_0 X c (Proc.devRef .tc b) = A5_0 X c (Proc.devRef .tc b) := by
  unfold A6_0; exact Pipeline.withArrays_of_ne spec2 c _ _ b hb

/-! ## Layer 1: regions 3, 4, 5 -/

/-- After the layer's first stretch of host operations (the first region's entry). -/
def A1_1 (X : Dev nD → Valuation τ sig (Elt F)) (c : Dev nD) : Valuation τ sig (Elt F) :=
  StableHlo.after hostOps3 (X c)
/-- The same read at the TensorCore's references. -/
abbrev U1_1 (X : Dev nD → Valuation τ sig (Elt F)) : (c : Dev nD) → (b : Ref sig .tc) → Buf (Elt F) ((c : Thread nD τ).loc b) :=
  fun c b => A1_1 X c b
/-- At the first region's exit: its arrays at what the pipeline leaves, every other buffer as entered. -/
def A2_1 (X : Dev nD → Valuation τ sig (Elt F)) (c : Dev nD) : Valuation τ sig (Elt F) :=
  Pipeline.withArrays spec3 c (A1_1 X c) fun w => (dat3 (U1_1 X) c).arrAt w cfg3.N
theorem A2_1_arr (X : Dev nD → Valuation τ sig (Elt F)) (c : Dev nD) (w : Fin cfg3.W) :
    A2_1 X c (Proc.devRef .tc (Pipeline.arrRef spec3 w)) = (dat3 (U1_1 X) c).arrAt w cfg3.N := by
  unfold A2_1; exact Pipeline.withArrays_arr spec3 launch3.win.arr_inj c _ _ w
theorem A2_1_of_ne (X : Dev nD → Valuation τ sig (Elt F)) (c : Dev nD) (b : Ref sig .tc) (hb : ∀ w, Pipeline.arrRef spec3 w ≠ b) :
    A2_1 X c (Proc.devRef .tc b) = A1_1 X c (Proc.devRef .tc b) := by
  unfold A2_1; exact Pipeline.withArrays_of_ne spec3 c _ _ b hb
/-- After the layer's second stretch of host operations (the second region's entry). -/
def A3_1 (X : Dev nD → Valuation τ sig (Elt F)) (c : Dev nD) : Valuation τ sig (Elt F) :=
  StableHlo.after hostOps4 (A2_1 X c)
/-- The same read at the TensorCore's references. -/
abbrev U3_1 (X : Dev nD → Valuation τ sig (Elt F)) : (c : Dev nD) → (b : Ref sig .tc) → Buf (Elt F) ((c : Thread nD τ).loc b) :=
  fun c b => A3_1 X c b
/-- At the second region's exit: its arrays at what the pipeline leaves, every other buffer as entered. -/
def A4_1 (X : Dev nD → Valuation τ sig (Elt F)) (c : Dev nD) : Valuation τ sig (Elt F) :=
  Pipeline.withArrays spec4 c (A3_1 X c) fun w => (dat4 (U3_1 X) c).arrAt w cfg4.N
theorem A4_1_arr (X : Dev nD → Valuation τ sig (Elt F)) (c : Dev nD) (w : Fin cfg4.W) :
    A4_1 X c (Proc.devRef .tc (Pipeline.arrRef spec4 w)) = (dat4 (U3_1 X) c).arrAt w cfg4.N := by
  unfold A4_1; exact Pipeline.withArrays_arr spec4 launch4.win.arr_inj c _ _ w
theorem A4_1_of_ne (X : Dev nD → Valuation τ sig (Elt F)) (c : Dev nD) (b : Ref sig .tc) (hb : ∀ w, Pipeline.arrRef spec4 w ≠ b) :
    A4_1 X c (Proc.devRef .tc b) = A3_1 X c (Proc.devRef .tc b) := by
  unfold A4_1; exact Pipeline.withArrays_of_ne spec4 c _ _ b hb
/-- After the layer's third stretch of host operations (the third region's entry). -/
def A5_1 (X : Dev nD → Valuation τ sig (Elt F)) (c : Dev nD) : Valuation τ sig (Elt F) :=
  StableHlo.after hostOps5 (A4_1 X c)
/-- The same read at the TensorCore's references. -/
abbrev U5_1 (X : Dev nD → Valuation τ sig (Elt F)) : (c : Dev nD) → (b : Ref sig .tc) → Buf (Elt F) ((c : Thread nD τ).loc b) :=
  fun c b => A5_1 X c b
/-- At the third region's exit: its arrays at what the pipeline leaves, every other buffer as entered. -/
def A6_1 (X : Dev nD → Valuation τ sig (Elt F)) (c : Dev nD) : Valuation τ sig (Elt F) :=
  Pipeline.withArrays spec5 c (A5_1 X c) fun w => (dat5 (U5_1 X) c).arrAt w cfg5.N
theorem A6_1_arr (X : Dev nD → Valuation τ sig (Elt F)) (c : Dev nD) (w : Fin cfg5.W) :
    A6_1 X c (Proc.devRef .tc (Pipeline.arrRef spec5 w)) = (dat5 (U5_1 X) c).arrAt w cfg5.N := by
  unfold A6_1; exact Pipeline.withArrays_arr spec5 launch5.win.arr_inj c _ _ w
theorem A6_1_of_ne (X : Dev nD → Valuation τ sig (Elt F)) (c : Dev nD) (b : Ref sig .tc) (hb : ∀ w, Pipeline.arrRef spec5 w ≠ b) :
    A6_1 X c (Proc.devRef .tc b) = A5_1 X c (Proc.devRef .tc b) := by
  unfold A6_1; exact Pipeline.withArrays_of_ne spec5 c _ _ b hb

/-! ## Layer 2: regions 6, 7, 8 -/

/-- After the layer's first stretch of host operations (the first region's entry). -/
def A1_2 (X : Dev nD → Valuation τ sig (Elt F)) (c : Dev nD) : Valuation τ sig (Elt F) :=
  StableHlo.after hostOps6 (X c)
/-- The same read at the TensorCore's references. -/
abbrev U1_2 (X : Dev nD → Valuation τ sig (Elt F)) : (c : Dev nD) → (b : Ref sig .tc) → Buf (Elt F) ((c : Thread nD τ).loc b) :=
  fun c b => A1_2 X c b
/-- At the first region's exit: its arrays at what the pipeline leaves, every other buffer as entered. -/
def A2_2 (X : Dev nD → Valuation τ sig (Elt F)) (c : Dev nD) : Valuation τ sig (Elt F) :=
  Pipeline.withArrays spec6 c (A1_2 X c) fun w => (dat6 (U1_2 X) c).arrAt w cfg6.N
theorem A2_2_arr (X : Dev nD → Valuation τ sig (Elt F)) (c : Dev nD) (w : Fin cfg6.W) :
    A2_2 X c (Proc.devRef .tc (Pipeline.arrRef spec6 w)) = (dat6 (U1_2 X) c).arrAt w cfg6.N := by
  unfold A2_2; exact Pipeline.withArrays_arr spec6 launch6.win.arr_inj c _ _ w
theorem A2_2_of_ne (X : Dev nD → Valuation τ sig (Elt F)) (c : Dev nD) (b : Ref sig .tc) (hb : ∀ w, Pipeline.arrRef spec6 w ≠ b) :
    A2_2 X c (Proc.devRef .tc b) = A1_2 X c (Proc.devRef .tc b) := by
  unfold A2_2; exact Pipeline.withArrays_of_ne spec6 c _ _ b hb
/-- After the layer's second stretch of host operations (the second region's entry). -/
def A3_2 (X : Dev nD → Valuation τ sig (Elt F)) (c : Dev nD) : Valuation τ sig (Elt F) :=
  StableHlo.after hostOps7 (A2_2 X c)
/-- The same read at the TensorCore's references. -/
abbrev U3_2 (X : Dev nD → Valuation τ sig (Elt F)) : (c : Dev nD) → (b : Ref sig .tc) → Buf (Elt F) ((c : Thread nD τ).loc b) :=
  fun c b => A3_2 X c b
/-- At the second region's exit: its arrays at what the pipeline leaves, every other buffer as entered. -/
def A4_2 (X : Dev nD → Valuation τ sig (Elt F)) (c : Dev nD) : Valuation τ sig (Elt F) :=
  Pipeline.withArrays spec7 c (A3_2 X c) fun w => (dat7 (U3_2 X) c).arrAt w cfg7.N
theorem A4_2_arr (X : Dev nD → Valuation τ sig (Elt F)) (c : Dev nD) (w : Fin cfg7.W) :
    A4_2 X c (Proc.devRef .tc (Pipeline.arrRef spec7 w)) = (dat7 (U3_2 X) c).arrAt w cfg7.N := by
  unfold A4_2; exact Pipeline.withArrays_arr spec7 launch7.win.arr_inj c _ _ w
theorem A4_2_of_ne (X : Dev nD → Valuation τ sig (Elt F)) (c : Dev nD) (b : Ref sig .tc) (hb : ∀ w, Pipeline.arrRef spec7 w ≠ b) :
    A4_2 X c (Proc.devRef .tc b) = A3_2 X c (Proc.devRef .tc b) := by
  unfold A4_2; exact Pipeline.withArrays_of_ne spec7 c _ _ b hb
/-- After the layer's third stretch of host operations (the third region's entry). -/
def A5_2 (X : Dev nD → Valuation τ sig (Elt F)) (c : Dev nD) : Valuation τ sig (Elt F) :=
  StableHlo.after hostOps8 (A4_2 X c)
/-- The same read at the TensorCore's references. -/
abbrev U5_2 (X : Dev nD → Valuation τ sig (Elt F)) : (c : Dev nD) → (b : Ref sig .tc) → Buf (Elt F) ((c : Thread nD τ).loc b) :=
  fun c b => A5_2 X c b
/-- At the third region's exit: its arrays at what the pipeline leaves, every other buffer as entered. -/
def A6_2 (X : Dev nD → Valuation τ sig (Elt F)) (c : Dev nD) : Valuation τ sig (Elt F) :=
  Pipeline.withArrays spec8 c (A5_2 X c) fun w => (dat8 (U5_2 X) c).arrAt w cfg8.N
theorem A6_2_arr (X : Dev nD → Valuation τ sig (Elt F)) (c : Dev nD) (w : Fin cfg8.W) :
    A6_2 X c (Proc.devRef .tc (Pipeline.arrRef spec8 w)) = (dat8 (U5_2 X) c).arrAt w cfg8.N := by
  unfold A6_2; exact Pipeline.withArrays_arr spec8 launch8.win.arr_inj c _ _ w
theorem A6_2_of_ne (X : Dev nD → Valuation τ sig (Elt F)) (c : Dev nD) (b : Ref sig .tc) (hb : ∀ w, Pipeline.arrRef spec8 w ≠ b) :
    A6_2 X c (Proc.devRef .tc b) = A5_2 X c (Proc.devRef .tc b) := by
  unfold A6_2; exact Pipeline.withArrays_of_ne spec8 c _ _ b hb

/-! ## Layer 3: regions 9, 10, 11 -/

/-- After the layer's first stretch of host operations (the first region's entry). -/
def A1_3 (X : Dev nD → Valuation τ sig (Elt F)) (c : Dev nD) : Valuation τ sig (Elt F) :=
  StableHlo.after hostOps9 (X c)
/-- The same read at the TensorCore's references. -/
abbrev U1_3 (X : Dev nD → Valuation τ sig (Elt F)) : (c : Dev nD) → (b : Ref sig .tc) → Buf (Elt F) ((c : Thread nD τ).loc b) :=
  fun c b => A1_3 X c b
/-- At the first region's exit: its arrays at what the pipeline leaves, every other buffer as entered. -/
def A2_3 (X : Dev nD → Valuation τ sig (Elt F)) (c : Dev nD) : Valuation τ sig (Elt F) :=
  Pipeline.withArrays spec9 c (A1_3 X c) fun w => (dat9 (U1_3 X) c).arrAt w cfg9.N
theorem A2_3_arr (X : Dev nD → Valuation τ sig (Elt F)) (c : Dev nD) (w : Fin cfg9.W) :
    A2_3 X c (Proc.devRef .tc (Pipeline.arrRef spec9 w)) = (dat9 (U1_3 X) c).arrAt w cfg9.N := by
  unfold A2_3; exact Pipeline.withArrays_arr spec9 launch9.win.arr_inj c _ _ w
theorem A2_3_of_ne (X : Dev nD → Valuation τ sig (Elt F)) (c : Dev nD) (b : Ref sig .tc) (hb : ∀ w, Pipeline.arrRef spec9 w ≠ b) :
    A2_3 X c (Proc.devRef .tc b) = A1_3 X c (Proc.devRef .tc b) := by
  unfold A2_3; exact Pipeline.withArrays_of_ne spec9 c _ _ b hb
/-- After the layer's second stretch of host operations (the second region's entry). -/
def A3_3 (X : Dev nD → Valuation τ sig (Elt F)) (c : Dev nD) : Valuation τ sig (Elt F) :=
  StableHlo.after hostOps10 (A2_3 X c)
/-- The same read at the TensorCore's references. -/
abbrev U3_3 (X : Dev nD → Valuation τ sig (Elt F)) : (c : Dev nD) → (b : Ref sig .tc) → Buf (Elt F) ((c : Thread nD τ).loc b) :=
  fun c b => A3_3 X c b
/-- At the second region's exit: its arrays at what the pipeline leaves, every other buffer as entered. -/
def A4_3 (X : Dev nD → Valuation τ sig (Elt F)) (c : Dev nD) : Valuation τ sig (Elt F) :=
  Pipeline.withArrays spec10 c (A3_3 X c) fun w => (dat10 (U3_3 X) c).arrAt w cfg10.N
theorem A4_3_arr (X : Dev nD → Valuation τ sig (Elt F)) (c : Dev nD) (w : Fin cfg10.W) :
    A4_3 X c (Proc.devRef .tc (Pipeline.arrRef spec10 w)) = (dat10 (U3_3 X) c).arrAt w cfg10.N := by
  unfold A4_3; exact Pipeline.withArrays_arr spec10 launch10.win.arr_inj c _ _ w
theorem A4_3_of_ne (X : Dev nD → Valuation τ sig (Elt F)) (c : Dev nD) (b : Ref sig .tc) (hb : ∀ w, Pipeline.arrRef spec10 w ≠ b) :
    A4_3 X c (Proc.devRef .tc b) = A3_3 X c (Proc.devRef .tc b) := by
  unfold A4_3; exact Pipeline.withArrays_of_ne spec10 c _ _ b hb
/-- After the layer's third stretch of host operations (the third region's entry). -/
def A5_3 (X : Dev nD → Valuation τ sig (Elt F)) (c : Dev nD) : Valuation τ sig (Elt F) :=
  StableHlo.after hostOps11 (A4_3 X c)
/-- The same read at the TensorCore's references. -/
abbrev U5_3 (X : Dev nD → Valuation τ sig (Elt F)) : (c : Dev nD) → (b : Ref sig .tc) → Buf (Elt F) ((c : Thread nD τ).loc b) :=
  fun c b => A5_3 X c b
/-- At the third region's exit: its arrays at what the pipeline leaves, every other buffer as entered. -/
def A6_3 (X : Dev nD → Valuation τ sig (Elt F)) (c : Dev nD) : Valuation τ sig (Elt F) :=
  Pipeline.withArrays spec11 c (A5_3 X c) fun w => (dat11 (U5_3 X) c).arrAt w cfg11.N
theorem A6_3_arr (X : Dev nD → Valuation τ sig (Elt F)) (c : Dev nD) (w : Fin cfg11.W) :
    A6_3 X c (Proc.devRef .tc (Pipeline.arrRef spec11 w)) = (dat11 (U5_3 X) c).arrAt w cfg11.N := by
  unfold A6_3; exact Pipeline.withArrays_arr spec11 launch11.win.arr_inj c _ _ w
theorem A6_3_of_ne (X : Dev nD → Valuation τ sig (Elt F)) (c : Dev nD) (b : Ref sig .tc) (hb : ∀ w, Pipeline.arrRef spec11 w ≠ b) :
    A6_3 X c (Proc.devRef .tc b) = A5_3 X c (Proc.devRef .tc b) := by
  unfold A6_3; exact Pipeline.withArrays_of_ne spec11 c _ _ b hb

/-! ## @main's boundary contents, layer by layer -/

variable (m : (ℓ : Loc nD τ sig) → Buf (Elt F) ℓ) (ρ : Dev nD → PrngReg)

/-- Layer 0's exit contents are the layer's fold from the launch contents. -/
theorem W6_eq : W6 m ρ = A6_0 (W0 m ρ) := by
  funext c; rfl
/-- Layer 1's exit contents are the layer's fold from layer 0's exit contents. -/
theorem W12_eq : W12 m ρ = A6_1 (W6 m ρ) := by
  funext c; rfl
/-- Layer 2's exit contents are the layer's fold from layer 1's exit contents. -/
theorem W18_eq : W18 m ρ = A6_2 (W12 m ρ) := by
  funext c; rfl
/-- Layer 3's exit contents are the layer's fold from layer 2's exit contents. -/
theorem W24_eq : W24 m ρ = A6_3 (W18 m ρ) := by
  funext c; rfl

end Cert.KernelIdeal.KFold

end
-- ==== Proof.KKept.lean ====
/-
  The host operations of the kernel program write no argument.

  The arguments of @main are the first eighteen buffers of the TensorCore's far memory.  Every host operation's
  result buffer is a later one, so a stretch of host operations leaves every argument's buffer as it was.
-/
import proofs.«141482_j13434657702128_1_alg».proof.Proof.Gen.KernelIdeal.Launch
import Idealize.ShloMosaic.Lib.StableHlo.Run

noncomputable section

namespace Cert.KernelIdeal.KKept

open Cert.KernelIdeal Cert.KernelIdeal.Gen Idealize.ShloMosaic Idealize.ShloMosaic.TcCoe Idealize.SL.Sem Idealize.ShloMosaic.StableHlo

section Lemmas

variable {Val : EltTy → Type}

/-- A device buffer that is a reference past the eighteen arguments. -/
def NotArg (x : DevRef τ sig) : Prop := ∃ y : Ref sig .tc, x = Proc.devRef .tc y ∧ 18 ≤ y.idx.val

theorem notArg_of_mem_singleton {y : Ref sig .tc} (h : 18 ≤ y.idx.val) {z : DevRef τ sig}
    (hz : z ∈ ({Proc.devRef .tc y} : Finset (DevRef τ sig))) : NotArg z :=
  ⟨y, Finset.mem_singleton.mp hz, h⟩

variable {x a b c y : Ref sig .tc}

theorem nullary_notArg {v : y.ty.Contents Val} {hy} (h : 18 ≤ y.idx.val) :
    ∀ z ∈ (nullary (τ := τ) y v hy).writes, NotArg z := fun _ hz => notArg_of_mem_singleton h (nullary_writes y v hy ▸ hz)
theorem unary_notArg {f : x.ty.Contents Val → y.ty.Contents Val} {hx hy} (h : 18 ≤ y.idx.val) :
    ∀ z ∈ (unary (τ := τ) x y f hx hy).writes, NotArg z := fun _ hz => notArg_of_mem_singleton h (unary_writes x y f hx hy ▸ hz)
theorem binary_notArg {f : a.ty.Contents Val → b.ty.Contents Val → y.ty.Contents Val} {ha hb hy} (h : 18 ≤ y.idx.val) :
    ∀ z ∈ (binary (τ := τ) a b y f ha hb hy).writes, NotArg z := fun _ hz => notArg_of_mem_singleton h (binary_writes a b y f ha hb hy ▸ hz)
theorem ternary_notArg {f : c.ty.Contents Val → a.ty.Contents Val → b.ty.Contents Val → y.ty.Contents Val} {hc ha hb hy}
    (h : 18 ≤ y.idx.val) :
    ∀ z ∈ (ternary (τ := τ) c a b y f hc ha hb hy).writes, NotArg z :=
  fun _ hz => notArg_of_mem_singleton h (ternary_writes (c := c) (a := a) (b := b) (y := y) f hc ha hb hy ▸ hz)
theorem reshape_notArg {he hn hx hy} (h : 18 ≤ y.idx.val) :
    ∀ z ∈ (reshape (τ := τ) (Val := Val) x y he hn hx hy).writes, NotArg z :=
  fun _ hz => notArg_of_mem_singleton h (reshape_writes x y he hn hx hy ▸ hz)

/-- A stretch whose operations write no argument leaves an argument's buffer as it was. -/
theorem after_arg {ops : List (HloOp τ sig Val)} (h : ops.Forall fun op => ∀ z ∈ op.writes, NotArg z)
    (V : Valuation τ sig Val) {r : Ref sig .tc} (hr : r.idx.val < 18) :
    after ops V (Proc.devRef .tc r) = V (Proc.devRef .tc r) :=
  after_of_forall_not_mem ops V fun op hop hmem => by
    obtain ⟨y, e, hy⟩ := (List.forall_iff_forall_mem.mp h) op hop _ hmem
    have e' : r = y := Proc.devRef_injective _ e
    subst e'
    omega

end Lemmas

variable {F : FTy → Type} [FloatOps F]

set_option maxRecDepth 8192 in
/-- Every operation of stretch 0 writes a buffer past the arguments. -/
theorem hostOps0_writes : (hostOps0 : List (HloOp τ sig (Elt F))).Forall fun op => ∀ z ∈ op.writes, NotArg z :=
  ⟨nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 1 writes a buffer past the arguments. -/
theorem hostOps1_writes : (hostOps1 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 2 writes a buffer past the arguments. -/
theorem hostOps2_writes : (hostOps2 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 3 writes a buffer past the arguments. -/
theorem hostOps3_writes : (hostOps3 : List (HloOp τ sig (Elt F))).Forall fun op => ∀ z ∈ op.writes, NotArg z :=
  ⟨nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 4 writes a buffer past the arguments. -/
theorem hostOps4_writes : (hostOps4 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 5 writes a buffer past the arguments. -/
theorem hostOps5_writes : (hostOps5 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 6 writes a buffer past the arguments. -/
theorem hostOps6_writes : (hostOps6 : List (HloOp τ sig (Elt F))).Forall fun op => ∀ z ∈ op.writes, NotArg z :=
  ⟨nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 7 writes a buffer past the arguments. -/
theorem hostOps7_writes : (hostOps7 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 8 writes a buffer past the arguments. -/
theorem hostOps8_writes : (hostOps8 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 9 writes a buffer past the arguments. -/
theorem hostOps9_writes : (hostOps9 : List (HloOp τ sig (Elt F))).Forall fun op => ∀ z ∈ op.writes, NotArg z :=
  ⟨nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), nullary_notArg (by decide), unary_notArg (by decide), binary_notArg (by decide), nullary_notArg (by decide), unary_notArg (by decide), binary_notArg (by decide), ternary_notArg (by decide), unary_notArg (by decide), binary_notArg (by decide), nullary_notArg (by decide), unary_notArg (by decide), unary_notArg (by decide), ternary_notArg (by decide), nullary_notArg (by decide), unary_notArg (by decide), nullary_notArg (by decide), unary_notArg (by decide), unary_notArg (by decide), ternary_notArg (by decide), nullary_notArg (by decide), unary_notArg (by decide), binary_notArg (by decide), unary_notArg (by decide), binary_notArg (by decide), unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 10 writes a buffer past the arguments. -/
theorem hostOps10_writes : (hostOps10 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

set_option maxRecDepth 8192 in
/-- Every operation of stretch 11 writes a buffer past the arguments. -/
theorem hostOps11_writes : (hostOps11 : List (HloOp τ sig (Elt F))).Forall fun op => ∀ z ∈ op.writes, NotArg z :=
  ⟨unary_notArg (by decide), reshape_notArg (by decide), unary_notArg (by decide), reshape_notArg (by decide), unary_notArg (by decide), reshape_notArg (by decide), unary_notArg (by decide), reshape_notArg (by decide), unary_notArg (by decide), reshape_notArg (by decide), unary_notArg (by decide), reshape_notArg (by decide), reshape_notArg (by decide), reshape_notArg (by decide)⟩

end Cert.KernelIdeal.KKept

end
-- ==== Proof.KCarry0.lean ====
/-
  Layer 0 of the kernel program leaves the index and weight arguments as it found them: no host operation of its
  three stretches writes one, and no region has one among its arrays.
-/
import proofs.«141482_j13434657702128_1_alg».proof.Proof.KFold
import proofs.«141482_j13434657702128_1_alg».proof.Proof.KKept

set_option maxRecDepth 16384

noncomputable section

namespace Cert.KernelIdeal.KCarry0

open Idealize.ShloMosaic Idealize.ShloMosaic.TcCoe Idealize.SL.Sem Idealize.ShloMosaic.StableHlo
open Cert.KernelIdeal Cert.KernelIdeal.Gen Cert.KernelIdeal.KFold Cert.KernelIdeal.KKept

variable {F : FTy → Type} [FloatOps F]
variable (X : Dev nD → Valuation τ sig (Elt F)) (c : Dev nD)

theorem arg3 : A6_0 X c (Proc.devRef .tc main_arg3) = X c (Proc.devRef .tc main_arg3) :=
  (A6_0_of_ne X c main_arg3 (by decide)).trans <| (after_arg hostOps2_writes (A4_0 X c) (r := main_arg3) (by decide)).trans <|
  (A4_0_of_ne X c main_arg3 (by decide)).trans <| (after_arg hostOps1_writes (A2_0 X c) (r := main_arg3) (by decide)).trans <|
  (A2_0_of_ne X c main_arg3 (by decide)).trans <| after_arg hostOps0_writes (X c) (r := main_arg3) (by decide)

theorem arg4 : A6_0 X c (Proc.devRef .tc main_arg4) = X c (Proc.devRef .tc main_arg4) :=
  (A6_0_of_ne X c main_arg4 (by decide)).trans <| (after_arg hostOps2_writes (A4_0 X c) (r := main_arg4) (by decide)).trans <|
  (A4_0_of_ne X c main_arg4 (by decide)).trans <| (after_arg hostOps1_writes (A2_0 X c) (r := main_arg4) (by decide)).trans <|
  (A2_0_of_ne X c main_arg4 (by decide)).trans <| after_arg hostOps0_writes (X c) (r := main_arg4) (by decide)

theorem arg5 : A6_0 X c (Proc.devRef .tc main_arg5) = X c (Proc.devRef .tc main_arg5) :=
  (A6_0_of_ne X c main_arg5 (by decide)).trans <| (after_arg hostOps2_writes (A4_0 X c) (r := main_arg5) (by decide)).trans <|
  (A4_0_of_ne X c main_arg5 (by decide)).trans <| (after_arg hostOps1_writes (A2_0 X c) (r := main_arg5) (by decide)).trans <|
  (A2_0_of_ne X c main_arg5 (by decide)).trans <| after_arg hostOps0_writes (X c) (r := main_arg5) (by decide)

theorem arg6 : A6_0 X c (Proc.devRef .tc main_arg6) = X c (Proc.devRef .tc main_arg6) :=
  (A6_0_of_ne X c main_arg6 (by decide)).trans <| (after_arg hostOps2_writes (A4_0 X c) (r := main_arg6) (by decide)).trans <|
  (A4_0_of_ne X c main_arg6 (by decide)).trans <| (after_arg hostOps1_writes (A2_0 X c) (r := main_arg6) (by decide)).trans <|
  (A2_0_of_ne X c main_arg6 (by decide)).trans <| after_arg hostOps0_writes (X c) (r := main_arg6) (by decide)

theorem arg7 : A6_0 X c (Proc.devRef .tc main_arg7) = X c (Proc.devRef .tc main_arg7) :=
  (A6_0_of_ne X c main_arg7 (by decide)).trans <| (after_arg hostOps2_writes (A4_0 X c) (r := main_arg7) (by decide)).trans <|
  (A4_0_of_ne X c main_arg7 (by decide)).trans <| (after_arg hostOps1_writes (A2_0 X c) (r := main_arg7) (by decide)).trans <|
  (A2_0_of_ne X c main_arg7 (by decide)).trans <| after_arg hostOps0_writes (X c) (r := main_arg7) (by decide)

theorem arg8 : A6_0 X c (Proc.devRef .tc main_arg8) = X c (Proc.devRef .tc main_arg8) :=
  (A6_0_of_ne X c main_arg8 (by decide)).trans <| (after_arg hostOps2_writes (A4_0 X c) (r := main_arg8) (by decide)).trans <|
  (A4_0_of_ne X c main_arg8 (by decide)).trans <| (after_arg hostOps1_writes (A2_0 X c) (r := main_arg8) (by decide)).trans <|
  (A2_0_of_ne X c main_arg8 (by decide)).trans <| after_arg hostOps0_writes (X c) (r := main_arg8) (by decide)

theorem arg9 : A6_0 X c (Proc.devRef .tc main_arg9) = X c (Proc.devRef .tc main_arg9) :=
  (A6_0_of_ne X c main_arg9 (by decide)).trans <| (after_arg hostOps2_writes (A4_0 X c) (r := main_arg9) (by decide)).trans <|
  (A4_0_of_ne X c main_arg9 (by decide)).trans <| (after_arg hostOps1_writes (A2_0 X c) (r := main_arg9) (by decide)).trans <|
  (A2_0_of_ne X c main_arg9 (by decide)).trans <| after_arg hostOps0_writes (X c) (r := main_arg9) (by decide)

theorem arg10 : A6_0 X c (Proc.devRef .tc main_arg10) = X c (Proc.devRef .tc main_arg10) :=
  (A6_0_of_ne X c main_arg10 (by decide)).trans <| (after_arg hostOps2_writes (A4_0 X c) (r := main_arg10) (by decide)).trans <|
  (A4_0_of_ne X c main_arg10 (by decide)).trans <| (after_arg hostOps1_writes (A2_0 X c) (r := main_arg10) (by decide)).trans <|
  (A2_0_of_ne X c main_arg10 (by decide)).trans <| after_arg hostOps0_writes (X c) (r := main_arg10) (by decide)

theorem arg11 : A6_0 X c (Proc.devRef .tc main_arg11) = X c (Proc.devRef .tc main_arg11) :=
  (A6_0_of_ne X c main_arg11 (by decide)).trans <| (after_arg hostOps2_writes (A4_0 X c) (r := main_arg11) (by decide)).trans <|
  (A4_0_of_ne X c main_arg11 (by decide)).trans <| (after_arg hostOps1_writes (A2_0 X c) (r := main_arg11) (by decide)).trans <|
  (A2_0_of_ne X c main_arg11 (by decide)).trans <| after_arg hostOps0_writes (X c) (r := main_arg11) (by decide)

theorem arg12 : A6_0 X c (Proc.devRef .tc main_arg12) = X c (Proc.devRef .tc main_arg12) :=
  (A6_0_of_ne X c main_arg12 (by decide)).trans <| (after_arg hostOps2_writes (A4_0 X c) (r := main_arg12) (by decide)).trans <|
  (A4_0_of_ne X c main_arg12 (by decide)).trans <| (after_arg hostOps1_writes (A2_0 X c) (r := main_arg12) (by decide)).trans <|
  (A2_0_of_ne X c main_arg12 (by decide)).trans <| after_arg hostOps0_writes (X c) (r := main_arg12) (by decide)

theorem arg13 : A6_0 X c (Proc.devRef .tc main_arg13) = X c (Proc.devRef .tc main_arg13) :=
  (A6_0_of_ne X c main_arg13 (by decide)).trans <| (after_arg hostOps2_writes (A4_0 X c) (r := main_arg13) (by decide)).trans <|
  (A4_0_of_ne X c main_arg13 (by decide)).trans <| (after_arg hostOps1_writes (A2_0 X c) (r := main_arg13) (by decide)).trans <|
  (A2_0_of_ne X c main_arg13 (by decide)).trans <| after_arg hostOps0_writes (X c) (r := main_arg13) (by decide)

theorem arg14 : A6_0 X c (Proc.devRef .tc main_arg14) = X c (Proc.devRef .tc main_arg14) :=
  (A6_0_of_ne X c main_arg14 (by decide)).trans <| (after_arg hostOps2_writes (A4_0 X c) (r := main_arg14) (by decide)).trans <|
  (A4_0_of_ne X c main_arg14 (by decide)).trans <| (after_arg hostOps1_writes (A2_0 X c) (r := main_arg14) (by decide)).trans <|
  (A2_0_of_ne X c main_arg14 (by decide)).trans <| after_arg hostOps0_writes (X c) (r := main_arg14) (by decide)

theorem arg15 : A6_0 X c (Proc.devRef .tc main_arg15) = X c (Proc.devRef .tc main_arg15) :=
  (A6_0_of_ne X c main_arg15 (by decide)).trans <| (after_arg hostOps2_writes (A4_0 X c) (r := main_arg15) (by decide)).trans <|
  (A4_0_of_ne X c main_arg15 (by decide)).trans <| (after_arg hostOps1_writes (A2_0 X c) (r := main_arg15) (by decide)).trans <|
  (A2_0_of_ne X c main_arg15 (by decide)).trans <| after_arg hostOps0_writes (X c) (r := main_arg15) (by decide)

theorem arg16 : A6_0 X c (Proc.devRef .tc main_arg16) = X c (Proc.devRef .tc main_arg16) :=
  (A6_0_of_ne X c main_arg16 (by decide)).trans <| (after_arg hostOps2_writes (A4_0 X c) (r := main_arg16) (by decide)).trans <|
  (A4_0_of_ne X c main_arg16 (by decide)).trans <| (after_arg hostOps1_writes (A2_0 X c) (r := main_arg16) (by decide)).trans <|
  (A2_0_of_ne X c main_arg16 (by decide)).trans <| after_arg hostOps0_writes (X c) (r := main_arg16) (by decide)

theorem arg17 : A6_0 X c (Proc.devRef .tc main_arg17) = X c (Proc.devRef .tc main_arg17) :=
  (A6_0_of_ne X c main_arg17 (by decide)).trans <| (after_arg hostOps2_writes (A4_0 X c) (r := main_arg17) (by decide)).trans <|
  (A4_0_of_ne X c main_arg17 (by decide)).trans <| (after_arg hostOps1_writes (A2_0 X c) (r := main_arg17) (by decide)).trans <|
  (A2_0_of_ne X c main_arg17 (by decide)).trans <| after_arg hostOps0_writes (X c) (r := main_arg17) (by decide)

end Cert.KernelIdeal.KCarry0

end
-- ==== Proof.KCarry1.lean ====
/-
  Layer 1 of the kernel program leaves the index and weight arguments as it found them: no host operation of its
  three stretches writes one, and no region has one among its arrays.
-/
import proofs.«141482_j13434657702128_1_alg».proof.Proof.KFold
import proofs.«141482_j13434657702128_1_alg».proof.Proof.KKept

set_option maxRecDepth 16384

noncomputable section

namespace Cert.KernelIdeal.KCarry1

open Idealize.ShloMosaic Idealize.ShloMosaic.TcCoe Idealize.SL.Sem Idealize.ShloMosaic.StableHlo
open Cert.KernelIdeal Cert.KernelIdeal.Gen Cert.KernelIdeal.KFold Cert.KernelIdeal.KKept

variable {F : FTy → Type} [FloatOps F]
variable (X : Dev nD → Valuation τ sig (Elt F)) (c : Dev nD)

theorem arg3 : A6_1 X c (Proc.devRef .tc main_arg3) = X c (Proc.devRef .tc main_arg3) :=
  (A6_1_of_ne X c main_arg3 (by decide)).trans <| (after_arg hostOps5_writes (A4_1 X c) (r := main_arg3) (by decide)).trans <|
  (A4_1_of_ne X c main_arg3 (by decide)).trans <| (after_arg hostOps4_writes (A2_1 X c) (r := main_arg3) (by decide)).trans <|
  (A2_1_of_ne X c main_arg3 (by decide)).trans <| after_arg hostOps3_writes (X c) (r := main_arg3) (by decide)

theorem arg4 : A6_1 X c (Proc.devRef .tc main_arg4) = X c (Proc.devRef .tc main_arg4) :=
  (A6_1_of_ne X c main_arg4 (by decide)).trans <| (after_arg hostOps5_writes (A4_1 X c) (r := main_arg4) (by decide)).trans <|
  (A4_1_of_ne X c main_arg4 (by decide)).trans <| (after_arg hostOps4_writes (A2_1 X c) (r := main_arg4) (by decide)).trans <|
  (A2_1_of_ne X c main_arg4 (by decide)).trans <| after_arg hostOps3_writes (X c) (r := main_arg4) (by decide)

theorem arg5 : A6_1 X c (Proc.devRef .tc main_arg5) = X c (Proc.devRef .tc main_arg5) :=
  (A6_1_of_ne X c main_arg5 (by decide)).trans <| (after_arg hostOps5_writes (A4_1 X c) (r := main_arg5) (by decide)).trans <|
  (A4_1_of_ne X c main_arg5 (by decide)).trans <| (after_arg hostOps4_writes (A2_1 X c) (r := main_arg5) (by decide)).trans <|
  (A2_1_of_ne X c main_arg5 (by decide)).trans <| after_arg hostOps3_writes (X c) (r := main_arg5) (by decide)

theorem arg6 : A6_1 X c (Proc.devRef .tc main_arg6) = X c (Proc.devRef .tc main_arg6) :=
  (A6_1_of_ne X c main_arg6 (by decide)).trans <| (after_arg hostOps5_writes (A4_1 X c) (r := main_arg6) (by decide)).trans <|
  (A4_1_of_ne X c main_arg6 (by decide)).trans <| (after_arg hostOps4_writes (A2_1 X c) (r := main_arg6) (by decide)).trans <|
  (A2_1_of_ne X c main_arg6 (by decide)).trans <| after_arg hostOps3_writes (X c) (r := main_arg6) (by decide)

theorem arg7 : A6_1 X c (Proc.devRef .tc main_arg7) = X c (Proc.devRef .tc main_arg7) :=
  (A6_1_of_ne X c main_arg7 (by decide)).trans <| (after_arg hostOps5_writes (A4_1 X c) (r := main_arg7) (by decide)).trans <|
  (A4_1_of_ne X c main_arg7 (by decide)).trans <| (after_arg hostOps4_writes (A2_1 X c) (r := main_arg7) (by decide)).trans <|
  (A2_1_of_ne X c main_arg7 (by decide)).trans <| after_arg hostOps3_writes (X c) (r := main_arg7) (by decide)

theorem arg8 : A6_1 X c (Proc.devRef .tc main_arg8) = X c (Proc.devRef .tc main_arg8) :=
  (A6_1_of_ne X c main_arg8 (by decide)).trans <| (after_arg hostOps5_writes (A4_1 X c) (r := main_arg8) (by decide)).trans <|
  (A4_1_of_ne X c main_arg8 (by decide)).trans <| (after_arg hostOps4_writes (A2_1 X c) (r := main_arg8) (by decide)).trans <|
  (A2_1_of_ne X c main_arg8 (by decide)).trans <| after_arg hostOps3_writes (X c) (r := main_arg8) (by decide)

theorem arg9 : A6_1 X c (Proc.devRef .tc main_arg9) = X c (Proc.devRef .tc main_arg9) :=
  (A6_1_of_ne X c main_arg9 (by decide)).trans <| (after_arg hostOps5_writes (A4_1 X c) (r := main_arg9) (by decide)).trans <|
  (A4_1_of_ne X c main_arg9 (by decide)).trans <| (after_arg hostOps4_writes (A2_1 X c) (r := main_arg9) (by decide)).trans <|
  (A2_1_of_ne X c main_arg9 (by decide)).trans <| after_arg hostOps3_writes (X c) (r := main_arg9) (by decide)

theorem arg10 : A6_1 X c (Proc.devRef .tc main_arg10) = X c (Proc.devRef .tc main_arg10) :=
  (A6_1_of_ne X c main_arg10 (by decide)).trans <| (after_arg hostOps5_writes (A4_1 X c) (r := main_arg10) (by decide)).trans <|
  (A4_1_of_ne X c main_arg10 (by decide)).trans <| (after_arg hostOps4_writes (A2_1 X c) (r := main_arg10) (by decide)).trans <|
  (A2_1_of_ne X c main_arg10 (by decide)).trans <| after_arg hostOps3_writes (X c) (r := main_arg10) (by decide)

theorem arg11 : A6_1 X c (Proc.devRef .tc main_arg11) = X c (Proc.devRef .tc main_arg11) :=
  (A6_1_of_ne X c main_arg11 (by decide)).trans <| (after_arg hostOps5_writes (A4_1 X c) (r := main_arg11) (by decide)).trans <|
  (A4_1_of_ne X c main_arg11 (by decide)).trans <| (after_arg hostOps4_writes (A2_1 X c) (r := main_arg11) (by decide)).trans <|
  (A2_1_of_ne X c main_arg11 (by decide)).trans <| after_arg hostOps3_writes (X c) (r := main_arg11) (by decide)

theorem arg12 : A6_1 X c (Proc.devRef .tc main_arg12) = X c (Proc.devRef .tc main_arg12) :=
  (A6_1_of_ne X c main_arg12 (by decide)).trans <| (after_arg hostOps5_writes (A4_1 X c) (r := main_arg12) (by decide)).trans <|
  (A4_1_of_ne X c main_arg12 (by decide)).trans <| (after_arg hostOps4_writes (A2_1 X c) (r := main_arg12) (by decide)).trans <|
  (A2_1_of_ne X c main_arg12 (by decide)).trans <| after_arg hostOps3_writes (X c) (r := main_arg12) (by decide)

theorem arg13 : A6_1 X c (Proc.devRef .tc main_arg13) = X c (Proc.devRef .tc main_arg13) :=
  (A6_1_of_ne X c main_arg13 (by decide)).trans <| (after_arg hostOps5_writes (A4_1 X c) (r := main_arg13) (by decide)).trans <|
  (A4_1_of_ne X c main_arg13 (by decide)).trans <| (after_arg hostOps4_writes (A2_1 X c) (r := main_arg13) (by decide)).trans <|
  (A2_1_of_ne X c main_arg13 (by decide)).trans <| after_arg hostOps3_writes (X c) (r := main_arg13) (by decide)

theorem arg14 : A6_1 X c (Proc.devRef .tc main_arg14) = X c (Proc.devRef .tc main_arg14) :=
  (A6_1_of_ne X c main_arg14 (by decide)).trans <| (after_arg hostOps5_writes (A4_1 X c) (r := main_arg14) (by decide)).trans <|
  (A4_1_of_ne X c main_arg14 (by decide)).trans <| (after_arg hostOps4_writes (A2_1 X c) (r := main_arg14) (by decide)).trans <|
  (A2_1_of_ne X c main_arg14 (by decide)).trans <| after_arg hostOps3_writes (X c) (r := main_arg14) (by decide)

theorem arg15 : A6_1 X c (Proc.devRef .tc main_arg15) = X c (Proc.devRef .tc main_arg15) :=
  (A6_1_of_ne X c main_arg15 (by decide)).trans <| (after_arg hostOps5_writes (A4_1 X c) (r := main_arg15) (by decide)).trans <|
  (A4_1_of_ne X c main_arg15 (by decide)).trans <| (after_arg hostOps4_writes (A2_1 X c) (r := main_arg15) (by decide)).trans <|
  (A2_1_of_ne X c main_arg15 (by decide)).trans <| after_arg hostOps3_writes (X c) (r := main_arg15) (by decide)

theorem arg16 : A6_1 X c (Proc.devRef .tc main_arg16) = X c (Proc.devRef .tc main_arg16) :=
  (A6_1_of_ne X c main_arg16 (by decide)).trans <| (after_arg hostOps5_writes (A4_1 X c) (r := main_arg16) (by decide)).trans <|
  (A4_1_of_ne X c main_arg16 (by decide)).trans <| (after_arg hostOps4_writes (A2_1 X c) (r := main_arg16) (by decide)).trans <|
  (A2_1_of_ne X c main_arg16 (by decide)).trans <| after_arg hostOps3_writes (X c) (r := main_arg16) (by decide)

theorem arg17 : A6_1 X c (Proc.devRef .tc main_arg17) = X c (Proc.devRef .tc main_arg17) :=
  (A6_1_of_ne X c main_arg17 (by decide)).trans <| (after_arg hostOps5_writes (A4_1 X c) (r := main_arg17) (by decide)).trans <|
  (A4_1_of_ne X c main_arg17 (by decide)).trans <| (after_arg hostOps4_writes (A2_1 X c) (r := main_arg17) (by decide)).trans <|
  (A2_1_of_ne X c main_arg17 (by decide)).trans <| after_arg hostOps3_writes (X c) (r := main_arg17) (by decide)

end Cert.KernelIdeal.KCarry1

end
-- ==== Proof.KCarry2.lean ====
/-
  Layer 2 of the kernel program leaves the index and weight arguments as it found them: no host operation of its
  three stretches writes one, and no region has one among its arrays.
-/
import proofs.«141482_j13434657702128_1_alg».proof.Proof.KFold
import proofs.«141482_j13434657702128_1_alg».proof.Proof.KKept

set_option maxRecDepth 16384

noncomputable section

namespace Cert.KernelIdeal.KCarry2

open Idealize.ShloMosaic Idealize.ShloMosaic.TcCoe Idealize.SL.Sem Idealize.ShloMosaic.StableHlo
open Cert.KernelIdeal Cert.KernelIdeal.Gen Cert.KernelIdeal.KFold Cert.KernelIdeal.KKept

variable {F : FTy → Type} [FloatOps F]
variable (X : Dev nD → Valuation τ sig (Elt F)) (c : Dev nD)

theorem arg3 : A6_2 X c (Proc.devRef .tc main_arg3) = X c (Proc.devRef .tc main_arg3) :=
  (A6_2_of_ne X c main_arg3 (by decide)).trans <| (after_arg hostOps8_writes (A4_2 X c) (r := main_arg3) (by decide)).trans <|
  (A4_2_of_ne X c main_arg3 (by decide)).trans <| (after_arg hostOps7_writes (A2_2 X c) (r := main_arg3) (by decide)).trans <|
  (A2_2_of_ne X c main_arg3 (by decide)).trans <| after_arg hostOps6_writes (X c) (r := main_arg3) (by decide)

theorem arg4 : A6_2 X c (Proc.devRef .tc main_arg4) = X c (Proc.devRef .tc main_arg4) :=
  (A6_2_of_ne X c main_arg4 (by decide)).trans <| (after_arg hostOps8_writes (A4_2 X c) (r := main_arg4) (by decide)).trans <|
  (A4_2_of_ne X c main_arg4 (by decide)).trans <| (after_arg hostOps7_writes (A2_2 X c) (r := main_arg4) (by decide)).trans <|
  (A2_2_of_ne X c main_arg4 (by decide)).trans <| after_arg hostOps6_writes (X c) (r := main_arg4) (by decide)

theorem arg5 : A6_2 X c (Proc.devRef .tc main_arg5) = X c (Proc.devRef .tc main_arg5) :=
  (A6_2_of_ne X c main_arg5 (by decide)).trans <| (after_arg hostOps8_writes (A4_2 X c) (r := main_arg5) (by decide)).trans <|
  (A4_2_of_ne X c main_arg5 (by decide)).trans <| (after_arg hostOps7_writes (A2_2 X c) (r := main_arg5) (by decide)).trans <|
  (A2_2_of_ne X c main_arg5 (by decide)).trans <| after_arg hostOps6_writes (X c) (r := main_arg5) (by decide)

theorem arg6 : A6_2 X c (Proc.devRef .tc main_arg6) = X c (Proc.devRef .tc main_arg6) :=
  (A6_2_of_ne X c main_arg6 (by decide)).trans <| (after_arg hostOps8_writes (A4_2 X c) (r := main_arg6) (by decide)).trans <|
  (A4_2_of_ne X c main_arg6 (by decide)).trans <| (after_arg hostOps7_writes (A2_2 X c) (r := main_arg6) (by decide)).trans <|
  (A2_2_of_ne X c main_arg6 (by decide)).trans <| after_arg hostOps6_writes (X c) (r := main_arg6) (by decide)

theorem arg7 : A6_2 X c (Proc.devRef .tc main_arg7) = X c (Proc.devRef .tc main_arg7) :=
  (A6_2_of_ne X c main_arg7 (by decide)).trans <| (after_arg hostOps8_writes (A4_2 X c) (r := main_arg7) (by decide)).trans <|
  (A4_2_of_ne X c main_arg7 (by decide)).trans <| (after_arg hostOps7_writes (A2_2 X c) (r := main_arg7) (by decide)).trans <|
  (A2_2_of_ne X c main_arg7 (by decide)).trans <| after_arg hostOps6_writes (X c) (r := main_arg7) (by decide)

theorem arg8 : A6_2 X c (Proc.devRef .tc main_arg8) = X c (Proc.devRef .tc main_arg8) :=
  (A6_2_of_ne X c main_arg8 (by decide)).trans <| (after_arg hostOps8_writes (A4_2 X c) (r := main_arg8) (by decide)).trans <|
  (A4_2_of_ne X c main_arg8 (by decide)).trans <| (after_arg hostOps7_writes (A2_2 X c) (r := main_arg8) (by decide)).trans <|
  (A2_2_of_ne X c main_arg8 (by decide)).trans <| after_arg hostOps6_writes (X c) (r := main_arg8) (by decide)

theorem arg9 : A6_2 X c (Proc.devRef .tc main_arg9) = X c (Proc.devRef .tc main_arg9) :=
  (A6_2_of_ne X c main_arg9 (by decide)).trans <| (after_arg hostOps8_writes (A4_2 X c) (r := main_arg9) (by decide)).trans <|
  (A4_2_of_ne X c main_arg9 (by decide)).trans <| (after_arg hostOps7_writes (A2_2 X c) (r := main_arg9) (by decide)).trans <|
  (A2_2_of_ne X c main_arg9 (by decide)).trans <| after_arg hostOps6_writes (X c) (r := main_arg9) (by decide)

theorem arg10 : A6_2 X c (Proc.devRef .tc main_arg10) = X c (Proc.devRef .tc main_arg10) :=
  (A6_2_of_ne X c main_arg10 (by decide)).trans <| (after_arg hostOps8_writes (A4_2 X c) (r := main_arg10) (by decide)).trans <|
  (A4_2_of_ne X c main_arg10 (by decide)).trans <| (after_arg hostOps7_writes (A2_2 X c) (r := main_arg10) (by decide)).trans <|
  (A2_2_of_ne X c main_arg10 (by decide)).trans <| after_arg hostOps6_writes (X c) (r := main_arg10) (by decide)

theorem arg11 : A6_2 X c (Proc.devRef .tc main_arg11) = X c (Proc.devRef .tc main_arg11) :=
  (A6_2_of_ne X c main_arg11 (by decide)).trans <| (after_arg hostOps8_writes (A4_2 X c) (r := main_arg11) (by decide)).trans <|
  (A4_2_of_ne X c main_arg11 (by decide)).trans <| (after_arg hostOps7_writes (A2_2 X c) (r := main_arg11) (by decide)).trans <|
  (A2_2_of_ne X c main_arg11 (by decide)).trans <| after_arg hostOps6_writes (X c) (r := main_arg11) (by decide)

theorem arg12 : A6_2 X c (Proc.devRef .tc main_arg12) = X c (Proc.devRef .tc main_arg12) :=
  (A6_2_of_ne X c main_arg12 (by decide)).trans <| (after_arg hostOps8_writes (A4_2 X c) (r := main_arg12) (by decide)).trans <|
  (A4_2_of_ne X c main_arg12 (by decide)).trans <| (after_arg hostOps7_writes (A2_2 X c) (r := main_arg12) (by decide)).trans <|
  (A2_2_of_ne X c main_arg12 (by decide)).trans <| after_arg hostOps6_writes (X c) (r := main_arg12) (by decide)

theorem arg13 : A6_2 X c (Proc.devRef .tc main_arg13) = X c (Proc.devRef .tc main_arg13) :=
  (A6_2_of_ne X c main_arg13 (by decide)).trans <| (after_arg hostOps8_writes (A4_2 X c) (r := main_arg13) (by decide)).trans <|
  (A4_2_of_ne X c main_arg13 (by decide)).trans <| (after_arg hostOps7_writes (A2_2 X c) (r := main_arg13) (by decide)).trans <|
  (A2_2_of_ne X c main_arg13 (by decide)).trans <| after_arg hostOps6_writes (X c) (r := main_arg13) (by decide)

theorem arg14 : A6_2 X c (Proc.devRef .tc main_arg14) = X c (Proc.devRef .tc main_arg14) :=
  (A6_2_of_ne X c main_arg14 (by decide)).trans <| (after_arg hostOps8_writes (A4_2 X c) (r := main_arg14) (by decide)).trans <|
  (A4_2_of_ne X c main_arg14 (by decide)).trans <| (after_arg hostOps7_writes (A2_2 X c) (r := main_arg14) (by decide)).trans <|
  (A2_2_of_ne X c main_arg14 (by decide)).trans <| after_arg hostOps6_writes (X c) (r := main_arg14) (by decide)

theorem arg15 : A6_2 X c (Proc.devRef .tc main_arg15) = X c (Proc.devRef .tc main_arg15) :=
  (A6_2_of_ne X c main_arg15 (by decide)).trans <| (after_arg hostOps8_writes (A4_2 X c) (r := main_arg15) (by decide)).trans <|
  (A4_2_of_ne X c main_arg15 (by decide)).trans <| (after_arg hostOps7_writes (A2_2 X c) (r := main_arg15) (by decide)).trans <|
  (A2_2_of_ne X c main_arg15 (by decide)).trans <| after_arg hostOps6_writes (X c) (r := main_arg15) (by decide)

theorem arg16 : A6_2 X c (Proc.devRef .tc main_arg16) = X c (Proc.devRef .tc main_arg16) :=
  (A6_2_of_ne X c main_arg16 (by decide)).trans <| (after_arg hostOps8_writes (A4_2 X c) (r := main_arg16) (by decide)).trans <|
  (A4_2_of_ne X c main_arg16 (by decide)).trans <| (after_arg hostOps7_writes (A2_2 X c) (r := main_arg16) (by decide)).trans <|
  (A2_2_of_ne X c main_arg16 (by decide)).trans <| after_arg hostOps6_writes (X c) (r := main_arg16) (by decide)

theorem arg17 : A6_2 X c (Proc.devRef .tc main_arg17) = X c (Proc.devRef .tc main_arg17) :=
  (A6_2_of_ne X c main_arg17 (by decide)).trans <| (after_arg hostOps8_writes (A4_2 X c) (r := main_arg17) (by decide)).trans <|
  (A4_2_of_ne X c main_arg17 (by decide)).trans <| (after_arg hostOps7_writes (A2_2 X c) (r := main_arg17) (by decide)).trans <|
  (A2_2_of_ne X c main_arg17 (by decide)).trans <| after_arg hostOps6_writes (X c) (r := main_arg17) (by decide)

end Cert.KernelIdeal.KCarry2

end
-- ==== Proof.Spec.lean ====
/-
  The mathematics of one node-type update of the heterogeneous GraphSAGE layer, on the extended reals.

  For a destination node with feature row `h` and two incoming relations with mean-aggregated
  neighbour rows `a1`, `a2`, each relation contributes the affine term `a · Wl + h · Wr + b`
  (`lin`); the two terms are averaged (`comb`: one half of their sum).  Hidden layers clamp the
  average at zero (`combRelu`); the last layer divides the averaged row by its Euclidean norm,
  the norm bounded below by the constant 1e-12 as a float (`combNorm`).

  Every entry of the output row depends on ONE row of each row-indexed input: that is why a
  computation over 2000-row blocks and one over whole arrays agree.
-/
import Idealize.ShloMosaic.PureOps.Ideal
import Idealize.ShloMosaic.Lib.ValueIdx

noncomputable section

namespace Cert.Spec

open Idealize.ShloMosaic Idealize.ShloMosaic.ValueIdx

/-- A 128 × 128 matrix of extended reals. -/
abbrev Mat : Type := (⟨2, ![128, 128]⟩ : Shape).Idx → EReal
/-- An array of `n` rows of 128 extended reals. -/
abbrev Rows (n : Nat) : Type := (⟨2, ![n, 128]⟩ : Shape).Idx → EReal

/-- The float constants the programs share: one half, zero, and the lower bound of the norm. -/
abbrev half : EReal := Ideal.ofBits .f32 0x3F000000#32
abbrev zero : EReal := Ideal.ofBits .f32 0x00000000#32
abbrev tiny : EReal := Ideal.ofBits .f32 0x2B8CBCCC#32

/-- Entry `j` of a row times a matrix. -/
def rowDot (a : Fin 128 → EReal) (w : Mat) (j : Fin 128) : EReal := ∑ k : Fin 128, a k * w (ix2 k j)

/-- One relation's term at column `j`: aggregated row times `wl`, plus own row times `wr`, plus bias. -/
def lin (a h : Fin 128 → EReal) (wl wr : Mat) (b : Fin 128 → EReal) (j : Fin 128) : EReal :=
  (rowDot a wl j + rowDot h wr j) + b j

/-- The mean of the two relations' terms. -/
def comb (a1 a2 h : Fin 128 → EReal) (wl1 wr1 : Mat) (b1 : Fin 128 → EReal) (wl2 wr2 : Mat) (b2 : Fin 128 → EReal)
    (j : Fin 128) : EReal :=
  half * (lin a1 h wl1 wr1 b1 j + lin a2 h wl2 wr2 b2 j)

/-- A hidden layer's entry: the mean clamped at zero. -/
def combRelu (a1 a2 h : Fin 128 → EReal) (wl1 wr1 : Mat) (b1 : Fin 128 → EReal) (wl2 wr2 : Mat) (b2 : Fin 128 → EReal)
    (j : Fin 128) : EReal :=
  max (comb a1 a2 h wl1 wr1 b1 wl2 wr2 b2 j) zero

/-- The last layer's entry: the mean divided by the row's Euclidean norm, the norm at least `tiny`. -/
def combNorm (a1 a2 h : Fin 128 → EReal) (wl1 wr1 : Mat) (b1 : Fin 128 → EReal) (wl2 wr2 : Mat) (b2 : Fin 128 → EReal)
    (j : Fin 128) : EReal :=
  Ideal.div (comb a1 a2 h wl1 wr1 b1 wl2 wr2 b2 j)
    (max (Ideal.sqrt (∑ k : Fin 128, comb a1 a2 h wl1 wr1 b1 wl2 wr2 b2 k * comb a1 a2 h wl1 wr1 b1 wl2 wr2 b2 k)) tiny)

/-- Row `i` of an array of rows. -/
def rowOf {n : Nat} (A : Rows n) (i : Fin n) : Fin 128 → EReal := fun k => A (ix2 i k)

/-- A hidden layer's update of a whole node type: row by row. -/
def reluArr (n : Nat) (A1 A2 H : Rows n) (wl1 wr1 : Mat) (b1 : Fin 128 → EReal) (wl2 wr2 : Mat) (b2 : Fin 128 → EReal) : Rows n :=
  fun i => combRelu (rowOf A1 (i 0)) (rowOf A2 (i 0)) (rowOf H (i 0)) wl1 wr1 b1 wl2 wr2 b2 (i 1)

/-- The last layer's update of a whole node type: row by row. -/
def normArr (n : Nat) (A1 A2 H : Rows n) (wl1 wr1 : Mat) (b1 : Fin 128 → EReal) (wl2 wr2 : Mat) (b2 : Fin 128 → EReal) : Rows n :=
  fun i => combNorm (rowOf A1 (i 0)) (rowOf A2 (i 0)) (rowOf H (i 0)) wl1 wr1 b1 wl2 wr2 b2 (i 1)

theorem reluArr_apply (n : Nat) (A1 A2 H : Rows n) (wl1 wr1 : Mat) (b1 : Fin 128 → EReal) (wl2 wr2 : Mat) (b2 : Fin 128 → EReal)
    (i : Fin n) (j : Fin 128) :
    reluArr n A1 A2 H wl1 wr1 b1 wl2 wr2 b2 (ix2 i j) = combRelu (rowOf A1 i) (rowOf A2 i) (rowOf H i) wl1 wr1 b1 wl2 wr2 b2 j := rfl

theorem normArr_apply (n : Nat) (A1 A2 H : Rows n) (wl1 wr1 : Mat) (b1 : Fin 128 → EReal) (wl2 wr2 : Mat) (b2 : Fin 128 → EReal)
    (i : Fin n) (j : Fin 128) :
    normArr n A1 A2 H wl1 wr1 b1 wl2 wr2 b2 (ix2 i j) = combNorm (rowOf A1 i) (rowOf A2 i) (rowOf H i) wl1 wr1 b1 wl2 wr2 b2 j := rfl

end Cert.Spec

end
-- ==== Proof.Block.lean ====
/-
  What one grid point's body computes, entry by entry: row `r`, column `j` of the 2000 × 128 output block is the
  node update `Spec.combRelu` (hidden layers) or `Spec.combNorm` (last layer) of row `r` of the three row blocks,
  the four 128 × 128 weight matrices and the two bias rows.  The block matrix products into a zero accumulator are
  plain sums over the contracted axis, and rounding to bf16 is the identity on the extended reals.
-/
import proofs.«141482_j13434657702128_1_alg».proof.Proof.Gen.KernelIdeal.Skeleton
import proofs.«141482_j13434657702128_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Block

open Idealize.ShloMosaic Idealize.ShloMosaic.ValueIdx Cert.KernelIdeal

/-! ## The block product at an entry

The product's dimension numbers contract the block's column axis with the matrix's row axis: at output entry (r, j) and
contraction coordinate k the left operand is read at (r, k) and the right at (k, j); the four lemmas below are the four
coordinates. -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 × 128 block times a 128 × 128 matrix into the zero accumulator: entry (r, j) is the sum over k of
    the block at (r, k) times the matrix at (k, j). -/
theorem matmul_zero_apply {φ₁ φ₂ : FTy} (lhs : FVec Ideal S2000x128 φ₁) (rhs : FVec Ideal S128x128 φ₂) (r : Fin 2000) (j : Fin 128) :
    matmul dot_S2000x128_S128x128_S2000x128_1_0_0_1_n_n none lhs rhs (constant (F := Ideal) S2000x128 .f32 0x00000000#32) (ix2 r j)
      = ∑ k : Fin 128, lhs (ix2 r k) * rhs (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The row sum and the column layouts -/

/-- The sum of a 2000 × 128 block over its columns, at row r: the sum over k of the block at (r, k). -/
theorem rowSum_apply (src : FVec Ideal S2000x128 .f32) (h : S2000x128.Reduces [1] S2000) (hφ : FTy.f32 = FTy.f32 ∨ FTy.f32 = FTy.bf16)
    (hacc : (0x00000000#32 : BitVec 32) = 0x00000000#32) (r : Fin 2000) :
    multiReduction (F := Ideal) .add [1] S2000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A vector of a entries cast to an a × 1 column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector at an index is the square root of the entry. -/
theorem sqrt_apply {s : Shape} {φ : FTy} (x : FVec Ideal s φ) (i : s.Idx) : sqrt x i = Ideal.sqrt (x i) := rfl

/-! ## The twelve bodies -/

/-- The sum of the two relations' terms that body 0 forms, at row r and column j. -/
theorem terms0_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k0_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k0_pay2
  simp only [addf_apply, matmul_zero_apply, truncf_apply, shapeCast_self, broadcastTo_1b_ab_apply]
  rfl

theorem pay0_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k0_pay1 (Gen.k0_pay2 x0 x1 x2 x3 x4 x6 x7 x5 x8) (Gen.k0_pay3 (F := Ideal)) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k0_pay1 Gen.k0_pay3
  simp only [mulf_apply, maximumf_apply, broadcast_apply, terms0_apply]
  rfl

/-- The sum of the two relations' terms that body 1 forms, at row r and column j. -/
theorem terms1_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k1_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k1_pay2
  simp only [addf_apply, matmul_zero_apply, truncf_apply, shapeCast_self, broadcastTo_1b_ab_apply]
  rfl

theorem pay1_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k1_pay1 (Gen.k1_pay2 x0 x1 x2 x3 x4 x6 x7 x5 x8) (Gen.k1_pay3 (F := Ideal)) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k1_pay1 Gen.k1_pay3
  simp only [mulf_apply, maximumf_apply, broadcast_apply, terms1_apply]
  rfl

/-- The sum of the two relations' terms that body 2 forms, at row r and column j. -/
theorem terms2_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k2_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k2_pay2
  simp only [addf_apply, matmul_zero_apply, truncf_apply, shapeCast_self, broadcastTo_1b_ab_apply]
  rfl

theorem pay2_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k2_pay1 (Gen.k2_pay2 x0 x1 x2 x3 x4 x6 x7 x5 x8) (Gen.k2_pay3 (F := Ideal)) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k2_pay1 Gen.k2_pay3
  simp only [mulf_apply, maximumf_apply, broadcast_apply, terms2_apply]
  rfl

/-- The sum of the two relations' terms that body 3 forms, at row r and column j. -/
theorem terms3_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k3_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k3_pay2
  simp only [addf_apply, matmul_zero_apply, truncf_apply, shapeCast_self, broadcastTo_1b_ab_apply]
  rfl

theorem pay3_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k3_pay1 (Gen.k3_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k3_pay1
  simp only [mulf_apply, maximumf_apply, broadcast_apply, terms3_apply]
  rfl

/-- The sum of the two relations' terms that body 4 forms, at row r and column j. -/
theorem terms4_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k4_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k4_pay2
  simp only [addf_apply, matmul_zero_apply, truncf_apply, shapeCast_self, broadcastTo_1b_ab_apply]
  rfl

theorem pay4_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k4_pay1 (Gen.k4_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k4_pay1
  simp only [mulf_apply, maximumf_apply, broadcast_apply, terms4_apply]
  rfl

/-- The sum of the two relations' terms that body 5 forms, at row r and column j. -/
theorem terms5_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k5_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k5_pay2
  simp only [addf_apply, matmul_zero_apply, truncf_apply, shapeCast_self, broadcastTo_1b_ab_apply]
  rfl

theorem pay5_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k5_pay1 (Gen.k5_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k5_pay1
  simp only [mulf_apply, maximumf_apply, broadcast_apply, terms5_apply]
  rfl

/-- The sum of the two relations' terms that body 6 forms, at row r and column j. -/
theorem terms6_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k6_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k6_pay2
  simp only [addf_apply, matmul_zero_apply, truncf_apply, shapeCast_self, broadcastTo_1b_ab_apply]
  rfl

theorem pay6_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k6_pay1 (Gen.k6_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k6_pay1
  simp only [mulf_apply, maximumf_apply, broadcast_apply, terms6_apply]
  rfl

/-- The sum of the two relations' terms that body 7 forms, at row r and column j. -/
theorem terms7_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k7_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k7_pay2
  simp only [addf_apply, matmul_zero_apply, truncf_apply, shapeCast_self, broadcastTo_1b_ab_apply]
  rfl

theorem pay7_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k7_pay1 (Gen.k7_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k7_pay1
  simp only [mulf_apply, maximumf_apply, broadcast_apply, terms7_apply]
  rfl

/-- The sum of the two relations' terms that body 8 forms, at row r and column j. -/
theorem terms8_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k8_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k8_pay2
  simp only [addf_apply, matmul_zero_apply, truncf_apply, shapeCast_self, broadcastTo_1b_ab_apply]
  rfl

theorem pay8_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k8_pay1 (Gen.k8_pay2 x0 x1 x2 x3 x4 x6 x7 x5 x8) (Scalar.ofBits (F := Ideal) .f32 0x3F000000#32) (ix2 r j)
      = Cert.Spec.combRelu (fun k => x0 (ix2 r k)) (fun k => x1 (ix2 r k)) (fun k => x2 (ix2 r k)) x3 x4 (fun k => x5 (ix2 0 k))
          x6 x7 (fun k => x8 (ix2 0 k)) j := by
  unfold Gen.k8_pay1
  simp only [mulf_apply, maximumf_apply, broadcast_apply, terms8_apply]
  rfl

/-- The sum of the two relations' terms that body 9 forms, at row r and column j. -/
theorem terms9_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k9_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k9_pay2
  simp only [addf_apply, matmul_zero_apply, truncf_apply, shapeCast_self, broadcastTo_1b_ab_apply]
  rfl

/-- The normalising tail of body 9 over any block v and scalar c: the scaled entry divided by the root of the row's sum of
    squares of the scaled entries, the root bounded below. -/
theorem tail9_apply (v : FVec Ideal S2000x128 .f32) (c : Ideal .f32) (r : Fin 2000) (j : Fin 128) :
    Gen.k9_pay1 v c (ix2 r j)
      = Ideal.div (c * v (ix2 r j))
          (max (Ideal.sqrt (∑ k : Fin 128, (c * v (ix2 r k)) * (c * v (ix2 r k)))) (Ideal.ofBits .f32 0x2B8CBCCC#32)) := by
  unfold Gen.k9_pay1
  simp only [divf_apply, mulf_apply, broadcast_apply, maximumf_apply, broadcastTo_a1_ab_apply, sqrt_apply, shapeCast_a_a1_apply]
  rw [rowSum_apply]
  rfl

theorem pay9_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k9_pay1 (Gen.k9_pay2 x0 x1 x2 x3 x4 x6 x7 x5 x8) (Scalar.ofBits (F := Ideal) .f32 0x3F000000#32) (ix2 r j)
      = Cert.Spec.combNorm (fun k => x0 (ix2 r k)) (fun k => x1 (ix2 r k)) (fun k => x2 (ix2 r k)) x3 x4 (fun k => x5 (ix2 0 k))
          x6 x7 (fun k => x8 (ix2 0 k)) j := by
  rw [tail9_apply]
  simp only [terms9_apply]
  rfl

/-- The sum of the two relations' terms that body 10 forms, at row r and column j. -/
theorem terms10_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k10_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k10_pay2
  simp only [addf_apply, matmul_zero_apply, truncf_apply, shapeCast_self, broadcastTo_1b_ab_apply]
  rfl

/-- The normalising tail of body 10 over any block v and scalar c: the scaled entry divided by the root of the row's sum of
    squares of the scaled entries, the root bounded below. -/
theorem tail10_apply (v : FVec Ideal S2000x128 .f32) (c : Ideal .f32) (r : Fin 2000) (j : Fin 128) :
    Gen.k10_pay1 v c (ix2 r j)
      = Ideal.div (c * v (ix2 r j))
          (max (Ideal.sqrt (∑ k : Fin 128, (c * v (ix2 r k)) * (c * v (ix2 r k)))) (Ideal.ofBits .f32 0x2B8CBCCC#32)) := by
  unfold Gen.k10_pay1
  simp only [divf_apply, mulf_apply, broadcast_apply, maximumf_apply, broadcastTo_a1_ab_apply, sqrt_apply, shapeCast_a_a1_apply]
  rw [rowSum_apply]
  rfl

theorem pay10_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k10_pay1 (Gen.k10_pay2 x0 x1 x2 x3 x4 x6 x7 x5 x8) (Scalar.ofBits (F := Ideal) .f32 0x3F000000#32) (ix2 r j)
      = Cert.Spec.combNorm (fun k => x0 (ix2 r k)) (fun k => x1 (ix2 r k)) (fun k => x2 (ix2 r k)) x3 x4 (fun k => x5 (ix2 0 k))
          x6 x7 (fun k => x8 (ix2 0 k)) j := by
  rw [tail10_apply]
  simp only [terms10_apply]
  rfl

/-- The sum of the two relations' terms that body 11 forms, at row r and column j. -/
theorem terms11_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k11_pay2 x0 x1 x2 x3 x4 x6 x7 x5 x8 (ix2 r j)
      = Cert.Spec.lin (fun k => x0 (ix2 r k)) (fun k => x2 (ix2 r k)) x3 x4 (fun k => x5 (ix2 0 k)) j
        + Cert.Spec.lin (fun k => x1 (ix2 r k)) (fun k => x2 (ix2 r k)) x6 x7 (fun k => x8 (ix2 0 k)) j := by
  unfold Gen.k11_pay2
  simp only [addf_apply, matmul_zero_apply, truncf_apply, shapeCast_self, broadcastTo_1b_ab_apply]
  rfl

/-- The normalising tail of body 11 over any block v and scalar c: the scaled entry divided by the root of the row's sum of
    squares of the scaled entries, the root bounded below. -/
theorem tail11_apply (v : FVec Ideal S2000x128 .f32) (c : Ideal .f32) (r : Fin 2000) (j : Fin 128) :
    Gen.k11_pay1 v c (ix2 r j)
      = Ideal.div (c * v (ix2 r j))
          (max (Ideal.sqrt (∑ k : Fin 128, (c * v (ix2 r k)) * (c * v (ix2 r k)))) (Ideal.ofBits .f32 0x2B8CBCCC#32)) := by
  unfold Gen.k11_pay1
  simp only [divf_apply, mulf_apply, broadcast_apply, maximumf_apply, broadcastTo_a1_ab_apply, sqrt_apply, shapeCast_a_a1_apply]
  rw [rowSum_apply]
  rfl

theorem pay11_apply (x0 x1 x2 : Vec Ideal S2000x128 .f32) (x3 x4 : Vec Ideal S128x128 .f32) (x5 : Vec Ideal S1x128 .f32)
    (x6 x7 : Vec Ideal S128x128 .f32) (x8 : Vec Ideal S1x128 .f32) (r : Fin 2000) (j : Fin 128) :
    Gen.k11_pay1 (Gen.k11_pay2 x0 x1 x2 x3 x4 x6 x7 x5 x8) (Scalar.ofBits (F := Ideal) .f32 0x3F000000#32) (ix2 r j)
      = Cert.Spec.combNorm (fun k => x0 (ix2 r k)) (fun k => x1 (ix2 r k)) (fun k => x2 (ix2 r k)) x3 x4 (fun k => x5 (ix2 0 k))
          x6 x7 (fun k => x8 (ix2 0 k)) j := by
  rw [tail11_apply]
  simp only [terms11_apply]
  rfl

end Cert.KernelIdeal.Block

end
-- ==== Proof.Region0.lean ====
/-
  The output array of node-update region 0 (50000 rows, 25 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 25 blocks cover all
  50000 rows (row i lies in the block of point i / 2000), hence the array after the region is Spec.reluArr of those arrays.
-/
import proofs.«141482_j13434657702128_1_alg».proof.Proof.FrameKIR0
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 25 points. -/
theorem hN : cfg0.N = 25 := Gen.N_0

/-- The index maps over the grid: the three row windows and the output move with the point along the rows and
    stay at column block 0; the weight and bias windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each input block as rows of its array -/

/-- Row r of the first aggregated block at point t is row 2000·t + r of its array. -/
theorem blk0_apply (c : Dev nD) (t : Fin cfg0.N) (r : Fin 2000) (k : Fin 128) (i : Fin 50000) (hi : i.val = 2000 * t.val + r.val) :
    (GenP.iblk0 V c 0 t : S2000x128.Idx → EReal) (ix2 r k) = (V c main_v71 : S50000x128.Idx → EReal) (ix2 i k) := by
  obtain ⟨⟨e0, e1⟩, -⟩ := idx_facts t
  unfold GenP.iblk0
  rw [View.read_apply]
  show V c main_v71 _ = V c main_v71 _
  congr 1
  funext a
  apply Fin.ext
  match a with
  | ⟨0, _⟩ => show win0_0.index t (0 : Fin 2) * 2000 + 1 * r.val = i.val; omega
  | ⟨1, _⟩ => show win0_0.index t (1 : Fin 2) * 128 + 1 * k.val = k.val; omega

/-- Row r of the second aggregated block at point t is row 2000·t + r of its array. -/
theorem blk1_apply (c : Dev nD) (t : Fin cfg0.N) (r : Fin 2000) (k : Fin 128) (i : Fin 50000) (hi : i.val = 2000 * t.val + r.val) :
    (GenP.iblk0 V c 1 t : S2000x128.Idx → EReal) (ix2 r k) = (V c main_v107 : S50000x128.Idx → EReal) (ix2 i k) := by
  obtain ⟨-, ⟨e0, e1⟩, -⟩ := idx_facts t
  unfold GenP.iblk0
  rw [View.read_apply]
  show V c main_v107 _ = V c main_v107 _
  congr 1
  funext a
  apply Fin.ext
  match a with
  | ⟨0, _⟩ => show win0_1.index t (0 : Fin 2) * 2000 + 1 * r.val = i.val; omega
  | ⟨1, _⟩ => show win0_1.index t (1 : Fin 2) * 128 + 1 * k.val = k.val; omega

/-- Row r of the feature block at point t is row 2000·t + r of the feature array. -/
theorem blk2_apply (c : Dev nD) (t : Fin cfg0.N) (r : Fin 2000) (k : Fin 128) (i : Fin 50000) (hi : i.val = 2000 * t.val + r.val) :
    (GenP.iblk0 V c 2 t : S2000x128.Idx → EReal) (ix2 r k) = (V c main_arg0 : S50000x128.Idx → EReal) (ix2 i k) := by
  obtain ⟨-, -, ⟨e0, e1⟩, -⟩ := idx_facts t
  unfold GenP.iblk0
  rw [View.read_apply]
  show V c main_arg0 _ = V c main_arg0 _
  congr 1
  funext a
  apply Fin.ext
  match a with
  | ⟨0, _⟩ => show win0_2.index t (0 : Fin 2) * 2000 + 1 * r.val = i.val; omega
  | ⟨1, _⟩ => show win0_2.index t (1 : Fin 2) * 128 + 1 * k.val = k.val; omega

/-- A weight window's one block is its whole matrix. -/
theorem blk3_eq (c : Dev nD) (t : Fin cfg0.N) :
    (GenP.iblk0 V c 3 t : S128x128.Idx → EReal) = (V c main_v109 : S128x128.Idx → EReal) := by
  obtain ⟨-, -, -, ⟨e0, e1⟩, -⟩ := idx_facts t
  funext x
  unfold GenP.iblk0
  rw [View.read_apply]
  show V c main_v109 _ = V c main_v109 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem blk4_eq (c : Dev nD) (t : Fin cfg0.N) :
    (GenP.iblk0 V c 4 t : S128x128.Idx → EReal) = (V c main_v111 : S128x128.Idx → EReal) := by
  obtain ⟨-, -, -, -, ⟨e0, e1⟩, -⟩ := idx_facts t
  funext x
  unfold GenP.iblk0
  rw [View.read_apply]
  show V c main_v111 _ = V c main_v111 _
  congr 1
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- A bias window's one block is its whole row. -/
theorem blk5_eq (c : Dev nD) (t : Fin cfg0.N) :
    (GenP.iblk0 V c 5 t : S1x128.Idx → EReal) = (V c main_v120 : S1x128.Idx → EReal) := by
  obtain ⟨-, -, -, -, -, ⟨e0, e1⟩, -⟩ := idx_facts t
  funext x
  unfold GenP.iblk0
  rw [View.read_apply]
  show V c main_v120 _ = V c main_v120 _
  congr 1
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

theorem blk6_eq (c : Dev nD) (t : Fin cfg0.N) :
    (GenP.iblk0 V c 6 t : S128x128.Idx → EReal) = (V c main_v115 : S128x128.Idx → EReal) := by
  obtain ⟨-, -, -, -, -, -, ⟨e0, e1⟩, -⟩ := idx_facts t
  funext x
  unfold GenP.iblk0
  rw [View.read_apply]
  show V c main_v115 _ = V c main_v115 _
  congr 1
  funext a
  apply Fin.ext
  match a with
  | ⟨0, _⟩ => show win0_6.index t (0 : Fin 2) * 128 + 1 * (x 0).val = (x 0).val; omega
  | ⟨1, _⟩ => show win0_6.index t (1 : Fin 2) * 128 + 1 * (x 1).val = (x 1).val; omega

theorem blk7_eq (c : Dev nD) (t : Fin cfg0.N) :
    (GenP.iblk0 V c 7 t : S128x128.Idx → EReal) = (V c main_v117 : S128x128.Idx → EReal) := by
  obtain ⟨-, -, -, -, -, -, -, ⟨e0, e1⟩, -⟩ := idx_facts t
  funext x
  unfold GenP.iblk0
  rw [View.read_apply]
  show V c main_v117 _ = V c main_v117 _
  congr 1
  funext a
  apply Fin.ext
  match a with
  | ⟨0, _⟩ => show win0_7.index t (0 : Fin 2) * 128 + 1 * (x 0).val = (x 0).val; omega
  | ⟨1, _⟩ => show win0_7.index t (1 : Fin 2) * 128 + 1 * (x 1).val = (x 1).val; omega

theorem blk8_eq (c : Dev nD) (t : Fin cfg0.N) :
    (GenP.iblk0 V c 8 t : S1x128.Idx → EReal) = (V c main_v121 : S1x128.Idx → EReal) := by
  obtain ⟨-, -, -, -, -, -, -, -, ⟨e0, e1⟩, -⟩ := idx_facts t
  funext x
  unfold GenP.iblk0
  rw [View.read_apply]
  show V c main_v121 _ = V c main_v121 _
  congr 1
  funext a
  apply Fin.ext
  match a with
  | ⟨0, _⟩ => show win0_8.index t (0 : Fin 2) * 1 + 1 * (x 0).val = (x 0).val; omega
  | ⟨1, _⟩ => show win0_8.index t (1 : Fin 2) * 128 + 1 * (x 1).val = (x 1).val; omega

/-! ## The output block, and the array -/

/-- Entry (r, j) of the output block at point t sits at (2000·t + r, j) of the output array. -/
theorem emb_out (t : Fin cfg0.N) (r : Fin 2000) (j : Fin 128) (i : Fin 50000) (hi : i.val = 2000 * t.val + r.val) :
    (((cfg0.win 9).blk t).view.emb (ix2 r j) : S50000x128.Idx) = ix2 i j := by
  obtain ⟨-, -, -, -, -, -, -, -, -, ⟨e0, e1⟩⟩ := idx_facts t
  funext a
  apply Fin.ext
  match a with
  | ⟨0, _⟩ => show win0_9.index t (0 : Fin 2) * 2000 + 1 * r.val = i.val; omega
  | ⟨1, _⟩ => show win0_9.index t (1 : Fin 2) * 128 + 1 * j.val = j.val; omega

/-- The node type's update as one function of the arrays the region finds. -/
abbrev G (c : Dev nD) : S50000x128.Idx → EReal :=
  Cert.Spec.reluArr 50000 (V c main_v71) (V c main_v107) (V c main_arg0) (V c main_v109) (V c main_v111)
    (fun k => V c main_v120 (ix2 0 k)) (V c main_v115) (V c main_v117) (fun k => V c main_v121 (ix2 0 k))

/-- What point t writes back is block t of the update: rows 2000·t … 2000·t + 1999. -/
theorem flushed_eq (c : Dev nD) (t : Fin cfg0.N) :
    (GenP.dat0 V c).flushed 9 t = ((cfg0.win 9).blk t).view.read (Elt Ideal) (G V c) := by
  show (cfg0.win 9).cut (grid0.coords t) ((GenP.dat0 V c).after 9 t) = _
  rw [GenP.after0_9]
  unfold GenP.out0_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 25 := hN ▸ t.isLt
  have hi : (⟨2000 * t.val + r.val, by have := r.isLt; omega⟩ : Fin 50000).val = 2000 * t.val + r.val := rfl
  show Gen.k0_pay1 (Gen.k0_pay2 (GenP.iblk0 V c 0 t) (GenP.iblk0 V c 1 t) (GenP.iblk0 V c 2 t) (GenP.iblk0 V c 3 t) (GenP.iblk0 V c 4 t)
      (GenP.iblk0 V c 6 t) (GenP.iblk0 V c 7 t) (GenP.iblk0 V c 5 t) (GenP.iblk0 V c 8 t)) (Gen.k0_pay3 (F := Ideal)) (ix2 r j)
    = G V c (((cfg0.win 9).blk t).view.emb (ix2 r j))
  rw [Block.pay0_apply, emb_out t r j _ hi]
  unfold G
  rw [Cert.Spec.reluArr_apply, blk3_eq, blk4_eq, blk5_eq, blk6_eq, blk7_eq, blk8_eq]
  have h0 : (fun k => (GenP.iblk0 V c 0 t : S2000x128.Idx → EReal) (ix2 r k)) = Cert.Spec.rowOf (V c main_v71) ⟨2000 * t.val + r.val, by have := r.isLt; omega⟩ :=
    funext fun k => blk0_apply V c t r k _ hi
  have h1 : (fun k => (GenP.iblk0 V c 1 t : S2000x128.Idx → EReal) (ix2 r k)) = Cert.Spec.rowOf (V c main_v107) ⟨2000 * t.val + r.val, by have := r.isLt; omega⟩ :=
    funext fun k => blk1_apply V c t r k _ hi
  have h2 : (fun k => (GenP.iblk0 V c 2 t : S2000x128.Idx → EReal) (ix2 r k)) = Cert.Spec.rowOf (V c main_arg0) ⟨2000 * t.val + r.val, by have := r.isLt; omega⟩ :=
    funext fun k => blk2_apply V c t r k _ hi
  rw [h0, h1, h2]

/-- An index of the output array is in point t's block iff each coordinate is in the block's range. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v122).slice (win0_9.rect t)).set ↔ _
  rw [View.set_slice_whole, Rect.mem_set_unit]
  exact Iff.rfl

/-- Every index of the output array is in the block of the point its row over 2000 names. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hlt : (i 0).val / 2000 < cfg0.N := by rw [hN]; omega
  obtain ⟨-, -, -, -, -, -, -, -, -, ⟨e0, e1⟩⟩ := idx_facts ⟨(i 0).val / 2000, hlt⟩
  refine ⟨⟨(i 0).val / 2000, hlt⟩, Gen.flush0_9 _, ?_⟩
  rw [mem_blk]
  intro a
  match a with
  | ⟨0, _⟩ =>
    show win0_9.index ⟨(i 0).val / 2000, hlt⟩ (0 : Fin 2) * 2000 ≤ (i 0).val ∧ (i 0).val < win0_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, hlt⟩ (1 : Fin 2) * 128 ≤ (i 1).val ∧ (i 1).val < win0_9.index ⟨(i 0).val / 2000, hlt⟩ (1 : Fin 2) * 128 + 128
    rw [e1]; omega

/-- THE OUTPUT ARRAY after the region: the node type's update of the arrays the region finds, row by row. -/
theorem value (c : Dev nD) :
    (GenP.dat0 V c).arrAt 9 cfg0.N = Cert.Spec.reluArr 50000 (V c main_v71) (V c main_v107) (V c main_arg0) (V c main_v109) (V c main_v111)
      (fun k => V c main_v120 (ix2 0 k)) (V c main_v115) (V c main_v117) (fun k => V c main_v121 (ix2 0 k)) :=
  (GenP.dat0 V c).arrAt_eq_of_cover 9 (G V c) (fun t _ => flushed_eq V c t) cover

end Cert.KernelIdeal.Region0

end
-- ==== Proof.StepK0c.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region0

set_option maxRecDepth 16384

noncomputable section

namespace Cert.StepK0c

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_0 X c (Proc.devRef .tc Cert.KernelIdeal.main_v122)
    = Cert.Spec.reluArr 50000 (A1_0 X c (Proc.devRef .tc Cert.KernelIdeal.main_v71))
        (A1_0 X c (Proc.devRef .tc Cert.KernelIdeal.main_v107))
        (A1_0 X c (Proc.devRef .tc Cert.KernelIdeal.main_arg0))
        (A1_0 X c (Proc.devRef .tc Cert.KernelIdeal.main_v109))
        (A1_0 X c (Proc.devRef .tc Cert.KernelIdeal.main_v111))
        (fun k => A1_0 X c (Proc.devRef .tc Cert.KernelIdeal.main_v120) (ix2 0 k))
        (A1_0 X c (Proc.devRef .tc Cert.KernelIdeal.main_v115))
        (A1_0 X c (Proc.devRef .tc Cert.KernelIdeal.main_v117))
        (fun k => A1_0 X c (Proc.devRef .tc Cert.KernelIdeal.main_v121) (ix2 0 k)) := by
  rw [A6_0_of_ne X c Cert.KernelIdeal.main_v122 (by decide)]
  dsimp only [A5_0, Cert.KernelIdeal.Gen.hostOps2]
  after_results_simp
  rw [A4_0_of_ne X c Cert.KernelIdeal.main_v122 (by decide)]
  dsimp only [A3_0, Cert.KernelIdeal.Gen.hostOps1]
  after_results_simp
  have e0 : A2_0 X c (Proc.devRef .tc Cert.KernelIdeal.main_v122) = (Cert.KernelIdeal.GenP.dat0 (U1_0 X) c).arrAt 9 Cert.KernelIdeal.cfg0.N := A2_0_arr X c 9
  rw [e0, Cert.KernelIdeal.Region0.value]

end Cert.StepK0c

end
-- ==== Proof.RefRead.lean ====
/-
  The reference's whole-array operations of one node-type update, read at an index.

  A product of an array of rows with a 128 × 128 matrix is, at row `i` and column `j`, the sum over `k` of
  the row's entry `k` times the matrix's entry `(k, j)`; a bias broadcast over the rows reads the bias at the
  column; a broadcast scalar reads the scalar; the row sum of squares, broadcast back over the columns, reads the
  sum over the row.  Put together, the reference's hidden-layer update of a node type is `Cert.Spec.reluArr` and its
  last-layer update is `Cert.Spec.normArr`, for each of the three node-type sizes.
-/
import proofs.«141482_j13434657702128_1_alg».proof.ReferenceIdeal
import proofs.«141482_j13434657702128_1_alg».proof.Proof.Gen.ReferenceIdeal
import proofs.«141482_j13434657702128_1_alg».proof.Proof.Spec
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.ValueIdx Cert.Spec

/-- The host's quotient at an index is the ideal quotient of the elements. -/
theorem hostDivf_apply {s : Shape} (a b : FVec Ideal s .f32) (i : s.Idx) : Host.divf a b i = Ideal.div (a i) (b i) := rfl
/-- The host's square root at an index is the ideal square root of the element. -/
theorem hostSqrt_apply {s : Shape} (a : FVec Ideal s .f32) (i : s.Idx) : Host.sqrt a i = Ideal.sqrt (a i) := rfl

/-! ## 50000 rows -/

/-- The left operand's row coordinate is the output's row. -/
theorem lhs_50000_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- The left operand's column coordinate is the contraction index. -/
theorem lhs_50000_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- The right operand's row coordinate is the contraction index. -/
theorem rhs_50000_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- The right operand's column coordinate is the output's column. -/
theorem rhs_50000_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The product of an array of 50000 rows with a matrix, at row `i` and column `j`: the row times the column. -/
theorem dot_50000_apply (A : FVec Ideal S50000x128 .f32) (W : FVec Ideal S128x128 .f32) (i : Fin 50000) (j : Fin 128) :
    Host.dotGeneral dot_S50000x128_S128x128_S50000x128_1_0_0_1_n_n none A W (ix2 i j) = ∑ k : Fin 128, A (ix2 i k) * W (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j) ((ValueIdx.contrEquiv1 dot_S50000x128_S128x128_S50000x128_1_0_0_1_n_n 128 rfl rfl).symm k) = ix2 i k := funext fun a => Fin.ext (by
    match a with
    | ⟨0, _⟩ => exact lhs_50000_0 _ _
    | ⟨1, _⟩ => exact (lhs_50000_1 _ _).trans hk)
  have er : dot_S50000x128_S128x128_S50000x128_1_0_0_1_n_n.rhsIdx (ix2 i j) ((ValueIdx.contrEquiv1 dot_S50000x128_S128x128_S50000x128_1_0_0_1_n_n 128 rfl rfl).symm k) = ix2 k j := funext fun a => Fin.ext (by
    match a with
    | ⟨0, _⟩ => exact (rhs_50000_0 _ _).trans hk
    | ⟨1, _⟩ => exact rhs_50000_1 _ _)
  rw [el, er]

/-- A bias, broadcast to one row and then over the 50000 rows, reads the bias at the column. -/
theorem bias_50000_apply (B : FVec Ideal S128 .f32) (i : Fin 50000) (j : Fin 128) :
    broadcastInDim S50000x128 ![0, 1] bcast_S1x128_S50000x128_0_1 (broadcastInDim S1x128 ![1] bcast_S128_S1x128_1 B) (ix2 i j) = B (ix1 j) := by
  rw [broadcastInDim_apply _ bcast_S1x128_S50000x128_0_1 _ (ix2 i j) (ix2 ⟨0, Nat.one_pos⟩ j) (fun a => match a with
    | ⟨0, _⟩ => by show 0 = if (1 : Nat) = 1 then 0 else i.val; rw [if_pos rfl]
    | ⟨1, _⟩ => by show j.val = if (128 : Nat) = 1 then 0 else j.val; rw [if_neg (by decide)])]
  exact broadcastInDim_apply _ bcast_S128_S1x128_1 B (ix2 ⟨0, Nat.one_pos⟩ j) (ix1 j) (fun a => match a with
    | ⟨0, _⟩ => by show j.val = if (128 : Nat) = 1 then 0 else j.val; rw [if_neg (by decide)])

/-- A scalar constant broadcast over the 50000 × 128 array reads the constant. -/
theorem splat_50000x128_apply (c : BitVec 32) (idx : S50000x128.Idx) :
    broadcastInDim S50000x128 ![] bcast_S_S50000x128 (constant (F := Ideal) S_ .f32 c) idx = Ideal.ofBits .f32 c :=
  broadcastInDim_apply _ bcast_S_S50000x128 (constant (F := Ideal) S_ .f32 c) idx ix0 (fun a => a.elim0)

/-- A scalar constant broadcast over the 50000 × 1 array reads the constant. -/
theorem splat_50000x1_apply (c : BitVec 32) (idx : S50000x1.Idx) :
    broadcastInDim S50000x1 ![] bcast_S_S50000x1 (constant (F := Ideal) S_ .f32 c) idx = Ideal.ofBits .f32 c :=
  broadcastInDim_apply _ bcast_S_S50000x1 (constant (F := Ideal) S_ .f32 c) idx ix0 (fun a => a.elim0)

/-- The mean of the two relations' terms, as the reference computes it on whole arrays, at row `i` and column `j`. -/
theorem refComb_50000 (A1 A2 H : FVec Ideal S50000x128 .f32) (WL1 WR1 WL2 WR2 : FVec Ideal S128x128 .f32) (B1 B2 : FVec Ideal S128 .f32) (i : Fin 50000) (j : Fin 128) :
    (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (ix2 i j)
    = comb (rowOf A1 i) (rowOf A2 i) (rowOf H i) WL1 WR1 (fun k => B1 (ix1 k)) WL2 WR2 (fun k => B2 (ix1 k)) j := by
  simp only [mulf_apply, addf_apply, dot_50000_apply]
  rw [bias_50000_apply, bias_50000_apply, splat_50000x128_apply, mul_comm]
  rfl

/-- The square of that mean, as the reference computes it on whole arrays, at row `i` and column `k`. -/
theorem refSq_50000 (A1 A2 H : FVec Ideal S50000x128 .f32) (WL1 WR1 WL2 WR2 : FVec Ideal S128x128 .f32) (B1 B2 : FVec Ideal S128 .f32) (i : Fin 50000) (k : Fin 128) :
    mulf (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (ix2 i k)
    = comb (rowOf A1 i) (rowOf A2 i) (rowOf H i) WL1 WR1 (fun k => B1 (ix1 k)) WL2 WR2 (fun k => B2 (ix1 k)) k * comb (rowOf A1 i) (rowOf A2 i) (rowOf H i) WL1 WR1 (fun k => B1 (ix1 k)) WL2 WR2 (fun k => B2 (ix1 k)) k := by
  rw [mulf_apply, refComb_50000]

/-- The reference's hidden-layer update of a node type of 50000 rows is the row-by-row update. -/
theorem refRelu_50000 (A1 A2 H : FVec Ideal S50000x128 .f32) (WL1 WR1 WL2 WR2 : FVec Ideal S128x128 .f32) (B1 B2 : FVec Ideal S128 .f32) :
    maximumf (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (broadcastInDim S50000x128 ![] bcast_S_S50000x128 (constant S_ .f32 0x00000000#32))
    = reluArr 50000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [reluArr_apply, maximumf_apply, refComb_50000, splat_50000x128_apply]
  rfl

/-- The row sums of an array of 50000 rows, from zero, as a one-column array: at row `i` the sum over the row. -/
theorem rowSum_50000_apply (X : FVec Ideal S50000x128 .f32) (i : Fin 50000) (z : Fin 1) :
    broadcastInDim S50000x1 ![0] bcast_S50000_S50000x1_0 (Host.reduceAdd X (constant S_ .f32 0x00000000#32) reducesTo_S50000x128_S50000_d1 h_S_) (ix2 i z)
    = ∑ k : Fin 128, X (ix2 i k) := by
  rw [broadcastInDim_apply _ bcast_S50000_S50000x1_0 _ (ix2 i z) (ix1 i) (fun a => match a with
    | ⟨0, _⟩ => by show i.val = if (50000 : Nat) = 1 then 0 else i.val; rw [if_neg (by decide)])]
  simp only [Host.reduceAdd, Ideal.hostReduceAdd_def]
  rw [Ideal.hostReduceAdd_single reducesTo_S50000x128_S50000_d1 (by decide), constant_apply, Ideal.ofBits_zero_f32, zero_add]
  refine Finset.sum_congr rfl fun k _ => ?_
  exact congrArg X (funext fun a => Fin.ext (by match a with | ⟨0, _⟩ => rfl | ⟨1, _⟩ => rfl))

/-- The reference's last-layer update of a node type of 50000 rows is the row-by-row update. -/
theorem refNorm_50000 (A1 A2 H : FVec Ideal S50000x128 .f32) (WL1 WR1 WL2 WR2 : FVec Ideal S128x128 .f32) (B1 B2 : FVec Ideal S128 .f32) :
    Host.divf (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (broadcastInDim S50000x128 ![0, 1] bcast_S50000x1_S50000x128_0_1 (maximumf (Host.sqrt (broadcastInDim S50000x1 ![0] bcast_S50000_S50000x1_0 (Host.reduceAdd (mulf (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32))) (mulf (addf (addf (addf (Host.dotGeneral dot_S50000x128_S128x128_S50000x128_1_0_0_1_n_n none A1 WL1) (Host.dotGeneral dot_S50000x128_S128x128_S50000x128_1_0_0_1_n_n none H WR1)) (broadcastInDim S50000x128 ![0, 1] bcast_S1x128_S50000x128_0_1 (broadcastInDim S1x128 ![1] bcast_S128_S1x128_1 B1))) (addf (addf (Host.dotGeneral dot_S50000x128_S128x128_S50000x128_1_0_0_1_n_n none A2 WL2) (Host.dotGeneral dot_S50000x128_S128x128_S50000x128_1_0_0_1_n_n none H WR2)) (broadcastInDim S50000x128 ![0, 1] bcast_S1x128_S50000x128_0_1 (broadcastInDim S1x128 ![1] bcast_S128_S1x128_1 B2)))) (broadcastInDim S50000x128 ![] bcast_S_S50000x128 (constant S_ .f32 0x3F000000#32)))) (constant S_ .f32 0x00000000#32) reducesTo_S50000x128_S50000_d1 h_S_))) (broadcastInDim S50000x1 ![] bcast_S_S50000x1 (constant S_ .f32 0x2B8CBCCC#32))))
    = normArr 50000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [normArr_apply, hostDivf_apply, refComb_50000]
  rw [broadcastInDim_apply _ bcast_S50000x1_S50000x128_0_1 _ (ix2 i j) (ix2 i ⟨0, Nat.one_pos⟩) (fun a => match a with
    | ⟨0, _⟩ => by show i.val = if (50000 : Nat) = 1 then 0 else i.val; rw [if_neg (by decide)]
    | ⟨1, _⟩ => by show 0 = if (1 : Nat) = 1 then 0 else j.val; rw [if_pos rfl])]
  rw [maximumf_apply, hostSqrt_apply, rowSum_50000_apply, splat_50000x1_apply]
  rw [Finset.sum_congr rfl (fun k _ => refSq_50000 A1 A2 H WL1 WR1 WL2 WR2 B1 B2 i k)]
  rfl

/-! ## 30000 rows -/

/-- The left operand's row coordinate is the output's row. -/
theorem lhs_30000_0 (i : S30000x128.Idx) (q : dot_S30000x128_S128x128_S30000x128_1_0_0_1_n_n.contr.Idx) :
    (dot_S30000x128_S128x128_S30000x128_1_0_0_1_n_n.lhsIdx i q 0).val = (i 0).val := by
  unfold DotDims.lhsIdx
  rw [dif_neg (show ¬(0 : Fin S30000x128.rank) ∈ dot_S30000x128_S128x128_S30000x128_1_0_0_1_n_n.lhsBatch by decide), dif_pos (show (0 : Fin S30000x128.rank) ∈ dot_S30000x128_S128x128_S30000x128_1_0_0_1_n_n.lhsNonContracting by decide)]
  rfl
/-- The left operand's column coordinate is the contraction index. -/
theorem lhs_30000_1 (i : S30000x128.Idx) (q : dot_S30000x128_S128x128_S30000x128_1_0_0_1_n_n.contr.Idx) :
    (dot_S30000x128_S128x128_S30000x128_1_0_0_1_n_n.lhsIdx i q 1).val = (q ⟨0, by decide⟩).val :=
  dot_S30000x128_S128x128_S30000x128_1_0_0_1_n_n.lhsIdx_val_of_single rfl i q
/-- The right operand's row coordinate is the contraction index. -/
theorem rhs_30000_0 (i : S30000x128.Idx) (q : dot_S30000x128_S128x128_S30000x128_1_0_0_1_n_n.contr.Idx) :
    (dot_S30000x128_S128x128_S30000x128_1_0_0_1_n_n.rhsIdx i q 0).val = (q ⟨0, by decide⟩).val :=
  dot_S30000x128_S128x128_S30000x128_1_0_0_1_n_n.rhsIdx_val_of_single rfl i q
/-- The right operand's column coordinate is the output's column. -/
theorem rhs_30000_1 (i : S30000x128.Idx) (q : dot_S30000x128_S128x128_S30000x128_1_0_0_1_n_n.contr.Idx) :
    (dot_S30000x128_S128x128_S30000x128_1_0_0_1_n_n.rhsIdx i q 1).val = (i 1).val := by
  unfold DotDims.rhsIdx
  rw [dif_neg (show ¬(1 : Fin S128x128.rank) ∈ dot_S30000x128_S128x128_S30000x128_1_0_0_1_n_n.rhsBatch by decide), dif_pos (show (1 : Fin S128x128.rank) ∈ dot_S30000x128_S128x128_S30000x128_1_0_0_1_n_n.rhsNonContracting by decide)]
  rfl

/-- The product of an array of 30000 rows with a matrix, at row `i` and column `j`: the row times the column. -/
theorem dot_30000_apply (A : FVec Ideal S30000x128 .f32) (W : FVec Ideal S128x128 .f32) (i : Fin 30000) (j : Fin 128) :
    Host.dotGeneral dot_S30000x128_S128x128_S30000x128_1_0_0_1_n_n none A W (ix2 i j) = ∑ k : Fin 128, A (ix2 i k) * W (ix2 k j) := by
  simp only [Host.dotGeneral]
  rw [Ideal.dotGeneral_apply, ← Equiv.sum_comp (ValueIdx.contrEquiv1 dot_S30000x128_S128x128_S30000x128_1_0_0_1_n_n 128 rfl rfl).symm]
  refine Finset.sum_congr rfl fun k _ => ?_
  have hk := ValueIdx.contrEquiv1_symm_val dot_S30000x128_S128x128_S30000x128_1_0_0_1_n_n 128 rfl rfl k
  have el : dot_S30000x128_S128x128_S30000x128_1_0_0_1_n_n.lhsIdx (ix2 i j) ((ValueIdx.contrEquiv1 dot_S30000x128_S128x128_S30000x128_1_0_0_1_n_n 128 rfl rfl).symm k) = ix2 i k := funext fun a => Fin.ext (by
    match a with
    | ⟨0, _⟩ => exact lhs_30000_0 _ _
    | ⟨1, _⟩ => exact (lhs_30000_1 _ _).trans hk)
  have er : dot_S30000x128_S128x128_S30000x128_1_0_0_1_n_n.rhsIdx (ix2 i j) ((ValueIdx.contrEquiv1 dot_S30000x128_S128x128_S30000x128_1_0_0_1_n_n 128 rfl rfl).symm k) = ix2 k j := funext fun a => Fin.ext (by
    match a with
    | ⟨0, _⟩ => exact (rhs_30000_0 _ _).trans hk
    | ⟨1, _⟩ => exact rhs_30000_1 _ _)
  rw [el, er]

/-- A bias, broadcast to one row and then over the 30000 rows, reads the bias at the column. -/
theorem bias_30000_apply (B : FVec Ideal S128 .f32) (i : Fin 30000) (j : Fin 128) :
    broadcastInDim S30000x128 ![0, 1] bcast_S1x128_S30000x128_0_1 (broadcastInDim S1x128 ![1] bcast_S128_S1x128_1 B) (ix2 i j) = B (ix1 j) := by
  rw [broadcastInDim_apply _ bcast_S1x128_S30000x128_0_1 _ (ix2 i j) (ix2 ⟨0, Nat.one_pos⟩ j) (fun a => match a with
    | ⟨0, _⟩ => by show 0 = if (1 : Nat) = 1 then 0 else i.val; rw [if_pos rfl]
    | ⟨1, _⟩ => by show j.val = if (128 : Nat) = 1 then 0 else j.val; rw [if_neg (by decide)])]
  exact broadcastInDim_apply _ bcast_S128_S1x128_1 B (ix2 ⟨0, Nat.one_pos⟩ j) (ix1 j) (fun a => match a with
    | ⟨0, _⟩ => by show j.val = if (128 : Nat) = 1 then 0 else j.val; rw [if_neg (by decide)])

/-- A scalar constant broadcast over the 30000 × 128 array reads the constant. -/
theorem splat_30000x128_apply (c : BitVec 32) (idx : S30000x128.Idx) :
    broadcastInDim S30000x128 ![] bcast_S_S30000x128 (constant (F := Ideal) S_ .f32 c) idx = Ideal.ofBits .f32 c :=
  broadcastInDim_apply _ bcast_S_S30000x128 (constant (F := Ideal) S_ .f32 c) idx ix0 (fun a => a.elim0)

/-- A scalar constant broadcast over the 30000 × 1 array reads the constant. -/
theorem splat_30000x1_apply (c : BitVec 32) (idx : S30000x1.Idx) :
    broadcastInDim S30000x1 ![] bcast_S_S30000x1 (constant (F := Ideal) S_ .f32 c) idx = Ideal.ofBits .f32 c :=
  broadcastInDim_apply _ bcast_S_S30000x1 (constant (F := Ideal) S_ .f32 c) idx ix0 (fun a => a.elim0)

/-- The mean of the two relations' terms, as the reference computes it on whole arrays, at row `i` and column `j`. -/
theorem refComb_30000 (A1 A2 H : FVec Ideal S30000x128 .f32) (WL1 WR1 WL2 WR2 : FVec Ideal S128x128 .f32) (B1 B2 : FVec Ideal S128 .f32) (i : Fin 30000) (j : Fin 128) :
    (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (ix2 i j)
    = comb (rowOf A1 i) (rowOf A2 i) (rowOf H i) WL1 WR1 (fun k => B1 (ix1 k)) WL2 WR2 (fun k => B2 (ix1 k)) j := by
  simp only [mulf_apply, addf_apply, dot_30000_apply]
  rw [bias_30000_apply, bias_30000_apply, splat_30000x128_apply, mul_comm]
  rfl

/-- The square of that mean, as the reference computes it on whole arrays, at row `i` and column `k`. -/
theorem refSq_30000 (A1 A2 H : FVec Ideal S30000x128 .f32) (WL1 WR1 WL2 WR2 : FVec Ideal S128x128 .f32) (B1 B2 : FVec Ideal S128 .f32) (i : Fin 30000) (k : Fin 128) :
    mulf (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (ix2 i k)
    = comb (rowOf A1 i) (rowOf A2 i) (rowOf H i) WL1 WR1 (fun k => B1 (ix1 k)) WL2 WR2 (fun k => B2 (ix1 k)) k * comb (rowOf A1 i) (rowOf A2 i) (rowOf H i) WL1 WR1 (fun k => B1 (ix1 k)) WL2 WR2 (fun k => B2 (ix1 k)) k := by
  rw [mulf_apply, refComb_30000]

/-- The reference's hidden-layer update of a node type of 30000 rows is the row-by-row update. -/
theorem refRelu_30000 (A1 A2 H : FVec Ideal S30000x128 .f32) (WL1 WR1 WL2 WR2 : FVec Ideal S128x128 .f32) (B1 B2 : FVec Ideal S128 .f32) :
    maximumf (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (broadcastInDim S30000x128 ![] bcast_S_S30000x128 (constant S_ .f32 0x00000000#32))
    = reluArr 30000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [reluArr_apply, maximumf_apply, refComb_30000, splat_30000x128_apply]
  rfl

/-- The row sums of an array of 30000 rows, from zero, as a one-column array: at row `i` the sum over the row. -/
theorem rowSum_30000_apply (X : FVec Ideal S30000x128 .f32) (i : Fin 30000) (z : Fin 1) :
    broadcastInDim S30000x1 ![0] bcast_S30000_S30000x1_0 (Host.reduceAdd X (constant S_ .f32 0x00000000#32) reducesTo_S30000x128_S30000_d1 h_S_) (ix2 i z)
    = ∑ k : Fin 128, X (ix2 i k) := by
  rw [broadcastInDim_apply _ bcast_S30000_S30000x1_0 _ (ix2 i z) (ix1 i) (fun a => match a with
    | ⟨0, _⟩ => by show i.val = if (30000 : Nat) = 1 then 0 else i.val; rw [if_neg (by decide)])]
  simp only [Host.reduceAdd, Ideal.hostReduceAdd_def]
  rw [Ideal.hostReduceAdd_single reducesTo_S30000x128_S30000_d1 (by decide), constant_apply, Ideal.ofBits_zero_f32, zero_add]
  refine Finset.sum_congr rfl fun k _ => ?_
  exact congrArg X (funext fun a => Fin.ext (by match a with | ⟨0, _⟩ => rfl | ⟨1, _⟩ => rfl))

/-- The reference's last-layer update of a node type of 30000 rows is the row-by-row update. -/
theorem refNorm_30000 (A1 A2 H : FVec Ideal S30000x128 .f32) (WL1 WR1 WL2 WR2 : FVec Ideal S128x128 .f32) (B1 B2 : FVec Ideal S128 .f32) :
    Host.divf (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (broadcastInDim S30000x128 ![0, 1] bcast_S30000x1_S30000x128_0_1 (maximumf (Host.sqrt (broadcastInDim S30000x1 ![0] bcast_S30000_S30000x1_0 (Host.reduceAdd (mulf (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32))) (mulf (addf (addf (addf (Host.dotGeneral dot_S30000x128_S128x128_S30000x128_1_0_0_1_n_n none A1 WL1) (Host.dotGeneral dot_S30000x128_S128x128_S30000x128_1_0_0_1_n_n none H WR1)) (broadcastInDim S30000x128 ![0, 1] bcast_S1x128_S30000x128_0_1 (broadcastInDim S1x128 ![1] bcast_S128_S1x128_1 B1))) (addf (addf (Host.dotGeneral dot_S30000x128_S128x128_S30000x128_1_0_0_1_n_n none A2 WL2) (Host.dotGeneral dot_S30000x128_S128x128_S30000x128_1_0_0_1_n_n none H WR2)) (broadcastInDim S30000x128 ![0, 1] bcast_S1x128_S30000x128_0_1 (broadcastInDim S1x128 ![1] bcast_S128_S1x128_1 B2)))) (broadcastInDim S30000x128 ![] bcast_S_S30000x128 (constant S_ .f32 0x3F000000#32)))) (constant S_ .f32 0x00000000#32) reducesTo_S30000x128_S30000_d1 h_S_))) (broadcastInDim S30000x1 ![] bcast_S_S30000x1 (constant S_ .f32 0x2B8CBCCC#32))))
    = normArr 30000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [normArr_apply, hostDivf_apply, refComb_30000]
  rw [broadcastInDim_apply _ bcast_S30000x1_S30000x128_0_1 _ (ix2 i j) (ix2 i ⟨0, Nat.one_pos⟩) (fun a => match a with
    | ⟨0, _⟩ => by show i.val = if (30000 : Nat) = 1 then 0 else i.val; rw [if_neg (by decide)]
    | ⟨1, _⟩ => by show 0 = if (1 : Nat) = 1 then 0 else j.val; rw [if_pos rfl])]
  rw [maximumf_apply, hostSqrt_apply, rowSum_30000_apply, splat_30000x1_apply]
  rw [Finset.sum_congr rfl (fun k _ => refSq_30000 A1 A2 H WL1 WR1 WL2 WR2 B1 B2 i k)]
  rfl

/-! ## 10000 rows -/

/-- The left operand's row coordinate is the output's row. -/
theorem lhs_10000_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhs_10000_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhs_10000_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhs_10000_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of an array of 10000 rows with a matrix, at row `i` and column `j`: the row times the column. -/
theorem dot_10000_apply (A : FVec Ideal S10000x128 .f32) (W : FVec Ideal S128x128 .f32) (i : Fin 10000) (j : Fin 128) :
    Host.dotGeneral dot_S10000x128_S128x128_S10000x128_1_0_0_1_n_n none A W (ix2 i j) = ∑ k : Fin 128, A (ix2 i k) * W (ix2 k j) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 i j) ((ValueIdx.contrEquiv1 dot_S10000x128_S128x128_S10000x128_1_0_0_1_n_n 128 rfl rfl).symm k) = ix2 i k := funext fun a => Fin.ext (by
    match a with
    | ⟨0, _⟩ => exact lhs_10000_0 _ _
    | ⟨1, _⟩ => exact (lhs_10000_1 _ _).trans hk)
  have er : dot_S10000x128_S128x128_S10000x128_1_0_0_1_n_n.rhsIdx (ix2 i j) ((ValueIdx.contrEquiv1 dot_S10000x128_S128x128_S10000x128_1_0_0_1_n_n 128 rfl rfl).symm k) = ix2 k j := funext fun a => Fin.ext (by
    match a with
    | ⟨0, _⟩ => exact (rhs_10000_0 _ _).trans hk
    | ⟨1, _⟩ => exact rhs_10000_1 _ _)
  rw [el, er]

/-- A bias, broadcast to one row and then over the 10000 rows, reads the bias at the column. -/
theorem bias_10000_apply (B : FVec Ideal S128 .f32) (i : Fin 10000) (j : Fin 128) :
    broadcastInDim S10000x128 ![0, 1] bcast_S1x128_S10000x128_0_1 (broadcastInDim S1x128 ![1] bcast_S128_S1x128_1 B) (ix2 i j) = B (ix1 j) := by
  rw [broadcastInDim_apply _ bcast_S1x128_S10000x128_0_1 _ (ix2 i j) (ix2 ⟨0, Nat.one_pos⟩ j) (fun a => match a with
    | ⟨0, _⟩ => by show 0 = if (1 : Nat) = 1 then 0 else i.val; rw [if_pos rfl]
    | ⟨1, _⟩ => by show j.val = if (128 : Nat) = 1 then 0 else j.val; rw [if_neg (by decide)])]
  exact broadcastInDim_apply _ bcast_S128_S1x128_1 B (ix2 ⟨0, Nat.one_pos⟩ j) (ix1 j) (fun a => match a with
    | ⟨0, _⟩ => by show j.val = if (128 : Nat) = 1 then 0 else j.val; rw [if_neg (by decide)])

/-- A scalar constant broadcast over the 10000 × 128 array reads the constant. -/
theorem splat_10000x128_apply (c : BitVec 32) (idx : S10000x128.Idx) :
    broadcastInDim S10000x128 ![] bcast_S_S10000x128 (constant (F := Ideal) S_ .f32 c) idx = Ideal.ofBits .f32 c :=
  broadcastInDim_apply _ bcast_S_S10000x128 (constant (F := Ideal) S_ .f32 c) idx ix0 (fun a => a.elim0)

/-- A scalar constant broadcast over the 10000 × 1 array reads the constant. -/
theorem splat_10000x1_apply (c : BitVec 32) (idx : S10000x1.Idx) :
    broadcastInDim S10000x1 ![] bcast_S_S10000x1 (constant (F := Ideal) S_ .f32 c) idx = Ideal.ofBits .f32 c :=
  broadcastInDim_apply _ bcast_S_S10000x1 (constant (F := Ideal) S_ .f32 c) idx ix0 (fun a => a.elim0)

/-- The mean of the two relations' terms, as the reference computes it on whole arrays, at row `i` and column `j`. -/
theorem refComb_10000 (A1 A2 H : FVec Ideal S10000x128 .f32) (WL1 WR1 WL2 WR2 : FVec Ideal S128x128 .f32) (B1 B2 : FVec Ideal S128 .f32) (i : Fin 10000) (j : Fin 128) :
    (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (ix2 i j)
    = comb (rowOf A1 i) (rowOf A2 i) (rowOf H i) WL1 WR1 (fun k => B1 (ix1 k)) WL2 WR2 (fun k => B2 (ix1 k)) j := by
  simp only [mulf_apply, addf_apply, dot_10000_apply]
  rw [bias_10000_apply, bias_10000_apply, splat_10000x128_apply, mul_comm]
  rfl

/-- The square of that mean, as the reference computes it on whole arrays, at row `i` and column `k`. -/
theorem refSq_10000 (A1 A2 H : FVec Ideal S10000x128 .f32) (WL1 WR1 WL2 WR2 : FVec Ideal S128x128 .f32) (B1 B2 : FVec Ideal S128 .f32) (i : Fin 10000) (k : Fin 128) :
    mulf (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (ix2 i k)
    = comb (rowOf A1 i) (rowOf A2 i) (rowOf H i) WL1 WR1 (fun k => B1 (ix1 k)) WL2 WR2 (fun k => B2 (ix1 k)) k * comb (rowOf A1 i) (rowOf A2 i) (rowOf H i) WL1 WR1 (fun k => B1 (ix1 k)) WL2 WR2 (fun k => B2 (ix1 k)) k := by
  rw [mulf_apply, refComb_10000]

/-- The reference's hidden-layer update of a node type of 10000 rows is the row-by-row update. -/
theorem refRelu_10000 (A1 A2 H : FVec Ideal S10000x128 .f32) (WL1 WR1 WL2 WR2 : FVec Ideal S128x128 .f32) (B1 B2 : FVec Ideal S128 .f32) :
    maximumf (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (broadcastInDim S10000x128 ![] bcast_S_S10000x128 (constant S_ .f32 0x00000000#32))
    = reluArr 10000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [reluArr_apply, maximumf_apply, refComb_10000, splat_10000x128_apply]
  rfl

/-- The row sums of an array of 10000 rows, from zero, as a one-column array: at row `i` the sum over the row. -/
theorem rowSum_10000_apply (X : FVec Ideal S10000x128 .f32) (i : Fin 10000) (z : Fin 1) :
    broadcastInDim S10000x1 ![0] bcast_S10000_S10000x1_0 (Host.reduceAdd X (constant S_ .f32 0x00000000#32) reducesTo_S10000x128_S10000_d1 h_S_) (ix2 i z)
    = ∑ k : Fin 128, X (ix2 i k) := by
  rw [broadcastInDim_apply _ bcast_S10000_S10000x1_0 _ (ix2 i z) (ix1 i) (fun a => match a with
    | ⟨0, _⟩ => by show i.val = if (10000 : Nat) = 1 then 0 else i.val; rw [if_neg (by decide)])]
  simp only [Host.reduceAdd, Ideal.hostReduceAdd_def]
  rw [Ideal.hostReduceAdd_single reducesTo_S10000x128_S10000_d1 (by decide), constant_apply, Ideal.ofBits_zero_f32, zero_add]
  refine Finset.sum_congr rfl fun k _ => ?_
  exact congrArg X (funext fun a => Fin.ext (by match a with | ⟨0, _⟩ => rfl | ⟨1, _⟩ => rfl))

/-- The reference's last-layer update of a node type of 10000 rows is the row-by-row update. -/
theorem refNorm_10000 (A1 A2 H : FVec Ideal S10000x128 .f32) (WL1 WR1 WL2 WR2 : FVec Ideal S128x128 .f32) (B1 B2 : FVec Ideal S128 .f32) :
    Host.divf (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (broadcastInDim S10000x128 ![0, 1] bcast_S10000x1_S10000x128_0_1 (maximumf (Host.sqrt (broadcastInDim S10000x1 ![0] bcast_S10000_S10000x1_0 (Host.reduceAdd (mulf (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32))) (mulf (addf (addf (addf (Host.dotGeneral dot_S10000x128_S128x128_S10000x128_1_0_0_1_n_n none A1 WL1) (Host.dotGeneral dot_S10000x128_S128x128_S10000x128_1_0_0_1_n_n none H WR1)) (broadcastInDim S10000x128 ![0, 1] bcast_S1x128_S10000x128_0_1 (broadcastInDim S1x128 ![1] bcast_S128_S1x128_1 B1))) (addf (addf (Host.dotGeneral dot_S10000x128_S128x128_S10000x128_1_0_0_1_n_n none A2 WL2) (Host.dotGeneral dot_S10000x128_S128x128_S10000x128_1_0_0_1_n_n none H WR2)) (broadcastInDim S10000x128 ![0, 1] bcast_S1x128_S10000x128_0_1 (broadcastInDim S1x128 ![1] bcast_S128_S1x128_1 B2)))) (broadcastInDim S10000x128 ![] bcast_S_S10000x128 (constant S_ .f32 0x3F000000#32)))) (constant S_ .f32 0x00000000#32) reducesTo_S10000x128_S10000_d1 h_S_))) (broadcastInDim S10000x1 ![] bcast_S_S10000x1 (constant S_ .f32 0x2B8CBCCC#32))))
    = normArr 10000 A1 A2 H WL1 WR1 (fun k => B1 (ix1 k)) WL2 WR2 (fun k => B2 (ix1 k)) := by
  funext idx
  obtain ⟨i, j, rfl⟩ : ∃ i j, idx = ix2 i j := ⟨idx 0, idx 1, eq_ix2 idx⟩
  rw [normArr_apply, hostDivf_apply, refComb_10000]
  rw [broadcastInDim_apply _ bcast_S10000x1_S10000x128_0_1 _ (ix2 i j) (ix2 i ⟨0, Nat.one_pos⟩) (fun a => match a with
    | ⟨0, _⟩ => by show i.val = if (10000 : Nat) = 1 then 0 else i.val; rw [if_neg (by decide)]
    | ⟨1, _⟩ => by show 0 = if (1 : Nat) = 1 then 0 else j.val; rw [if_pos rfl])]
  rw [maximumf_apply, hostSqrt_apply, rowSum_10000_apply, splat_10000x1_apply]
  rw [Finset.sum_congr rfl (fun k _ => refSq_10000 A1 A2 H WL1 WR1 WL2 WR2 B1 B2 i k)]
  rfl

end Cert.ReferenceIdeal.RefRead

end
-- ==== Proof.FastRead.lean ====
/-
  Reading a buffer after a line of host operations, quickly.  An operation leaves every buffer it does not write as
  it was; stated for ANY operation and ANY buffer, with the side condition (the buffer is not among the operation's
  writes) left to be decided, it applies without opening the operation.  The line's results are then read as the
  library's one-pass reader does, with this rule tried first at every operation.
-/
import Idealize.ShloMosaic.Lib.StableHlo.Run

namespace Cert.FastRead

open Idealize.ShloMosaic Idealize.ShloMosaic.StableHlo

/-- An operation leaves a buffer it does not write as it was: for any operation and any buffer. -/
theorem result_pass {τ : Topo} {sig : RefSig} {Val : EltTy → Type} (op : HloOp τ sig Val) (F : Valuation τ sig Val) {b : DevRef τ sig}
    (h : b ∉ op.writes) : op.result F (no_index b) = F b := op.result_of_not_mem F h

/-- The library's one-pass reader of a line of host operations, with the pass-through rule tried first. -/
macro "after_results_fast" : tactic =>
  `(tactic| (simp (disch := decide) only [↓Cert.FastRead.result_pass, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result']))

end Cert.FastRead
-- ==== Proof.StepR0c.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.RefRead
import proofs.«141482_j13434657702128_1_alg».proof.Proof.RefOps0
import proofs.«141482_j13434657702128_1_alg».proof.Proof.FastRead

set_option maxRecDepth 16384

noncomputable section

namespace Cert.StepR0c

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 50000
  a2 : Cert.Spec.Rows 50000
  h : Cert.Spec.Rows 50000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R0 (F := Ideal)) Y (Proc.devRef .tc Cert.ReferenceIdeal.main_v189) = Cert.Spec.reluArr 50000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R0]
    after_results_fast
    simp only [TRef.toBuf, TRef.ofBuf, cast_eq]
    generalize hA1 : (Host.divf (Host.scatterAdd _ _ _ _) _ : FVec Ideal Cert.ReferenceIdeal.S50000x128 .f32) = A1
    generalize hA2 : (Host.divf (Host.scatterAdd _ _ _ _) _ : FVec Ideal Cert.ReferenceIdeal.S50000x128 .f32) = A2
    rw [Cert.ReferenceIdeal.RefRead.refRelu_50000]
    subst hA1 hA2
    with_reducible rfl

end Cert.StepR0c

end
-- ==== Proof.StepLib.lean ====
/-
  Small facts the layer steps share.  The two printed programs spell the SAME gather and scatter-add operations
  (same operand shapes, same dimension numbers), each in its own namespace: the records are equal.  A bias row
  reshaped from 128 entries to a 1 × 128 array holds entry k at (0, k).
-/
import proofs.«141482_j13434657702128_1_alg».proof.Proof.Gen.KernelIdeal
import proofs.«141482_j13434657702128_1_alg».proof.Proof.Gen.ReferenceIdeal
import Idealize.ShloMosaic.Lib.ValueIdx
import Idealize.ShloMosaic.Lib.Pipeline.Value
import Idealize.ShloMosaic.Lib.ValueLayout

noncomputable section

namespace Cert.StepLib

open Idealize.ShloMosaic Idealize.ShloMosaic.ValueIdx

theorem gather_S10000x128_S400000x1_S400000x128_1_0_n_n_0_1_1128_eq : Cert.KernelIdeal.gather_S10000x128_S400000x1_S400000x128_1_0_n_n_0_1_1128 = Cert.ReferenceIdeal.gather_S10000x128_S400000x1_S400000x128_1_0_n_n_0_1_1128 := rfl
theorem gather_S10000x128_S800000x1_S800000x128_1_0_n_n_0_1_1128_eq : Cert.KernelIdeal.gather_S10000x128_S800000x1_S800000x128_1_0_n_n_0_1_1128 = Cert.ReferenceIdeal.gather_S10000x128_S800000x1_S800000x128_1_0_n_n_0_1_1128 := rfl
theorem gather_S30000x128_S400000x1_S400000x128_1_0_n_n_0_1_1128_eq : Cert.KernelIdeal.gather_S30000x128_S400000x1_S400000x128_1_0_n_n_0_1_1128 = Cert.ReferenceIdeal.gather_S30000x128_S400000x1_S400000x128_1_0_n_n_0_1_1128 := rfl
theorem gather_S30000x128_S800000x1_S800000x128_1_0_n_n_0_1_1128_eq : Cert.KernelIdeal.gather_S30000x128_S800000x1_S800000x128_1_0_n_n_0_1_1128 = Cert.ReferenceIdeal.gather_S30000x128_S800000x1_S800000x128_1_0_n_n_0_1_1128 := rfl
theorem gather_S50000x128_S800000x1_S800000x128_1_0_n_n_0_1_1128_eq : Cert.KernelIdeal.gather_S50000x128_S800000x1_S800000x128_1_0_n_n_0_1_1128 = Cert.ReferenceIdeal.gather_S50000x128_S800000x1_S800000x128_1_0_n_n_0_1_1128 := rfl
theorem scatter_S10000x128_S400000x1_S400000x128_1_0_0_1_eq : Cert.KernelIdeal.scatter_S10000x128_S400000x1_S400000x128_1_0_0_1 = Cert.ReferenceIdeal.scatter_S10000x128_S400000x1_S400000x128_1_0_0_1 := rfl
theorem scatter_S10000x128_S800000x1_S800000x128_1_0_0_1_eq : Cert.KernelIdeal.scatter_S10000x128_S800000x1_S800000x128_1_0_0_1 = Cert.ReferenceIdeal.scatter_S10000x128_S800000x1_S800000x128_1_0_0_1 := rfl
theorem scatter_S10000x1_S400000x1_S400000x1_1_0_0_1_eq : Cert.KernelIdeal.scatter_S10000x1_S400000x1_S400000x1_1_0_0_1 = Cert.ReferenceIdeal.scatter_S10000x1_S400000x1_S400000x1_1_0_0_1 := rfl
theorem scatter_S10000x1_S800000x1_S800000x1_1_0_0_1_eq : Cert.KernelIdeal.scatter_S10000x1_S800000x1_S800000x1_1_0_0_1 = Cert.ReferenceIdeal.scatter_S10000x1_S800000x1_S800000x1_1_0_0_1 := rfl
theorem scatter_S30000x128_S400000x1_S400000x128_1_0_0_1_eq : Cert.KernelIdeal.scatter_S30000x128_S400000x1_S400000x128_1_0_0_1 = Cert.ReferenceIdeal.scatter_S30000x128_S400000x1_S400000x128_1_0_0_1 := rfl
theorem scatter_S30000x128_S800000x1_S800000x128_1_0_0_1_eq : Cert.KernelIdeal.scatter_S30000x128_S800000x1_S800000x128_1_0_0_1 = Cert.ReferenceIdeal.scatter_S30000x128_S800000x1_S800000x128_1_0_0_1 := rfl
theorem scatter_S30000x1_S400000x1_S400000x1_1_0_0_1_eq : Cert.KernelIdeal.scatter_S30000x1_S400000x1_S400000x1_1_0_0_1 = Cert.ReferenceIdeal.scatter_S30000x1_S400000x1_S400000x1_1_0_0_1 := rfl
theorem scatter_S30000x1_S800000x1_S800000x1_1_0_0_1_eq : Cert.KernelIdeal.scatter_S30000x1_S800000x1_S800000x1_1_0_0_1 = Cert.ReferenceIdeal.scatter_S30000x1_S800000x1_S800000x1_1_0_0_1 := rfl
theorem scatter_S50000x128_S800000x1_S800000x128_1_0_0_1_eq : Cert.KernelIdeal.scatter_S50000x128_S800000x1_S800000x128_1_0_0_1 = Cert.ReferenceIdeal.scatter_S50000x128_S800000x1_S800000x128_1_0_0_1 := rfl
theorem scatter_S50000x1_S800000x1_S800000x1_1_0_0_1_eq : Cert.KernelIdeal.scatter_S50000x1_S800000x1_S800000x1_1_0_0_1 = Cert.ReferenceIdeal.scatter_S50000x1_S800000x1_S800000x1_1_0_0_1 := rfl

end Cert.StepLib

end
-- ==== Proof.StepJ0c.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR0c
import proofs.«141482_j13434657702128_1_alg».proof.Proof.StepLib
import proofs.«141482_j13434657702128_1_alg».proof.Proof.FastRead
import Idealize.ShloMosaic.Lib.ValueLayout

set_option maxRecDepth 16384

noncomputable section

namespace Cert.StepJ0c

open Idealize.ShloMosaic Idealize.ShloMosaic.TcCoe Idealize.SL.Sem Idealize.ShloMosaic.StableHlo Idealize.ShloMosaic.ValueIdx
open Cert.KernelIdeal.KFold

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A1_0 X c (Proc.devRef .tc Cert.KernelIdeal.main_v71)) = (Cert.StepR0c.refSide Y).a1)
    ∧ ((A1_0 X c (Proc.devRef .tc Cert.KernelIdeal.main_v107)) = (Cert.StepR0c.refSide Y).a2)
    ∧ ((A1_0 X c (Proc.devRef .tc Cert.KernelIdeal.main_arg0)) = (Cert.StepR0c.refSide Y).h)
    ∧ ((A1_0 X c (Proc.devRef .tc Cert.KernelIdeal.main_v109)) = (Cert.StepR0c.refSide Y).wl1)
    ∧ ((A1_0 X c (Proc.devRef .tc Cert.KernelIdeal.main_v111)) = (Cert.StepR0c.refSide Y).wr1)
    ∧ ((fun k => A1_0 X c (Proc.devRef .tc Cert.KernelIdeal.main_v120) (ix2 0 k)) = (Cert.StepR0c.refSide Y).b1)
    ∧ ((A1_0 X c (Proc.devRef .tc Cert.KernelIdeal.main_v115)) = (Cert.StepR0c.refSide Y).wl2)
    ∧ ((A1_0 X c (Proc.devRef .tc Cert.KernelIdeal.main_v117)) = (Cert.StepR0c.refSide Y).wr2)
    ∧ ((fun k => A1_0 X c (Proc.devRef .tc Cert.KernelIdeal.main_v121) (ix2 0 k)) = (Cert.StepR0c.refSide Y).b2) := by
  dsimp only [A1_0, Cert.KernelIdeal.Gen.hostOps0]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR0c.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ0c

end
-- ==== Proof.Step0c.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK0c
import proofs.«141482_j13434657702128_1_alg».proof.Proof.StepJ0c

set_option maxRecDepth 16384

noncomputable section

namespace Cert.Step0c

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_0 X c (Proc.devRef .tc Cert.KernelIdeal.main_v122) = after (Cert.ReferenceIdeal.RefOps.R0 (F := Ideal)) Y (Proc.devRef .tc Cert.ReferenceIdeal.main_v189) := by
  obtain ⟨j1, j2, j3, j4, j5, j6, j7, j8, j9⟩ := Cert.StepJ0c.join X Y c hc hm hd h_arg3 h_arg4 h_arg5 h_arg6 h_arg7 h_arg8 h_arg9 h_arg10 h_arg11 h_arg12 h_arg13 h_arg14 h_arg15 h_arg16 h_arg17
  exact (Cert.StepK0c.kernel X c).trans ((reluArr_congr j1 j2 j3 j4 j5 j6 j7 j8 j9).trans (Cert.StepR0c.refSide Y).eq.symm)

end Cert.Step0c

end
-- ==== Proof.Region1.lean ====
/-
  The output array of node-update region 1 (30000 rows, 15 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 15 blocks cover all
  30000 rows (row i lies in the block of point i / 2000), hence the array after the region is Spec.reluArr of those arrays.
-/
import proofs.«141482_j13434657702128_1_alg».proof.Proof.FrameKIR0
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 15 points. -/
theorem hN : cfg1.N = 15 := Gen.N_1

/-- The index maps over the grid: the three row windows and the output move with the point along the rows and
    stay at column block 0; the weight and bias windows stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-! ## Each input block as rows of its array -/

/-- Row r of the first aggregated block at point t is row 2000·t + r of its array. -/
theorem blk0_apply (c : Dev nD) (t : Fin cfg1.N) (r : Fin 2000) (k : Fin 128) (i : Fin 30000) (hi : i.val = 2000 * t.val + r.val) :
    (GenP.iblk1 V c 0 t : S2000x128.Idx → EReal) (ix2 r k) = (V c main_v17 : S30000x128.Idx → EReal) (ix2 i k) := by
  obtain ⟨⟨e0, e1⟩, -⟩ := idx_facts t
  unfold GenP.iblk1
  rw [View.read_apply]
  show V c main_v17 _ = V c main_v17 _
  congr 1
  funext a
  apply Fin.ext
  match a with
  | ⟨0, _⟩ => show win1_0.index t (0 : Fin 2) * 2000 + 1 * r.val = i.val; omega
  | ⟨1, _⟩ => show win1_0.index t (1 : Fin 2) * 128 + 1 * k.val = k.val; omega

/-- Row r of the second aggregated block at point t is row 2000·t + r of its array. -/
theorem blk1_apply (c : Dev nD) (t : Fin cfg1.N) (r : Fin 2000) (k : Fin 128) (i : Fin 30000) (hi : i.val = 2000 * t.val + r.val) :
    (GenP.iblk1 V c 1 t : S2000x128.Idx → EReal) (ix2 r k) = (V c main_v89 : S30000x128.Idx → EReal) (ix2 i k) := by
  obtain ⟨-, ⟨e0, e1⟩, -⟩ := idx_facts t
  unfold GenP.iblk1
  rw [View.read_apply]
  show V c main_v89 _ = V c main_v89 _
  congr 1
  funext a
  apply Fin.ext
  match a with
  | ⟨0, _⟩ => show win1_1.index t (0 : Fin 2) * 2000 + 1 * r.val = i.val; omega
  | ⟨1, _⟩ => show win1_1.index t (1 : Fin 2) * 128 + 1 * k.val = k.val; omega

/-- Row r of the feature block at point t is row 2000·t + r of the feature array. -/
theorem blk2_apply (c : Dev nD) (t : Fin cfg1.N) (r : Fin 2000) (k : Fin 128) (i : Fin 30000) (hi : i.val = 2000 * t.val + r.val) :
    (GenP.iblk1 V c 2 t : S2000x128.Idx → EReal) (ix2 r k) = (V c main_arg1 : S30000x128.Idx → EReal) (ix2 i k) := by
  obtain ⟨-, -, ⟨e0, e1⟩, -⟩ := idx_facts t
  unfold GenP.iblk1
  rw [View.read_apply]
  show V c main_arg1 _ = V c main_arg1 _
  congr 1
  funext a
  apply Fin.ext
  match a with
  | ⟨0, _⟩ => show win1_2.index t (0 : Fin 2) * 2000 + 1 * r.val = i.val; omega
  | ⟨1, _⟩ => show win1_2.index t (1 : Fin 2) * 128 + 1 * k.val = k.val; omega

/-- A weight window's one block is its whole matrix. -/
theorem blk3_eq (c : Dev nD) (t : Fin cfg1.N) :
    (GenP.iblk1 V c 3 t : S128x128.Idx → EReal) = (V c main_v124 : S128x128.Idx → EReal) := by
  obtain ⟨-, -, -, ⟨e0, e1⟩, -⟩ := idx_facts t
  funext x
  unfold GenP.iblk1
  rw [View.read_apply]
  show V c main_v124 _ = V c main_v124 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

theorem blk4_eq (c : Dev nD) (t : Fin cfg1.N) :
    (GenP.iblk1 V c 4 t : S128x128.Idx → EReal) = (V c main_v126 : S128x128.Idx → EReal) := by
  obtain ⟨-, -, -, -, ⟨e0, e1⟩, -⟩ := idx_facts t
  funext x
  unfold GenP.iblk1
  rw [View.read_apply]
  show V c main_v126 _ = V c main_v126 _
  congr 1
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- A bias window's one block is its whole row. -/
theorem blk5_eq (c : Dev nD) (t : Fin cfg1.N) :
    (GenP.iblk1 V c 5 t : S1x128.Idx → EReal) = (V c main_v135 : S1x128.Idx → EReal) := by
  obtain ⟨-, -, -, -, -, ⟨e0, e1⟩, -⟩ := idx_facts t
  funext x
  unfold GenP.iblk1
  rw [View.read_apply]
  show V c main_v135 _ = V c main_v135 _
  congr 1
  funext a
  apply Fin.ext
  match a with
  | ⟨0, _⟩ => show win1_5.index t (0 : Fin 2) * 1 + 1 * (x 0).val = (x 0).val; omega
  | ⟨1, _⟩ => show win1_5.index t (1 : Fin 2) * 128 + 1 * (x 1).val = (x 1).val; omega

theorem blk6_eq (c : Dev nD) (t : Fin cfg1.N) :
    (GenP.iblk1 V c 6 t : S128x128.Idx → EReal) = (V c main_v130 : S128x128.Idx → EReal) := by
  obtain ⟨-, -, -, -, -, -, ⟨e0, e1⟩, -⟩ := idx_facts t
  funext x
  unfold GenP.iblk1
  rw [View.read_apply]
  show V c main_v130 _ = V c main_v130 _
  congr 1
  funext a
  apply Fin.ext
  match a with
  | ⟨0, _⟩ => show win1_6.index t (0 : Fin 2) * 128 + 1 * (x 0).val = (x 0).val; omega
  | ⟨1, _⟩ => show win1_6.index t (1 : Fin 2) * 128 + 1 * (x 1).val = (x 1).val; omega

theorem blk7_eq (c : Dev nD) (t : Fin cfg1.N) :
    (GenP.iblk1 V c 7 t : S128x128.Idx → EReal) = (V c main_v132 : S128x128.Idx → EReal) := by
  obtain ⟨-, -, -, -, -, -, -, ⟨e0, e1⟩, -⟩ := idx_facts t
  funext x
  unfold GenP.iblk1
  rw [View.read_apply]
  show V c main_v132 _ = V c main_v132 _
  congr 1
  funext a
  apply Fin.ext
  match a with
  | ⟨0, _⟩ => show win1_7.index t (0 : Fin 2) * 128 + 1 * (x 0).val = (x 0).val; omega
  | ⟨1, _⟩ => show win1_7.index t (1 : Fin 2) * 128 + 1 * (x 1).val = (x 1).val; omega

theorem blk8_eq (c : Dev nD) (t : Fin cfg1.N) :
    (GenP.iblk1 V c 8 t : S1x128.Idx → EReal) = (V c main_v136 : S1x128.Idx → EReal) := by
  obtain ⟨-, -, -, -, -, -, -, -, ⟨e0, e1⟩, -⟩ := idx_facts t
  funext x
  unfold GenP.iblk1
  rw [View.read_apply]
  show V c main_v136 _ = V c main_v136 _
  congr 1
  funext a
  apply Fin.ext
  match a with
  | ⟨0, _⟩ => show win1_8.index t (0 : Fin 2) * 1 + 1 * (x 0).val = (x 0).val; omega
  | ⟨1, _⟩ => show win1_8.index t (1 : Fin 2) * 128 + 1 * (x 1).val = (x 1).val; omega

/-! ## The output block, and the array -/

/-- Entry (r, j) of the output block at point t sits at (2000·t + r, j) of the output array. -/
theorem emb_out (t : Fin cfg1.N) (r : Fin 2000) (j : Fin 128) (i : Fin 30000) (hi : i.val = 2000 * t.val + r.val) :
    (((cfg1.win 9).blk t).view.emb (ix2 r j) : S30000x128.Idx) = ix2 i j := by
  obtain ⟨-, -, -, -, -, -, -, -, -, ⟨e0, e1⟩⟩ := idx_facts t
  funext a
  apply Fin.ext
  match a with
  | ⟨0, _⟩ => show win1_9.index t (0 : Fin 2) * 2000 + 1 * r.val = i.val; omega
  | ⟨1, _⟩ => show win1_9.index t (1 : Fin 2) * 128 + 1 * j.val = j.val; omega

/-- The node type's update as one function of the arrays the region finds. -/
abbrev G (c : Dev nD) : S30000x128.Idx → EReal :=
  Cert.Spec.reluArr 30000 (V c main_v17) (V c main_v89) (V c main_arg1) (V c main_v124) (V c main_v126)
    (fun k => V c main_v135 (ix2 0 k)) (V c main_v130) (V c main_v132) (fun k => V c main_v136 (ix2 0 k))

/-- What point t writes back is block t of the update: rows 2000·t … 2000·t + 1999. -/
theorem flushed_eq (c : Dev nD) (t : Fin cfg1.N) :
    (GenP.dat1 V c).flushed 9 t = ((cfg1.win 9).blk t).view.read (Elt Ideal) (G V c) := by
  show (cfg1.win 9).cut (grid1.coords t) ((GenP.dat1 V c).after 9 t) = _
  rw [GenP.after1_9]
  unfold GenP.out1_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 15 := hN ▸ t.isLt
  have hi : (⟨2000 * t.val + r.val, by have := r.isLt; omega⟩ : Fin 30000).val = 2000 * t.val + r.val := rfl
  show Gen.k1_pay1 (Gen.k1_pay2 (GenP.iblk1 V c 0 t) (GenP.iblk1 V c 1 t) (GenP.iblk1 V c 2 t) (GenP.iblk1 V c 3 t) (GenP.iblk1 V c 4 t)
      (GenP.iblk1 V c 6 t) (GenP.iblk1 V c 7 t) (GenP.iblk1 V c 5 t) (GenP.iblk1 V c 8 t)) (Gen.k1_pay3 (F := Ideal)) (ix2 r j)
    = G V c (((cfg1.win 9).blk t).view.emb (ix2 r j))
  rw [Block.pay1_apply, emb_out t r j _ hi]
  unfold G
  rw [Cert.Spec.reluArr_apply, blk3_eq, blk4_eq, blk5_eq, blk6_eq, blk7_eq, blk8_eq]
  have h0 : (fun k => (GenP.iblk1 V c 0 t : S2000x128.Idx → EReal) (ix2 r k)) = Cert.Spec.rowOf (V c main_v17) ⟨2000 * t.val + r.val, by have := r.isLt; omega⟩ :=
    funext fun k => blk0_apply V c t r k _ hi
  have h1 : (fun k => (GenP.iblk1 V c 1 t : S2000x128.Idx → EReal) (ix2 r k)) = Cert.Spec.rowOf (V c main_v89) ⟨2000 * t.val + r.val, by have := r.isLt; omega⟩ :=
    funext fun k => blk1_apply V c t r k _ hi
  have h2 : (fun k => (GenP.iblk1 V c 2 t : S2000x128.Idx → EReal) (ix2 r k)) = Cert.Spec.rowOf (V c main_arg1) ⟨2000 * t.val + r.val, by have := r.isLt; omega⟩ :=
    funext fun k => blk2_apply V c t r k _ hi
  rw [h0, h1, h2]

/-- An index of the output array is in point t's block iff each coordinate is in the block's range. -/
theorem mem_blk (t : Fin cfg1.N) (i : S30000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v137).slice (win1_9.rect t)).set ↔ _
  rw [View.set_slice_whole, Rect.mem_set_unit]
  exact Iff.rfl

/-- Every index of the output array is in the block of the point its row over 2000 names. -/
theorem cover (i : S30000x128.Idx) : ∃ t : Fin cfg1.N, (cfg1.win 9).flush t = true ∧ i ∈ ((cfg1.win 9).blk t).view.set := by
  have hi0 : (i 0).val < 30000 := (i 0).isLt
  have hi1 : (i 1).val < 128 := (i 1).isLt
  have hlt : (i 0).val / 2000 < cfg1.N := by rw [hN]; omega
  obtain ⟨-, -, -, -, -, -, -, -, -, ⟨e0, e1⟩⟩ := idx_facts ⟨(i 0).val / 2000, hlt⟩
  refine ⟨⟨(i 0).val / 2000, hlt⟩, Gen.flush1_9 _, ?_⟩
  rw [mem_blk]
  intro a
  match a with
  | ⟨0, _⟩ =>
    show win1_9.index ⟨(i 0).val / 2000, hlt⟩ (0 : Fin 2) * 2000 ≤ (i 0).val ∧ (i 0).val < win1_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, hlt⟩ (1 : Fin 2) * 128 ≤ (i 1).val ∧ (i 1).val < win1_9.index ⟨(i 0).val / 2000, hlt⟩ (1 : Fin 2) * 128 + 128
    rw [e1]; omega

/-- THE OUTPUT ARRAY after the region: the node type's update of the arrays the region finds, row by row. -/
theorem value (c : Dev nD) :
    (GenP.dat1 V c).arrAt 9 cfg1.N = Cert.Spec.reluArr 30000 (V c main_v17) (V c main_v89) (V c main_arg1) (V c main_v124) (V c main_v126)
      (fun k => V c main_v135 (ix2 0 k)) (V c main_v130) (V c main_v132) (fun k => V c main_v136 (ix2 0 k)) :=
  (GenP.dat1 V c).arrAt_eq_of_cover 9 (G V c) (fun t _ => flushed_eq V c t) cover

end Cert.KernelIdeal.Region1

end
-- ==== Proof.StepK0m.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region1

set_option maxRecDepth 16384

noncomputable section

namespace Cert.StepK0m

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_0 X c (Proc.devRef .tc Cert.KernelIdeal.main_v137)
    = Cert.Spec.reluArr 30000 (A3_0 X c (Proc.devRef .tc Cert.KernelIdeal.main_v17))
        (A3_0 X c (Proc.devRef .tc Cert.KernelIdeal.main_v89))
        (A3_0 X c (Proc.devRef .tc Cert.KernelIdeal.main_arg1))
        (A3_0 X c (Proc.devRef .tc Cert.KernelIdeal.main_v124))
        (A3_0 X c (Proc.devRef .tc Cert.KernelIdeal.main_v126))
        (fun k => A3_0 X c (Proc.devRef .tc Cert.KernelIdeal.main_v135) (ix2 0 k))
        (A3_0 X c (Proc.devRef .tc Cert.KernelIdeal.main_v130))
        (A3_0 X c (Proc.devRef .tc Cert.KernelIdeal.main_v132))
        (fun k => A3_0 X c (Proc.devRef .tc Cert.KernelIdeal.main_v136) (ix2 0 k)) := by
  rw [A6_0_of_ne X c Cert.KernelIdeal.main_v137 (by decide)]
  dsimp only [A5_0, Cert.KernelIdeal.Gen.hostOps2]
  after_results_simp
  have e1 : A4_0 X c (Proc.devRef .tc Cert.KernelIdeal.main_v137) = (Cert.KernelIdeal.GenP.dat1 (U3_0 X) c).arrAt 9 Cert.KernelIdeal.cfg1.N := A4_0_arr X c 9
  rw [e1, Cert.KernelIdeal.Region1.value]

end Cert.StepK0m

end
-- ==== Proof.StepR0m.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR0c
import proofs.«141482_j13434657702128_1_alg».proof.Proof.RefRead
import proofs.«141482_j13434657702128_1_alg».proof.Proof.RefOps0
import proofs.«141482_j13434657702128_1_alg».proof.Proof.FastRead

set_option maxRecDepth 16384

noncomputable section

namespace Cert.StepR0m

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 30000
  a2 : Cert.Spec.Rows 30000
  h : Cert.Spec.Rows 30000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R0 (F := Ideal)) Y (Proc.devRef .tc Cert.ReferenceIdeal.main_v190) = Cert.Spec.reluArr 30000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R0]
    after_results_fast
    simp only [TRef.toBuf, TRef.ofBuf, cast_eq]
    generalize hA1 : (Host.divf (Host.scatterAdd _ _ _ _) _ : FVec Ideal Cert.ReferenceIdeal.S30000x128 .f32) = A1
    generalize hA2 : (Host.divf (Host.scatterAdd _ _ _ _) _ : FVec Ideal Cert.ReferenceIdeal.S30000x128 .f32) = A2
    rw [Cert.ReferenceIdeal.RefRead.refRelu_30000]
    subst hA1 hA2
    with_reducible rfl

end Cert.StepR0m

end
-- ==== Proof.StepJ0m.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR0m
import proofs.«141482_j13434657702128_1_alg».proof.Proof.StepLib
import proofs.«141482_j13434657702128_1_alg».proof.Proof.FastRead
import Idealize.ShloMosaic.Lib.ValueLayout

set_option maxRecDepth 16384

noncomputable section

namespace Cert.StepJ0m

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_0_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec0 w ≠ b) :
    A2_0 X c (no_index (Proc.devRef .tc b)) = A1_0 X c (Proc.devRef .tc b) := A2_0_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A3_0 X c (Proc.devRef .tc Cert.KernelIdeal.main_v17)) = (Cert.StepR0m.refSide Y).a1)
    ∧ ((A3_0 X c (Proc.devRef .tc Cert.KernelIdeal.main_v89)) = (Cert.StepR0m.refSide Y).a2)
    ∧ ((A3_0 X c (Proc.devRef .tc Cert.KernelIdeal.main_arg1)) = (Cert.StepR0m.refSide Y).h)
    ∧ ((A3_0 X c (Proc.devRef .tc Cert.KernelIdeal.main_v124)) = (Cert.StepR0m.refSide Y).wl1)
    ∧ ((A3_0 X c (Proc.devRef .tc Cert.KernelIdeal.main_v126)) = (Cert.StepR0m.refSide Y).wr1)
    ∧ ((fun k => A3_0 X c (Proc.devRef .tc Cert.KernelIdeal.main_v135) (ix2 0 k)) = (Cert.StepR0m.refSide Y).b1)
    ∧ ((A3_0 X c (Proc.devRef .tc Cert.KernelIdeal.main_v130)) = (Cert.StepR0m.refSide Y).wl2)
    ∧ ((A3_0 X c (Proc.devRef .tc Cert.KernelIdeal.main_v132)) = (Cert.StepR0m.refSide Y).wr2)
    ∧ ((fun k => A3_0 X c (Proc.devRef .tc Cert.KernelIdeal.main_v136) (ix2 0 k)) = (Cert.StepR0m.refSide Y).b2) := by
  dsimp only [A3_0, Cert.KernelIdeal.Gen.hostOps1]
  after_results_fast
  simp (disch := decide) only [A2_0_of_ne']
  dsimp only [A1_0, Cert.KernelIdeal.Gen.hostOps0]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR0m.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ0m

end
-- ==== Proof.Step0m.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK0m
import proofs.«141482_j13434657702128_1_alg».proof.Proof.StepJ0m

set_option maxRecDepth 16384

noncomputable section

namespace Cert.Step0m

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_0 X c (Proc.devRef .tc Cert.KernelIdeal.main_v137) = after (Cert.ReferenceIdeal.RefOps.R0 (F := Ideal)) Y (Proc.devRef .tc Cert.ReferenceIdeal.main_v190) := by
  obtain ⟨j1, j2, j3, j4, j5, j6, j7, j8, j9⟩ := Cert.StepJ0m.join X Y c hc hm hd h_arg3 h_arg4 h_arg5 h_arg6 h_arg7 h_arg8 h_arg9 h_arg10 h_arg11 h_arg12 h_arg13 h_arg14 h_arg15 h_arg16 h_arg17
  exact (Cert.StepK0m.kernel X c).trans ((reluArr_congr j1 j2 j3 j4 j5 j6 j7 j8 j9).trans (Cert.StepR0m.refSide Y).eq.symm)

end Cert.Step0m

end
-- ==== Proof.Region2.lean ====
/-
  The output array of node-update region 2 (10000 rows, 5 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 5 blocks cover all
  10000 rows (row i lies in the block of point i / 2000), hence the array after the region is Spec.reluArr of those arrays.
-/
import proofs.«141482_j13434657702128_1_alg».proof.Proof.FrameKIR0
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 5 points. -/
theorem hN : cfg2.N = 5 := Gen.N_2

/-- The index maps over the grid: the three row windows and the output move with the point along the rows and
    stay at column block 0; the weight and bias windows stay at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-! ## Each input block as rows of its array -/

/-- Row r of the first aggregated block at point t is row 2000·t + r of its array. -/
theorem blk0_apply (c : Dev nD) (t : Fin cfg2.N) (r : Fin 2000) (k : Fin 128) (i : Fin 10000) (hi : i.val = 2000 * t.val + r.val) :
    (GenP.iblk2 V c 0 t : S2000x128.Idx → EReal) (ix2 r k) = (V c main_v35 : S10000x128.Idx → EReal) (ix2 i k) := by
  obtain ⟨⟨e0, e1⟩, -⟩ := idx_facts t
  unfold GenP.iblk2
  rw [View.read_apply]
  show V c main_v35 _ = V c main_v35 _
  congr 1
  funext a
  apply Fin.ext
  match a with
  | ⟨0, _⟩ => show win2_0.index t (0 : Fin 2) * 2000 + 1 * r.val = i.val; omega
  | ⟨1, _⟩ => show win2_0.index t (1 : Fin 2) * 128 + 1 * k.val = k.val; omega

/-- Row r of the second aggregated block at point t is row 2000·t + r of its array. -/
theorem blk1_apply (c : Dev nD) (t : Fin cfg2.N) (r : Fin 2000) (k : Fin 128) (i : Fin 10000) (hi : i.val = 2000 * t.val + r.val) :
    (GenP.iblk2 V c 1 t : S2000x128.Idx → EReal) (ix2 r k) = (V c main_v53 : S10000x128.Idx → EReal) (ix2 i k) := by
  obtain ⟨-, ⟨e0, e1⟩, -⟩ := idx_facts t
  unfold GenP.iblk2
  rw [View.read_apply]
  show V c main_v53 _ = V c main_v53 _
  congr 1
  funext a
  apply Fin.ext
  match a with
  | ⟨0, _⟩ => show win2_1.index t (0 : Fin 2) * 2000 + 1 * r.val = i.val; omega
  | ⟨1, _⟩ => show win2_1.index t (1 : Fin 2) * 128 + 1 * k.val = k.val; omega

/-- Row r of the feature block at point t is row 2000·t + r of the feature array. -/
theorem blk2_apply (c : Dev nD) (t : Fin cfg2.N) (r : Fin 2000) (k : Fin 128) (i : Fin 10000) (hi : i.val = 2000 * t.val + r.val) :
    (GenP.iblk2 V c 2 t : S2000x128.Idx → EReal) (ix2 r k) = (V c main_arg2 : S10000x128.Idx → EReal) (ix2 i k) := by
  obtain ⟨-, -, ⟨e0, e1⟩, -⟩ := idx_facts t
  unfold GenP.iblk2
  rw [View.read_apply]
  show V c main_arg2 _ = V c main_arg2 _
  congr 1
  funext a
  apply Fin.ext
  match a with
  | ⟨0, _⟩ => show win2_2.index t (0 : Fin 2) * 2000 + 1 * r.val = i.val; omega
  | ⟨1, _⟩ => show win2_2.index t (1 : Fin 2) * 128 + 1 * k.val = k.val; omega

/-- A weight window's one block is its whole matrix. -/
theorem blk3_eq (c : Dev nD) (t : Fin cfg2.N) :
    (GenP.iblk2 V c 3 t : S128x128.Idx → EReal) = (V c main_v139 : S128x128.Idx → EReal) := by
  obtain ⟨-, -, -, ⟨e0, e1⟩, -⟩ := idx_facts t
  funext x
  unfold GenP.iblk2
  rw [View.read_apply]
  show V c main_v139 _ = V c main_v139 _
  congr 1
  funext a
  apply Fin.ext
  match a with
  | ⟨0, _⟩ => show win2_3.index t (0 : Fin 2) * 128 + 1 * (x 0).val = (x 0).val; omega
  | ⟨1, _⟩ => show win2_3.index t (1 : Fin 2) * 128 + 1 * (x 1).val = (x 1).val; omega

theorem blk4_eq (c : Dev nD) (t : Fin cfg2.N) :
    (GenP.iblk2 V c 4 t : S128x128.Idx → EReal) = (V c main_v141 : S128x128.Idx → EReal) := by
  obtain ⟨-, -, -, -, ⟨e0, e1⟩, -⟩ := idx_facts t
  funext x
  unfold GenP.iblk2
  rw [View.read_apply]
  show V c main_v141 _ = V c main_v141 _
  congr 1
  funext a
  apply Fin.ext
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- A bias window's one block is its whole row. -/
theorem blk5_eq (c : Dev nD) (t : Fin cfg2.N) :
    (GenP.iblk2 V c 5 t : S1x128.Idx → EReal) = (V c main_v150 : S1x128.Idx → EReal) := by
  obtain ⟨-, -, -, -, -, ⟨e0, e1⟩, -⟩ := idx_facts t
  funext x
  unfold GenP.iblk2
  rw [View.read_apply]
  show V c main_v150 _ = V c main_v150 _
  congr 1
  funext a
  apply Fin.ext
  match a with
  | ⟨0, _⟩ => show win2_5.index t (0 : Fin 2) * 1 + 1 * (x 0).val = (x 0).val; omega
  | ⟨1, _⟩ => show win2_5.index t (1 : Fin 2) * 128 + 1 * (x 1).val = (x 1).val; omega

theorem blk6_eq (c : Dev nD) (t : Fin cfg2.N) :
    (GenP.iblk2 V c 6 t : S128x128.Idx → EReal) = (V c main_v145 : S128x128.Idx → EReal) := by
  obtain ⟨-, -, -, -, -, -, ⟨e0, e1⟩, -⟩ := idx_facts t
  funext x
  unfold GenP.iblk2
  rw [View.read_apply]
  show V c main_v145 _ = V c main_v145 _
  congr 1
  funext a
  apply Fin.ext
  match a with
  | ⟨0, _⟩ => show win2_6.index t (0 : Fin 2) * 128 + 1 * (x 0).val = (x 0).val; omega
  | ⟨1, _⟩ => show win2_6.index t (1 : Fin 2) * 128 + 1 * (x 1).val = (x 1).val; omega

theorem blk7_eq (c : Dev nD) (t : Fin cfg2.N) :
    (GenP.iblk2 V c 7 t : S128x128.Idx → EReal) = (V c main_v147 : S128x128.Idx → EReal) := by
  obtain ⟨-, -, -, -, -, -, -, ⟨e0, e1⟩, -⟩ := idx_facts t
  funext x
  unfold GenP.iblk2
  rw [View.read_apply]
  show V c main_v147 _ = V c main_v147 _
  congr 1
  funext a
  apply Fin.ext
  match a with
  | ⟨0, _⟩ => show win2_7.index t (0 : Fin 2) * 128 + 1 * (x 0).val = (x 0).val; omega
  | ⟨1, _⟩ => show win2_7.index t (1 : Fin 2) * 128 + 1 * (x 1).val = (x 1).val; omega

theorem blk8_eq (c : Dev nD) (t : Fin cfg2.N) :
    (GenP.iblk2 V c 8 t : S1x128.Idx → EReal) = (V c main_v151 : S1x128.Idx → EReal) := by
  obtain ⟨-, -, -, -, -, -, -, -, ⟨e0, e1⟩, -⟩ := idx_facts t
  funext x
  unfold GenP.iblk2
  rw [View.read_apply]
  show V c main_v151 _ = V c main_v151 _
  congr 1
  funext a
  apply Fin.ext
  match a with
  | ⟨0, _⟩ => show win2_8.index t (0 : Fin 2) * 1 + 1 * (x 0).val = (x 0).val; omega
  | ⟨1, _⟩ => show win2_8.index t (1 : Fin 2) * 128 + 1 * (x 1).val = (x 1).val; omega

/-! ## The output block, and the array -/

/-- Entry (r, j) of the output block at point t sits at (2000·t + r, j) of the output array. -/
theorem emb_out (t : Fin cfg2.N) (r : Fin 2000) (j : Fin 128) (i : Fin 10000) (hi : i.val = 2000 * t.val + r.val) :
    (((cfg2.win 9).blk t).view.emb (ix2 r j) : S10000x128.Idx) = ix2 i j := by
  obtain ⟨-, -, -, -, -, -, -, -, -, ⟨e0, e1⟩⟩ := idx_facts t
  funext a
  apply Fin.ext
  match a with
  | ⟨0, _⟩ => show win2_9.index t (0 : Fin 2) * 2000 + 1 * r.val = i.val; omega
  | ⟨1, _⟩ => show win2_9.index t (1 : Fin 2) * 128 + 1 * j.val = j.val; omega

/-- The node type's update as one function of the arrays the region finds. -/
abbrev G (c : Dev nD) : S10000x128.Idx → EReal :=
  Cert.Spec.reluArr 10000 (V c main_v35) (V c main_v53) (V c main_arg2) (V c main_v139) (V c main_v141)
    (fun k => V c main_v150 (ix2 0 k)) (V c main_v145) (V c main_v147) (fun k => V c main_v151 (ix2 0 k))

/-- What point t writes back is block t of the update: rows 2000·t … 2000·t + 1999. -/
theorem flushed_eq (c : Dev nD) (t : Fin cfg2.N) :
    (GenP.dat2 V c).flushed 9 t = ((cfg2.win 9).blk t).view.read (Elt Ideal) (G V c) := by
  show (cfg2.win 9).cut (grid2.coords t) ((GenP.dat2 V c).after 9 t) = _
  rw [GenP.after2_9]
  unfold GenP.out2_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 5 := hN ▸ t.isLt
  have hi : (⟨2000 * t.val + r.val, by have := r.isLt; omega⟩ : Fin 10000).val = 2000 * t.val + r.val := rfl
  show Gen.k2_pay1 (Gen.k2_pay2 (GenP.iblk2 V c 0 t) (GenP.iblk2 V c 1 t) (GenP.iblk2 V c 2 t) (GenP.iblk2 V c 3 t) (GenP.iblk2 V c 4 t)
      (GenP.iblk2 V c 6 t) (GenP.iblk2 V c 7 t) (GenP.iblk2 V c 5 t) (GenP.iblk2 V c 8 t)) (Gen.k2_pay3 (F := Ideal)) (ix2 r j)
    = G V c (((cfg2.win 9).blk t).view.emb (ix2 r j))
  rw [Block.pay2_apply, emb_out t r j _ hi]
  unfold G
  rw [Cert.Spec.reluArr_apply, blk3_eq, blk4_eq, blk5_eq, blk6_eq, blk7_eq, blk8_eq]
  have h0 : (fun k => (GenP.iblk2 V c 0 t : S2000x128.Idx → EReal) (ix2 r k)) = Cert.Spec.rowOf (V c main_v35) ⟨2000 * t.val + r.val, by have := r.isLt; omega⟩ :=
    funext fun k => blk0_apply V c t r k _ hi
  have h1 : (fun k => (GenP.iblk2 V c 1 t : S2000x128.Idx → EReal) (ix2 r k)) = Cert.Spec.rowOf (V c main_v53) ⟨2000 * t.val + r.val, by have := r.isLt; omega⟩ :=
    funext fun k => blk1_apply V c t r k _ hi
  have h2 : (fun k => (GenP.iblk2 V c 2 t : S2000x128.Idx → EReal) (ix2 r k)) = Cert.Spec.rowOf (V c main_arg2) ⟨2000 * t.val + r.val, by have := r.isLt; omega⟩ :=
    funext fun k => blk2_apply V c t r k _ hi
  rw [h0, h1, h2]

/-- An index of the output array is in point t's block iff each coordinate is in the block's range. -/
theorem mem_blk (t : Fin cfg2.N) (i : S10000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v152).slice (win2_9.rect t)).set ↔ _
  rw [View.set_slice_whole, Rect.mem_set_unit]
  exact Iff.rfl

/-- Every index of the output array is in the block of the point its row over 2000 names. -/
theorem cover (i : S10000x128.Idx) : ∃ t : Fin cfg2.N, (cfg2.win 9).flush t = true ∧ i ∈ ((cfg2.win 9).blk t).view.set := by
  have hi0 : (i 0).val < 10000 := (i 0).isLt
  have hi1 : (i 1).val < 128 := (i 1).isLt
  have hlt : (i 0).val / 2000 < cfg2.N := by rw [hN]; omega
  obtain ⟨-, -, -, -, -, -, -, -, -, ⟨e0, e1⟩⟩ := idx_facts ⟨(i 0).val / 2000, hlt⟩
  refine ⟨⟨(i 0).val / 2000, hlt⟩, Gen.flush2_9 _, ?_⟩
  rw [mem_blk]
  intro a
  match a with
  | ⟨0, _⟩ =>
    show win2_9.index ⟨(i 0).val / 2000, hlt⟩ (0 : Fin 2) * 2000 ≤ (i 0).val ∧ (i 0).val < win2_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_9.index ⟨(i 0).val / 2000, hlt⟩ (1 : Fin 2) * 128 ≤ (i 1).val ∧ (i 1).val < win2_9.index ⟨(i 0).val / 2000, hlt⟩ (1 : Fin 2) * 128 + 128
    rw [e1]; omega

/-- THE OUTPUT ARRAY after the region: the node type's update of the arrays the region finds, row by row. -/
theorem value (c : Dev nD) :
    (GenP.dat2 V c).arrAt 9 cfg2.N = Cert.Spec.reluArr 10000 (V c main_v35) (V c main_v53) (V c main_arg2) (V c main_v139) (V c main_v141)
      (fun k => V c main_v150 (ix2 0 k)) (V c main_v145) (V c main_v147) (fun k => V c main_v151 (ix2 0 k)) :=
  (GenP.dat2 V c).arrAt_eq_of_cover 9 (G V c) (fun t _ => flushed_eq V c t) cover

end Cert.KernelIdeal.Region2

end
-- ==== Proof.StepK0d.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region2

set_option maxRecDepth 16384

noncomputable section

namespace Cert.StepK0d

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_0 X c (Proc.devRef .tc Cert.KernelIdeal.main_v152)
    = Cert.Spec.reluArr 10000 (A5_0 X c (Proc.devRef .tc Cert.KernelIdeal.main_v35))
        (A5_0 X c (Proc.devRef .tc Cert.KernelIdeal.main_v53))
        (A5_0 X c (Proc.devRef .tc Cert.KernelIdeal.main_arg2))
        (A5_0 X c (Proc.devRef .tc Cert.KernelIdeal.main_v139))
        (A5_0 X c (Proc.devRef .tc Cert.KernelIdeal.main_v141))
        (fun k => A5_0 X c (Proc.devRef .tc Cert.KernelIdeal.main_v150) (ix2 0 k))
        (A5_0 X c (Proc.devRef .tc Cert.KernelIdeal.main_v145))
        (A5_0 X c (Proc.devRef .tc Cert.KernelIdeal.main_v147))
        (fun k => A5_0 X c (Proc.devRef .tc Cert.KernelIdeal.main_v151) (ix2 0 k)) := by
  have e2 : A6_0 X c (Proc.devRef .tc Cert.KernelIdeal.main_v152) = (Cert.KernelIdeal.GenP.dat2 (U5_0 X) c).arrAt 9 Cert.KernelIdeal.cfg2.N := A6_0_arr X c 9
  rw [e2, Cert.KernelIdeal.Region2.value]

end Cert.StepK0d

end
-- ==== Proof.StepR0d.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR0m
import proofs.«141482_j13434657702128_1_alg».proof.Proof.RefRead
import proofs.«141482_j13434657702128_1_alg».proof.Proof.RefOps0
import proofs.«141482_j13434657702128_1_alg».proof.Proof.FastRead

set_option maxRecDepth 16384

noncomputable section

namespace Cert.StepR0d

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 10000
  a2 : Cert.Spec.Rows 10000
  h : Cert.Spec.Rows 10000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R0 (F := Ideal)) Y (Proc.devRef .tc Cert.ReferenceIdeal.main_v191) = Cert.Spec.reluArr 10000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R0]
    after_results_fast
    simp only [TRef.toBuf, TRef.ofBuf, cast_eq]
    generalize hA1 : (Host.divf (Host.scatterAdd _ _ _ _) _ : FVec Ideal Cert.ReferenceIdeal.S10000x128 .f32) = A1
    generalize hA2 : (Host.divf (Host.scatterAdd _ _ _ _) _ : FVec Ideal Cert.ReferenceIdeal.S10000x128 .f32) = A2
    rw [Cert.ReferenceIdeal.RefRead.refRelu_10000]
    subst hA1 hA2
    with_reducible rfl

end Cert.StepR0d

end
-- ==== Proof.StepJ0d.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR0d
import proofs.«141482_j13434657702128_1_alg».proof.Proof.StepLib
import proofs.«141482_j13434657702128_1_alg».proof.Proof.FastRead
import Idealize.ShloMosaic.Lib.ValueLayout

set_option maxRecDepth 16384

noncomputable section

namespace Cert.StepJ0d

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_0_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec0 w ≠ b) :
    A2_0 X c (no_index (Proc.devRef .tc b)) = A1_0 X c (Proc.devRef .tc b) := A2_0_of_ne X c b hb

/-- The region's exit contents at a buffer that is none of its arrays, stated for rewriting at any reference. -/
theorem A4_0_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec1 w ≠ b) :
    A4_0 X c (no_index (Proc.devRef .tc b)) = A3_0 X c (Proc.devRef .tc b) := A4_0_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A5_0 X c (Proc.devRef .tc Cert.KernelIdeal.main_v35)) = (Cert.StepR0d.refSide Y).a1)
    ∧ ((A5_0 X c (Proc.devRef .tc Cert.KernelIdeal.main_v53)) = (Cert.StepR0d.refSide Y).a2)
    ∧ ((A5_0 X c (Proc.devRef .tc Cert.KernelIdeal.main_arg2)) = (Cert.StepR0d.refSide Y).h)
    ∧ ((A5_0 X c (Proc.devRef .tc Cert.KernelIdeal.main_v139)) = (Cert.StepR0d.refSide Y).wl1)
    ∧ ((A5_0 X c (Proc.devRef .tc Cert.KernelIdeal.main_v141)) = (Cert.StepR0d.refSide Y).wr1)
    ∧ ((fun k => A5_0 X c (Proc.devRef .tc Cert.KernelIdeal.main_v150) (ix2 0 k)) = (Cert.StepR0d.refSide Y).b1)
    ∧ ((A5_0 X c (Proc.devRef .tc Cert.KernelIdeal.main_v145)) = (Cert.StepR0d.refSide Y).wl2)
    ∧ ((A5_0 X c (Proc.devRef .tc Cert.KernelIdeal.main_v147)) = (Cert.StepR0d.refSide Y).wr2)
    ∧ ((fun k => A5_0 X c (Proc.devRef .tc Cert.KernelIdeal.main_v151) (ix2 0 k)) = (Cert.StepR0d.refSide Y).b2) := by
  dsimp only [A5_0, Cert.KernelIdeal.Gen.hostOps2]
  after_results_fast
  simp (disch := decide) only [A4_0_of_ne']
  dsimp only [A3_0, Cert.KernelIdeal.Gen.hostOps1]
  after_results_fast
  simp (disch := decide) only [A2_0_of_ne']
  dsimp only [A1_0, Cert.KernelIdeal.Gen.hostOps0]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR0d.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ0d

end
-- ==== Proof.Step0d.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK0d
import proofs.«141482_j13434657702128_1_alg».proof.Proof.StepJ0d

set_option maxRecDepth 16384

noncomputable section

namespace Cert.Step0d

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_arg0) = Y (Proc.devRef .tc Cert.ReferenceIdeal.main_arg0))
    (hm : X c (Proc.devRef .tc Cert.KernelIdeal.main_arg1) = Y (Proc.devRef .tc Cert.ReferenceIdeal.main_arg1))
    (hd : X c (Proc.devRef .tc Cert.KernelIdeal.main_arg2) = Y (Proc.devRef .tc Cert.ReferenceIdeal.main_arg2))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_0 X c (Proc.devRef .tc Cert.KernelIdeal.main_v152) = after (Cert.ReferenceIdeal.RefOps.R0 (F := Ideal)) Y (Proc.devRef .tc Cert.ReferenceIdeal.main_v191) := by
  obtain ⟨j1, j2, j3, j4, j5, j6, j7, j8, j9⟩ := Cert.StepJ0d.join X Y c hc hm hd h_arg3 h_arg4 h_arg5 h_arg6 h_arg7 h_arg8 h_arg9 h_arg10 h_arg11 h_arg12 h_arg13 h_arg14 h_arg15 h_arg16 h_arg17
  exact (Cert.StepK0d.kernel X c).trans ((reluArr_congr j1 j2 j3 j4 j5 j6 j7 j8 j9).trans (Cert.StepR0d.refSide Y).eq.symm)

end Cert.Step0d

end
-- ==== Proof.Region3.lean ====
/-
  The output array of node-update region 3 (50000 rows, 25 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 25 blocks cover all
  50000 rows (row i lies in the block of point i / 2000), hence the array after the region is Spec.reluArr of those arrays.
-/
import proofs.«141482_j13434657702128_1_alg».proof.Proof.FrameKIR1
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 25 points. -/
theorem hN : cfg3.N = 25 := Gen.N_3

/-- The index maps over the grid: the three row windows and the output move with the point along the rows and
    stay at column block 0; the weight and bias windows stay at block (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0) :=
  (by decide +kernel : ∀ t : Fin grid3.N, _)

/-! ## Each input block as rows of its array -/

/-- Row r of the first aggregated block at point t is row 2000·t + r of its array. -/
theorem blk0_apply (c : Dev nD) (t : Fin cfg3.N) (r : Fin 2000) (k : Fin 128) (i : Fin 50000) (hi : i.val = 2000 * t.val + r.val) :
    (GenP.iblk3 V c 0 t : S2000x128.Idx → EReal) (ix2 r k) = (V c main_v224 : S50000x128.Idx → EReal) (ix2 i k) := by
  obtain ⟨⟨e0, e1⟩, -⟩ := idx_facts t
  unfold GenP.iblk3
  rw [View.read_apply]
  show V c main_v224 _ = V c main_v224 _
  congr 1
  funext a
  apply Fin.ext
  match a with
  | ⟨0, _⟩ => show win3_0.index t (0 : Fin 2) * 2000 + 1 * r.val = i.val; omega
  | ⟨1, _⟩ => show win3_0.index t (1 : Fin 2) * 128 + 1 * k.val = k.val; omega

/-- Row r of the second aggregated block at point t is row 2000·t + r of its array. -/
theorem blk1_apply (c : Dev nD) (t : Fin cfg3.N) (r : Fin 2000) (k : Fin 128) (i : Fin 50000) (hi : i.val = 2000 * t.val + r.val) :
    (GenP.iblk3 V c 1 t : S2000x128.Idx → EReal) (ix2 r k) = (V c main_v260 : S50000x128.Idx → EReal) (ix2 i k) := by
  obtain ⟨-, ⟨e0, e1⟩, -⟩ := idx_facts t
  unfold GenP.iblk3
  rw [View.read_apply]
  show V c main_v260 _ = V c main_v260 _
  congr 1
  funext a
  apply Fin.ext
  match a with
  | ⟨0, _⟩ => show win3_1.index t (0 : Fin 2) * 2000 + 1 * r.val = i.val; omega
  | ⟨1, _⟩ => show win3_1.index t (1 : Fin 2) * 128 + 1 * k.val = k.val; omega

/-- Row r of the feature block at point t is row 2000·t + r of the feature array. -/
theorem blk2_apply (c : Dev nD) (t : Fin cfg3.N) (r : Fin 2000) (k : Fin 128) (i : Fin 50000) (hi : i.val = 2000 * t.val + r.val) :
    (GenP.iblk3 V c 2 t : S2000x128.Idx → EReal) (ix2 r k) = (V c main_v122 : S50000x128.Idx → EReal) (ix2 i k) := by
  obtain ⟨-, -, ⟨e0, e1⟩, -⟩ := idx_facts t
  unfold GenP.iblk3
  rw [View.read_apply]
  show V c main_v122 _ = V c main_v122 _
  congr 1
  funext a
  apply Fin.ext
  match a with
  | ⟨0, _⟩ => show win3_2.index t (0 : Fin 2) * 2000 + 1 * r.val = i.val; omega
  | ⟨1, _⟩ => show win3_2.index t (1 : Fin 2) * 128 + 1 * k.val = k.val; omega

/-- A weight window's one block is its whole matrix. -/
theorem blk3_eq (c : Dev nD) (t : Fin cfg3.N) :
    (GenP.iblk3 V c 3 t : S128x128.Idx → EReal) = (V c main_v262 : S128x128.Idx → EReal) := by
  obtain ⟨-, -, -, ⟨e0, e1⟩, -⟩ := idx_facts t
  funext x
  unfold GenP.iblk3
  rw [View.read_apply]
  show V c main_v262 _ = V c main_v262 _
  congr 1
  funext a
  apply Fin.ext
  match a with
  | ⟨0, _⟩ => show win3_3.index t (0 : Fin 2) * 128 + 1 * (x 0).val = (x 0).val; omega
  | ⟨1, _⟩ => show win3_3.index t (1 : Fin 2) * 128 + 1 * (x 1).val = (x 1).val; omega

theorem blk4_eq (c : Dev nD) (t : Fin cfg3.N) :
    (GenP.iblk3 V c 4 t : S128x128.Idx → EReal) = (V c main_v264 : S128x128.Idx → EReal) := by
  obtain ⟨-, -, -, -, ⟨e0, e1⟩, -⟩ := idx_facts t
  funext x
  unfold GenP.iblk3
  rw [View.read_apply]
  show V c main_v264 _ = V c main_v264 _
  congr 1
  funext a
  apply Fin.ext
  match a with
  | ⟨0, _⟩ => show win3_4.index t (0 : Fin 2) * 128 + 1 * (x 0).val = (x 0).val; omega
  | ⟨1, _⟩ => show win3_4.index t (1 : Fin 2) * 128 + 1 * (x 1).val = (x 1).val; omega

/-- A bias window's one block is its whole row. -/
theorem blk5_eq (c : Dev nD) (t : Fin cfg3.N) :
    (GenP.iblk3 V c 5 t : S1x128.Idx → EReal) = (V c main_v273 : S1x128.Idx → EReal) := by
  obtain ⟨-, -, -, -, -, ⟨e0, e1⟩, -⟩ := idx_facts t
  funext x
  unfold GenP.iblk3
  rw [View.read_apply]
  show V c main_v273 _ = V c main_v273 _
  congr 1
  funext a
  apply Fin.ext
  match a with
  | ⟨0, _⟩ => show win3_5.index t (0 : Fin 2) * 1 + 1 * (x 0).val = (x 0).val; omega
  | ⟨1, _⟩ => show win3_5.index t (1 : Fin 2) * 128 + 1 * (x 1).val = (x 1).val; omega

theorem blk6_eq (c : Dev nD) (t : Fin cfg3.N) :
    (GenP.iblk3 V c 6 t : S128x128.Idx → EReal) = (V c main_v268 : S128x128.Idx → EReal) := by
  obtain ⟨-, -, -, -, -, -, ⟨e0, e1⟩, -⟩ := idx_facts t
  funext x
  unfold GenP.iblk3
  rw [View.read_apply]
  show V c main_v268 _ = V c main_v268 _
  congr 1
  funext a
  apply Fin.ext
  match a with
  | ⟨0, _⟩ => show win3_6.index t (0 : Fin 2) * 128 + 1 * (x 0).val = (x 0).val; omega
  | ⟨1, _⟩ => show win3_6.index t (1 : Fin 2) * 128 + 1 * (x 1).val = (x 1).val; omega

theorem blk7_eq (c : Dev nD) (t : Fin cfg3.N) :
    (GenP.iblk3 V c 7 t : S128x128.Idx → EReal) = (V c main_v270 : S128x128.Idx → EReal) := by
  obtain ⟨-, -, -, -, -, -, -, ⟨e0, e1⟩, -⟩ := idx_facts t
  funext x
  unfold GenP.iblk3
  rw [View.read_apply]
  show V c main_v270 _ = V c main_v270 _
  congr 1
  funext a
  apply Fin.ext
  match a with
  | ⟨0, _⟩ => show win3_7.index t (0 : Fin 2) * 128 + 1 * (x 0).val = (x 0).val; omega
  | ⟨1, _⟩ => show win3_7.index t (1 : Fin 2) * 128 + 1 * (x 1).val = (x 1).val; omega

theorem blk8_eq (c : Dev nD) (t : Fin cfg3.N) :
    (GenP.iblk3 V c 8 t : S1x128.Idx → EReal) = (V c main_v274 : S1x128.Idx → EReal) := by
  obtain ⟨-, -, -, -, -, -, -, -, ⟨e0, e1⟩, -⟩ := idx_facts t
  funext x
  unfold GenP.iblk3
  rw [View.read_apply]
  show V c main_v274 _ = V c main_v274 _
  congr 1
  funext a
  apply Fin.ext
  match a with
  | ⟨0, _⟩ => show win3_8.index t (0 : Fin 2) * 1 + 1 * (x 0).val = (x 0).val; omega
  | ⟨1, _⟩ => show win3_8.index t (1 : Fin 2) * 128 + 1 * (x 1).val = (x 1).val; omega

/-! ## The output block, and the array -/

/-- Entry (r, j) of the output block at point t sits at (2000·t + r, j) of the output array. -/
theorem emb_out (t : Fin cfg3.N) (r : Fin 2000) (j : Fin 128) (i : Fin 50000) (hi : i.val = 2000 * t.val + r.val) :
    (((cfg3.win 9).blk t).view.emb (ix2 r j) : S50000x128.Idx) = ix2 i j := by
  obtain ⟨-, -, -, -, -, -, -, -, -, ⟨e0, e1⟩⟩ := idx_facts t
  funext a
  apply Fin.ext
  match a with
  | ⟨0, _⟩ => show win3_9.index t (0 : Fin 2) * 2000 + 1 * r.val = i.val; omega
  | ⟨1, _⟩ => show win3_9.index t (1 : Fin 2) * 128 + 1 * j.val = j.val; omega

/-- The node type's update as one function of the arrays the region finds. -/
abbrev G (c : Dev nD) : S50000x128.Idx → EReal :=
  Cert.Spec.reluArr 50000 (V c main_v224) (V c main_v260) (V c main_v122) (V c main_v262) (V c main_v264)
    (fun k => V c main_v273 (ix2 0 k)) (V c main_v268) (V c main_v270) (fun k => V c main_v274 (ix2 0 k))

/-- What point t writes back is block t of the update: rows 2000·t … 2000·t + 1999. -/
theorem flushed_eq (c : Dev nD) (t : Fin cfg3.N) :
    (GenP.dat3 V c).flushed 9 t = ((cfg3.win 9).blk t).view.read (Elt Ideal) (G V c) := by
  show (cfg3.win 9).cut (grid3.coords t) ((GenP.dat3 V c).after 9 t) = _
  rw [GenP.after3_9]
  unfold GenP.out3_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 25 := hN ▸ t.isLt
  have hi : (⟨2000 * t.val + r.val, by have := r.isLt; omega⟩ : Fin 50000).val = 2000 * t.val + r.val := rfl
  show Gen.k3_pay1 (Gen.k3_pay2 (GenP.iblk3 V c 0 t) (GenP.iblk3 V c 1 t) (GenP.iblk3 V c 2 t) (GenP.iblk3 V c 3 t) (GenP.iblk3 V c 4 t)
      (GenP.iblk3 V c 6 t) (GenP.iblk3 V c 7 t) (GenP.iblk3 V c 5 t) (GenP.iblk3 V c 8 t)) (Scalar.ofBits (F := Ideal) .f32 0x3F000000#32) (ix2 r j)
    = G V c (((cfg3.win 9).blk t).view.emb (ix2 r j))
  rw [Block.pay3_apply, emb_out t r j _ hi]
  unfold G
  rw [Cert.Spec.reluArr_apply, blk3_eq, blk4_eq, blk5_eq, blk6_eq, blk7_eq, blk8_eq]
  have h0 : (fun k => (GenP.iblk3 V c 0 t : S2000x128.Idx → EReal) (ix2 r k)) = Cert.Spec.rowOf (V c main_v224) ⟨2000 * t.val + r.val, by have := r.isLt; omega⟩ :=
    funext fun k => blk0_apply V c t r k _ hi
  have h1 : (fun k => (GenP.iblk3 V c 1 t : S2000x128.Idx → EReal) (ix2 r k)) = Cert.Spec.rowOf (V c main_v260) ⟨2000 * t.val + r.val, by have := r.isLt; omega⟩ :=
    funext fun k => blk1_apply V c t r k _ hi
  have h2 : (fun k => (GenP.iblk3 V c 2 t : S2000x128.Idx → EReal) (ix2 r k)) = Cert.Spec.rowOf (V c main_v122) ⟨2000 * t.val + r.val, by have := r.isLt; omega⟩ :=
    funext fun k => blk2_apply V c t r k _ hi
  rw [h0, h1, h2]

/-- An index of the output array is in point t's block iff each coordinate is in the block's range. -/
theorem mem_blk (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v275).slice (win3_9.rect t)).set ↔ _
  rw [View.set_slice_whole, Rect.mem_set_unit]
  exact Iff.rfl

/-- Every index of the output array is in the block of the point its row over 2000 names. -/
theorem cover (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have hlt : (i 0).val / 2000 < cfg3.N := by rw [hN]; omega
  obtain ⟨-, -, -, -, -, -, -, -, -, ⟨e0, e1⟩⟩ := idx_facts ⟨(i 0).val / 2000, hlt⟩
  refine ⟨⟨(i 0).val / 2000, hlt⟩, Gen.flush3_9 _, ?_⟩
  rw [mem_blk]
  intro a
  match a with
  | ⟨0, _⟩ =>
    show win3_9.index ⟨(i 0).val / 2000, hlt⟩ (0 : Fin 2) * 2000 ≤ (i 0).val ∧ (i 0).val < win3_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_9.index ⟨(i 0).val / 2000, hlt⟩ (1 : Fin 2) * 128 ≤ (i 1).val ∧ (i 1).val < win3_9.index ⟨(i 0).val / 2000, hlt⟩ (1 : Fin 2) * 128 + 128
    rw [e1]; omega

/-- THE OUTPUT ARRAY after the region: the node type's update of the arrays the region finds, row by row. -/
theorem value (c : Dev nD) :
    (GenP.dat3 V c).arrAt 9 cfg3.N = Cert.Spec.reluArr 50000 (V c main_v224) (V c main_v260) (V c main_v122) (V c main_v262) (V c main_v264)
      (fun k => V c main_v273 (ix2 0 k)) (V c main_v268) (V c main_v270) (fun k => V c main_v274 (ix2 0 k)) :=
  (GenP.dat3 V c).arrAt_eq_of_cover 9 (G V c) (fun t _ => flushed_eq V c t) cover

end Cert.KernelIdeal.Region3

end
-- ==== Proof.StepK1c.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region3

set_option maxRecDepth 16384

noncomputable section

namespace Cert.StepK1c

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_1 X c (Proc.devRef .tc Cert.KernelIdeal.main_v275)
    = Cert.Spec.reluArr 50000 (A1_1 X c (Proc.devRef .tc Cert.KernelIdeal.main_v224))
        (A1_1 X c (Proc.devRef .tc Cert.KernelIdeal.main_v260))
        (A1_1 X c (Proc.devRef .tc Cert.KernelIdeal.main_v122))
        (A1_1 X c (Proc.devRef .tc Cert.KernelIdeal.main_v262))
        (A1_1 X c (Proc.devRef .tc Cert.KernelIdeal.main_v264))
        (fun k => A1_1 X c (Proc.devRef .tc Cert.KernelIdeal.main_v273) (ix2 0 k))
        (A1_1 X c (Proc.devRef .tc Cert.KernelIdeal.main_v268))
        (A1_1 X c (Proc.devRef .tc Cert.KernelIdeal.main_v270))
        (fun k => A1_1 X c (Proc.devRef .tc Cert.KernelIdeal.main_v274) (ix2 0 k)) := by
  rw [A6_1_of_ne X c Cert.KernelIdeal.main_v275 (by decide)]
  dsimp only [A5_1, Cert.KernelIdeal.Gen.hostOps5]
  after_results_simp
  rw [A4_1_of_ne X c Cert.KernelIdeal.main_v275 (by decide)]
  dsimp only [A3_1, Cert.KernelIdeal.Gen.hostOps4]
  after_results_simp
  have e3 : A2_1 X c (Proc.devRef .tc Cert.KernelIdeal.main_v275) = (Cert.KernelIdeal.GenP.dat3 (U1_1 X) c).arrAt 9 Cert.KernelIdeal.cfg3.N := A2_1_arr X c 9
  rw [e3, Cert.KernelIdeal.Region3.value]

end Cert.StepK1c

end
-- ==== Proof.StepR1c.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR0d
import proofs.«141482_j13434657702128_1_alg».proof.Proof.RefRead
import proofs.«141482_j13434657702128_1_alg».proof.Proof.RefOps1
import proofs.«141482_j13434657702128_1_alg».proof.Proof.FastRead

set_option maxRecDepth 16384

noncomputable section

namespace Cert.StepR1c

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 50000
  a2 : Cert.Spec.Rows 50000
  h : Cert.Spec.Rows 50000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R1 (F := Ideal)) Y (Proc.devRef .tc Cert.ReferenceIdeal.main_v381) = Cert.Spec.reluArr 50000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R1]
    after_results_fast
    simp only [TRef.toBuf, TRef.ofBuf, cast_eq]
    generalize hA1 : (Host.divf (Host.scatterAdd _ _ _ _) _ : FVec Ideal Cert.ReferenceIdeal.S50000x128 .f32) = A1
    generalize hA2 : (Host.divf (Host.scatterAdd _ _ _ _) _ : FVec Ideal Cert.ReferenceIdeal.S50000x128 .f32) = A2
    rw [Cert.ReferenceIdeal.RefRead.refRelu_50000]
    subst hA1 hA2
    with_reducible rfl

end Cert.StepR1c

end
-- ==== Proof.StepJ1c.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR1c
import proofs.«141482_j13434657702128_1_alg».proof.Proof.StepLib
import proofs.«141482_j13434657702128_1_alg».proof.Proof.FastRead
import Idealize.ShloMosaic.Lib.ValueLayout

set_option maxRecDepth 16384

noncomputable section

namespace Cert.StepJ1c

open Idealize.ShloMosaic Idealize.ShloMosaic.TcCoe Idealize.SL.Sem Idealize.ShloMosaic.StableHlo Idealize.ShloMosaic.ValueIdx
open Cert.KernelIdeal.KFold

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A1_1 X c (Proc.devRef .tc Cert.KernelIdeal.main_v224)) = (Cert.StepR1c.refSide Y).a1)
    ∧ ((A1_1 X c (Proc.devRef .tc Cert.KernelIdeal.main_v260)) = (Cert.StepR1c.refSide Y).a2)
    ∧ ((A1_1 X c (Proc.devRef .tc Cert.KernelIdeal.main_v122)) = (Cert.StepR1c.refSide Y).h)
    ∧ ((A1_1 X c (Proc.devRef .tc Cert.KernelIdeal.main_v262)) = (Cert.StepR1c.refSide Y).wl1)
    ∧ ((A1_1 X c (Proc.devRef .tc Cert.KernelIdeal.main_v264)) = (Cert.StepR1c.refSide Y).wr1)
    ∧ ((fun k => A1_1 X c (Proc.devRef .tc Cert.KernelIdeal.main_v273) (ix2 0 k)) = (Cert.StepR1c.refSide Y).b1)
    ∧ ((A1_1 X c (Proc.devRef .tc Cert.KernelIdeal.main_v268)) = (Cert.StepR1c.refSide Y).wl2)
    ∧ ((A1_1 X c (Proc.devRef .tc Cert.KernelIdeal.main_v270)) = (Cert.StepR1c.refSide Y).wr2)
    ∧ ((fun k => A1_1 X c (Proc.devRef .tc Cert.KernelIdeal.main_v274) (ix2 0 k)) = (Cert.StepR1c.refSide Y).b2) := by
  dsimp only [A1_1, Cert.KernelIdeal.Gen.hostOps3]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR1c.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ1c

end
-- ==== Proof.Step1c.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK1c
import proofs.«141482_j13434657702128_1_alg».proof.Proof.StepJ1c

set_option maxRecDepth 16384

noncomputable section

namespace Cert.Step1c

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_1 X c (Proc.devRef .tc Cert.KernelIdeal.main_v275) = after (Cert.ReferenceIdeal.RefOps.R1 (F := Ideal)) Y (Proc.devRef .tc Cert.ReferenceIdeal.main_v381) := by
  obtain ⟨j1, j2, j3, j4, j5, j6, j7, j8, j9⟩ := Cert.StepJ1c.join X Y c hc hm hd h_arg3 h_arg4 h_arg5 h_arg6 h_arg7 h_arg8 h_arg9 h_arg10 h_arg11 h_arg12 h_arg13 h_arg14 h_arg15 h_arg16 h_arg17
  exact (Cert.StepK1c.kernel X c).trans ((reluArr_congr j1 j2 j3 j4 j5 j6 j7 j8 j9).trans (Cert.StepR1c.refSide Y).eq.symm)

end Cert.Step1c

end
-- ==== Proof.Region4.lean ====
/-
  The output array of node-update region 4 (30000 rows, 15 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 15 blocks cover all
  30000 rows (row i lies in the block of point i / 2000), hence the array after the region is Spec.reluArr of those arrays.
-/
import proofs.«141482_j13434657702128_1_alg».proof.Proof.FrameKIR1
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 15 points. -/
theorem hN : cfg4.N = 15 := Gen.N_4

/-- The index maps over the grid: the three row windows and the output move with the point along the rows and
    stay at column block 0; the weight and bias windows stay at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0) :=
  (by decide +kernel : ∀ t : Fin grid4.N, _)

/-! ## Each input block as rows of its array -/

/-- Row r of the first aggregated block at point t is row 2000·t + r of its array. -/
theorem blk0_apply (c : Dev nD) (t : Fin cfg4.N) (r : Fin 2000) (k : Fin 128) (i : Fin 30000) (hi : i.val = 2000 * t.val + r.val) :
    (GenP.iblk4 V c 0 t : S2000x128.Idx → EReal) (ix2 r k) = (V c main_v170 : S30000x128.Idx → EReal) (ix2 i k) := by
  obtain ⟨⟨e0, e1⟩, -⟩ := idx_facts t
  unfold GenP.iblk4
  rw [View.read_apply]
  show V c main_v170 _ = V c main_v170 _
  congr 1
  funext a
  apply Fin.ext
  match a with
  | ⟨0, _⟩ => show win4_0.index t (0 : Fin 2) * 2000 + 1 * r.val = i.val; omega
  | ⟨1, _⟩ => show win4_0.index t (1 : Fin 2) * 128 + 1 * k.val = k.val; omega

/-- Row r of the second aggregated block at point t is row 2000·t + r of its array. -/
theorem blk1_apply (c : Dev nD) (t : Fin cfg4.N) (r : Fin 2000) (k : Fin 128) (i : Fin 30000) (hi : i.val = 2000 * t.val + r.val) :
    (GenP.iblk4 V c 1 t : S2000x128.Idx → EReal) (ix2 r k) = (V c main_v242 : S30000x128.Idx → EReal) (ix2 i k) := by
  obtain ⟨-, ⟨e0, e1⟩, -⟩ := idx_facts t
  unfold GenP.iblk4
  rw [View.read_apply]
  show V c main_v242 _ = V c main_v242 _
  congr 1
  funext a
  apply Fin.ext
  match a with
  | ⟨0, _⟩ => show win4_1.index t (0 : Fin 2) * 2000 + 1 * r.val = i.val; omega
  | ⟨1, _⟩ => show win4_1.index t (1 : Fin 2) * 128 + 1 * k.val = k.val; omega

/-- Row r of the feature block at point t is row 2000·t + r of the feature array. -/
theorem blk2_apply (c : Dev nD) (t : Fin cfg4.N) (r : Fin 2000) (k : Fin 128) (i : Fin 30000) (hi : i.val = 2000 * t.val + r.val) :
    (GenP.iblk4 V c 2 t : S2000x128.Idx → EReal) (ix2 r k) = (V c main_v137 : S30000x128.Idx → EReal) (ix2 i k) := by
  obtain ⟨-, -, ⟨e0, e1⟩, -⟩ := idx_facts t
  unfold GenP.iblk4
  rw [View.read_apply]
  show V c main_v137 _ = V c main_v137 _
  congr 1
  funext a
  apply Fin.ext
  match a with
  | ⟨0, _⟩ => show win4_2.index t (0 : Fin 2) * 2000 + 1 * r.val = i.val; omega
  | ⟨1, _⟩ => show win4_2.index t (1 : Fin 2) * 128 + 1 * k.val = k.val; omega

/-- A weight window's one block is its whole matrix. -/
theorem blk3_eq (c : Dev nD) (t : Fin cfg4.N) :
    (GenP.iblk4 V c 3 t : S128x128.Idx → EReal) = (V c main_v277 : S128x128.Idx → EReal) := by
  obtain ⟨-, -, -, ⟨e0, e1⟩, -⟩ := idx_facts t
  funext x
  unfold GenP.iblk4
  rw [View.read_apply]
  show V c main_v277 _ = V c main_v277 _
  congr 1
  funext a
  apply Fin.ext
  match a with
  | ⟨0, _⟩ => show win4_3.index t (0 : Fin 2) * 128 + 1 * (x 0).val = (x 0).val; omega
  | ⟨1, _⟩ => show win4_3.index t (1 : Fin 2) * 128 + 1 * (x 1).val = (x 1).val; omega

theorem blk4_eq (c : Dev nD) (t : Fin cfg4.N) :
    (GenP.iblk4 V c 4 t : S128x128.Idx → EReal) = (V c main_v279 : S128x128.Idx → EReal) := by
  obtain ⟨-, -, -, -, ⟨e0, e1⟩, -⟩ := idx_facts t
  funext x
  unfold GenP.iblk4
  rw [View.read_apply]
  show V c main_v279 _ = V c main_v279 _
  congr 1
  funext a
  apply Fin.ext
  match a with
  | ⟨0, _⟩ => show win4_4.index t (0 : Fin 2) * 128 + 1 * (x 0).val = (x 0).val; omega
  | ⟨1, _⟩ => show win4_4.index t (1 : Fin 2) * 128 + 1 * (x 1).val = (x 1).val; omega

/-- A bias window's one block is its whole row. -/
theorem blk5_eq (c : Dev nD) (t : Fin cfg4.N) :
    (GenP.iblk4 V c 5 t : S1x128.Idx → EReal) = (V c main_v288 : S1x128.Idx → EReal) := by
  obtain ⟨-, -, -, -, -, ⟨e0, e1⟩, -⟩ := idx_facts t
  funext x
  unfold GenP.iblk4
  rw [View.read_apply]
  show V c main_v288 _ = V c main_v288 _
  congr 1
  funext a
  apply Fin.ext
  match a with
  | ⟨0, _⟩ => show win4_5.index t (0 : Fin 2) * 1 + 1 * (x 0).val = (x 0).val; omega
  | ⟨1, _⟩ => show win4_5.index t (1 : Fin 2) * 128 + 1 * (x 1).val = (x 1).val; omega

theorem blk6_eq (c : Dev nD) (t : Fin cfg4.N) :
    (GenP.iblk4 V c 6 t : S128x128.Idx → EReal) = (V c main_v283 : S128x128.Idx → EReal) := by
  obtain ⟨-, -, -, -, -, -, ⟨e0, e1⟩, -⟩ := idx_facts t
  funext x
  unfold GenP.iblk4
  rw [View.read_apply]
  show V c main_v283 _ = V c main_v283 _
  congr 1
  funext a
  apply Fin.ext
  match a with
  | ⟨0, _⟩ => show win4_6.index t (0 : Fin 2) * 128 + 1 * (x 0).val = (x 0).val; omega
  | ⟨1, _⟩ => show win4_6.index t (1 : Fin 2) * 128 + 1 * (x 1).val = (x 1).val; omega

theorem blk7_eq (c : Dev nD) (t : Fin cfg4.N) :
    (GenP.iblk4 V c 7 t : S128x128.Idx → EReal) = (V c main_v285 : S128x128.Idx → EReal) := by
  obtain ⟨-, -, -, -, -, -, -, ⟨e0, e1⟩, -⟩ := idx_facts t
  funext x
  unfold GenP.iblk4
  rw [View.read_apply]
  show V c main_v285 _ = V c main_v285 _
  congr 1
  funext a
  apply Fin.ext
  match a with
  | ⟨0, _⟩ => show win4_7.index t (0 : Fin 2) * 128 + 1 * (x 0).val = (x 0).val; omega
  | ⟨1, _⟩ => show win4_7.index t (1 : Fin 2) * 128 + 1 * (x 1).val = (x 1).val; omega

theorem blk8_eq (c : Dev nD) (t : Fin cfg4.N) :
    (GenP.iblk4 V c 8 t : S1x128.Idx → EReal) = (V c main_v289 : S1x128.Idx → EReal) := by
  obtain ⟨-, -, -, -, -, -, -, -, ⟨e0, e1⟩, -⟩ := idx_facts t
  funext x
  unfold GenP.iblk4
  rw [View.read_apply]
  show V c main_v289 _ = V c main_v289 _
  congr 1
  funext a
  apply Fin.ext
  match a with
  | ⟨0, _⟩ => show win4_8.index t (0 : Fin 2) * 1 + 1 * (x 0).val = (x 0).val; omega
  | ⟨1, _⟩ => show win4_8.index t (1 : Fin 2) * 128 + 1 * (x 1).val = (x 1).val; omega

/-! ## The output block, and the array -/

/-- Entry (r, j) of the output block at point t sits at (2000·t + r, j) of the output array. -/
theorem emb_out (t : Fin cfg4.N) (r : Fin 2000) (j : Fin 128) (i : Fin 30000) (hi : i.val = 2000 * t.val + r.val) :
    (((cfg4.win 9).blk t).view.emb (ix2 r j) : S30000x128.Idx) = ix2 i j := by
  obtain ⟨-, -, -, -, -, -, -, -, -, ⟨e0, e1⟩⟩ := idx_facts t
  funext a
  apply Fin.ext
  match a with
  | ⟨0, _⟩ => show win4_9.index t (0 : Fin 2) * 2000 + 1 * r.val = i.val; omega
  | ⟨1, _⟩ => show win4_9.index t (1 : Fin 2) * 128 + 1 * j.val = j.val; omega

/-- The node type's update as one function of the arrays the region finds. -/
abbrev G (c : Dev nD) : S30000x128.Idx → EReal :=
  Cert.Spec.reluArr 30000 (V c main_v170) (V c main_v242) (V c main_v137) (V c main_v277) (V c main_v279)
    (fun k => V c main_v288 (ix2 0 k)) (V c main_v283) (V c main_v285) (fun k => V c main_v289 (ix2 0 k))

/-- What point t writes back is block t of the update: rows 2000·t … 2000·t + 1999. -/
theorem flushed_eq (c : Dev nD) (t : Fin cfg4.N) :
    (GenP.dat4 V c).flushed 9 t = ((cfg4.win 9).blk t).view.read (Elt Ideal) (G V c) := by
  show (cfg4.win 9).cut (grid4.coords t) ((GenP.dat4 V c).after 9 t) = _
  rw [GenP.after4_9]
  unfold GenP.out4_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 15 := hN ▸ t.isLt
  have hi : (⟨2000 * t.val + r.val, by have := r.isLt; omega⟩ : Fin 30000).val = 2000 * t.val + r.val := rfl
  show Gen.k4_pay1 (Gen.k4_pay2 (GenP.iblk4 V c 0 t) (GenP.iblk4 V c 1 t) (GenP.iblk4 V c 2 t) (GenP.iblk4 V c 3 t) (GenP.iblk4 V c 4 t)
      (GenP.iblk4 V c 6 t) (GenP.iblk4 V c 7 t) (GenP.iblk4 V c 5 t) (GenP.iblk4 V c 8 t)) (Scalar.ofBits (F := Ideal) .f32 0x3F000000#32) (ix2 r j)
    = G V c (((cfg4.win 9).blk t).view.emb (ix2 r j))
  rw [Block.pay4_apply, emb_out t r j _ hi]
  unfold G
  rw [Cert.Spec.reluArr_apply, blk3_eq, blk4_eq, blk5_eq, blk6_eq, blk7_eq, blk8_eq]
  have h0 : (fun k => (GenP.iblk4 V c 0 t : S2000x128.Idx → EReal) (ix2 r k)) = Cert.Spec.rowOf (V c main_v170) ⟨2000 * t.val + r.val, by have := r.isLt; omega⟩ :=
    funext fun k => blk0_apply V c t r k _ hi
  have h1 : (fun k => (GenP.iblk4 V c 1 t : S2000x128.Idx → EReal) (ix2 r k)) = Cert.Spec.rowOf (V c main_v242) ⟨2000 * t.val + r.val, by have := r.isLt; omega⟩ :=
    funext fun k => blk1_apply V c t r k _ hi
  have h2 : (fun k => (GenP.iblk4 V c 2 t : S2000x128.Idx → EReal) (ix2 r k)) = Cert.Spec.rowOf (V c main_v137) ⟨2000 * t.val + r.val, by have := r.isLt; omega⟩ :=
    funext fun k => blk2_apply V c t r k _ hi
  rw [h0, h1, h2]

/-- An index of the output array is in point t's block iff each coordinate is in the block's range. -/
theorem mem_blk (t : Fin cfg4.N) (i : S30000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v290).slice (win4_9.rect t)).set ↔ _
  rw [View.set_slice_whole, Rect.mem_set_unit]
  exact Iff.rfl

/-- Every index of the output array is in the block of the point its row over 2000 names. -/
theorem cover (i : S30000x128.Idx) : ∃ t : Fin cfg4.N, (cfg4.win 9).flush t = true ∧ i ∈ ((cfg4.win 9).blk t).view.set := by
  have hi0 : (i 0).val < 30000 := (i 0).isLt
  have hi1 : (i 1).val < 128 := (i 1).isLt
  have hlt : (i 0).val / 2000 < cfg4.N := by rw [hN]; omega
  obtain ⟨-, -, -, -, -, -, -, -, -, ⟨e0, e1⟩⟩ := idx_facts ⟨(i 0).val / 2000, hlt⟩
  refine ⟨⟨(i 0).val / 2000, hlt⟩, Gen.flush4_9 _, ?_⟩
  rw [mem_blk]
  intro a
  match a with
  | ⟨0, _⟩ =>
    show win4_9.index ⟨(i 0).val / 2000, hlt⟩ (0 : Fin 2) * 2000 ≤ (i 0).val ∧ (i 0).val < win4_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win4_9.index ⟨(i 0).val / 2000, hlt⟩ (1 : Fin 2) * 128 ≤ (i 1).val ∧ (i 1).val < win4_9.index ⟨(i 0).val / 2000, hlt⟩ (1 : Fin 2) * 128 + 128
    rw [e1]; omega

/-- THE OUTPUT ARRAY after the region: the node type's update of the arrays the region finds, row by row. -/
theorem value (c : Dev nD) :
    (GenP.dat4 V c).arrAt 9 cfg4.N = Cert.Spec.reluArr 30000 (V c main_v170) (V c main_v242) (V c main_v137) (V c main_v277) (V c main_v279)
      (fun k => V c main_v288 (ix2 0 k)) (V c main_v283) (V c main_v285) (fun k => V c main_v289 (ix2 0 k)) :=
  (GenP.dat4 V c).arrAt_eq_of_cover 9 (G V c) (fun t _ => flushed_eq V c t) cover

end Cert.KernelIdeal.Region4

end
-- ==== Proof.StepK1m.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region4

set_option maxRecDepth 16384

noncomputable section

namespace Cert.StepK1m

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_1 X c (Proc.devRef .tc Cert.KernelIdeal.main_v290)
    = Cert.Spec.reluArr 30000 (A3_1 X c (Proc.devRef .tc Cert.KernelIdeal.main_v170))
        (A3_1 X c (Proc.devRef .tc Cert.KernelIdeal.main_v242))
        (A3_1 X c (Proc.devRef .tc Cert.KernelIdeal.main_v137))
        (A3_1 X c (Proc.devRef .tc Cert.KernelIdeal.main_v277))
        (A3_1 X c (Proc.devRef .tc Cert.KernelIdeal.main_v279))
        (fun k => A3_1 X c (Proc.devRef .tc Cert.KernelIdeal.main_v288) (ix2 0 k))
        (A3_1 X c (Proc.devRef .tc Cert.KernelIdeal.main_v283))
        (A3_1 X c (Proc.devRef .tc Cert.KernelIdeal.main_v285))
        (fun k => A3_1 X c (Proc.devRef .tc Cert.KernelIdeal.main_v289) (ix2 0 k)) := by
  rw [A6_1_of_ne X c Cert.KernelIdeal.main_v290 (by decide)]
  dsimp only [A5_1, Cert.KernelIdeal.Gen.hostOps5]
  after_results_simp
  have e4 : A4_1 X c (Proc.devRef .tc Cert.KernelIdeal.main_v290) = (Cert.KernelIdeal.GenP.dat4 (U3_1 X) c).arrAt 9 Cert.KernelIdeal.cfg4.N := A4_1_arr X c 9
  rw [e4, Cert.KernelIdeal.Region4.value]

end Cert.StepK1m

end
-- ==== Proof.StepR1m.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR1c
import proofs.«141482_j13434657702128_1_alg».proof.Proof.RefRead
import proofs.«141482_j13434657702128_1_alg».proof.Proof.RefOps1
import proofs.«141482_j13434657702128_1_alg».proof.Proof.FastRead

set_option maxRecDepth 16384

noncomputable section

namespace Cert.StepR1m

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 30000
  a2 : Cert.Spec.Rows 30000
  h : Cert.Spec.Rows 30000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R1 (F := Ideal)) Y (Proc.devRef .tc Cert.ReferenceIdeal.main_v382) = Cert.Spec.reluArr 30000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R1]
    after_results_fast
    simp only [TRef.toBuf, TRef.ofBuf, cast_eq]
    generalize hA1 : (Host.divf (Host.scatterAdd _ _ _ _) _ : FVec Ideal Cert.ReferenceIdeal.S30000x128 .f32) = A1
    generalize hA2 : (Host.divf (Host.scatterAdd _ _ _ _) _ : FVec Ideal Cert.ReferenceIdeal.S30000x128 .f32) = A2
    rw [Cert.ReferenceIdeal.RefRead.refRelu_30000]
    subst hA1 hA2
    with_reducible rfl

end Cert.StepR1m

end
-- ==== Proof.StepJ1m.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR1m
import proofs.«141482_j13434657702128_1_alg».proof.Proof.StepLib
import proofs.«141482_j13434657702128_1_alg».proof.Proof.FastRead
import Idealize.ShloMosaic.Lib.ValueLayout

set_option maxRecDepth 16384

noncomputable section

namespace Cert.StepJ1m

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_1_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec3 w ≠ b) :
    A2_1 X c (no_index (Proc.devRef .tc b)) = A1_1 X c (Proc.devRef .tc b) := A2_1_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A3_1 X c (Proc.devRef .tc Cert.KernelIdeal.main_v170)) = (Cert.StepR1m.refSide Y).a1)
    ∧ ((A3_1 X c (Proc.devRef .tc Cert.KernelIdeal.main_v242)) = (Cert.StepR1m.refSide Y).a2)
    ∧ ((A3_1 X c (Proc.devRef .tc Cert.KernelIdeal.main_v137)) = (Cert.StepR1m.refSide Y).h)
    ∧ ((A3_1 X c (Proc.devRef .tc Cert.KernelIdeal.main_v277)) = (Cert.StepR1m.refSide Y).wl1)
    ∧ ((A3_1 X c (Proc.devRef .tc Cert.KernelIdeal.main_v279)) = (Cert.StepR1m.refSide Y).wr1)
    ∧ ((fun k => A3_1 X c (Proc.devRef .tc Cert.KernelIdeal.main_v288) (ix2 0 k)) = (Cert.StepR1m.refSide Y).b1)
    ∧ ((A3_1 X c (Proc.devRef .tc Cert.KernelIdeal.main_v283)) = (Cert.StepR1m.refSide Y).wl2)
    ∧ ((A3_1 X c (Proc.devRef .tc Cert.KernelIdeal.main_v285)) = (Cert.StepR1m.refSide Y).wr2)
    ∧ ((fun k => A3_1 X c (Proc.devRef .tc Cert.KernelIdeal.main_v289) (ix2 0 k)) = (Cert.StepR1m.refSide Y).b2) := by
  dsimp only [A3_1, Cert.KernelIdeal.Gen.hostOps4]
  after_results_fast
  simp (disch := decide) only [A2_1_of_ne']
  dsimp only [A1_1, Cert.KernelIdeal.Gen.hostOps3]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR1m.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ1m

end
-- ==== Proof.Step1m.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK1m
import proofs.«141482_j13434657702128_1_alg».proof.Proof.StepJ1m

set_option maxRecDepth 16384

noncomputable section

namespace Cert.Step1m

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_1 X c (Proc.devRef .tc Cert.KernelIdeal.main_v290) = after (Cert.ReferenceIdeal.RefOps.R1 (F := Ideal)) Y (Proc.devRef .tc Cert.ReferenceIdeal.main_v382) := by
  obtain ⟨j1, j2, j3, j4, j5, j6, j7, j8, j9⟩ := Cert.StepJ1m.join X Y c hc hm hd h_arg3 h_arg4 h_arg5 h_arg6 h_arg7 h_arg8 h_arg9 h_arg10 h_arg11 h_arg12 h_arg13 h_arg14 h_arg15 h_arg16 h_arg17
  exact (Cert.StepK1m.kernel X c).trans ((reluArr_congr j1 j2 j3 j4 j5 j6 j7 j8 j9).trans (Cert.StepR1m.refSide Y).eq.symm)

end Cert.Step1m

end
-- ==== Proof.Region5.lean ====
/-
  The output array of node-update region 5 (10000 rows, 5 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 5 blocks cover all
  10000 rows (row i lies in the block of point i / 2000), hence the array after the region is Spec.reluArr of those arrays.
-/
import proofs.«141482_j13434657702128_1_alg».proof.Proof.FrameKIR1
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region5

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 5 points. -/
theorem hN : cfg5.N = 5 := Gen.N_5

/-- The index maps over the grid: the three row windows and the output move with the point along the rows and
    stay at column block 0; the weight and bias windows stay at block (0, 0). -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = t.val ∧ win5_9.index t (1 : Fin 2) = 0) :=
  (by decide +kernel : ∀ t : Fin grid5.N, _)

/-! ## Each input block as rows of its array -/

/-- Row r of the first aggregated block at point t is row 2000·t + r of its array. -/
theorem blk0_apply (c : Dev nD) (t : Fin cfg5.N) (r : Fin 2000) (k : Fin 128) (i : Fin 10000) (hi : i.val = 2000 * t.val + r.val) :
    (GenP.iblk5 V c 0 t : S2000x128.Idx → EReal) (ix2 r k) = (V c main_v188 : S10000x128.Idx → EReal) (ix2 i k) := by
  obtain ⟨⟨e0, e1⟩, -⟩ := idx_facts t
  unfold GenP.iblk5
  rw [View.read_apply]
  show V c main_v188 _ = V c main_v188 _
  congr 1
  funext a
  apply Fin.ext
  match a with
  | ⟨0, _⟩ => show win5_0.index t (0 : Fin 2) * 2000 + 1 * r.val = i.val; omega
  | ⟨1, _⟩ => show win5_0.index t (1 : Fin 2) * 128 + 1 * k.val = k.val; omega

/-- Row r of the second aggregated block at point t is row 2000·t + r of its array. -/
theorem blk1_apply (c : Dev nD) (t : Fin cfg5.N) (r : Fin 2000) (k : Fin 128) (i : Fin 10000) (hi : i.val = 2000 * t.val + r.val) :
    (GenP.iblk5 V c 1 t : S2000x128.Idx → EReal) (ix2 r k) = (V c main_v206 : S10000x128.Idx → EReal) (ix2 i k) := by
  obtain ⟨-, ⟨e0, e1⟩, -⟩ := idx_facts t
  unfold GenP.iblk5
  rw [View.read_apply]
  show V c main_v206 _ = V c main_v206 _
  congr 1
  funext a
  apply Fin.ext
  match a with
  | ⟨0, _⟩ => show win5_1.index t (0 : Fin 2) * 2000 + 1 * r.val = i.val; omega
  | ⟨1, _⟩ => show win5_1.index t (1 : Fin 2) * 128 + 1 * k.val = k.val; omega

/-- Row r of the feature block at point t is row 2000·t + r of the feature array. -/
theorem blk2_apply (c : Dev nD) (t : Fin cfg5.N) (r : Fin 2000) (k : Fin 128) (i : Fin 10000) (hi : i.val = 2000 * t.val + r.val) :
    (GenP.iblk5 V c 2 t : S2000x128.Idx → EReal) (ix2 r k) = (V c main_v152 : S10000x128.Idx → EReal) (ix2 i k) := by
  obtain ⟨-, -, ⟨e0, e1⟩, -⟩ := idx_facts t
  unfold GenP.iblk5
  rw [View.read_apply]
  show V c main_v152 _ = V c main_v152 _
  congr 1
  funext a
  apply Fin.ext
  match a with
  | ⟨0, _⟩ => show win5_2.index t (0 : Fin 2) * 2000 + 1 * r.val = i.val; omega
  | ⟨1, _⟩ => show win5_2.index t (1 : Fin 2) * 128 + 1 * k.val = k.val; omega

/-- A weight window's one block is its whole matrix. -/
theorem blk3_eq (c : Dev nD) (t : Fin cfg5.N) :
    (GenP.iblk5 V c 3 t : S128x128.Idx → EReal) = (V c main_v292 : S128x128.Idx → EReal) := by
  obtain ⟨-, -, -, ⟨e0, e1⟩, -⟩ := idx_facts t
  funext x
  unfold GenP.iblk5
  rw [View.read_apply]
  show V c main_v292 _ = V c main_v292 _
  congr 1
  funext a
  apply Fin.ext
  match a with
  | ⟨0, _⟩ => show win5_3.index t (0 : Fin 2) * 128 + 1 * (x 0).val = (x 0).val; omega
  | ⟨1, _⟩ => show win5_3.index t (1 : Fin 2) * 128 + 1 * (x 1).val = (x 1).val; omega

theorem blk4_eq (c : Dev nD) (t : Fin cfg5.N) :
    (GenP.iblk5 V c 4 t : S128x128.Idx → EReal) = (V c main_v294 : S128x128.Idx → EReal) := by
  obtain ⟨-, -, -, -, ⟨e0, e1⟩, -⟩ := idx_facts t
  funext x
  unfold GenP.iblk5
  rw [View.read_apply]
  show V c main_v294 _ = V c main_v294 _
  congr 1
  funext a
  apply Fin.ext
  match a with
  | ⟨0, _⟩ => show win5_4.index t (0 : Fin 2) * 128 + 1 * (x 0).val = (x 0).val; omega
  | ⟨1, _⟩ => show win5_4.index t (1 : Fin 2) * 128 + 1 * (x 1).val = (x 1).val; omega

/-- A bias window's one block is its whole row. -/
theorem blk5_eq (c : Dev nD) (t : Fin cfg5.N) :
    (GenP.iblk5 V c 5 t : S1x128.Idx → EReal) = (V c main_v303 : S1x128.Idx → EReal) := by
  obtain ⟨-, -, -, -, -, ⟨e0, e1⟩, -⟩ := idx_facts t
  funext x
  unfold GenP.iblk5
  rw [View.read_apply]
  show V c main_v303 _ = V c main_v303 _
  congr 1
  funext a
  apply Fin.ext
  match a with
  | ⟨0, _⟩ => show win5_5.index t (0 : Fin 2) * 1 + 1 * (x 0).val = (x 0).val; omega
  | ⟨1, _⟩ => show win5_5.index t (1 : Fin 2) * 128 + 1 * (x 1).val = (x 1).val; omega

theorem blk6_eq (c : Dev nD) (t : Fin cfg5.N) :
    (GenP.iblk5 V c 6 t : S128x128.Idx → EReal) = (V c main_v298 : S128x128.Idx → EReal) := by
  obtain ⟨-, -, -, -, -, -, ⟨e0, e1⟩, -⟩ := idx_facts t
  funext x
  unfold GenP.iblk5
  rw [View.read_apply]
  show V c main_v298 _ = V c main_v298 _
  congr 1
  funext a
  apply Fin.ext
  match a with
  | ⟨0, _⟩ => show win5_6.index t (0 : Fin 2) * 128 + 1 * (x 0).val = (x 0).val; omega
  | ⟨1, _⟩ => show win5_6.index t (1 : Fin 2) * 128 + 1 * (x 1).val = (x 1).val; omega

theorem blk7_eq (c : Dev nD) (t : Fin cfg5.N) :
    (GenP.iblk5 V c 7 t : S128x128.Idx → EReal) = (V c main_v300 : S128x128.Idx → EReal) := by
  obtain ⟨-, -, -, -, -, -, -, ⟨e0, e1⟩, -⟩ := idx_facts t
  funext x
  unfold GenP.iblk5
  rw [View.read_apply]
  show V c main_v300 _ = V c main_v300 _
  congr 1
  funext a
  apply Fin.ext
  match a with
  | ⟨0, _⟩ => show win5_7.index t (0 : Fin 2) * 128 + 1 * (x 0).val = (x 0).val; omega
  | ⟨1, _⟩ => show win5_7.index t (1 : Fin 2) * 128 + 1 * (x 1).val = (x 1).val; omega

theorem blk8_eq (c : Dev nD) (t : Fin cfg5.N) :
    (GenP.iblk5 V c 8 t : S1x128.Idx → EReal) = (V c main_v304 : S1x128.Idx → EReal) := by
  obtain ⟨-, -, -, -, -, -, -, -, ⟨e0, e1⟩, -⟩ := idx_facts t
  funext x
  unfold GenP.iblk5
  rw [View.read_apply]
  show V c main_v304 _ = V c main_v304 _
  congr 1
  funext a
  apply Fin.ext
  match a with
  | ⟨0, _⟩ => show win5_8.index t (0 : Fin 2) * 1 + 1 * (x 0).val = (x 0).val; omega
  | ⟨1, _⟩ => show win5_8.index t (1 : Fin 2) * 128 + 1 * (x 1).val = (x 1).val; omega

/-! ## The output block, and the array -/

/-- Entry (r, j) of the output block at point t sits at (2000·t + r, j) of the output array. -/
theorem emb_out (t : Fin cfg5.N) (r : Fin 2000) (j : Fin 128) (i : Fin 10000) (hi : i.val = 2000 * t.val + r.val) :
    (((cfg5.win 9).blk t).view.emb (ix2 r j) : S10000x128.Idx) = ix2 i j := by
  obtain ⟨-, -, -, -, -, -, -, -, -, ⟨e0, e1⟩⟩ := idx_facts t
  funext a
  apply Fin.ext
  match a with
  | ⟨0, _⟩ => show win5_9.index t (0 : Fin 2) * 2000 + 1 * r.val = i.val; omega
  | ⟨1, _⟩ => show win5_9.index t (1 : Fin 2) * 128 + 1 * j.val = j.val; omega

/-- The node type's update as one function of the arrays the region finds. -/
abbrev G (c : Dev nD) : S10000x128.Idx → EReal :=
  Cert.Spec.reluArr 10000 (V c main_v188) (V c main_v206) (V c main_v152) (V c main_v292) (V c main_v294)
    (fun k => V c main_v303 (ix2 0 k)) (V c main_v298) (V c main_v300) (fun k => V c main_v304 (ix2 0 k))

/-- What point t writes back is block t of the update: rows 2000·t … 2000·t + 1999. -/
theorem flushed_eq (c : Dev nD) (t : Fin cfg5.N) :
    (GenP.dat5 V c).flushed 9 t = ((cfg5.win 9).blk t).view.read (Elt Ideal) (G V c) := by
  show (cfg5.win 9).cut (grid5.coords t) ((GenP.dat5 V c).after 9 t) = _
  rw [GenP.after5_9]
  unfold GenP.out5_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 5 := hN ▸ t.isLt
  have hi : (⟨2000 * t.val + r.val, by have := r.isLt; omega⟩ : Fin 10000).val = 2000 * t.val + r.val := rfl
  show Gen.k5_pay1 (Gen.k5_pay2 (GenP.iblk5 V c 0 t) (GenP.iblk5 V c 1 t) (GenP.iblk5 V c 2 t) (GenP.iblk5 V c 3 t) (GenP.iblk5 V c 4 t)
      (GenP.iblk5 V c 6 t) (GenP.iblk5 V c 7 t) (GenP.iblk5 V c 5 t) (GenP.iblk5 V c 8 t)) (Scalar.ofBits (F := Ideal) .f32 0x3F000000#32) (ix2 r j)
    = G V c (((cfg5.win 9).blk t).view.emb (ix2 r j))
  rw [Block.pay5_apply, emb_out t r j _ hi]
  unfold G
  rw [Cert.Spec.reluArr_apply, blk3_eq, blk4_eq, blk5_eq, blk6_eq, blk7_eq, blk8_eq]
  have h0 : (fun k => (GenP.iblk5 V c 0 t : S2000x128.Idx → EReal) (ix2 r k)) = Cert.Spec.rowOf (V c main_v188) ⟨2000 * t.val + r.val, by have := r.isLt; omega⟩ :=
    funext fun k => blk0_apply V c t r k _ hi
  have h1 : (fun k => (GenP.iblk5 V c 1 t : S2000x128.Idx → EReal) (ix2 r k)) = Cert.Spec.rowOf (V c main_v206) ⟨2000 * t.val + r.val, by have := r.isLt; omega⟩ :=
    funext fun k => blk1_apply V c t r k _ hi
  have h2 : (fun k => (GenP.iblk5 V c 2 t : S2000x128.Idx → EReal) (ix2 r k)) = Cert.Spec.rowOf (V c main_v152) ⟨2000 * t.val + r.val, by have := r.isLt; omega⟩ :=
    funext fun k => blk2_apply V c t r k _ hi
  rw [h0, h1, h2]

/-- An index of the output array is in point t's block iff each coordinate is in the block's range. -/
theorem mem_blk (t : Fin cfg5.N) (i : S10000x128.Idx) :
    i ∈ ((cfg5.win 9).blk t).view.set ↔ ∀ a : Fin 2, win5_9.index t a * S2000x128.size a ≤ (i a).val ∧ (i a).val < win5_9.index t a * S2000x128.size a + S2000x128.size a := by
  show i ∈ ((View.whole main_v305).slice (win5_9.rect t)).set ↔ _
  rw [View.set_slice_whole, Rect.mem_set_unit]
  exact Iff.rfl

/-- Every index of the output array is in the block of the point its row over 2000 names. -/
theorem cover (i : S10000x128.Idx) : ∃ t : Fin cfg5.N, (cfg5.win 9).flush t = true ∧ i ∈ ((cfg5.win 9).blk t).view.set := by
  have hi0 : (i 0).val < 10000 := (i 0).isLt
  have hi1 : (i 1).val < 128 := (i 1).isLt
  have hlt : (i 0).val / 2000 < cfg5.N := by rw [hN]; omega
  obtain ⟨-, -, -, -, -, -, -, -, -, ⟨e0, e1⟩⟩ := idx_facts ⟨(i 0).val / 2000, hlt⟩
  refine ⟨⟨(i 0).val / 2000, hlt⟩, Gen.flush5_9 _, ?_⟩
  rw [mem_blk]
  intro a
  match a with
  | ⟨0, _⟩ =>
    show win5_9.index ⟨(i 0).val / 2000, hlt⟩ (0 : Fin 2) * 2000 ≤ (i 0).val ∧ (i 0).val < win5_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win5_9.index ⟨(i 0).val / 2000, hlt⟩ (1 : Fin 2) * 128 ≤ (i 1).val ∧ (i 1).val < win5_9.index ⟨(i 0).val / 2000, hlt⟩ (1 : Fin 2) * 128 + 128
    rw [e1]; omega

/-- THE OUTPUT ARRAY after the region: the node type's update of the arrays the region finds, row by row. -/
theorem value (c : Dev nD) :
    (GenP.dat5 V c).arrAt 9 cfg5.N = Cert.Spec.reluArr 10000 (V c main_v188) (V c main_v206) (V c main_v152) (V c main_v292) (V c main_v294)
      (fun k => V c main_v303 (ix2 0 k)) (V c main_v298) (V c main_v300) (fun k => V c main_v304 (ix2 0 k)) :=
  (GenP.dat5 V c).arrAt_eq_of_cover 9 (G V c) (fun t _ => flushed_eq V c t) cover

end Cert.KernelIdeal.Region5

end
-- ==== Proof.StepK1d.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region5

set_option maxRecDepth 16384

noncomputable section

namespace Cert.StepK1d

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_1 X c (Proc.devRef .tc Cert.KernelIdeal.main_v305)
    = Cert.Spec.reluArr 10000 (A5_1 X c (Proc.devRef .tc Cert.KernelIdeal.main_v188))
        (A5_1 X c (Proc.devRef .tc Cert.KernelIdeal.main_v206))
        (A5_1 X c (Proc.devRef .tc Cert.KernelIdeal.main_v152))
        (A5_1 X c (Proc.devRef .tc Cert.KernelIdeal.main_v292))
        (A5_1 X c (Proc.devRef .tc Cert.KernelIdeal.main_v294))
        (fun k => A5_1 X c (Proc.devRef .tc Cert.KernelIdeal.main_v303) (ix2 0 k))
        (A5_1 X c (Proc.devRef .tc Cert.KernelIdeal.main_v298))
        (A5_1 X c (Proc.devRef .tc Cert.KernelIdeal.main_v300))
        (fun k => A5_1 X c (Proc.devRef .tc Cert.KernelIdeal.main_v304) (ix2 0 k)) := by
  have e5 : A6_1 X c (Proc.devRef .tc Cert.KernelIdeal.main_v305) = (Cert.KernelIdeal.GenP.dat5 (U5_1 X) c).arrAt 9 Cert.KernelIdeal.cfg5.N := A6_1_arr X c 9
  rw [e5, Cert.KernelIdeal.Region5.value]

end Cert.StepK1d

end
-- ==== Proof.StepR1d.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR1m
import proofs.«141482_j13434657702128_1_alg».proof.Proof.RefRead
import proofs.«141482_j13434657702128_1_alg».proof.Proof.RefOps1
import proofs.«141482_j13434657702128_1_alg».proof.Proof.FastRead

set_option maxRecDepth 16384

noncomputable section

namespace Cert.StepR1d

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 10000
  a2 : Cert.Spec.Rows 10000
  h : Cert.Spec.Rows 10000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R1 (F := Ideal)) Y (Proc.devRef .tc Cert.ReferenceIdeal.main_v383) = Cert.Spec.reluArr 10000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R1]
    after_results_fast
    simp only [TRef.toBuf, TRef.ofBuf, cast_eq]
    generalize hA1 : (Host.divf (Host.scatterAdd _ _ _ _) _ : FVec Ideal Cert.ReferenceIdeal.S10000x128 .f32) = A1
    generalize hA2 : (Host.divf (Host.scatterAdd _ _ _ _) _ : FVec Ideal Cert.ReferenceIdeal.S10000x128 .f32) = A2
    rw [Cert.ReferenceIdeal.RefRead.refRelu_10000]
    subst hA1 hA2
    with_reducible rfl

end Cert.StepR1d

end
-- ==== Proof.StepJ1d.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR1d
import proofs.«141482_j13434657702128_1_alg».proof.Proof.StepLib
import proofs.«141482_j13434657702128_1_alg».proof.Proof.FastRead
import Idealize.ShloMosaic.Lib.ValueLayout

set_option maxRecDepth 16384

noncomputable section

namespace Cert.StepJ1d

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_1_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec3 w ≠ b) :
    A2_1 X c (no_index (Proc.devRef .tc b)) = A1_1 X c (Proc.devRef .tc b) := A2_1_of_ne X c b hb

/-- The region's exit contents at a buffer that is none of its arrays, stated for rewriting at any reference. -/
theorem A4_1_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec4 w ≠ b) :
    A4_1 X c (no_index (Proc.devRef .tc b)) = A3_1 X c (Proc.devRef .tc b) := A4_1_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A5_1 X c (Proc.devRef .tc Cert.KernelIdeal.main_v188)) = (Cert.StepR1d.refSide Y).a1)
    ∧ ((A5_1 X c (Proc.devRef .tc Cert.KernelIdeal.main_v206)) = (Cert.StepR1d.refSide Y).a2)
    ∧ ((A5_1 X c (Proc.devRef .tc Cert.KernelIdeal.main_v152)) = (Cert.StepR1d.refSide Y).h)
    ∧ ((A5_1 X c (Proc.devRef .tc Cert.KernelIdeal.main_v292)) = (Cert.StepR1d.refSide Y).wl1)
    ∧ ((A5_1 X c (Proc.devRef .tc Cert.KernelIdeal.main_v294)) = (Cert.StepR1d.refSide Y).wr1)
    ∧ ((fun k => A5_1 X c (Proc.devRef .tc Cert.KernelIdeal.main_v303) (ix2 0 k)) = (Cert.StepR1d.refSide Y).b1)
    ∧ ((A5_1 X c (Proc.devRef .tc Cert.KernelIdeal.main_v298)) = (Cert.StepR1d.refSide Y).wl2)
    ∧ ((A5_1 X c (Proc.devRef .tc Cert.KernelIdeal.main_v300)) = (Cert.StepR1d.refSide Y).wr2)
    ∧ ((fun k => A5_1 X c (Proc.devRef .tc Cert.KernelIdeal.main_v304) (ix2 0 k)) = (Cert.StepR1d.refSide Y).b2) := by
  dsimp only [A5_1, Cert.KernelIdeal.Gen.hostOps5]
  after_results_fast
  simp (disch := decide) only [A4_1_of_ne']
  dsimp only [A3_1, Cert.KernelIdeal.Gen.hostOps4]
  after_results_fast
  simp (disch := decide) only [A2_1_of_ne']
  dsimp only [A1_1, Cert.KernelIdeal.Gen.hostOps3]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR1d.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ1d

end
-- ==== Proof.Step1d.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK1d
import proofs.«141482_j13434657702128_1_alg».proof.Proof.StepJ1d

set_option maxRecDepth 16384

noncomputable section

namespace Cert.Step1d

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v122) = Y (Proc.devRef .tc Cert.ReferenceIdeal.main_v189))
    (hm : X c (Proc.devRef .tc Cert.KernelIdeal.main_v137) = Y (Proc.devRef .tc Cert.ReferenceIdeal.main_v190))
    (hd : X c (Proc.devRef .tc Cert.KernelIdeal.main_v152) = Y (Proc.devRef .tc Cert.ReferenceIdeal.main_v191))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_1 X c (Proc.devRef .tc Cert.KernelIdeal.main_v305) = after (Cert.ReferenceIdeal.RefOps.R1 (F := Ideal)) Y (Proc.devRef .tc Cert.ReferenceIdeal.main_v383) := by
  obtain ⟨j1, j2, j3, j4, j5, j6, j7, j8, j9⟩ := Cert.StepJ1d.join X Y c hc hm hd h_arg3 h_arg4 h_arg5 h_arg6 h_arg7 h_arg8 h_arg9 h_arg10 h_arg11 h_arg12 h_arg13 h_arg14 h_arg15 h_arg16 h_arg17
  exact (Cert.StepK1d.kernel X c).trans ((reluArr_congr j1 j2 j3 j4 j5 j6 j7 j8 j9).trans (Cert.StepR1d.refSide Y).eq.symm)

end Cert.Step1d

end
-- ==== Proof.Region6.lean ====
/-
  The output array of node-update region 6 (50000 rows, 25 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 25 blocks cover all
  50000 rows (row i lies in the block of point i / 2000), hence the array after the region is Spec.reluArr of those arrays.
-/
import proofs.«141482_j13434657702128_1_alg».proof.Proof.FrameKIR2
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region6

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 25 points. -/
theorem hN : cfg6.N = 25 := Gen.N_6

/-- The index maps over the grid: the three row windows and the output move with the point along the rows and
    stay at column block 0; the weight and bias windows stay at block (0, 0). -/
theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0)
    ∧ (win6_9.index t (0 : Fin 2) = t.val ∧ win6_9.index t (1 : Fin 2) = 0) :=
  (by decide +kernel : ∀ t : Fin grid6.N, _)

/-! ## Each input block as rows of its array -/

/-- Row r of the first aggregated block at point t is row 2000·t + r of its array. -/
theorem blk0_apply (c : Dev nD) (t : Fin cfg6.N) (r : Fin 2000) (k : Fin 128) (i : Fin 50000) (hi : i.val = 2000 * t.val + r.val) :
    (GenP.iblk6 V c 0 t : S2000x128.Idx → EReal) (ix2 r k) = (V c main_v377 : S50000x128.Idx → EReal) (ix2 i k) := by
  obtain ⟨⟨e0, e1⟩, -⟩ := idx_facts t
  unfold GenP.iblk6
  rw [View.read_apply]
  show V c main_v377 _ = V c main_v377 _
  congr 1
  funext a
  apply Fin.ext
  match a with
  | ⟨0, _⟩ => show win6_0.index t (0 : Fin 2) * 2000 + 1 * r.val = i.val; omega
  | ⟨1, _⟩ => show win6_0.index t (1 : Fin 2) * 128 + 1 * k.val = k.val; omega

/-- Row r of the second aggregated block at point t is row 2000·t + r of its array. -/
theorem blk1_apply (c : Dev nD) (t : Fin cfg6.N) (r : Fin 2000) (k : Fin 128) (i : Fin 50000) (hi : i.val = 2000 * t.val + r.val) :
    (GenP.iblk6 V c 1 t : S2000x128.Idx → EReal) (ix2 r k) = (V c main_v413 : S50000x128.Idx → EReal) (ix2 i k) := by
  obtain ⟨-, ⟨e0, e1⟩, -⟩ := idx_facts t
  unfold GenP.iblk6
  rw [View.read_apply]
  show V c main_v413 _ = V c main_v413 _
  congr 1
  funext a
  apply Fin.ext
  match a with
  | ⟨0, _⟩ => show win6_1.index t (0 : Fin 2) * 2000 + 1 * r.val = i.val; omega
  | ⟨1, _⟩ => show win6_1.index t (1 : Fin 2) * 128 + 1 * k.val = k.val; omega

/-- Row r of the feature block at point t is row 2000·t + r of the feature array. -/
theorem blk2_apply (c : Dev nD) (t : Fin cfg6.N) (r : Fin 2000) (k : Fin 128) (i : Fin 50000) (hi : i.val = 2000 * t.val + r.val) :
    (GenP.iblk6 V c 2 t : S2000x128.Idx → EReal) (ix2 r k) = (V c main_v275 : S50000x128.Idx → EReal) (ix2 i k) := by
  obtain ⟨-, -, ⟨e0, e1⟩, -⟩ := idx_facts t
  unfold GenP.iblk6
  rw [View.read_apply]
  show V c main_v275 _ = V c main_v275 _
  congr 1
  funext a
  apply Fin.ext
  match a with
  | ⟨0, _⟩ => show win6_2.index t (0 : Fin 2) * 2000 + 1 * r.val = i.val; omega
  | ⟨1, _⟩ => show win6_2.index t (1 : Fin 2) * 128 + 1 * k.val = k.val; omega

/-- A weight window's one block is its whole matrix. -/
theorem blk3_eq (c : Dev nD) (t : Fin cfg6.N) :
    (GenP.iblk6 V c 3 t : S128x128.Idx → EReal) = (V c main_v415 : S128x128.Idx → EReal) := by
  obtain ⟨-, -, -, ⟨e0, e1⟩, -⟩ := idx_facts t
  funext x
  unfold GenP.iblk6
  rw [View.read_apply]
  show V c main_v415 _ = V c main_v415 _
  congr 1
  funext a
  apply Fin.ext
  match a with
  | ⟨0, _⟩ => show win6_3.index t (0 : Fin 2) * 128 + 1 * (x 0).val = (x 0).val; omega
  | ⟨1, _⟩ => show win6_3.index t (1 : Fin 2) * 128 + 1 * (x 1).val = (x 1).val; omega

theorem blk4_eq (c : Dev nD) (t : Fin cfg6.N) :
    (GenP.iblk6 V c 4 t : S128x128.Idx → EReal) = (V c main_v417 : S128x128.Idx → EReal) := by
  obtain ⟨-, -, -, -, ⟨e0, e1⟩, -⟩ := idx_facts t
  funext x
  unfold GenP.iblk6
  rw [View.read_apply]
  show V c main_v417 _ = V c main_v417 _
  congr 1
  funext a
  apply Fin.ext
  match a with
  | ⟨0, _⟩ => show win6_4.index t (0 : Fin 2) * 128 + 1 * (x 0).val = (x 0).val; omega
  | ⟨1, _⟩ => show win6_4.index t (1 : Fin 2) * 128 + 1 * (x 1).val = (x 1).val; omega

/-- A bias window's one block is its whole row. -/
theorem blk5_eq (c : Dev nD) (t : Fin cfg6.N) :
    (GenP.iblk6 V c 5 t : S1x128.Idx → EReal) = (V c main_v426 : S1x128.Idx → EReal) := by
  obtain ⟨-, -, -, -, -, ⟨e0, e1⟩, -⟩ := idx_facts t
  funext x
  unfold GenP.iblk6
  rw [View.read_apply]
  show V c main_v426 _ = V c main_v426 _
  congr 1
  funext a
  apply Fin.ext
  match a with
  | ⟨0, _⟩ => show win6_5.index t (0 : Fin 2) * 1 + 1 * (x 0).val = (x 0).val; omega
  | ⟨1, _⟩ => show win6_5.index t (1 : Fin 2) * 128 + 1 * (x 1).val = (x 1).val; omega

theorem blk6_eq (c : Dev nD) (t : Fin cfg6.N) :
    (GenP.iblk6 V c 6 t : S128x128.Idx → EReal) = (V c main_v421 : S128x128.Idx → EReal) := by
  obtain ⟨-, -, -, -, -, -, ⟨e0, e1⟩, -⟩ := idx_facts t
  funext x
  unfold GenP.iblk6
  rw [View.read_apply]
  show V c main_v421 _ = V c main_v421 _
  congr 1
  funext a
  apply Fin.ext
  match a with
  | ⟨0, _⟩ => show win6_6.index t (0 : Fin 2) * 128 + 1 * (x 0).val = (x 0).val; omega
  | ⟨1, _⟩ => show win6_6.index t (1 : Fin 2) * 128 + 1 * (x 1).val = (x 1).val; omega

theorem blk7_eq (c : Dev nD) (t : Fin cfg6.N) :
    (GenP.iblk6 V c 7 t : S128x128.Idx → EReal) = (V c main_v423 : S128x128.Idx → EReal) := by
  obtain ⟨-, -, -, -, -, -, -, ⟨e0, e1⟩, -⟩ := idx_facts t
  funext x
  unfold GenP.iblk6
  rw [View.read_apply]
  show V c main_v423 _ = V c main_v423 _
  congr 1
  funext a
  apply Fin.ext
  match a with
  | ⟨0, _⟩ => show win6_7.index t (0 : Fin 2) * 128 + 1 * (x 0).val = (x 0).val; omega
  | ⟨1, _⟩ => show win6_7.index t (1 : Fin 2) * 128 + 1 * (x 1).val = (x 1).val; omega

theorem blk8_eq (c : Dev nD) (t : Fin cfg6.N) :
    (GenP.iblk6 V c 8 t : S1x128.Idx → EReal) = (V c main_v427 : S1x128.Idx → EReal) := by
  obtain ⟨-, -, -, -, -, -, -, -, ⟨e0, e1⟩, -⟩ := idx_facts t
  funext x
  unfold GenP.iblk6
  rw [View.read_apply]
  show V c main_v427 _ = V c main_v427 _
  congr 1
  funext a
  apply Fin.ext
  match a with
  | ⟨0, _⟩ => show win6_8.index t (0 : Fin 2) * 1 + 1 * (x 0).val = (x 0).val; omega
  | ⟨1, _⟩ => show win6_8.index t (1 : Fin 2) * 128 + 1 * (x 1).val = (x 1).val; omega

/-! ## The output block, and the array -/

/-- Entry (r, j) of the output block at point t sits at (2000·t + r, j) of the output array. -/
theorem emb_out (t : Fin cfg6.N) (r : Fin 2000) (j : Fin 128) (i : Fin 50000) (hi : i.val = 2000 * t.val + r.val) :
    (((cfg6.win 9).blk t).view.emb (ix2 r j) : S50000x128.Idx) = ix2 i j := by
  obtain ⟨-, -, -, -, -, -, -, -, -, ⟨e0, e1⟩⟩ := idx_facts t
  funext a
  apply Fin.ext
  match a with
  | ⟨0, _⟩ => show win6_9.index t (0 : Fin 2) * 2000 + 1 * r.val = i.val; omega
  | ⟨1, _⟩ => show win6_9.index t (1 : Fin 2) * 128 + 1 * j.val = j.val; omega

/-- The node type's update as one function of the arrays the region finds. -/
abbrev G (c : Dev nD) : S50000x128.Idx → EReal :=
  Cert.Spec.reluArr 50000 (V c main_v377) (V c main_v413) (V c main_v275) (V c main_v415) (V c main_v417)
    (fun k => V c main_v426 (ix2 0 k)) (V c main_v421) (V c main_v423) (fun k => V c main_v427 (ix2 0 k))

/-- What point t writes back is block t of the update: rows 2000·t … 2000·t + 1999. -/
theorem flushed_eq (c : Dev nD) (t : Fin cfg6.N) :
    (GenP.dat6 V c).flushed 9 t = ((cfg6.win 9).blk t).view.read (Elt Ideal) (G V c) := by
  show (cfg6.win 9).cut (grid6.coords t) ((GenP.dat6 V c).after 9 t) = _
  rw [GenP.after6_9]
  unfold GenP.out6_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 25 := hN ▸ t.isLt
  have hi : (⟨2000 * t.val + r.val, by have := r.isLt; omega⟩ : Fin 50000).val = 2000 * t.val + r.val := rfl
  show Gen.k6_pay1 (Gen.k6_pay2 (GenP.iblk6 V c 0 t) (GenP.iblk6 V c 1 t) (GenP.iblk6 V c 2 t) (GenP.iblk6 V c 3 t) (GenP.iblk6 V c 4 t)
      (GenP.iblk6 V c 6 t) (GenP.iblk6 V c 7 t) (GenP.iblk6 V c 5 t) (GenP.iblk6 V c 8 t)) (Scalar.ofBits (F := Ideal) .f32 0x3F000000#32) (ix2 r j)
    = G V c (((cfg6.win 9).blk t).view.emb (ix2 r j))
  rw [Block.pay6_apply, emb_out t r j _ hi]
  unfold G
  rw [Cert.Spec.reluArr_apply, blk3_eq, blk4_eq, blk5_eq, blk6_eq, blk7_eq, blk8_eq]
  have h0 : (fun k => (GenP.iblk6 V c 0 t : S2000x128.Idx → EReal) (ix2 r k)) = Cert.Spec.rowOf (V c main_v377) ⟨2000 * t.val + r.val, by have := r.isLt; omega⟩ :=
    funext fun k => blk0_apply V c t r k _ hi
  have h1 : (fun k => (GenP.iblk6 V c 1 t : S2000x128.Idx → EReal) (ix2 r k)) = Cert.Spec.rowOf (V c main_v413) ⟨2000 * t.val + r.val, by have := r.isLt; omega⟩ :=
    funext fun k => blk1_apply V c t r k _ hi
  have h2 : (fun k => (GenP.iblk6 V c 2 t : S2000x128.Idx → EReal) (ix2 r k)) = Cert.Spec.rowOf (V c main_v275) ⟨2000 * t.val + r.val, by have := r.isLt; omega⟩ :=
    funext fun k => blk2_apply V c t r k _ hi
  rw [h0, h1, h2]

/-- An index of the output array is in point t's block iff each coordinate is in the block's range. -/
theorem mem_blk (t : Fin cfg6.N) (i : S50000x128.Idx) :
    i ∈ ((cfg6.win 9).blk t).view.set ↔ ∀ a : Fin 2, win6_9.index t a * S2000x128.size a ≤ (i a).val ∧ (i a).val < win6_9.index t a * S2000x128.size a + S2000x128.size a := by
  show i ∈ ((View.whole main_v428).slice (win6_9.rect t)).set ↔ _
  rw [View.set_slice_whole, Rect.mem_set_unit]
  exact Iff.rfl

/-- Every index of the output array is in the block of the point its row over 2000 names. -/
theorem cover (i : S50000x128.Idx) : ∃ t : Fin cfg6.N, (cfg6.win 9).flush t = true ∧ i ∈ ((cfg6.win 9).blk t).view.set := by
  have hi0 : (i 0).val < 50000 := (i 0).isLt
  have hi1 : (i 1).val < 128 := (i 1).isLt
  have hlt : (i 0).val / 2000 < cfg6.N := by rw [hN]; omega
  obtain ⟨-, -, -, -, -, -, -, -, -, ⟨e0, e1⟩⟩ := idx_facts ⟨(i 0).val / 2000, hlt⟩
  refine ⟨⟨(i 0).val / 2000, hlt⟩, Gen.flush6_9 _, ?_⟩
  rw [mem_blk]
  intro a
  match a with
  | ⟨0, _⟩ =>
    show win6_9.index ⟨(i 0).val / 2000, hlt⟩ (0 : Fin 2) * 2000 ≤ (i 0).val ∧ (i 0).val < win6_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win6_9.index ⟨(i 0).val / 2000, hlt⟩ (1 : Fin 2) * 128 ≤ (i 1).val ∧ (i 1).val < win6_9.index ⟨(i 0).val / 2000, hlt⟩ (1 : Fin 2) * 128 + 128
    rw [e1]; omega

/-- THE OUTPUT ARRAY after the region: the node type's update of the arrays the region finds, row by row. -/
theorem value (c : Dev nD) :
    (GenP.dat6 V c).arrAt 9 cfg6.N = Cert.Spec.reluArr 50000 (V c main_v377) (V c main_v413) (V c main_v275) (V c main_v415) (V c main_v417)
      (fun k => V c main_v426 (ix2 0 k)) (V c main_v421) (V c main_v423) (fun k => V c main_v427 (ix2 0 k)) :=
  (GenP.dat6 V c).arrAt_eq_of_cover 9 (G V c) (fun t _ => flushed_eq V c t) cover

end Cert.KernelIdeal.Region6

end
-- ==== Proof.StepK2c.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region6

set_option maxRecDepth 16384

noncomputable section

namespace Cert.StepK2c

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_2 X c (Proc.devRef .tc Cert.KernelIdeal.main_v428)
    = Cert.Spec.reluArr 50000 (A1_2 X c (Proc.devRef .tc Cert.KernelIdeal.main_v377))
        (A1_2 X c (Proc.devRef .tc Cert.KernelIdeal.main_v413))
        (A1_2 X c (Proc.devRef .tc Cert.KernelIdeal.main_v275))
        (A1_2 X c (Proc.devRef .tc Cert.KernelIdeal.main_v415))
        (A1_2 X c (Proc.devRef .tc Cert.KernelIdeal.main_v417))
        (fun k => A1_2 X c (Proc.devRef .tc Cert.KernelIdeal.main_v426) (ix2 0 k))
        (A1_2 X c (Proc.devRef .tc Cert.KernelIdeal.main_v421))
        (A1_2 X c (Proc.devRef .tc Cert.KernelIdeal.main_v423))
        (fun k => A1_2 X c (Proc.devRef .tc Cert.KernelIdeal.main_v427) (ix2 0 k)) := by
  rw [A6_2_of_ne X c Cert.KernelIdeal.main_v428 (by decide)]
  dsimp only [A5_2, Cert.KernelIdeal.Gen.hostOps8]
  after_results_simp
  rw [A4_2_of_ne X c Cert.KernelIdeal.main_v428 (by decide)]
  dsimp only [A3_2, Cert.KernelIdeal.Gen.hostOps7]
  after_results_simp
  have e6 : A2_2 X c (Proc.devRef .tc Cert.KernelIdeal.main_v428) = (Cert.KernelIdeal.GenP.dat6 (U1_2 X) c).arrAt 9 Cert.KernelIdeal.cfg6.N := A2_2_arr X c 9
  rw [e6, Cert.KernelIdeal.Region6.value]

end Cert.StepK2c

end
-- ==== Proof.StepR2c.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR1d
import proofs.«141482_j13434657702128_1_alg».proof.Proof.RefRead
import proofs.«141482_j13434657702128_1_alg».proof.Proof.RefOps2
import proofs.«141482_j13434657702128_1_alg».proof.Proof.FastRead

set_option maxRecDepth 16384

noncomputable section

namespace Cert.StepR2c

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 50000
  a2 : Cert.Spec.Rows 50000
  h : Cert.Spec.Rows 50000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R2 (F := Ideal)) Y (Proc.devRef .tc Cert.ReferenceIdeal.main_v573) = Cert.Spec.reluArr 50000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R2]
    after_results_fast
    simp only [TRef.toBuf, TRef.ofBuf, cast_eq]
    generalize hA1 : (Host.divf (Host.scatterAdd _ _ _ _) _ : FVec Ideal Cert.ReferenceIdeal.S50000x128 .f32) = A1
    generalize hA2 : (Host.divf (Host.scatterAdd _ _ _ _) _ : FVec Ideal Cert.ReferenceIdeal.S50000x128 .f32) = A2
    rw [Cert.ReferenceIdeal.RefRead.refRelu_50000]
    subst hA1 hA2
    with_reducible rfl

end Cert.StepR2c

end
-- ==== Proof.StepJ2c.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR2c
import proofs.«141482_j13434657702128_1_alg».proof.Proof.StepLib
import proofs.«141482_j13434657702128_1_alg».proof.Proof.FastRead
import Idealize.ShloMosaic.Lib.ValueLayout

set_option maxRecDepth 16384

noncomputable section

namespace Cert.StepJ2c

open Idealize.ShloMosaic Idealize.ShloMosaic.TcCoe Idealize.SL.Sem Idealize.ShloMosaic.StableHlo Idealize.ShloMosaic.ValueIdx
open Cert.KernelIdeal.KFold

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A1_2 X c (Proc.devRef .tc Cert.KernelIdeal.main_v377)) = (Cert.StepR2c.refSide Y).a1)
    ∧ ((A1_2 X c (Proc.devRef .tc Cert.KernelIdeal.main_v413)) = (Cert.StepR2c.refSide Y).a2)
    ∧ ((A1_2 X c (Proc.devRef .tc Cert.KernelIdeal.main_v275)) = (Cert.StepR2c.refSide Y).h)
    ∧ ((A1_2 X c (Proc.devRef .tc Cert.KernelIdeal.main_v415)) = (Cert.StepR2c.refSide Y).wl1)
    ∧ ((A1_2 X c (Proc.devRef .tc Cert.KernelIdeal.main_v417)) = (Cert.StepR2c.refSide Y).wr1)
    ∧ ((fun k => A1_2 X c (Proc.devRef .tc Cert.KernelIdeal.main_v426) (ix2 0 k)) = (Cert.StepR2c.refSide Y).b1)
    ∧ ((A1_2 X c (Proc.devRef .tc Cert.KernelIdeal.main_v421)) = (Cert.StepR2c.refSide Y).wl2)
    ∧ ((A1_2 X c (Proc.devRef .tc Cert.KernelIdeal.main_v423)) = (Cert.StepR2c.refSide Y).wr2)
    ∧ ((fun k => A1_2 X c (Proc.devRef .tc Cert.KernelIdeal.main_v427) (ix2 0 k)) = (Cert.StepR2c.refSide Y).b2) := by
  dsimp only [A1_2, Cert.KernelIdeal.Gen.hostOps6]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR2c.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ2c

end
-- ==== Proof.Step2c.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK2c
import proofs.«141482_j13434657702128_1_alg».proof.Proof.StepJ2c

set_option maxRecDepth 16384

noncomputable section

namespace Cert.Step2c

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_2 X c (Proc.devRef .tc Cert.KernelIdeal.main_v428) = after (Cert.ReferenceIdeal.RefOps.R2 (F := Ideal)) Y (Proc.devRef .tc Cert.ReferenceIdeal.main_v573) := by
  obtain ⟨j1, j2, j3, j4, j5, j6, j7, j8, j9⟩ := Cert.StepJ2c.join X Y c hc hm hd h_arg3 h_arg4 h_arg5 h_arg6 h_arg7 h_arg8 h_arg9 h_arg10 h_arg11 h_arg12 h_arg13 h_arg14 h_arg15 h_arg16 h_arg17
  exact (Cert.StepK2c.kernel X c).trans ((reluArr_congr j1 j2 j3 j4 j5 j6 j7 j8 j9).trans (Cert.StepR2c.refSide Y).eq.symm)

end Cert.Step2c

end
-- ==== Proof.Region7.lean ====
/-
  The output array of node-update region 7 (30000 rows, 15 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 15 blocks cover all
  30000 rows (row i lies in the block of point i / 2000), hence the array after the region is Spec.reluArr of those arrays.
-/
import proofs.«141482_j13434657702128_1_alg».proof.Proof.FrameKIR2
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region7

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 15 points. -/
theorem hN : cfg7.N = 15 := Gen.N_7

/-- The index maps over the grid: the three row windows and the output move with the point along the rows and
    stay at column block 0; the weight and bias windows stay at block (0, 0). -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = 0 ∧ win7_7.index t (1 : Fin 2) = 0)
    ∧ (win7_8.index t (0 : Fin 2) = 0 ∧ win7_8.index t (1 : Fin 2) = 0)
    ∧ (win7_9.index t (0 : Fin 2) = t.val ∧ win7_9.index t (1 : Fin 2) = 0) :=
  (by decide +kernel : ∀ t : Fin grid7.N, _)

/-! ## Each input block as rows of its array -/

/-- Row r of the first aggregated block at point t is row 2000·t + r of its array. -/
theorem blk0_apply (c : Dev nD) (t : Fin cfg7.N) (r : Fin 2000) (k : Fin 128) (i : Fin 30000) (hi : i.val = 2000 * t.val + r.val) :
    (GenP.iblk7 V c 0 t : S2000x128.Idx → EReal) (ix2 r k) = (V c main_v323 : S30000x128.Idx → EReal) (ix2 i k) := by
  obtain ⟨⟨e0, e1⟩, -⟩ := idx_facts t
  unfold GenP.iblk7
  rw [View.read_apply]
  show V c main_v323 _ = V c main_v323 _
  congr 1
  funext a
  apply Fin.ext
  match a with
  | ⟨0, _⟩ => show win7_0.index t (0 : Fin 2) * 2000 + 1 * r.val = i.val; omega
  | ⟨1, _⟩ => show win7_0.index t (1 : Fin 2) * 128 + 1 * k.val = k.val; omega

/-- Row r of the second aggregated block at point t is row 2000·t + r of its array. -/
theorem blk1_apply (c : Dev nD) (t : Fin cfg7.N) (r : Fin 2000) (k : Fin 128) (i : Fin 30000) (hi : i.val = 2000 * t.val + r.val) :
    (GenP.iblk7 V c 1 t : S2000x128.Idx → EReal) (ix2 r k) = (V c main_v395 : S30000x128.Idx → EReal) (ix2 i k) := by
  obtain ⟨-, ⟨e0, e1⟩, -⟩ := idx_facts t
  unfold GenP.iblk7
  rw [View.read_apply]
  show V c main_v395 _ = V c main_v395 _
  congr 1
  funext a
  apply Fin.ext
  match a with
  | ⟨0, _⟩ => show win7_1.index t (0 : Fin 2) * 2000 + 1 * r.val = i.val; omega
  | ⟨1, _⟩ => show win7_1.index t (1 : Fin 2) * 128 + 1 * k.val = k.val; omega

/-- Row r of the feature block at point t is row 2000·t + r of the feature array. -/
theorem blk2_apply (c : Dev nD) (t : Fin cfg7.N) (r : Fin 2000) (k : Fin 128) (i : Fin 30000) (hi : i.val = 2000 * t.val + r.val) :
    (GenP.iblk7 V c 2 t : S2000x128.Idx → EReal) (ix2 r k) = (V c main_v290 : S30000x128.Idx → EReal) (ix2 i k) := by
  obtain ⟨-, -, ⟨e0, e1⟩, -⟩ := idx_facts t
  unfold GenP.iblk7
  rw [View.read_apply]
  show V c main_v290 _ = V c main_v290 _
  congr 1
  funext a
  apply Fin.ext
  match a with
  | ⟨0, _⟩ => show win7_2.index t (0 : Fin 2) * 2000 + 1 * r.val = i.val; omega
  | ⟨1, _⟩ => show win7_2.index t (1 : Fin 2) * 128 + 1 * k.val = k.val; omega

/-- A weight window's one block is its whole matrix. -/
theorem blk3_eq (c : Dev nD) (t : Fin cfg7.N) :
    (GenP.iblk7 V c 3 t : S128x128.Idx → EReal) = (V c main_v430 : S128x128.Idx → EReal) := by
  obtain ⟨-, -, -, ⟨e0, e1⟩, -⟩ := idx_facts t
  funext x
  unfold GenP.iblk7
  rw [View.read_apply]
  show V c main_v430 _ = V c main_v430 _
  congr 1
  funext a
  apply Fin.ext
  match a with
  | ⟨0, _⟩ => show win7_3.index t (0 : Fin 2) * 128 + 1 * (x 0).val = (x 0).val; omega
  | ⟨1, _⟩ => show win7_3.index t (1 : Fin 2) * 128 + 1 * (x 1).val = (x 1).val; omega

theorem blk4_eq (c : Dev nD) (t : Fin cfg7.N) :
    (GenP.iblk7 V c 4 t : S128x128.Idx → EReal) = (V c main_v432 : S128x128.Idx → EReal) := by
  obtain ⟨-, -, -, -, ⟨e0, e1⟩, -⟩ := idx_facts t
  funext x
  unfold GenP.iblk7
  rw [View.read_apply]
  show V c main_v432 _ = V c main_v432 _
  congr 1
  funext a
  apply Fin.ext
  match a with
  | ⟨0, _⟩ => show win7_4.index t (0 : Fin 2) * 128 + 1 * (x 0).val = (x 0).val; omega
  | ⟨1, _⟩ => show win7_4.index t (1 : Fin 2) * 128 + 1 * (x 1).val = (x 1).val; omega

/-- A bias window's one block is its whole row. -/
theorem blk5_eq (c : Dev nD) (t : Fin cfg7.N) :
    (GenP.iblk7 V c 5 t : S1x128.Idx → EReal) = (V c main_v441 : S1x128.Idx → EReal) := by
  obtain ⟨-, -, -, -, -, ⟨e0, e1⟩, -⟩ := idx_facts t
  funext x
  unfold GenP.iblk7
  rw [View.read_apply]
  show V c main_v441 _ = V c main_v441 _
  congr 1
  funext a
  apply Fin.ext
  match a with
  | ⟨0, _⟩ => show win7_5.index t (0 : Fin 2) * 1 + 1 * (x 0).val = (x 0).val; omega
  | ⟨1, _⟩ => show win7_5.index t (1 : Fin 2) * 128 + 1 * (x 1).val = (x 1).val; omega

theorem blk6_eq (c : Dev nD) (t : Fin cfg7.N) :
    (GenP.iblk7 V c 6 t : S128x128.Idx → EReal) = (V c main_v436 : S128x128.Idx → EReal) := by
  obtain ⟨-, -, -, -, -, -, ⟨e0, e1⟩, -⟩ := idx_facts t
  funext x
  unfold GenP.iblk7
  rw [View.read_apply]
  show V c main_v436 _ = V c main_v436 _
  congr 1
  funext a
  apply Fin.ext
  match a with
  | ⟨0, _⟩ => show win7_6.index t (0 : Fin 2) * 128 + 1 * (x 0).val = (x 0).val; omega
  | ⟨1, _⟩ => show win7_6.index t (1 : Fin 2) * 128 + 1 * (x 1).val = (x 1).val; omega

theorem blk7_eq (c : Dev nD) (t : Fin cfg7.N) :
    (GenP.iblk7 V c 7 t : S128x128.Idx → EReal) = (V c main_v438 : S128x128.Idx → EReal) := by
  obtain ⟨-, -, -, -, -, -, -, ⟨e0, e1⟩, -⟩ := idx_facts t
  funext x
  unfold GenP.iblk7
  rw [View.read_apply]
  show V c main_v438 _ = V c main_v438 _
  congr 1
  funext a
  apply Fin.ext
  match a with
  | ⟨0, _⟩ => show win7_7.index t (0 : Fin 2) * 128 + 1 * (x 0).val = (x 0).val; omega
  | ⟨1, _⟩ => show win7_7.index t (1 : Fin 2) * 128 + 1 * (x 1).val = (x 1).val; omega

theorem blk8_eq (c : Dev nD) (t : Fin cfg7.N) :
    (GenP.iblk7 V c 8 t : S1x128.Idx → EReal) = (V c main_v442 : S1x128.Idx → EReal) := by
  obtain ⟨-, -, -, -, -, -, -, -, ⟨e0, e1⟩, -⟩ := idx_facts t
  funext x
  unfold GenP.iblk7
  rw [View.read_apply]
  show V c main_v442 _ = V c main_v442 _
  congr 1
  funext a
  apply Fin.ext
  match a with
  | ⟨0, _⟩ => show win7_8.index t (0 : Fin 2) * 1 + 1 * (x 0).val = (x 0).val; omega
  | ⟨1, _⟩ => show win7_8.index t (1 : Fin 2) * 128 + 1 * (x 1).val = (x 1).val; omega

/-! ## The output block, and the array -/

/-- Entry (r, j) of the output block at point t sits at (2000·t + r, j) of the output array. -/
theorem emb_out (t : Fin cfg7.N) (r : Fin 2000) (j : Fin 128) (i : Fin 30000) (hi : i.val = 2000 * t.val + r.val) :
    (((cfg7.win 9).blk t).view.emb (ix2 r j) : S30000x128.Idx) = ix2 i j := by
  obtain ⟨-, -, -, -, -, -, -, -, -, ⟨e0, e1⟩⟩ := idx_facts t
  funext a
  apply Fin.ext
  match a with
  | ⟨0, _⟩ => show win7_9.index t (0 : Fin 2) * 2000 + 1 * r.val = i.val; omega
  | ⟨1, _⟩ => show win7_9.index t (1 : Fin 2) * 128 + 1 * j.val = j.val; omega

/-- The node type's update as one function of the arrays the region finds. -/
abbrev G (c : Dev nD) : S30000x128.Idx → EReal :=
  Cert.Spec.reluArr 30000 (V c main_v323) (V c main_v395) (V c main_v290) (V c main_v430) (V c main_v432)
    (fun k => V c main_v441 (ix2 0 k)) (V c main_v436) (V c main_v438) (fun k => V c main_v442 (ix2 0 k))

/-- What point t writes back is block t of the update: rows 2000·t … 2000·t + 1999. -/
theorem flushed_eq (c : Dev nD) (t : Fin cfg7.N) :
    (GenP.dat7 V c).flushed 9 t = ((cfg7.win 9).blk t).view.read (Elt Ideal) (G V c) := by
  show (cfg7.win 9).cut (grid7.coords t) ((GenP.dat7 V c).after 9 t) = _
  rw [GenP.after7_9]
  unfold GenP.out7_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 15 := hN ▸ t.isLt
  have hi : (⟨2000 * t.val + r.val, by have := r.isLt; omega⟩ : Fin 30000).val = 2000 * t.val + r.val := rfl
  show Gen.k7_pay1 (Gen.k7_pay2 (GenP.iblk7 V c 0 t) (GenP.iblk7 V c 1 t) (GenP.iblk7 V c 2 t) (GenP.iblk7 V c 3 t) (GenP.iblk7 V c 4 t)
      (GenP.iblk7 V c 6 t) (GenP.iblk7 V c 7 t) (GenP.iblk7 V c 5 t) (GenP.iblk7 V c 8 t)) (Scalar.ofBits (F := Ideal) .f32 0x3F000000#32) (ix2 r j)
    = G V c (((cfg7.win 9).blk t).view.emb (ix2 r j))
  rw [Block.pay7_apply, emb_out t r j _ hi]
  unfold G
  rw [Cert.Spec.reluArr_apply, blk3_eq, blk4_eq, blk5_eq, blk6_eq, blk7_eq, blk8_eq]
  have h0 : (fun k => (GenP.iblk7 V c 0 t : S2000x128.Idx → EReal) (ix2 r k)) = Cert.Spec.rowOf (V c main_v323) ⟨2000 * t.val + r.val, by have := r.isLt; omega⟩ :=
    funext fun k => blk0_apply V c t r k _ hi
  have h1 : (fun k => (GenP.iblk7 V c 1 t : S2000x128.Idx → EReal) (ix2 r k)) = Cert.Spec.rowOf (V c main_v395) ⟨2000 * t.val + r.val, by have := r.isLt; omega⟩ :=
    funext fun k => blk1_apply V c t r k _ hi
  have h2 : (fun k => (GenP.iblk7 V c 2 t : S2000x128.Idx → EReal) (ix2 r k)) = Cert.Spec.rowOf (V c main_v290) ⟨2000 * t.val + r.val, by have := r.isLt; omega⟩ :=
    funext fun k => blk2_apply V c t r k _ hi
  rw [h0, h1, h2]

/-- An index of the output array is in point t's block iff each coordinate is in the block's range. -/
theorem mem_blk (t : Fin cfg7.N) (i : S30000x128.Idx) :
    i ∈ ((cfg7.win 9).blk t).view.set ↔ ∀ a : Fin 2, win7_9.index t a * S2000x128.size a ≤ (i a).val ∧ (i a).val < win7_9.index t a * S2000x128.size a + S2000x128.size a := by
  show i ∈ ((View.whole main_v443).slice (win7_9.rect t)).set ↔ _
  rw [View.set_slice_whole, Rect.mem_set_unit]
  exact Iff.rfl

/-- Every index of the output array is in the block of the point its row over 2000 names. -/
theorem cover (i : S30000x128.Idx) : ∃ t : Fin cfg7.N, (cfg7.win 9).flush t = true ∧ i ∈ ((cfg7.win 9).blk t).view.set := by
  have hi0 : (i 0).val < 30000 := (i 0).isLt
  have hi1 : (i 1).val < 128 := (i 1).isLt
  have hlt : (i 0).val / 2000 < cfg7.N := by rw [hN]; omega
  obtain ⟨-, -, -, -, -, -, -, -, -, ⟨e0, e1⟩⟩ := idx_facts ⟨(i 0).val / 2000, hlt⟩
  refine ⟨⟨(i 0).val / 2000, hlt⟩, Gen.flush7_9 _, ?_⟩
  rw [mem_blk]
  intro a
  match a with
  | ⟨0, _⟩ =>
    show win7_9.index ⟨(i 0).val / 2000, hlt⟩ (0 : Fin 2) * 2000 ≤ (i 0).val ∧ (i 0).val < win7_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win7_9.index ⟨(i 0).val / 2000, hlt⟩ (1 : Fin 2) * 128 ≤ (i 1).val ∧ (i 1).val < win7_9.index ⟨(i 0).val / 2000, hlt⟩ (1 : Fin 2) * 128 + 128
    rw [e1]; omega

/-- THE OUTPUT ARRAY after the region: the node type's update of the arrays the region finds, row by row. -/
theorem value (c : Dev nD) :
    (GenP.dat7 V c).arrAt 9 cfg7.N = Cert.Spec.reluArr 30000 (V c main_v323) (V c main_v395) (V c main_v290) (V c main_v430) (V c main_v432)
      (fun k => V c main_v441 (ix2 0 k)) (V c main_v436) (V c main_v438) (fun k => V c main_v442 (ix2 0 k)) :=
  (GenP.dat7 V c).arrAt_eq_of_cover 9 (G V c) (fun t _ => flushed_eq V c t) cover

end Cert.KernelIdeal.Region7

end
-- ==== Proof.StepK2m.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region7

set_option maxRecDepth 16384

noncomputable section

namespace Cert.StepK2m

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_2 X c (Proc.devRef .tc Cert.KernelIdeal.main_v443)
    = Cert.Spec.reluArr 30000 (A3_2 X c (Proc.devRef .tc Cert.KernelIdeal.main_v323))
        (A3_2 X c (Proc.devRef .tc Cert.KernelIdeal.main_v395))
        (A3_2 X c (Proc.devRef .tc Cert.KernelIdeal.main_v290))
        (A3_2 X c (Proc.devRef .tc Cert.KernelIdeal.main_v430))
        (A3_2 X c (Proc.devRef .tc Cert.KernelIdeal.main_v432))
        (fun k => A3_2 X c (Proc.devRef .tc Cert.KernelIdeal.main_v441) (ix2 0 k))
        (A3_2 X c (Proc.devRef .tc Cert.KernelIdeal.main_v436))
        (A3_2 X c (Proc.devRef .tc Cert.KernelIdeal.main_v438))
        (fun k => A3_2 X c (Proc.devRef .tc Cert.KernelIdeal.main_v442) (ix2 0 k)) := by
  rw [A6_2_of_ne X c Cert.KernelIdeal.main_v443 (by decide)]
  dsimp only [A5_2, Cert.KernelIdeal.Gen.hostOps8]
  after_results_simp
  have e7 : A4_2 X c (Proc.devRef .tc Cert.KernelIdeal.main_v443) = (Cert.KernelIdeal.GenP.dat7 (U3_2 X) c).arrAt 9 Cert.KernelIdeal.cfg7.N := A4_2_arr X c 9
  rw [e7, Cert.KernelIdeal.Region7.value]

end Cert.StepK2m

end
-- ==== Proof.StepR2m.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR2c
import proofs.«141482_j13434657702128_1_alg».proof.Proof.RefRead
import proofs.«141482_j13434657702128_1_alg».proof.Proof.RefOps2
import proofs.«141482_j13434657702128_1_alg».proof.Proof.FastRead

set_option maxRecDepth 16384

noncomputable section

namespace Cert.StepR2m

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 30000
  a2 : Cert.Spec.Rows 30000
  h : Cert.Spec.Rows 30000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R2 (F := Ideal)) Y (Proc.devRef .tc Cert.ReferenceIdeal.main_v574) = Cert.Spec.reluArr 30000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R2]
    after_results_fast
    simp only [TRef.toBuf, TRef.ofBuf, cast_eq]
    generalize hA1 : (Host.divf (Host.scatterAdd _ _ _ _) _ : FVec Ideal Cert.ReferenceIdeal.S30000x128 .f32) = A1
    generalize hA2 : (Host.divf (Host.scatterAdd _ _ _ _) _ : FVec Ideal Cert.ReferenceIdeal.S30000x128 .f32) = A2
    rw [Cert.ReferenceIdeal.RefRead.refRelu_30000]
    subst hA1 hA2
    with_reducible rfl

end Cert.StepR2m

end
-- ==== Proof.StepJ2m.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR2m
import proofs.«141482_j13434657702128_1_alg».proof.Proof.StepLib
import proofs.«141482_j13434657702128_1_alg».proof.Proof.FastRead
import Idealize.ShloMosaic.Lib.ValueLayout

set_option maxRecDepth 16384

noncomputable section

namespace Cert.StepJ2m

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_2_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec6 w ≠ b) :
    A2_2 X c (no_index (Proc.devRef .tc b)) = A1_2 X c (Proc.devRef .tc b) := A2_2_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A3_2 X c (Proc.devRef .tc Cert.KernelIdeal.main_v323)) = (Cert.StepR2m.refSide Y).a1)
    ∧ ((A3_2 X c (Proc.devRef .tc Cert.KernelIdeal.main_v395)) = (Cert.StepR2m.refSide Y).a2)
    ∧ ((A3_2 X c (Proc.devRef .tc Cert.KernelIdeal.main_v290)) = (Cert.StepR2m.refSide Y).h)
    ∧ ((A3_2 X c (Proc.devRef .tc Cert.KernelIdeal.main_v430)) = (Cert.StepR2m.refSide Y).wl1)
    ∧ ((A3_2 X c (Proc.devRef .tc Cert.KernelIdeal.main_v432)) = (Cert.StepR2m.refSide Y).wr1)
    ∧ ((fun k => A3_2 X c (Proc.devRef .tc Cert.KernelIdeal.main_v441) (ix2 0 k)) = (Cert.StepR2m.refSide Y).b1)
    ∧ ((A3_2 X c (Proc.devRef .tc Cert.KernelIdeal.main_v436)) = (Cert.StepR2m.refSide Y).wl2)
    ∧ ((A3_2 X c (Proc.devRef .tc Cert.KernelIdeal.main_v438)) = (Cert.StepR2m.refSide Y).wr2)
    ∧ ((fun k => A3_2 X c (Proc.devRef .tc Cert.KernelIdeal.main_v442) (ix2 0 k)) = (Cert.StepR2m.refSide Y).b2) := by
  dsimp only [A3_2, Cert.KernelIdeal.Gen.hostOps7]
  after_results_fast
  simp (disch := decide) only [A2_2_of_ne']
  dsimp only [A1_2, Cert.KernelIdeal.Gen.hostOps6]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR2m.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ2m

end
-- ==== Proof.Step2m.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK2m
import proofs.«141482_j13434657702128_1_alg».proof.Proof.StepJ2m

set_option maxRecDepth 16384

noncomputable section

namespace Cert.Step2m

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_2 X c (Proc.devRef .tc Cert.KernelIdeal.main_v443) = after (Cert.ReferenceIdeal.RefOps.R2 (F := Ideal)) Y (Proc.devRef .tc Cert.ReferenceIdeal.main_v574) := by
  obtain ⟨j1, j2, j3, j4, j5, j6, j7, j8, j9⟩ := Cert.StepJ2m.join X Y c hc hm hd h_arg3 h_arg4 h_arg5 h_arg6 h_arg7 h_arg8 h_arg9 h_arg10 h_arg11 h_arg12 h_arg13 h_arg14 h_arg15 h_arg16 h_arg17
  exact (Cert.StepK2m.kernel X c).trans ((reluArr_congr j1 j2 j3 j4 j5 j6 j7 j8 j9).trans (Cert.StepR2m.refSide Y).eq.symm)

end Cert.Step2m

end
-- ==== Proof.Region8.lean ====
/-
  The output array of node-update region 8 (10000 rows, 5 grid points).  Every grid point t writes back one block
  of 2000 rows of the output; entry (r, j) of that block is the update Spec.combRelu of row r of the three row blocks,
  which are rows 2000·t + r of their arrays, with the four weight matrices and the two bias rows read whole.  So what
  point t writes is block t of ONE function of the arrays the region finds, Spec.reluArr; the 5 blocks cover all
  10000 rows (row i lies in the block of point i / 2000), hence the array after the region is Spec.reluArr of those arrays.
-/
import proofs.«141482_j13434657702128_1_alg».proof.Proof.FrameKIR2
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region8

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 5 points. -/
theorem hN : cfg8.N = 5 := Gen.N_8

/-- The index maps over the grid: the three row windows and the output move with the point along the rows and
    stay at column block 0; the weight and bias windows stay at block (0, 0). -/
theorem idx_facts : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0)
    ∧ (win8_8.index t (0 : Fin 2) = 0 ∧ win8_8.index t (1 : Fin 2) = 0)
    ∧ (win8_9.index t (0 : Fin 2) = t.val ∧ win8_9.index t (1 : Fin 2) = 0) :=
  (by decide +kernel : ∀ t : Fin grid8.N, _)

/-! ## Each input block as rows of its array -/

/-- Row r of the first aggregated block at point t is row 2000·t + r of its array. -/
theorem blk0_apply (c : Dev nD) (t : Fin cfg8.N) (r : Fin 2000) (k : Fin 128) (i : Fin 10000) (hi : i.val = 2000 * t.val + r.val) :
    (GenP.iblk8 V c 0 t : S2000x128.Idx → EReal) (ix2 r k) = (V c main_v341 : S10000x128.Idx → EReal) (ix2 i k) := by
  obtain ⟨⟨e0, e1⟩, -⟩ := idx_facts t
  unfold GenP.iblk8
  rw [View.read_apply]
  show V c main_v341 _ = V c main_v341 _
  congr 1
  funext a
  apply Fin.ext
  match a with
  | ⟨0, _⟩ => show win8_0.index t (0 : Fin 2) * 2000 + 1 * r.val = i.val; omega
  | ⟨1, _⟩ => show win8_0.index t (1 : Fin 2) * 128 + 1 * k.val = k.val; omega

/-- Row r of the second aggregated block at point t is row 2000·t + r of its array. -/
theorem blk1_apply (c : Dev nD) (t : Fin cfg8.N) (r : Fin 2000) (k : Fin 128) (i : Fin 10000) (hi : i.val = 2000 * t.val + r.val) :
    (GenP.iblk8 V c 1 t : S2000x128.Idx → EReal) (ix2 r k) = (V c main_v359 : S10000x128.Idx → EReal) (ix2 i k) := by
  obtain ⟨-, ⟨e0, e1⟩, -⟩ := idx_facts t
  unfold GenP.iblk8
  rw [View.read_apply]
  show V c main_v359 _ = V c main_v359 _
  congr 1
  funext a
  apply Fin.ext
  match a with
  | ⟨0, _⟩ => show win8_1.index t (0 : Fin 2) * 2000 + 1 * r.val = i.val; omega
  | ⟨1, _⟩ => show win8_1.index t (1 : Fin 2) * 128 + 1 * k.val = k.val; omega

/-- Row r of the feature block at point t is row 2000·t + r of the feature array. -/
theorem blk2_apply (c : Dev nD) (t : Fin cfg8.N) (r : Fin 2000) (k : Fin 128) (i : Fin 10000) (hi : i.val = 2000 * t.val + r.val) :
    (GenP.iblk8 V c 2 t : S2000x128.Idx → EReal) (ix2 r k) = (V c main_v305 : S10000x128.Idx → EReal) (ix2 i k) := by
  obtain ⟨-, -, ⟨e0, e1⟩, -⟩ := idx_facts t
  unfold GenP.iblk8
  rw [View.read_apply]
  show V c main_v305 _ = V c main_v305 _
  congr 1
  funext a
  apply Fin.ext
  match a with
  | ⟨0, _⟩ => show win8_2.index t (0 : Fin 2) * 2000 + 1 * r.val = i.val; omega
  | ⟨1, _⟩ => show win8_2.index t (1 : Fin 2) * 128 + 1 * k.val = k.val; omega

/-- A weight window's one block is its whole matrix. -/
theorem blk3_eq (c : Dev nD) (t : Fin cfg8.N) :
    (GenP.iblk8 V c 3 t : S128x128.Idx → EReal) = (V c main_v445 : S128x128.Idx → EReal) := by
  obtain ⟨-, -, -, ⟨e0, e1⟩, -⟩ := idx_facts t
  funext x
  unfold GenP.iblk8
  rw [View.read_apply]
  show V c main_v445 _ = V c main_v445 _
  congr 1
  funext a
  apply Fin.ext
  match a with
  | ⟨0, _⟩ => show win8_3.index t (0 : Fin 2) * 128 + 1 * (x 0).val = (x 0).val; omega
  | ⟨1, _⟩ => show win8_3.index t (1 : Fin 2) * 128 + 1 * (x 1).val = (x 1).val; omega

theorem blk4_eq (c : Dev nD) (t : Fin cfg8.N) :
    (GenP.iblk8 V c 4 t : S128x128.Idx → EReal) = (V c main_v447 : S128x128.Idx → EReal) := by
  obtain ⟨-, -, -, -, ⟨e0, e1⟩, -⟩ := idx_facts t
  funext x
  unfold GenP.iblk8
  rw [View.read_apply]
  show V c main_v447 _ = V c main_v447 _
  congr 1
  funext a
  apply Fin.ext
  match a with
  | ⟨0, _⟩ => show win8_4.index t (0 : Fin 2) * 128 + 1 * (x 0).val = (x 0).val; omega
  | ⟨1, _⟩ => show win8_4.index t (1 : Fin 2) * 128 + 1 * (x 1).val = (x 1).val; omega

/-- A bias window's one block is its whole row. -/
theorem blk5_eq (c : Dev nD) (t : Fin cfg8.N) :
    (GenP.iblk8 V c 5 t : S1x128.Idx → EReal) = (V c main_v456 : S1x128.Idx → EReal) := by
  obtain ⟨-, -, -, -, -, ⟨e0, e1⟩, -⟩ := idx_facts t
  funext x
  unfold GenP.iblk8
  rw [View.read_apply]
  show V c main_v456 _ = V c main_v456 _
  congr 1
  funext a
  apply Fin.ext
  match a with
  | ⟨0, _⟩ => show win8_5.index t (0 : Fin 2) * 1 + 1 * (x 0).val = (x 0).val; omega
  | ⟨1, _⟩ => show win8_5.index t (1 : Fin 2) * 128 + 1 * (x 1).val = (x 1).val; omega

theorem blk6_eq (c : Dev nD) (t : Fin cfg8.N) :
    (GenP.iblk8 V c 6 t : S128x128.Idx → EReal) = (V c main_v451 : S128x128.Idx → EReal) := by
  obtain ⟨-, -, -, -, -, -, ⟨e0, e1⟩, -⟩ := idx_facts t
  funext x
  unfold GenP.iblk8
  rw [View.read_apply]
  show V c main_v451 _ = V c main_v451 _
  congr 1
  funext a
  apply Fin.ext
  match a with
  | ⟨0, _⟩ => show win8_6.index t (0 : Fin 2) * 128 + 1 * (x 0).val = (x 0).val; omega
  | ⟨1, _⟩ => show win8_6.index t (1 : Fin 2) * 128 + 1 * (x 1).val = (x 1).val; omega

theorem blk7_eq (c : Dev nD) (t : Fin cfg8.N) :
    (GenP.iblk8 V c 7 t : S128x128.Idx → EReal) = (V c main_v453 : S128x128.Idx → EReal) := by
  obtain ⟨-, -, -, -, -, -, -, ⟨e0, e1⟩, -⟩ := idx_facts t
  funext x
  unfold GenP.iblk8
  rw [View.read_apply]
  show V c main_v453 _ = V c main_v453 _
  congr 1
  funext a
  apply Fin.ext
  match a with
  | ⟨0, _⟩ => show win8_7.index t (0 : Fin 2) * 128 + 1 * (x 0).val = (x 0).val; omega
  | ⟨1, _⟩ => show win8_7.index t (1 : Fin 2) * 128 + 1 * (x 1).val = (x 1).val; omega

theorem blk8_eq (c : Dev nD) (t : Fin cfg8.N) :
    (GenP.iblk8 V c 8 t : S1x128.Idx → EReal) = (V c main_v457 : S1x128.Idx → EReal) := by
  obtain ⟨-, -, -, -, -, -, -, -, ⟨e0, e1⟩, -⟩ := idx_facts t
  funext x
  unfold GenP.iblk8
  rw [View.read_apply]
  show V c main_v457 _ = V c main_v457 _
  congr 1
  funext a
  apply Fin.ext
  match a with
  | ⟨0, _⟩ => show win8_8.index t (0 : Fin 2) * 1 + 1 * (x 0).val = (x 0).val; omega
  | ⟨1, _⟩ => show win8_8.index t (1 : Fin 2) * 128 + 1 * (x 1).val = (x 1).val; omega

/-! ## The output block, and the array -/

/-- Entry (r, j) of the output block at point t sits at (2000·t + r, j) of the output array. -/
theorem emb_out (t : Fin cfg8.N) (r : Fin 2000) (j : Fin 128) (i : Fin 10000) (hi : i.val = 2000 * t.val + r.val) :
    (((cfg8.win 9).blk t).view.emb (ix2 r j) : S10000x128.Idx) = ix2 i j := by
  obtain ⟨-, -, -, -, -, -, -, -, -, ⟨e0, e1⟩⟩ := idx_facts t
  funext a
  apply Fin.ext
  match a with
  | ⟨0, _⟩ => show win8_9.index t (0 : Fin 2) * 2000 + 1 * r.val = i.val; omega
  | ⟨1, _⟩ => show win8_9.index t (1 : Fin 2) * 128 + 1 * j.val = j.val; omega

/-- The node type's update as one function of the arrays the region finds. -/
abbrev G (c : Dev nD) : S10000x128.Idx → EReal :=
  Cert.Spec.reluArr 10000 (V c main_v341) (V c main_v359) (V c main_v305) (V c main_v445) (V c main_v447)
    (fun k => V c main_v456 (ix2 0 k)) (V c main_v451) (V c main_v453) (fun k => V c main_v457 (ix2 0 k))

/-- What point t writes back is block t of the update: rows 2000·t … 2000·t + 1999. -/
theorem flushed_eq (c : Dev nD) (t : Fin cfg8.N) :
    (GenP.dat8 V c).flushed 9 t = ((cfg8.win 9).blk t).view.read (Elt Ideal) (G V c) := by
  show (cfg8.win 9).cut (grid8.coords t) ((GenP.dat8 V c).after 9 t) = _
  rw [GenP.after8_9]
  unfold GenP.out8_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 5 := hN ▸ t.isLt
  have hi : (⟨2000 * t.val + r.val, by have := r.isLt; omega⟩ : Fin 10000).val = 2000 * t.val + r.val := rfl
  show Gen.k8_pay1 (Gen.k8_pay2 (GenP.iblk8 V c 0 t) (GenP.iblk8 V c 1 t) (GenP.iblk8 V c 2 t) (GenP.iblk8 V c 3 t) (GenP.iblk8 V c 4 t)
      (GenP.iblk8 V c 6 t) (GenP.iblk8 V c 7 t) (GenP.iblk8 V c 5 t) (GenP.iblk8 V c 8 t)) (Scalar.ofBits (F := Ideal) .f32 0x3F000000#32) (ix2 r j)
    = G V c (((cfg8.win 9).blk t).view.emb (ix2 r j))
  rw [Block.pay8_apply, emb_out t r j _ hi]
  unfold G
  rw [Cert.Spec.reluArr_apply, blk3_eq, blk4_eq, blk5_eq, blk6_eq, blk7_eq, blk8_eq]
  have h0 : (fun k => (GenP.iblk8 V c 0 t : S2000x128.Idx → EReal) (ix2 r k)) = Cert.Spec.rowOf (V c main_v341) ⟨2000 * t.val + r.val, by have := r.isLt; omega⟩ :=
    funext fun k => blk0_apply V c t r k _ hi
  have h1 : (fun k => (GenP.iblk8 V c 1 t : S2000x128.Idx → EReal) (ix2 r k)) = Cert.Spec.rowOf (V c main_v359) ⟨2000 * t.val + r.val, by have := r.isLt; omega⟩ :=
    funext fun k => blk1_apply V c t r k _ hi
  have h2 : (fun k => (GenP.iblk8 V c 2 t : S2000x128.Idx → EReal) (ix2 r k)) = Cert.Spec.rowOf (V c main_v305) ⟨2000 * t.val + r.val, by have := r.isLt; omega⟩ :=
    funext fun k => blk2_apply V c t r k _ hi
  rw [h0, h1, h2]

/-- An index of the output array is in point t's block iff each coordinate is in the block's range. -/
theorem mem_blk (t : Fin cfg8.N) (i : S10000x128.Idx) :
    i ∈ ((cfg8.win 9).blk t).view.set ↔ ∀ a : Fin 2, win8_9.index t a * S2000x128.size a ≤ (i a).val ∧ (i a).val < win8_9.index t a * S2000x128.size a + S2000x128.size a := by
  show i ∈ ((View.whole main_v458).slice (win8_9.rect t)).set ↔ _
  rw [View.set_slice_whole, Rect.mem_set_unit]
  exact Iff.rfl

/-- Every index of the output array is in the block of the point its row over 2000 names. -/
theorem cover (i : S10000x128.Idx) : ∃ t : Fin cfg8.N, (cfg8.win 9).flush t = true ∧ i ∈ ((cfg8.win 9).blk t).view.set := by
  have hi0 : (i 0).val < 10000 := (i 0).isLt
  have hi1 : (i 1).val < 128 := (i 1).isLt
  have hlt : (i 0).val / 2000 < cfg8.N := by rw [hN]; omega
  obtain ⟨-, -, -, -, -, -, -, -, -, ⟨e0, e1⟩⟩ := idx_facts ⟨(i 0).val / 2000, hlt⟩
  refine ⟨⟨(i 0).val / 2000, hlt⟩, Gen.flush8_9 _, ?_⟩
  rw [mem_blk]
  intro a
  match a with
  | ⟨0, _⟩ =>
    show win8_9.index ⟨(i 0).val / 2000, hlt⟩ (0 : Fin 2) * 2000 ≤ (i 0).val ∧ (i 0).val < win8_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win8_9.index ⟨(i 0).val / 2000, hlt⟩ (1 : Fin 2) * 128 ≤ (i 1).val ∧ (i 1).val < win8_9.index ⟨(i 0).val / 2000, hlt⟩ (1 : Fin 2) * 128 + 128
    rw [e1]; omega

/-- THE OUTPUT ARRAY after the region: the node type's update of the arrays the region finds, row by row. -/
theorem value (c : Dev nD) :
    (GenP.dat8 V c).arrAt 9 cfg8.N = Cert.Spec.reluArr 10000 (V c main_v341) (V c main_v359) (V c main_v305) (V c main_v445) (V c main_v447)
      (fun k => V c main_v456 (ix2 0 k)) (V c main_v451) (V c main_v453) (fun k => V c main_v457 (ix2 0 k)) :=
  (GenP.dat8 V c).arrAt_eq_of_cover 9 (G V c) (fun t _ => flushed_eq V c t) cover

end Cert.KernelIdeal.Region8

end
-- ==== Proof.StepK2d.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region8

set_option maxRecDepth 16384

noncomputable section

namespace Cert.StepK2d

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_2 X c (Proc.devRef .tc Cert.KernelIdeal.main_v458)
    = Cert.Spec.reluArr 10000 (A5_2 X c (Proc.devRef .tc Cert.KernelIdeal.main_v341))
        (A5_2 X c (Proc.devRef .tc Cert.KernelIdeal.main_v359))
        (A5_2 X c (Proc.devRef .tc Cert.KernelIdeal.main_v305))
        (A5_2 X c (Proc.devRef .tc Cert.KernelIdeal.main_v445))
        (A5_2 X c (Proc.devRef .tc Cert.KernelIdeal.main_v447))
        (fun k => A5_2 X c (Proc.devRef .tc Cert.KernelIdeal.main_v456) (ix2 0 k))
        (A5_2 X c (Proc.devRef .tc Cert.KernelIdeal.main_v451))
        (A5_2 X c (Proc.devRef .tc Cert.KernelIdeal.main_v453))
        (fun k => A5_2 X c (Proc.devRef .tc Cert.KernelIdeal.main_v457) (ix2 0 k)) := by
  have e8 : A6_2 X c (Proc.devRef .tc Cert.KernelIdeal.main_v458) = (Cert.KernelIdeal.GenP.dat8 (U5_2 X) c).arrAt 9 Cert.KernelIdeal.cfg8.N := A6_2_arr X c 9
  rw [e8, Cert.KernelIdeal.Region8.value]

end Cert.StepK2d

end
-- ==== Proof.StepR2d.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR2m
import proofs.«141482_j13434657702128_1_alg».proof.Proof.RefRead
import proofs.«141482_j13434657702128_1_alg».proof.Proof.RefOps2
import proofs.«141482_j13434657702128_1_alg».proof.Proof.FastRead

set_option maxRecDepth 16384

noncomputable section

namespace Cert.StepR2d

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 10000
  a2 : Cert.Spec.Rows 10000
  h : Cert.Spec.Rows 10000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R2 (F := Ideal)) Y (Proc.devRef .tc Cert.ReferenceIdeal.main_v575) = Cert.Spec.reluArr 10000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R2]
    after_results_fast
    simp only [TRef.toBuf, TRef.ofBuf, cast_eq]
    generalize hA1 : (Host.divf (Host.scatterAdd _ _ _ _) _ : FVec Ideal Cert.ReferenceIdeal.S10000x128 .f32) = A1
    generalize hA2 : (Host.divf (Host.scatterAdd _ _ _ _) _ : FVec Ideal Cert.ReferenceIdeal.S10000x128 .f32) = A2
    rw [Cert.ReferenceIdeal.RefRead.refRelu_10000]
    subst hA1 hA2
    with_reducible rfl

end Cert.StepR2d

end
-- ==== Proof.StepJ2d.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR2d
import proofs.«141482_j13434657702128_1_alg».proof.Proof.StepLib
import proofs.«141482_j13434657702128_1_alg».proof.Proof.FastRead
import Idealize.ShloMosaic.Lib.ValueLayout

set_option maxRecDepth 16384

noncomputable section

namespace Cert.StepJ2d

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_2_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec6 w ≠ b) :
    A2_2 X c (no_index (Proc.devRef .tc b)) = A1_2 X c (Proc.devRef .tc b) := A2_2_of_ne X c b hb

/-- The region's exit contents at a buffer that is none of its arrays, stated for rewriting at any reference. -/
theorem A4_2_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec7 w ≠ b) :
    A4_2 X c (no_index (Proc.devRef .tc b)) = A3_2 X c (Proc.devRef .tc b) := A4_2_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A5_2 X c (Proc.devRef .tc Cert.KernelIdeal.main_v341)) = (Cert.StepR2d.refSide Y).a1)
    ∧ ((A5_2 X c (Proc.devRef .tc Cert.KernelIdeal.main_v359)) = (Cert.StepR2d.refSide Y).a2)
    ∧ ((A5_2 X c (Proc.devRef .tc Cert.KernelIdeal.main_v305)) = (Cert.StepR2d.refSide Y).h)
    ∧ ((A5_2 X c (Proc.devRef .tc Cert.KernelIdeal.main_v445)) = (Cert.StepR2d.refSide Y).wl1)
    ∧ ((A5_2 X c (Proc.devRef .tc Cert.KernelIdeal.main_v447)) = (Cert.StepR2d.refSide Y).wr1)
    ∧ ((fun k => A5_2 X c (Proc.devRef .tc Cert.KernelIdeal.main_v456) (ix2 0 k)) = (Cert.StepR2d.refSide Y).b1)
    ∧ ((A5_2 X c (Proc.devRef .tc Cert.KernelIdeal.main_v451)) = (Cert.StepR2d.refSide Y).wl2)
    ∧ ((A5_2 X c (Proc.devRef .tc Cert.KernelIdeal.main_v453)) = (Cert.StepR2d.refSide Y).wr2)
    ∧ ((fun k => A5_2 X c (Proc.devRef .tc Cert.KernelIdeal.main_v457) (ix2 0 k)) = (Cert.StepR2d.refSide Y).b2) := by
  dsimp only [A5_2, Cert.KernelIdeal.Gen.hostOps8]
  after_results_fast
  simp (disch := decide) only [A4_2_of_ne']
  dsimp only [A3_2, Cert.KernelIdeal.Gen.hostOps7]
  after_results_fast
  simp (disch := decide) only [A2_2_of_ne']
  dsimp only [A1_2, Cert.KernelIdeal.Gen.hostOps6]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR2d.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ2d

end
-- ==== Proof.Step2d.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK2d
import proofs.«141482_j13434657702128_1_alg».proof.Proof.StepJ2d

set_option maxRecDepth 16384

noncomputable section

namespace Cert.Step2d

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem reluArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.reluArr n A1 A2 H wl1 wr1 b1 wl2 wr2 b2 = Cert.Spec.reluArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v275) = Y (Proc.devRef .tc Cert.ReferenceIdeal.main_v381))
    (hm : X c (Proc.devRef .tc Cert.KernelIdeal.main_v290) = Y (Proc.devRef .tc Cert.ReferenceIdeal.main_v382))
    (hd : X c (Proc.devRef .tc Cert.KernelIdeal.main_v305) = Y (Proc.devRef .tc Cert.ReferenceIdeal.main_v383))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_2 X c (Proc.devRef .tc Cert.KernelIdeal.main_v458) = after (Cert.ReferenceIdeal.RefOps.R2 (F := Ideal)) Y (Proc.devRef .tc Cert.ReferenceIdeal.main_v575) := by
  obtain ⟨j1, j2, j3, j4, j5, j6, j7, j8, j9⟩ := Cert.StepJ2d.join X Y c hc hm hd h_arg3 h_arg4 h_arg5 h_arg6 h_arg7 h_arg8 h_arg9 h_arg10 h_arg11 h_arg12 h_arg13 h_arg14 h_arg15 h_arg16 h_arg17
  exact (Cert.StepK2d.kernel X c).trans ((reluArr_congr j1 j2 j3 j4 j5 j6 j7 j8 j9).trans (Cert.StepR2d.refSide Y).eq.symm)

end Cert.Step2d

end
-- ==== Proof.Region9.lean ====
/-
  The output array of node-update region 9 (50000 rows, 25 grid points).  Every grid point t writes back one block
  of 2000 rows of the output; entry (r, j) of that block is the update Spec.combNorm of row r of the three row blocks,
  which are rows 2000·t + r of their arrays, with the four weight matrices and the two bias rows read whole.  So what
  point t writes is block t of ONE function of the arrays the region finds, Spec.normArr; the 25 blocks cover all
  50000 rows (row i lies in the block of point i / 2000), hence the array after the region is Spec.normArr of those arrays.
-/
import proofs.«141482_j13434657702128_1_alg».proof.Proof.FrameKIR3
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region9

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 25 points. -/
theorem hN : cfg9.N = 25 := Gen.N_9

/-- The index maps over the grid: the three row windows and the output move with the point along the rows and
    stay at column block 0; the weight and bias windows stay at block (0, 0). -/
theorem idx_facts : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = t.val ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = 0 ∧ win9_5.index t (1 : Fin 2) = 0)
    ∧ (win9_6.index t (0 : Fin 2) = 0 ∧ win9_6.index t (1 : Fin 2) = 0)
    ∧ (win9_7.index t (0 : Fin 2) = 0 ∧ win9_7.index t (1 : Fin 2) = 0)
    ∧ (win9_8.index t (0 : Fin 2) = 0 ∧ win9_8.index t (1 : Fin 2) = 0)
    ∧ (win9_9.index t (0 : Fin 2) = t.val ∧ win9_9.index t (1 : Fin 2) = 0) :=
  (by decide +kernel : ∀ t : Fin grid9.N, _)

/-! ## Each input block as rows of its array -/

/-- Row r of the first aggregated block at point t is row 2000·t + r of its array. -/
theorem blk0_apply (c : Dev nD) (t : Fin cfg9.N) (r : Fin 2000) (k : Fin 128) (i : Fin 50000) (hi : i.val = 2000 * t.val + r.val) :
    (GenP.iblk9 V c 0 t : S2000x128.Idx → EReal) (ix2 r k) = (V c main_v530 : S50000x128.Idx → EReal) (ix2 i k) := by
  obtain ⟨⟨e0, e1⟩, -⟩ := idx_facts t
  unfold GenP.iblk9
  rw [View.read_apply]
  show V c main_v530 _ = V c main_v530 _
  congr 1
  funext a
  apply Fin.ext
  match a with
  | ⟨0, _⟩ => show win9_0.index t (0 : Fin 2) * 2000 + 1 * r.val = i.val; omega
  | ⟨1, _⟩ => show win9_0.index t (1 : Fin 2) * 128 + 1 * k.val = k.val; omega

/-- Row r of the second aggregated block at point t is row 2000·t + r of its array. -/
theorem blk1_apply (c : Dev nD) (t : Fin cfg9.N) (r : Fin 2000) (k : Fin 128) (i : Fin 50000) (hi : i.val = 2000 * t.val + r.val) :
    (GenP.iblk9 V c 1 t : S2000x128.Idx → EReal) (ix2 r k) = (V c main_v566 : S50000x128.Idx → EReal) (ix2 i k) := by
  obtain ⟨-, ⟨e0, e1⟩, -⟩ := idx_facts t
  unfold GenP.iblk9
  rw [View.read_apply]
  show V c main_v566 _ = V c main_v566 _
  congr 1
  funext a
  apply Fin.ext
  match a with
  | ⟨0, _⟩ => show win9_1.index t (0 : Fin 2) * 2000 + 1 * r.val = i.val; omega
  | ⟨1, _⟩ => show win9_1.index t (1 : Fin 2) * 128 + 1 * k.val = k.val; omega

/-- Row r of the feature block at point t is row 2000·t + r of the feature array. -/
theorem blk2_apply (c : Dev nD) (t : Fin cfg9.N) (r : Fin 2000) (k : Fin 128) (i : Fin 50000) (hi : i.val = 2000 * t.val + r.val) :
    (GenP.iblk9 V c 2 t : S2000x128.Idx → EReal) (ix2 r k) = (V c main_v428 : S50000x128.Idx → EReal) (ix2 i k) := by
  obtain ⟨-, -, ⟨e0, e1⟩, -⟩ := idx_facts t
  unfold GenP.iblk9
  rw [View.read_apply]
  show V c main_v428 _ = V c main_v428 _
  congr 1
  funext a
  apply Fin.ext
  match a with
  | ⟨0, _⟩ => show win9_2.index t (0 : Fin 2) * 2000 + 1 * r.val = i.val; omega
  | ⟨1, _⟩ => show win9_2.index t (1 : Fin 2) * 128 + 1 * k.val = k.val; omega

/-- A weight window's one block is its whole matrix. -/
theorem blk3_eq (c : Dev nD) (t : Fin cfg9.N) :
    (GenP.iblk9 V c 3 t : S128x128.Idx → EReal) = (V c main_v568 : S128x128.Idx → EReal) := by
  obtain ⟨-, -, -, ⟨e0, e1⟩, -⟩ := idx_facts t
  funext x
  unfold GenP.iblk9
  rw [View.read_apply]
  show V c main_v568 _ = V c main_v568 _
  congr 1
  funext a
  apply Fin.ext
  match a with
  | ⟨0, _⟩ => show win9_3.index t (0 : Fin 2) * 128 + 1 * (x 0).val = (x 0).val; omega
  | ⟨1, _⟩ => show win9_3.index t (1 : Fin 2) * 128 + 1 * (x 1).val = (x 1).val; omega

theorem blk4_eq (c : Dev nD) (t : Fin cfg9.N) :
    (GenP.iblk9 V c 4 t : S128x128.Idx → EReal) = (V c main_v570 : S128x128.Idx → EReal) := by
  obtain ⟨-, -, -, -, ⟨e0, e1⟩, -⟩ := idx_facts t
  funext x
  unfold GenP.iblk9
  rw [View.read_apply]
  show V c main_v570 _ = V c main_v570 _
  congr 1
  funext a
  apply Fin.ext
  match a with
  | ⟨0, _⟩ => show win9_4.index t (0 : Fin 2) * 128 + 1 * (x 0).val = (x 0).val; omega
  | ⟨1, _⟩ => show win9_4.index t (1 : Fin 2) * 128 + 1 * (x 1).val = (x 1).val; omega

/-- A bias window's one block is its whole row. -/
theorem blk5_eq (c : Dev nD) (t : Fin cfg9.N) :
    (GenP.iblk9 V c 5 t : S1x128.Idx → EReal) = (V c main_v579 : S1x128.Idx → EReal) := by
  obtain ⟨-, -, -, -, -, ⟨e0, e1⟩, -⟩ := idx_facts t
  funext x
  unfold GenP.iblk9
  rw [View.read_apply]
  show V c main_v579 _ = V c main_v579 _
  congr 1
  funext a
  apply Fin.ext
  match a with
  | ⟨0, _⟩ => show win9_5.index t (0 : Fin 2) * 1 + 1 * (x 0).val = (x 0).val; omega
  | ⟨1, _⟩ => show win9_5.index t (1 : Fin 2) * 128 + 1 * (x 1).val = (x 1).val; omega

theorem blk6_eq (c : Dev nD) (t : Fin cfg9.N) :
    (GenP.iblk9 V c 6 t : S128x128.Idx → EReal) = (V c main_v574 : S128x128.Idx → EReal) := by
  obtain ⟨-, -, -, -, -, -, ⟨e0, e1⟩, -⟩ := idx_facts t
  funext x
  unfold GenP.iblk9
  rw [View.read_apply]
  show V c main_v574 _ = V c main_v574 _
  congr 1
  funext a
  apply Fin.ext
  match a with
  | ⟨0, _⟩ => show win9_6.index t (0 : Fin 2) * 128 + 1 * (x 0).val = (x 0).val; omega
  | ⟨1, _⟩ => show win9_6.index t (1 : Fin 2) * 128 + 1 * (x 1).val = (x 1).val; omega

theorem blk7_eq (c : Dev nD) (t : Fin cfg9.N) :
    (GenP.iblk9 V c 7 t : S128x128.Idx → EReal) = (V c main_v576 : S128x128.Idx → EReal) := by
  obtain ⟨-, -, -, -, -, -, -, ⟨e0, e1⟩, -⟩ := idx_facts t
  funext x
  unfold GenP.iblk9
  rw [View.read_apply]
  show V c main_v576 _ = V c main_v576 _
  congr 1
  funext a
  apply Fin.ext
  match a with
  | ⟨0, _⟩ => show win9_7.index t (0 : Fin 2) * 128 + 1 * (x 0).val = (x 0).val; omega
  | ⟨1, _⟩ => show win9_7.index t (1 : Fin 2) * 128 + 1 * (x 1).val = (x 1).val; omega

theorem blk8_eq (c : Dev nD) (t : Fin cfg9.N) :
    (GenP.iblk9 V c 8 t : S1x128.Idx → EReal) = (V c main_v580 : S1x128.Idx → EReal) := by
  obtain ⟨-, -, -, -, -, -, -, -, ⟨e0, e1⟩, -⟩ := idx_facts t
  funext x
  unfold GenP.iblk9
  rw [View.read_apply]
  show V c main_v580 _ = V c main_v580 _
  congr 1
  funext a
  apply Fin.ext
  match a with
  | ⟨0, _⟩ => show win9_8.index t (0 : Fin 2) * 1 + 1 * (x 0).val = (x 0).val; omega
  | ⟨1, _⟩ => show win9_8.index t (1 : Fin 2) * 128 + 1 * (x 1).val = (x 1).val; omega

/-! ## The output block, and the array -/

/-- Entry (r, j) of the output block at point t sits at (2000·t + r, j) of the output array. -/
theorem emb_out (t : Fin cfg9.N) (r : Fin 2000) (j : Fin 128) (i : Fin 50000) (hi : i.val = 2000 * t.val + r.val) :
    (((cfg9.win 9).blk t).view.emb (ix2 r j) : S50000x128.Idx) = ix2 i j := by
  obtain ⟨-, -, -, -, -, -, -, -, -, ⟨e0, e1⟩⟩ := idx_facts t
  funext a
  apply Fin.ext
  match a with
  | ⟨0, _⟩ => show win9_9.index t (0 : Fin 2) * 2000 + 1 * r.val = i.val; omega
  | ⟨1, _⟩ => show win9_9.index t (1 : Fin 2) * 128 + 1 * j.val = j.val; omega

/-- The node type's update as one function of the arrays the region finds. -/
abbrev G (c : Dev nD) : S50000x128.Idx → EReal :=
  Cert.Spec.normArr 50000 (V c main_v530) (V c main_v566) (V c main_v428) (V c main_v568) (V c main_v570)
    (fun k => V c main_v579 (ix2 0 k)) (V c main_v574) (V c main_v576) (fun k => V c main_v580 (ix2 0 k))

/-- What point t writes back is block t of the update: rows 2000·t … 2000·t + 1999. -/
theorem flushed_eq (c : Dev nD) (t : Fin cfg9.N) :
    (GenP.dat9 V c).flushed 9 t = ((cfg9.win 9).blk t).view.read (Elt Ideal) (G V c) := by
  show (cfg9.win 9).cut (grid9.coords t) ((GenP.dat9 V c).after 9 t) = _
  rw [GenP.after9_9]
  unfold GenP.out9_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 25 := hN ▸ t.isLt
  have hi : (⟨2000 * t.val + r.val, by have := r.isLt; omega⟩ : Fin 50000).val = 2000 * t.val + r.val := rfl
  show Gen.k9_pay1 (Gen.k9_pay2 (GenP.iblk9 V c 0 t) (GenP.iblk9 V c 1 t) (GenP.iblk9 V c 2 t) (GenP.iblk9 V c 3 t) (GenP.iblk9 V c 4 t)
      (GenP.iblk9 V c 6 t) (GenP.iblk9 V c 7 t) (GenP.iblk9 V c 5 t) (GenP.iblk9 V c 8 t)) (Scalar.ofBits (F := Ideal) .f32 0x3F000000#32) (ix2 r j)
    = G V c (((cfg9.win 9).blk t).view.emb (ix2 r j))
  rw [Block.pay9_apply, emb_out t r j _ hi]
  unfold G
  rw [Cert.Spec.normArr_apply, blk3_eq, blk4_eq, blk5_eq, blk6_eq, blk7_eq, blk8_eq]
  have h0 : (fun k => (GenP.iblk9 V c 0 t : S2000x128.Idx → EReal) (ix2 r k)) = Cert.Spec.rowOf (V c main_v530) ⟨2000 * t.val + r.val, by have := r.isLt; omega⟩ :=
    funext fun k => blk0_apply V c t r k _ hi
  have h1 : (fun k => (GenP.iblk9 V c 1 t : S2000x128.Idx → EReal) (ix2 r k)) = Cert.Spec.rowOf (V c main_v566) ⟨2000 * t.val + r.val, by have := r.isLt; omega⟩ :=
    funext fun k => blk1_apply V c t r k _ hi
  have h2 : (fun k => (GenP.iblk9 V c 2 t : S2000x128.Idx → EReal) (ix2 r k)) = Cert.Spec.rowOf (V c main_v428) ⟨2000 * t.val + r.val, by have := r.isLt; omega⟩ :=
    funext fun k => blk2_apply V c t r k _ hi
  rw [h0, h1, h2]

/-- An index of the output array is in point t's block iff each coordinate is in the block's range. -/
theorem mem_blk (t : Fin cfg9.N) (i : S50000x128.Idx) :
    i ∈ ((cfg9.win 9).blk t).view.set ↔ ∀ a : Fin 2, win9_9.index t a * S2000x128.size a ≤ (i a).val ∧ (i a).val < win9_9.index t a * S2000x128.size a + S2000x128.size a := by
  show i ∈ ((View.whole main_v581).slice (win9_9.rect t)).set ↔ _
  rw [View.set_slice_whole, Rect.mem_set_unit]
  exact Iff.rfl

/-- Every index of the output array is in the block of the point its row over 2000 names. -/
theorem cover (i : S50000x128.Idx) : ∃ t : Fin cfg9.N, (cfg9.win 9).flush t = true ∧ i ∈ ((cfg9.win 9).blk t).view.set := by
  have hi0 : (i 0).val < 50000 := (i 0).isLt
  have hi1 : (i 1).val < 128 := (i 1).isLt
  have hlt : (i 0).val / 2000 < cfg9.N := by rw [hN]; omega
  obtain ⟨-, -, -, -, -, -, -, -, -, ⟨e0, e1⟩⟩ := idx_facts ⟨(i 0).val / 2000, hlt⟩
  refine ⟨⟨(i 0).val / 2000, hlt⟩, Gen.flush9_9 _, ?_⟩
  rw [mem_blk]
  intro a
  match a with
  | ⟨0, _⟩ =>
    show win9_9.index ⟨(i 0).val / 2000, hlt⟩ (0 : Fin 2) * 2000 ≤ (i 0).val ∧ (i 0).val < win9_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win9_9.index ⟨(i 0).val / 2000, hlt⟩ (1 : Fin 2) * 128 ≤ (i 1).val ∧ (i 1).val < win9_9.index ⟨(i 0).val / 2000, hlt⟩ (1 : Fin 2) * 128 + 128
    rw [e1]; omega

/-- THE OUTPUT ARRAY after the region: the node type's update of the arrays the region finds, row by row. -/
theorem value (c : Dev nD) :
    (GenP.dat9 V c).arrAt 9 cfg9.N = Cert.Spec.normArr 50000 (V c main_v530) (V c main_v566) (V c main_v428) (V c main_v568) (V c main_v570)
      (fun k => V c main_v579 (ix2 0 k)) (V c main_v574) (V c main_v576) (fun k => V c main_v580 (ix2 0 k)) :=
  (GenP.dat9 V c).arrAt_eq_of_cover 9 (G V c) (fun t _ => flushed_eq V c t) cover

end Cert.KernelIdeal.Region9

end
-- ==== Proof.StepK3c.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region9

set_option maxRecDepth 16384

noncomputable section

namespace Cert.StepK3c

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_3 X c (Proc.devRef .tc Cert.KernelIdeal.main_v581)
    = Cert.Spec.normArr 50000 (A1_3 X c (Proc.devRef .tc Cert.KernelIdeal.main_v530))
        (A1_3 X c (Proc.devRef .tc Cert.KernelIdeal.main_v566))
        (A1_3 X c (Proc.devRef .tc Cert.KernelIdeal.main_v428))
        (A1_3 X c (Proc.devRef .tc Cert.KernelIdeal.main_v568))
        (A1_3 X c (Proc.devRef .tc Cert.KernelIdeal.main_v570))
        (fun k => A1_3 X c (Proc.devRef .tc Cert.KernelIdeal.main_v579) (ix2 0 k))
        (A1_3 X c (Proc.devRef .tc Cert.KernelIdeal.main_v574))
        (A1_3 X c (Proc.devRef .tc Cert.KernelIdeal.main_v576))
        (fun k => A1_3 X c (Proc.devRef .tc Cert.KernelIdeal.main_v580) (ix2 0 k)) := by
  rw [A6_3_of_ne X c Cert.KernelIdeal.main_v581 (by decide)]
  dsimp only [A5_3, Cert.KernelIdeal.Gen.hostOps11]
  after_results_simp
  rw [A4_3_of_ne X c Cert.KernelIdeal.main_v581 (by decide)]
  dsimp only [A3_3, Cert.KernelIdeal.Gen.hostOps10]
  after_results_simp
  have e9 : A2_3 X c (Proc.devRef .tc Cert.KernelIdeal.main_v581) = (Cert.KernelIdeal.GenP.dat9 (U1_3 X) c).arrAt 9 Cert.KernelIdeal.cfg9.N := A2_3_arr X c 9
  rw [e9, Cert.KernelIdeal.Region9.value]

end Cert.StepK3c

end
-- ==== Proof.StepR3c.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR2d
import proofs.«141482_j13434657702128_1_alg».proof.Proof.RefRead
import proofs.«141482_j13434657702128_1_alg».proof.Proof.RefOps3
import proofs.«141482_j13434657702128_1_alg».proof.Proof.FastRead

set_option maxRecDepth 16384

noncomputable section

namespace Cert.StepR3c

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 50000
  a2 : Cert.Spec.Rows 50000
  h : Cert.Spec.Rows 50000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R3 (F := Ideal)) Y (Proc.devRef .tc Cert.ReferenceIdeal.main_v769) = Cert.Spec.normArr 50000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R3]
    after_results_fast
    simp only [TRef.toBuf, TRef.ofBuf, cast_eq]
    generalize hA1 : (Host.divf (Host.scatterAdd _ _ _ _) _ : FVec Ideal Cert.ReferenceIdeal.S50000x128 .f32) = A1
    generalize hA2 : (Host.divf (Host.scatterAdd _ _ _ _) _ : FVec Ideal Cert.ReferenceIdeal.S50000x128 .f32) = A2
    rw [Cert.ReferenceIdeal.RefRead.refNorm_50000]
    subst hA1 hA2
    with_reducible rfl

end Cert.StepR3c

end
-- ==== Proof.StepJ3c.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR3c
import proofs.«141482_j13434657702128_1_alg».proof.Proof.StepLib
import proofs.«141482_j13434657702128_1_alg».proof.Proof.FastRead
import Idealize.ShloMosaic.Lib.ValueLayout

set_option maxRecDepth 16384

noncomputable section

namespace Cert.StepJ3c

open Idealize.ShloMosaic Idealize.ShloMosaic.TcCoe Idealize.SL.Sem Idealize.ShloMosaic.StableHlo Idealize.ShloMosaic.ValueIdx
open Cert.KernelIdeal.KFold

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A1_3 X c (Proc.devRef .tc Cert.KernelIdeal.main_v530)) = (Cert.StepR3c.refSide Y).a1)
    ∧ ((A1_3 X c (Proc.devRef .tc Cert.KernelIdeal.main_v566)) = (Cert.StepR3c.refSide Y).a2)
    ∧ ((A1_3 X c (Proc.devRef .tc Cert.KernelIdeal.main_v428)) = (Cert.StepR3c.refSide Y).h)
    ∧ ((A1_3 X c (Proc.devRef .tc Cert.KernelIdeal.main_v568)) = (Cert.StepR3c.refSide Y).wl1)
    ∧ ((A1_3 X c (Proc.devRef .tc Cert.KernelIdeal.main_v570)) = (Cert.StepR3c.refSide Y).wr1)
    ∧ ((fun k => A1_3 X c (Proc.devRef .tc Cert.KernelIdeal.main_v579) (ix2 0 k)) = (Cert.StepR3c.refSide Y).b1)
    ∧ ((A1_3 X c (Proc.devRef .tc Cert.KernelIdeal.main_v574)) = (Cert.StepR3c.refSide Y).wl2)
    ∧ ((A1_3 X c (Proc.devRef .tc Cert.KernelIdeal.main_v576)) = (Cert.StepR3c.refSide Y).wr2)
    ∧ ((fun k => A1_3 X c (Proc.devRef .tc Cert.KernelIdeal.main_v580) (ix2 0 k)) = (Cert.StepR3c.refSide Y).b2) := by
  dsimp only [A1_3, Cert.KernelIdeal.Gen.hostOps9]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR3c.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ3c

end
-- ==== Proof.Step3c.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK3c
import proofs.«141482_j13434657702128_1_alg».proof.Proof.StepJ3c

set_option maxRecDepth 16384

noncomputable section

namespace Cert.Step3c

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem normArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.normArr n A1 A2 H wl1 wr1 b1 wl2 wr2 b2 = Cert.Spec.normArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_3 X c (Proc.devRef .tc Cert.KernelIdeal.main_v581) = after (Cert.ReferenceIdeal.RefOps.R3 (F := Ideal)) Y (Proc.devRef .tc Cert.ReferenceIdeal.main_v769) := by
  obtain ⟨j1, j2, j3, j4, j5, j6, j7, j8, j9⟩ := Cert.StepJ3c.join X Y c hc hm hd h_arg3 h_arg4 h_arg5 h_arg6 h_arg7 h_arg8 h_arg9 h_arg10 h_arg11 h_arg12 h_arg13 h_arg14 h_arg15 h_arg16 h_arg17
  exact (Cert.StepK3c.kernel X c).trans ((normArr_congr j1 j2 j3 j4 j5 j6 j7 j8 j9).trans (Cert.StepR3c.refSide Y).eq.symm)

end Cert.Step3c

end
-- ==== Proof.Region10.lean ====
/-
  The output array of node-update region 10 (30000 rows, 15 grid points).  Every grid point t writes back one block
  of 2000 rows of the output; entry (r, j) of that block is the update Spec.combNorm of row r of the three row blocks,
  which are rows 2000·t + r of their arrays, with the four weight matrices and the two bias rows read whole.  So what
  point t writes is block t of ONE function of the arrays the region finds, Spec.normArr; the 15 blocks cover all
  30000 rows (row i lies in the block of point i / 2000), hence the array after the region is Spec.normArr of those arrays.
-/
import proofs.«141482_j13434657702128_1_alg».proof.Proof.FrameKIR3
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region10

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 15 points. -/
theorem hN : cfg10.N = 15 := Gen.N_10

/-- The index maps over the grid: the three row windows and the output move with the point along the rows and
    stay at column block 0; the weight and bias windows stay at block (0, 0). -/
theorem idx_facts : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = t.val ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = 0 ∧ win10_5.index t (1 : Fin 2) = 0)
    ∧ (win10_6.index t (0 : Fin 2) = 0 ∧ win10_6.index t (1 : Fin 2) = 0)
    ∧ (win10_7.index t (0 : Fin 2) = 0 ∧ win10_7.index t (1 : Fin 2) = 0)
    ∧ (win10_8.index t (0 : Fin 2) = 0 ∧ win10_8.index t (1 : Fin 2) = 0)
    ∧ (win10_9.index t (0 : Fin 2) = t.val ∧ win10_9.index t (1 : Fin 2) = 0) :=
  (by decide +kernel : ∀ t : Fin grid10.N, _)

/-! ## Each input block as rows of its array -/

/-- Row r of the first aggregated block at point t is row 2000·t + r of its array. -/
theorem blk0_apply (c : Dev nD) (t : Fin cfg10.N) (r : Fin 2000) (k : Fin 128) (i : Fin 30000) (hi : i.val = 2000 * t.val + r.val) :
    (GenP.iblk10 V c 0 t : S2000x128.Idx → EReal) (ix2 r k) = (V c main_v476 : S30000x128.Idx → EReal) (ix2 i k) := by
  obtain ⟨⟨e0, e1⟩, -⟩ := idx_facts t
  unfold GenP.iblk10
  rw [View.read_apply]
  show V c main_v476 _ = V c main_v476 _
  congr 1
  funext a
  apply Fin.ext
  match a with
  | ⟨0, _⟩ => show win10_0.index t (0 : Fin 2) * 2000 + 1 * r.val = i.val; omega
  | ⟨1, _⟩ => show win10_0.index t (1 : Fin 2) * 128 + 1 * k.val = k.val; omega

/-- Row r of the second aggregated block at point t is row 2000·t + r of its array. -/
theorem blk1_apply (c : Dev nD) (t : Fin cfg10.N) (r : Fin 2000) (k : Fin 128) (i : Fin 30000) (hi : i.val = 2000 * t.val + r.val) :
    (GenP.iblk10 V c 1 t : S2000x128.Idx → EReal) (ix2 r k) = (V c main_v548 : S30000x128.Idx → EReal) (ix2 i k) := by
  obtain ⟨-, ⟨e0, e1⟩, -⟩ := idx_facts t
  unfold GenP.iblk10
  rw [View.read_apply]
  show V c main_v548 _ = V c main_v548 _
  congr 1
  funext a
  apply Fin.ext
  match a with
  | ⟨0, _⟩ => show win10_1.index t (0 : Fin 2) * 2000 + 1 * r.val = i.val; omega
  | ⟨1, _⟩ => show win10_1.index t (1 : Fin 2) * 128 + 1 * k.val = k.val; omega

/-- Row r of the feature block at point t is row 2000·t + r of the feature array. -/
theorem blk2_apply (c : Dev nD) (t : Fin cfg10.N) (r : Fin 2000) (k : Fin 128) (i : Fin 30000) (hi : i.val = 2000 * t.val + r.val) :
    (GenP.iblk10 V c 2 t : S2000x128.Idx → EReal) (ix2 r k) = (V c main_v443 : S30000x128.Idx → EReal) (ix2 i k) := by
  obtain ⟨-, -, ⟨e0, e1⟩, -⟩ := idx_facts t
  unfold GenP.iblk10
  rw [View.read_apply]
  show V c main_v443 _ = V c main_v443 _
  congr 1
  funext a
  apply Fin.ext
  match a with
  | ⟨0, _⟩ => show win10_2.index t (0 : Fin 2) * 2000 + 1 * r.val = i.val; omega
  | ⟨1, _⟩ => show win10_2.index t (1 : Fin 2) * 128 + 1 * k.val = k.val; omega

/-- A weight window's one block is its whole matrix. -/
theorem blk3_eq (c : Dev nD) (t : Fin cfg10.N) :
    (GenP.iblk10 V c 3 t : S128x128.Idx → EReal) = (V c main_v583 : S128x128.Idx → EReal) := by
  obtain ⟨-, -, -, ⟨e0, e1⟩, -⟩ := idx_facts t
  funext x
  unfold GenP.iblk10
  rw [View.read_apply]
  show V c main_v583 _ = V c main_v583 _
  congr 1
  funext a
  apply Fin.ext
  match a with
  | ⟨0, _⟩ => show win10_3.index t (0 : Fin 2) * 128 + 1 * (x 0).val = (x 0).val; omega
  | ⟨1, _⟩ => show win10_3.index t (1 : Fin 2) * 128 + 1 * (x 1).val = (x 1).val; omega

theorem blk4_eq (c : Dev nD) (t : Fin cfg10.N) :
    (GenP.iblk10 V c 4 t : S128x128.Idx → EReal) = (V c main_v585 : S128x128.Idx → EReal) := by
  obtain ⟨-, -, -, -, ⟨e0, e1⟩, -⟩ := idx_facts t
  funext x
  unfold GenP.iblk10
  rw [View.read_apply]
  show V c main_v585 _ = V c main_v585 _
  congr 1
  funext a
  apply Fin.ext
  match a with
  | ⟨0, _⟩ => show win10_4.index t (0 : Fin 2) * 128 + 1 * (x 0).val = (x 0).val; omega
  | ⟨1, _⟩ => show win10_4.index t (1 : Fin 2) * 128 + 1 * (x 1).val = (x 1).val; omega

/-- A bias window's one block is its whole row. -/
theorem blk5_eq (c : Dev nD) (t : Fin cfg10.N) :
    (GenP.iblk10 V c 5 t : S1x128.Idx → EReal) = (V c main_v594 : S1x128.Idx → EReal) := by
  obtain ⟨-, -, -, -, -, ⟨e0, e1⟩, -⟩ := idx_facts t
  funext x
  unfold GenP.iblk10
  rw [View.read_apply]
  show V c main_v594 _ = V c main_v594 _
  congr 1
  funext a
  apply Fin.ext
  match a with
  | ⟨0, _⟩ => show win10_5.index t (0 : Fin 2) * 1 + 1 * (x 0).val = (x 0).val; omega
  | ⟨1, _⟩ => show win10_5.index t (1 : Fin 2) * 128 + 1 * (x 1).val = (x 1).val; omega

theorem blk6_eq (c : Dev nD) (t : Fin cfg10.N) :
    (GenP.iblk10 V c 6 t : S128x128.Idx → EReal) = (V c main_v589 : S128x128.Idx → EReal) := by
  obtain ⟨-, -, -, -, -, -, ⟨e0, e1⟩, -⟩ := idx_facts t
  funext x
  unfold GenP.iblk10
  rw [View.read_apply]
  show V c main_v589 _ = V c main_v589 _
  congr 1
  funext a
  apply Fin.ext
  match a with
  | ⟨0, _⟩ => show win10_6.index t (0 : Fin 2) * 128 + 1 * (x 0).val = (x 0).val; omega
  | ⟨1, _⟩ => show win10_6.index t (1 : Fin 2) * 128 + 1 * (x 1).val = (x 1).val; omega

theorem blk7_eq (c : Dev nD) (t : Fin cfg10.N) :
    (GenP.iblk10 V c 7 t : S128x128.Idx → EReal) = (V c main_v591 : S128x128.Idx → EReal) := by
  obtain ⟨-, -, -, -, -, -, -, ⟨e0, e1⟩, -⟩ := idx_facts t
  funext x
  unfold GenP.iblk10
  rw [View.read_apply]
  show V c main_v591 _ = V c main_v591 _
  congr 1
  funext a
  apply Fin.ext
  match a with
  | ⟨0, _⟩ => show win10_7.index t (0 : Fin 2) * 128 + 1 * (x 0).val = (x 0).val; omega
  | ⟨1, _⟩ => show win10_7.index t (1 : Fin 2) * 128 + 1 * (x 1).val = (x 1).val; omega

theorem blk8_eq (c : Dev nD) (t : Fin cfg10.N) :
    (GenP.iblk10 V c 8 t : S1x128.Idx → EReal) = (V c main_v595 : S1x128.Idx → EReal) := by
  obtain ⟨-, -, -, -, -, -, -, -, ⟨e0, e1⟩, -⟩ := idx_facts t
  funext x
  unfold GenP.iblk10
  rw [View.read_apply]
  show V c main_v595 _ = V c main_v595 _
  congr 1
  funext a
  apply Fin.ext
  match a with
  | ⟨0, _⟩ => show win10_8.index t (0 : Fin 2) * 1 + 1 * (x 0).val = (x 0).val; omega
  | ⟨1, _⟩ => show win10_8.index t (1 : Fin 2) * 128 + 1 * (x 1).val = (x 1).val; omega

/-! ## The output block, and the array -/

/-- Entry (r, j) of the output block at point t sits at (2000·t + r, j) of the output array. -/
theorem emb_out (t : Fin cfg10.N) (r : Fin 2000) (j : Fin 128) (i : Fin 30000) (hi : i.val = 2000 * t.val + r.val) :
    (((cfg10.win 9).blk t).view.emb (ix2 r j) : S30000x128.Idx) = ix2 i j := by
  obtain ⟨-, -, -, -, -, -, -, -, -, ⟨e0, e1⟩⟩ := idx_facts t
  funext a
  apply Fin.ext
  match a with
  | ⟨0, _⟩ => show win10_9.index t (0 : Fin 2) * 2000 + 1 * r.val = i.val; omega
  | ⟨1, _⟩ => show win10_9.index t (1 : Fin 2) * 128 + 1 * j.val = j.val; omega

/-- The node type's update as one function of the arrays the region finds. -/
abbrev G (c : Dev nD) : S30000x128.Idx → EReal :=
  Cert.Spec.normArr 30000 (V c main_v476) (V c main_v548) (V c main_v443) (V c main_v583) (V c main_v585)
    (fun k => V c main_v594 (ix2 0 k)) (V c main_v589) (V c main_v591) (fun k => V c main_v595 (ix2 0 k))

/-- What point t writes back is block t of the update: rows 2000·t … 2000·t + 1999. -/
theorem flushed_eq (c : Dev nD) (t : Fin cfg10.N) :
    (GenP.dat10 V c).flushed 9 t = ((cfg10.win 9).blk t).view.read (Elt Ideal) (G V c) := by
  show (cfg10.win 9).cut (grid10.coords t) ((GenP.dat10 V c).after 9 t) = _
  rw [GenP.after10_9]
  unfold GenP.out10_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 15 := hN ▸ t.isLt
  have hi : (⟨2000 * t.val + r.val, by have := r.isLt; omega⟩ : Fin 30000).val = 2000 * t.val + r.val := rfl
  show Gen.k10_pay1 (Gen.k10_pay2 (GenP.iblk10 V c 0 t) (GenP.iblk10 V c 1 t) (GenP.iblk10 V c 2 t) (GenP.iblk10 V c 3 t) (GenP.iblk10 V c 4 t)
      (GenP.iblk10 V c 6 t) (GenP.iblk10 V c 7 t) (GenP.iblk10 V c 5 t) (GenP.iblk10 V c 8 t)) (Scalar.ofBits (F := Ideal) .f32 0x3F000000#32) (ix2 r j)
    = G V c (((cfg10.win 9).blk t).view.emb (ix2 r j))
  rw [Block.pay10_apply, emb_out t r j _ hi]
  unfold G
  rw [Cert.Spec.normArr_apply, blk3_eq, blk4_eq, blk5_eq, blk6_eq, blk7_eq, blk8_eq]
  have h0 : (fun k => (GenP.iblk10 V c 0 t : S2000x128.Idx → EReal) (ix2 r k)) = Cert.Spec.rowOf (V c main_v476) ⟨2000 * t.val + r.val, by have := r.isLt; omega⟩ :=
    funext fun k => blk0_apply V c t r k _ hi
  have h1 : (fun k => (GenP.iblk10 V c 1 t : S2000x128.Idx → EReal) (ix2 r k)) = Cert.Spec.rowOf (V c main_v548) ⟨2000 * t.val + r.val, by have := r.isLt; omega⟩ :=
    funext fun k => blk1_apply V c t r k _ hi
  have h2 : (fun k => (GenP.iblk10 V c 2 t : S2000x128.Idx → EReal) (ix2 r k)) = Cert.Spec.rowOf (V c main_v443) ⟨2000 * t.val + r.val, by have := r.isLt; omega⟩ :=
    funext fun k => blk2_apply V c t r k _ hi
  rw [h0, h1, h2]

/-- An index of the output array is in point t's block iff each coordinate is in the block's range. -/
theorem mem_blk (t : Fin cfg10.N) (i : S30000x128.Idx) :
    i ∈ ((cfg10.win 9).blk t).view.set ↔ ∀ a : Fin 2, win10_9.index t a * S2000x128.size a ≤ (i a).val ∧ (i a).val < win10_9.index t a * S2000x128.size a + S2000x128.size a := by
  show i ∈ ((View.whole main_v596).slice (win10_9.rect t)).set ↔ _
  rw [View.set_slice_whole, Rect.mem_set_unit]
  exact Iff.rfl

/-- Every index of the output array is in the block of the point its row over 2000 names. -/
theorem cover (i : S30000x128.Idx) : ∃ t : Fin cfg10.N, (cfg10.win 9).flush t = true ∧ i ∈ ((cfg10.win 9).blk t).view.set := by
  have hi0 : (i 0).val < 30000 := (i 0).isLt
  have hi1 : (i 1).val < 128 := (i 1).isLt
  have hlt : (i 0).val / 2000 < cfg10.N := by rw [hN]; omega
  obtain ⟨-, -, -, -, -, -, -, -, -, ⟨e0, e1⟩⟩ := idx_facts ⟨(i 0).val / 2000, hlt⟩
  refine ⟨⟨(i 0).val / 2000, hlt⟩, Gen.flush10_9 _, ?_⟩
  rw [mem_blk]
  intro a
  match a with
  | ⟨0, _⟩ =>
    show win10_9.index ⟨(i 0).val / 2000, hlt⟩ (0 : Fin 2) * 2000 ≤ (i 0).val ∧ (i 0).val < win10_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win10_9.index ⟨(i 0).val / 2000, hlt⟩ (1 : Fin 2) * 128 ≤ (i 1).val ∧ (i 1).val < win10_9.index ⟨(i 0).val / 2000, hlt⟩ (1 : Fin 2) * 128 + 128
    rw [e1]; omega

/-- THE OUTPUT ARRAY after the region: the node type's update of the arrays the region finds, row by row. -/
theorem value (c : Dev nD) :
    (GenP.dat10 V c).arrAt 9 cfg10.N = Cert.Spec.normArr 30000 (V c main_v476) (V c main_v548) (V c main_v443) (V c main_v583) (V c main_v585)
      (fun k => V c main_v594 (ix2 0 k)) (V c main_v589) (V c main_v591) (fun k => V c main_v595 (ix2 0 k)) :=
  (GenP.dat10 V c).arrAt_eq_of_cover 9 (G V c) (fun t _ => flushed_eq V c t) cover

end Cert.KernelIdeal.Region10

end
-- ==== Proof.StepK3m.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region10

set_option maxRecDepth 16384

noncomputable section

namespace Cert.StepK3m

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_3 X c (Proc.devRef .tc Cert.KernelIdeal.main_v596)
    = Cert.Spec.normArr 30000 (A3_3 X c (Proc.devRef .tc Cert.KernelIdeal.main_v476))
        (A3_3 X c (Proc.devRef .tc Cert.KernelIdeal.main_v548))
        (A3_3 X c (Proc.devRef .tc Cert.KernelIdeal.main_v443))
        (A3_3 X c (Proc.devRef .tc Cert.KernelIdeal.main_v583))
        (A3_3 X c (Proc.devRef .tc Cert.KernelIdeal.main_v585))
        (fun k => A3_3 X c (Proc.devRef .tc Cert.KernelIdeal.main_v594) (ix2 0 k))
        (A3_3 X c (Proc.devRef .tc Cert.KernelIdeal.main_v589))
        (A3_3 X c (Proc.devRef .tc Cert.KernelIdeal.main_v591))
        (fun k => A3_3 X c (Proc.devRef .tc Cert.KernelIdeal.main_v595) (ix2 0 k)) := by
  rw [A6_3_of_ne X c Cert.KernelIdeal.main_v596 (by decide)]
  dsimp only [A5_3, Cert.KernelIdeal.Gen.hostOps11]
  after_results_simp
  have e10 : A4_3 X c (Proc.devRef .tc Cert.KernelIdeal.main_v596) = (Cert.KernelIdeal.GenP.dat10 (U3_3 X) c).arrAt 9 Cert.KernelIdeal.cfg10.N := A4_3_arr X c 9
  rw [e10, Cert.KernelIdeal.Region10.value]

end Cert.StepK3m

end
-- ==== Proof.StepR3m.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR3c
import proofs.«141482_j13434657702128_1_alg».proof.Proof.RefRead
import proofs.«141482_j13434657702128_1_alg».proof.Proof.RefOps3
import proofs.«141482_j13434657702128_1_alg».proof.Proof.FastRead

set_option maxRecDepth 16384

noncomputable section

namespace Cert.StepR3m

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 30000
  a2 : Cert.Spec.Rows 30000
  h : Cert.Spec.Rows 30000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R3 (F := Ideal)) Y (Proc.devRef .tc Cert.ReferenceIdeal.main_v774) = Cert.Spec.normArr 30000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R3]
    after_results_fast
    simp only [TRef.toBuf, TRef.ofBuf, cast_eq]
    generalize hA1 : (Host.divf (Host.scatterAdd _ _ _ _) _ : FVec Ideal Cert.ReferenceIdeal.S30000x128 .f32) = A1
    generalize hA2 : (Host.divf (Host.scatterAdd _ _ _ _) _ : FVec Ideal Cert.ReferenceIdeal.S30000x128 .f32) = A2
    rw [Cert.ReferenceIdeal.RefRead.refNorm_30000]
    subst hA1 hA2
    with_reducible rfl

end Cert.StepR3m

end
-- ==== Proof.StepJ3m.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR3m
import proofs.«141482_j13434657702128_1_alg».proof.Proof.StepLib
import proofs.«141482_j13434657702128_1_alg».proof.Proof.FastRead
import Idealize.ShloMosaic.Lib.ValueLayout

set_option maxRecDepth 16384

noncomputable section

namespace Cert.StepJ3m

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_3_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec9 w ≠ b) :
    A2_3 X c (no_index (Proc.devRef .tc b)) = A1_3 X c (Proc.devRef .tc b) := A2_3_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A3_3 X c (Proc.devRef .tc Cert.KernelIdeal.main_v476)) = (Cert.StepR3m.refSide Y).a1)
    ∧ ((A3_3 X c (Proc.devRef .tc Cert.KernelIdeal.main_v548)) = (Cert.StepR3m.refSide Y).a2)
    ∧ ((A3_3 X c (Proc.devRef .tc Cert.KernelIdeal.main_v443)) = (Cert.StepR3m.refSide Y).h)
    ∧ ((A3_3 X c (Proc.devRef .tc Cert.KernelIdeal.main_v583)) = (Cert.StepR3m.refSide Y).wl1)
    ∧ ((A3_3 X c (Proc.devRef .tc Cert.KernelIdeal.main_v585)) = (Cert.StepR3m.refSide Y).wr1)
    ∧ ((fun k => A3_3 X c (Proc.devRef .tc Cert.KernelIdeal.main_v594) (ix2 0 k)) = (Cert.StepR3m.refSide Y).b1)
    ∧ ((A3_3 X c (Proc.devRef .tc Cert.KernelIdeal.main_v589)) = (Cert.StepR3m.refSide Y).wl2)
    ∧ ((A3_3 X c (Proc.devRef .tc Cert.KernelIdeal.main_v591)) = (Cert.StepR3m.refSide Y).wr2)
    ∧ ((fun k => A3_3 X c (Proc.devRef .tc Cert.KernelIdeal.main_v595) (ix2 0 k)) = (Cert.StepR3m.refSide Y).b2) := by
  dsimp only [A3_3, Cert.KernelIdeal.Gen.hostOps10]
  after_results_fast
  simp (disch := decide) only [A2_3_of_ne']
  dsimp only [A1_3, Cert.KernelIdeal.Gen.hostOps9]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR3m.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ3m

end
-- ==== Proof.Step3m.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK3m
import proofs.«141482_j13434657702128_1_alg».proof.Proof.StepJ3m

set_option maxRecDepth 16384

noncomputable section

namespace Cert.Step3m

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem normArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.normArr n A1 A2 H wl1 wr1 b1 wl2 wr2 b2 = Cert.Spec.normArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_3 X c (Proc.devRef .tc Cert.KernelIdeal.main_v596) = after (Cert.ReferenceIdeal.RefOps.R3 (F := Ideal)) Y (Proc.devRef .tc Cert.ReferenceIdeal.main_v774) := by
  obtain ⟨j1, j2, j3, j4, j5, j6, j7, j8, j9⟩ := Cert.StepJ3m.join X Y c hc hm hd h_arg3 h_arg4 h_arg5 h_arg6 h_arg7 h_arg8 h_arg9 h_arg10 h_arg11 h_arg12 h_arg13 h_arg14 h_arg15 h_arg16 h_arg17
  exact (Cert.StepK3m.kernel X c).trans ((normArr_congr j1 j2 j3 j4 j5 j6 j7 j8 j9).trans (Cert.StepR3m.refSide Y).eq.symm)

end Cert.Step3m

end
-- ==== Proof.Region11.lean ====
/-
  The output array of node-update region 11 (10000 rows, 5 grid points).  Every grid point t writes back one block
  of 2000 rows of the output; entry (r, j) of that block is the update Spec.combNorm of row r of the three row blocks,
  which are rows 2000·t + r of their arrays, with the four weight matrices and the two bias rows read whole.  So what
  point t writes is block t of ONE function of the arrays the region finds, Spec.normArr; the 5 blocks cover all
  10000 rows (row i lies in the block of point i / 2000), hence the array after the region is Spec.normArr of those arrays.
-/
import proofs.«141482_j13434657702128_1_alg».proof.Proof.FrameKIR3
import proofs.«141482_j13434657702128_1_alg».proof.Proof.Block
import proofs.«141482_j13434657702128_1_alg».proof.Proof.Spec
import Idealize.ShloMosaic.Lib.Pipeline.Value
import Idealize.ShloMosaic.Lib.ValueIdx

noncomputable section

namespace Cert.KernelIdeal.Region11

open Idealize.ShloMosaic Idealize.ShloMosaic.TcCoe Idealize.ShloMosaic.ValueIdx Idealize.SL.Sem
open Idealize.ShloMosaic.Pipeline (Dat)
open Cert.KernelIdeal

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The grid has 5 points. -/
theorem hN : cfg11.N = 5 := Gen.N_11

/-- The index maps over the grid: the three row windows and the output move with the point along the rows and
    stay at column block 0; the weight and bias windows stay at block (0, 0). -/
theorem idx_facts : ∀ t : Fin cfg11.N,
    (win11_0.index t (0 : Fin 2) = t.val ∧ win11_0.index t (1 : Fin 2) = 0)
    ∧ (win11_1.index t (0 : Fin 2) = t.val ∧ win11_1.index t (1 : Fin 2) = 0)
    ∧ (win11_2.index t (0 : Fin 2) = t.val ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = 0 ∧ win11_5.index t (1 : Fin 2) = 0)
    ∧ (win11_6.index t (0 : Fin 2) = 0 ∧ win11_6.index t (1 : Fin 2) = 0)
    ∧ (win11_7.index t (0 : Fin 2) = 0 ∧ win11_7.index t (1 : Fin 2) = 0)
    ∧ (win11_8.index t (0 : Fin 2) = 0 ∧ win11_8.index t (1 : Fin 2) = 0)
    ∧ (win11_9.index t (0 : Fin 2) = t.val ∧ win11_9.index t (1 : Fin 2) = 0) :=
  (by decide +kernel : ∀ t : Fin grid11.N, _)

/-! ## Each input block as rows of its array -/

/-- Row r of the first aggregated block at point t is row 2000·t + r of its array. -/
theorem blk0_apply (c : Dev nD) (t : Fin cfg11.N) (r : Fin 2000) (k : Fin 128) (i : Fin 10000) (hi : i.val = 2000 * t.val + r.val) :
    (GenP.iblk11 V c 0 t : S2000x128.Idx → EReal) (ix2 r k) = (V c main_v494 : S10000x128.Idx → EReal) (ix2 i k) := by
  obtain ⟨⟨e0, e1⟩, -⟩ := idx_facts t
  unfold GenP.iblk11
  rw [View.read_apply]
  show V c main_v494 _ = V c main_v494 _
  congr 1
  funext a
  apply Fin.ext
  match a with
  | ⟨0, _⟩ => show win11_0.index t (0 : Fin 2) * 2000 + 1 * r.val = i.val; omega
  | ⟨1, _⟩ => show win11_0.index t (1 : Fin 2) * 128 + 1 * k.val = k.val; omega

/-- Row r of the second aggregated block at point t is row 2000·t + r of its array. -/
theorem blk1_apply (c : Dev nD) (t : Fin cfg11.N) (r : Fin 2000) (k : Fin 128) (i : Fin 10000) (hi : i.val = 2000 * t.val + r.val) :
    (GenP.iblk11 V c 1 t : S2000x128.Idx → EReal) (ix2 r k) = (V c main_v512 : S10000x128.Idx → EReal) (ix2 i k) := by
  obtain ⟨-, ⟨e0, e1⟩, -⟩ := idx_facts t
  unfold GenP.iblk11
  rw [View.read_apply]
  show V c main_v512 _ = V c main_v512 _
  congr 1
  funext a
  apply Fin.ext
  match a with
  | ⟨0, _⟩ => show win11_1.index t (0 : Fin 2) * 2000 + 1 * r.val = i.val; omega
  | ⟨1, _⟩ => show win11_1.index t (1 : Fin 2) * 128 + 1 * k.val = k.val; omega

/-- Row r of the feature block at point t is row 2000·t + r of the feature array. -/
theorem blk2_apply (c : Dev nD) (t : Fin cfg11.N) (r : Fin 2000) (k : Fin 128) (i : Fin 10000) (hi : i.val = 2000 * t.val + r.val) :
    (GenP.iblk11 V c 2 t : S2000x128.Idx → EReal) (ix2 r k) = (V c main_v458 : S10000x128.Idx → EReal) (ix2 i k) := by
  obtain ⟨-, -, ⟨e0, e1⟩, -⟩ := idx_facts t
  unfold GenP.iblk11
  rw [View.read_apply]
  show V c main_v458 _ = V c main_v458 _
  congr 1
  funext a
  apply Fin.ext
  match a with
  | ⟨0, _⟩ => show win11_2.index t (0 : Fin 2) * 2000 + 1 * r.val = i.val; omega
  | ⟨1, _⟩ => show win11_2.index t (1 : Fin 2) * 128 + 1 * k.val = k.val; omega

/-- A weight window's one block is its whole matrix. -/
theorem blk3_eq (c : Dev nD) (t : Fin cfg11.N) :
    (GenP.iblk11 V c 3 t : S128x128.Idx → EReal) = (V c main_v598 : S128x128.Idx → EReal) := by
  obtain ⟨-, -, -, ⟨e0, e1⟩, -⟩ := idx_facts t
  funext x
  unfold GenP.iblk11
  rw [View.read_apply]
  show V c main_v598 _ = V c main_v598 _
  congr 1
  funext a
  apply Fin.ext
  match a with
  | ⟨0, _⟩ => show win11_3.index t (0 : Fin 2) * 128 + 1 * (x 0).val = (x 0).val; omega
  | ⟨1, _⟩ => show win11_3.index t (1 : Fin 2) * 128 + 1 * (x 1).val = (x 1).val; omega

theorem blk4_eq (c : Dev nD) (t : Fin cfg11.N) :
    (GenP.iblk11 V c 4 t : S128x128.Idx → EReal) = (V c main_v600 : S128x128.Idx → EReal) := by
  obtain ⟨-, -, -, -, ⟨e0, e1⟩, -⟩ := idx_facts t
  funext x
  unfold GenP.iblk11
  rw [View.read_apply]
  show V c main_v600 _ = V c main_v600 _
  congr 1
  funext a
  apply Fin.ext
  match a with
  | ⟨0, _⟩ => show win11_4.index t (0 : Fin 2) * 128 + 1 * (x 0).val = (x 0).val; omega
  | ⟨1, _⟩ => show win11_4.index t (1 : Fin 2) * 128 + 1 * (x 1).val = (x 1).val; omega

/-- A bias window's one block is its whole row. -/
theorem blk5_eq (c : Dev nD) (t : Fin cfg11.N) :
    (GenP.iblk11 V c 5 t : S1x128.Idx → EReal) = (V c main_v609 : S1x128.Idx → EReal) := by
  obtain ⟨-, -, -, -, -, ⟨e0, e1⟩, -⟩ := idx_facts t
  funext x
  unfold GenP.iblk11
  rw [View.read_apply]
  show V c main_v609 _ = V c main_v609 _
  congr 1
  funext a
  apply Fin.ext
  match a with
  | ⟨0, _⟩ => show win11_5.index t (0 : Fin 2) * 1 + 1 * (x 0).val = (x 0).val; omega
  | ⟨1, _⟩ => show win11_5.index t (1 : Fin 2) * 128 + 1 * (x 1).val = (x 1).val; omega

theorem blk6_eq (c : Dev nD) (t : Fin cfg11.N) :
    (GenP.iblk11 V c 6 t : S128x128.Idx → EReal) = (V c main_v604 : S128x128.Idx → EReal) := by
  obtain ⟨-, -, -, -, -, -, ⟨e0, e1⟩, -⟩ := idx_facts t
  funext x
  unfold GenP.iblk11
  rw [View.read_apply]
  show V c main_v604 _ = V c main_v604 _
  congr 1
  funext a
  apply Fin.ext
  match a with
  | ⟨0, _⟩ => show win11_6.index t (0 : Fin 2) * 128 + 1 * (x 0).val = (x 0).val; omega
  | ⟨1, _⟩ => show win11_6.index t (1 : Fin 2) * 128 + 1 * (x 1).val = (x 1).val; omega

theorem blk7_eq (c : Dev nD) (t : Fin cfg11.N) :
    (GenP.iblk11 V c 7 t : S128x128.Idx → EReal) = (V c main_v606 : S128x128.Idx → EReal) := by
  obtain ⟨-, -, -, -, -, -, -, ⟨e0, e1⟩, -⟩ := idx_facts t
  funext x
  unfold GenP.iblk11
  rw [View.read_apply]
  show V c main_v606 _ = V c main_v606 _
  congr 1
  funext a
  apply Fin.ext
  match a with
  | ⟨0, _⟩ => show win11_7.index t (0 : Fin 2) * 128 + 1 * (x 0).val = (x 0).val; omega
  | ⟨1, _⟩ => show win11_7.index t (1 : Fin 2) * 128 + 1 * (x 1).val = (x 1).val; omega

theorem blk8_eq (c : Dev nD) (t : Fin cfg11.N) :
    (GenP.iblk11 V c 8 t : S1x128.Idx → EReal) = (V c main_v610 : S1x128.Idx → EReal) := by
  obtain ⟨-, -, -, -, -, -, -, -, ⟨e0, e1⟩, -⟩ := idx_facts t
  funext x
  unfold GenP.iblk11
  rw [View.read_apply]
  show V c main_v610 _ = V c main_v610 _
  congr 1
  funext a
  apply Fin.ext
  match a with
  | ⟨0, _⟩ => show win11_8.index t (0 : Fin 2) * 1 + 1 * (x 0).val = (x 0).val; omega
  | ⟨1, _⟩ => show win11_8.index t (1 : Fin 2) * 128 + 1 * (x 1).val = (x 1).val; omega

/-! ## The output block, and the array -/

/-- Entry (r, j) of the output block at point t sits at (2000·t + r, j) of the output array. -/
theorem emb_out (t : Fin cfg11.N) (r : Fin 2000) (j : Fin 128) (i : Fin 10000) (hi : i.val = 2000 * t.val + r.val) :
    (((cfg11.win 9).blk t).view.emb (ix2 r j) : S10000x128.Idx) = ix2 i j := by
  obtain ⟨-, -, -, -, -, -, -, -, -, ⟨e0, e1⟩⟩ := idx_facts t
  funext a
  apply Fin.ext
  match a with
  | ⟨0, _⟩ => show win11_9.index t (0 : Fin 2) * 2000 + 1 * r.val = i.val; omega
  | ⟨1, _⟩ => show win11_9.index t (1 : Fin 2) * 128 + 1 * j.val = j.val; omega

/-- The node type's update as one function of the arrays the region finds. -/
abbrev G (c : Dev nD) : S10000x128.Idx → EReal :=
  Cert.Spec.normArr 10000 (V c main_v494) (V c main_v512) (V c main_v458) (V c main_v598) (V c main_v600)
    (fun k => V c main_v609 (ix2 0 k)) (V c main_v604) (V c main_v606) (fun k => V c main_v610 (ix2 0 k))

/-- What point t writes back is block t of the update: rows 2000·t … 2000·t + 1999. -/
theorem flushed_eq (c : Dev nD) (t : Fin cfg11.N) :
    (GenP.dat11 V c).flushed 9 t = ((cfg11.win 9).blk t).view.read (Elt Ideal) (G V c) := by
  show (cfg11.win 9).cut (grid11.coords t) ((GenP.dat11 V c).after 9 t) = _
  rw [GenP.after11_9]
  unfold GenP.out11_9
  rw [View.canon_unit_zero hz]
  simp only [View.ld_unit_zero (S := S2000x128) hz, View.ld_unit_zero (S := S128x128) hz, View.ld_unit_zero (S := S1x128) hz]
  funext y
  obtain ⟨r, j, rfl⟩ : ∃ (r : Fin 2000) (j : Fin 128), y = ix2 r j := ⟨y 0, y 1, eq_ix2 y⟩
  have ht : t.val < 5 := hN ▸ t.isLt
  have hi : (⟨2000 * t.val + r.val, by have := r.isLt; omega⟩ : Fin 10000).val = 2000 * t.val + r.val := rfl
  show Gen.k11_pay1 (Gen.k11_pay2 (GenP.iblk11 V c 0 t) (GenP.iblk11 V c 1 t) (GenP.iblk11 V c 2 t) (GenP.iblk11 V c 3 t) (GenP.iblk11 V c 4 t)
      (GenP.iblk11 V c 6 t) (GenP.iblk11 V c 7 t) (GenP.iblk11 V c 5 t) (GenP.iblk11 V c 8 t)) (Scalar.ofBits (F := Ideal) .f32 0x3F000000#32) (ix2 r j)
    = G V c (((cfg11.win 9).blk t).view.emb (ix2 r j))
  rw [Block.pay11_apply, emb_out t r j _ hi]
  unfold G
  rw [Cert.Spec.normArr_apply, blk3_eq, blk4_eq, blk5_eq, blk6_eq, blk7_eq, blk8_eq]
  have h0 : (fun k => (GenP.iblk11 V c 0 t : S2000x128.Idx → EReal) (ix2 r k)) = Cert.Spec.rowOf (V c main_v494) ⟨2000 * t.val + r.val, by have := r.isLt; omega⟩ :=
    funext fun k => blk0_apply V c t r k _ hi
  have h1 : (fun k => (GenP.iblk11 V c 1 t : S2000x128.Idx → EReal) (ix2 r k)) = Cert.Spec.rowOf (V c main_v512) ⟨2000 * t.val + r.val, by have := r.isLt; omega⟩ :=
    funext fun k => blk1_apply V c t r k _ hi
  have h2 : (fun k => (GenP.iblk11 V c 2 t : S2000x128.Idx → EReal) (ix2 r k)) = Cert.Spec.rowOf (V c main_v458) ⟨2000 * t.val + r.val, by have := r.isLt; omega⟩ :=
    funext fun k => blk2_apply V c t r k _ hi
  rw [h0, h1, h2]

/-- An index of the output array is in point t's block iff each coordinate is in the block's range. -/
theorem mem_blk (t : Fin cfg11.N) (i : S10000x128.Idx) :
    i ∈ ((cfg11.win 9).blk t).view.set ↔ ∀ a : Fin 2, win11_9.index t a * S2000x128.size a ≤ (i a).val ∧ (i a).val < win11_9.index t a * S2000x128.size a + S2000x128.size a := by
  show i ∈ ((View.whole main_v611).slice (win11_9.rect t)).set ↔ _
  rw [View.set_slice_whole, Rect.mem_set_unit]
  exact Iff.rfl

/-- Every index of the output array is in the block of the point its row over 2000 names. -/
theorem cover (i : S10000x128.Idx) : ∃ t : Fin cfg11.N, (cfg11.win 9).flush t = true ∧ i ∈ ((cfg11.win 9).blk t).view.set := by
  have hi0 : (i 0).val < 10000 := (i 0).isLt
  have hi1 : (i 1).val < 128 := (i 1).isLt
  have hlt : (i 0).val / 2000 < cfg11.N := by rw [hN]; omega
  obtain ⟨-, -, -, -, -, -, -, -, -, ⟨e0, e1⟩⟩ := idx_facts ⟨(i 0).val / 2000, hlt⟩
  refine ⟨⟨(i 0).val / 2000, hlt⟩, Gen.flush11_9 _, ?_⟩
  rw [mem_blk]
  intro a
  match a with
  | ⟨0, _⟩ =>
    show win11_9.index ⟨(i 0).val / 2000, hlt⟩ (0 : Fin 2) * 2000 ≤ (i 0).val ∧ (i 0).val < win11_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win11_9.index ⟨(i 0).val / 2000, hlt⟩ (1 : Fin 2) * 128 ≤ (i 1).val ∧ (i 1).val < win11_9.index ⟨(i 0).val / 2000, hlt⟩ (1 : Fin 2) * 128 + 128
    rw [e1]; omega

/-- THE OUTPUT ARRAY after the region: the node type's update of the arrays the region finds, row by row. -/
theorem value (c : Dev nD) :
    (GenP.dat11 V c).arrAt 9 cfg11.N = Cert.Spec.normArr 10000 (V c main_v494) (V c main_v512) (V c main_v458) (V c main_v598) (V c main_v600)
      (fun k => V c main_v609 (ix2 0 k)) (V c main_v604) (V c main_v606) (fun k => V c main_v610 (ix2 0 k)) :=
  (GenP.dat11 V c).arrAt_eq_of_cover 9 (G V c) (fun t _ => flushed_eq V c t) cover

end Cert.KernelIdeal.Region11

end
-- ==== Proof.StepK3d.lean ====
/-
  The kernel side of one layer, one node type: the region's output array at the layer's exit is the row-by-row
  node update of the arrays the region finds, each read at the contents it is entered with.
-/
import proofs.«141482_j13434657702128_1_alg».proof.Proof.KFold
import proofs.«141482_j13434657702128_1_alg».proof.Proof.Region11

set_option maxRecDepth 16384

noncomputable section

namespace Cert.StepK3d

open Idealize.ShloMosaic Idealize.ShloMosaic.TcCoe Idealize.SL.Sem Idealize.ShloMosaic.StableHlo Idealize.ShloMosaic.ValueIdx
open Cert.KernelIdeal.KFold

set_option maxHeartbeats 4000000 in
theorem kernel (X : Dev Cert.KernelIdeal.nD → Valuation Cert.KernelIdeal.τ Cert.KernelIdeal.sig (Elt Ideal)) (c : Dev Cert.KernelIdeal.nD) :
    A6_3 X c (Proc.devRef .tc Cert.KernelIdeal.main_v611)
    = Cert.Spec.normArr 10000 (A5_3 X c (Proc.devRef .tc Cert.KernelIdeal.main_v494))
        (A5_3 X c (Proc.devRef .tc Cert.KernelIdeal.main_v512))
        (A5_3 X c (Proc.devRef .tc Cert.KernelIdeal.main_v458))
        (A5_3 X c (Proc.devRef .tc Cert.KernelIdeal.main_v598))
        (A5_3 X c (Proc.devRef .tc Cert.KernelIdeal.main_v600))
        (fun k => A5_3 X c (Proc.devRef .tc Cert.KernelIdeal.main_v609) (ix2 0 k))
        (A5_3 X c (Proc.devRef .tc Cert.KernelIdeal.main_v604))
        (A5_3 X c (Proc.devRef .tc Cert.KernelIdeal.main_v606))
        (fun k => A5_3 X c (Proc.devRef .tc Cert.KernelIdeal.main_v610) (ix2 0 k)) := by
  have e11 : A6_3 X c (Proc.devRef .tc Cert.KernelIdeal.main_v611) = (Cert.KernelIdeal.GenP.dat11 (U5_3 X) c).arrAt 9 Cert.KernelIdeal.cfg11.N := A6_3_arr X c 9
  rw [e11, Cert.KernelIdeal.Region11.value]

end Cert.StepK3d

end
-- ==== Proof.StepR3d.lean ====
/-
  The reference side of one layer, one node type: its layer output is the row-by-row node update of nine arrays
  that its own host operations compute (two aggregated arrays, the node type's own features, four weight matrices,
  two bias rows).  The nine are kept as the operations' composed terms, found by running the layer's operations at
  the output once.
-/
import proofs.«141482_j13434657702128_1_alg».proof.Proof.StepR3m
import proofs.«141482_j13434657702128_1_alg».proof.Proof.RefRead
import proofs.«141482_j13434657702128_1_alg».proof.Proof.RefOps3
import proofs.«141482_j13434657702128_1_alg».proof.Proof.FastRead

set_option maxRecDepth 16384

noncomputable section

namespace Cert.StepR3d

open Idealize.ShloMosaic Idealize.ShloMosaic.TcCoe Idealize.SL.Sem Idealize.ShloMosaic.StableHlo Idealize.ShloMosaic.ValueIdx

/-- The nine arrays the reference feeds the node update of this type in this layer, with the fact that its layer
    output is their update. -/
structure RefSide (Y : Valuation Cert.ReferenceIdeal.τ Cert.ReferenceIdeal.sig (Elt Ideal)) where
  a1 : Cert.Spec.Rows 10000
  a2 : Cert.Spec.Rows 10000
  h : Cert.Spec.Rows 10000
  wl1 : Cert.Spec.Mat
  wr1 : Cert.Spec.Mat
  b1 : Fin 128 → EReal
  wl2 : Cert.Spec.Mat
  wr2 : Cert.Spec.Mat
  b2 : Fin 128 → EReal
  eq : after (Cert.ReferenceIdeal.RefOps.R3 (F := Ideal)) Y (Proc.devRef .tc Cert.ReferenceIdeal.main_v779) = Cert.Spec.normArr 10000 a1 a2 h wl1 wr1 b1 wl2 wr2 b2

set_option maxHeartbeats 16000000 in
/-- The reference's nine arrays, read off its operations. -/
def refSide (Y : Valuation Cert.ReferenceIdeal.τ Cert.ReferenceIdeal.sig (Elt Ideal)) : RefSide Y := by
  constructor
  case eq =>
    dsimp only [Cert.ReferenceIdeal.RefOps.R3]
    after_results_fast
    simp only [TRef.toBuf, TRef.ofBuf, cast_eq]
    generalize hA1 : (Host.divf (Host.scatterAdd _ _ _ _) _ : FVec Ideal Cert.ReferenceIdeal.S10000x128 .f32) = A1
    generalize hA2 : (Host.divf (Host.scatterAdd _ _ _ _) _ : FVec Ideal Cert.ReferenceIdeal.S10000x128 .f32) = A2
    rw [Cert.ReferenceIdeal.RefRead.refNorm_10000]
    subst hA1 hA2
    with_reducible rfl

end Cert.StepR3d

end
-- ==== Proof.StepJ3d.lean ====
/-
  One layer, one node type: the kernel program feeds the node update the same nine arrays as the reference.  Each
  aggregated array is the same chain of host operations (gather, scatter-add, division by the clamped count) of
  equal contents, each weight matrix the same slice of the same argument, each bias row the same 128 entries (the
  kernel program holds them as a 1 × 128 array).
-/
import proofs.«141482_j13434657702128_1_alg».proof.Proof.KFold
import proofs.«141482_j13434657702128_1_alg».proof.Proof.StepR3d
import proofs.«141482_j13434657702128_1_alg».proof.Proof.StepLib
import proofs.«141482_j13434657702128_1_alg».proof.Proof.FastRead
import Idealize.ShloMosaic.Lib.ValueLayout

set_option maxRecDepth 16384

noncomputable section

namespace Cert.StepJ3d

open Idealize.ShloMosaic Idealize.ShloMosaic.TcCoe Idealize.SL.Sem Idealize.ShloMosaic.StableHlo Idealize.ShloMosaic.ValueIdx
open Cert.KernelIdeal.KFold

/-- The region's exit contents at a buffer that is none of its arrays, stated for rewriting at any reference. -/
theorem A2_3_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec9 w ≠ b) :
    A2_3 X c (no_index (Proc.devRef .tc b)) = A1_3 X c (Proc.devRef .tc b) := A2_3_of_ne X c b hb

/-- The region's exit contents at a buffer that is none of its arrays, stated for rewriting at any reference. -/
theorem A4_3_of_ne' (X : Dev Cert.KernelIdeal.nD → Valuation Cert.KernelIdeal.τ Cert.KernelIdeal.sig (Elt Ideal)) (c : Dev Cert.KernelIdeal.nD)
    (b : Ref Cert.KernelIdeal.sig .tc) (hb : ∀ w, Pipeline.arrRef Cert.KernelIdeal.spec10 w ≠ b) :
    A4_3 X c (no_index (Proc.devRef .tc b)) = A3_3 X c (Proc.devRef .tc b) := A4_3_of_ne X c b hb

set_option maxHeartbeats 16000000 in
theorem join (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    ((A5_3 X c (Proc.devRef .tc Cert.KernelIdeal.main_v494)) = (Cert.StepR3d.refSide Y).a1)
    ∧ ((A5_3 X c (Proc.devRef .tc Cert.KernelIdeal.main_v512)) = (Cert.StepR3d.refSide Y).a2)
    ∧ ((A5_3 X c (Proc.devRef .tc Cert.KernelIdeal.main_v458)) = (Cert.StepR3d.refSide Y).h)
    ∧ ((A5_3 X c (Proc.devRef .tc Cert.KernelIdeal.main_v598)) = (Cert.StepR3d.refSide Y).wl1)
    ∧ ((A5_3 X c (Proc.devRef .tc Cert.KernelIdeal.main_v600)) = (Cert.StepR3d.refSide Y).wr1)
    ∧ ((fun k => A5_3 X c (Proc.devRef .tc Cert.KernelIdeal.main_v609) (ix2 0 k)) = (Cert.StepR3d.refSide Y).b1)
    ∧ ((A5_3 X c (Proc.devRef .tc Cert.KernelIdeal.main_v604)) = (Cert.StepR3d.refSide Y).wl2)
    ∧ ((A5_3 X c (Proc.devRef .tc Cert.KernelIdeal.main_v606)) = (Cert.StepR3d.refSide Y).wr2)
    ∧ ((fun k => A5_3 X c (Proc.devRef .tc Cert.KernelIdeal.main_v610) (ix2 0 k)) = (Cert.StepR3d.refSide Y).b2) := by
  dsimp only [A5_3, Cert.KernelIdeal.Gen.hostOps11]
  after_results_fast
  simp (disch := decide) only [A4_3_of_ne']
  dsimp only [A3_3, Cert.KernelIdeal.Gen.hostOps10]
  after_results_fast
  simp (disch := decide) only [A2_3_of_ne']
  dsimp only [A1_3, Cert.KernelIdeal.Gen.hostOps9]
  after_results_fast
  simp only [hc, hm, hd, h_arg3, h_arg4, h_arg5, h_arg6, h_arg7, h_arg8, h_arg9, h_arg10, h_arg11, h_arg12, h_arg13, h_arg14, h_arg15, h_arg16, h_arg17]
  try simp only [Cert.StepLib.gather_S10000x128_S400000x1_S400000x128_1_0_n_n_0_1_1128_eq, Cert.StepLib.gather_S10000x128_S800000x1_S800000x128_1_0_n_n_0_1_1128_eq, Cert.StepLib.gather_S30000x128_S400000x1_S400000x128_1_0_n_n_0_1_1128_eq, Cert.StepLib.gather_S30000x128_S800000x1_S800000x128_1_0_n_n_0_1_1128_eq, Cert.StepLib.gather_S50000x128_S800000x1_S800000x128_1_0_n_n_0_1_1128_eq, Cert.StepLib.scatter_S10000x128_S400000x1_S400000x128_1_0_0_1_eq, Cert.StepLib.scatter_S10000x128_S800000x1_S800000x128_1_0_0_1_eq, Cert.StepLib.scatter_S10000x1_S400000x1_S400000x1_1_0_0_1_eq, Cert.StepLib.scatter_S10000x1_S800000x1_S800000x1_1_0_0_1_eq, Cert.StepLib.scatter_S30000x128_S400000x1_S400000x128_1_0_0_1_eq, Cert.StepLib.scatter_S30000x128_S800000x1_S800000x128_1_0_0_1_eq, Cert.StepLib.scatter_S30000x1_S400000x1_S400000x1_1_0_0_1_eq, Cert.StepLib.scatter_S30000x1_S800000x1_S800000x1_1_0_0_1_eq, Cert.StepLib.scatter_S50000x128_S800000x1_S800000x128_1_0_0_1_eq, Cert.StepLib.scatter_S50000x1_S800000x1_S800000x1_1_0_0_1_eq]
  dsimp only [Cert.StepR3d.refSide]
  refine ⟨?_, ?_, ?_, ?_, ?_, ?_, ?_, ?_, ?_⟩
  · rfl
  · rfl
  · rfl
  · rfl
  · rfl
  · funext k; exact shapeCast_a_1a_apply (a := 128) _ _ 0 k
  · rfl
  · rfl
  · funext k; exact shapeCast_a_1a_apply (a := 128) _ _ 0 k

end Cert.StepJ3d

end
-- ==== Proof.Step3d.lean ====
/-
  One layer of the network on both sides, one node type.  From contents that agree on the three node-feature arrays
  and on the index and weight arguments, the kernel program's region of this node type and the reference's host
  operations of the same layer leave equal node-feature arrays: each is the row-by-row node update of nine arrays,
  and the two programs feed it the same nine.
-/
import proofs.«141482_j13434657702128_1_alg».proof.Proof.StepK3d
import proofs.«141482_j13434657702128_1_alg».proof.Proof.StepJ3d

set_option maxRecDepth 16384

noncomputable section

namespace Cert.Step3d

open Idealize.ShloMosaic Idealize.ShloMosaic.TcCoe Idealize.SL.Sem Idealize.ShloMosaic.StableHlo Idealize.ShloMosaic.ValueIdx
open Cert.KernelIdeal.KFold

/-- The row-by-row update of equal arrays, matrices and biases is equal. -/
theorem normArr_congr {n : Nat} {A1 A2 H A1' A2' H' : Cert.Spec.Rows n} {wl1 wr1 wl2 wr2 wl1' wr1' wl2' wr2' : Cert.Spec.Mat}
    {b1 b2 b1' b2' : Fin 128 → EReal}
    (h1 : A1 = A1') (h2 : A2 = A2') (h3 : H = H') (h4 : wl1 = wl1') (h5 : wr1 = wr1') (h6 : b1 = b1')
    (h7 : wl2 = wl2') (h8 : wr2 = wr2') (h9 : b2 = b2') :
    Cert.Spec.normArr n A1 A2 H wl1 wr1 b1 wl2 wr2 b2 = Cert.Spec.normArr n A1' A2' H' wl1' wr1' b1' wl2' wr2' b2' := by
  subst h1 h2 h3 h4 h5 h6 h7 h8 h9; rfl

set_option maxHeartbeats 4000000 in
theorem step (X : Dev Cert.KernelIdeal.nD → Valuation Cert.KernelIdeal.τ Cert.KernelIdeal.sig (Elt Ideal)) (Y : Valuation Cert.ReferenceIdeal.τ Cert.ReferenceIdeal.sig (Elt Ideal)) (c : Dev Cert.KernelIdeal.nD)
    (hc : X c (Proc.devRef .tc Cert.KernelIdeal.main_v428) = Y (Proc.devRef .tc Cert.ReferenceIdeal.main_v573))
    (hm : X c (Proc.devRef .tc Cert.KernelIdeal.main_v443) = Y (Proc.devRef .tc Cert.ReferenceIdeal.main_v574))
    (hd : X c (Proc.devRef .tc Cert.KernelIdeal.main_v458) = Y (Proc.devRef .tc Cert.ReferenceIdeal.main_v575))
    (h_arg3 : X c (Proc.devRef .tc Cert.KernelIdeal.main_arg3) = Y (Proc.devRef .tc Cert.ReferenceIdeal.main_arg3))
    (h_arg4 : X c (Proc.devRef .tc Cert.KernelIdeal.main_arg4) = Y (Proc.devRef .tc Cert.ReferenceIdeal.main_arg4))
    (h_arg5 : X c (Proc.devRef .tc Cert.KernelIdeal.main_arg5) = Y (Proc.devRef .tc Cert.ReferenceIdeal.main_arg5))
    (h_arg6 : X c (Proc.devRef .tc Cert.KernelIdeal.main_arg6) = Y (Proc.devRef .tc Cert.ReferenceIdeal.main_arg6))
    (h_arg7 : X c (Proc.devRef .tc Cert.KernelIdeal.main_arg7) = Y (Proc.devRef .tc Cert.ReferenceIdeal.main_arg7))
    (h_arg8 : X c (Proc.devRef .tc Cert.KernelIdeal.main_arg8) = Y (Proc.devRef .tc Cert.ReferenceIdeal.main_arg8))
    (h_arg9 : X c (Proc.devRef .tc Cert.KernelIdeal.main_arg9) = Y (Proc.devRef .tc Cert.ReferenceIdeal.main_arg9))
    (h_arg10 : X c (Proc.devRef .tc Cert.KernelIdeal.main_arg10) = Y (Proc.devRef .tc Cert.ReferenceIdeal.main_arg10))
    (h_arg11 : X c (Proc.devRef .tc Cert.KernelIdeal.main_arg11) = Y (Proc.devRef .tc Cert.ReferenceIdeal.main_arg11))
    (h_arg12 : X c (Proc.devRef .tc Cert.KernelIdeal.main_arg12) = Y (Proc.devRef .tc Cert.ReferenceIdeal.main_arg12))
    (h_arg13 : X c (Proc.devRef .tc Cert.KernelIdeal.main_arg13) = Y (Proc.devRef .tc Cert.ReferenceIdeal.main_arg13))
    (h_arg14 : X c (Proc.devRef .tc Cert.KernelIdeal.main_arg14) = Y (Proc.devRef .tc Cert.ReferenceIdeal.main_arg14))
    (h_arg15 : X c (Proc.devRef .tc Cert.KernelIdeal.main_arg15) = Y (Proc.devRef .tc Cert.ReferenceIdeal.main_arg15))
    (h_arg16 : X c (Proc.devRef .tc Cert.KernelIdeal.main_arg16) = Y (Proc.devRef .tc Cert.ReferenceIdeal.main_arg16))
    (h_arg17 : X c (Proc.devRef .tc Cert.KernelIdeal.main_arg17) = Y (Proc.devRef .tc Cert.ReferenceIdeal.main_arg17)) :
    A6_3 X c (Proc.devRef .tc Cert.KernelIdeal.main_v611) = after (Cert.ReferenceIdeal.RefOps.R3 (F := Ideal)) Y (Proc.devRef .tc Cert.ReferenceIdeal.main_v779) := by
  obtain ⟨j1, j2, j3, j4, j5, j6, j7, j8, j9⟩ := Cert.StepJ3d.join X Y c hc hm hd h_arg3 h_arg4 h_arg5 h_arg6 h_arg7 h_arg8 h_arg9 h_arg10 h_arg11 h_arg12 h_arg13 h_arg14 h_arg15 h_arg16 h_arg17
  exact (Cert.StepK3d.kernel X c).trans ((normArr_congr j1 j2 j3 j4 j5 j6 j7 j8 j9).trans (Cert.StepR3d.refSide Y).eq.symm)

end Cert.Step3d

end
-- ==== Proof.Chain.lean ====
/-
  The four layers chained.  The kernel program's buffer contents at the end of layer l and the reference's after its
  layer-l operations agree on the three node-feature arrays (the layer step) and on the index and weight arguments
  (neither side writes them); at the launch they agree on all the arguments by hypothesis.  So the three result
  arrays of the kernel program are the reference's.
-/
import proofs.«141482_j13434657702128_1_alg».proof.Proof.KFold
import proofs.«141482_j13434657702128_1_alg».proof.Proof.KCarry0
import proofs.«141482_j13434657702128_1_alg».proof.Proof.KCarry1
import proofs.«141482_j13434657702128_1_alg».proof.Proof.KCarry2
import proofs.«141482_j13434657702128_1_alg».proof.Proof.RefRun
import proofs.«141482_j13434657702128_1_alg».proof.Proof.Step0c
import proofs.«141482_j13434657702128_1_alg».proof.Proof.Step0m
import proofs.«141482_j13434657702128_1_alg».proof.Proof.Step0d
import proofs.«141482_j13434657702128_1_alg».proof.Proof.Step1c
import proofs.«141482_j13434657702128_1_alg».proof.Proof.Step1m
import proofs.«141482_j13434657702128_1_alg».proof.Proof.Step1d
import proofs.«141482_j13434657702128_1_alg».proof.Proof.Step2c
import proofs.«141482_j13434657702128_1_alg».proof.Proof.Step2m
import proofs.«141482_j13434657702128_1_alg».proof.Proof.Step2d
import proofs.«141482_j13434657702128_1_alg».proof.Proof.Step3c
import proofs.«141482_j13434657702128_1_alg».proof.Proof.Step3m
import proofs.«141482_j13434657702128_1_alg».proof.Proof.Step3d

set_option maxRecDepth 16384

noncomputable section

namespace Cert.Chain

open Idealize.ShloMosaic Idealize.ShloMosaic.TcCoe Idealize.SL.Sem Idealize.ShloMosaic.StableHlo
open Cert.KernelIdeal.KFold

set_option maxHeartbeats 4000000 in
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.KernelIdeal.GenP.W24 m g c (Proc.devRef .tc Cert.KernelIdeal.main_v581)
        = after (Cert.ReferenceIdeal.RefOps.R3 (F := Ideal)) (after (Cert.ReferenceIdeal.RefOps.R2 (F := Ideal)) (after (Cert.ReferenceIdeal.RefOps.R1 (F := Ideal)) (after (Cert.ReferenceIdeal.RefOps.R0 (F := Ideal)) (launchContents m' c)))) (Proc.devRef .tc Cert.ReferenceIdeal.main_v769)
    ∧ Cert.KernelIdeal.GenP.W24 m g c (Proc.devRef .tc Cert.KernelIdeal.main_v596)
        = after (Cert.ReferenceIdeal.RefOps.R3 (F := Ideal)) (after (Cert.ReferenceIdeal.RefOps.R2 (F := Ideal)) (after (Cert.ReferenceIdeal.RefOps.R1 (F := Ideal)) (after (Cert.ReferenceIdeal.RefOps.R0 (F := Ideal)) (launchContents m' c)))) (Proc.devRef .tc Cert.ReferenceIdeal.main_v774)
    ∧ Cert.KernelIdeal.GenP.W24 m g c (Proc.devRef .tc Cert.KernelIdeal.main_v611)
        = after (Cert.ReferenceIdeal.RefOps.R3 (F := Ideal)) (after (Cert.ReferenceIdeal.RefOps.R2 (F := Ideal)) (after (Cert.ReferenceIdeal.RefOps.R1 (F := Ideal)) (after (Cert.ReferenceIdeal.RefOps.R0 (F := Ideal)) (launchContents m' c)))) (Proc.devRef .tc Cert.ReferenceIdeal.main_v779) := by
  obtain ⟨a0, a1, a2, a3, a4, a5, a6, a7, a8, a9, a10, a11, a12, a13, a14, a15, a16, a17⟩ := hagree
  have h0_0 : Cert.KernelIdeal.GenP.W0 m g c (Proc.devRef .tc Cert.KernelIdeal.main_arg0) = launchContents m' c (Proc.devRef .tc Cert.ReferenceIdeal.main_arg0) := a0.symm
  have h0_1 : Cert.KernelIdeal.GenP.W0 m g c (Proc.devRef .tc Cert.KernelIdeal.main_arg1) = launchContents m' c (Proc.devRef .tc Cert.ReferenceIdeal.main_arg1) := a1.symm
  have h0_2 : Cert.KernelIdeal.GenP.W0 m g c (Proc.devRef .tc Cert.KernelIdeal.main_arg2) = launchContents m' c (Proc.devRef .tc Cert.ReferenceIdeal.main_arg2) := a2.symm
  have h0_3 : Cert.KernelIdeal.GenP.W0 m g c (Proc.devRef .tc Cert.KernelIdeal.main_arg3) = launchContents m' c (Proc.devRef .tc Cert.ReferenceIdeal.main_arg3) := a3.symm
  have h0_4 : Cert.KernelIdeal.GenP.W0 m g c (Proc.devRef .tc Cert.KernelIdeal.main_arg4) = launchContents m' c (Proc.devRef .tc Cert.ReferenceIdeal.main_arg4) := a4.symm
  have h0_5 : Cert.KernelIdeal.GenP.W0 m g c (Proc.devRef .tc Cert.KernelIdeal.main_arg5) = launchContents m' c (Proc.devRef .tc Cert.ReferenceIdeal.main_arg5) := a5.symm
  have h0_6 : Cert.KernelIdeal.GenP.W0 m g c (Proc.devRef .tc Cert.KernelIdeal.main_arg6) = launchContents m' c (Proc.devRef .tc Cert.ReferenceIdeal.main_arg6) := a6.symm
  have h0_7 : Cert.KernelIdeal.GenP.W0 m g c (Proc.devRef .tc Cert.KernelIdeal.main_arg7) = launchContents m' c (Proc.devRef .tc Cert.ReferenceIdeal.main_arg7) := a7.symm
  have h0_8 : Cert.KernelIdeal.GenP.W0 m g c (Proc.devRef .tc Cert.KernelIdeal.main_arg8) = launchContents m' c (Proc.devRef .tc Cert.ReferenceIdeal.main_arg8) := a8.symm
  have h0_9 : Cert.KernelIdeal.GenP.W0 m g c (Proc.devRef .tc Cert.KernelIdeal.main_arg9) = launchContents m' c (Proc.devRef .tc Cert.ReferenceIdeal.main_arg9) := a9.symm
  have h0_10 : Cert.KernelIdeal.GenP.W0 m g c (Proc.devRef .tc Cert.KernelIdeal.main_arg10) = launchContents m' c (Proc.devRef .tc Cert.ReferenceIdeal.main_arg10) := a10.symm
  have h0_11 : Cert.KernelIdeal.GenP.W0 m g c (Proc.devRef .tc Cert.KernelIdeal.main_arg11) = launchContents m' c (Proc.devRef .tc Cert.ReferenceIdeal.main_arg11) := a11.symm
  have h0_12 : Cert.KernelIdeal.GenP.W0 m g c (Proc.devRef .tc Cert.KernelIdeal.main_arg12) = launchContents m' c (Proc.devRef .tc Cert.ReferenceIdeal.main_arg12) := a12.symm
  have h0_13 : Cert.KernelIdeal.GenP.W0 m g c (Proc.devRef .tc Cert.KernelIdeal.main_arg13) = launchContents m' c (Proc.devRef .tc Cert.ReferenceIdeal.main_arg13) := a13.symm
  have h0_14 : Cert.KernelIdeal.GenP.W0 m g c (Proc.devRef .tc Cert.KernelIdeal.main_arg14) = launchContents m' c (Proc.devRef .tc Cert.ReferenceIdeal.main_arg14) := a14.symm
  have h0_15 : Cert.KernelIdeal.GenP.W0 m g c (Proc.devRef .tc Cert.KernelIdeal.main_arg15) = launchContents m' c (Proc.devRef .tc Cert.ReferenceIdeal.main_arg15) := a15.symm
  have h0_16 : Cert.KernelIdeal.GenP.W0 m g c (Proc.devRef .tc Cert.KernelIdeal.main_arg16) = launchContents m' c (Proc.devRef .tc Cert.ReferenceIdeal.main_arg16) := a16.symm
  have h0_17 : Cert.KernelIdeal.GenP.W0 m g c (Proc.devRef .tc Cert.KernelIdeal.main_arg17) = launchContents m' c (Proc.devRef .tc Cert.ReferenceIdeal.main_arg17) := a17.symm
  have s0c := Cert.Step0c.step (Cert.KernelIdeal.GenP.W0 m g) (launchContents m' c) c h0_0 h0_1 h0_2 h0_3 h0_4 h0_5 h0_6 h0_7 h0_8 h0_9 h0_10 h0_11 h0_12 h0_13 h0_14 h0_15 h0_16 h0_17
  have s0m := Cert.Step0m.step (Cert.KernelIdeal.GenP.W0 m g) (launchContents m' c) c h0_0 h0_1 h0_2 h0_3 h0_4 h0_5 h0_6 h0_7 h0_8 h0_9 h0_10 h0_11 h0_12 h0_13 h0_14 h0_15 h0_16 h0_17
  have s0d := Cert.Step0d.step (Cert.KernelIdeal.GenP.W0 m g) (launchContents m' c) c h0_0 h0_1 h0_2 h0_3 h0_4 h0_5 h0_6 h0_7 h0_8 h0_9 h0_10 h0_11 h0_12 h0_13 h0_14 h0_15 h0_16 h0_17
  have h1_3 := (Cert.KernelIdeal.KCarry0.arg3 (Cert.KernelIdeal.GenP.W0 m g) c).trans (h0_3.trans (Cert.ReferenceIdeal.RefRun.R0_kept_arg3 (launchContents m' c)).symm)
  have h1_4 := (Cert.KernelIdeal.KCarry0.arg4 (Cert.KernelIdeal.GenP.W0 m g) c).trans (h0_4.trans (Cert.ReferenceIdeal.RefRun.R0_kept_arg4 (launchContents m' c)).symm)
  have h1_5 := (Cert.KernelIdeal.KCarry0.arg5 (Cert.KernelIdeal.GenP.W0 m g) c).trans (h0_5.trans (Cert.ReferenceIdeal.RefRun.R0_kept_arg5 (launchContents m' c)).symm)
  have h1_6 := (Cert.KernelIdeal.KCarry0.arg6 (Cert.KernelIdeal.GenP.W0 m g) c).trans (h0_6.trans (Cert.ReferenceIdeal.RefRun.R0_kept_arg6 (launchContents m' c)).symm)
  have h1_7 := (Cert.KernelIdeal.KCarry0.arg7 (Cert.KernelIdeal.GenP.W0 m g) c).trans (h0_7.trans (Cert.ReferenceIdeal.RefRun.R0_kept_arg7 (launchContents m' c)).symm)
  have h1_8 := (Cert.KernelIdeal.KCarry0.arg8 (Cert.KernelIdeal.GenP.W0 m g) c).trans (h0_8.trans (Cert.ReferenceIdeal.RefRun.R0_kept_arg8 (launchContents m' c)).symm)
  have h1_9 := (Cert.KernelIdeal.KCarry0.arg9 (Cert.KernelIdeal.GenP.W0 m g) c).trans (h0_9.trans (Cert.ReferenceIdeal.RefRun.R0_kept_arg9 (launchContents m' c)).symm)
  have h1_10 := (Cert.KernelIdeal.KCarry0.arg10 (Cert.KernelIdeal.GenP.W0 m g) c).trans (h0_10.trans (Cert.ReferenceIdeal.RefRun.R0_kept_arg10 (launchContents m' c)).symm)
  have h1_11 := (Cert.KernelIdeal.KCarry0.arg11 (Cert.KernelIdeal.GenP.W0 m g) c).trans (h0_11.trans (Cert.ReferenceIdeal.RefRun.R0_kept_arg11 (launchContents m' c)).symm)
  have h1_12 := (Cert.KernelIdeal.KCarry0.arg12 (Cert.KernelIdeal.GenP.W0 m g) c).trans (h0_12.trans (Cert.ReferenceIdeal.RefRun.R0_kept_arg12 (launchContents m' c)).symm)
  have h1_13 := (Cert.KernelIdeal.KCarry0.arg13 (Cert.KernelIdeal.GenP.W0 m g) c).trans (h0_13.trans (Cert.ReferenceIdeal.RefRun.R0_kept_arg13 (launchContents m' c)).symm)
  have h1_14 := (Cert.KernelIdeal.KCarry0.arg14 (Cert.KernelIdeal.GenP.W0 m g) c).trans (h0_14.trans (Cert.ReferenceIdeal.RefRun.R0_kept_arg14 (launchContents m' c)).symm)
  have h1_15 := (Cert.KernelIdeal.KCarry0.arg15 (Cert.KernelIdeal.GenP.W0 m g) c).trans (h0_15.trans (Cert.ReferenceIdeal.RefRun.R0_kept_arg15 (launchContents m' c)).symm)
  have h1_16 := (Cert.KernelIdeal.KCarry0.arg16 (Cert.KernelIdeal.GenP.W0 m g) c).trans (h0_16.trans (Cert.ReferenceIdeal.RefRun.R0_kept_arg16 (launchContents m' c)).symm)
  have h1_17 := (Cert.KernelIdeal.KCarry0.arg17 (Cert.KernelIdeal.GenP.W0 m g) c).trans (h0_17.trans (Cert.ReferenceIdeal.RefRun.R0_kept_arg17 (launchContents m' c)).symm)
  have s1c := Cert.Step1c.step (A6_0 (Cert.KernelIdeal.GenP.W0 m g)) (after (Cert.ReferenceIdeal.RefOps.R0 (F := Ideal)) (launchContents m' c)) c s0c s0m s0d h1_3 h1_4 h1_5 h1_6 h1_7 h1_8 h1_9 h1_10 h1_11 h1_12 h1_13 h1_14 h1_15 h1_16 h1_17
  have s1m := Cert.Step1m.step (A6_0 (Cert.KernelIdeal.GenP.W0 m g)) (after (Cert.ReferenceIdeal.RefOps.R0 (F := Ideal)) (launchContents m' c)) c s0c s0m s0d h1_3 h1_4 h1_5 h1_6 h1_7 h1_8 h1_9 h1_10 h1_11 h1_12 h1_13 h1_14 h1_15 h1_16 h1_17
  have s1d := Cert.Step1d.step (A6_0 (Cert.KernelIdeal.GenP.W0 m g)) (after (Cert.ReferenceIdeal.RefOps.R0 (F := Ideal)) (launchContents m' c)) c s0c s0m s0d h1_3 h1_4 h1_5 h1_6 h1_7 h1_8 h1_9 h1_10 h1_11 h1_12 h1_13 h1_14 h1_15 h1_16 h1_17
  have h2_3 := (Cert.KernelIdeal.KCarry1.arg3 (A6_0 (Cert.KernelIdeal.GenP.W0 m g)) c).trans (h1_3.trans (Cert.ReferenceIdeal.RefRun.R1_kept_arg3 (after (Cert.ReferenceIdeal.RefOps.R0 (F := Ideal)) (launchContents m' c))).symm)
  have h2_4 := (Cert.KernelIdeal.KCarry1.arg4 (A6_0 (Cert.KernelIdeal.GenP.W0 m g)) c).trans (h1_4.trans (Cert.ReferenceIdeal.RefRun.R1_kept_arg4 (after (Cert.ReferenceIdeal.RefOps.R0 (F := Ideal)) (launchContents m' c))).symm)
  have h2_5 := (Cert.KernelIdeal.KCarry1.arg5 (A6_0 (Cert.KernelIdeal.GenP.W0 m g)) c).trans (h1_5.trans (Cert.ReferenceIdeal.RefRun.R1_kept_arg5 (after (Cert.ReferenceIdeal.RefOps.R0 (F := Ideal)) (launchContents m' c))).symm)
  have h2_6 := (Cert.KernelIdeal.KCarry1.arg6 (A6_0 (Cert.KernelIdeal.GenP.W0 m g)) c).trans (h1_6.trans (Cert.ReferenceIdeal.RefRun.R1_kept_arg6 (after (Cert.ReferenceIdeal.RefOps.R0 (F := Ideal)) (launchContents m' c))).symm)
  have h2_7 := (Cert.KernelIdeal.KCarry1.arg7 (A6_0 (Cert.KernelIdeal.GenP.W0 m g)) c).trans (h1_7.trans (Cert.ReferenceIdeal.RefRun.R1_kept_arg7 (after (Cert.ReferenceIdeal.RefOps.R0 (F := Ideal)) (launchContents m' c))).symm)
  have h2_8 := (Cert.KernelIdeal.KCarry1.arg8 (A6_0 (Cert.KernelIdeal.GenP.W0 m g)) c).trans (h1_8.trans (Cert.ReferenceIdeal.RefRun.R1_kept_arg8 (after (Cert.ReferenceIdeal.RefOps.R0 (F := Ideal)) (launchContents m' c))).symm)
  have h2_9 := (Cert.KernelIdeal.KCarry1.arg9 (A6_0 (Cert.KernelIdeal.GenP.W0 m g)) c).trans (h1_9.trans (Cert.ReferenceIdeal.RefRun.R1_kept_arg9 (after (Cert.ReferenceIdeal.RefOps.R0 (F := Ideal)) (launchContents m' c))).symm)
  have h2_10 := (Cert.KernelIdeal.KCarry1.arg10 (A6_0 (Cert.KernelIdeal.GenP.W0 m g)) c).trans (h1_10.trans (Cert.ReferenceIdeal.RefRun.R1_kept_arg10 (after (Cert.ReferenceIdeal.RefOps.R0 (F := Ideal)) (launchContents m' c))).symm)
  have h2_11 := (Cert.KernelIdeal.KCarry1.arg11 (A6_0 (Cert.KernelIdeal.GenP.W0 m g)) c).trans (h1_11.trans (Cert.ReferenceIdeal.RefRun.R1_kept_arg11 (after (Cert.ReferenceIdeal.RefOps.R0 (F := Ideal)) (launchContents m' c))).symm)
  have h2_12 := (Cert.KernelIdeal.KCarry1.arg12 (A6_0 (Cert.KernelIdeal.GenP.W0 m g)) c).trans (h1_12.trans (Cert.ReferenceIdeal.RefRun.R1_kept_arg12 (after (Cert.ReferenceIdeal.RefOps.R0 (F := Ideal)) (launchContents m' c))).symm)
  have h2_13 := (Cert.KernelIdeal.KCarry1.arg13 (A6_0 (Cert.KernelIdeal.GenP.W0 m g)) c).trans (h1_13.trans (Cert.ReferenceIdeal.RefRun.R1_kept_arg13 (after (Cert.ReferenceIdeal.RefOps.R0 (F := Ideal)) (launchContents m' c))).symm)
  have h2_14 := (Cert.KernelIdeal.KCarry1.arg14 (A6_0 (Cert.KernelIdeal.GenP.W0 m g)) c).trans (h1_14.trans (Cert.ReferenceIdeal.RefRun.R1_kept_arg14 (after (Cert.ReferenceIdeal.RefOps.R0 (F := Ideal)) (launchContents m' c))).symm)
  have h2_15 := (Cert.KernelIdeal.KCarry1.arg15 (A6_0 (Cert.KernelIdeal.GenP.W0 m g)) c).trans (h1_15.trans (Cert.ReferenceIdeal.RefRun.R1_kept_arg15 (after (Cert.ReferenceIdeal.RefOps.R0 (F := Ideal)) (launchContents m' c))).symm)
  have h2_16 := (Cert.KernelIdeal.KCarry1.arg16 (A6_0 (Cert.KernelIdeal.GenP.W0 m g)) c).trans (h1_16.trans (Cert.ReferenceIdeal.RefRun.R1_kept_arg16 (after (Cert.ReferenceIdeal.RefOps.R0 (F := Ideal)) (launchContents m' c))).symm)
  have h2_17 := (Cert.KernelIdeal.KCarry1.arg17 (A6_0 (Cert.KernelIdeal.GenP.W0 m g)) c).trans (h1_17.trans (Cert.ReferenceIdeal.RefRun.R1_kept_arg17 (after (Cert.ReferenceIdeal.RefOps.R0 (F := Ideal)) (launchContents m' c))).symm)
  have s2c := Cert.Step2c.step (A6_1 (A6_0 (Cert.KernelIdeal.GenP.W0 m g))) (after (Cert.ReferenceIdeal.RefOps.R1 (F := Ideal)) (after (Cert.ReferenceIdeal.RefOps.R0 (F := Ideal)) (launchContents m' c))) c s1c s1m s1d h2_3 h2_4 h2_5 h2_6 h2_7 h2_8 h2_9 h2_10 h2_11 h2_12 h2_13 h2_14 h2_15 h2_16 h2_17
  have s2m := Cert.Step2m.step (A6_1 (A6_0 (Cert.KernelIdeal.GenP.W0 m g))) (after (Cert.ReferenceIdeal.RefOps.R1 (F := Ideal)) (after (Cert.ReferenceIdeal.RefOps.R0 (F := Ideal)) (launchContents m' c))) c s1c s1m s1d h2_3 h2_4 h2_5 h2_6 h2_7 h2_8 h2_9 h2_10 h2_11 h2_12 h2_13 h2_14 h2_15 h2_16 h2_17
  have s2d := Cert.Step2d.step (A6_1 (A6_0 (Cert.KernelIdeal.GenP.W0 m g))) (after (Cert.ReferenceIdeal.RefOps.R1 (F := Ideal)) (after (Cert.ReferenceIdeal.RefOps.R0 (F := Ideal)) (launchContents m' c))) c s1c s1m s1d h2_3 h2_4 h2_5 h2_6 h2_7 h2_8 h2_9 h2_10 h2_11 h2_12 h2_13 h2_14 h2_15 h2_16 h2_17
  have h3_3 := (Cert.KernelIdeal.KCarry2.arg3 (A6_1 (A6_0 (Cert.KernelIdeal.GenP.W0 m g))) c).trans (h2_3.trans (Cert.ReferenceIdeal.RefRun.R2_kept_arg3 (after (Cert.ReferenceIdeal.RefOps.R1 (F := Ideal)) (after (Cert.ReferenceIdeal.RefOps.R0 (F := Ideal)) (launchContents m' c)))).symm)
  have h3_4 := (Cert.KernelIdeal.KCarry2.arg4 (A6_1 (A6_0 (Cert.KernelIdeal.GenP.W0 m g))) c).trans (h2_4.trans (Cert.ReferenceIdeal.RefRun.R2_kept_arg4 (after (Cert.ReferenceIdeal.RefOps.R1 (F := Ideal)) (after (Cert.ReferenceIdeal.RefOps.R0 (F := Ideal)) (launchContents m' c)))).symm)
  have h3_5 := (Cert.KernelIdeal.KCarry2.arg5 (A6_1 (A6_0 (Cert.KernelIdeal.GenP.W0 m g))) c).trans (h2_5.trans (Cert.ReferenceIdeal.RefRun.R2_kept_arg5 (after (Cert.ReferenceIdeal.RefOps.R1 (F := Ideal)) (after (Cert.ReferenceIdeal.RefOps.R0 (F := Ideal)) (launchContents m' c)))).symm)
  have h3_6 := (Cert.KernelIdeal.KCarry2.arg6 (A6_1 (A6_0 (Cert.KernelIdeal.GenP.W0 m g))) c).trans (h2_6.trans (Cert.ReferenceIdeal.RefRun.R2_kept_arg6 (after (Cert.ReferenceIdeal.RefOps.R1 (F := Ideal)) (after (Cert.ReferenceIdeal.RefOps.R0 (F := Ideal)) (launchContents m' c)))).symm)
  have h3_7 := (Cert.KernelIdeal.KCarry2.arg7 (A6_1 (A6_0 (Cert.KernelIdeal.GenP.W0 m g))) c).trans (h2_7.trans (Cert.ReferenceIdeal.RefRun.R2_kept_arg7 (after (Cert.ReferenceIdeal.RefOps.R1 (F := Ideal)) (after (Cert.ReferenceIdeal.RefOps.R0 (F := Ideal)) (launchContents m' c)))).symm)
  have h3_8 := (Cert.KernelIdeal.KCarry2.arg8 (A6_1 (A6_0 (Cert.KernelIdeal.GenP.W0 m g))) c).trans (h2_8.trans (Cert.ReferenceIdeal.RefRun.R2_kept_arg8 (after (Cert.ReferenceIdeal.RefOps.R1 (F := Ideal)) (after (Cert.ReferenceIdeal.RefOps.R0 (F := Ideal)) (launchContents m' c)))).symm)
  have h3_9 := (Cert.KernelIdeal.KCarry2.arg9 (A6_1 (A6_0 (Cert.KernelIdeal.GenP.W0 m g))) c).trans (h2_9.trans (Cert.ReferenceIdeal.RefRun.R2_kept_arg9 (after (Cert.ReferenceIdeal.RefOps.R1 (F := Ideal)) (after (Cert.ReferenceIdeal.RefOps.R0 (F := Ideal)) (launchContents m' c)))).symm)
  have h3_10 := (Cert.KernelIdeal.KCarry2.arg10 (A6_1 (A6_0 (Cert.KernelIdeal.GenP.W0 m g))) c).trans (h2_10.trans (Cert.ReferenceIdeal.RefRun.R2_kept_arg10 (after (Cert.ReferenceIdeal.RefOps.R1 (F := Ideal)) (after (Cert.ReferenceIdeal.RefOps.R0 (F := Ideal)) (launchContents m' c)))).symm)
  have h3_11 := (Cert.KernelIdeal.KCarry2.arg11 (A6_1 (A6_0 (Cert.KernelIdeal.GenP.W0 m g))) c).trans (h2_11.trans (Cert.ReferenceIdeal.RefRun.R2_kept_arg11 (after (Cert.ReferenceIdeal.RefOps.R1 (F := Ideal)) (after (Cert.ReferenceIdeal.RefOps.R0 (F := Ideal)) (launchContents m' c)))).symm)
  have h3_12 := (Cert.KernelIdeal.KCarry2.arg12 (A6_1 (A6_0 (Cert.KernelIdeal.GenP.W0 m g))) c).trans (h2_12.trans (Cert.ReferenceIdeal.RefRun.R2_kept_arg12 (after (Cert.ReferenceIdeal.RefOps.R1 (F := Ideal)) (after (Cert.ReferenceIdeal.RefOps.R0 (F := Ideal)) (launchContents m' c)))).symm)
  have h3_13 := (Cert.KernelIdeal.KCarry2.arg13 (A6_1 (A6_0 (Cert.KernelIdeal.GenP.W0 m g))) c).trans (h2_13.trans (Cert.ReferenceIdeal.RefRun.R2_kept_arg13 (after (Cert.ReferenceIdeal.RefOps.R1 (F := Ideal)) (after (Cert.ReferenceIdeal.RefOps.R0 (F := Ideal)) (launchContents m' c)))).symm)
  have h3_14 := (Cert.KernelIdeal.KCarry2.arg14 (A6_1 (A6_0 (Cert.KernelIdeal.GenP.W0 m g))) c).trans (h2_14.trans (Cert.ReferenceIdeal.RefRun.R2_kept_arg14 (after (Cert.ReferenceIdeal.RefOps.R1 (F := Ideal)) (after (Cert.ReferenceIdeal.RefOps.R0 (F := Ideal)) (launchContents m' c)))).symm)
  have h3_15 := (Cert.KernelIdeal.KCarry2.arg15 (A6_1 (A6_0 (Cert.KernelIdeal.GenP.W0 m g))) c).trans (h2_15.trans (Cert.ReferenceIdeal.RefRun.R2_kept_arg15 (after (Cert.ReferenceIdeal.RefOps.R1 (F := Ideal)) (after (Cert.ReferenceIdeal.RefOps.R0 (F := Ideal)) (launchContents m' c)))).symm)
  have h3_16 := (Cert.KernelIdeal.KCarry2.arg16 (A6_1 (A6_0 (Cert.KernelIdeal.GenP.W0 m g))) c).trans (h2_16.trans (Cert.ReferenceIdeal.RefRun.R2_kept_arg16 (after (Cert.ReferenceIdeal.RefOps.R1 (F := Ideal)) (after (Cert.ReferenceIdeal.RefOps.R0 (F := Ideal)) (launchContents m' c)))).symm)
  have h3_17 := (Cert.KernelIdeal.KCarry2.arg17 (A6_1 (A6_0 (Cert.KernelIdeal.GenP.W0 m g))) c).trans (h2_17.trans (Cert.ReferenceIdeal.RefRun.R2_kept_arg17 (after (Cert.ReferenceIdeal.RefOps.R1 (F := Ideal)) (after (Cert.ReferenceIdeal.RefOps.R0 (F := Ideal)) (launchContents m' c)))).symm)
  have s3c := Cert.Step3c.step (A6_2 (A6_1 (A6_0 (Cert.KernelIdeal.GenP.W0 m g)))) (after (Cert.ReferenceIdeal.RefOps.R2 (F := Ideal)) (after (Cert.ReferenceIdeal.RefOps.R1 (F := Ideal)) (after (Cert.ReferenceIdeal.RefOps.R0 (F := Ideal)) (launchContents m' c)))) c s2c s2m s2d h3_3 h3_4 h3_5 h3_6 h3_7 h3_8 h3_9 h3_10 h3_11 h3_12 h3_13 h3_14 h3_15 h3_16 h3_17
  have s3m := Cert.Step3m.step (A6_2 (A6_1 (A6_0 (Cert.KernelIdeal.GenP.W0 m g)))) (after (Cert.ReferenceIdeal.RefOps.R2 (F := Ideal)) (after (Cert.ReferenceIdeal.RefOps.R1 (F := Ideal)) (after (Cert.ReferenceIdeal.RefOps.R0 (F := Ideal)) (launchContents m' c)))) c s2c s2m s2d h3_3 h3_4 h3_5 h3_6 h3_7 h3_8 h3_9 h3_10 h3_11 h3_12 h3_13 h3_14 h3_15 h3_16 h3_17
  have s3d := Cert.Step3d.step (A6_2 (A6_1 (A6_0 (Cert.KernelIdeal.GenP.W0 m g)))) (after (Cert.ReferenceIdeal.RefOps.R2 (F := Ideal)) (after (Cert.ReferenceIdeal.RefOps.R1 (F := Ideal)) (after (Cert.ReferenceIdeal.RefOps.R0 (F := Ideal)) (launchContents m' c)))) c s2c s2m s2d h3_3 h3_4 h3_5 h3_6 h3_7 h3_8 h3_9 h3_10 h3_11 h3_12 h3_13 h3_14 h3_15 h3_16 h3_17
  rw [Cert.KernelIdeal.KFold.W24_eq, Cert.KernelIdeal.KFold.W18_eq, Cert.KernelIdeal.KFold.W12_eq, Cert.KernelIdeal.KFold.W6_eq]
  exact ⟨s3c, s3m, s3d⟩

end Cert.Chain

end
-- ==== Proof.lean ====
/-
  The certificate's five claims for a four-layer heterogeneous GraphSAGE network.

  The kernel program computes each layer's gather and segment-mean aggregations with host operations and each
  node type's update (two linear terms averaged, then a clamp at zero or, in the last layer, a division by the
  row's Euclidean norm) in a pipelined region over blocks of 2000 rows; the reference computes the same with host
  operations on whole arrays.  On the extended reals the two agree: a block matrix product into a zero accumulator
  and the host's dot are the same sum over the contracted axis, rounding to bf16 is the identity, every entry of an
  update depends on one row of each row-indexed input (so blocks and whole arrays give the same rows), and the
  aggregations are the same host operations of equal arrays.  No law beyond commutativity of the product with one
  half is used, so the precondition (finite inputs) is never opened.

  The frames of the two kernel programs are the generated frame certificates (their patched copies); the
  reference's frame and run are read off its straight line of host operations; the idealization ledger is empty.
-/
import proofs.«141482_j13434657702128_1_alg».proof.Defs
import proofs.«141482_j13434657702128_1_alg».proof.Proof.Gen.Kernel
import proofs.«141482_j13434657702128_1_alg».proof.Proof.Gen.KernelIdeal
import proofs.«141482_j13434657702128_1_alg».proof.Proof.Gen.ReferenceIdeal
import proofs.«141482_j13434657702128_1_alg».proof.Proof.Gen.Pre_finite_inputs
import proofs.«141482_j13434657702128_1_alg».proof.Proof.FrameK
import proofs.«141482_j13434657702128_1_alg».proof.Proof.FrameKI
import proofs.«141482_j13434657702128_1_alg».proof.Proof.KRun
import proofs.«141482_j13434657702128_1_alg».proof.Proof.RefRun
import proofs.«141482_j13434657702128_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => Cert.ReferenceIdeal.RefRun.frame m ρ

/-- Both idealized programs run; the kernel program's three result arrays are what its last boundary contents
    hold there, and the reference's end at the same arrays by the chain of the four layers. -/
theorem algebraic : @Cert.algebraic_KernelIdeal_ReferenceIdeal Cert.KernelIdeal.Gen.facts Cert.ReferenceIdeal.Gen.facts Cert.Pre_finite_inputs.Gen.facts := by
  intro m g m' g' _ hagree
  refine ⟨fun c => Cert.KernelIdeal.GenP.W24 m g c (Proc.devRef .tc Cert.KernelIdeal.main_v581),
    fun c => Cert.KernelIdeal.GenP.W24 m g c (Proc.devRef .tc Cert.KernelIdeal.main_v596),
    fun c => Cert.KernelIdeal.GenP.W24 m g c (Proc.devRef .tc Cert.KernelIdeal.main_v611),
    Cert.KernelIdeal.KRun.run_results m g, ?_⟩
  refine (θ_run Cert.ReferenceIdeal.defs _ _).mono (fun r h c => ?_) (Cert.ReferenceIdeal.RefRun.run (F := Ideal) m' g')
  have hres := Cert.Chain.results m g m' c (hagree c)
  exact ⟨(h c Cert.ReferenceIdeal.main_v769).trans hres.1.symm, (h c Cert.ReferenceIdeal.main_v774).trans hres.2.1.symm,
    (h c Cert.ReferenceIdeal.main_v779).trans hres.2.2.symm,
    (h c Cert.ReferenceIdeal.main_arg0).trans (Cert.ReferenceIdeal.RefRun.kept_arg0 m' c),
    (h c Cert.ReferenceIdeal.main_arg1).trans (Cert.ReferenceIdeal.RefRun.kept_arg1 m' c),
    (h c Cert.ReferenceIdeal.main_arg2).trans (Cert.ReferenceIdeal.RefRun.kept_arg2 m' c),
    (h c Cert.ReferenceIdeal.main_arg3).trans (Cert.ReferenceIdeal.RefRun.kept_arg3 m' c),
    (h c Cert.ReferenceIdeal.main_arg4).trans (Cert.ReferenceIdeal.RefRun.kept_arg4 m' c),
    (h c Cert.ReferenceIdeal.main_arg5).trans (Cert.ReferenceIdeal.RefRun.kept_arg5 m' c),
    (h c Cert.ReferenceIdeal.main_arg6).trans (Cert.ReferenceIdeal.RefRun.kept_arg6 m' c),
    (h c Cert.ReferenceIdeal.main_arg7).trans (Cert.ReferenceIdeal.RefRun.kept_arg7 m' c),
    (h c Cert.ReferenceIdeal.main_arg8).trans (Cert.ReferenceIdeal.RefRun.kept_arg8 m' c),
    (h c Cert.ReferenceIdeal.main_arg9).trans (Cert.ReferenceIdeal.RefRun.kept_arg9 m' c),
    (h c Cert.ReferenceIdeal.main_arg10).trans (Cert.ReferenceIdeal.RefRun.kept_arg10 m' c),
    (h c Cert.ReferenceIdeal.main_arg11).trans (Cert.ReferenceIdeal.RefRun.kept_arg11 m' c),
    (h c Cert.ReferenceIdeal.main_arg12).trans (Cert.ReferenceIdeal.RefRun.kept_arg12 m' c),
    (h c Cert.ReferenceIdeal.main_arg13).trans (Cert.ReferenceIdeal.RefRun.kept_arg13 m' c),
    (h c Cert.ReferenceIdeal.main_arg14).trans (Cert.ReferenceIdeal.RefRun.kept_arg14 m' c),
    (h c Cert.ReferenceIdeal.main_arg15).trans (Cert.ReferenceIdeal.RefRun.kept_arg15 m' c),
    (h c Cert.ReferenceIdeal.main_arg16).trans (Cert.ReferenceIdeal.RefRun.kept_arg16 m' c),
    (h c Cert.ReferenceIdeal.main_arg17).trans (Cert.ReferenceIdeal.RefRun.kept_arg17 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
